-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v1025)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1025) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1082) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x3 : Shape := ⟨2, ![500000, 3]⟩
abbrev S8x128x128 : Shape := ⟨3, ![8, 128, 128]⟩
abbrev S24x168 : Shape := ⟨2, ![24, 168]⟩
abbrev S168 : Shape := ⟨1, ![168]⟩
abbrev S168x168 : Shape := ⟨2, ![168, 168]⟩
abbrev S168x35 : Shape := ⟨2, ![168, 35]⟩
abbrev S35 : Shape := ⟨1, ![35]⟩
abbrev S8x256x256 : Shape := ⟨3, ![8, 256, 256]⟩
abbrev S8x512x512 : Shape := ⟨3, ![8, 512, 512]⟩
abbrev S_ : Shape := ⟨0, ![]⟩

class Facts : Prop where
  bcast_S_S500000x3 : S_.BroadcastsInDim S500000x3 (![] : Fin 0 → Fin S500000x3.rank)
  reducesTo_S500000x3_S_d0_1 : S500000x3.ReducesTo [0, 1] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_
  bcast_S_S24x168 : S_.BroadcastsInDim S24x168 (![] : Fin 0 → Fin S24x168.rank)
  reducesTo_S24x168_S_d0_1 : S24x168.ReducesTo [0, 1] S_
  bcast_S_S168 : S_.BroadcastsInDim S168 (![] : Fin 0 → Fin S168.rank)
  reducesTo_S168_S_d0 : S168.ReducesTo [0] S_
  bcast_S_S168x168 : S_.BroadcastsInDim S168x168 (![] : Fin 0 → Fin S168x168.rank)
  reducesTo_S168x168_S_d0_1 : S168x168.ReducesTo [0, 1] S_
  bcast_S_S168x35 : S_.BroadcastsInDim S168x35 (![] : Fin 0 → Fin S168x35.rank)
  reducesTo_S168x35_S_d0_1 : S168x35.ReducesTo [0, 1] S_
  bcast_S_S35 : S_.BroadcastsInDim S35 (![] : Fin 0 → Fin S35.rank)
  reducesTo_S35_S_d0 : S35.ReducesTo [0] S_
  bcast_S_S8x256x256 : S_.BroadcastsInDim S8x256x256 (![] : Fin 0 → Fin S8x256x256.rank)
  reducesTo_S8x256x256_S_d0_1_2 : S8x256x256.ReducesTo [0, 1, 2] S_
  bcast_S_S8x512x512 : S_.BroadcastsInDim S8x512x512 (![] : Fin 0 → Fin S8x512x512.rank)
  reducesTo_S8x512x512_S_d0_1_2 : S8x512x512.ReducesTo [0, 1, 2] S_

variable [Facts]

def fn_part8 {F : FTy → Type} [FloatOps F] (main_v133 : IVec S_ 1) (main_v136 : IVec S35 1) : IVec S_ 1 :=
  let main_c_53 : IVec S_ 1 := constantI S_ 1 1#1
  let main_v137 : IVec S_ 1 := (fun x v => Host.reduce IntOp.andi x v reducesTo_S35_S_d0 h_S_) main_v136 main_c_53
  let main_v138 : IVec S_ 1 := andi main_v133 main_v137
  main_v138

def fn_part7 {F : FTy → Type} [FloatOps F] (main_arg25 : FVec F S168 .f32) (main_arg26 : FVec F S168x35 .f32) (main_arg27 : FVec F S35 .f32) (main_v118 : IVec S_ 1) (main_v119 : FVec F S168x168 .f32) : IVec S_ 1 :=
  let main_cst_46 : FVec F S_ .f32 := constant S_ .f32 0x7F800000#32
  let main_v120 : FVec F S168x168 .f32 := broadcastInDim S168x168 ![] bcast_S_S168x168 main_cst_46
  let main_v121 : IVec S168x168 1 := cmpf .olt main_v119 main_v120
  let main_c_47 : IVec S_ 1 := constantI S_ 1 1#1
  let main_v122 : IVec S_ 1 := (fun x v => Host.reduce IntOp.andi x v reducesTo_S168x168_S_d0_1 h_S_) main_v121 main_c_47
  let main_v123 : IVec S_ 1 := andi main_v118 main_v122
  let main_v124 : FVec F S168 .f32 := Host.absf main_arg25
  let main_cst_48 : FVec F S_ .f32 := constant S_ .f32 0x7F800000#32
  let main_v125 : FVec F S168 .f32 := broadcastInDim S168 ![] bcast_S_S168 main_cst_48
  let main_v126 : IVec S168 1 := cmpf .olt main_v124 main_v125
  let main_c_49 : IVec S_ 1 := constantI S_ 1 1#1
  let main_v127 : IVec S_ 1 := (fun x v => Host.reduce IntOp.andi x v reducesTo_S168_S_d0 h_S_) main_v126 main_c_49
  let main_v128 : IVec S_ 1 := andi main_v123 main_v127
  let main_v129 : FVec F S168x35 .f32 := Host.absf main_arg26
  let main_cst_50 : FVec F S_ .f32 := constant S_ .f32 0x7F800000#32
  let main_v130 : FVec F S168x35 .f32 := broadcastInDim S168x35 ![] bcast_S_S168x35 main_cst_50
  let main_v131 : IVec S168x35 1 := cmpf .olt main_v129 main_v130
  let main_c_51 : IVec S_ 1 := constantI S_ 1 1#1
  let main_v132 : IVec S_ 1 := (fun x v => Host.reduce IntOp.andi x v reducesTo_S168x35_S_d0_1 h_S_) main_v131 main_c_51
  let main_v133 : IVec S_ 1 := andi main_v128 main_v132
  let main_v134 : FVec F S35 .f32 := Host.absf main_arg27
  let main_cst_52 : FVec F S_ .f32 := constant S_ .f32 0x7F800000#32
  let main_v135 : FVec F S35 .f32 := broadcastInDim S35 ![] bcast_S_S35 main_cst_52
  let main_v136 : IVec S35 1 := cmpf .olt main_v134 main_v135
  fn_part8 (F := F) main_v133 main_v136

def fn_part6 {F : FTy → Type} [FloatOps F] (main_arg21 : FVec F S8x512x512 .f32) (main_arg22 : FVec F S24x168 .f32) (main_arg23 : FVec F S168 .f32) (main_arg24 : FVec F S168x168 .f32) (main_arg25 : FVec F S168 .f32) (main_arg26 : FVec F S168x35 .f32) (main_arg27 : FVec F S35 .f32) (main_v98 : IVec S_ 1) (main_v101 : IVec S8x512x512 1) (main_c_39 : IVec S_ 1) : IVec S_ 1 :=
  let main_v102 : IVec S_ 1 := (fun x v => Host.reduce IntOp.andi x v reducesTo_S8x512x512_S_d0_1_2 h_S_) main_v101 main_c_39
  let main_v103 : IVec S_ 1 := andi main_v98 main_v102
  let main_v104 : FVec F S8x512x512 .f32 := Host.absf main_arg21
  let main_cst_40 : FVec F S_ .f32 := constant S_ .f32 0x7F800000#32
  let main_v105 : FVec F S8x512x512 .f32 := broadcastInDim S8x512x512 ![] bcast_S_S8x512x512 main_cst_40
  let main_v106 : IVec S8x512x512 1 := cmpf .olt main_v104 main_v105
  let main_c_41 : IVec S_ 1 := constantI S_ 1 1#1
  let main_v107 : IVec S_ 1 := (fun x v => Host.reduce IntOp.andi x v reducesTo_S8x512x512_S_d0_1_2 h_S_) main_v106 main_c_41
  let main_v108 : IVec S_ 1 := andi main_v103 main_v107
  let main_v109 : FVec F S24x168 .f32 := Host.absf main_arg22
  let main_cst_42 : FVec F S_ .f32 := constant S_ .f32 0x7F800000#32
  let main_v110 : FVec F S24x168 .f32 := broadcastInDim S24x168 ![] bcast_S_S24x168 main_cst_42
  let main_v111 : IVec S24x168 1 := cmpf .olt main_v109 main_v110
  let main_c_43 : IVec S_ 1 := constantI S_ 1 1#1
  let main_v112 : IVec S_ 1 := (fun x v => Host.reduce IntOp.andi x v reducesTo_S24x168_S_d0_1 h_S_) main_v111 main_c_43
  let main_v113 : IVec S_ 1 := andi main_v108 main_v112
  let main_v114 : FVec F S168 .f32 := Host.absf main_arg23
  let main_cst_44 : FVec F S_ .f32 := constant S_ .f32 0x7F800000#32
  let main_v115 : FVec F S168 .f32 := broadcastInDim S168 ![] bcast_S_S168 main_cst_44
  let main_v116 : IVec S168 1 := cmpf .olt main_v114 main_v115
  let main_c_45 : IVec S_ 1 := constantI S_ 1 1#1
  let main_v117 : IVec S_ 1 := (fun x v => Host.reduce IntOp.andi x v reducesTo_S168_S_d0 h_S_) main_v116 main_c_45
  let main_v118 : IVec S_ 1 := andi main_v113 main_v117
  let main_v119 : FVec F S168x168 .f32 := Host.absf main_arg24
  fn_part7 (F := F) main_arg25 main_arg26 main_arg27 main_v118 main_v119

def fn_part5 {F : FTy → Type} [FloatOps F] (main_arg18 : FVec F S35 .f32) (main_arg19 : FVec F S8x512x512 .f32) (main_arg20 : FVec F S8x512x512 .f32) (main_arg21 : FVec F S8x512x512 .f32) (main_arg22 : FVec F S24x168 .f32) (main_arg23 : FVec F S168 .f32) (main_arg24 : FVec F S168x168 .f32) (main_arg25 : FVec F S168 .f32) (main_arg26 : FVec F S168x35 .f32) (main_arg27 : FVec F S35 .f32) (main_v83 : IVec S_ 1) (main_v84 : FVec F S168x35 .f32) (main_cst_32 : FVec F S_ .f32) : IVec S_ 1 :=
  let main_v85 : FVec F S168x35 .f32 := broadcastInDim S168x35 ![] bcast_S_S168x35 main_cst_32
  let main_v86 : IVec S168x35 1 := cmpf .olt main_v84 main_v85
  let main_c_33 : IVec S_ 1 := constantI S_ 1 1#1
  let main_v87 : IVec S_ 1 := (fun x v => Host.reduce IntOp.andi x v reducesTo_S168x35_S_d0_1 h_S_) main_v86 main_c_33
  let main_v88 : IVec S_ 1 := andi main_v83 main_v87
  let main_v89 : FVec F S35 .f32 := Host.absf main_arg18
  let main_cst_34 : FVec F S_ .f32 := constant S_ .f32 0x7F800000#32
  let main_v90 : FVec F S35 .f32 := broadcastInDim S35 ![] bcast_S_S35 main_cst_34
  let main_v91 : IVec S35 1 := cmpf .olt main_v89 main_v90
  let main_c_35 : IVec S_ 1 := constantI S_ 1 1#1
  let main_v92 : IVec S_ 1 := (fun x v => Host.reduce IntOp.andi x v reducesTo_S35_S_d0 h_S_) main_v91 main_c_35
  let main_v93 : IVec S_ 1 := andi main_v88 main_v92
  let main_v94 : FVec F S8x512x512 .f32 := Host.absf main_arg19
  let main_cst_36 : FVec F S_ .f32 := constant S_ .f32 0x7F800000#32
  let main_v95 : FVec F S8x512x512 .f32 := broadcastInDim S8x512x512 ![] bcast_S_S8x512x512 main_cst_36
  let main_v96 : IVec S8x512x512 1 := cmpf .olt main_v94 main_v95
  let main_c_37 : IVec S_ 1 := constantI S_ 1 1#1
  let main_v97 : IVec S_ 1 := (fun x v => Host.reduce IntOp.andi x v reducesTo_S8x512x512_S_d0_1_2 h_S_) main_v96 main_c_37
  let main_v98 : IVec S_ 1 := andi main_v93 main_v97
  let main_v99 : FVec F S8x512x512 .f32 := Host.absf main_arg20
  let main_cst_38 : FVec F S_ .f32 := constant S_ .f32 0x7F800000#32
  let main_v100 : FVec F S8x512x512 .f32 := broadcastInDim S8x512x512 ![] bcast_S_S8x512x512 main_cst_38
  let main_v101 : IVec S8x512x512 1 := cmpf .olt main_v99 main_v100
  let main_c_39 : IVec S_ 1 := constantI S_ 1 1#1
  fn_part6 (F := F) main_arg21 main_arg22 main_arg23 main_arg24 main_arg25 main_arg26 main_arg27 main_v98 main_v101 main_c_39

def fn_part4 {F : FTy → Type} [FloatOps F] (main_arg14 : FVec F S168 .f32) (main_arg15 : FVec F S168x168 .f32) (main_arg16 : FVec F S168 .f32) (main_arg17 : FVec F S168x35 .f32) (main_arg18 : FVec F S35 .f32) (main_arg19 : FVec F S8x512x512 .f32) (main_arg20 : FVec F S8x512x512 .f32) (main_arg21 : FVec F S8x512x512 .f32) (main_arg22 : FVec F S24x168 .f32) (main_arg23 : FVec F S168 .f32) (main_arg24 : FVec F S168x168 .f32) (main_arg25 : FVec F S168 .f32) (main_arg26 : FVec F S168x35 .f32) (main_arg27 : FVec F S35 .f32) (main_v63 : IVec S_ 1) (main_v67 : IVec S_ 1) : IVec S_ 1 :=
  let main_v68 : IVec S_ 1 := andi main_v63 main_v67
  let main_v69 : FVec F S168 .f32 := Host.absf main_arg14
  let main_cst_26 : FVec F S_ .f32 := constant S_ .f32 0x7F800000#32
  let main_v70 : FVec F S168 .f32 := broadcastInDim S168 ![] bcast_S_S168 main_cst_26
  let main_v71 : IVec S168 1 := cmpf .olt main_v69 main_v70
  let main_c_27 : IVec S_ 1 := constantI S_ 1 1#1
  let main_v72 : IVec S_ 1 := (fun x v => Host.reduce IntOp.andi x v reducesTo_S168_S_d0 h_S_) main_v71 main_c_27
  let main_v73 : IVec S_ 1 := andi main_v68 main_v72
  let main_v74 : FVec F S168x168 .f32 := Host.absf main_arg15
  let main_cst_28 : FVec F S_ .f32 := constant S_ .f32 0x7F800000#32
  let main_v75 : FVec F S168x168 .f32 := broadcastInDim S168x168 ![] bcast_S_S168x168 main_cst_28
  let main_v76 : IVec S168x168 1 := cmpf .olt main_v74 main_v75
  let main_c_29 : IVec S_ 1 := constantI S_ 1 1#1
  let main_v77 : IVec S_ 1 := (fun x v => Host.reduce IntOp.andi x v reducesTo_S168x168_S_d0_1 h_S_) main_v76 main_c_29
  let main_v78 : IVec S_ 1 := andi main_v73 main_v77
  let main_v79 : FVec F S168 .f32 := Host.absf main_arg16
  let main_cst_30 : FVec F S_ .f32 := constant S_ .f32 0x7F800000#32
  let main_v80 : FVec F S168 .f32 := broadcastInDim S168 ![] bcast_S_S168 main_cst_30
  let main_v81 : IVec S168 1 := cmpf .olt main_v79 main_v80
  let main_c_31 : IVec S_ 1 := constantI S_ 1 1#1
  let main_v82 : IVec S_ 1 := (fun x v => Host.reduce IntOp.andi x v reducesTo_S168_S_d0 h_S_) main_v81 main_c_31
  let main_v83 : IVec S_ 1 := andi main_v78 main_v82
  let main_v84 : FVec F S168x35 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_v83 main_v84 main_cst_32

def fn_part3 {F : FTy → Type} [FloatOps F] (main_arg11 : FVec F S8x256x256 .f32) (main_arg12 : FVec F S8x256x256 .f32) (main_arg13 : FVec F S24x168 .f32) (main_arg14 : FVec F S168 .f32) (main_arg15 : FVec F S168x168 .f32) (main_arg16 : FVec F S168 .f32) (main_arg17 : FVec F S168x35 .f32) (main_arg18 : FVec F S35 .f32) (main_arg19 : FVec F S8x512x512 .f32) (main_arg20 : FVec F S8x512x512 .f32) (main_arg21 : FVec F S8x512x512 .f32) (main_arg22 : FVec F S24x168 .f32) (main_arg23 : FVec F S168 .f32) (main_arg24 : FVec F S168x168 .f32) (main_arg25 : FVec F S168 .f32) (main_arg26 : FVec F S168x35 .f32) (main_arg27 : FVec F S35 .f32) (main_v48 : IVec S_ 1) (main_v49 : FVec F S8x256x256 .f32) (main_v50 : FVec F S8x256x256 .f32) : IVec S_ 1 :=
  let main_v51 : IVec S8x256x256 1 := cmpf .olt main_v49 main_v50
  let main_c_19 : IVec S_ 1 := constantI S_ 1 1#1
  let main_v52 : IVec S_ 1 := (fun x v => Host.reduce IntOp.andi x v reducesTo_S8x256x256_S_d0_1_2 h_S_) main_v51 main_c_19
  let main_v53 : IVec S_ 1 := andi main_v48 main_v52
  let main_v54 : FVec F S8x256x256 .f32 := Host.absf main_arg11
  let main_cst_20 : FVec F S_ .f32 := constant S_ .f32 0x7F800000#32
  let main_v55 : FVec F S8x256x256 .f32 := broadcastInDim S8x256x256 ![] bcast_S_S8x256x256 main_cst_20
  let main_v56 : IVec S8x256x256 1 := cmpf .olt main_v54 main_v55
  let main_c_21 : IVec S_ 1 := constantI S_ 1 1#1
  let main_v57 : IVec S_ 1 := (fun x v => Host.reduce IntOp.andi x v reducesTo_S8x256x256_S_d0_1_2 h_S_) main_v56 main_c_21
  let main_v58 : IVec S_ 1 := andi main_v53 main_v57
  let main_v59 : FVec F S8x256x256 .f32 := Host.absf main_arg12
  let main_cst_22 : FVec F S_ .f32 := constant S_ .f32 0x7F800000#32
  let main_v60 : FVec F S8x256x256 .f32 := broadcastInDim S8x256x256 ![] bcast_S_S8x256x256 main_cst_22
  let main_v61 : IVec S8x256x256 1 := cmpf .olt main_v59 main_v60
  let main_c_23 : IVec S_ 1 := constantI S_ 1 1#1
  let main_v62 : IVec S_ 1 := (fun x v => Host.reduce IntOp.andi x v reducesTo_S8x256x256_S_d0_1_2 h_S_) main_v61 main_c_23
  let main_v63 : IVec S_ 1 := andi main_v58 main_v62
  let main_v64 : FVec F S24x168 .f32 := Host.absf main_arg13
  let main_cst_24 : FVec F S_ .f32 := constant S_ .f32 0x7F800000#32
  let main_v65 : FVec F S24x168 .f32 := broadcastInDim S24x168 ![] bcast_S_S24x168 main_cst_24
  let main_v66 : IVec S24x168 1 := cmpf .olt main_v64 main_v65
  let main_c_25 : IVec S_ 1 := constantI S_ 1 1#1
  let main_v67 : IVec S_ 1 := (fun x v => Host.reduce IntOp.andi x v reducesTo_S24x168_S_d0_1 h_S_) main_v66 main_c_25
  fn_part4 (F := F) main_arg14 main_arg15 main_arg16 main_arg17 main_arg18 main_arg19 main_arg20 main_arg21 main_arg22 main_arg23 main_arg24 main_arg25 main_arg26 main_arg27 main_v63 main_v67

def fn_part2 {F : FTy → Type} [FloatOps F] (main_arg7 : FVec F S168 .f32) (main_arg8 : FVec F S168x35 .f32) (main_arg9 : FVec F S35 .f32) (main_arg10 : FVec F S8x256x256 .f32) (main_arg11 : FVec F S8x256x256 .f32) (main_arg12 : FVec F S8x256x256 .f32) (main_arg13 : FVec F S24x168 .f32) (main_arg14 : FVec F S168 .f32) (main_arg15 : FVec F S168x168 .f32) (main_arg16 : FVec F S168 .f32) (main_arg17 : FVec F S168x35 .f32) (main_arg18 : FVec F S35 .f32) (main_arg19 : FVec F S8x512x512 .f32) (main_arg20 : FVec F S8x512x512 .f32) (main_arg21 : FVec F S8x512x512 .f32) (main_arg22 : FVec F S24x168 .f32) (main_arg23 : FVec F S168 .f32) (main_arg24 : FVec F S168x168 .f32) (main_arg25 : FVec F S168 .f32) (main_arg26 : FVec F S168x35 .f32) (main_arg27 : FVec F S35 .f32) (main_v33 : IVec S_ 1) : IVec S_ 1 :=
  let main_v34 : FVec F S168 .f32 := Host.absf main_arg7
  let main_cst_12 : FVec F S_ .f32 := constant S_ .f32 0x7F800000#32
  let main_v35 : FVec F S168 .f32 := broadcastInDim S168 ![] bcast_S_S168 main_cst_12
  let main_v36 : IVec S168 1 := cmpf .olt main_v34 main_v35
  let main_c_13 : IVec S_ 1 := constantI S_ 1 1#1
  let main_v37 : IVec S_ 1 := (fun x v => Host.reduce IntOp.andi x v reducesTo_S168_S_d0 h_S_) main_v36 main_c_13
  let main_v38 : IVec S_ 1 := andi main_v33 main_v37
  let main_v39 : FVec F S168x35 .f32 := Host.absf main_arg8
  let main_cst_14 : FVec F S_ .f32 := constant S_ .f32 0x7F800000#32
  let main_v40 : FVec F S168x35 .f32 := broadcastInDim S168x35 ![] bcast_S_S168x35 main_cst_14
  let main_v41 : IVec S168x35 1 := cmpf .olt main_v39 main_v40
  let main_c_15 : IVec S_ 1 := constantI S_ 1 1#1
  let main_v42 : IVec S_ 1 := (fun x v => Host.reduce IntOp.andi x v reducesTo_S168x35_S_d0_1 h_S_) main_v41 main_c_15
  let main_v43 : IVec S_ 1 := andi main_v38 main_v42
  let main_v44 : FVec F S35 .f32 := Host.absf main_arg9
  let main_cst_16 : FVec F S_ .f32 := constant S_ .f32 0x7F800000#32
  let main_v45 : FVec F S35 .f32 := broadcastInDim S35 ![] bcast_S_S35 main_cst_16
  let main_v46 : IVec S35 1 := cmpf .olt main_v44 main_v45
  let main_c_17 : IVec S_ 1 := constantI S_ 1 1#1
  let main_v47 : IVec S_ 1 := (fun x v => Host.reduce IntOp.andi x v reducesTo_S35_S_d0 h_S_) main_v46 main_c_17
  let main_v48 : IVec S_ 1 := andi main_v43 main_v47
  let main_v49 : FVec F S8x256x256 .f32 := Host.absf main_arg10
  let main_cst_18 : FVec F S_ .f32 := constant S_ .f32 0x7F800000#32
  let main_v50 : FVec F S8x256x256 .f32 := broadcastInDim S8x256x256 ![] bcast_S_S8x256x256 main_cst_18
  fn_part3 (F := F) main_arg11 main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg4 : FVec F S24x168 .f32) (main_arg5 : FVec F S168 .f32) (main_arg6 : FVec F S168x168 .f32) (main_arg7 : FVec F S168 .f32) (main_arg8 : FVec F S168x35 .f32) (main_arg9 : FVec F S35 .f32) (main_arg10 : FVec F S8x256x256 .f32) (main_arg11 : FVec F S8x256x256 .f32) (main_arg12 : FVec F S8x256x256 .f32) (main_arg13 : FVec F S24x168 .f32) (main_arg14 : FVec F S168 .f32) (main_arg15 : FVec F S168x168 .f32) (main_arg16 : FVec F S168 .f32) (main_arg17 : FVec F S168x35 .f32) (main_arg18 : FVec F S35 .f32) (main_arg19 : FVec F S8x512x512 .f32) (main_arg20 : FVec F S8x512x512 .f32) (main_arg21 : FVec F S8x512x512 .f32) (main_arg22 : FVec F S24x168 .f32) (main_arg23 : FVec F S168 .f32) (main_arg24 : FVec F S168x168 .f32) (main_arg25 : FVec F S168 .f32) (main_arg26 : FVec F S168x35 .f32) (main_arg27 : FVec F S35 .f32) (main_v13 : IVec S_ 1) (main_v16 : IVec S8x128x128 1) : IVec S_ 1 :=
  let main_c_5 : IVec S_ 1 := constantI S_ 1 1#1
  let main_v17 : IVec S_ 1 := (fun x v => Host.reduce IntOp.andi x v reducesTo_S8x128x128_S_d0_1_2 h_S_) main_v16 main_c_5
  let main_v18 : IVec S_ 1 := andi main_v13 main_v17
  let main_v19 : FVec F S24x168 .f32 := Host.absf main_arg4
  let main_cst_6 : FVec F S_ .f32 := constant S_ .f32 0x7F800000#32
  let main_v20 : FVec F S24x168 .f32 := broadcastInDim S24x168 ![] bcast_S_S24x168 main_cst_6
  let main_v21 : IVec S24x168 1 := cmpf .olt main_v19 main_v20
  let main_c_7 : IVec S_ 1 := constantI S_ 1 1#1
  let main_v22 : IVec S_ 1 := (fun x v => Host.reduce IntOp.andi x v reducesTo_S24x168_S_d0_1 h_S_) main_v21 main_c_7
  let main_v23 : IVec S_ 1 := andi main_v18 main_v22
  let main_v24 : FVec F S168 .f32 := Host.absf main_arg5
  let main_cst_8 : FVec F S_ .f32 := constant S_ .f32 0x7F800000#32
  let main_v25 : FVec F S168 .f32 := broadcastInDim S168 ![] bcast_S_S168 main_cst_8
  let main_v26 : IVec S168 1 := cmpf .olt main_v24 main_v25
  let main_c_9 : IVec S_ 1 := constantI S_ 1 1#1
  let main_v27 : IVec S_ 1 := (fun x v => Host.reduce IntOp.andi x v reducesTo_S168_S_d0 h_S_) main_v26 main_c_9
  let main_v28 : IVec S_ 1 := andi main_v23 main_v27
  let main_v29 : FVec F S168x168 .f32 := Host.absf main_arg6
  let main_cst_10 : FVec F S_ .f32 := constant S_ .f32 0x7F800000#32
  let main_v30 : FVec F S168x168 .f32 := broadcastInDim S168x168 ![] bcast_S_S168x168 main_cst_10
  let main_v31 : IVec S168x168 1 := cmpf .olt main_v29 main_v30
  let main_c_11 : IVec S_ 1 := constantI S_ 1 1#1
  let main_v32 : IVec S_ 1 := (fun x v => Host.reduce IntOp.andi x v reducesTo_S168x168_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S500000x3 .f32) (main_arg1 : FVec F S8x128x128 .f32) (main_arg2 : FVec F S8x128x128 .f32) (main_arg3 : FVec F S8x128x128 .f32) (main_arg4 : FVec F S24x168 .f32) (main_arg5 : FVec F S168 .f32) (main_arg6 : FVec F S168x168 .f32) (main_arg7 : FVec F S168 .f32) (main_arg8 : FVec F S168x35 .f32) (main_arg9 : FVec F S35 .f32) (main_arg10 : FVec F S8x256x256 .f32) (main_arg11 : FVec F S8x256x256 .f32) (main_arg12 : FVec F S8x256x256 .f32) (main_arg13 : FVec F S24x168 .f32) (main_arg14 : FVec F S168 .f32) (main_arg15 : FVec F S168x168 .f32) (main_arg16 : FVec F S168 .f32) (main_arg17 : FVec F S168x35 .f32) (main_arg18 : FVec F S35 .f32) (main_arg19 : FVec F S8x512x512 .f32) (main_arg20 : FVec F S8x512x512 .f32) (main_arg21 : FVec F S8x512x512 .f32) (main_arg22 : FVec F S24x168 .f32) (main_arg23 : FVec F S168 .f32) (main_arg24 : FVec F S168x168 .f32) (main_arg25 : FVec F S168 .f32) (main_arg26 : FVec F S168x35 .f32) (main_arg27 : FVec F S35 .f32) : IVec S_ 1 :=
  let main_v0 : FVec F S500000x3 .f32 := Host.absf main_arg0
  let main_cst : FVec F S_ .f32 := constant S_ .f32 0x7F800000#32
  let main_v1 : FVec F S500000x3 .f32 := broadcastInDim S500000x3 ![] bcast_S_S500000x3 main_cst
  let main_v2 : IVec S500000x3 1 := cmpf .olt main_v0 main_v1
  let main_c : IVec S_ 1 := constantI S_ 1 1#1
  let main_v3 : IVec S_ 1 := (fun x v => Host.reduce IntOp.andi x v reducesTo_S500000x3_S_d0_1 h_S_) main_v2 main_c
  let main_v4 : FVec F S8x128x128 .f32 := Host.absf main_arg1
  let main_cst_0 : FVec F S_ .f32 := constant S_ .f32 0x7F800000#32
  let main_v5 : FVec F S8x128x128 .f32 := broadcastInDim S8x128x128 ![] bcast_S_S8x128x128 main_cst_0
  let main_v6 : IVec S8x128x128 1 := cmpf .olt main_v4 main_v5
  let main_c_1 : IVec S_ 1 := constantI S_ 1 1#1
  let main_v7 : IVec S_ 1 := (fun x v => Host.reduce IntOp.andi x v reducesTo_S8x128x128_S_d0_1_2 h_S_) main_v6 main_c_1
  let main_v8 : IVec S_ 1 := andi main_v3 main_v7
  let main_v9 : FVec F S8x128x128 .f32 := Host.absf main_arg2
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_c_3 : IVec S_ 1 := constantI S_ 1 1#1
  let main_v12 : IVec S_ 1 := (fun x v => Host.reduce IntOp.andi x v reducesTo_S8x128x128_S_d0_1_2 h_S_) main_v11 main_c_3
  let main_v13 : IVec S_ 1 := andi main_v8 main_v12
  let main_v14 : FVec F S8x128x128 .f32 := Host.absf main_arg3
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S500000x3 : Shape := ⟨2, ![500000, 3]⟩
abbrev S8x128x128 : Shape := ⟨3, ![8, 128, 128]⟩
abbrev S24x168 : Shape := ⟨2, ![24, 168]⟩
abbrev S168 : Shape := ⟨1, ![168]⟩
abbrev S168x168 : Shape := ⟨2, ![168, 168]⟩
abbrev S168x35 : Shape := ⟨2, ![168, 35]⟩
abbrev S35 : Shape := ⟨1, ![35]⟩
abbrev S8x256x256 : Shape := ⟨3, ![8, 256, 256]⟩
abbrev S8x512x512 : Shape := ⟨3, ![8, 512, 512]⟩
abbrev S_ : Shape := ⟨0, ![]⟩
abbrev S500000x1 : Shape := ⟨2, ![500000, 1]⟩
abbrev S500000 : Shape := ⟨1, ![500000]⟩
abbrev S500000x2 : Shape := ⟨2, ![500000, 2]⟩
abbrev S8x500000 : Shape := ⟨2, ![8, 500000]⟩
abbrev S1x500000 : Shape := ⟨2, ![1, 500000]⟩
abbrev S500000x8 : Shape := ⟨2, ![500000, 8]⟩
abbrev S500000x24 : Shape := ⟨2, ![500000, 24]⟩
abbrev S500000x35 : Shape := ⟨2, ![500000, 35]⟩
abbrev S10000x24 : Shape := ⟨2, ![10000, 24]⟩
abbrev S10000x35 : Shape := ⟨2, ![10000, 35]⟩
abbrev S10000x168 : Shape := ⟨2, ![10000, 168]⟩
abbrev S1x168 : Shape := ⟨2, ![1, 168]⟩
abbrev S1x35 : Shape := ⟨2, ![1, 35]⟩
abbrev S10000x31 : Shape := ⟨2, ![10000, 31]⟩
abbrev S10000x3 : Shape := ⟨2, ![10000, 3]⟩
abbrev S10000x1 : Shape := ⟨2, ![10000, 1]⟩

abbrev nBuf : Space → Nat
  | .hbm => 1553
  | .vmem => 26
  | .smem => 0
  | _ => 0

abbrev hbmTy0_0 (i : Nat) : BufTy := match i % 128 with
  | 0 => ⟨S500000x3, .f32⟩
  | 1 => ⟨S8x128x128, .f32⟩
  | 2 => ⟨S8x128x128, .f32⟩
  | 3 => ⟨S8x128x128, .f32⟩
  | 4 => ⟨S24x168, .f32⟩
  | 5 => ⟨S168, .f32⟩
  | 6 => ⟨S168x168, .f32⟩
  | 7 => ⟨S168, .f32⟩
  | 8 => ⟨S168x35, .f32⟩
  | 9 => ⟨S35, .f32⟩
  | 10 => ⟨S8x256x256, .f32⟩
  | 11 => ⟨S8x256x256, .f32⟩
  | 12 => ⟨S8x256x256, .f32⟩
  | 13 => ⟨S24x168, .f32⟩
  | 14 => ⟨S168, .f32⟩
  | 15 => ⟨S168x168, .f32⟩
  | 16 => ⟨S168, .f32⟩
  | 17 => ⟨S168x35, .f32⟩
  | 18 => ⟨S35, .f32⟩
  | 19 => ⟨S8x512x512, .f32⟩
  | 20 => ⟨S8x512x512, .f32⟩
  | 21 => ⟨S8x512x512, .f32⟩
  | 22 => ⟨S24x168, .f32⟩
  | 23 => ⟨S168, .f32⟩
  | 24 => ⟨S168x168, .f32⟩
  | 25 => ⟨S168, .f32⟩
  | 26 => ⟨S168x35, .f32⟩
  | 27 => ⟨S35, .f32⟩
  | 28 => ⟨S_, .f32⟩
  | 29 => ⟨S500000x3, .f32⟩
  | 30 => ⟨S500000x3, .f32⟩
  | 31 => ⟨S_, .f32⟩
  | 32 => ⟨S500000x3, .f32⟩
  | 33 => ⟨S500000x3, .f32⟩
  | 34 => ⟨S_, .f32⟩
  | 35 => ⟨S500000x3, .f32⟩
  | 36 => ⟨S500000x3, .f32⟩
  | 37 => ⟨S_, .f32⟩
  | 38 => ⟨S500000x3, .f32⟩
  | 39 => ⟨S500000x3, .f32⟩
  | 40 => ⟨S500000x1, .f32⟩
  | 41 => ⟨S500000, .f32⟩
  | 42 => ⟨S500000x1, .f32⟩
  | 43 => ⟨S500000, .f32⟩
  | 44 => ⟨S500000x1, .f32⟩
  | 45 => ⟨S500000, .f32⟩
  | 46 => ⟨S_, .f32⟩
  | 47 => ⟨S500000, .f32⟩
  | 48 => ⟨S500000, .f32⟩
  | 49 => ⟨S_, .f32⟩
  | 50 => ⟨S500000, .f32⟩
  | 51 => ⟨S500000, .f32⟩
  | 52 => ⟨S_, .f32⟩
  | 53 => ⟨S500000, .f32⟩
  | 54 => ⟨S500000, .f32⟩
  | 55 => ⟨S_, .f32⟩
  | 56 => ⟨S500000, .f32⟩
  | 57 => ⟨S500000, .f32⟩
  | 58 => ⟨S_, .f32⟩
  | 59 => ⟨S500000, .f32⟩
  | 60 => ⟨S500000, .f32⟩
  | 61 => ⟨S_, .f32⟩
  | 62 => ⟨S500000, .f32⟩
  | 63 => ⟨S500000, .f32⟩
  | 64 => ⟨S500000, .f32⟩
  | 65 => ⟨S500000, .i32⟩
  | 66 => ⟨S500000, .f32⟩
  | 67 => ⟨S500000, .i32⟩
  | 68 => ⟨S500000, .f32⟩
  | 69 => ⟨S500000, .f32⟩
  | 70 => ⟨S500000, .f32⟩
  | 71 => ⟨S500000, .f32⟩
  | 72 => ⟨S_, .i32⟩
  | 73 => ⟨S_, .i32⟩
  | 74 => ⟨S_, .i32⟩
  | 75 => ⟨S500000, .i32⟩
  | 76 => ⟨S500000, .i32⟩
  | 77 => ⟨S_, .i32⟩
  | 78 => ⟨S500000, .i32⟩
  | 79 => ⟨S500000, .i32⟩
  | 80 => ⟨S_, .i32⟩
  | 81 => ⟨S500000, .i32⟩
  | 82 => ⟨S500000, .i32⟩
  | 83 => ⟨S_, .i32⟩
  | 84 => ⟨S_, .i32⟩
  | 85 => ⟨S_, .i32⟩
  | 86 => ⟨S500000, .i32⟩
  | 87 => ⟨S500000, .i32⟩
  | 88 => ⟨S_, .i32⟩
  | 89 => ⟨S500000, .i32⟩
  | 90 => ⟨S500000, .i32⟩
  | 91 => ⟨S_, .i32⟩
  | 92 => ⟨S_, .i32⟩
  | 93 => ⟨S_, .i32⟩
  | 94 => ⟨S500000, .i32⟩
  | 95 => ⟨S500000, .i32⟩
  | 96 => ⟨S_, .i32⟩
  | 97 => ⟨S500000, .i32⟩
  | 98 => ⟨S500000, .i32⟩
  | 99 => ⟨S_, .i32⟩
  | 100 => ⟨S500000, .i32⟩
  | 101 => ⟨S500000, .i32⟩
  | 102 => ⟨S_, .i32⟩
  | 103 => ⟨S_, .i32⟩
  | 104 => ⟨S_, .i32⟩
  | 105 => ⟨S500000, .i32⟩
  | 106 => ⟨S500000, .i32⟩
  | 107 => ⟨S_, .i32⟩
  | 108 => ⟨S500000, .i32⟩
  | 109 => ⟨S500000, .i32⟩
  | 110 => ⟨S_, .i32⟩
  | 111 => ⟨S500000, .i32⟩
  | 112 => ⟨S500000, .i1⟩
  | 113 => ⟨S_, .i32⟩
  | 114 => ⟨S500000, .i32⟩
  | 115 => ⟨S500000, .i32⟩
  | 116 => ⟨S500000, .i32⟩
  | 117 => ⟨S_, .i32⟩
  | 118 => ⟨S500000, .i32⟩
  | 119 => ⟨S500000, .i1⟩
  | 120 => ⟨S_, .i32⟩
  | 121 => ⟨S500000, .i32⟩
  | 122 => ⟨S500000, .i32⟩
  | 123 => ⟨S500000, .i32⟩
  | 124 => ⟨S500000x1, .i32⟩
  | 125 => ⟨S500000x1, .i32⟩
  | 126 => ⟨S500000x2, .i32⟩
  | 127 => ⟨S8x500000, .f32⟩
  | _ => ⟨S500000x3, .f32⟩

abbrev hbmTy0_1 (i : Nat) : BufTy := match i % 128 with
  | 0 => ⟨S_, .i32⟩
  | 1 => ⟨S500000, .i32⟩
  | 2 => ⟨S500000, .i1⟩
  | 3 => ⟨S_, .i32⟩
  | 4 => ⟨S500000, .i32⟩
  | 5 => ⟨S500000, .i32⟩
  | 6 => ⟨S500000, .i32⟩
  | 7 => ⟨S_, .i32⟩
  | 8 => ⟨S500000, .i32⟩
  | 9 => ⟨S500000, .i1⟩
  | 10 => ⟨S_, .i32⟩
  | 11 => ⟨S500000, .i32⟩
  | 12 => ⟨S500000, .i32⟩
  | 13 => ⟨S500000, .i32⟩
  | 14 => ⟨S500000x1, .i32⟩
  | 15 => ⟨S500000x1, .i32⟩
  | 16 => ⟨S500000x2, .i32⟩
  | 17 => ⟨S8x500000, .f32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S_, .i32⟩
  | 26 => ⟨S500000, .i32⟩
  | 27 => ⟨S500000, .i1⟩
  | 28 => ⟨S_, .i32⟩
  | 29 => ⟨S500000, .i32⟩
  | 30 => ⟨S500000, .i32⟩
  | 31 => ⟨S500000, .i32⟩
  | 32 => ⟨S500000x1, .i32⟩
  | 33 => ⟨S500000x1, .i32⟩
  | 34 => ⟨S500000x2, .i32⟩
  | 35 => ⟨S8x500000, .f32⟩
  | 36 => ⟨S_, .i32⟩
  | 37 => ⟨S500000, .i32⟩
  | 38 => ⟨S500000, .i1⟩
  | 39 => ⟨S_, .i32⟩
  | 40 => ⟨S500000, .i32⟩
  | 41 => ⟨S500000, .i32⟩
  | 42 => ⟨S500000, .i32⟩
  | 43 => ⟨S_, .i32⟩
  | 44 => ⟨S500000, .i32⟩
  | 45 => ⟨S500000, .i1⟩
  | 46 => ⟨S_, .i32⟩
  | 47 => ⟨S500000, .i32⟩
  | 48 => ⟨S500000, .i32⟩
  | 49 => ⟨S500000, .i32⟩
  | 50 => ⟨S500000x1, .i32⟩
  | 51 => ⟨S500000x1, .i32⟩
  | 52 => ⟨S500000x2, .i32⟩
  | 53 => ⟨S8x500000, .f32⟩
  | 54 => ⟨S_, .f32⟩
  | 55 => ⟨S500000, .f32⟩
  | 56 => ⟨S500000, .f32⟩
  | 57 => ⟨S1x500000, .f32⟩
  | 58 => ⟨S8x500000, .f32⟩
  | 59 => ⟨S8x500000, .f32⟩
  | 60 => ⟨S1x500000, .f32⟩
  | 61 => ⟨S8x500000, .f32⟩
  | 62 => ⟨S8x500000, .f32⟩
  | 63 => ⟨S8x500000, .f32⟩
  | 64 => ⟨S_, .f32⟩
  | 65 => ⟨S500000, .f32⟩
  | 66 => ⟨S500000, .f32⟩
  | 67 => ⟨S1x500000, .f32⟩
  | 68 => ⟨S8x500000, .f32⟩
  | 69 => ⟨S8x500000, .f32⟩
  | 70 => ⟨S1x500000, .f32⟩
  | 71 => ⟨S8x500000, .f32⟩
  | 72 => ⟨S8x500000, .f32⟩
  | 73 => ⟨S8x500000, .f32⟩
  | 74 => ⟨S_, .f32⟩
  | 75 => ⟨S500000, .f32⟩
  | 76 => ⟨S500000, .f32⟩
  | 77 => ⟨S1x500000, .f32⟩
  | 78 => ⟨S8x500000, .f32⟩
  | 79 => ⟨S8x500000, .f32⟩
  | 80 => ⟨S1x500000, .f32⟩
  | 81 => ⟨S8x500000, .f32⟩
  | 82 => ⟨S8x500000, .f32⟩
  | 83 => ⟨S8x500000, .f32⟩
  | 84 => ⟨S500000x8, .f32⟩
  | 85 => ⟨S_, .f32⟩
  | 86 => ⟨S500000, .f32⟩
  | 87 => ⟨S500000, .f32⟩
  | 88 => ⟨S_, .f32⟩
  | 89 => ⟨S500000, .f32⟩
  | 90 => ⟨S500000, .f32⟩
  | 91 => ⟨S_, .f32⟩
  | 92 => ⟨S500000, .f32⟩
  | 93 => ⟨S500000, .f32⟩
  | 94 => ⟨S_, .f32⟩
  | 95 => ⟨S500000, .f32⟩
  | 96 => ⟨S500000, .f32⟩
  | 97 => ⟨S_, .f32⟩
  | 98 => ⟨S500000, .f32⟩
  | 99 => ⟨S500000, .f32⟩
  | 100 => ⟨S_, .f32⟩
  | 101 => ⟨S500000, .f32⟩
  | 102 => ⟨S500000, .f32⟩
  | 103 => ⟨S500000, .f32⟩
  | 104 => ⟨S500000, .i32⟩
  | 105 => ⟨S500000, .f32⟩
  | 106 => ⟨S500000, .i32⟩
  | 107 => ⟨S500000, .f32⟩
  | 108 => ⟨S500000, .f32⟩
  | 109 => ⟨S500000, .f32⟩
  | 110 => ⟨S500000, .f32⟩
  | 111 => ⟨S_, .i32⟩
  | 112 => ⟨S_, .i32⟩
  | 113 => ⟨S_, .i32⟩
  | 114 => ⟨S500000, .i32⟩
  | 115 => ⟨S500000, .i32⟩
  | 116 => ⟨S_, .i32⟩
  | 117 => ⟨S500000, .i32⟩
  | 118 => ⟨S500000, .i32⟩
  | 119 => ⟨S_, .i32⟩
  | 120 => ⟨S500000, .i32⟩
  | 121 => ⟨S500000, .i32⟩
  | 122 => ⟨S_, .i32⟩
  | 123 => ⟨S_, .i32⟩
  | 124 => ⟨S_, .i32⟩
  | 125 => ⟨S500000, .i32⟩
  | 126 => ⟨S500000, .i32⟩
  | 127 => ⟨S_, .i32⟩
  | _ => ⟨S500000x3, .f32⟩

abbrev hbmTy0_2 (i : Nat) : BufTy := match i % 128 with
  | 0 => ⟨S500000, .i32⟩
  | 1 => ⟨S500000, .i32⟩
  | 2 => ⟨S_, .i32⟩
  | 3 => ⟨S_, .i32⟩
  | 4 => ⟨S_, .i32⟩
  | 5 => ⟨S500000, .i32⟩
  | 6 => ⟨S500000, .i32⟩
  | 7 => ⟨S_, .i32⟩
  | 8 => ⟨S500000, .i32⟩
  | 9 => ⟨S500000, .i32⟩
  | 10 => ⟨S_, .i32⟩
  | 11 => ⟨S500000, .i32⟩
  | 12 => ⟨S500000, .i32⟩
  | 13 => ⟨S_, .i32⟩
  | 14 => ⟨S_, .i32⟩
  | 15 => ⟨S_, .i32⟩
  | 16 => ⟨S500000, .i32⟩
  | 17 => ⟨S500000, .i32⟩
  | 18 => ⟨S_, .i32⟩
  | 19 => ⟨S500000, .i32⟩
  | 20 => ⟨S500000, .i32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S500000x1, .i32⟩
  | 37 => ⟨S500000x2, .i32⟩
  | 38 => ⟨S8x500000, .f32⟩
  | 39 => ⟨S_, .i32⟩
  | 40 => ⟨S500000, .i32⟩
  | 41 => ⟨S500000, .i1⟩
  | 42 => ⟨S_, .i32⟩
  | 43 => ⟨S500000, .i32⟩
  | 44 => ⟨S500000, .i32⟩
  | 45 => ⟨S500000, .i32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000x1, .i32⟩
  | 55 => ⟨S500000x2, .i32⟩
  | 56 => ⟨S8x500000, .f32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S_, .i32⟩
  | 65 => ⟨S500000, .i32⟩
  | 66 => ⟨S500000, .i1⟩
  | 67 => ⟨S_, .i32⟩
  | 68 => ⟨S500000, .i32⟩
  | 69 => ⟨S500000, .i32⟩
  | 70 => ⟨S500000, .i32⟩
  | 71 => ⟨S500000x1, .i32⟩
  | 72 => ⟨S500000x1, .i32⟩
  | 73 => ⟨S500000x2, .i32⟩
  | 74 => ⟨S8x500000, .f32⟩
  | 75 => ⟨S_, .i32⟩
  | 76 => ⟨S500000, .i32⟩
  | 77 => ⟨S500000, .i1⟩
  | 78 => ⟨S_, .i32⟩
  | 79 => ⟨S500000, .i32⟩
  | 80 => ⟨S500000, .i32⟩
  | 81 => ⟨S500000, .i32⟩
  | 82 => ⟨S_, .i32⟩
  | 83 => ⟨S500000, .i32⟩
  | 84 => ⟨S500000, .i1⟩
  | 85 => ⟨S_, .i32⟩
  | 86 => ⟨S500000, .i32⟩
  | 87 => ⟨S500000, .i32⟩
  | 88 => ⟨S500000, .i32⟩
  | 89 => ⟨S500000x1, .i32⟩
  | 90 => ⟨S500000x1, .i32⟩
  | 91 => ⟨S500000x2, .i32⟩
  | 92 => ⟨S8x500000, .f32⟩
  | 93 => ⟨S_, .f32⟩
  | 94 => ⟨S500000, .f32⟩
  | 95 => ⟨S500000, .f32⟩
  | 96 => ⟨S1x500000, .f32⟩
  | 97 => ⟨S8x500000, .f32⟩
  | 98 => ⟨S8x500000, .f32⟩
  | 99 => ⟨S1x500000, .f32⟩
  | 100 => ⟨S8x500000, .f32⟩
  | 101 => ⟨S8x500000, .f32⟩
  | 102 => ⟨S8x500000, .f32⟩
  | 103 => ⟨S_, .f32⟩
  | 104 => ⟨S500000, .f32⟩
  | 105 => ⟨S500000, .f32⟩
  | 106 => ⟨S1x500000, .f32⟩
  | 107 => ⟨S8x500000, .f32⟩
  | 108 => ⟨S8x500000, .f32⟩
  | 109 => ⟨S1x500000, .f32⟩
  | 110 => ⟨S8x500000, .f32⟩
  | 111 => ⟨S8x500000, .f32⟩
  | 112 => ⟨S8x500000, .f32⟩
  | 113 => ⟨S_, .f32⟩
  | 114 => ⟨S500000, .f32⟩
  | 115 => ⟨S500000, .f32⟩
  | 116 => ⟨S1x500000, .f32⟩
  | 117 => ⟨S8x500000, .f32⟩
  | 118 => ⟨S8x500000, .f32⟩
  | 119 => ⟨S1x500000, .f32⟩
  | 120 => ⟨S8x500000, .f32⟩
  | 121 => ⟨S8x500000, .f32⟩
  | 122 => ⟨S8x500000, .f32⟩
  | 123 => ⟨S500000x8, .f32⟩
  | 124 => ⟨S_, .f32⟩
  | 125 => ⟨S500000, .f32⟩
  | 126 => ⟨S500000, .f32⟩
  | 127 => ⟨S_, .f32⟩
  | _ => ⟨S500000x3, .f32⟩

abbrev hbmTy0_3 (i : Nat) : BufTy := match i % 128 with
  | 0 => ⟨S500000, .f32⟩
  | 1 => ⟨S500000, .f32⟩
  | 2 => ⟨S_, .f32⟩
  | 3 => ⟨S500000, .f32⟩
  | 4 => ⟨S500000, .f32⟩
  | 5 => ⟨S_, .f32⟩
  | 6 => ⟨S500000, .f32⟩
  | 7 => ⟨S500000, .f32⟩
  | 8 => ⟨S_, .f32⟩
  | 9 => ⟨S500000, .f32⟩
  | 10 => ⟨S500000, .f32⟩
  | 11 => ⟨S_, .f32⟩
  | 12 => ⟨S500000, .f32⟩
  | 13 => ⟨S500000, .f32⟩
  | 14 => ⟨S500000, .f32⟩
  | 15 => ⟨S500000, .i32⟩
  | 16 => ⟨S500000, .f32⟩
  | 17 => ⟨S500000, .i32⟩
  | 18 => ⟨S500000, .f32⟩
  | 19 => ⟨S500000, .f32⟩
  | 20 => ⟨S500000, .f32⟩
  | 21 => ⟨S500000, .f32⟩
  | 22 => ⟨S_, .i32⟩
  | 23 => ⟨S_, .i32⟩
  | 24 => ⟨S_, .i32⟩
  | 25 => ⟨S500000, .i32⟩
  | 26 => ⟨S500000, .i32⟩
  | 27 => ⟨S_, .i32⟩
  | 28 => ⟨S500000, .i32⟩
  | 29 => ⟨S500000, .i32⟩
  | 30 => ⟨S_, .i32⟩
  | 31 => ⟨S500000, .i32⟩
  | 32 => ⟨S500000, .i32⟩
  | 33 => ⟨S_, .i32⟩
  | 34 => ⟨S_, .i32⟩
  | 35 => ⟨S_, .i32⟩
  | 36 => ⟨S500000, .i32⟩
  | 37 => ⟨S500000, .i32⟩
  | 38 => ⟨S_, .i32⟩
  | 39 => ⟨S500000, .i32⟩
  | 40 => ⟨S500000, .i32⟩
  | 41 => ⟨S_, .i32⟩
  | 42 => ⟨S_, .i32⟩
  | 43 => ⟨S_, .i32⟩
  | 44 => ⟨S500000, .i32⟩
  | 45 => ⟨S500000, .i32⟩
  | 46 => ⟨S_, .i32⟩
  | 47 => ⟨S500000, .i32⟩
  | 48 => ⟨S500000, .i32⟩
  | 49 => ⟨S_, .i32⟩
  | 50 => ⟨S500000, .i32⟩
  | 51 => ⟨S500000, .i32⟩
  | 52 => ⟨S_, .i32⟩
  | 53 => ⟨S_, .i32⟩
  | 54 => ⟨S_, .i32⟩
  | 55 => ⟨S500000, .i32⟩
  | 56 => ⟨S500000, .i32⟩
  | 57 => ⟨S_, .i32⟩
  | 58 => ⟨S500000, .i32⟩
  | 59 => ⟨S500000, .i32⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S_, .i32⟩
  | 68 => ⟨S500000, .i32⟩
  | 69 => ⟨S500000, .i1⟩
  | 70 => ⟨S_, .i32⟩
  | 71 => ⟨S500000, .i32⟩
  | 72 => ⟨S500000, .i32⟩
  | 73 => ⟨S500000, .i32⟩
  | 74 => ⟨S500000x1, .i32⟩
  | 75 => ⟨S500000x1, .i32⟩
  | 76 => ⟨S500000x2, .i32⟩
  | 77 => ⟨S8x500000, .f32⟩
  | 78 => ⟨S_, .i32⟩
  | 79 => ⟨S500000, .i32⟩
  | 80 => ⟨S500000, .i1⟩
  | 81 => ⟨S_, .i32⟩
  | 82 => ⟨S500000, .i32⟩
  | 83 => ⟨S500000, .i32⟩
  | 84 => ⟨S500000, .i32⟩
  | 85 => ⟨S_, .i32⟩
  | 86 => ⟨S500000, .i32⟩
  | 87 => ⟨S500000, .i1⟩
  | 88 => ⟨S_, .i32⟩
  | 89 => ⟨S500000, .i32⟩
  | 90 => ⟨S500000, .i32⟩
  | 91 => ⟨S500000, .i32⟩
  | 92 => ⟨S500000x1, .i32⟩
  | 93 => ⟨S500000x1, .i32⟩
  | 94 => ⟨S500000x2, .i32⟩
  | 95 => ⟨S8x500000, .f32⟩
  | 96 => ⟨S_, .i32⟩
  | 97 => ⟨S500000, .i32⟩
  | 98 => ⟨S500000, .i1⟩
  | 99 => ⟨S_, .i32⟩
  | 100 => ⟨S500000, .i32⟩
  | 101 => ⟨S500000, .i32⟩
  | 102 => ⟨S500000, .i32⟩
  | 103 => ⟨S_, .i32⟩
  | 104 => ⟨S500000, .i32⟩
  | 105 => ⟨S500000, .i1⟩
  | 106 => ⟨S_, .i32⟩
  | 107 => ⟨S500000, .i32⟩
  | 108 => ⟨S500000, .i32⟩
  | 109 => ⟨S500000, .i32⟩
  | 110 => ⟨S500000x1, .i32⟩
  | 111 => ⟨S500000x1, .i32⟩
  | 112 => ⟨S500000x2, .i32⟩
  | 113 => ⟨S8x500000, .f32⟩
  | 114 => ⟨S_, .i32⟩
  | 115 => ⟨S500000, .i32⟩
  | 116 => ⟨S500000, .i1⟩
  | 117 => ⟨S_, .i32⟩
  | 118 => ⟨S500000, .i32⟩
  | 119 => ⟨S500000, .i32⟩
  | 120 => ⟨S500000, .i32⟩
  | 121 => ⟨S_, .i32⟩
  | 122 => ⟨S500000, .i32⟩
  | 123 => ⟨S500000, .i1⟩
  | 124 => ⟨S_, .i32⟩
  | 125 => ⟨S500000, .i32⟩
  | 126 => ⟨S500000, .i32⟩
  | 127 => ⟨S500000, .i32⟩
  | _ => ⟨S500000x3, .f32⟩

abbrev hbmTy0_4 (i : Nat) : BufTy := match i % 128 with
  | 0 => ⟨S500000x1, .i32⟩
  | 1 => ⟨S500000x1, .i32⟩
  | 2 => ⟨S500000x2, .i32⟩
  | 3 => ⟨S8x500000, .f32⟩
  | 4 => ⟨S_, .f32⟩
  | 5 => ⟨S500000, .f32⟩
  | 6 => ⟨S500000, .f32⟩
  | 7 => ⟨S1x500000, .f32⟩
  | 8 => ⟨S8x500000, .f32⟩
  | 9 => ⟨S8x500000, .f32⟩
  | 10 => ⟨S1x500000, .f32⟩
  | 11 => ⟨S8x500000, .f32⟩
  | 12 => ⟨S8x500000, .f32⟩
  | 13 => ⟨S8x500000, .f32⟩
  | 14 => ⟨S_, .f32⟩
  | 15 => ⟨S500000, .f32⟩
  | 16 => ⟨S500000, .f32⟩
  | 17 => ⟨S1x500000, .f32⟩
  | 18 => ⟨S8x500000, .f32⟩
  | 19 => ⟨S8x500000, .f32⟩
  | 20 => ⟨S1x500000, .f32⟩
  | 21 => ⟨S8x500000, .f32⟩
  | 22 => ⟨S8x500000, .f32⟩
  | 23 => ⟨S8x500000, .f32⟩
  | 24 => ⟨S_, .f32⟩
  | 25 => ⟨S500000, .f32⟩
  | 26 => ⟨S500000, .f32⟩
  | 27 => ⟨S1x500000, .f32⟩
  | 28 => ⟨S8x500000, .f32⟩
  | 29 => ⟨S8x500000, .f32⟩
  | 30 => ⟨S1x500000, .f32⟩
  | 31 => ⟨S8x500000, .f32⟩
  | 32 => ⟨S8x500000, .f32⟩
  | 33 => ⟨S8x500000, .f32⟩
  | 34 => ⟨S500000x8, .f32⟩
  | 35 => ⟨S500000x24, .f32⟩
  | 36 => ⟨S_, .f32⟩
  | 37 => ⟨S500000, .f32⟩
  | 38 => ⟨S500000, .f32⟩
  | 39 => ⟨S_, .f32⟩
  | 40 => ⟨S500000, .f32⟩
  | 41 => ⟨S500000, .f32⟩
  | 42 => ⟨S_, .f32⟩
  | 43 => ⟨S500000, .f32⟩
  | 44 => ⟨S500000, .f32⟩
  | 45 => ⟨S_, .f32⟩
  | 46 => ⟨S500000, .f32⟩
  | 47 => ⟨S500000, .f32⟩
  | 48 => ⟨S_, .f32⟩
  | 49 => ⟨S500000, .f32⟩
  | 50 => ⟨S500000, .f32⟩
  | 51 => ⟨S_, .f32⟩
  | 52 => ⟨S500000, .f32⟩
  | 53 => ⟨S500000, .f32⟩
  | 54 => ⟨S500000, .f32⟩
  | 55 => ⟨S500000, .i32⟩
  | 56 => ⟨S500000, .f32⟩
  | 57 => ⟨S500000, .i32⟩
  | 58 => ⟨S500000, .f32⟩
  | 59 => ⟨S500000, .f32⟩
  | 60 => ⟨S500000, .f32⟩
  | 61 => ⟨S500000, .f32⟩
  | 62 => ⟨S_, .i32⟩
  | 63 => ⟨S_, .i32⟩
  | 64 => ⟨S_, .i32⟩
  | 65 => ⟨S500000, .i32⟩
  | 66 => ⟨S500000, .i32⟩
  | 67 => ⟨S_, .i32⟩
  | 68 => ⟨S500000, .i32⟩
  | 69 => ⟨S500000, .i32⟩
  | 70 => ⟨S_, .i32⟩
  | 71 => ⟨S500000, .i32⟩
  | 72 => ⟨S500000, .i32⟩
  | 73 => ⟨S_, .i32⟩
  | 74 => ⟨S_, .i32⟩
  | 75 => ⟨S_, .i32⟩
  | 76 => ⟨S500000, .i32⟩
  | 77 => ⟨S500000, .i32⟩
  | 78 => ⟨S_, .i32⟩
  | 79 => ⟨S500000, .i32⟩
  | 80 => ⟨S500000, .i32⟩
  | 81 => ⟨S_, .i32⟩
  | 82 => ⟨S_, .i32⟩
  | 83 => ⟨S_, .i32⟩
  | 84 => ⟨S500000, .i32⟩
  | 85 => ⟨S500000, .i32⟩
  | 86 => ⟨S_, .i32⟩
  | 87 => ⟨S500000, .i32⟩
  | 88 => ⟨S500000, .i32⟩
  | 89 => ⟨S_, .i32⟩
  | 90 => ⟨S500000, .i32⟩
  | 91 => ⟨S500000, .i32⟩
  | 92 => ⟨S_, .i32⟩
  | 93 => ⟨S_, .i32⟩
  | 94 => ⟨S_, .i32⟩
  | 95 => ⟨S500000, .i32⟩
  | 96 => ⟨S500000, .i32⟩
  | 97 => ⟨S_, .i32⟩
  | 98 => ⟨S500000, .i32⟩
  | 99 => ⟨S500000, .i32⟩
  | 100 => ⟨S_, .i32⟩
  | 101 => ⟨S500000, .i32⟩
  | 102 => ⟨S500000, .i1⟩
  | 103 => ⟨S_, .i32⟩
  | 104 => ⟨S500000, .i32⟩
  | 105 => ⟨S500000, .i32⟩
  | 106 => ⟨S500000, .i32⟩
  | 107 => ⟨S_, .i32⟩
  | 108 => ⟨S500000, .i32⟩
  | 109 => ⟨S500000, .i1⟩
  | 110 => ⟨S_, .i32⟩
  | 111 => ⟨S500000, .i32⟩
  | 112 => ⟨S500000, .i32⟩
  | 113 => ⟨S500000, .i32⟩
  | 114 => ⟨S500000x1, .i32⟩
  | 115 => ⟨S500000x1, .i32⟩
  | 116 => ⟨S500000x2, .i32⟩
  | 117 => ⟨S8x500000, .f32⟩
  | 118 => ⟨S_, .i32⟩
  | 119 => ⟨S500000, .i32⟩
  | 120 => ⟨S500000, .i1⟩
  | 121 => ⟨S_, .i32⟩
  | 122 => ⟨S500000, .i32⟩
  | 123 => ⟨S500000, .i32⟩
  | 124 => ⟨S500000, .i32⟩
  | 125 => ⟨S_, .i32⟩
  | 126 => ⟨S500000, .i32⟩
  | 127 => ⟨S500000, .i1⟩
  | _ => ⟨S500000x3, .f32⟩

abbrev hbmTy0_5 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000x1, .i32⟩
  | 6 => ⟨S500000x2, .i32⟩
  | 7 => ⟨S8x500000, .f32⟩
  | 8 => ⟨S_, .i32⟩
  | 9 => ⟨S500000, .i32⟩
  | 10 => ⟨S500000, .i1⟩
  | 11 => ⟨S_, .i32⟩
  | 12 => ⟨S500000, .i32⟩
  | 13 => ⟨S500000, .i32⟩
  | 14 => ⟨S500000, .i32⟩
  | 15 => ⟨S_, .i32⟩
  | 16 => ⟨S500000, .i32⟩
  | 17 => ⟨S500000, .i1⟩
  | 18 => ⟨S_, .i32⟩
  | 19 => ⟨S500000, .i32⟩
  | 20 => ⟨S500000, .i32⟩
  | 21 => ⟨S500000, .i32⟩
  | 22 => ⟨S500000x1, .i32⟩
  | 23 => ⟨S500000x1, .i32⟩
  | 24 => ⟨S500000x2, .i32⟩
  | 25 => ⟨S8x500000, .f32⟩
  | 26 => ⟨S_, .i32⟩
  | 27 => ⟨S500000, .i32⟩
  | 28 => ⟨S500000, .i1⟩
  | 29 => ⟨S_, .i32⟩
  | 30 => ⟨S500000, .i32⟩
  | 31 => ⟨S500000, .i32⟩
  | 32 => ⟨S500000, .i32⟩
  | 33 => ⟨S_, .i32⟩
  | 34 => ⟨S500000, .i32⟩
  | 35 => ⟨S500000, .i1⟩
  | 36 => ⟨S_, .i32⟩
  | 37 => ⟨S500000, .i32⟩
  | 38 => ⟨S500000, .i32⟩
  | 39 => ⟨S500000, .i32⟩
  | 40 => ⟨S500000x1, .i32⟩
  | 41 => ⟨S500000x1, .i32⟩
  | 42 => ⟨S500000x2, .i32⟩
  | 43 => ⟨S8x500000, .f32⟩
  | 44 => ⟨S_, .f32⟩
  | 45 => ⟨S500000, .f32⟩
  | 46 => ⟨S500000, .f32⟩
  | 47 => ⟨S1x500000, .f32⟩
  | 48 => ⟨S8x500000, .f32⟩
  | 49 => ⟨S8x500000, .f32⟩
  | 50 => ⟨S1x500000, .f32⟩
  | 51 => ⟨S8x500000, .f32⟩
  | 52 => ⟨S8x500000, .f32⟩
  | 53 => ⟨S8x500000, .f32⟩
  | 54 => ⟨S_, .f32⟩
  | 55 => ⟨S500000, .f32⟩
  | 56 => ⟨S500000, .f32⟩
  | 57 => ⟨S1x500000, .f32⟩
  | 58 => ⟨S8x500000, .f32⟩
  | 59 => ⟨S8x500000, .f32⟩
  | 60 => ⟨S1x500000, .f32⟩
  | 61 => ⟨S8x500000, .f32⟩
  | 62 => ⟨S8x500000, .f32⟩
  | 63 => ⟨S8x500000, .f32⟩
  | 64 => ⟨S_, .f32⟩
  | 65 => ⟨S500000, .f32⟩
  | 66 => ⟨S500000, .f32⟩
  | 67 => ⟨S1x500000, .f32⟩
  | 68 => ⟨S8x500000, .f32⟩
  | 69 => ⟨S8x500000, .f32⟩
  | 70 => ⟨S1x500000, .f32⟩
  | 71 => ⟨S8x500000, .f32⟩
  | 72 => ⟨S8x500000, .f32⟩
  | 73 => ⟨S8x500000, .f32⟩
  | 74 => ⟨S500000x8, .f32⟩
  | 75 => ⟨S_, .f32⟩
  | 76 => ⟨S500000, .f32⟩
  | 77 => ⟨S500000, .f32⟩
  | 78 => ⟨S_, .f32⟩
  | 79 => ⟨S500000, .f32⟩
  | 80 => ⟨S500000, .f32⟩
  | 81 => ⟨S_, .f32⟩
  | 82 => ⟨S500000, .f32⟩
  | 83 => ⟨S500000, .f32⟩
  | 84 => ⟨S_, .f32⟩
  | 85 => ⟨S500000, .f32⟩
  | 86 => ⟨S500000, .f32⟩
  | 87 => ⟨S_, .f32⟩
  | 88 => ⟨S500000, .f32⟩
  | 89 => ⟨S500000, .f32⟩
  | 90 => ⟨S_, .f32⟩
  | 91 => ⟨S500000, .f32⟩
  | 92 => ⟨S500000, .f32⟩
  | 93 => ⟨S500000, .f32⟩
  | 94 => ⟨S500000, .i32⟩
  | 95 => ⟨S500000, .f32⟩
  | 96 => ⟨S500000, .i32⟩
  | 97 => ⟨S500000, .f32⟩
  | 98 => ⟨S500000, .f32⟩
  | 99 => ⟨S500000, .f32⟩
  | 100 => ⟨S500000, .f32⟩
  | 101 => ⟨S_, .i32⟩
  | 102 => ⟨S_, .i32⟩
  | 103 => ⟨S_, .i32⟩
  | 104 => ⟨S500000, .i32⟩
  | 105 => ⟨S500000, .i32⟩
  | 106 => ⟨S_, .i32⟩
  | 107 => ⟨S500000, .i32⟩
  | 108 => ⟨S500000, .i32⟩
  | 109 => ⟨S_, .i32⟩
  | 110 => ⟨S500000, .i32⟩
  | 111 => ⟨S500000, .i32⟩
  | 112 => ⟨S_, .i32⟩
  | 113 => ⟨S_, .i32⟩
  | 114 => ⟨S_, .i32⟩
  | 115 => ⟨S500000, .i32⟩
  | 116 => ⟨S500000, .i32⟩
  | 117 => ⟨S_, .i32⟩
  | 118 => ⟨S500000, .i32⟩
  | 119 => ⟨S500000, .i32⟩
  | 120 => ⟨S_, .i32⟩
  | 121 => ⟨S_, .i32⟩
  | 122 => ⟨S_, .i32⟩
  | 123 => ⟨S500000, .i32⟩
  | 124 => ⟨S500000, .i32⟩
  | 125 => ⟨S_, .i32⟩
  | 126 => ⟨S500000, .i32⟩
  | 127 => ⟨S500000, .i32⟩
  | _ => ⟨S500000x3, .f32⟩

abbrev hbmTy0_6 (i : Nat) : BufTy := match i % 128 with
  | 0 => ⟨S_, .i32⟩
  | 1 => ⟨S500000, .i32⟩
  | 2 => ⟨S500000, .i32⟩
  | 3 => ⟨S_, .i32⟩
  | 4 => ⟨S_, .i32⟩
  | 5 => ⟨S_, .i32⟩
  | 6 => ⟨S500000, .i32⟩
  | 7 => ⟨S500000, .i32⟩
  | 8 => ⟨S_, .i32⟩
  | 9 => ⟨S500000, .i32⟩
  | 10 => ⟨S500000, .i32⟩
  | 11 => ⟨S_, .i32⟩
  | 12 => ⟨S500000, .i32⟩
  | 13 => ⟨S500000, .i1⟩
  | 14 => ⟨S_, .i32⟩
  | 15 => ⟨S500000, .i32⟩
  | 16 => ⟨S500000, .i32⟩
  | 17 => ⟨S500000, .i32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S500000x1, .i32⟩
  | 27 => ⟨S500000x2, .i32⟩
  | 28 => ⟨S8x500000, .f32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S_, .i32⟩
  | 37 => ⟨S500000, .i32⟩
  | 38 => ⟨S500000, .i1⟩
  | 39 => ⟨S_, .i32⟩
  | 40 => ⟨S500000, .i32⟩
  | 41 => ⟨S500000, .i32⟩
  | 42 => ⟨S500000, .i32⟩
  | 43 => ⟨S500000x1, .i32⟩
  | 44 => ⟨S500000x1, .i32⟩
  | 45 => ⟨S500000x2, .i32⟩
  | 46 => ⟨S8x500000, .f32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S_, .i32⟩
  | 55 => ⟨S500000, .i32⟩
  | 56 => ⟨S500000, .i1⟩
  | 57 => ⟨S_, .i32⟩
  | 58 => ⟨S500000, .i32⟩
  | 59 => ⟨S500000, .i32⟩
  | 60 => ⟨S500000, .i32⟩
  | 61 => ⟨S500000x1, .i32⟩
  | 62 => ⟨S500000x1, .i32⟩
  | 63 => ⟨S500000x2, .i32⟩
  | 64 => ⟨S8x500000, .f32⟩
  | 65 => ⟨S_, .i32⟩
  | 66 => ⟨S500000, .i32⟩
  | 67 => ⟨S500000, .i1⟩
  | 68 => ⟨S_, .i32⟩
  | 69 => ⟨S500000, .i32⟩
  | 70 => ⟨S500000, .i32⟩
  | 71 => ⟨S500000, .i32⟩
  | 72 => ⟨S_, .i32⟩
  | 73 => ⟨S500000, .i32⟩
  | 74 => ⟨S500000, .i1⟩
  | 75 => ⟨S_, .i32⟩
  | 76 => ⟨S500000, .i32⟩
  | 77 => ⟨S500000, .i32⟩
  | 78 => ⟨S500000, .i32⟩
  | 79 => ⟨S500000x1, .i32⟩
  | 80 => ⟨S500000x1, .i32⟩
  | 81 => ⟨S500000x2, .i32⟩
  | 82 => ⟨S8x500000, .f32⟩
  | 83 => ⟨S_, .f32⟩
  | 84 => ⟨S500000, .f32⟩
  | 85 => ⟨S500000, .f32⟩
  | 86 => ⟨S1x500000, .f32⟩
  | 87 => ⟨S8x500000, .f32⟩
  | 88 => ⟨S8x500000, .f32⟩
  | 89 => ⟨S1x500000, .f32⟩
  | 90 => ⟨S8x500000, .f32⟩
  | 91 => ⟨S8x500000, .f32⟩
  | 92 => ⟨S8x500000, .f32⟩
  | 93 => ⟨S_, .f32⟩
  | 94 => ⟨S500000, .f32⟩
  | 95 => ⟨S500000, .f32⟩
  | 96 => ⟨S1x500000, .f32⟩
  | 97 => ⟨S8x500000, .f32⟩
  | 98 => ⟨S8x500000, .f32⟩
  | 99 => ⟨S1x500000, .f32⟩
  | 100 => ⟨S8x500000, .f32⟩
  | 101 => ⟨S8x500000, .f32⟩
  | 102 => ⟨S8x500000, .f32⟩
  | 103 => ⟨S_, .f32⟩
  | 104 => ⟨S500000, .f32⟩
  | 105 => ⟨S500000, .f32⟩
  | 106 => ⟨S1x500000, .f32⟩
  | 107 => ⟨S8x500000, .f32⟩
  | 108 => ⟨S8x500000, .f32⟩
  | 109 => ⟨S1x500000, .f32⟩
  | 110 => ⟨S8x500000, .f32⟩
  | 111 => ⟨S8x500000, .f32⟩
  | 112 => ⟨S8x500000, .f32⟩
  | 113 => ⟨S500000x8, .f32⟩
  | 114 => ⟨S_, .f32⟩
  | 115 => ⟨S500000, .f32⟩
  | 116 => ⟨S500000, .f32⟩
  | 117 => ⟨S_, .f32⟩
  | 118 => ⟨S500000, .f32⟩
  | 119 => ⟨S500000, .f32⟩
  | 120 => ⟨S_, .f32⟩
  | 121 => ⟨S500000, .f32⟩
  | 122 => ⟨S500000, .f32⟩
  | 123 => ⟨S_, .f32⟩
  | 124 => ⟨S500000, .f32⟩
  | 125 => ⟨S500000, .f32⟩
  | 126 => ⟨S_, .f32⟩
  | 127 => ⟨S500000, .f32⟩
  | _ => ⟨S500000x3, .f32⟩

abbrev hbmTy0_7 (i : Nat) : BufTy := match i % 128 with
  | 0 => ⟨S500000, .f32⟩
  | 1 => ⟨S_, .f32⟩
  | 2 => ⟨S500000, .f32⟩
  | 3 => ⟨S500000, .f32⟩
  | 4 => ⟨S500000, .f32⟩
  | 5 => ⟨S500000, .i32⟩
  | 6 => ⟨S500000, .f32⟩
  | 7 => ⟨S500000, .i32⟩
  | 8 => ⟨S500000, .f32⟩
  | 9 => ⟨S500000, .f32⟩
  | 10 => ⟨S500000, .f32⟩
  | 11 => ⟨S500000, .f32⟩
  | 12 => ⟨S_, .i32⟩
  | 13 => ⟨S_, .i32⟩
  | 14 => ⟨S_, .i32⟩
  | 15 => ⟨S500000, .i32⟩
  | 16 => ⟨S500000, .i32⟩
  | 17 => ⟨S_, .i32⟩
  | 18 => ⟨S500000, .i32⟩
  | 19 => ⟨S500000, .i32⟩
  | 20 => ⟨S_, .i32⟩
  | 21 => ⟨S500000, .i32⟩
  | 22 => ⟨S500000, .i32⟩
  | 23 => ⟨S_, .i32⟩
  | 24 => ⟨S_, .i32⟩
  | 25 => ⟨S_, .i32⟩
  | 26 => ⟨S500000, .i32⟩
  | 27 => ⟨S500000, .i32⟩
  | 28 => ⟨S_, .i32⟩
  | 29 => ⟨S500000, .i32⟩
  | 30 => ⟨S500000, .i32⟩
  | 31 => ⟨S_, .i32⟩
  | 32 => ⟨S_, .i32⟩
  | 33 => ⟨S_, .i32⟩
  | 34 => ⟨S500000, .i32⟩
  | 35 => ⟨S500000, .i32⟩
  | 36 => ⟨S_, .i32⟩
  | 37 => ⟨S500000, .i32⟩
  | 38 => ⟨S500000, .i32⟩
  | 39 => ⟨S_, .i32⟩
  | 40 => ⟨S500000, .i32⟩
  | 41 => ⟨S500000, .i32⟩
  | 42 => ⟨S_, .i32⟩
  | 43 => ⟨S_, .i32⟩
  | 44 => ⟨S_, .i32⟩
  | 45 => ⟨S500000, .i32⟩
  | 46 => ⟨S500000, .i32⟩
  | 47 => ⟨S_, .i32⟩
  | 48 => ⟨S500000, .i32⟩
  | 49 => ⟨S500000, .i32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000x1, .i32⟩
  | 66 => ⟨S500000x2, .i32⟩
  | 67 => ⟨S8x500000, .f32⟩
  | 68 => ⟨S_, .i32⟩
  | 69 => ⟨S500000, .i32⟩
  | 70 => ⟨S500000, .i1⟩
  | 71 => ⟨S_, .i32⟩
  | 72 => ⟨S500000, .i32⟩
  | 73 => ⟨S500000, .i32⟩
  | 74 => ⟨S500000, .i32⟩
  | 75 => ⟨S_, .i32⟩
  | 76 => ⟨S500000, .i32⟩
  | 77 => ⟨S500000, .i1⟩
  | 78 => ⟨S_, .i32⟩
  | 79 => ⟨S500000, .i32⟩
  | 80 => ⟨S500000, .i32⟩
  | 81 => ⟨S500000, .i32⟩
  | 82 => ⟨S500000x1, .i32⟩
  | 83 => ⟨S500000x1, .i32⟩
  | 84 => ⟨S500000x2, .i32⟩
  | 85 => ⟨S8x500000, .f32⟩
  | 86 => ⟨S_, .i32⟩
  | 87 => ⟨S500000, .i32⟩
  | 88 => ⟨S500000, .i1⟩
  | 89 => ⟨S_, .i32⟩
  | 90 => ⟨S500000, .i32⟩
  | 91 => ⟨S500000, .i32⟩
  | 92 => ⟨S500000, .i32⟩
  | 93 => ⟨S_, .i32⟩
  | 94 => ⟨S500000, .i32⟩
  | 95 => ⟨S500000, .i1⟩
  | 96 => ⟨S_, .i32⟩
  | 97 => ⟨S500000, .i32⟩
  | 98 => ⟨S500000, .i32⟩
  | 99 => ⟨S500000, .i32⟩
  | 100 => ⟨S500000x1, .i32⟩
  | 101 => ⟨S500000x1, .i32⟩
  | 102 => ⟨S500000x2, .i32⟩
  | 103 => ⟨S8x500000, .f32⟩
  | 104 => ⟨S_, .i32⟩
  | 105 => ⟨S500000, .i32⟩
  | 106 => ⟨S500000, .i1⟩
  | 107 => ⟨S_, .i32⟩
  | 108 => ⟨S500000, .i32⟩
  | 109 => ⟨S500000, .i32⟩
  | 110 => ⟨S500000, .i32⟩
  | 111 => ⟨S_, .i32⟩
  | 112 => ⟨S500000, .i32⟩
  | 113 => ⟨S500000, .i1⟩
  | 114 => ⟨S_, .i32⟩
  | 115 => ⟨S500000, .i32⟩
  | 116 => ⟨S500000, .i32⟩
  | 117 => ⟨S500000, .i32⟩
  | 118 => ⟨S500000x1, .i32⟩
  | 119 => ⟨S500000x1, .i32⟩
  | 120 => ⟨S500000x2, .i32⟩
  | 121 => ⟨S8x500000, .f32⟩
  | 122 => ⟨S_, .f32⟩
  | 123 => ⟨S500000, .f32⟩
  | 124 => ⟨S500000, .f32⟩
  | 125 => ⟨S1x500000, .f32⟩
  | 126 => ⟨S8x500000, .f32⟩
  | 127 => ⟨S8x500000, .f32⟩
  | _ => ⟨S500000x3, .f32⟩

abbrev hbmTy0_8 (i : Nat) : BufTy := match i % 128 with
  | 0 => ⟨S1x500000, .f32⟩
  | 1 => ⟨S8x500000, .f32⟩
  | 2 => ⟨S8x500000, .f32⟩
  | 3 => ⟨S8x500000, .f32⟩
  | 4 => ⟨S_, .f32⟩
  | 5 => ⟨S500000, .f32⟩
  | 6 => ⟨S500000, .f32⟩
  | 7 => ⟨S1x500000, .f32⟩
  | 8 => ⟨S8x500000, .f32⟩
  | 9 => ⟨S8x500000, .f32⟩
  | 10 => ⟨S1x500000, .f32⟩
  | 11 => ⟨S8x500000, .f32⟩
  | 12 => ⟨S8x500000, .f32⟩
  | 13 => ⟨S8x500000, .f32⟩
  | 14 => ⟨S_, .f32⟩
  | 15 => ⟨S500000, .f32⟩
  | 16 => ⟨S500000, .f32⟩
  | 17 => ⟨S1x500000, .f32⟩
  | 18 => ⟨S8x500000, .f32⟩
  | 19 => ⟨S8x500000, .f32⟩
  | 20 => ⟨S1x500000, .f32⟩
  | 21 => ⟨S8x500000, .f32⟩
  | 22 => ⟨S8x500000, .f32⟩
  | 23 => ⟨S8x500000, .f32⟩
  | 24 => ⟨S500000x8, .f32⟩
  | 25 => ⟨S500000x24, .f32⟩
  | 26 => ⟨S_, .f32⟩
  | 27 => ⟨S500000, .f32⟩
  | 28 => ⟨S500000, .f32⟩
  | 29 => ⟨S_, .f32⟩
  | 30 => ⟨S500000, .f32⟩
  | 31 => ⟨S500000, .f32⟩
  | 32 => ⟨S_, .f32⟩
  | 33 => ⟨S500000, .f32⟩
  | 34 => ⟨S500000, .f32⟩
  | 35 => ⟨S_, .f32⟩
  | 36 => ⟨S500000, .f32⟩
  | 37 => ⟨S500000, .f32⟩
  | 38 => ⟨S_, .f32⟩
  | 39 => ⟨S500000, .f32⟩
  | 40 => ⟨S500000, .f32⟩
  | 41 => ⟨S_, .f32⟩
  | 42 => ⟨S500000, .f32⟩
  | 43 => ⟨S500000, .f32⟩
  | 44 => ⟨S500000, .f32⟩
  | 45 => ⟨S500000, .i32⟩
  | 46 => ⟨S500000, .f32⟩
  | 47 => ⟨S500000, .i32⟩
  | 48 => ⟨S500000, .f32⟩
  | 49 => ⟨S500000, .f32⟩
  | 50 => ⟨S500000, .f32⟩
  | 51 => ⟨S500000, .f32⟩
  | 52 => ⟨S_, .i32⟩
  | 53 => ⟨S_, .i32⟩
  | 54 => ⟨S_, .i32⟩
  | 55 => ⟨S500000, .i32⟩
  | 56 => ⟨S500000, .i32⟩
  | 57 => ⟨S_, .i32⟩
  | 58 => ⟨S500000, .i32⟩
  | 59 => ⟨S500000, .i32⟩
  | 60 => ⟨S_, .i32⟩
  | 61 => ⟨S500000, .i32⟩
  | 62 => ⟨S500000, .i32⟩
  | 63 => ⟨S_, .i32⟩
  | 64 => ⟨S_, .i32⟩
  | 65 => ⟨S_, .i32⟩
  | 66 => ⟨S500000, .i32⟩
  | 67 => ⟨S500000, .i32⟩
  | 68 => ⟨S_, .i32⟩
  | 69 => ⟨S500000, .i32⟩
  | 70 => ⟨S500000, .i32⟩
  | 71 => ⟨S_, .i32⟩
  | 72 => ⟨S_, .i32⟩
  | 73 => ⟨S_, .i32⟩
  | 74 => ⟨S500000, .i32⟩
  | 75 => ⟨S500000, .i32⟩
  | 76 => ⟨S_, .i32⟩
  | 77 => ⟨S500000, .i32⟩
  | 78 => ⟨S500000, .i32⟩
  | 79 => ⟨S_, .i32⟩
  | 80 => ⟨S500000, .i32⟩
  | 81 => ⟨S500000, .i32⟩
  | 82 => ⟨S_, .i32⟩
  | 83 => ⟨S_, .i32⟩
  | 84 => ⟨S_, .i32⟩
  | 85 => ⟨S500000, .i32⟩
  | 86 => ⟨S500000, .i32⟩
  | 87 => ⟨S_, .i32⟩
  | 88 => ⟨S500000, .i32⟩
  | 89 => ⟨S500000, .i32⟩
  | 90 => ⟨S_, .i32⟩
  | 91 => ⟨S500000, .i32⟩
  | 92 => ⟨S500000, .i1⟩
  | 93 => ⟨S_, .i32⟩
  | 94 => ⟨S500000, .i32⟩
  | 95 => ⟨S500000, .i32⟩
  | 96 => ⟨S500000, .i32⟩
  | 97 => ⟨S_, .i32⟩
  | 98 => ⟨S500000, .i32⟩
  | 99 => ⟨S500000, .i1⟩
  | 100 => ⟨S_, .i32⟩
  | 101 => ⟨S500000, .i32⟩
  | 102 => ⟨S500000, .i32⟩
  | 103 => ⟨S500000, .i32⟩
  | 104 => ⟨S500000x1, .i32⟩
  | 105 => ⟨S500000x1, .i32⟩
  | 106 => ⟨S500000x2, .i32⟩
  | 107 => ⟨S8x500000, .f32⟩
  | 108 => ⟨S_, .i32⟩
  | 109 => ⟨S500000, .i32⟩
  | 110 => ⟨S500000, .i1⟩
  | 111 => ⟨S_, .i32⟩
  | 112 => ⟨S500000, .i32⟩
  | 113 => ⟨S500000, .i32⟩
  | 114 => ⟨S500000, .i32⟩
  | 115 => ⟨S_, .i32⟩
  | 116 => ⟨S500000, .i32⟩
  | 117 => ⟨S500000, .i1⟩
  | 118 => ⟨S_, .i32⟩
  | 119 => ⟨S500000, .i32⟩
  | 120 => ⟨S500000, .i32⟩
  | 121 => ⟨S500000, .i32⟩
  | 122 => ⟨S500000x1, .i32⟩
  | 123 => ⟨S500000x1, .i32⟩
  | 124 => ⟨S500000x2, .i32⟩
  | 125 => ⟨S8x500000, .f32⟩
  | 126 => ⟨S_, .i32⟩
  | 127 => ⟨S500000, .i32⟩
  | _ => ⟨S500000x3, .f32⟩

abbrev hbmTy0_9 (i : Nat) : BufTy := match i % 128 with
  | 0 => ⟨S500000, .i1⟩
  | 1 => ⟨S_, .i32⟩
  | 2 => ⟨S500000, .i32⟩
  | 3 => ⟨S500000, .i32⟩
  | 4 => ⟨S500000, .i32⟩
  | 5 => ⟨S_, .i32⟩
  | 6 => ⟨S500000, .i32⟩
  | 7 => ⟨S500000, .i1⟩
  | 8 => ⟨S_, .i32⟩
  | 9 => ⟨S500000, .i32⟩
  | 10 => ⟨S500000, .i32⟩
  | 11 => ⟨S500000, .i32⟩
  | 12 => ⟨S500000x1, .i32⟩
  | 13 => ⟨S500000x1, .i32⟩
  | 14 => ⟨S500000x2, .i32⟩
  | 15 => ⟨S8x500000, .f32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x1, .i32⟩
  | 32 => ⟨S500000x2, .i32⟩
  | 33 => ⟨S8x500000, .f32⟩
  | 34 => ⟨S_, .f32⟩
  | 35 => ⟨S500000, .f32⟩
  | 36 => ⟨S500000, .f32⟩
  | 37 => ⟨S1x500000, .f32⟩
  | 38 => ⟨S8x500000, .f32⟩
  | 39 => ⟨S8x500000, .f32⟩
  | 40 => ⟨S1x500000, .f32⟩
  | 41 => ⟨S8x500000, .f32⟩
  | 42 => ⟨S8x500000, .f32⟩
  | 43 => ⟨S8x500000, .f32⟩
  | 44 => ⟨S_, .f32⟩
  | 45 => ⟨S500000, .f32⟩
  | 46 => ⟨S500000, .f32⟩
  | 47 => ⟨S1x500000, .f32⟩
  | 48 => ⟨S8x500000, .f32⟩
  | 49 => ⟨S8x500000, .f32⟩
  | 50 => ⟨S1x500000, .f32⟩
  | 51 => ⟨S8x500000, .f32⟩
  | 52 => ⟨S8x500000, .f32⟩
  | 53 => ⟨S8x500000, .f32⟩
  | 54 => ⟨S_, .f32⟩
  | 55 => ⟨S500000, .f32⟩
  | 56 => ⟨S500000, .f32⟩
  | 57 => ⟨S1x500000, .f32⟩
  | 58 => ⟨S8x500000, .f32⟩
  | 59 => ⟨S8x500000, .f32⟩
  | 60 => ⟨S1x500000, .f32⟩
  | 61 => ⟨S8x500000, .f32⟩
  | 62 => ⟨S8x500000, .f32⟩
  | 63 => ⟨S8x500000, .f32⟩
  | 64 => ⟨S500000x8, .f32⟩
  | 65 => ⟨S_, .f32⟩
  | 66 => ⟨S500000, .f32⟩
  | 67 => ⟨S500000, .f32⟩
  | 68 => ⟨S_, .f32⟩
  | 69 => ⟨S500000, .f32⟩
  | 70 => ⟨S500000, .f32⟩
  | 71 => ⟨S_, .f32⟩
  | 72 => ⟨S500000, .f32⟩
  | 73 => ⟨S500000, .f32⟩
  | 74 => ⟨S_, .f32⟩
  | 75 => ⟨S500000, .f32⟩
  | 76 => ⟨S500000, .f32⟩
  | 77 => ⟨S_, .f32⟩
  | 78 => ⟨S500000, .f32⟩
  | 79 => ⟨S500000, .f32⟩
  | 80 => ⟨S_, .f32⟩
  | 81 => ⟨S500000, .f32⟩
  | 82 => ⟨S500000, .f32⟩
  | 83 => ⟨S500000, .f32⟩
  | 84 => ⟨S500000, .i32⟩
  | 85 => ⟨S500000, .f32⟩
  | 86 => ⟨S500000, .i32⟩
  | 87 => ⟨S500000, .f32⟩
  | 88 => ⟨S500000, .f32⟩
  | 89 => ⟨S500000, .f32⟩
  | 90 => ⟨S500000, .f32⟩
  | 91 => ⟨S_, .i32⟩
  | 92 => ⟨S_, .i32⟩
  | 93 => ⟨S_, .i32⟩
  | 94 => ⟨S500000, .i32⟩
  | 95 => ⟨S500000, .i32⟩
  | 96 => ⟨S_, .i32⟩
  | 97 => ⟨S500000, .i32⟩
  | 98 => ⟨S500000, .i32⟩
  | 99 => ⟨S_, .i32⟩
  | 100 => ⟨S500000, .i32⟩
  | 101 => ⟨S500000, .i32⟩
  | 102 => ⟨S_, .i32⟩
  | 103 => ⟨S_, .i32⟩
  | 104 => ⟨S_, .i32⟩
  | 105 => ⟨S500000, .i32⟩
  | 106 => ⟨S500000, .i32⟩
  | 107 => ⟨S_, .i32⟩
  | 108 => ⟨S500000, .i32⟩
  | 109 => ⟨S500000, .i32⟩
  | 110 => ⟨S_, .i32⟩
  | 111 => ⟨S_, .i32⟩
  | 112 => ⟨S_, .i32⟩
  | 113 => ⟨S500000, .i32⟩
  | 114 => ⟨S500000, .i32⟩
  | 115 => ⟨S_, .i32⟩
  | 116 => ⟨S500000, .i32⟩
  | 117 => ⟨S500000, .i32⟩
  | 118 => ⟨S_, .i32⟩
  | 119 => ⟨S500000, .i32⟩
  | 120 => ⟨S500000, .i32⟩
  | 121 => ⟨S_, .i32⟩
  | 122 => ⟨S_, .i32⟩
  | 123 => ⟨S_, .i32⟩
  | 124 => ⟨S500000, .i32⟩
  | 125 => ⟨S500000, .i32⟩
  | 126 => ⟨S_, .i32⟩
  | 127 => ⟨S500000, .i32⟩
  | _ => ⟨S500000x3, .f32⟩

abbrev hbmTy0_10 (i : Nat) : BufTy := match i % 128 with
  | 0 => ⟨S500000, .i32⟩
  | 1 => ⟨S_, .i32⟩
  | 2 => ⟨S500000, .i32⟩
  | 3 => ⟨S500000, .i1⟩
  | 4 => ⟨S_, .i32⟩
  | 5 => ⟨S500000, .i32⟩
  | 6 => ⟨S500000, .i32⟩
  | 7 => ⟨S500000, .i32⟩
  | 8 => ⟨S_, .i32⟩
  | 9 => ⟨S500000, .i32⟩
  | 10 => ⟨S500000, .i1⟩
  | 11 => ⟨S_, .i32⟩
  | 12 => ⟨S500000, .i32⟩
  | 13 => ⟨S500000, .i32⟩
  | 14 => ⟨S500000, .i32⟩
  | 15 => ⟨S500000x1, .i32⟩
  | 16 => ⟨S500000x1, .i32⟩
  | 17 => ⟨S500000x2, .i32⟩
  | 18 => ⟨S8x500000, .f32⟩
  | 19 => ⟨S_, .i32⟩
  | 20 => ⟨S500000, .i32⟩
  | 21 => ⟨S500000, .i1⟩
  | 22 => ⟨S_, .i32⟩
  | 23 => ⟨S500000, .i32⟩
  | 24 => ⟨S500000, .i32⟩
  | 25 => ⟨S500000, .i32⟩
  | 26 => ⟨S_, .i32⟩
  | 27 => ⟨S500000, .i32⟩
  | 28 => ⟨S500000, .i1⟩
  | 29 => ⟨S_, .i32⟩
  | 30 => ⟨S500000, .i32⟩
  | 31 => ⟨S500000, .i32⟩
  | 32 => ⟨S500000, .i32⟩
  | 33 => ⟨S500000x1, .i32⟩
  | 34 => ⟨S500000x1, .i32⟩
  | 35 => ⟨S500000x2, .i32⟩
  | 36 => ⟨S8x500000, .f32⟩
  | 37 => ⟨S_, .i32⟩
  | 38 => ⟨S500000, .i32⟩
  | 39 => ⟨S500000, .i1⟩
  | 40 => ⟨S_, .i32⟩
  | 41 => ⟨S500000, .i32⟩
  | 42 => ⟨S500000, .i32⟩
  | 43 => ⟨S500000, .i32⟩
  | 44 => ⟨S_, .i32⟩
  | 45 => ⟨S500000, .i32⟩
  | 46 => ⟨S500000, .i1⟩
  | 47 => ⟨S_, .i32⟩
  | 48 => ⟨S500000, .i32⟩
  | 49 => ⟨S500000, .i32⟩
  | 50 => ⟨S500000, .i32⟩
  | 51 => ⟨S500000x1, .i32⟩
  | 52 => ⟨S500000x1, .i32⟩
  | 53 => ⟨S500000x2, .i32⟩
  | 54 => ⟨S8x500000, .f32⟩
  | 55 => ⟨S_, .i32⟩
  | 56 => ⟨S500000, .i32⟩
  | 57 => ⟨S500000, .i1⟩
  | 58 => ⟨S_, .i32⟩
  | 59 => ⟨S500000, .i32⟩
  | 60 => ⟨S500000, .i32⟩
  | 61 => ⟨S500000, .i32⟩
  | 62 => ⟨S_, .i32⟩
  | 63 => ⟨S500000, .i32⟩
  | 64 => ⟨S500000, .i1⟩
  | 65 => ⟨S_, .i32⟩
  | 66 => ⟨S500000, .i32⟩
  | 67 => ⟨S500000, .i32⟩
  | 68 => ⟨S500000, .i32⟩
  | 69 => ⟨S500000x1, .i32⟩
  | 70 => ⟨S500000x1, .i32⟩
  | 71 => ⟨S500000x2, .i32⟩
  | 72 => ⟨S8x500000, .f32⟩
  | 73 => ⟨S_, .f32⟩
  | 74 => ⟨S500000, .f32⟩
  | 75 => ⟨S500000, .f32⟩
  | 76 => ⟨S1x500000, .f32⟩
  | 77 => ⟨S8x500000, .f32⟩
  | 78 => ⟨S8x500000, .f32⟩
  | 79 => ⟨S1x500000, .f32⟩
  | 80 => ⟨S8x500000, .f32⟩
  | 81 => ⟨S8x500000, .f32⟩
  | 82 => ⟨S8x500000, .f32⟩
  | 83 => ⟨S_, .f32⟩
  | 84 => ⟨S500000, .f32⟩
  | 85 => ⟨S500000, .f32⟩
  | 86 => ⟨S1x500000, .f32⟩
  | 87 => ⟨S8x500000, .f32⟩
  | 88 => ⟨S8x500000, .f32⟩
  | 89 => ⟨S1x500000, .f32⟩
  | 90 => ⟨S8x500000, .f32⟩
  | 91 => ⟨S8x500000, .f32⟩
  | 92 => ⟨S8x500000, .f32⟩
  | 93 => ⟨S_, .f32⟩
  | 94 => ⟨S500000, .f32⟩
  | 95 => ⟨S500000, .f32⟩
  | 96 => ⟨S1x500000, .f32⟩
  | 97 => ⟨S8x500000, .f32⟩
  | 98 => ⟨S8x500000, .f32⟩
  | 99 => ⟨S1x500000, .f32⟩
  | 100 => ⟨S8x500000, .f32⟩
  | 101 => ⟨S8x500000, .f32⟩
  | 102 => ⟨S8x500000, .f32⟩
  | 103 => ⟨S500000x8, .f32⟩
  | 104 => ⟨S_, .f32⟩
  | 105 => ⟨S500000, .f32⟩
  | 106 => ⟨S500000, .f32⟩
  | 107 => ⟨S_, .f32⟩
  | 108 => ⟨S500000, .f32⟩
  | 109 => ⟨S500000, .f32⟩
  | 110 => ⟨S_, .f32⟩
  | 111 => ⟨S500000, .f32⟩
  | 112 => ⟨S500000, .f32⟩
  | 113 => ⟨S_, .f32⟩
  | 114 => ⟨S500000, .f32⟩
  | 115 => ⟨S500000, .f32⟩
  | 116 => ⟨S_, .f32⟩
  | 117 => ⟨S500000, .f32⟩
  | 118 => ⟨S500000, .f32⟩
  | 119 => ⟨S_, .f32⟩
  | 120 => ⟨S500000, .f32⟩
  | 121 => ⟨S500000, .f32⟩
  | 122 => ⟨S500000, .f32⟩
  | 123 => ⟨S500000, .i32⟩
  | 124 => ⟨S500000, .f32⟩
  | 125 => ⟨S500000, .i32⟩
  | 126 => ⟨S500000, .f32⟩
  | 127 => ⟨S500000, .f32⟩
  | _ => ⟨S500000x3, .f32⟩

abbrev hbmTy0_11 (i : Nat) : BufTy := match i % 128 with
  | 0 => ⟨S500000, .f32⟩
  | 1 => ⟨S500000, .f32⟩
  | 2 => ⟨S_, .i32⟩
  | 3 => ⟨S_, .i32⟩
  | 4 => ⟨S_, .i32⟩
  | 5 => ⟨S500000, .i32⟩
  | 6 => ⟨S500000, .i32⟩
  | 7 => ⟨S_, .i32⟩
  | 8 => ⟨S500000, .i32⟩
  | 9 => ⟨S500000, .i32⟩
  | 10 => ⟨S_, .i32⟩
  | 11 => ⟨S500000, .i32⟩
  | 12 => ⟨S500000, .i32⟩
  | 13 => ⟨S_, .i32⟩
  | 14 => ⟨S_, .i32⟩
  | 15 => ⟨S_, .i32⟩
  | 16 => ⟨S500000, .i32⟩
  | 17 => ⟨S500000, .i32⟩
  | 18 => ⟨S_, .i32⟩
  | 19 => ⟨S500000, .i32⟩
  | 20 => ⟨S500000, .i32⟩
  | 21 => ⟨S_, .i32⟩
  | 22 => ⟨S_, .i32⟩
  | 23 => ⟨S_, .i32⟩
  | 24 => ⟨S500000, .i32⟩
  | 25 => ⟨S500000, .i32⟩
  | 26 => ⟨S_, .i32⟩
  | 27 => ⟨S500000, .i32⟩
  | 28 => ⟨S500000, .i32⟩
  | 29 => ⟨S_, .i32⟩
  | 30 => ⟨S500000, .i32⟩
  | 31 => ⟨S500000, .i32⟩
  | 32 => ⟨S_, .i32⟩
  | 33 => ⟨S_, .i32⟩
  | 34 => ⟨S_, .i32⟩
  | 35 => ⟨S500000, .i32⟩
  | 36 => ⟨S500000, .i32⟩
  | 37 => ⟨S_, .i32⟩
  | 38 => ⟨S500000, .i32⟩
  | 39 => ⟨S500000, .i32⟩
  | 40 => ⟨S_, .i32⟩
  | 41 => ⟨S500000, .i32⟩
  | 42 => ⟨S500000, .i1⟩
  | 43 => ⟨S_, .i32⟩
  | 44 => ⟨S500000, .i32⟩
  | 45 => ⟨S500000, .i32⟩
  | 46 => ⟨S500000, .i32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S500000x1, .i32⟩
  | 55 => ⟨S500000x1, .i32⟩
  | 56 => ⟨S500000x2, .i32⟩
  | 57 => ⟨S8x500000, .f32⟩
  | 58 => ⟨S_, .i32⟩
  | 59 => ⟨S500000, .i32⟩
  | 60 => ⟨S500000, .i1⟩
  | 61 => ⟨S_, .i32⟩
  | 62 => ⟨S500000, .i32⟩
  | 63 => ⟨S500000, .i32⟩
  | 64 => ⟨S500000, .i32⟩
  | 65 => ⟨S_, .i32⟩
  | 66 => ⟨S500000, .i32⟩
  | 67 => ⟨S500000, .i1⟩
  | 68 => ⟨S_, .i32⟩
  | 69 => ⟨S500000, .i32⟩
  | 70 => ⟨S500000, .i32⟩
  | 71 => ⟨S500000, .i32⟩
  | 72 => ⟨S500000x1, .i32⟩
  | 73 => ⟨S500000x1, .i32⟩
  | 74 => ⟨S500000x2, .i32⟩
  | 75 => ⟨S8x500000, .f32⟩
  | 76 => ⟨S_, .i32⟩
  | 77 => ⟨S500000, .i32⟩
  | 78 => ⟨S500000, .i1⟩
  | 79 => ⟨S_, .i32⟩
  | 80 => ⟨S500000, .i32⟩
  | 81 => ⟨S500000, .i32⟩
  | 82 => ⟨S500000, .i32⟩
  | 83 => ⟨S_, .i32⟩
  | 84 => ⟨S500000, .i32⟩
  | 85 => ⟨S500000, .i1⟩
  | 86 => ⟨S_, .i32⟩
  | 87 => ⟨S500000, .i32⟩
  | 88 => ⟨S500000, .i32⟩
  | 89 => ⟨S500000, .i32⟩
  | 90 => ⟨S500000x1, .i32⟩
  | 91 => ⟨S500000x1, .i32⟩
  | 92 => ⟨S500000x2, .i32⟩
  | 93 => ⟨S8x500000, .f32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000x1, .i32⟩
  | 110 => ⟨S500000x2, .i32⟩
  | 111 => ⟨S8x500000, .f32⟩
  | 112 => ⟨S_, .f32⟩
  | 113 => ⟨S500000, .f32⟩
  | 114 => ⟨S500000, .f32⟩
  | 115 => ⟨S1x500000, .f32⟩
  | 116 => ⟨S8x500000, .f32⟩
  | 117 => ⟨S8x500000, .f32⟩
  | 118 => ⟨S1x500000, .f32⟩
  | 119 => ⟨S8x500000, .f32⟩
  | 120 => ⟨S8x500000, .f32⟩
  | 121 => ⟨S8x500000, .f32⟩
  | 122 => ⟨S_, .f32⟩
  | 123 => ⟨S500000, .f32⟩
  | 124 => ⟨S500000, .f32⟩
  | 125 => ⟨S1x500000, .f32⟩
  | 126 => ⟨S8x500000, .f32⟩
  | 127 => ⟨S8x500000, .f32⟩
  | _ => ⟨S500000x3, .f32⟩

abbrev hbmTy0_12 (i : Nat) : BufTy := match i % 128 with
  | 0 => ⟨S1x500000, .f32⟩
  | 1 => ⟨S8x500000, .f32⟩
  | 2 => ⟨S8x500000, .f32⟩
  | 3 => ⟨S8x500000, .f32⟩
  | 4 => ⟨S_, .f32⟩
  | 5 => ⟨S500000, .f32⟩
  | 6 => ⟨S500000, .f32⟩
  | 7 => ⟨S1x500000, .f32⟩
  | 8 => ⟨S8x500000, .f32⟩
  | 9 => ⟨S8x500000, .f32⟩
  | 10 => ⟨S1x500000, .f32⟩
  | 11 => ⟨S8x500000, .f32⟩
  | 12 => ⟨S8x500000, .f32⟩
  | 13 => ⟨S8x500000, .f32⟩
  | 14 => ⟨S500000x8, .f32⟩
  | 15 => ⟨S500000x24, .f32⟩
  | 16 => ⟨S500000x35, .f32⟩
  | _ => ⟨S500000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | _ => ⟨S500000x3, .f32⟩

abbrev bufTy : (tb : Table) → Fin (tcTables nBuf tb) → BufTy
  | .hbm, ⟨i, _⟩ => hbmTy i
  | .local _ .vmem, ⟨0, _⟩ => ⟨S10000x24, .f32⟩
  | .local _ .vmem, ⟨1, _⟩ => ⟨S10000x24, .f32⟩
  | .local _ .vmem, ⟨2, _⟩ => ⟨S10000x24, .f32⟩
  | .local _ .vmem, ⟨3, _⟩ => ⟨S10000x24, .f32⟩
  | .local _ .vmem, ⟨4, _⟩ => ⟨S10000x24, .f32⟩
  | .local _ .vmem, ⟨5, _⟩ => ⟨S10000x24, .f32⟩
  | .local _ .vmem, ⟨6, _⟩ => ⟨S24x168, .f32⟩
  | .local _ .vmem, ⟨7, _⟩ => ⟨S168, .f32⟩
  | .local _ .vmem, ⟨8, _⟩ => ⟨S168x168, .f32⟩
  | .local _ .vmem, ⟨9, _⟩ => ⟨S168, .f32⟩
  | .local _ .vmem, ⟨10, _⟩ => ⟨S168x35, .f32⟩
  | .local _ .vmem, ⟨11, _⟩ => ⟨S35, .f32⟩
  | .local _ .vmem, ⟨12, _⟩ => ⟨S24x168, .f32⟩
  | .local _ .vmem, ⟨13, _⟩ => ⟨S168, .f32⟩
  | .local _ .vmem, ⟨14, _⟩ => ⟨S168x168, .f32⟩
  | .local _ .vmem, ⟨15, _⟩ => ⟨S168, .f32⟩
  | .local _ .vmem, ⟨16, _⟩ => ⟨S168x35, .f32⟩
  | .local _ .vmem, ⟨17, _⟩ => ⟨S35, .f32⟩
  | .local _ .vmem, ⟨18, _⟩ => ⟨S24x168, .f32⟩
  | .local _ .vmem, ⟨19, _⟩ => ⟨S168, .f32⟩
  | .local _ .vmem, ⟨20, _⟩ => ⟨S168x168, .f32⟩
  | .local _ .vmem, ⟨21, _⟩ => ⟨S168, .f32⟩
  | .local _ .vmem, ⟨22, _⟩ => ⟨S168x35, .f32⟩
  | .local _ .vmem, ⟨23, _⟩ => ⟨S35, .f32⟩
  | .local _ .vmem, ⟨24, _⟩ => ⟨S10000x35, .f32⟩
  | .local _ .vmem, ⟨25, _⟩ => ⟨S10000x35, .f32⟩
  | _, _ => ⟨S500000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_cst_1 : Ref sig .tc := ⟨.hbm, 34, rfl⟩
abbrev main_v4 : Ref sig .tc := ⟨.hbm, 35, rfl⟩
abbrev main_v5 : Ref sig .tc := ⟨.hbm, 36, rfl⟩
abbrev main_cst_2 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_3 : Ref sig .tc := ⟨.hbm, 46, rfl⟩
abbrev main_v14 : Ref sig .tc := ⟨.hbm, 47, rfl⟩
abbrev main_v15 : Ref sig .tc := ⟨.hbm, 48, rfl⟩
abbrev main_cst_4 : Ref sig .tc := ⟨.hbm, 49, rfl⟩
abbrev main_v16 : Ref sig .tc := ⟨.hbm, 50, rfl⟩
abbrev main_v17 : Ref sig .tc := ⟨.hbm, 51, rfl⟩
abbrev main_cst_5 : Ref sig .tc := ⟨.hbm, 52, rfl⟩
abbrev main_v18 : Ref sig .tc := ⟨.hbm, 53, rfl⟩
abbrev main_v19 : Ref sig .tc := ⟨.hbm, 54, rfl⟩
abbrev main_cst_6 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_c : Ref sig .tc := ⟨.hbm, 72, rfl⟩
abbrev main_c_9 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_v34 : Ref sig .tc := ⟨.hbm, 79, rfl⟩
abbrev main_c_10 : Ref sig .tc := ⟨.hbm, 80, rfl⟩
abbrev main_v35 : Ref sig .tc := ⟨.hbm, 81, rfl⟩
abbrev main_v36 : Ref sig .tc := ⟨.hbm, 82, rfl⟩
abbrev main_c_11 : Ref sig .tc := ⟨.hbm, 83, rfl⟩
abbrev main_c_12 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_v37 : Ref sig .tc := ⟨.hbm, 90, rfl⟩
abbrev main_c_13 : Ref sig .tc := ⟨.hbm, 91, rfl⟩
abbrev main_c_14 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_v38 : Ref sig .tc := ⟨.hbm, 98, rfl⟩
abbrev main_c_15 : Ref sig .tc := ⟨.hbm, 99, rfl⟩
abbrev main_v39 : Ref sig .tc := ⟨.hbm, 100, rfl⟩
abbrev main_v40 : Ref sig .tc := ⟨.hbm, 101, rfl⟩
abbrev main_c_16 : Ref sig .tc := ⟨.hbm, 102, rfl⟩
abbrev main_c_17 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_v41 : Ref sig .tc := ⟨.hbm, 109, rfl⟩
abbrev main_c_18 : Ref sig .tc := ⟨.hbm, 110, rfl⟩
abbrev main_v42 : Ref sig .tc := ⟨.hbm, 111, rfl⟩
abbrev main_v43 : Ref sig .tc := ⟨.hbm, 112, rfl⟩
abbrev main_c_19 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_c_20 : Ref sig .tc := ⟨.hbm, 117, rfl⟩
abbrev main_v47 : Ref sig .tc := ⟨.hbm, 118, rfl⟩
abbrev main_v48 : Ref sig .tc := ⟨.hbm, 119, rfl⟩
abbrev main_c_21 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_c_22 : Ref sig .tc := ⟨.hbm, 128, rfl⟩
abbrev main_v56 : Ref sig .tc := ⟨.hbm, 129, rfl⟩
abbrev main_v57 : Ref sig .tc := ⟨.hbm, 130, rfl⟩
abbrev main_c_23 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_c_24 : Ref sig .tc := ⟨.hbm, 135, rfl⟩
abbrev main_v61 : Ref sig .tc := ⟨.hbm, 136, rfl⟩
abbrev main_v62 : Ref sig .tc := ⟨.hbm, 137, rfl⟩
abbrev main_c_25 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_c_26 : Ref sig .tc := ⟨.hbm, 146, rfl⟩
abbrev main_v70 : Ref sig .tc := ⟨.hbm, 147, rfl⟩
abbrev main_v71 : Ref sig .tc := ⟨.hbm, 148, rfl⟩
abbrev main_c_27 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_c_28 : Ref sig .tc := ⟨.hbm, 153, rfl⟩
abbrev main_v75 : Ref sig .tc := ⟨.hbm, 154, rfl⟩
abbrev main_v76 : Ref sig .tc := ⟨.hbm, 155, rfl⟩
abbrev main_c_29 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_c_30 : Ref sig .tc := ⟨.hbm, 164, rfl⟩
abbrev main_v84 : Ref sig .tc := ⟨.hbm, 165, rfl⟩
abbrev main_v85 : Ref sig .tc := ⟨.hbm, 166, rfl⟩
abbrev main_c_31 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_c_32 : Ref sig .tc := ⟨.hbm, 171, rfl⟩
abbrev main_v89 : Ref sig .tc := ⟨.hbm, 172, rfl⟩
abbrev main_v90 : Ref sig .tc := ⟨.hbm, 173, rfl⟩
abbrev main_c_33 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_cst_34 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_cst_35 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_cst_36 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_cst_37 : Ref sig .tc := ⟨.hbm, 213, rfl⟩
abbrev main_v126 : Ref sig .tc := ⟨.hbm, 214, rfl⟩
abbrev main_v127 : Ref sig .tc := ⟨.hbm, 215, rfl⟩
abbrev main_cst_38 : Ref sig .tc := ⟨.hbm, 216, rfl⟩
abbrev main_v128 : Ref sig .tc := ⟨.hbm, 217, rfl⟩
abbrev main_v129 : Ref sig .tc := ⟨.hbm, 218, rfl⟩
abbrev main_cst_39 : Ref sig .tc := ⟨.hbm, 219, rfl⟩
abbrev main_v130 : Ref sig .tc := ⟨.hbm, 220, rfl⟩
abbrev main_v131 : Ref sig .tc := ⟨.hbm, 221, rfl⟩
abbrev main_cst_40 : Ref sig .tc := ⟨.hbm, 222, rfl⟩
abbrev main_v132 : Ref sig .tc := ⟨.hbm, 223, rfl⟩
abbrev main_v133 : Ref sig .tc := ⟨.hbm, 224, rfl⟩
abbrev main_cst_41 : Ref sig .tc := ⟨.hbm, 225, rfl⟩
abbrev main_v134 : Ref sig .tc := ⟨.hbm, 226, rfl⟩
abbrev main_v135 : Ref sig .tc := ⟨.hbm, 227, rfl⟩
abbrev main_cst_42 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_c_43 : Ref sig .tc := ⟨.hbm, 239, rfl⟩
abbrev main_c_44 : Ref sig .tc := ⟨.hbm, 240, rfl⟩
abbrev main_call4_v0 : Ref sig .tc := ⟨.hbm, 241, rfl⟩
abbrev main_call4_v1 : Ref sig .tc := ⟨.hbm, 242, rfl⟩
abbrev main_call4_v2 : Ref sig .tc := ⟨.hbm, 243, rfl⟩
abbrev main_call4_v3 : Ref sig .tc := ⟨.hbm, 244, rfl⟩
abbrev main_call4_v4 : Ref sig .tc := ⟨.hbm, 245, rfl⟩
abbrev main_v146 : Ref sig .tc := ⟨.hbm, 246, rfl⟩
abbrev main_c_45 : Ref sig .tc := ⟨.hbm, 247, rfl⟩
abbrev main_v147 : Ref sig .tc := ⟨.hbm, 248, rfl⟩
abbrev main_v148 : Ref sig .tc := ⟨.hbm, 249, rfl⟩
abbrev main_c_46 : Ref sig .tc := ⟨.hbm, 250, rfl⟩
abbrev main_c_47 : Ref sig .tc := ⟨.hbm, 251, rfl⟩
abbrev main_call5_v0 : Ref sig .tc := ⟨.hbm, 252, rfl⟩
abbrev main_call5_v1 : Ref sig .tc := ⟨.hbm, 253, rfl⟩
abbrev main_call5_v2 : Ref sig .tc := ⟨.hbm, 254, rfl⟩
abbrev main_call5_v3 : Ref sig .tc := ⟨.hbm, 255, rfl⟩
abbrev main_call5_v4 : Ref sig .tc := ⟨.hbm, 256, rfl⟩
abbrev main_v149 : Ref sig .tc := ⟨.hbm, 257, rfl⟩
abbrev main_c_48 : Ref sig .tc := ⟨.hbm, 258, rfl⟩
abbrev main_c_49 : Ref sig .tc := ⟨.hbm, 259, rfl⟩
abbrev main_call6_v0 : Ref sig .tc := ⟨.hbm, 260, rfl⟩
abbrev main_call6_v1 : Ref sig .tc := ⟨.hbm, 261, rfl⟩
abbrev main_call6_v2 : Ref sig .tc := ⟨.hbm, 262, rfl⟩
abbrev main_call6_v3 : Ref sig .tc := ⟨.hbm, 263, rfl⟩
abbrev main_call6_v4 : Ref sig .tc := ⟨.hbm, 264, rfl⟩
abbrev main_v150 : Ref sig .tc := ⟨.hbm, 265, rfl⟩
abbrev main_c_50 : Ref sig .tc := ⟨.hbm, 266, rfl⟩
abbrev main_v151 : Ref sig .tc := ⟨.hbm, 267, rfl⟩
abbrev main_v152 : Ref sig .tc := ⟨.hbm, 268, rfl⟩
abbrev main_c_51 : Ref sig .tc := ⟨.hbm, 269, rfl⟩
abbrev main_c_52 : Ref sig .tc := ⟨.hbm, 270, rfl⟩
abbrev main_call7_v0 : Ref sig .tc := ⟨.hbm, 271, rfl⟩
abbrev main_call7_v1 : Ref sig .tc := ⟨.hbm, 272, rfl⟩
abbrev main_call7_v2 : Ref sig .tc := ⟨.hbm, 273, rfl⟩
abbrev main_call7_v3 : Ref sig .tc := ⟨.hbm, 274, rfl⟩
abbrev main_call7_v4 : Ref sig .tc := ⟨.hbm, 275, rfl⟩
abbrev main_v153 : Ref sig .tc := ⟨.hbm, 276, rfl⟩
abbrev main_c_53 : Ref sig .tc := ⟨.hbm, 277, rfl⟩
abbrev main_v154 : Ref sig .tc := ⟨.hbm, 278, rfl⟩
abbrev main_v155 : Ref sig .tc := ⟨.hbm, 279, rfl⟩
abbrev main_c_54 : Ref sig .tc := ⟨.hbm, 280, rfl⟩
abbrev main_v156 : Ref sig .tc := ⟨.hbm, 281, rfl⟩
abbrev main_v157 : Ref sig .tc := ⟨.hbm, 282, rfl⟩
abbrev main_v158 : Ref sig .tc := ⟨.hbm, 283, rfl⟩
abbrev main_c_55 : Ref sig .tc := ⟨.hbm, 284, rfl⟩
abbrev main_v159 : Ref sig .tc := ⟨.hbm, 285, rfl⟩
abbrev main_v160 : Ref sig .tc := ⟨.hbm, 286, rfl⟩
abbrev main_c_56 : Ref sig .tc := ⟨.hbm, 287, rfl⟩
abbrev main_v161 : Ref sig .tc := ⟨.hbm, 288, rfl⟩
abbrev main_v162 : Ref sig .tc := ⟨.hbm, 289, rfl⟩
abbrev main_v163 : Ref sig .tc := ⟨.hbm, 290, rfl⟩
abbrev main_v164 : Ref sig .tc := ⟨.hbm, 291, rfl⟩
abbrev main_v165 : Ref sig .tc := ⟨.hbm, 292, rfl⟩
abbrev main_v166 : Ref sig .tc := ⟨.hbm, 293, rfl⟩
abbrev main_v167 : Ref sig .tc := ⟨.hbm, 294, rfl⟩
abbrev main_c_57 : Ref sig .tc := ⟨.hbm, 295, rfl⟩
abbrev main_v168 : Ref sig .tc := ⟨.hbm, 296, rfl⟩
abbrev main_v169 : Ref sig .tc := ⟨.hbm, 297, rfl⟩
abbrev main_c_58 : Ref sig .tc := ⟨.hbm, 298, rfl⟩
abbrev main_v170 : Ref sig .tc := ⟨.hbm, 299, rfl⟩
abbrev main_v171 : Ref sig .tc := ⟨.hbm, 300, rfl⟩
abbrev main_v172 : Ref sig .tc := ⟨.hbm, 301, rfl⟩
abbrev main_c_59 : Ref sig .tc := ⟨.hbm, 302, rfl⟩
abbrev main_v173 : Ref sig .tc := ⟨.hbm, 303, rfl⟩
abbrev main_v174 : Ref sig .tc := ⟨.hbm, 304, rfl⟩
abbrev main_c_60 : Ref sig .tc := ⟨.hbm, 305, rfl⟩
abbrev main_v175 : Ref sig .tc := ⟨.hbm, 306, rfl⟩
abbrev main_v176 : Ref sig .tc := ⟨.hbm, 307, rfl⟩
abbrev main_v177 : Ref sig .tc := ⟨.hbm, 308, rfl⟩
abbrev main_v178 : Ref sig .tc := ⟨.hbm, 309, rfl⟩
abbrev main_v179 : Ref sig .tc := ⟨.hbm, 310, rfl⟩
abbrev main_v180 : Ref sig .tc := ⟨.hbm, 311, rfl⟩
abbrev main_v181 : Ref sig .tc := ⟨.hbm, 312, rfl⟩
abbrev main_c_61 : Ref sig .tc := ⟨.hbm, 313, rfl⟩
abbrev main_v182 : Ref sig .tc := ⟨.hbm, 314, rfl⟩
abbrev main_v183 : Ref sig .tc := ⟨.hbm, 315, rfl⟩
abbrev main_c_62 : Ref sig .tc := ⟨.hbm, 316, rfl⟩
abbrev main_v184 : Ref sig .tc := ⟨.hbm, 317, rfl⟩
abbrev main_v185 : Ref sig .tc := ⟨.hbm, 318, rfl⟩
abbrev main_v186 : Ref sig .tc := ⟨.hbm, 319, rfl⟩
abbrev main_c_63 : Ref sig .tc := ⟨.hbm, 320, rfl⟩
abbrev main_v187 : Ref sig .tc := ⟨.hbm, 321, rfl⟩
abbrev main_v188 : Ref sig .tc := ⟨.hbm, 322, rfl⟩
abbrev main_c_64 : Ref sig .tc := ⟨.hbm, 323, rfl⟩
abbrev main_v189 : Ref sig .tc := ⟨.hbm, 324, rfl⟩
abbrev main_v190 : Ref sig .tc := ⟨.hbm, 325, rfl⟩
abbrev main_v191 : Ref sig .tc := ⟨.hbm, 326, rfl⟩
abbrev main_v192 : Ref sig .tc := ⟨.hbm, 327, rfl⟩
abbrev main_v193 : Ref sig .tc := ⟨.hbm, 328, rfl⟩
abbrev main_v194 : Ref sig .tc := ⟨.hbm, 329, rfl⟩
abbrev main_v195 : Ref sig .tc := ⟨.hbm, 330, rfl⟩
abbrev main_c_65 : Ref sig .tc := ⟨.hbm, 331, rfl⟩
abbrev main_v196 : Ref sig .tc := ⟨.hbm, 332, rfl⟩
abbrev main_v197 : Ref sig .tc := ⟨.hbm, 333, rfl⟩
abbrev main_c_66 : Ref sig .tc := ⟨.hbm, 334, rfl⟩
abbrev main_v198 : Ref sig .tc := ⟨.hbm, 335, rfl⟩
abbrev main_v199 : Ref sig .tc := ⟨.hbm, 336, rfl⟩
abbrev main_v200 : Ref sig .tc := ⟨.hbm, 337, rfl⟩
abbrev main_c_67 : Ref sig .tc := ⟨.hbm, 338, rfl⟩
abbrev main_v201 : Ref sig .tc := ⟨.hbm, 339, rfl⟩
abbrev main_v202 : Ref sig .tc := ⟨.hbm, 340, rfl⟩
abbrev main_c_68 : Ref sig .tc := ⟨.hbm, 341, rfl⟩
abbrev main_v203 : Ref sig .tc := ⟨.hbm, 342, rfl⟩
abbrev main_v204 : Ref sig .tc := ⟨.hbm, 343, rfl⟩
abbrev main_v205 : Ref sig .tc := ⟨.hbm, 344, rfl⟩
abbrev main_v206 : Ref sig .tc := ⟨.hbm, 345, rfl⟩
abbrev main_v207 : Ref sig .tc := ⟨.hbm, 346, rfl⟩
abbrev main_v208 : Ref sig .tc := ⟨.hbm, 347, rfl⟩
abbrev main_v209 : Ref sig .tc := ⟨.hbm, 348, rfl⟩
abbrev main_cst_69 : Ref sig .tc := ⟨.hbm, 349, rfl⟩
abbrev main_v210 : Ref sig .tc := ⟨.hbm, 350, rfl⟩
abbrev main_v211 : Ref sig .tc := ⟨.hbm, 351, rfl⟩
abbrev main_v212 : Ref sig .tc := ⟨.hbm, 352, rfl⟩
abbrev main_v213 : Ref sig .tc := ⟨.hbm, 353, rfl⟩
abbrev main_v214 : Ref sig .tc := ⟨.hbm, 354, rfl⟩
abbrev main_v215 : Ref sig .tc := ⟨.hbm, 355, rfl⟩
abbrev main_v216 : Ref sig .tc := ⟨.hbm, 356, rfl⟩
abbrev main_v217 : Ref sig .tc := ⟨.hbm, 357, rfl⟩
abbrev main_v218 : Ref sig .tc := ⟨.hbm, 358, rfl⟩
abbrev main_cst_70 : Ref sig .tc := ⟨.hbm, 359, rfl⟩
abbrev main_v219 : Ref sig .tc := ⟨.hbm, 360, rfl⟩
abbrev main_v220 : Ref sig .tc := ⟨.hbm, 361, rfl⟩
abbrev main_v221 : Ref sig .tc := ⟨.hbm, 362, rfl⟩
abbrev main_v222 : Ref sig .tc := ⟨.hbm, 363, rfl⟩
abbrev main_v223 : Ref sig .tc := ⟨.hbm, 364, rfl⟩
abbrev main_v224 : Ref sig .tc := ⟨.hbm, 365, rfl⟩
abbrev main_v225 : Ref sig .tc := ⟨.hbm, 366, rfl⟩
abbrev main_v226 : Ref sig .tc := ⟨.hbm, 367, rfl⟩
abbrev main_v227 : Ref sig .tc := ⟨.hbm, 368, rfl⟩
abbrev main_cst_71 : Ref sig .tc := ⟨.hbm, 369, rfl⟩
abbrev main_v228 : Ref sig .tc := ⟨.hbm, 370, rfl⟩
abbrev main_v229 : Ref sig .tc := ⟨.hbm, 371, rfl⟩
abbrev main_v230 : Ref sig .tc := ⟨.hbm, 372, rfl⟩
abbrev main_v231 : Ref sig .tc := ⟨.hbm, 373, rfl⟩
abbrev main_v232 : Ref sig .tc := ⟨.hbm, 374, rfl⟩
abbrev main_v233 : Ref sig .tc := ⟨.hbm, 375, rfl⟩
abbrev main_v234 : Ref sig .tc := ⟨.hbm, 376, rfl⟩
abbrev main_v235 : Ref sig .tc := ⟨.hbm, 377, rfl⟩
abbrev main_v236 : Ref sig .tc := ⟨.hbm, 378, rfl⟩
abbrev main_v237 : Ref sig .tc := ⟨.hbm, 379, rfl⟩
abbrev main_cst_72 : Ref sig .tc := ⟨.hbm, 380, rfl⟩
abbrev main_v238 : Ref sig .tc := ⟨.hbm, 381, rfl⟩
abbrev main_v239 : Ref sig .tc := ⟨.hbm, 382, rfl⟩
abbrev main_cst_73 : Ref sig .tc := ⟨.hbm, 383, rfl⟩
abbrev main_v240 : Ref sig .tc := ⟨.hbm, 384, rfl⟩
abbrev main_v241 : Ref sig .tc := ⟨.hbm, 385, rfl⟩
abbrev main_cst_74 : Ref sig .tc := ⟨.hbm, 386, rfl⟩
abbrev main_v242 : Ref sig .tc := ⟨.hbm, 387, rfl⟩
abbrev main_v243 : Ref sig .tc := ⟨.hbm, 388, rfl⟩
abbrev main_cst_75 : Ref sig .tc := ⟨.hbm, 389, rfl⟩
abbrev main_v244 : Ref sig .tc := ⟨.hbm, 390, rfl⟩
abbrev main_v245 : Ref sig .tc := ⟨.hbm, 391, rfl⟩
abbrev main_cst_76 : Ref sig .tc := ⟨.hbm, 392, rfl⟩
abbrev main_v246 : Ref sig .tc := ⟨.hbm, 393, rfl⟩
abbrev main_v247 : Ref sig .tc := ⟨.hbm, 394, rfl⟩
abbrev main_cst_77 : Ref sig .tc := ⟨.hbm, 395, rfl⟩
abbrev main_v248 : Ref sig .tc := ⟨.hbm, 396, rfl⟩
abbrev main_v249 : Ref sig .tc := ⟨.hbm, 397, rfl⟩
abbrev main_v250 : Ref sig .tc := ⟨.hbm, 398, rfl⟩
abbrev main_v251 : Ref sig .tc := ⟨.hbm, 399, rfl⟩
abbrev main_v252 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_v256 : Ref sig .tc := ⟨.hbm, 404, rfl⟩
abbrev main_v257 : Ref sig .tc := ⟨.hbm, 405, rfl⟩
abbrev main_c_78 : Ref sig .tc := ⟨.hbm, 406, rfl⟩
abbrev main_c_79 : Ref sig .tc := ⟨.hbm, 407, rfl⟩
abbrev main_call8_v0 : Ref sig .tc := ⟨.hbm, 408, rfl⟩
abbrev main_call8_v1 : Ref sig .tc := ⟨.hbm, 409, rfl⟩
abbrev main_call8_v2 : Ref sig .tc := ⟨.hbm, 410, rfl⟩
abbrev main_call8_v3 : Ref sig .tc := ⟨.hbm, 411, rfl⟩
abbrev main_call8_v4 : Ref sig .tc := ⟨.hbm, 412, rfl⟩
abbrev main_v258 : Ref sig .tc := ⟨.hbm, 413, rfl⟩
abbrev main_c_80 : Ref sig .tc := ⟨.hbm, 414, rfl⟩
abbrev main_v259 : Ref sig .tc := ⟨.hbm, 415, rfl⟩
abbrev main_v260 : Ref sig .tc := ⟨.hbm, 416, rfl⟩
abbrev main_c_81 : Ref sig .tc := ⟨.hbm, 417, rfl⟩
abbrev main_c_82 : Ref sig .tc := ⟨.hbm, 418, rfl⟩
abbrev main_call9_v0 : Ref sig .tc := ⟨.hbm, 419, rfl⟩
abbrev main_call9_v1 : Ref sig .tc := ⟨.hbm, 420, rfl⟩
abbrev main_call9_v2 : Ref sig .tc := ⟨.hbm, 421, rfl⟩
abbrev main_call9_v3 : Ref sig .tc := ⟨.hbm, 422, rfl⟩
abbrev main_call9_v4 : Ref sig .tc := ⟨.hbm, 423, rfl⟩
abbrev main_v261 : Ref sig .tc := ⟨.hbm, 424, rfl⟩
abbrev main_c_83 : Ref sig .tc := ⟨.hbm, 425, rfl⟩
abbrev main_c_84 : Ref sig .tc := ⟨.hbm, 426, rfl⟩
abbrev main_call10_v0 : Ref sig .tc := ⟨.hbm, 427, rfl⟩
abbrev main_call10_v1 : Ref sig .tc := ⟨.hbm, 428, rfl⟩
abbrev main_call10_v2 : Ref sig .tc := ⟨.hbm, 429, rfl⟩
abbrev main_call10_v3 : Ref sig .tc := ⟨.hbm, 430, rfl⟩
abbrev main_call10_v4 : Ref sig .tc := ⟨.hbm, 431, rfl⟩
abbrev main_v262 : Ref sig .tc := ⟨.hbm, 432, rfl⟩
abbrev main_c_85 : Ref sig .tc := ⟨.hbm, 433, rfl⟩
abbrev main_v263 : Ref sig .tc := ⟨.hbm, 434, rfl⟩
abbrev main_v264 : Ref sig .tc := ⟨.hbm, 435, rfl⟩
abbrev main_c_86 : Ref sig .tc := ⟨.hbm, 436, rfl⟩
abbrev main_c_87 : Ref sig .tc := ⟨.hbm, 437, rfl⟩
abbrev main_call11_v0 : Ref sig .tc := ⟨.hbm, 438, rfl⟩
abbrev main_call11_v1 : Ref sig .tc := ⟨.hbm, 439, rfl⟩
abbrev main_call11_v2 : Ref sig .tc := ⟨.hbm, 440, rfl⟩
abbrev main_call11_v3 : Ref sig .tc := ⟨.hbm, 441, rfl⟩
abbrev main_call11_v4 : Ref sig .tc := ⟨.hbm, 442, rfl⟩
abbrev main_v265 : Ref sig .tc := ⟨.hbm, 443, rfl⟩
abbrev main_c_88 : Ref sig .tc := ⟨.hbm, 444, rfl⟩
abbrev main_v266 : Ref sig .tc := ⟨.hbm, 445, rfl⟩
abbrev main_v267 : Ref sig .tc := ⟨.hbm, 446, rfl⟩
abbrev main_c_89 : Ref sig .tc := ⟨.hbm, 447, rfl⟩
abbrev main_v268 : Ref sig .tc := ⟨.hbm, 448, rfl⟩
abbrev main_v269 : Ref sig .tc := ⟨.hbm, 449, rfl⟩
abbrev main_v270 : Ref sig .tc := ⟨.hbm, 450, rfl⟩
abbrev main_c_90 : Ref sig .tc := ⟨.hbm, 451, rfl⟩
abbrev main_v271 : Ref sig .tc := ⟨.hbm, 452, rfl⟩
abbrev main_v272 : Ref sig .tc := ⟨.hbm, 453, rfl⟩
abbrev main_c_91 : Ref sig .tc := ⟨.hbm, 454, rfl⟩
abbrev main_v273 : Ref sig .tc := ⟨.hbm, 455, rfl⟩
abbrev main_v274 : Ref sig .tc := ⟨.hbm, 456, rfl⟩
abbrev main_v275 : Ref sig .tc := ⟨.hbm, 457, rfl⟩
abbrev main_v276 : Ref sig .tc := ⟨.hbm, 458, rfl⟩
abbrev main_v277 : Ref sig .tc := ⟨.hbm, 459, rfl⟩
abbrev main_v278 : Ref sig .tc := ⟨.hbm, 460, rfl⟩
abbrev main_v279 : Ref sig .tc := ⟨.hbm, 461, rfl⟩
abbrev main_c_92 : Ref sig .tc := ⟨.hbm, 462, rfl⟩
abbrev main_v280 : Ref sig .tc := ⟨.hbm, 463, rfl⟩
abbrev main_v281 : Ref sig .tc := ⟨.hbm, 464, rfl⟩
abbrev main_c_93 : Ref sig .tc := ⟨.hbm, 465, rfl⟩
abbrev main_v282 : Ref sig .tc := ⟨.hbm, 466, rfl⟩
abbrev main_v283 : Ref sig .tc := ⟨.hbm, 467, rfl⟩
abbrev main_v284 : Ref sig .tc := ⟨.hbm, 468, rfl⟩
abbrev main_c_94 : Ref sig .tc := ⟨.hbm, 469, rfl⟩
abbrev main_v285 : Ref sig .tc := ⟨.hbm, 470, rfl⟩
abbrev main_v286 : Ref sig .tc := ⟨.hbm, 471, rfl⟩
abbrev main_c_95 : Ref sig .tc := ⟨.hbm, 472, rfl⟩
abbrev main_v287 : Ref sig .tc := ⟨.hbm, 473, rfl⟩
abbrev main_v288 : Ref sig .tc := ⟨.hbm, 474, rfl⟩
abbrev main_v289 : Ref sig .tc := ⟨.hbm, 475, rfl⟩
abbrev main_v290 : Ref sig .tc := ⟨.hbm, 476, rfl⟩
abbrev main_v291 : Ref sig .tc := ⟨.hbm, 477, rfl⟩
abbrev main_v292 : Ref sig .tc := ⟨.hbm, 478, rfl⟩
abbrev main_v293 : Ref sig .tc := ⟨.hbm, 479, rfl⟩
abbrev main_c_96 : Ref sig .tc := ⟨.hbm, 480, rfl⟩
abbrev main_v294 : Ref sig .tc := ⟨.hbm, 481, rfl⟩
abbrev main_v295 : Ref sig .tc := ⟨.hbm, 482, rfl⟩
abbrev main_c_97 : Ref sig .tc := ⟨.hbm, 483, rfl⟩
abbrev main_v296 : Ref sig .tc := ⟨.hbm, 484, rfl⟩
abbrev main_v297 : Ref sig .tc := ⟨.hbm, 485, rfl⟩
abbrev main_v298 : Ref sig .tc := ⟨.hbm, 486, rfl⟩
abbrev main_c_98 : Ref sig .tc := ⟨.hbm, 487, rfl⟩
abbrev main_v299 : Ref sig .tc := ⟨.hbm, 488, rfl⟩
abbrev main_v300 : Ref sig .tc := ⟨.hbm, 489, rfl⟩
abbrev main_c_99 : Ref sig .tc := ⟨.hbm, 490, rfl⟩
abbrev main_v301 : Ref sig .tc := ⟨.hbm, 491, rfl⟩
abbrev main_v302 : Ref sig .tc := ⟨.hbm, 492, rfl⟩
abbrev main_v303 : Ref sig .tc := ⟨.hbm, 493, rfl⟩
abbrev main_v304 : Ref sig .tc := ⟨.hbm, 494, rfl⟩
abbrev main_v305 : Ref sig .tc := ⟨.hbm, 495, rfl⟩
abbrev main_v306 : Ref sig .tc := ⟨.hbm, 496, rfl⟩
abbrev main_v307 : Ref sig .tc := ⟨.hbm, 497, rfl⟩
abbrev main_c_100 : Ref sig .tc := ⟨.hbm, 498, rfl⟩
abbrev main_v308 : Ref sig .tc := ⟨.hbm, 499, rfl⟩
abbrev main_v309 : Ref sig .tc := ⟨.hbm, 500, rfl⟩
abbrev main_c_101 : Ref sig .tc := ⟨.hbm, 501, rfl⟩
abbrev main_v310 : Ref sig .tc := ⟨.hbm, 502, rfl⟩
abbrev main_v311 : Ref sig .tc := ⟨.hbm, 503, rfl⟩
abbrev main_v312 : Ref sig .tc := ⟨.hbm, 504, rfl⟩
abbrev main_c_102 : Ref sig .tc := ⟨.hbm, 505, rfl⟩
abbrev main_v313 : Ref sig .tc := ⟨.hbm, 506, rfl⟩
abbrev main_v314 : Ref sig .tc := ⟨.hbm, 507, rfl⟩
abbrev main_c_103 : Ref sig .tc := ⟨.hbm, 508, rfl⟩
abbrev main_v315 : Ref sig .tc := ⟨.hbm, 509, rfl⟩
abbrev main_v316 : Ref sig .tc := ⟨.hbm, 510, rfl⟩
abbrev main_v317 : Ref sig .tc := ⟨.hbm, 511, rfl⟩
abbrev main_v318 : Ref sig .tc := ⟨.hbm, 512, rfl⟩
abbrev main_v319 : Ref sig .tc := ⟨.hbm, 513, rfl⟩
abbrev main_v320 : Ref sig .tc := ⟨.hbm, 514, rfl⟩
abbrev main_v321 : Ref sig .tc := ⟨.hbm, 515, rfl⟩
abbrev main_cst_104 : Ref sig .tc := ⟨.hbm, 516, rfl⟩
abbrev main_v322 : Ref sig .tc := ⟨.hbm, 517, rfl⟩
abbrev main_v323 : Ref sig .tc := ⟨.hbm, 518, rfl⟩
abbrev main_v324 : Ref sig .tc := ⟨.hbm, 519, rfl⟩
abbrev main_v325 : Ref sig .tc := ⟨.hbm, 520, rfl⟩
abbrev main_v326 : Ref sig .tc := ⟨.hbm, 521, rfl⟩
abbrev main_v327 : Ref sig .tc := ⟨.hbm, 522, rfl⟩
abbrev main_v328 : Ref sig .tc := ⟨.hbm, 523, rfl⟩
abbrev main_v329 : Ref sig .tc := ⟨.hbm, 524, rfl⟩
abbrev main_v330 : Ref sig .tc := ⟨.hbm, 525, rfl⟩
abbrev main_cst_105 : Ref sig .tc := ⟨.hbm, 526, rfl⟩
abbrev main_v331 : Ref sig .tc := ⟨.hbm, 527, rfl⟩
abbrev main_v332 : Ref sig .tc := ⟨.hbm, 528, rfl⟩
abbrev main_v333 : Ref sig .tc := ⟨.hbm, 529, rfl⟩
abbrev main_v334 : Ref sig .tc := ⟨.hbm, 530, rfl⟩
abbrev main_v335 : Ref sig .tc := ⟨.hbm, 531, rfl⟩
abbrev main_v336 : Ref sig .tc := ⟨.hbm, 532, rfl⟩
abbrev main_v337 : Ref sig .tc := ⟨.hbm, 533, rfl⟩
abbrev main_v338 : Ref sig .tc := ⟨.hbm, 534, rfl⟩
abbrev main_v339 : Ref sig .tc := ⟨.hbm, 535, rfl⟩
abbrev main_cst_106 : Ref sig .tc := ⟨.hbm, 536, rfl⟩
abbrev main_v340 : Ref sig .tc := ⟨.hbm, 537, rfl⟩
abbrev main_v341 : Ref sig .tc := ⟨.hbm, 538, rfl⟩
abbrev main_v342 : Ref sig .tc := ⟨.hbm, 539, rfl⟩
abbrev main_v343 : Ref sig .tc := ⟨.hbm, 540, rfl⟩
abbrev main_v344 : Ref sig .tc := ⟨.hbm, 541, rfl⟩
abbrev main_v345 : Ref sig .tc := ⟨.hbm, 542, rfl⟩
abbrev main_v346 : Ref sig .tc := ⟨.hbm, 543, rfl⟩
abbrev main_v347 : Ref sig .tc := ⟨.hbm, 544, rfl⟩
abbrev main_v348 : Ref sig .tc := ⟨.hbm, 545, rfl⟩
abbrev main_v349 : Ref sig .tc := ⟨.hbm, 546, rfl⟩
abbrev main_v350 : Ref sig .tc := ⟨.hbm, 547, rfl⟩
abbrev main_cst_107 : Ref sig .tc := ⟨.hbm, 548, rfl⟩
abbrev main_v351 : Ref sig .tc := ⟨.hbm, 549, rfl⟩
abbrev main_v352 : Ref sig .tc := ⟨.hbm, 550, rfl⟩
abbrev main_cst_108 : Ref sig .tc := ⟨.hbm, 551, rfl⟩
abbrev main_v353 : Ref sig .tc := ⟨.hbm, 552, rfl⟩
abbrev main_v354 : Ref sig .tc := ⟨.hbm, 553, rfl⟩
abbrev main_cst_109 : Ref sig .tc := ⟨.hbm, 554, rfl⟩
abbrev main_v355 : Ref sig .tc := ⟨.hbm, 555, rfl⟩
abbrev main_v356 : Ref sig .tc := ⟨.hbm, 556, rfl⟩
abbrev main_cst_110 : Ref sig .tc := ⟨.hbm, 557, rfl⟩
abbrev main_v357 : Ref sig .tc := ⟨.hbm, 558, rfl⟩
abbrev main_v358 : Ref sig .tc := ⟨.hbm, 559, rfl⟩
abbrev main_cst_111 : Ref sig .tc := ⟨.hbm, 560, rfl⟩
abbrev main_v359 : Ref sig .tc := ⟨.hbm, 561, rfl⟩
abbrev main_v360 : Ref sig .tc := ⟨.hbm, 562, rfl⟩
abbrev main_cst_112 : Ref sig .tc := ⟨.hbm, 563, rfl⟩
abbrev main_v361 : Ref sig .tc := ⟨.hbm, 564, rfl⟩
abbrev main_v362 : Ref sig .tc := ⟨.hbm, 565, rfl⟩
abbrev main_v363 : Ref sig .tc := ⟨.hbm, 566, rfl⟩
abbrev main_v364 : Ref sig .tc := ⟨.hbm, 567, rfl⟩
abbrev main_v365 : Ref sig .tc := ⟨.hbm, 568, rfl⟩
abbrev main_v366 : Ref sig .tc := ⟨.hbm, 569, rfl⟩
abbrev main_v367 : Ref sig .tc := ⟨.hbm, 570, rfl⟩
abbrev main_v368 : Ref sig .tc := ⟨.hbm, 571, rfl⟩
abbrev main_v369 : Ref sig .tc := ⟨.hbm, 572, rfl⟩
abbrev main_v370 : Ref sig .tc := ⟨.hbm, 573, rfl⟩
abbrev main_c_113 : Ref sig .tc := ⟨.hbm, 574, rfl⟩
abbrev main_c_114 : Ref sig .tc := ⟨.hbm, 575, rfl⟩
abbrev main_call12_v0 : Ref sig .tc := ⟨.hbm, 576, rfl⟩
abbrev main_call12_v1 : Ref sig .tc := ⟨.hbm, 577, rfl⟩
abbrev main_call12_v2 : Ref sig .tc := ⟨.hbm, 578, rfl⟩
abbrev main_call12_v3 : Ref sig .tc := ⟨.hbm, 579, rfl⟩
abbrev main_call12_v4 : Ref sig .tc := ⟨.hbm, 580, rfl⟩
abbrev main_v371 : Ref sig .tc := ⟨.hbm, 581, rfl⟩
abbrev main_c_115 : Ref sig .tc := ⟨.hbm, 582, rfl⟩
abbrev main_v372 : Ref sig .tc := ⟨.hbm, 583, rfl⟩
abbrev main_v373 : Ref sig .tc := ⟨.hbm, 584, rfl⟩
abbrev main_c_116 : Ref sig .tc := ⟨.hbm, 585, rfl⟩
abbrev main_c_117 : Ref sig .tc := ⟨.hbm, 586, rfl⟩
abbrev main_call13_v0 : Ref sig .tc := ⟨.hbm, 587, rfl⟩
abbrev main_call13_v1 : Ref sig .tc := ⟨.hbm, 588, rfl⟩
abbrev main_call13_v2 : Ref sig .tc := ⟨.hbm, 589, rfl⟩
abbrev main_call13_v3 : Ref sig .tc := ⟨.hbm, 590, rfl⟩
abbrev main_call13_v4 : Ref sig .tc := ⟨.hbm, 591, rfl⟩
abbrev main_v374 : Ref sig .tc := ⟨.hbm, 592, rfl⟩
abbrev main_c_118 : Ref sig .tc := ⟨.hbm, 593, rfl⟩
abbrev main_c_119 : Ref sig .tc := ⟨.hbm, 594, rfl⟩
abbrev main_call14_v0 : Ref sig .tc := ⟨.hbm, 595, rfl⟩
abbrev main_call14_v1 : Ref sig .tc := ⟨.hbm, 596, rfl⟩
abbrev main_call14_v2 : Ref sig .tc := ⟨.hbm, 597, rfl⟩
abbrev main_call14_v3 : Ref sig .tc := ⟨.hbm, 598, rfl⟩
abbrev main_call14_v4 : Ref sig .tc := ⟨.hbm, 599, rfl⟩
abbrev main_v375 : Ref sig .tc := ⟨.hbm, 600, rfl⟩
abbrev main_c_120 : Ref sig .tc := ⟨.hbm, 601, rfl⟩
abbrev main_v376 : Ref sig .tc := ⟨.hbm, 602, rfl⟩
abbrev main_v377 : Ref sig .tc := ⟨.hbm, 603, rfl⟩
abbrev main_c_121 : Ref sig .tc := ⟨.hbm, 604, rfl⟩
abbrev main_c_122 : Ref sig .tc := ⟨.hbm, 605, rfl⟩
abbrev main_call15_v0 : Ref sig .tc := ⟨.hbm, 606, rfl⟩
abbrev main_call15_v1 : Ref sig .tc := ⟨.hbm, 607, rfl⟩
abbrev main_call15_v2 : Ref sig .tc := ⟨.hbm, 608, rfl⟩
abbrev main_call15_v3 : Ref sig .tc := ⟨.hbm, 609, rfl⟩
abbrev main_call15_v4 : Ref sig .tc := ⟨.hbm, 610, rfl⟩
abbrev main_v378 : Ref sig .tc := ⟨.hbm, 611, rfl⟩
abbrev main_c_123 : Ref sig .tc := ⟨.hbm, 612, rfl⟩
abbrev main_v379 : Ref sig .tc := ⟨.hbm, 613, rfl⟩
abbrev main_v380 : Ref sig .tc := ⟨.hbm, 614, rfl⟩
abbrev main_c_124 : Ref sig .tc := ⟨.hbm, 615, rfl⟩
abbrev main_v381 : Ref sig .tc := ⟨.hbm, 616, rfl⟩
abbrev main_v382 : Ref sig .tc := ⟨.hbm, 617, rfl⟩
abbrev main_v383 : Ref sig .tc := ⟨.hbm, 618, rfl⟩
abbrev main_c_125 : Ref sig .tc := ⟨.hbm, 619, rfl⟩
abbrev main_v384 : Ref sig .tc := ⟨.hbm, 620, rfl⟩
abbrev main_v385 : Ref sig .tc := ⟨.hbm, 621, rfl⟩
abbrev main_c_126 : Ref sig .tc := ⟨.hbm, 622, rfl⟩
abbrev main_v386 : Ref sig .tc := ⟨.hbm, 623, rfl⟩
abbrev main_v387 : Ref sig .tc := ⟨.hbm, 624, rfl⟩
abbrev main_v388 : Ref sig .tc := ⟨.hbm, 625, rfl⟩
abbrev main_v389 : Ref sig .tc := ⟨.hbm, 626, rfl⟩
abbrev main_v390 : Ref sig .tc := ⟨.hbm, 627, rfl⟩
abbrev main_v391 : Ref sig .tc := ⟨.hbm, 628, rfl⟩
abbrev main_v392 : Ref sig .tc := ⟨.hbm, 629, rfl⟩
abbrev main_c_127 : Ref sig .tc := ⟨.hbm, 630, rfl⟩
abbrev main_v393 : Ref sig .tc := ⟨.hbm, 631, rfl⟩
abbrev main_v394 : Ref sig .tc := ⟨.hbm, 632, rfl⟩
abbrev main_c_128 : Ref sig .tc := ⟨.hbm, 633, rfl⟩
abbrev main_v395 : Ref sig .tc := ⟨.hbm, 634, rfl⟩
abbrev main_v396 : Ref sig .tc := ⟨.hbm, 635, rfl⟩
abbrev main_v397 : Ref sig .tc := ⟨.hbm, 636, rfl⟩
abbrev main_c_129 : Ref sig .tc := ⟨.hbm, 637, rfl⟩
abbrev main_v398 : Ref sig .tc := ⟨.hbm, 638, rfl⟩
abbrev main_v399 : Ref sig .tc := ⟨.hbm, 639, rfl⟩
abbrev main_c_130 : Ref sig .tc := ⟨.hbm, 640, rfl⟩
abbrev main_v400 : Ref sig .tc := ⟨.hbm, 641, rfl⟩
abbrev main_v401 : Ref sig .tc := ⟨.hbm, 642, rfl⟩
abbrev main_v402 : Ref sig .tc := ⟨.hbm, 643, rfl⟩
abbrev main_v403 : Ref sig .tc := ⟨.hbm, 644, rfl⟩
abbrev main_v404 : Ref sig .tc := ⟨.hbm, 645, rfl⟩
abbrev main_v405 : Ref sig .tc := ⟨.hbm, 646, rfl⟩
abbrev main_v406 : Ref sig .tc := ⟨.hbm, 647, rfl⟩
abbrev main_c_131 : Ref sig .tc := ⟨.hbm, 648, rfl⟩
abbrev main_v407 : Ref sig .tc := ⟨.hbm, 649, rfl⟩
abbrev main_v408 : Ref sig .tc := ⟨.hbm, 650, rfl⟩
abbrev main_c_132 : Ref sig .tc := ⟨.hbm, 651, rfl⟩
abbrev main_v409 : Ref sig .tc := ⟨.hbm, 652, rfl⟩
abbrev main_v410 : Ref sig .tc := ⟨.hbm, 653, rfl⟩
abbrev main_v411 : Ref sig .tc := ⟨.hbm, 654, rfl⟩
abbrev main_c_133 : Ref sig .tc := ⟨.hbm, 655, rfl⟩
abbrev main_v412 : Ref sig .tc := ⟨.hbm, 656, rfl⟩
abbrev main_v413 : Ref sig .tc := ⟨.hbm, 657, rfl⟩
abbrev main_c_134 : Ref sig .tc := ⟨.hbm, 658, rfl⟩
abbrev main_v414 : Ref sig .tc := ⟨.hbm, 659, rfl⟩
abbrev main_v415 : Ref sig .tc := ⟨.hbm, 660, rfl⟩
abbrev main_v416 : Ref sig .tc := ⟨.hbm, 661, rfl⟩
abbrev main_v417 : Ref sig .tc := ⟨.hbm, 662, rfl⟩
abbrev main_v418 : Ref sig .tc := ⟨.hbm, 663, rfl⟩
abbrev main_v419 : Ref sig .tc := ⟨.hbm, 664, rfl⟩
abbrev main_v420 : Ref sig .tc := ⟨.hbm, 665, rfl⟩
abbrev main_c_135 : Ref sig .tc := ⟨.hbm, 666, rfl⟩
abbrev main_v421 : Ref sig .tc := ⟨.hbm, 667, rfl⟩
abbrev main_v422 : Ref sig .tc := ⟨.hbm, 668, rfl⟩
abbrev main_c_136 : Ref sig .tc := ⟨.hbm, 669, rfl⟩
abbrev main_v423 : Ref sig .tc := ⟨.hbm, 670, rfl⟩
abbrev main_v424 : Ref sig .tc := ⟨.hbm, 671, rfl⟩
abbrev main_v425 : Ref sig .tc := ⟨.hbm, 672, rfl⟩
abbrev main_c_137 : Ref sig .tc := ⟨.hbm, 673, rfl⟩
abbrev main_v426 : Ref sig .tc := ⟨.hbm, 674, rfl⟩
abbrev main_v427 : Ref sig .tc := ⟨.hbm, 675, rfl⟩
abbrev main_c_138 : Ref sig .tc := ⟨.hbm, 676, rfl⟩
abbrev main_v428 : Ref sig .tc := ⟨.hbm, 677, rfl⟩
abbrev main_v429 : Ref sig .tc := ⟨.hbm, 678, rfl⟩
abbrev main_v430 : Ref sig .tc := ⟨.hbm, 679, rfl⟩
abbrev main_v431 : Ref sig .tc := ⟨.hbm, 680, rfl⟩
abbrev main_v432 : Ref sig .tc := ⟨.hbm, 681, rfl⟩
abbrev main_v433 : Ref sig .tc := ⟨.hbm, 682, rfl⟩
abbrev main_v434 : Ref sig .tc := ⟨.hbm, 683, rfl⟩
abbrev main_cst_139 : Ref sig .tc := ⟨.hbm, 684, rfl⟩
abbrev main_v435 : Ref sig .tc := ⟨.hbm, 685, rfl⟩
abbrev main_v436 : Ref sig .tc := ⟨.hbm, 686, rfl⟩
abbrev main_v437 : Ref sig .tc := ⟨.hbm, 687, rfl⟩
abbrev main_v438 : Ref sig .tc := ⟨.hbm, 688, rfl⟩
abbrev main_v439 : Ref sig .tc := ⟨.hbm, 689, rfl⟩
abbrev main_v440 : Ref sig .tc := ⟨.hbm, 690, rfl⟩
abbrev main_v441 : Ref sig .tc := ⟨.hbm, 691, rfl⟩
abbrev main_v442 : Ref sig .tc := ⟨.hbm, 692, rfl⟩
abbrev main_v443 : Ref sig .tc := ⟨.hbm, 693, rfl⟩
abbrev main_cst_140 : Ref sig .tc := ⟨.hbm, 694, rfl⟩
abbrev main_v444 : Ref sig .tc := ⟨.hbm, 695, rfl⟩
abbrev main_v445 : Ref sig .tc := ⟨.hbm, 696, rfl⟩
abbrev main_v446 : Ref sig .tc := ⟨.hbm, 697, rfl⟩
abbrev main_v447 : Ref sig .tc := ⟨.hbm, 698, rfl⟩
abbrev main_v448 : Ref sig .tc := ⟨.hbm, 699, rfl⟩
abbrev main_v449 : Ref sig .tc := ⟨.hbm, 700, rfl⟩
abbrev main_v450 : Ref sig .tc := ⟨.hbm, 701, rfl⟩
abbrev main_v451 : Ref sig .tc := ⟨.hbm, 702, rfl⟩
abbrev main_v452 : Ref sig .tc := ⟨.hbm, 703, rfl⟩
abbrev main_cst_141 : Ref sig .tc := ⟨.hbm, 704, rfl⟩
abbrev main_v453 : Ref sig .tc := ⟨.hbm, 705, rfl⟩
abbrev main_v454 : Ref sig .tc := ⟨.hbm, 706, rfl⟩
abbrev main_v455 : Ref sig .tc := ⟨.hbm, 707, rfl⟩
abbrev main_v456 : Ref sig .tc := ⟨.hbm, 708, rfl⟩
abbrev main_v457 : Ref sig .tc := ⟨.hbm, 709, rfl⟩
abbrev main_v458 : Ref sig .tc := ⟨.hbm, 710, rfl⟩
abbrev main_v459 : Ref sig .tc := ⟨.hbm, 711, rfl⟩
abbrev main_v460 : Ref sig .tc := ⟨.hbm, 712, rfl⟩
abbrev main_v461 : Ref sig .tc := ⟨.hbm, 713, rfl⟩
abbrev main_v462 : Ref sig .tc := ⟨.hbm, 714, rfl⟩
abbrev main_cst_142 : Ref sig .tc := ⟨.hbm, 715, rfl⟩
abbrev main_v463 : Ref sig .tc := ⟨.hbm, 716, rfl⟩
abbrev main_v464 : Ref sig .tc := ⟨.hbm, 717, rfl⟩
abbrev main_cst_143 : Ref sig .tc := ⟨.hbm, 718, rfl⟩
abbrev main_v465 : Ref sig .tc := ⟨.hbm, 719, rfl⟩
abbrev main_v466 : Ref sig .tc := ⟨.hbm, 720, rfl⟩
abbrev main_cst_144 : Ref sig .tc := ⟨.hbm, 721, rfl⟩
abbrev main_v467 : Ref sig .tc := ⟨.hbm, 722, rfl⟩
abbrev main_v468 : Ref sig .tc := ⟨.hbm, 723, rfl⟩
abbrev main_cst_145 : Ref sig .tc := ⟨.hbm, 724, rfl⟩
abbrev main_v469 : Ref sig .tc := ⟨.hbm, 725, rfl⟩
abbrev main_v470 : Ref sig .tc := ⟨.hbm, 726, rfl⟩
abbrev main_cst_146 : Ref sig .tc := ⟨.hbm, 727, rfl⟩
abbrev main_v471 : Ref sig .tc := ⟨.hbm, 728, rfl⟩
abbrev main_v472 : Ref sig .tc := ⟨.hbm, 729, rfl⟩
abbrev main_cst_147 : Ref sig .tc := ⟨.hbm, 730, rfl⟩
abbrev main_v473 : Ref sig .tc := ⟨.hbm, 731, rfl⟩
abbrev main_v474 : Ref sig .tc := ⟨.hbm, 732, rfl⟩
abbrev main_v475 : Ref sig .tc := ⟨.hbm, 733, rfl⟩
abbrev main_v476 : Ref sig .tc := ⟨.hbm, 734, rfl⟩
abbrev main_v477 : Ref sig .tc := ⟨.hbm, 735, rfl⟩
abbrev main_v478 : Ref sig .tc := ⟨.hbm, 736, rfl⟩
abbrev main_v479 : Ref sig .tc := ⟨.hbm, 737, rfl⟩
abbrev main_v480 : Ref sig .tc := ⟨.hbm, 738, rfl⟩
abbrev main_v481 : Ref sig .tc := ⟨.hbm, 739, rfl⟩
abbrev main_v482 : Ref sig .tc := ⟨.hbm, 740, rfl⟩
abbrev main_c_148 : Ref sig .tc := ⟨.hbm, 741, rfl⟩
abbrev main_c_149 : Ref sig .tc := ⟨.hbm, 742, rfl⟩
abbrev main_call16_v0 : Ref sig .tc := ⟨.hbm, 743, rfl⟩
abbrev main_call16_v1 : Ref sig .tc := ⟨.hbm, 744, rfl⟩
abbrev main_call16_v2 : Ref sig .tc := ⟨.hbm, 745, rfl⟩
abbrev main_call16_v3 : Ref sig .tc := ⟨.hbm, 746, rfl⟩
abbrev main_call16_v4 : Ref sig .tc := ⟨.hbm, 747, rfl⟩
abbrev main_v483 : Ref sig .tc := ⟨.hbm, 748, rfl⟩
abbrev main_c_150 : Ref sig .tc := ⟨.hbm, 749, rfl⟩
abbrev main_v484 : Ref sig .tc := ⟨.hbm, 750, rfl⟩
abbrev main_v485 : Ref sig .tc := ⟨.hbm, 751, rfl⟩
abbrev main_c_151 : Ref sig .tc := ⟨.hbm, 752, rfl⟩
abbrev main_c_152 : Ref sig .tc := ⟨.hbm, 753, rfl⟩
abbrev main_call17_v0 : Ref sig .tc := ⟨.hbm, 754, rfl⟩
abbrev main_call17_v1 : Ref sig .tc := ⟨.hbm, 755, rfl⟩
abbrev main_call17_v2 : Ref sig .tc := ⟨.hbm, 756, rfl⟩
abbrev main_call17_v3 : Ref sig .tc := ⟨.hbm, 757, rfl⟩
abbrev main_call17_v4 : Ref sig .tc := ⟨.hbm, 758, rfl⟩
abbrev main_v486 : Ref sig .tc := ⟨.hbm, 759, rfl⟩
abbrev main_c_153 : Ref sig .tc := ⟨.hbm, 760, rfl⟩
abbrev main_c_154 : Ref sig .tc := ⟨.hbm, 761, rfl⟩
abbrev main_call18_v0 : Ref sig .tc := ⟨.hbm, 762, rfl⟩
abbrev main_call18_v1 : Ref sig .tc := ⟨.hbm, 763, rfl⟩
abbrev main_call18_v2 : Ref sig .tc := ⟨.hbm, 764, rfl⟩
abbrev main_call18_v3 : Ref sig .tc := ⟨.hbm, 765, rfl⟩
abbrev main_call18_v4 : Ref sig .tc := ⟨.hbm, 766, rfl⟩
abbrev main_v487 : Ref sig .tc := ⟨.hbm, 767, rfl⟩
abbrev main_c_155 : Ref sig .tc := ⟨.hbm, 768, rfl⟩
abbrev main_v488 : Ref sig .tc := ⟨.hbm, 769, rfl⟩
abbrev main_v489 : Ref sig .tc := ⟨.hbm, 770, rfl⟩
abbrev main_c_156 : Ref sig .tc := ⟨.hbm, 771, rfl⟩
abbrev main_c_157 : Ref sig .tc := ⟨.hbm, 772, rfl⟩
abbrev main_call19_v0 : Ref sig .tc := ⟨.hbm, 773, rfl⟩
abbrev main_call19_v1 : Ref sig .tc := ⟨.hbm, 774, rfl⟩
abbrev main_call19_v2 : Ref sig .tc := ⟨.hbm, 775, rfl⟩
abbrev main_call19_v3 : Ref sig .tc := ⟨.hbm, 776, rfl⟩
abbrev main_call19_v4 : Ref sig .tc := ⟨.hbm, 777, rfl⟩
abbrev main_v490 : Ref sig .tc := ⟨.hbm, 778, rfl⟩
abbrev main_c_158 : Ref sig .tc := ⟨.hbm, 779, rfl⟩
abbrev main_v491 : Ref sig .tc := ⟨.hbm, 780, rfl⟩
abbrev main_v492 : Ref sig .tc := ⟨.hbm, 781, rfl⟩
abbrev main_c_159 : Ref sig .tc := ⟨.hbm, 782, rfl⟩
abbrev main_v493 : Ref sig .tc := ⟨.hbm, 783, rfl⟩
abbrev main_v494 : Ref sig .tc := ⟨.hbm, 784, rfl⟩
abbrev main_v495 : Ref sig .tc := ⟨.hbm, 785, rfl⟩
abbrev main_c_160 : Ref sig .tc := ⟨.hbm, 786, rfl⟩
abbrev main_v496 : Ref sig .tc := ⟨.hbm, 787, rfl⟩
abbrev main_v497 : Ref sig .tc := ⟨.hbm, 788, rfl⟩
abbrev main_c_161 : Ref sig .tc := ⟨.hbm, 789, rfl⟩
abbrev main_v498 : Ref sig .tc := ⟨.hbm, 790, rfl⟩
abbrev main_v499 : Ref sig .tc := ⟨.hbm, 791, rfl⟩
abbrev main_v500 : Ref sig .tc := ⟨.hbm, 792, rfl⟩
abbrev main_v501 : Ref sig .tc := ⟨.hbm, 793, rfl⟩
abbrev main_v502 : Ref sig .tc := ⟨.hbm, 794, rfl⟩
abbrev main_v503 : Ref sig .tc := ⟨.hbm, 795, rfl⟩
abbrev main_v504 : Ref sig .tc := ⟨.hbm, 796, rfl⟩
abbrev main_c_162 : Ref sig .tc := ⟨.hbm, 797, rfl⟩
abbrev main_v505 : Ref sig .tc := ⟨.hbm, 798, rfl⟩
abbrev main_v506 : Ref sig .tc := ⟨.hbm, 799, rfl⟩
abbrev main_c_163 : Ref sig .tc := ⟨.hbm, 800, rfl⟩
abbrev main_v507 : Ref sig .tc := ⟨.hbm, 801, rfl⟩
abbrev main_v508 : Ref sig .tc := ⟨.hbm, 802, rfl⟩
abbrev main_v509 : Ref sig .tc := ⟨.hbm, 803, rfl⟩
abbrev main_c_164 : Ref sig .tc := ⟨.hbm, 804, rfl⟩
abbrev main_v510 : Ref sig .tc := ⟨.hbm, 805, rfl⟩
abbrev main_v511 : Ref sig .tc := ⟨.hbm, 806, rfl⟩
abbrev main_c_165 : Ref sig .tc := ⟨.hbm, 807, rfl⟩
abbrev main_v512 : Ref sig .tc := ⟨.hbm, 808, rfl⟩
abbrev main_v513 : Ref sig .tc := ⟨.hbm, 809, rfl⟩
abbrev main_v514 : Ref sig .tc := ⟨.hbm, 810, rfl⟩
abbrev main_v515 : Ref sig .tc := ⟨.hbm, 811, rfl⟩
abbrev main_v516 : Ref sig .tc := ⟨.hbm, 812, rfl⟩
abbrev main_v517 : Ref sig .tc := ⟨.hbm, 813, rfl⟩
abbrev main_v518 : Ref sig .tc := ⟨.hbm, 814, rfl⟩
abbrev main_c_166 : Ref sig .tc := ⟨.hbm, 815, rfl⟩
abbrev main_v519 : Ref sig .tc := ⟨.hbm, 816, rfl⟩
abbrev main_v520 : Ref sig .tc := ⟨.hbm, 817, rfl⟩
abbrev main_c_167 : Ref sig .tc := ⟨.hbm, 818, rfl⟩
abbrev main_v521 : Ref sig .tc := ⟨.hbm, 819, rfl⟩
abbrev main_v522 : Ref sig .tc := ⟨.hbm, 820, rfl⟩
abbrev main_v523 : Ref sig .tc := ⟨.hbm, 821, rfl⟩
abbrev main_c_168 : Ref sig .tc := ⟨.hbm, 822, rfl⟩
abbrev main_v524 : Ref sig .tc := ⟨.hbm, 823, rfl⟩
abbrev main_v525 : Ref sig .tc := ⟨.hbm, 824, rfl⟩
abbrev main_c_169 : Ref sig .tc := ⟨.hbm, 825, rfl⟩
abbrev main_v526 : Ref sig .tc := ⟨.hbm, 826, rfl⟩
abbrev main_v527 : Ref sig .tc := ⟨.hbm, 827, rfl⟩
abbrev main_v528 : Ref sig .tc := ⟨.hbm, 828, rfl⟩
abbrev main_v529 : Ref sig .tc := ⟨.hbm, 829, rfl⟩
abbrev main_v530 : Ref sig .tc := ⟨.hbm, 830, rfl⟩
abbrev main_v531 : Ref sig .tc := ⟨.hbm, 831, rfl⟩
abbrev main_v532 : Ref sig .tc := ⟨.hbm, 832, rfl⟩
abbrev main_c_170 : Ref sig .tc := ⟨.hbm, 833, rfl⟩
abbrev main_v533 : Ref sig .tc := ⟨.hbm, 834, rfl⟩
abbrev main_v534 : Ref sig .tc := ⟨.hbm, 835, rfl⟩
abbrev main_c_171 : Ref sig .tc := ⟨.hbm, 836, rfl⟩
abbrev main_v535 : Ref sig .tc := ⟨.hbm, 837, rfl⟩
abbrev main_v536 : Ref sig .tc := ⟨.hbm, 838, rfl⟩
abbrev main_v537 : Ref sig .tc := ⟨.hbm, 839, rfl⟩
abbrev main_c_172 : Ref sig .tc := ⟨.hbm, 840, rfl⟩
abbrev main_v538 : Ref sig .tc := ⟨.hbm, 841, rfl⟩
abbrev main_v539 : Ref sig .tc := ⟨.hbm, 842, rfl⟩
abbrev main_c_173 : Ref sig .tc := ⟨.hbm, 843, rfl⟩
abbrev main_v540 : Ref sig .tc := ⟨.hbm, 844, rfl⟩
abbrev main_v541 : Ref sig .tc := ⟨.hbm, 845, rfl⟩
abbrev main_v542 : Ref sig .tc := ⟨.hbm, 846, rfl⟩
abbrev main_v543 : Ref sig .tc := ⟨.hbm, 847, rfl⟩
abbrev main_v544 : Ref sig .tc := ⟨.hbm, 848, rfl⟩
abbrev main_v545 : Ref sig .tc := ⟨.hbm, 849, rfl⟩
abbrev main_v546 : Ref sig .tc := ⟨.hbm, 850, rfl⟩
abbrev main_cst_174 : Ref sig .tc := ⟨.hbm, 851, rfl⟩
abbrev main_v547 : Ref sig .tc := ⟨.hbm, 852, rfl⟩
abbrev main_v548 : Ref sig .tc := ⟨.hbm, 853, rfl⟩
abbrev main_v549 : Ref sig .tc := ⟨.hbm, 854, rfl⟩
abbrev main_v550 : Ref sig .tc := ⟨.hbm, 855, rfl⟩
abbrev main_v551 : Ref sig .tc := ⟨.hbm, 856, rfl⟩
abbrev main_v552 : Ref sig .tc := ⟨.hbm, 857, rfl⟩
abbrev main_v553 : Ref sig .tc := ⟨.hbm, 858, rfl⟩
abbrev main_v554 : Ref sig .tc := ⟨.hbm, 859, rfl⟩
abbrev main_v555 : Ref sig .tc := ⟨.hbm, 860, rfl⟩
abbrev main_cst_175 : Ref sig .tc := ⟨.hbm, 861, rfl⟩
abbrev main_v556 : Ref sig .tc := ⟨.hbm, 862, rfl⟩
abbrev main_v557 : Ref sig .tc := ⟨.hbm, 863, rfl⟩
abbrev main_v558 : Ref sig .tc := ⟨.hbm, 864, rfl⟩
abbrev main_v559 : Ref sig .tc := ⟨.hbm, 865, rfl⟩
abbrev main_v560 : Ref sig .tc := ⟨.hbm, 866, rfl⟩
abbrev main_v561 : Ref sig .tc := ⟨.hbm, 867, rfl⟩
abbrev main_v562 : Ref sig .tc := ⟨.hbm, 868, rfl⟩
abbrev main_v563 : Ref sig .tc := ⟨.hbm, 869, rfl⟩
abbrev main_v564 : Ref sig .tc := ⟨.hbm, 870, rfl⟩
abbrev main_cst_176 : Ref sig .tc := ⟨.hbm, 871, rfl⟩
abbrev main_v565 : Ref sig .tc := ⟨.hbm, 872, rfl⟩
abbrev main_v566 : Ref sig .tc := ⟨.hbm, 873, rfl⟩
abbrev main_v567 : Ref sig .tc := ⟨.hbm, 874, rfl⟩
abbrev main_v568 : Ref sig .tc := ⟨.hbm, 875, rfl⟩
abbrev main_v569 : Ref sig .tc := ⟨.hbm, 876, rfl⟩
abbrev main_v570 : Ref sig .tc := ⟨.hbm, 877, rfl⟩
abbrev main_v571 : Ref sig .tc := ⟨.hbm, 878, rfl⟩
abbrev main_v572 : Ref sig .tc := ⟨.hbm, 879, rfl⟩
abbrev main_v573 : Ref sig .tc := ⟨.hbm, 880, rfl⟩
abbrev main_v574 : Ref sig .tc := ⟨.hbm, 881, rfl⟩
abbrev main_cst_177 : Ref sig .tc := ⟨.hbm, 882, rfl⟩
abbrev main_v575 : Ref sig .tc := ⟨.hbm, 883, rfl⟩
abbrev main_v576 : Ref sig .tc := ⟨.hbm, 884, rfl⟩
abbrev main_cst_178 : Ref sig .tc := ⟨.hbm, 885, rfl⟩
abbrev main_v577 : Ref sig .tc := ⟨.hbm, 886, rfl⟩
abbrev main_v578 : Ref sig .tc := ⟨.hbm, 887, rfl⟩
abbrev main_cst_179 : Ref sig .tc := ⟨.hbm, 888, rfl⟩
abbrev main_v579 : Ref sig .tc := ⟨.hbm, 889, rfl⟩
abbrev main_v580 : Ref sig .tc := ⟨.hbm, 890, rfl⟩
abbrev main_cst_180 : Ref sig .tc := ⟨.hbm, 891, rfl⟩
abbrev main_v581 : Ref sig .tc := ⟨.hbm, 892, rfl⟩
abbrev main_v582 : Ref sig .tc := ⟨.hbm, 893, rfl⟩
abbrev main_cst_181 : Ref sig .tc := ⟨.hbm, 894, rfl⟩
abbrev main_v583 : Ref sig .tc := ⟨.hbm, 895, rfl⟩
abbrev main_v584 : Ref sig .tc := ⟨.hbm, 896, rfl⟩
abbrev main_cst_182 : Ref sig .tc := ⟨.hbm, 897, rfl⟩
abbrev main_v585 : Ref sig .tc := ⟨.hbm, 898, rfl⟩
abbrev main_v586 : Ref sig .tc := ⟨.hbm, 899, rfl⟩
abbrev main_v587 : Ref sig .tc := ⟨.hbm, 900, rfl⟩
abbrev main_v588 : Ref sig .tc := ⟨.hbm, 901, rfl⟩
abbrev main_v589 : Ref sig .tc := ⟨.hbm, 902, rfl⟩
abbrev main_v590 : Ref sig .tc := ⟨.hbm, 903, rfl⟩
abbrev main_v591 : Ref sig .tc := ⟨.hbm, 904, rfl⟩
abbrev main_v592 : Ref sig .tc := ⟨.hbm, 905, rfl⟩
abbrev main_v593 : Ref sig .tc := ⟨.hbm, 906, rfl⟩
abbrev main_v594 : Ref sig .tc := ⟨.hbm, 907, rfl⟩
abbrev main_c_183 : Ref sig .tc := ⟨.hbm, 908, rfl⟩
abbrev main_c_184 : Ref sig .tc := ⟨.hbm, 909, rfl⟩
abbrev main_call20_v0 : Ref sig .tc := ⟨.hbm, 910, rfl⟩
abbrev main_call20_v1 : Ref sig .tc := ⟨.hbm, 911, rfl⟩
abbrev main_call20_v2 : Ref sig .tc := ⟨.hbm, 912, rfl⟩
abbrev main_call20_v3 : Ref sig .tc := ⟨.hbm, 913, rfl⟩
abbrev main_call20_v4 : Ref sig .tc := ⟨.hbm, 914, rfl⟩
abbrev main_v595 : Ref sig .tc := ⟨.hbm, 915, rfl⟩
abbrev main_c_185 : Ref sig .tc := ⟨.hbm, 916, rfl⟩
abbrev main_v596 : Ref sig .tc := ⟨.hbm, 917, rfl⟩
abbrev main_v597 : Ref sig .tc := ⟨.hbm, 918, rfl⟩
abbrev main_c_186 : Ref sig .tc := ⟨.hbm, 919, rfl⟩
abbrev main_c_187 : Ref sig .tc := ⟨.hbm, 920, rfl⟩
abbrev main_call21_v0 : Ref sig .tc := ⟨.hbm, 921, rfl⟩
abbrev main_call21_v1 : Ref sig .tc := ⟨.hbm, 922, rfl⟩
abbrev main_call21_v2 : Ref sig .tc := ⟨.hbm, 923, rfl⟩
abbrev main_call21_v3 : Ref sig .tc := ⟨.hbm, 924, rfl⟩
abbrev main_call21_v4 : Ref sig .tc := ⟨.hbm, 925, rfl⟩
abbrev main_v598 : Ref sig .tc := ⟨.hbm, 926, rfl⟩
abbrev main_c_188 : Ref sig .tc := ⟨.hbm, 927, rfl⟩
abbrev main_c_189 : Ref sig .tc := ⟨.hbm, 928, rfl⟩
abbrev main_call22_v0 : Ref sig .tc := ⟨.hbm, 929, rfl⟩
abbrev main_call22_v1 : Ref sig .tc := ⟨.hbm, 930, rfl⟩
abbrev main_call22_v2 : Ref sig .tc := ⟨.hbm, 931, rfl⟩
abbrev main_call22_v3 : Ref sig .tc := ⟨.hbm, 932, rfl⟩
abbrev main_call22_v4 : Ref sig .tc := ⟨.hbm, 933, rfl⟩
abbrev main_v599 : Ref sig .tc := ⟨.hbm, 934, rfl⟩
abbrev main_c_190 : Ref sig .tc := ⟨.hbm, 935, rfl⟩
abbrev main_v600 : Ref sig .tc := ⟨.hbm, 936, rfl⟩
abbrev main_v601 : Ref sig .tc := ⟨.hbm, 937, rfl⟩
abbrev main_c_191 : Ref sig .tc := ⟨.hbm, 938, rfl⟩
abbrev main_c_192 : Ref sig .tc := ⟨.hbm, 939, rfl⟩
abbrev main_call23_v0 : Ref sig .tc := ⟨.hbm, 940, rfl⟩
abbrev main_call23_v1 : Ref sig .tc := ⟨.hbm, 941, rfl⟩
abbrev main_call23_v2 : Ref sig .tc := ⟨.hbm, 942, rfl⟩
abbrev main_call23_v3 : Ref sig .tc := ⟨.hbm, 943, rfl⟩
abbrev main_call23_v4 : Ref sig .tc := ⟨.hbm, 944, rfl⟩
abbrev main_v602 : Ref sig .tc := ⟨.hbm, 945, rfl⟩
abbrev main_c_193 : Ref sig .tc := ⟨.hbm, 946, rfl⟩
abbrev main_v603 : Ref sig .tc := ⟨.hbm, 947, rfl⟩
abbrev main_v604 : Ref sig .tc := ⟨.hbm, 948, rfl⟩
abbrev main_c_194 : Ref sig .tc := ⟨.hbm, 949, rfl⟩
abbrev main_v605 : Ref sig .tc := ⟨.hbm, 950, rfl⟩
abbrev main_v606 : Ref sig .tc := ⟨.hbm, 951, rfl⟩
abbrev main_v607 : Ref sig .tc := ⟨.hbm, 952, rfl⟩
abbrev main_c_195 : Ref sig .tc := ⟨.hbm, 953, rfl⟩
abbrev main_v608 : Ref sig .tc := ⟨.hbm, 954, rfl⟩
abbrev main_v609 : Ref sig .tc := ⟨.hbm, 955, rfl⟩
abbrev main_c_196 : Ref sig .tc := ⟨.hbm, 956, rfl⟩
abbrev main_v610 : Ref sig .tc := ⟨.hbm, 957, rfl⟩
abbrev main_v611 : Ref sig .tc := ⟨.hbm, 958, rfl⟩
abbrev main_v612 : Ref sig .tc := ⟨.hbm, 959, rfl⟩
abbrev main_v613 : Ref sig .tc := ⟨.hbm, 960, rfl⟩
abbrev main_v614 : Ref sig .tc := ⟨.hbm, 961, rfl⟩
abbrev main_v615 : Ref sig .tc := ⟨.hbm, 962, rfl⟩
abbrev main_v616 : Ref sig .tc := ⟨.hbm, 963, rfl⟩
abbrev main_c_197 : Ref sig .tc := ⟨.hbm, 964, rfl⟩
abbrev main_v617 : Ref sig .tc := ⟨.hbm, 965, rfl⟩
abbrev main_v618 : Ref sig .tc := ⟨.hbm, 966, rfl⟩
abbrev main_c_198 : Ref sig .tc := ⟨.hbm, 967, rfl⟩
abbrev main_v619 : Ref sig .tc := ⟨.hbm, 968, rfl⟩
abbrev main_v620 : Ref sig .tc := ⟨.hbm, 969, rfl⟩
abbrev main_v621 : Ref sig .tc := ⟨.hbm, 970, rfl⟩
abbrev main_c_199 : Ref sig .tc := ⟨.hbm, 971, rfl⟩
abbrev main_v622 : Ref sig .tc := ⟨.hbm, 972, rfl⟩
abbrev main_v623 : Ref sig .tc := ⟨.hbm, 973, rfl⟩
abbrev main_c_200 : Ref sig .tc := ⟨.hbm, 974, rfl⟩
abbrev main_v624 : Ref sig .tc := ⟨.hbm, 975, rfl⟩
abbrev main_v625 : Ref sig .tc := ⟨.hbm, 976, rfl⟩
abbrev main_v626 : Ref sig .tc := ⟨.hbm, 977, rfl⟩
abbrev main_v627 : Ref sig .tc := ⟨.hbm, 978, rfl⟩
abbrev main_v628 : Ref sig .tc := ⟨.hbm, 979, rfl⟩
abbrev main_v629 : Ref sig .tc := ⟨.hbm, 980, rfl⟩
abbrev main_v630 : Ref sig .tc := ⟨.hbm, 981, rfl⟩
abbrev main_c_201 : Ref sig .tc := ⟨.hbm, 982, rfl⟩
abbrev main_v631 : Ref sig .tc := ⟨.hbm, 983, rfl⟩
abbrev main_v632 : Ref sig .tc := ⟨.hbm, 984, rfl⟩
abbrev main_c_202 : Ref sig .tc := ⟨.hbm, 985, rfl⟩
abbrev main_v633 : Ref sig .tc := ⟨.hbm, 986, rfl⟩
abbrev main_v634 : Ref sig .tc := ⟨.hbm, 987, rfl⟩
abbrev main_v635 : Ref sig .tc := ⟨.hbm, 988, rfl⟩
abbrev main_c_203 : Ref sig .tc := ⟨.hbm, 989, rfl⟩
abbrev main_v636 : Ref sig .tc := ⟨.hbm, 990, rfl⟩
abbrev main_v637 : Ref sig .tc := ⟨.hbm, 991, rfl⟩
abbrev main_c_204 : Ref sig .tc := ⟨.hbm, 992, rfl⟩
abbrev main_v638 : Ref sig .tc := ⟨.hbm, 993, rfl⟩
abbrev main_v639 : Ref sig .tc := ⟨.hbm, 994, rfl⟩
abbrev main_v640 : Ref sig .tc := ⟨.hbm, 995, rfl⟩
abbrev main_v641 : Ref sig .tc := ⟨.hbm, 996, rfl⟩
abbrev main_v642 : Ref sig .tc := ⟨.hbm, 997, rfl⟩
abbrev main_v643 : Ref sig .tc := ⟨.hbm, 998, rfl⟩
abbrev main_v644 : Ref sig .tc := ⟨.hbm, 999, rfl⟩
abbrev main_c_205 : Ref sig .tc := ⟨.hbm, 1000, rfl⟩
abbrev main_v645 : Ref sig .tc := ⟨.hbm, 1001, rfl⟩
abbrev main_v646 : Ref sig .tc := ⟨.hbm, 1002, rfl⟩
abbrev main_c_206 : Ref sig .tc := ⟨.hbm, 1003, rfl⟩
abbrev main_v647 : Ref sig .tc := ⟨.hbm, 1004, rfl⟩
abbrev main_v648 : Ref sig .tc := ⟨.hbm, 1005, rfl⟩
abbrev main_v649 : Ref sig .tc := ⟨.hbm, 1006, rfl⟩
abbrev main_c_207 : Ref sig .tc := ⟨.hbm, 1007, rfl⟩
abbrev main_v650 : Ref sig .tc := ⟨.hbm, 1008, rfl⟩
abbrev main_v651 : Ref sig .tc := ⟨.hbm, 1009, rfl⟩
abbrev main_c_208 : Ref sig .tc := ⟨.hbm, 1010, rfl⟩
abbrev main_v652 : Ref sig .tc := ⟨.hbm, 1011, rfl⟩
abbrev main_v653 : Ref sig .tc := ⟨.hbm, 1012, rfl⟩
abbrev main_v654 : Ref sig .tc := ⟨.hbm, 1013, rfl⟩
abbrev main_v655 : Ref sig .tc := ⟨.hbm, 1014, rfl⟩
abbrev main_v656 : Ref sig .tc := ⟨.hbm, 1015, rfl⟩
abbrev main_v657 : Ref sig .tc := ⟨.hbm, 1016, rfl⟩
abbrev main_v658 : Ref sig .tc := ⟨.hbm, 1017, rfl⟩
abbrev main_cst_209 : Ref sig .tc := ⟨.hbm, 1018, rfl⟩
abbrev main_v659 : Ref sig .tc := ⟨.hbm, 1019, rfl⟩
abbrev main_v660 : Ref sig .tc := ⟨.hbm, 1020, rfl⟩
abbrev main_v661 : Ref sig .tc := ⟨.hbm, 1021, rfl⟩
abbrev main_v662 : Ref sig .tc := ⟨.hbm, 1022, rfl⟩
abbrev main_v663 : Ref sig .tc := ⟨.hbm, 1023, rfl⟩
abbrev main_v664 : Ref sig .tc := ⟨.hbm, 1024, rfl⟩
abbrev main_v665 : Ref sig .tc := ⟨.hbm, 1025, rfl⟩
abbrev main_v666 : Ref sig .tc := ⟨.hbm, 1026, rfl⟩
abbrev main_v667 : Ref sig .tc := ⟨.hbm, 1027, rfl⟩
abbrev main_cst_210 : Ref sig .tc := ⟨.hbm, 1028, rfl⟩
abbrev main_v668 : Ref sig .tc := ⟨.hbm, 1029, rfl⟩
abbrev main_v669 : Ref sig .tc := ⟨.hbm, 1030, rfl⟩
abbrev main_v670 : Ref sig .tc := ⟨.hbm, 1031, rfl⟩
abbrev main_v671 : Ref sig .tc := ⟨.hbm, 1032, rfl⟩
abbrev main_v672 : Ref sig .tc := ⟨.hbm, 1033, rfl⟩
abbrev main_v673 : Ref sig .tc := ⟨.hbm, 1034, rfl⟩
abbrev main_v674 : Ref sig .tc := ⟨.hbm, 1035, rfl⟩
abbrev main_v675 : Ref sig .tc := ⟨.hbm, 1036, rfl⟩
abbrev main_v676 : Ref sig .tc := ⟨.hbm, 1037, rfl⟩
abbrev main_cst_211 : Ref sig .tc := ⟨.hbm, 1038, rfl⟩
abbrev main_v677 : Ref sig .tc := ⟨.hbm, 1039, rfl⟩
abbrev main_v678 : Ref sig .tc := ⟨.hbm, 1040, rfl⟩
abbrev main_v679 : Ref sig .tc := ⟨.hbm, 1041, rfl⟩
abbrev main_v680 : Ref sig .tc := ⟨.hbm, 1042, rfl⟩
abbrev main_v681 : Ref sig .tc := ⟨.hbm, 1043, rfl⟩
abbrev main_v682 : Ref sig .tc := ⟨.hbm, 1044, rfl⟩
abbrev main_v683 : Ref sig .tc := ⟨.hbm, 1045, rfl⟩
abbrev main_v684 : Ref sig .tc := ⟨.hbm, 1046, rfl⟩
abbrev main_v685 : Ref sig .tc := ⟨.hbm, 1047, rfl⟩
abbrev main_v686 : Ref sig .tc := ⟨.hbm, 1048, rfl⟩
abbrev main_v687 : Ref sig .tc := ⟨.hbm, 1049, rfl⟩
abbrev main_cst_212 : Ref sig .tc := ⟨.hbm, 1050, rfl⟩
abbrev main_v688 : Ref sig .tc := ⟨.hbm, 1051, rfl⟩
abbrev main_v689 : Ref sig .tc := ⟨.hbm, 1052, rfl⟩
abbrev main_cst_213 : Ref sig .tc := ⟨.hbm, 1053, rfl⟩
abbrev main_v690 : Ref sig .tc := ⟨.hbm, 1054, rfl⟩
abbrev main_v691 : Ref sig .tc := ⟨.hbm, 1055, rfl⟩
abbrev main_cst_214 : Ref sig .tc := ⟨.hbm, 1056, rfl⟩
abbrev main_v692 : Ref sig .tc := ⟨.hbm, 1057, rfl⟩
abbrev main_v693 : Ref sig .tc := ⟨.hbm, 1058, rfl⟩
abbrev main_cst_215 : Ref sig .tc := ⟨.hbm, 1059, rfl⟩
abbrev main_v694 : Ref sig .tc := ⟨.hbm, 1060, rfl⟩
abbrev main_v695 : Ref sig .tc := ⟨.hbm, 1061, rfl⟩
abbrev main_cst_216 : Ref sig .tc := ⟨.hbm, 1062, rfl⟩
abbrev main_v696 : Ref sig .tc := ⟨.hbm, 1063, rfl⟩
abbrev main_v697 : Ref sig .tc := ⟨.hbm, 1064, rfl⟩
abbrev main_cst_217 : Ref sig .tc := ⟨.hbm, 1065, rfl⟩
abbrev main_v698 : Ref sig .tc := ⟨.hbm, 1066, rfl⟩
abbrev main_v699 : Ref sig .tc := ⟨.hbm, 1067, rfl⟩
abbrev main_v700 : Ref sig .tc := ⟨.hbm, 1068, rfl⟩
abbrev main_v701 : Ref sig .tc := ⟨.hbm, 1069, rfl⟩
abbrev main_v702 : Ref sig .tc := ⟨.hbm, 1070, rfl⟩
abbrev main_v703 : Ref sig .tc := ⟨.hbm, 1071, rfl⟩
abbrev main_v704 : Ref sig .tc := ⟨.hbm, 1072, rfl⟩
abbrev main_v705 : Ref sig .tc := ⟨.hbm, 1073, rfl⟩
abbrev main_v706 : Ref sig .tc := ⟨.hbm, 1074, rfl⟩
abbrev main_v707 : Ref sig .tc := ⟨.hbm, 1075, rfl⟩
abbrev main_c_218 : Ref sig .tc := ⟨.hbm, 1076, rfl⟩
abbrev main_c_219 : Ref sig .tc := ⟨.hbm, 1077, rfl⟩
abbrev main_call24_v0 : Ref sig .tc := ⟨.hbm, 1078, rfl⟩
abbrev main_call24_v1 : Ref sig .tc := ⟨.hbm, 1079, rfl⟩
abbrev main_call24_v2 : Ref sig .tc := ⟨.hbm, 1080, rfl⟩
abbrev main_call24_v3 : Ref sig .tc := ⟨.hbm, 1081, rfl⟩
abbrev main_call24_v4 : Ref sig .tc := ⟨.hbm, 1082, rfl⟩
abbrev main_v708 : Ref sig .tc := ⟨.hbm, 1083, rfl⟩
abbrev main_c_220 : Ref sig .tc := ⟨.hbm, 1084, rfl⟩
abbrev main_v709 : Ref sig .tc := ⟨.hbm, 1085, rfl⟩
abbrev main_v710 : Ref sig .tc := ⟨.hbm, 1086, rfl⟩
abbrev main_c_221 : Ref sig .tc := ⟨.hbm, 1087, rfl⟩
abbrev main_c_222 : Ref sig .tc := ⟨.hbm, 1088, rfl⟩
abbrev main_call25_v0 : Ref sig .tc := ⟨.hbm, 1089, rfl⟩
abbrev main_call25_v1 : Ref sig .tc := ⟨.hbm, 1090, rfl⟩
abbrev main_call25_v2 : Ref sig .tc := ⟨.hbm, 1091, rfl⟩
abbrev main_call25_v3 : Ref sig .tc := ⟨.hbm, 1092, rfl⟩
abbrev main_call25_v4 : Ref sig .tc := ⟨.hbm, 1093, rfl⟩
abbrev main_v711 : Ref sig .tc := ⟨.hbm, 1094, rfl⟩
abbrev main_c_223 : Ref sig .tc := ⟨.hbm, 1095, rfl⟩
abbrev main_c_224 : Ref sig .tc := ⟨.hbm, 1096, rfl⟩
abbrev main_call26_v0 : Ref sig .tc := ⟨.hbm, 1097, rfl⟩
abbrev main_call26_v1 : Ref sig .tc := ⟨.hbm, 1098, rfl⟩
abbrev main_call26_v2 : Ref sig .tc := ⟨.hbm, 1099, rfl⟩
abbrev main_call26_v3 : Ref sig .tc := ⟨.hbm, 1100, rfl⟩
abbrev main_call26_v4 : Ref sig .tc := ⟨.hbm, 1101, rfl⟩
abbrev main_v712 : Ref sig .tc := ⟨.hbm, 1102, rfl⟩
abbrev main_c_225 : Ref sig .tc := ⟨.hbm, 1103, rfl⟩
abbrev main_v713 : Ref sig .tc := ⟨.hbm, 1104, rfl⟩
abbrev main_v714 : Ref sig .tc := ⟨.hbm, 1105, rfl⟩
abbrev main_c_226 : Ref sig .tc := ⟨.hbm, 1106, rfl⟩
abbrev main_c_227 : Ref sig .tc := ⟨.hbm, 1107, rfl⟩
abbrev main_call27_v0 : Ref sig .tc := ⟨.hbm, 1108, rfl⟩
abbrev main_call27_v1 : Ref sig .tc := ⟨.hbm, 1109, rfl⟩
abbrev main_call27_v2 : Ref sig .tc := ⟨.hbm, 1110, rfl⟩
abbrev main_call27_v3 : Ref sig .tc := ⟨.hbm, 1111, rfl⟩
abbrev main_call27_v4 : Ref sig .tc := ⟨.hbm, 1112, rfl⟩
abbrev main_v715 : Ref sig .tc := ⟨.hbm, 1113, rfl⟩
abbrev main_c_228 : Ref sig .tc := ⟨.hbm, 1114, rfl⟩
abbrev main_v716 : Ref sig .tc := ⟨.hbm, 1115, rfl⟩
abbrev main_v717 : Ref sig .tc := ⟨.hbm, 1116, rfl⟩
abbrev main_c_229 : Ref sig .tc := ⟨.hbm, 1117, rfl⟩
abbrev main_v718 : Ref sig .tc := ⟨.hbm, 1118, rfl⟩
abbrev main_v719 : Ref sig .tc := ⟨.hbm, 1119, rfl⟩
abbrev main_v720 : Ref sig .tc := ⟨.hbm, 1120, rfl⟩
abbrev main_c_230 : Ref sig .tc := ⟨.hbm, 1121, rfl⟩
abbrev main_v721 : Ref sig .tc := ⟨.hbm, 1122, rfl⟩
abbrev main_v722 : Ref sig .tc := ⟨.hbm, 1123, rfl⟩
abbrev main_c_231 : Ref sig .tc := ⟨.hbm, 1124, rfl⟩
abbrev main_v723 : Ref sig .tc := ⟨.hbm, 1125, rfl⟩
abbrev main_v724 : Ref sig .tc := ⟨.hbm, 1126, rfl⟩
abbrev main_v725 : Ref sig .tc := ⟨.hbm, 1127, rfl⟩
abbrev main_v726 : Ref sig .tc := ⟨.hbm, 1128, rfl⟩
abbrev main_v727 : Ref sig .tc := ⟨.hbm, 1129, rfl⟩
abbrev main_v728 : Ref sig .tc := ⟨.hbm, 1130, rfl⟩
abbrev main_v729 : Ref sig .tc := ⟨.hbm, 1131, rfl⟩
abbrev main_c_232 : Ref sig .tc := ⟨.hbm, 1132, rfl⟩
abbrev main_v730 : Ref sig .tc := ⟨.hbm, 1133, rfl⟩
abbrev main_v731 : Ref sig .tc := ⟨.hbm, 1134, rfl⟩
abbrev main_c_233 : Ref sig .tc := ⟨.hbm, 1135, rfl⟩
abbrev main_v732 : Ref sig .tc := ⟨.hbm, 1136, rfl⟩
abbrev main_v733 : Ref sig .tc := ⟨.hbm, 1137, rfl⟩
abbrev main_v734 : Ref sig .tc := ⟨.hbm, 1138, rfl⟩
abbrev main_c_234 : Ref sig .tc := ⟨.hbm, 1139, rfl⟩
abbrev main_v735 : Ref sig .tc := ⟨.hbm, 1140, rfl⟩
abbrev main_v736 : Ref sig .tc := ⟨.hbm, 1141, rfl⟩
abbrev main_c_235 : Ref sig .tc := ⟨.hbm, 1142, rfl⟩
abbrev main_v737 : Ref sig .tc := ⟨.hbm, 1143, rfl⟩
abbrev main_v738 : Ref sig .tc := ⟨.hbm, 1144, rfl⟩
abbrev main_v739 : Ref sig .tc := ⟨.hbm, 1145, rfl⟩
abbrev main_v740 : Ref sig .tc := ⟨.hbm, 1146, rfl⟩
abbrev main_v741 : Ref sig .tc := ⟨.hbm, 1147, rfl⟩
abbrev main_v742 : Ref sig .tc := ⟨.hbm, 1148, rfl⟩
abbrev main_v743 : Ref sig .tc := ⟨.hbm, 1149, rfl⟩
abbrev main_c_236 : Ref sig .tc := ⟨.hbm, 1150, rfl⟩
abbrev main_v744 : Ref sig .tc := ⟨.hbm, 1151, rfl⟩
abbrev main_v745 : Ref sig .tc := ⟨.hbm, 1152, rfl⟩
abbrev main_c_237 : Ref sig .tc := ⟨.hbm, 1153, rfl⟩
abbrev main_v746 : Ref sig .tc := ⟨.hbm, 1154, rfl⟩
abbrev main_v747 : Ref sig .tc := ⟨.hbm, 1155, rfl⟩
abbrev main_v748 : Ref sig .tc := ⟨.hbm, 1156, rfl⟩
abbrev main_c_238 : Ref sig .tc := ⟨.hbm, 1157, rfl⟩
abbrev main_v749 : Ref sig .tc := ⟨.hbm, 1158, rfl⟩
abbrev main_v750 : Ref sig .tc := ⟨.hbm, 1159, rfl⟩
abbrev main_c_239 : Ref sig .tc := ⟨.hbm, 1160, rfl⟩
abbrev main_v751 : Ref sig .tc := ⟨.hbm, 1161, rfl⟩
abbrev main_v752 : Ref sig .tc := ⟨.hbm, 1162, rfl⟩
abbrev main_v753 : Ref sig .tc := ⟨.hbm, 1163, rfl⟩
abbrev main_v754 : Ref sig .tc := ⟨.hbm, 1164, rfl⟩
abbrev main_v755 : Ref sig .tc := ⟨.hbm, 1165, rfl⟩
abbrev main_v756 : Ref sig .tc := ⟨.hbm, 1166, rfl⟩
abbrev main_v757 : Ref sig .tc := ⟨.hbm, 1167, rfl⟩
abbrev main_c_240 : Ref sig .tc := ⟨.hbm, 1168, rfl⟩
abbrev main_v758 : Ref sig .tc := ⟨.hbm, 1169, rfl⟩
abbrev main_v759 : Ref sig .tc := ⟨.hbm, 1170, rfl⟩
abbrev main_c_241 : Ref sig .tc := ⟨.hbm, 1171, rfl⟩
abbrev main_v760 : Ref sig .tc := ⟨.hbm, 1172, rfl⟩
abbrev main_v761 : Ref sig .tc := ⟨.hbm, 1173, rfl⟩
abbrev main_v762 : Ref sig .tc := ⟨.hbm, 1174, rfl⟩
abbrev main_c_242 : Ref sig .tc := ⟨.hbm, 1175, rfl⟩
abbrev main_v763 : Ref sig .tc := ⟨.hbm, 1176, rfl⟩
abbrev main_v764 : Ref sig .tc := ⟨.hbm, 1177, rfl⟩
abbrev main_c_243 : Ref sig .tc := ⟨.hbm, 1178, rfl⟩
abbrev main_v765 : Ref sig .tc := ⟨.hbm, 1179, rfl⟩
abbrev main_v766 : Ref sig .tc := ⟨.hbm, 1180, rfl⟩
abbrev main_v767 : Ref sig .tc := ⟨.hbm, 1181, rfl⟩
abbrev main_v768 : Ref sig .tc := ⟨.hbm, 1182, rfl⟩
abbrev main_v769 : Ref sig .tc := ⟨.hbm, 1183, rfl⟩
abbrev main_v770 : Ref sig .tc := ⟨.hbm, 1184, rfl⟩
abbrev main_v771 : Ref sig .tc := ⟨.hbm, 1185, rfl⟩
abbrev main_cst_244 : Ref sig .tc := ⟨.hbm, 1186, rfl⟩
abbrev main_v772 : Ref sig .tc := ⟨.hbm, 1187, rfl⟩
abbrev main_v773 : Ref sig .tc := ⟨.hbm, 1188, rfl⟩
abbrev main_v774 : Ref sig .tc := ⟨.hbm, 1189, rfl⟩
abbrev main_v775 : Ref sig .tc := ⟨.hbm, 1190, rfl⟩
abbrev main_v776 : Ref sig .tc := ⟨.hbm, 1191, rfl⟩
abbrev main_v777 : Ref sig .tc := ⟨.hbm, 1192, rfl⟩
abbrev main_v778 : Ref sig .tc := ⟨.hbm, 1193, rfl⟩
abbrev main_v779 : Ref sig .tc := ⟨.hbm, 1194, rfl⟩
abbrev main_v780 : Ref sig .tc := ⟨.hbm, 1195, rfl⟩
abbrev main_cst_245 : Ref sig .tc := ⟨.hbm, 1196, rfl⟩
abbrev main_v781 : Ref sig .tc := ⟨.hbm, 1197, rfl⟩
abbrev main_v782 : Ref sig .tc := ⟨.hbm, 1198, rfl⟩
abbrev main_v783 : Ref sig .tc := ⟨.hbm, 1199, rfl⟩
abbrev main_v784 : Ref sig .tc := ⟨.hbm, 1200, rfl⟩
abbrev main_v785 : Ref sig .tc := ⟨.hbm, 1201, rfl⟩
abbrev main_v786 : Ref sig .tc := ⟨.hbm, 1202, rfl⟩
abbrev main_v787 : Ref sig .tc := ⟨.hbm, 1203, rfl⟩
abbrev main_v788 : Ref sig .tc := ⟨.hbm, 1204, rfl⟩
abbrev main_v789 : Ref sig .tc := ⟨.hbm, 1205, rfl⟩
abbrev main_cst_246 : Ref sig .tc := ⟨.hbm, 1206, rfl⟩
abbrev main_v790 : Ref sig .tc := ⟨.hbm, 1207, rfl⟩
abbrev main_v791 : Ref sig .tc := ⟨.hbm, 1208, rfl⟩
abbrev main_v792 : Ref sig .tc := ⟨.hbm, 1209, rfl⟩
abbrev main_v793 : Ref sig .tc := ⟨.hbm, 1210, rfl⟩
abbrev main_v794 : Ref sig .tc := ⟨.hbm, 1211, rfl⟩
abbrev main_v795 : Ref sig .tc := ⟨.hbm, 1212, rfl⟩
abbrev main_v796 : Ref sig .tc := ⟨.hbm, 1213, rfl⟩
abbrev main_v797 : Ref sig .tc := ⟨.hbm, 1214, rfl⟩
abbrev main_v798 : Ref sig .tc := ⟨.hbm, 1215, rfl⟩
abbrev main_v799 : Ref sig .tc := ⟨.hbm, 1216, rfl⟩
abbrev main_cst_247 : Ref sig .tc := ⟨.hbm, 1217, rfl⟩
abbrev main_v800 : Ref sig .tc := ⟨.hbm, 1218, rfl⟩
abbrev main_v801 : Ref sig .tc := ⟨.hbm, 1219, rfl⟩
abbrev main_cst_248 : Ref sig .tc := ⟨.hbm, 1220, rfl⟩
abbrev main_v802 : Ref sig .tc := ⟨.hbm, 1221, rfl⟩
abbrev main_v803 : Ref sig .tc := ⟨.hbm, 1222, rfl⟩
abbrev main_cst_249 : Ref sig .tc := ⟨.hbm, 1223, rfl⟩
abbrev main_v804 : Ref sig .tc := ⟨.hbm, 1224, rfl⟩
abbrev main_v805 : Ref sig .tc := ⟨.hbm, 1225, rfl⟩
abbrev main_cst_250 : Ref sig .tc := ⟨.hbm, 1226, rfl⟩
abbrev main_v806 : Ref sig .tc := ⟨.hbm, 1227, rfl⟩
abbrev main_v807 : Ref sig .tc := ⟨.hbm, 1228, rfl⟩
abbrev main_cst_251 : Ref sig .tc := ⟨.hbm, 1229, rfl⟩
abbrev main_v808 : Ref sig .tc := ⟨.hbm, 1230, rfl⟩
abbrev main_v809 : Ref sig .tc := ⟨.hbm, 1231, rfl⟩
abbrev main_cst_252 : Ref sig .tc := ⟨.hbm, 1232, rfl⟩
abbrev main_v810 : Ref sig .tc := ⟨.hbm, 1233, rfl⟩
abbrev main_v811 : Ref sig .tc := ⟨.hbm, 1234, rfl⟩
abbrev main_v812 : Ref sig .tc := ⟨.hbm, 1235, rfl⟩
abbrev main_v813 : Ref sig .tc := ⟨.hbm, 1236, rfl⟩
abbrev main_v814 : Ref sig .tc := ⟨.hbm, 1237, rfl⟩
abbrev main_v815 : Ref sig .tc := ⟨.hbm, 1238, rfl⟩
abbrev main_v816 : Ref sig .tc := ⟨.hbm, 1239, rfl⟩
abbrev main_v817 : Ref sig .tc := ⟨.hbm, 1240, rfl⟩
abbrev main_v818 : Ref sig .tc := ⟨.hbm, 1241, rfl⟩
abbrev main_v819 : Ref sig .tc := ⟨.hbm, 1242, rfl⟩
abbrev main_c_253 : Ref sig .tc := ⟨.hbm, 1243, rfl⟩
abbrev main_c_254 : Ref sig .tc := ⟨.hbm, 1244, rfl⟩
abbrev main_call28_v0 : Ref sig .tc := ⟨.hbm, 1245, rfl⟩
abbrev main_call28_v1 : Ref sig .tc := ⟨.hbm, 1246, rfl⟩
abbrev main_call28_v2 : Ref sig .tc := ⟨.hbm, 1247, rfl⟩
abbrev main_call28_v3 : Ref sig .tc := ⟨.hbm, 1248, rfl⟩
abbrev main_call28_v4 : Ref sig .tc := ⟨.hbm, 1249, rfl⟩
abbrev main_v820 : Ref sig .tc := ⟨.hbm, 1250, rfl⟩
abbrev main_c_255 : Ref sig .tc := ⟨.hbm, 1251, rfl⟩
abbrev main_v821 : Ref sig .tc := ⟨.hbm, 1252, rfl⟩
abbrev main_v822 : Ref sig .tc := ⟨.hbm, 1253, rfl⟩
abbrev main_c_256 : Ref sig .tc := ⟨.hbm, 1254, rfl⟩
abbrev main_c_257 : Ref sig .tc := ⟨.hbm, 1255, rfl⟩
abbrev main_call29_v0 : Ref sig .tc := ⟨.hbm, 1256, rfl⟩
abbrev main_call29_v1 : Ref sig .tc := ⟨.hbm, 1257, rfl⟩
abbrev main_call29_v2 : Ref sig .tc := ⟨.hbm, 1258, rfl⟩
abbrev main_call29_v3 : Ref sig .tc := ⟨.hbm, 1259, rfl⟩
abbrev main_call29_v4 : Ref sig .tc := ⟨.hbm, 1260, rfl⟩
abbrev main_v823 : Ref sig .tc := ⟨.hbm, 1261, rfl⟩
abbrev main_c_258 : Ref sig .tc := ⟨.hbm, 1262, rfl⟩
abbrev main_c_259 : Ref sig .tc := ⟨.hbm, 1263, rfl⟩
abbrev main_call30_v0 : Ref sig .tc := ⟨.hbm, 1264, rfl⟩
abbrev main_call30_v1 : Ref sig .tc := ⟨.hbm, 1265, rfl⟩
abbrev main_call30_v2 : Ref sig .tc := ⟨.hbm, 1266, rfl⟩
abbrev main_call30_v3 : Ref sig .tc := ⟨.hbm, 1267, rfl⟩
abbrev main_call30_v4 : Ref sig .tc := ⟨.hbm, 1268, rfl⟩
abbrev main_v824 : Ref sig .tc := ⟨.hbm, 1269, rfl⟩
abbrev main_c_260 : Ref sig .tc := ⟨.hbm, 1270, rfl⟩
abbrev main_v825 : Ref sig .tc := ⟨.hbm, 1271, rfl⟩
abbrev main_v826 : Ref sig .tc := ⟨.hbm, 1272, rfl⟩
abbrev main_c_261 : Ref sig .tc := ⟨.hbm, 1273, rfl⟩
abbrev main_c_262 : Ref sig .tc := ⟨.hbm, 1274, rfl⟩
abbrev main_call31_v0 : Ref sig .tc := ⟨.hbm, 1275, rfl⟩
abbrev main_call31_v1 : Ref sig .tc := ⟨.hbm, 1276, rfl⟩
abbrev main_call31_v2 : Ref sig .tc := ⟨.hbm, 1277, rfl⟩
abbrev main_call31_v3 : Ref sig .tc := ⟨.hbm, 1278, rfl⟩
abbrev main_call31_v4 : Ref sig .tc := ⟨.hbm, 1279, rfl⟩
abbrev main_v827 : Ref sig .tc := ⟨.hbm, 1280, rfl⟩
abbrev main_c_263 : Ref sig .tc := ⟨.hbm, 1281, rfl⟩
abbrev main_v828 : Ref sig .tc := ⟨.hbm, 1282, rfl⟩
abbrev main_v829 : Ref sig .tc := ⟨.hbm, 1283, rfl⟩
abbrev main_c_264 : Ref sig .tc := ⟨.hbm, 1284, rfl⟩
abbrev main_v830 : Ref sig .tc := ⟨.hbm, 1285, rfl⟩
abbrev main_v831 : Ref sig .tc := ⟨.hbm, 1286, rfl⟩
abbrev main_v832 : Ref sig .tc := ⟨.hbm, 1287, rfl⟩
abbrev main_c_265 : Ref sig .tc := ⟨.hbm, 1288, rfl⟩
abbrev main_v833 : Ref sig .tc := ⟨.hbm, 1289, rfl⟩
abbrev main_v834 : Ref sig .tc := ⟨.hbm, 1290, rfl⟩
abbrev main_c_266 : Ref sig .tc := ⟨.hbm, 1291, rfl⟩
abbrev main_v835 : Ref sig .tc := ⟨.hbm, 1292, rfl⟩
abbrev main_v836 : Ref sig .tc := ⟨.hbm, 1293, rfl⟩
abbrev main_v837 : Ref sig .tc := ⟨.hbm, 1294, rfl⟩
abbrev main_v838 : Ref sig .tc := ⟨.hbm, 1295, rfl⟩
abbrev main_v839 : Ref sig .tc := ⟨.hbm, 1296, rfl⟩
abbrev main_v840 : Ref sig .tc := ⟨.hbm, 1297, rfl⟩
abbrev main_v841 : Ref sig .tc := ⟨.hbm, 1298, rfl⟩
abbrev main_c_267 : Ref sig .tc := ⟨.hbm, 1299, rfl⟩
abbrev main_v842 : Ref sig .tc := ⟨.hbm, 1300, rfl⟩
abbrev main_v843 : Ref sig .tc := ⟨.hbm, 1301, rfl⟩
abbrev main_c_268 : Ref sig .tc := ⟨.hbm, 1302, rfl⟩
abbrev main_v844 : Ref sig .tc := ⟨.hbm, 1303, rfl⟩
abbrev main_v845 : Ref sig .tc := ⟨.hbm, 1304, rfl⟩
abbrev main_v846 : Ref sig .tc := ⟨.hbm, 1305, rfl⟩
abbrev main_c_269 : Ref sig .tc := ⟨.hbm, 1306, rfl⟩
abbrev main_v847 : Ref sig .tc := ⟨.hbm, 1307, rfl⟩
abbrev main_v848 : Ref sig .tc := ⟨.hbm, 1308, rfl⟩
abbrev main_c_270 : Ref sig .tc := ⟨.hbm, 1309, rfl⟩
abbrev main_v849 : Ref sig .tc := ⟨.hbm, 1310, rfl⟩
abbrev main_v850 : Ref sig .tc := ⟨.hbm, 1311, rfl⟩
abbrev main_v851 : Ref sig .tc := ⟨.hbm, 1312, rfl⟩
abbrev main_v852 : Ref sig .tc := ⟨.hbm, 1313, rfl⟩
abbrev main_v853 : Ref sig .tc := ⟨.hbm, 1314, rfl⟩
abbrev main_v854 : Ref sig .tc := ⟨.hbm, 1315, rfl⟩
abbrev main_v855 : Ref sig .tc := ⟨.hbm, 1316, rfl⟩
abbrev main_c_271 : Ref sig .tc := ⟨.hbm, 1317, rfl⟩
abbrev main_v856 : Ref sig .tc := ⟨.hbm, 1318, rfl⟩
abbrev main_v857 : Ref sig .tc := ⟨.hbm, 1319, rfl⟩
abbrev main_c_272 : Ref sig .tc := ⟨.hbm, 1320, rfl⟩
abbrev main_v858 : Ref sig .tc := ⟨.hbm, 1321, rfl⟩
abbrev main_v859 : Ref sig .tc := ⟨.hbm, 1322, rfl⟩
abbrev main_v860 : Ref sig .tc := ⟨.hbm, 1323, rfl⟩
abbrev main_c_273 : Ref sig .tc := ⟨.hbm, 1324, rfl⟩
abbrev main_v861 : Ref sig .tc := ⟨.hbm, 1325, rfl⟩
abbrev main_v862 : Ref sig .tc := ⟨.hbm, 1326, rfl⟩
abbrev main_c_274 : Ref sig .tc := ⟨.hbm, 1327, rfl⟩
abbrev main_v863 : Ref sig .tc := ⟨.hbm, 1328, rfl⟩
abbrev main_v864 : Ref sig .tc := ⟨.hbm, 1329, rfl⟩
abbrev main_v865 : Ref sig .tc := ⟨.hbm, 1330, rfl⟩
abbrev main_v866 : Ref sig .tc := ⟨.hbm, 1331, rfl⟩
abbrev main_v867 : Ref sig .tc := ⟨.hbm, 1332, rfl⟩
abbrev main_v868 : Ref sig .tc := ⟨.hbm, 1333, rfl⟩
abbrev main_v869 : Ref sig .tc := ⟨.hbm, 1334, rfl⟩
abbrev main_c_275 : Ref sig .tc := ⟨.hbm, 1335, rfl⟩
abbrev main_v870 : Ref sig .tc := ⟨.hbm, 1336, rfl⟩
abbrev main_v871 : Ref sig .tc := ⟨.hbm, 1337, rfl⟩
abbrev main_c_276 : Ref sig .tc := ⟨.hbm, 1338, rfl⟩
abbrev main_v872 : Ref sig .tc := ⟨.hbm, 1339, rfl⟩
abbrev main_v873 : Ref sig .tc := ⟨.hbm, 1340, rfl⟩
abbrev main_v874 : Ref sig .tc := ⟨.hbm, 1341, rfl⟩
abbrev main_c_277 : Ref sig .tc := ⟨.hbm, 1342, rfl⟩
abbrev main_v875 : Ref sig .tc := ⟨.hbm, 1343, rfl⟩
abbrev main_v876 : Ref sig .tc := ⟨.hbm, 1344, rfl⟩
abbrev main_c_278 : Ref sig .tc := ⟨.hbm, 1345, rfl⟩
abbrev main_v877 : Ref sig .tc := ⟨.hbm, 1346, rfl⟩
abbrev main_v878 : Ref sig .tc := ⟨.hbm, 1347, rfl⟩
abbrev main_v879 : Ref sig .tc := ⟨.hbm, 1348, rfl⟩
abbrev main_v880 : Ref sig .tc := ⟨.hbm, 1349, rfl⟩
abbrev main_v881 : Ref sig .tc := ⟨.hbm, 1350, rfl⟩
abbrev main_v882 : Ref sig .tc := ⟨.hbm, 1351, rfl⟩
abbrev main_v883 : Ref sig .tc := ⟨.hbm, 1352, rfl⟩
abbrev main_cst_279 : Ref sig .tc := ⟨.hbm, 1353, rfl⟩
abbrev main_v884 : Ref sig .tc := ⟨.hbm, 1354, rfl⟩
abbrev main_v885 : Ref sig .tc := ⟨.hbm, 1355, rfl⟩
abbrev main_v886 : Ref sig .tc := ⟨.hbm, 1356, rfl⟩
abbrev main_v887 : Ref sig .tc := ⟨.hbm, 1357, rfl⟩
abbrev main_v888 : Ref sig .tc := ⟨.hbm, 1358, rfl⟩
abbrev main_v889 : Ref sig .tc := ⟨.hbm, 1359, rfl⟩
abbrev main_v890 : Ref sig .tc := ⟨.hbm, 1360, rfl⟩
abbrev main_v891 : Ref sig .tc := ⟨.hbm, 1361, rfl⟩
abbrev main_v892 : Ref sig .tc := ⟨.hbm, 1362, rfl⟩
abbrev main_cst_280 : Ref sig .tc := ⟨.hbm, 1363, rfl⟩
abbrev main_v893 : Ref sig .tc := ⟨.hbm, 1364, rfl⟩
abbrev main_v894 : Ref sig .tc := ⟨.hbm, 1365, rfl⟩
abbrev main_v895 : Ref sig .tc := ⟨.hbm, 1366, rfl⟩
abbrev main_v896 : Ref sig .tc := ⟨.hbm, 1367, rfl⟩
abbrev main_v897 : Ref sig .tc := ⟨.hbm, 1368, rfl⟩
abbrev main_v898 : Ref sig .tc := ⟨.hbm, 1369, rfl⟩
abbrev main_v899 : Ref sig .tc := ⟨.hbm, 1370, rfl⟩
abbrev main_v900 : Ref sig .tc := ⟨.hbm, 1371, rfl⟩
abbrev main_v901 : Ref sig .tc := ⟨.hbm, 1372, rfl⟩
abbrev main_cst_281 : Ref sig .tc := ⟨.hbm, 1373, rfl⟩
abbrev main_v902 : Ref sig .tc := ⟨.hbm, 1374, rfl⟩
abbrev main_v903 : Ref sig .tc := ⟨.hbm, 1375, rfl⟩
abbrev main_v904 : Ref sig .tc := ⟨.hbm, 1376, rfl⟩
abbrev main_v905 : Ref sig .tc := ⟨.hbm, 1377, rfl⟩
abbrev main_v906 : Ref sig .tc := ⟨.hbm, 1378, rfl⟩
abbrev main_v907 : Ref sig .tc := ⟨.hbm, 1379, rfl⟩
abbrev main_v908 : Ref sig .tc := ⟨.hbm, 1380, rfl⟩
abbrev main_v909 : Ref sig .tc := ⟨.hbm, 1381, rfl⟩
abbrev main_v910 : Ref sig .tc := ⟨.hbm, 1382, rfl⟩
abbrev main_v911 : Ref sig .tc := ⟨.hbm, 1383, rfl⟩
abbrev main_cst_282 : Ref sig .tc := ⟨.hbm, 1384, rfl⟩
abbrev main_v912 : Ref sig .tc := ⟨.hbm, 1385, rfl⟩
abbrev main_v913 : Ref sig .tc := ⟨.hbm, 1386, rfl⟩
abbrev main_cst_283 : Ref sig .tc := ⟨.hbm, 1387, rfl⟩
abbrev main_v914 : Ref sig .tc := ⟨.hbm, 1388, rfl⟩
abbrev main_v915 : Ref sig .tc := ⟨.hbm, 1389, rfl⟩
abbrev main_cst_284 : Ref sig .tc := ⟨.hbm, 1390, rfl⟩
abbrev main_v916 : Ref sig .tc := ⟨.hbm, 1391, rfl⟩
abbrev main_v917 : Ref sig .tc := ⟨.hbm, 1392, rfl⟩
abbrev main_cst_285 : Ref sig .tc := ⟨.hbm, 1393, rfl⟩
abbrev main_v918 : Ref sig .tc := ⟨.hbm, 1394, rfl⟩
abbrev main_v919 : Ref sig .tc := ⟨.hbm, 1395, rfl⟩
abbrev main_cst_286 : Ref sig .tc := ⟨.hbm, 1396, rfl⟩
abbrev main_v920 : Ref sig .tc := ⟨.hbm, 1397, rfl⟩
abbrev main_v921 : Ref sig .tc := ⟨.hbm, 1398, rfl⟩
abbrev main_cst_287 : Ref sig .tc := ⟨.hbm, 1399, rfl⟩
abbrev main_v922 : Ref sig .tc := ⟨.hbm, 1400, rfl⟩
abbrev main_v923 : Ref sig .tc := ⟨.hbm, 1401, rfl⟩
abbrev main_v924 : Ref sig .tc := ⟨.hbm, 1402, rfl⟩
abbrev main_v925 : Ref sig .tc := ⟨.hbm, 1403, rfl⟩
abbrev main_v926 : Ref sig .tc := ⟨.hbm, 1404, rfl⟩
abbrev main_v927 : Ref sig .tc := ⟨.hbm, 1405, rfl⟩
abbrev main_v928 : Ref sig .tc := ⟨.hbm, 1406, rfl⟩
abbrev main_v929 : Ref sig .tc := ⟨.hbm, 1407, rfl⟩
abbrev main_v930 : Ref sig .tc := ⟨.hbm, 1408, rfl⟩
abbrev main_v931 : Ref sig .tc := ⟨.hbm, 1409, rfl⟩
abbrev main_c_288 : Ref sig .tc := ⟨.hbm, 1410, rfl⟩
abbrev main_c_289 : Ref sig .tc := ⟨.hbm, 1411, rfl⟩
abbrev main_call32_v0 : Ref sig .tc := ⟨.hbm, 1412, rfl⟩
abbrev main_call32_v1 : Ref sig .tc := ⟨.hbm, 1413, rfl⟩
abbrev main_call32_v2 : Ref sig .tc := ⟨.hbm, 1414, rfl⟩
abbrev main_call32_v3 : Ref sig .tc := ⟨.hbm, 1415, rfl⟩
abbrev main_call32_v4 : Ref sig .tc := ⟨.hbm, 1416, rfl⟩
abbrev main_v932 : Ref sig .tc := ⟨.hbm, 1417, rfl⟩
abbrev main_c_290 : Ref sig .tc := ⟨.hbm, 1418, rfl⟩
abbrev main_v933 : Ref sig .tc := ⟨.hbm, 1419, rfl⟩
abbrev main_v934 : Ref sig .tc := ⟨.hbm, 1420, rfl⟩
abbrev main_c_291 : Ref sig .tc := ⟨.hbm, 1421, rfl⟩
abbrev main_c_292 : Ref sig .tc := ⟨.hbm, 1422, rfl⟩
abbrev main_call33_v0 : Ref sig .tc := ⟨.hbm, 1423, rfl⟩
abbrev main_call33_v1 : Ref sig .tc := ⟨.hbm, 1424, rfl⟩
abbrev main_call33_v2 : Ref sig .tc := ⟨.hbm, 1425, rfl⟩
abbrev main_call33_v3 : Ref sig .tc := ⟨.hbm, 1426, rfl⟩
abbrev main_call33_v4 : Ref sig .tc := ⟨.hbm, 1427, rfl⟩
abbrev main_v935 : Ref sig .tc := ⟨.hbm, 1428, rfl⟩
abbrev main_c_293 : Ref sig .tc := ⟨.hbm, 1429, rfl⟩
abbrev main_c_294 : Ref sig .tc := ⟨.hbm, 1430, rfl⟩
abbrev main_call34_v0 : Ref sig .tc := ⟨.hbm, 1431, rfl⟩
abbrev main_call34_v1 : Ref sig .tc := ⟨.hbm, 1432, rfl⟩
abbrev main_call34_v2 : Ref sig .tc := ⟨.hbm, 1433, rfl⟩
abbrev main_call34_v3 : Ref sig .tc := ⟨.hbm, 1434, rfl⟩
abbrev main_call34_v4 : Ref sig .tc := ⟨.hbm, 1435, rfl⟩
abbrev main_v936 : Ref sig .tc := ⟨.hbm, 1436, rfl⟩
abbrev main_c_295 : Ref sig .tc := ⟨.hbm, 1437, rfl⟩
abbrev main_v937 : Ref sig .tc := ⟨.hbm, 1438, rfl⟩
abbrev main_v938 : Ref sig .tc := ⟨.hbm, 1439, rfl⟩
abbrev main_c_296 : Ref sig .tc := ⟨.hbm, 1440, rfl⟩
abbrev main_c_297 : Ref sig .tc := ⟨.hbm, 1441, rfl⟩
abbrev main_call35_v0 : Ref sig .tc := ⟨.hbm, 1442, rfl⟩
abbrev main_call35_v1 : Ref sig .tc := ⟨.hbm, 1443, rfl⟩
abbrev main_call35_v2 : Ref sig .tc := ⟨.hbm, 1444, rfl⟩
abbrev main_call35_v3 : Ref sig .tc := ⟨.hbm, 1445, rfl⟩
abbrev main_call35_v4 : Ref sig .tc := ⟨.hbm, 1446, rfl⟩
abbrev main_v939 : Ref sig .tc := ⟨.hbm, 1447, rfl⟩
abbrev main_c_298 : Ref sig .tc := ⟨.hbm, 1448, rfl⟩
abbrev main_v940 : Ref sig .tc := ⟨.hbm, 1449, rfl⟩
abbrev main_v941 : Ref sig .tc := ⟨.hbm, 1450, rfl⟩
abbrev main_c_299 : Ref sig .tc := ⟨.hbm, 1451, rfl⟩
abbrev main_v942 : Ref sig .tc := ⟨.hbm, 1452, rfl⟩
abbrev main_v943 : Ref sig .tc := ⟨.hbm, 1453, rfl⟩
abbrev main_v944 : Ref sig .tc := ⟨.hbm, 1454, rfl⟩
abbrev main_c_300 : Ref sig .tc := ⟨.hbm, 1455, rfl⟩
abbrev main_v945 : Ref sig .tc := ⟨.hbm, 1456, rfl⟩
abbrev main_v946 : Ref sig .tc := ⟨.hbm, 1457, rfl⟩
abbrev main_c_301 : Ref sig .tc := ⟨.hbm, 1458, rfl⟩
abbrev main_v947 : Ref sig .tc := ⟨.hbm, 1459, rfl⟩
abbrev main_v948 : Ref sig .tc := ⟨.hbm, 1460, rfl⟩
abbrev main_v949 : Ref sig .tc := ⟨.hbm, 1461, rfl⟩
abbrev main_v950 : Ref sig .tc := ⟨.hbm, 1462, rfl⟩
abbrev main_v951 : Ref sig .tc := ⟨.hbm, 1463, rfl⟩
abbrev main_v952 : Ref sig .tc := ⟨.hbm, 1464, rfl⟩
abbrev main_v953 : Ref sig .tc := ⟨.hbm, 1465, rfl⟩
abbrev main_c_302 : Ref sig .tc := ⟨.hbm, 1466, rfl⟩
abbrev main_v954 : Ref sig .tc := ⟨.hbm, 1467, rfl⟩
abbrev main_v955 : Ref sig .tc := ⟨.hbm, 1468, rfl⟩
abbrev main_c_303 : Ref sig .tc := ⟨.hbm, 1469, rfl⟩
abbrev main_v956 : Ref sig .tc := ⟨.hbm, 1470, rfl⟩
abbrev main_v957 : Ref sig .tc := ⟨.hbm, 1471, rfl⟩
abbrev main_v958 : Ref sig .tc := ⟨.hbm, 1472, rfl⟩
abbrev main_c_304 : Ref sig .tc := ⟨.hbm, 1473, rfl⟩
abbrev main_v959 : Ref sig .tc := ⟨.hbm, 1474, rfl⟩
abbrev main_v960 : Ref sig .tc := ⟨.hbm, 1475, rfl⟩
abbrev main_c_305 : Ref sig .tc := ⟨.hbm, 1476, rfl⟩
abbrev main_v961 : Ref sig .tc := ⟨.hbm, 1477, rfl⟩
abbrev main_v962 : Ref sig .tc := ⟨.hbm, 1478, rfl⟩
abbrev main_v963 : Ref sig .tc := ⟨.hbm, 1479, rfl⟩
abbrev main_v964 : Ref sig .tc := ⟨.hbm, 1480, rfl⟩
abbrev main_v965 : Ref sig .tc := ⟨.hbm, 1481, rfl⟩
abbrev main_v966 : Ref sig .tc := ⟨.hbm, 1482, rfl⟩
abbrev main_v967 : Ref sig .tc := ⟨.hbm, 1483, rfl⟩
abbrev main_c_306 : Ref sig .tc := ⟨.hbm, 1484, rfl⟩
abbrev main_v968 : Ref sig .tc := ⟨.hbm, 1485, rfl⟩
abbrev main_v969 : Ref sig .tc := ⟨.hbm, 1486, rfl⟩
abbrev main_c_307 : Ref sig .tc := ⟨.hbm, 1487, rfl⟩
abbrev main_v970 : Ref sig .tc := ⟨.hbm, 1488, rfl⟩
abbrev main_v971 : Ref sig .tc := ⟨.hbm, 1489, rfl⟩
abbrev main_v972 : Ref sig .tc := ⟨.hbm, 1490, rfl⟩
abbrev main_c_308 : Ref sig .tc := ⟨.hbm, 1491, rfl⟩
abbrev main_v973 : Ref sig .tc := ⟨.hbm, 1492, rfl⟩
abbrev main_v974 : Ref sig .tc := ⟨.hbm, 1493, rfl⟩
abbrev main_c_309 : Ref sig .tc := ⟨.hbm, 1494, rfl⟩
abbrev main_v975 : Ref sig .tc := ⟨.hbm, 1495, rfl⟩
abbrev main_v976 : Ref sig .tc := ⟨.hbm, 1496, rfl⟩
abbrev main_v977 : Ref sig .tc := ⟨.hbm, 1497, rfl⟩
abbrev main_v978 : Ref sig .tc := ⟨.hbm, 1498, rfl⟩
abbrev main_v979 : Ref sig .tc := ⟨.hbm, 1499, rfl⟩
abbrev main_v980 : Ref sig .tc := ⟨.hbm, 1500, rfl⟩
abbrev main_v981 : Ref sig .tc := ⟨.hbm, 1501, rfl⟩
abbrev main_c_310 : Ref sig .tc := ⟨.hbm, 1502, rfl⟩
abbrev main_v982 : Ref sig .tc := ⟨.hbm, 1503, rfl⟩
abbrev main_v983 : Ref sig .tc := ⟨.hbm, 1504, rfl⟩
abbrev main_c_311 : Ref sig .tc := ⟨.hbm, 1505, rfl⟩
abbrev main_v984 : Ref sig .tc := ⟨.hbm, 1506, rfl⟩
abbrev main_v985 : Ref sig .tc := ⟨.hbm, 1507, rfl⟩
abbrev main_v986 : Ref sig .tc := ⟨.hbm, 1508, rfl⟩
abbrev main_c_312 : Ref sig .tc := ⟨.hbm, 1509, rfl⟩
abbrev main_v987 : Ref sig .tc := ⟨.hbm, 1510, rfl⟩
abbrev main_v988 : Ref sig .tc := ⟨.hbm, 1511, rfl⟩
abbrev main_c_313 : Ref sig .tc := ⟨.hbm, 1512, rfl⟩
abbrev main_v989 : Ref sig .tc := ⟨.hbm, 1513, rfl⟩
abbrev main_v990 : Ref sig .tc := ⟨.hbm, 1514, rfl⟩
abbrev main_v991 : Ref sig .tc := ⟨.hbm, 1515, rfl⟩
abbrev main_v992 : Ref sig .tc := ⟨.hbm, 1516, rfl⟩
abbrev main_v993 : Ref sig .tc := ⟨.hbm, 1517, rfl⟩
abbrev main_v994 : Ref sig .tc := ⟨.hbm, 1518, rfl⟩
abbrev main_v995 : Ref sig .tc := ⟨.hbm, 1519, rfl⟩
abbrev main_cst_314 : Ref sig .tc := ⟨.hbm, 1520, rfl⟩
abbrev main_v996 : Ref sig .tc := ⟨.hbm, 1521, rfl⟩
abbrev main_v997 : Ref sig .tc := ⟨.hbm, 1522, rfl⟩
abbrev main_v998 : Ref sig .tc := ⟨.hbm, 1523, rfl⟩
abbrev main_v999 : Ref sig .tc := ⟨.hbm, 1524, rfl⟩
abbrev main_v1000 : Ref sig .tc := ⟨.hbm, 1525, rfl⟩
abbrev main_v1001 : Ref sig .tc := ⟨.hbm, 1526, rfl⟩
abbrev main_v1002 : Ref sig .tc := ⟨.hbm, 1527, rfl⟩
abbrev main_v1003 : Ref sig .tc := ⟨.hbm, 1528, rfl⟩
abbrev main_v1004 : Ref sig .tc := ⟨.hbm, 1529, rfl⟩
abbrev main_cst_315 : Ref sig .tc := ⟨.hbm, 1530, rfl⟩
abbrev main_v1005 : Ref sig .tc := ⟨.hbm, 1531, rfl⟩
abbrev main_v1006 : Ref sig .tc := ⟨.hbm, 1532, rfl⟩
abbrev main_v1007 : Ref sig .tc := ⟨.hbm, 1533, rfl⟩
abbrev main_v1008 : Ref sig .tc := ⟨.hbm, 1534, rfl⟩
abbrev main_v1009 : Ref sig .tc := ⟨.hbm, 1535, rfl⟩
abbrev main_v1010 : Ref sig .tc := ⟨.hbm, 1536, rfl⟩
abbrev main_v1011 : Ref sig .tc := ⟨.hbm, 1537, rfl⟩
abbrev main_v1012 : Ref sig .tc := ⟨.hbm, 1538, rfl⟩
abbrev main_v1013 : Ref sig .tc := ⟨.hbm, 1539, rfl⟩
abbrev main_cst_316 : Ref sig .tc := ⟨.hbm, 1540, rfl⟩
abbrev main_v1014 : Ref sig .tc := ⟨.hbm, 1541, rfl⟩
abbrev main_v1015 : Ref sig .tc := ⟨.hbm, 1542, rfl⟩
abbrev main_v1016 : Ref sig .tc := ⟨.hbm, 1543, rfl⟩
abbrev main_v1017 : Ref sig .tc := ⟨.hbm, 1544, rfl⟩
abbrev main_v1018 : Ref sig .tc := ⟨.hbm, 1545, rfl⟩
abbrev main_v1019 : Ref sig .tc := ⟨.hbm, 1546, rfl⟩
abbrev main_v1020 : Ref sig .tc := ⟨.hbm, 1547, rfl⟩
abbrev main_v1021 : Ref sig .tc := ⟨.hbm, 1548, rfl⟩
abbrev main_v1022 : Ref sig .tc := ⟨.hbm, 1549, rfl⟩
abbrev main_v1023 : Ref sig .tc := ⟨.hbm, 1550, rfl⟩
abbrev main_v1024 : Ref sig .tc := ⟨.hbm, 1551, rfl⟩
abbrev main_v1025 : Ref sig .tc := ⟨.hbm, 1552, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg21_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem21_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x24 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S24x168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S168x168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S168x35 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S35 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S24x168 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S168 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S168x168 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S168 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S168x35 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S35 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S24x168 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S168 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S168x168 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S168 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S168x35 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S35 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S10000x35 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  bcast_S_S500000x3 : S_.BroadcastsInDim S500000x3 (![] : Fin 0 → Fin S500000x3.rank)
  slices_S500000x3_S500000x1_0_0 : S500000x3.Slices ![0, 0] S500000x1
  shapeCasts_S500000x1_S500000 : S500000x1.ShapeCasts S500000
  slices_S500000x3_S500000x1_0_1 : S500000x3.Slices ![0, 1] S500000x1
  slices_S500000x3_S500000x1_0_2 : S500000x3.Slices ![0, 2] S500000x1
  bcast_S_S500000 : S_.BroadcastsInDim S500000 (![] : Fin 0 → Fin S500000.rank)
  bcast_S500000_S500000x1_0 : S500000.BroadcastsInDim S500000x1 (![0] : Fin 1 → Fin S500000x1.rank)
  concatenates_S500000x1_S500000x1_S500000x2_d1 : Shape.Concatenates [S500000x1, S500000x1] S500000x2 1
  bcast_S500000_S1x500000_1 : S500000.BroadcastsInDim S1x500000 (![1] : Fin 1 → Fin S1x500000.rank)
  bcast_S1x500000_S8x500000_0_1 : S1x500000.BroadcastsInDim S8x500000 (![0, 1] : Fin 2 → Fin S8x500000.rank)
  transposes_S8x500000_S500000x8_1_0 : S8x500000.Transposes [1, 0] S500000x8
  concatenates_S500000x8_S500000x8_S500000x8_S500000x24_d1 : Shape.Concatenates [S500000x8, S500000x8, S500000x8] S500000x24 1
  inb_S10000x24_S10000x24_0_0 : ∀ a, (![0, 0] : Fin 2 → Nat) a + S10000x24.size a ≤ S10000x24.size a
  h_S10000x24 : 0 < S10000x24.numel
  shapeCasts_S10000x24_S10000x24 : S10000x24.ShapeCasts S10000x24
  inb_S24x168_S24x168_0_0 : ∀ a, (![0, 0] : Fin 2 → Nat) a + S24x168.size a ≤ S24x168.size a
  h_S24x168 : 0 < S24x168.numel
  inb_S168_S168_0 : ∀ a, (![0] : Fin 1 → Nat) a + S168.size a ≤ S168.size a
  h_S168 : 0 < S168.numel
  inb_S168x168_S168x168_0_0 : ∀ a, (![0, 0] : Fin 2 → Nat) a + S168x168.size a ≤ S168x168.size a
  h_S168x168 : 0 < S168x168.numel
  inb_S168x35_S168x35_0_0 : ∀ a, (![0, 0] : Fin 2 → Nat) a + S168x35.size a ≤ S168x35.size a
  h_S168x35 : 0 < S168x35.numel
  inb_S35_S35_0 : ∀ a, (![0] : Fin 1 → Nat) a + S35.size a ≤ S35.size a
  h_S35 : 0 < S35.numel
  bitsLt_bf16_f32 : FTy.bits .bf16 < FTy.bits .f32
  shapeCasts_S168_S1x168 : S168.ShapeCasts S1x168
  broadcasts_S1x168_S10000x168 : S1x168.Broadcasts S10000x168
  shapeCasts_S35_S1x35 : S35.ShapeCasts S1x35
  broadcasts_S1x35_S10000x35 : S1x35.Broadcasts S10000x35
  slices_S10000x35_o0_0_S10000x31 : S10000x35.Slices ![0, 0] S10000x31
  slices_S10000x35_o0_31_S10000x3 : S10000x35.Slices ![0, 31] S10000x3
  slices_S10000x35_o0_34_S10000x1 : S10000x35.Slices ![0, 34] S10000x1
  concatenates_S10000x31_S10000x3_S10000x1_S10000x35_d1 : Shape.Concatenates [S10000x31, S10000x3, S10000x1] S10000x35 1
  inb_S10000x35_S10000x35_0_0 : ∀ a, (![0, 0] : Fin 2 → Nat) a + S10000x35.size a ≤ S10000x35.size a
  h_S10000x35 : 0 < S10000x35.numel
  gather_S8x128x128_S500000x2_S8x500000_0_12_n_n_12_1_811_wf : GatherDims.WF S8x128x128 S500000x2 S8x500000 [0] [1, 2] [] [1, 2] [] 1 ![8, 1, 1]
  gather_S8x256x256_S500000x2_S8x500000_0_12_n_n_12_1_811_wf : GatherDims.WF S8x256x256 S500000x2 S8x500000 [0] [1, 2] [] [1, 2] [] 1 ![8, 1, 1]
  gather_S8x512x512_S500000x2_S8x500000_0_12_n_n_12_1_811_wf : GatherDims.WF S8x512x512 S500000x2 S8x500000 [0] [1, 2] [] [1, 2] [] 1 ![8, 1, 1]
  dot_S10000x24_S24x168_S10000x168_1_0_0_1_n_n_wf : DotDims.WF S10000x24 S24x168 S10000x168 [1] [0] [0] [1] [] []
  dot_S10000x168_S168x168_S10000x168_1_0_0_1_n_n_wf : DotDims.WF S10000x168 S168x168 S10000x168 [1] [0] [0] [1] [] []
  dot_S10000x168_S168x35_S10000x35_1_0_0_1_n_n_wf : DotDims.WF S10000x168 S168x35 S10000x35 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x24.size a ≤ S500000x24.size a
  hwx0_0 : ∀ i : grid0.Coords, EltTy.bits .f32 = 32 ∨ (Rect.block (s := S500000x24) S10000x24.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x24.size a ≤ S500000x24.size a
  hwx0_1 : ∀ i : grid0.Coords, EltTy.bits .f32 = 32 ∨ (Rect.block (s := S500000x24) S10000x24.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x24.size a ≤ S500000x24.size a
  hwx0_2 : ∀ i : grid0.Coords, EltTy.bits .f32 = 32 ∨ (Rect.block (s := S500000x24) S10000x24.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24x168.size a ≤ S24x168.size a
  hwx0_3 : ∀ i : grid0.Coords, EltTy.bits .f32 = 32 ∨ (Rect.block (s := S24x168) S24x168.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S168.size a ≤ S168.size a
  hwx0_4 : ∀ i : grid0.Coords, EltTy.bits .f32 = 32 ∨ (Rect.block (s := S168) S168.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S168x168.size a ≤ S168x168.size a
  hwx0_5 : ∀ i : grid0.Coords, EltTy.bits .f32 = 32 ∨ (Rect.block (s := S168x168) S168x168.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S168.size a ≤ S168.size a
  hwx0_6 : ∀ i : grid0.Coords, EltTy.bits .f32 = 32 ∨ (Rect.block (s := S168) S168.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S168x35.size a ≤ S168x35.size a
  hwx0_7 : ∀ i : grid0.Coords, EltTy.bits .f32 = 32 ∨ (Rect.block (s := S168x35) S168x35.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S35.size a ≤ S35.size a
  hwx0_8 : ∀ i : grid0.Coords, EltTy.bits .f32 = 32 ∨ (Rect.block (s := S35) S35.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S24x168.size a ≤ S24x168.size a
  hwx0_9 : ∀ i : grid0.Coords, EltTy.bits .f32 = 32 ∨ (Rect.block (s := S24x168) S24x168.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S168.size a ≤ S168.size a
  hwx0_10 : ∀ i : grid0.Coords, EltTy.bits .f32 = 32 ∨ (Rect.block (s := S168) S168.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S168x168.size a ≤ S168x168.size a
  hwx0_11 : ∀ i : grid0.Coords, EltTy.bits .f32 = 32 ∨ (Rect.block (s := S168x168) S168x168.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S168.size a ≤ S168.size a
  hwx0_12 : ∀ i : grid0.Coords, EltTy.bits .f32 = 32 ∨ (Rect.block (s := S168) S168.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S168x35.size a ≤ S168x35.size a
  hwx0_13 : ∀ i : grid0.Coords, EltTy.bits .f32 = 32 ∨ (Rect.block (s := S168x35) S168x35.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S35.size a ≤ S35.size a
  hwx0_14 : ∀ i : grid0.Coords, EltTy.bits .f32 = 32 ∨ (Rect.block (s := S35) S35.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S24x168.size a ≤ S24x168.size a
  hwx0_15 : ∀ i : grid0.Coords, EltTy.bits .f32 = 32 ∨ (Rect.block (s := S24x168) S24x168.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S168.size a ≤ S168.size a
  hwx0_16 : ∀ i : grid0.Coords, EltTy.bits .f32 = 32 ∨ (Rect.block (s := S168) S168.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S168x168.size a ≤ S168x168.size a
  hwx0_17 : ∀ i : grid0.Coords, EltTy.bits .f32 = 32 ∨ (Rect.block (s := S168x168) S168x168.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S168.size a ≤ S168.size a
  hwx0_18 : ∀ i : grid0.Coords, EltTy.bits .f32 = 32 ∨ (Rect.block (s := S168) S168.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S168x35.size a ≤ S168x35.size a
  hwx0_19 : ∀ i : grid0.Coords, EltTy.bits .f32 = 32 ∨ (Rect.block (s := S168x35) S168x35.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S35.size a ≤ S35.size a
  hwx0_20 : ∀ i : grid0.Coords, EltTy.bits .f32 = 32 ∨ (Rect.block (s := S35) S35.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S10000x35.size a ≤ S500000x35.size a
  hwx0_21 : ∀ i : grid0.Coords, EltTy.bits .f32 = 32 ∨ (Rect.block (s := S500000x35) S10000x35.size (cc0_transform_21 i) (hinb0_21 i)).WholeWords (EltTy.packing .f32)

variable [Facts₀]

def gather_S8x128x128_S500000x2_S8x500000_0_12_n_n_12_1_811 : GatherDims S8x128x128 S500000x2 S8x500000 where
  offsetDims := [0]
  collapsedSliceDims := [1, 2]
  operandBatchingDims := []
  startIndicesBatchingDims := []
  startIndexMap := [1, 2]
  indexVectorDim := 1
  sliceSizes := ![8, 1, 1]
  wf := gather_S8x128x128_S500000x2_S8x500000_0_12_n_n_12_1_811_wf
def gather_S8x256x256_S500000x2_S8x500000_0_12_n_n_12_1_811 : GatherDims S8x256x256 S500000x2 S8x500000 where
  offsetDims := [0]
  collapsedSliceDims := [1, 2]
  operandBatchingDims := []
  startIndicesBatchingDims := []
  startIndexMap := [1, 2]
  indexVectorDim := 1
  sliceSizes := ![8, 1, 1]
  wf := gather_S8x256x256_S500000x2_S8x500000_0_12_n_n_12_1_811_wf
def gather_S8x512x512_S500000x2_S8x500000_0_12_n_n_12_1_811 : GatherDims S8x512x512 S500000x2 S8x500000 where
  offsetDims := [0]
  collapsedSliceDims := [1, 2]
  operandBatchingDims := []
  startIndicesBatchingDims := []
  startIndexMap := [1, 2]
  indexVectorDim := 1
  sliceSizes := ![8, 1, 1]
  wf := gather_S8x512x512_S500000x2_S8x500000_0_12_n_n_12_1_811_wf
def dot_S10000x24_S24x168_S10000x168_1_0_0_1_n_n : DotDims S10000x24 S24x168 S10000x168 where
  lhsContracting := [1]
  rhsContracting := [0]
  lhsNonContracting := [0]
  rhsNonContracting := [1]
  lhsBatch := []
  rhsBatch := []
  wf := dot_S10000x24_S24x168_S10000x168_1_0_0_1_n_n_wf
def dot_S10000x168_S168x168_S10000x168_1_0_0_1_n_n : DotDims S10000x168 S168x168 S10000x168 where
  lhsContracting := [1]
  rhsContracting := [0]
  lhsNonContracting := [0]
  rhsNonContracting := [1]
  lhsBatch := []
  rhsBatch := []
  wf := dot_S10000x168_S168x168_S10000x168_1_0_0_1_n_n_wf
def dot_S10000x168_S168x35_S10000x35_1_0_0_1_n_n : DotDims S10000x168 S168x35 S10000x35 where
  lhsContracting := [1]
  rhsContracting := [0]
  lhsNonContracting := [0]
  rhsNonContracting := [1]
  lhsBatch := []
  rhsBatch := []
  wf := dot_S10000x168_S168x35_S10000x35_1_0_0_1_n_n_wf

abbrev win0_0 : Pipeline.Window sig grid0 :=
  Pipeline.Window.ofSpec (Memref.whole main_v350) S10000x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v687) S10000x24.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1024) S10000x24.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S24x168.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S168.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S168x168.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S168.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S168x35.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S35.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S24x168.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S168.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg15) S168x168.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg16) S168.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg17) S168x35.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg18) S35.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg22) S24x168.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg23) S168.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg24) S168x168.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg25) S168.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg26) S168x35.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg27) S35.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v1025) S10000x35.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S500000x3 : Shape := ⟨2, ![500000, 3]⟩
abbrev S8x128x128 : Shape := ⟨3, ![8, 128, 128]⟩
abbrev S24x168 : Shape := ⟨2, ![24, 168]⟩
abbrev S168 : Shape := ⟨1, ![168]⟩
abbrev S168x168 : Shape := ⟨2, ![168, 168]⟩
abbrev S168x35 : Shape := ⟨2, ![168, 35]⟩
abbrev S35 : Shape := ⟨1, ![35]⟩
abbrev S8x256x256 : Shape := ⟨3, ![8, 256, 256]⟩
abbrev S8x512x512 : Shape := ⟨3, ![8, 512, 512]⟩
abbrev S_ : Shape := ⟨0, ![]⟩
abbrev S500000x1 : Shape := ⟨2, ![500000, 1]⟩
abbrev S500000 : Shape := ⟨1, ![500000]⟩
abbrev S500000x2 : Shape := ⟨2, ![500000, 2]⟩
abbrev S8x500000 : Shape := ⟨2, ![8, 500000]⟩
abbrev S1x500000 : Shape := ⟨2, ![1, 500000]⟩
abbrev S500000x8 : Shape := ⟨2, ![500000, 8]⟩
abbrev S500000x24 : Shape := ⟨2, ![500000, 24]⟩
abbrev S500000x168 : Shape := ⟨2, ![500000, 168]⟩
abbrev S1x168 : Shape := ⟨2, ![1, 168]⟩
abbrev S500000x35 : Shape := ⟨2, ![500000, 35]⟩
abbrev S1x35 : Shape := ⟨2, ![1, 35]⟩
abbrev S500000x31 : Shape := ⟨2, ![500000, 31]⟩

abbrev nBuf : Space → Nat
  | .hbm => 1626
  | .vmem => 0
  | .smem => 0
  | _ => 0

abbrev hbmTy0_0 (i : Nat) : BufTy := match i % 128 with
  | 0 => ⟨S500000x3, .f32⟩
  | 1 => ⟨S8x128x128, .f32⟩
  | 2 => ⟨S8x128x128, .f32⟩
  | 3 => ⟨S8x128x128, .f32⟩
  | 4 => ⟨S24x168, .f32⟩
  | 5 => ⟨S168, .f32⟩
  | 6 => ⟨S168x168, .f32⟩
  | 7 => ⟨S168, .f32⟩
  | 8 => ⟨S168x35, .f32⟩
  | 9 => ⟨S35, .f32⟩
  | 10 => ⟨S8x256x256, .f32⟩
  | 11 => ⟨S8x256x256, .f32⟩
  | 12 => ⟨S8x256x256, .f32⟩
  | 13 => ⟨S24x168, .f32⟩
  | 14 => ⟨S168, .f32⟩
  | 15 => ⟨S168x168, .f32⟩
  | 16 => ⟨S168, .f32⟩
  | 17 => ⟨S168x35, .f32⟩
  | 18 => ⟨S35, .f32⟩
  | 19 => ⟨S8x512x512, .f32⟩
  | 20 => ⟨S8x512x512, .f32⟩
  | 21 => ⟨S8x512x512, .f32⟩
  | 22 => ⟨S24x168, .f32⟩
  | 23 => ⟨S168, .f32⟩
  | 24 => ⟨S168x168, .f32⟩
  | 25 => ⟨S168, .f32⟩
  | 26 => ⟨S168x35, .f32⟩
  | 27 => ⟨S35, .f32⟩
  | 28 => ⟨S_, .f32⟩
  | 29 => ⟨S500000x3, .f32⟩
  | 30 => ⟨S500000x3, .f32⟩
  | 31 => ⟨S_, .f32⟩
  | 32 => ⟨S500000x3, .f32⟩
  | 33 => ⟨S500000x3, .f32⟩
  | 34 => ⟨S_, .f32⟩
  | 35 => ⟨S500000x3, .f32⟩
  | 36 => ⟨S500000x3, .f32⟩
  | 37 => ⟨S_, .f32⟩
  | 38 => ⟨S500000x3, .f32⟩
  | 39 => ⟨S500000x3, .f32⟩
  | 40 => ⟨S500000x1, .f32⟩
  | 41 => ⟨S500000, .f32⟩
  | 42 => ⟨S500000x1, .f32⟩
  | 43 => ⟨S500000, .f32⟩
  | 44 => ⟨S500000x1, .f32⟩
  | 45 => ⟨S500000, .f32⟩
  | 46 => ⟨S_, .f32⟩
  | 47 => ⟨S500000, .f32⟩
  | 48 => ⟨S500000, .f32⟩
  | 49 => ⟨S_, .f32⟩
  | 50 => ⟨S500000, .f32⟩
  | 51 => ⟨S500000, .f32⟩
  | 52 => ⟨S_, .f32⟩
  | 53 => ⟨S500000, .f32⟩
  | 54 => ⟨S500000, .f32⟩
  | 55 => ⟨S_, .f32⟩
  | 56 => ⟨S500000, .f32⟩
  | 57 => ⟨S500000, .f32⟩
  | 58 => ⟨S_, .f32⟩
  | 59 => ⟨S500000, .f32⟩
  | 60 => ⟨S500000, .f32⟩
  | 61 => ⟨S_, .f32⟩
  | 62 => ⟨S500000, .f32⟩
  | 63 => ⟨S500000, .f32⟩
  | 64 => ⟨S500000, .f32⟩
  | 65 => ⟨S500000, .i32⟩
  | 66 => ⟨S500000, .f32⟩
  | 67 => ⟨S500000, .i32⟩
  | 68 => ⟨S500000, .f32⟩
  | 69 => ⟨S500000, .f32⟩
  | 70 => ⟨S500000, .f32⟩
  | 71 => ⟨S500000, .f32⟩
  | 72 => ⟨S_, .i32⟩
  | 73 => ⟨S_, .i32⟩
  | 74 => ⟨S_, .i32⟩
  | 75 => ⟨S500000, .i32⟩
  | 76 => ⟨S500000, .i32⟩
  | 77 => ⟨S_, .i32⟩
  | 78 => ⟨S500000, .i32⟩
  | 79 => ⟨S500000, .i32⟩
  | 80 => ⟨S_, .i32⟩
  | 81 => ⟨S500000, .i32⟩
  | 82 => ⟨S500000, .i32⟩
  | 83 => ⟨S_, .i32⟩
  | 84 => ⟨S_, .i32⟩
  | 85 => ⟨S_, .i32⟩
  | 86 => ⟨S500000, .i32⟩
  | 87 => ⟨S500000, .i32⟩
  | 88 => ⟨S_, .i32⟩
  | 89 => ⟨S500000, .i32⟩
  | 90 => ⟨S500000, .i32⟩
  | 91 => ⟨S_, .i32⟩
  | 92 => ⟨S_, .i32⟩
  | 93 => ⟨S_, .i32⟩
  | 94 => ⟨S500000, .i32⟩
  | 95 => ⟨S500000, .i32⟩
  | 96 => ⟨S_, .i32⟩
  | 97 => ⟨S500000, .i32⟩
  | 98 => ⟨S500000, .i32⟩
  | 99 => ⟨S_, .i32⟩
  | 100 => ⟨S500000, .i32⟩
  | 101 => ⟨S500000, .i32⟩
  | 102 => ⟨S_, .i32⟩
  | 103 => ⟨S_, .i32⟩
  | 104 => ⟨S_, .i32⟩
  | 105 => ⟨S500000, .i32⟩
  | 106 => ⟨S500000, .i32⟩
  | 107 => ⟨S_, .i32⟩
  | 108 => ⟨S500000, .i32⟩
  | 109 => ⟨S500000, .i32⟩
  | 110 => ⟨S_, .i32⟩
  | 111 => ⟨S500000, .i32⟩
  | 112 => ⟨S500000, .i1⟩
  | 113 => ⟨S_, .i32⟩
  | 114 => ⟨S500000, .i32⟩
  | 115 => ⟨S500000, .i32⟩
  | 116 => ⟨S500000, .i32⟩
  | 117 => ⟨S_, .i32⟩
  | 118 => ⟨S500000, .i32⟩
  | 119 => ⟨S500000, .i1⟩
  | 120 => ⟨S_, .i32⟩
  | 121 => ⟨S500000, .i32⟩
  | 122 => ⟨S500000, .i32⟩
  | 123 => ⟨S500000, .i32⟩
  | 124 => ⟨S500000x1, .i32⟩
  | 125 => ⟨S500000x1, .i32⟩
  | 126 => ⟨S500000x2, .i32⟩
  | 127 => ⟨S8x500000, .f32⟩
  | _ => ⟨S500000x3, .f32⟩

abbrev hbmTy0_1 (i : Nat) : BufTy := match i % 128 with
  | 0 => ⟨S_, .i32⟩
  | 1 => ⟨S500000, .i32⟩
  | 2 => ⟨S500000, .i1⟩
  | 3 => ⟨S_, .i32⟩
  | 4 => ⟨S500000, .i32⟩
  | 5 => ⟨S500000, .i32⟩
  | 6 => ⟨S500000, .i32⟩
  | 7 => ⟨S_, .i32⟩
  | 8 => ⟨S500000, .i32⟩
  | 9 => ⟨S500000, .i1⟩
  | 10 => ⟨S_, .i32⟩
  | 11 => ⟨S500000, .i32⟩
  | 12 => ⟨S500000, .i32⟩
  | 13 => ⟨S500000, .i32⟩
  | 14 => ⟨S500000x1, .i32⟩
  | 15 => ⟨S500000x1, .i32⟩
  | 16 => ⟨S500000x2, .i32⟩
  | 17 => ⟨S8x500000, .f32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S_, .i32⟩
  | 26 => ⟨S500000, .i32⟩
  | 27 => ⟨S500000, .i1⟩
  | 28 => ⟨S_, .i32⟩
  | 29 => ⟨S500000, .i32⟩
  | 30 => ⟨S500000, .i32⟩
  | 31 => ⟨S500000, .i32⟩
  | 32 => ⟨S500000x1, .i32⟩
  | 33 => ⟨S500000x1, .i32⟩
  | 34 => ⟨S500000x2, .i32⟩
  | 35 => ⟨S8x500000, .f32⟩
  | 36 => ⟨S_, .i32⟩
  | 37 => ⟨S500000, .i32⟩
  | 38 => ⟨S500000, .i1⟩
  | 39 => ⟨S_, .i32⟩
  | 40 => ⟨S500000, .i32⟩
  | 41 => ⟨S500000, .i32⟩
  | 42 => ⟨S500000, .i32⟩
  | 43 => ⟨S_, .i32⟩
  | 44 => ⟨S500000, .i32⟩
  | 45 => ⟨S500000, .i1⟩
  | 46 => ⟨S_, .i32⟩
  | 47 => ⟨S500000, .i32⟩
  | 48 => ⟨S500000, .i32⟩
  | 49 => ⟨S500000, .i32⟩
  | 50 => ⟨S500000x1, .i32⟩
  | 51 => ⟨S500000x1, .i32⟩
  | 52 => ⟨S500000x2, .i32⟩
  | 53 => ⟨S8x500000, .f32⟩
  | 54 => ⟨S_, .f32⟩
  | 55 => ⟨S500000, .f32⟩
  | 56 => ⟨S500000, .f32⟩
  | 57 => ⟨S1x500000, .f32⟩
  | 58 => ⟨S8x500000, .f32⟩
  | 59 => ⟨S8x500000, .f32⟩
  | 60 => ⟨S1x500000, .f32⟩
  | 61 => ⟨S8x500000, .f32⟩
  | 62 => ⟨S8x500000, .f32⟩
  | 63 => ⟨S8x500000, .f32⟩
  | 64 => ⟨S_, .f32⟩
  | 65 => ⟨S500000, .f32⟩
  | 66 => ⟨S500000, .f32⟩
  | 67 => ⟨S1x500000, .f32⟩
  | 68 => ⟨S8x500000, .f32⟩
  | 69 => ⟨S8x500000, .f32⟩
  | 70 => ⟨S1x500000, .f32⟩
  | 71 => ⟨S8x500000, .f32⟩
  | 72 => ⟨S8x500000, .f32⟩
  | 73 => ⟨S8x500000, .f32⟩
  | 74 => ⟨S_, .f32⟩
  | 75 => ⟨S500000, .f32⟩
  | 76 => ⟨S500000, .f32⟩
  | 77 => ⟨S1x500000, .f32⟩
  | 78 => ⟨S8x500000, .f32⟩
  | 79 => ⟨S8x500000, .f32⟩
  | 80 => ⟨S1x500000, .f32⟩
  | 81 => ⟨S8x500000, .f32⟩
  | 82 => ⟨S8x500000, .f32⟩
  | 83 => ⟨S8x500000, .f32⟩
  | 84 => ⟨S500000x8, .f32⟩
  | 85 => ⟨S_, .f32⟩
  | 86 => ⟨S500000, .f32⟩
  | 87 => ⟨S500000, .f32⟩
  | 88 => ⟨S_, .f32⟩
  | 89 => ⟨S500000, .f32⟩
  | 90 => ⟨S500000, .f32⟩
  | 91 => ⟨S_, .f32⟩
  | 92 => ⟨S500000, .f32⟩
  | 93 => ⟨S500000, .f32⟩
  | 94 => ⟨S_, .f32⟩
  | 95 => ⟨S500000, .f32⟩
  | 96 => ⟨S500000, .f32⟩
  | 97 => ⟨S_, .f32⟩
  | 98 => ⟨S500000, .f32⟩
  | 99 => ⟨S500000, .f32⟩
  | 100 => ⟨S_, .f32⟩
  | 101 => ⟨S500000, .f32⟩
  | 102 => ⟨S500000, .f32⟩
  | 103 => ⟨S500000, .f32⟩
  | 104 => ⟨S500000, .i32⟩
  | 105 => ⟨S500000, .f32⟩
  | 106 => ⟨S500000, .i32⟩
  | 107 => ⟨S500000, .f32⟩
  | 108 => ⟨S500000, .f32⟩
  | 109 => ⟨S500000, .f32⟩
  | 110 => ⟨S500000, .f32⟩
  | 111 => ⟨S_, .i32⟩
  | 112 => ⟨S_, .i32⟩
  | 113 => ⟨S_, .i32⟩
  | 114 => ⟨S500000, .i32⟩
  | 115 => ⟨S500000, .i32⟩
  | 116 => ⟨S_, .i32⟩
  | 117 => ⟨S500000, .i32⟩
  | 118 => ⟨S500000, .i32⟩
  | 119 => ⟨S_, .i32⟩
  | 120 => ⟨S500000, .i32⟩
  | 121 => ⟨S500000, .i32⟩
  | 122 => ⟨S_, .i32⟩
  | 123 => ⟨S_, .i32⟩
  | 124 => ⟨S_, .i32⟩
  | 125 => ⟨S500000, .i32⟩
  | 126 => ⟨S500000, .i32⟩
  | 127 => ⟨S_, .i32⟩
  | _ => ⟨S500000x3, .f32⟩

abbrev hbmTy0_2 (i : Nat) : BufTy := match i % 128 with
  | 0 => ⟨S500000, .i32⟩
  | 1 => ⟨S500000, .i32⟩
  | 2 => ⟨S_, .i32⟩
  | 3 => ⟨S_, .i32⟩
  | 4 => ⟨S_, .i32⟩
  | 5 => ⟨S500000, .i32⟩
  | 6 => ⟨S500000, .i32⟩
  | 7 => ⟨S_, .i32⟩
  | 8 => ⟨S500000, .i32⟩
  | 9 => ⟨S500000, .i32⟩
  | 10 => ⟨S_, .i32⟩
  | 11 => ⟨S500000, .i32⟩
  | 12 => ⟨S500000, .i32⟩
  | 13 => ⟨S_, .i32⟩
  | 14 => ⟨S_, .i32⟩
  | 15 => ⟨S_, .i32⟩
  | 16 => ⟨S500000, .i32⟩
  | 17 => ⟨S500000, .i32⟩
  | 18 => ⟨S_, .i32⟩
  | 19 => ⟨S500000, .i32⟩
  | 20 => ⟨S500000, .i32⟩
  | 21 => ⟨S_, .i32⟩
  | 22 => ⟨S500000, .i32⟩
  | 23 => ⟨S500000, .i1⟩
  | 24 => ⟨S_, .i32⟩
  | 25 => ⟨S500000, .i32⟩
  | 26 => ⟨S500000, .i32⟩
  | 27 => ⟨S500000, .i32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S500000x1, .i32⟩
  | 37 => ⟨S500000x2, .i32⟩
  | 38 => ⟨S8x500000, .f32⟩
  | 39 => ⟨S_, .i32⟩
  | 40 => ⟨S500000, .i32⟩
  | 41 => ⟨S500000, .i1⟩
  | 42 => ⟨S_, .i32⟩
  | 43 => ⟨S500000, .i32⟩
  | 44 => ⟨S500000, .i32⟩
  | 45 => ⟨S500000, .i32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000x1, .i32⟩
  | 55 => ⟨S500000x2, .i32⟩
  | 56 => ⟨S8x500000, .f32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S_, .i32⟩
  | 65 => ⟨S500000, .i32⟩
  | 66 => ⟨S500000, .i1⟩
  | 67 => ⟨S_, .i32⟩
  | 68 => ⟨S500000, .i32⟩
  | 69 => ⟨S500000, .i32⟩
  | 70 => ⟨S500000, .i32⟩
  | 71 => ⟨S500000x1, .i32⟩
  | 72 => ⟨S500000x1, .i32⟩
  | 73 => ⟨S500000x2, .i32⟩
  | 74 => ⟨S8x500000, .f32⟩
  | 75 => ⟨S_, .i32⟩
  | 76 => ⟨S500000, .i32⟩
  | 77 => ⟨S500000, .i1⟩
  | 78 => ⟨S_, .i32⟩
  | 79 => ⟨S500000, .i32⟩
  | 80 => ⟨S500000, .i32⟩
  | 81 => ⟨S500000, .i32⟩
  | 82 => ⟨S_, .i32⟩
  | 83 => ⟨S500000, .i32⟩
  | 84 => ⟨S500000, .i1⟩
  | 85 => ⟨S_, .i32⟩
  | 86 => ⟨S500000, .i32⟩
  | 87 => ⟨S500000, .i32⟩
  | 88 => ⟨S500000, .i32⟩
  | 89 => ⟨S500000x1, .i32⟩
  | 90 => ⟨S500000x1, .i32⟩
  | 91 => ⟨S500000x2, .i32⟩
  | 92 => ⟨S8x500000, .f32⟩
  | 93 => ⟨S_, .f32⟩
  | 94 => ⟨S500000, .f32⟩
  | 95 => ⟨S500000, .f32⟩
  | 96 => ⟨S1x500000, .f32⟩
  | 97 => ⟨S8x500000, .f32⟩
  | 98 => ⟨S8x500000, .f32⟩
  | 99 => ⟨S1x500000, .f32⟩
  | 100 => ⟨S8x500000, .f32⟩
  | 101 => ⟨S8x500000, .f32⟩
  | 102 => ⟨S8x500000, .f32⟩
  | 103 => ⟨S_, .f32⟩
  | 104 => ⟨S500000, .f32⟩
  | 105 => ⟨S500000, .f32⟩
  | 106 => ⟨S1x500000, .f32⟩
  | 107 => ⟨S8x500000, .f32⟩
  | 108 => ⟨S8x500000, .f32⟩
  | 109 => ⟨S1x500000, .f32⟩
  | 110 => ⟨S8x500000, .f32⟩
  | 111 => ⟨S8x500000, .f32⟩
  | 112 => ⟨S8x500000, .f32⟩
  | 113 => ⟨S_, .f32⟩
  | 114 => ⟨S500000, .f32⟩
  | 115 => ⟨S500000, .f32⟩
  | 116 => ⟨S1x500000, .f32⟩
  | 117 => ⟨S8x500000, .f32⟩
  | 118 => ⟨S8x500000, .f32⟩
  | 119 => ⟨S1x500000, .f32⟩
  | 120 => ⟨S8x500000, .f32⟩
  | 121 => ⟨S8x500000, .f32⟩
  | 122 => ⟨S8x500000, .f32⟩
  | 123 => ⟨S500000x8, .f32⟩
  | 124 => ⟨S_, .f32⟩
  | 125 => ⟨S500000, .f32⟩
  | 126 => ⟨S500000, .f32⟩
  | 127 => ⟨S_, .f32⟩
  | _ => ⟨S500000x3, .f32⟩

abbrev hbmTy0_3 (i : Nat) : BufTy := match i % 128 with
  | 0 => ⟨S500000, .f32⟩
  | 1 => ⟨S500000, .f32⟩
  | 2 => ⟨S_, .f32⟩
  | 3 => ⟨S500000, .f32⟩
  | 4 => ⟨S500000, .f32⟩
  | 5 => ⟨S_, .f32⟩
  | 6 => ⟨S500000, .f32⟩
  | 7 => ⟨S500000, .f32⟩
  | 8 => ⟨S_, .f32⟩
  | 9 => ⟨S500000, .f32⟩
  | 10 => ⟨S500000, .f32⟩
  | 11 => ⟨S_, .f32⟩
  | 12 => ⟨S500000, .f32⟩
  | 13 => ⟨S500000, .f32⟩
  | 14 => ⟨S500000, .f32⟩
  | 15 => ⟨S500000, .i32⟩
  | 16 => ⟨S500000, .f32⟩
  | 17 => ⟨S500000, .i32⟩
  | 18 => ⟨S500000, .f32⟩
  | 19 => ⟨S500000, .f32⟩
  | 20 => ⟨S500000, .f32⟩
  | 21 => ⟨S500000, .f32⟩
  | 22 => ⟨S_, .i32⟩
  | 23 => ⟨S_, .i32⟩
  | 24 => ⟨S_, .i32⟩
  | 25 => ⟨S500000, .i32⟩
  | 26 => ⟨S500000, .i32⟩
  | 27 => ⟨S_, .i32⟩
  | 28 => ⟨S500000, .i32⟩
  | 29 => ⟨S500000, .i32⟩
  | 30 => ⟨S_, .i32⟩
  | 31 => ⟨S500000, .i32⟩
  | 32 => ⟨S500000, .i32⟩
  | 33 => ⟨S_, .i32⟩
  | 34 => ⟨S_, .i32⟩
  | 35 => ⟨S_, .i32⟩
  | 36 => ⟨S500000, .i32⟩
  | 37 => ⟨S500000, .i32⟩
  | 38 => ⟨S_, .i32⟩
  | 39 => ⟨S500000, .i32⟩
  | 40 => ⟨S500000, .i32⟩
  | 41 => ⟨S_, .i32⟩
  | 42 => ⟨S_, .i32⟩
  | 43 => ⟨S_, .i32⟩
  | 44 => ⟨S500000, .i32⟩
  | 45 => ⟨S500000, .i32⟩
  | 46 => ⟨S_, .i32⟩
  | 47 => ⟨S500000, .i32⟩
  | 48 => ⟨S500000, .i32⟩
  | 49 => ⟨S_, .i32⟩
  | 50 => ⟨S500000, .i32⟩
  | 51 => ⟨S500000, .i32⟩
  | 52 => ⟨S_, .i32⟩
  | 53 => ⟨S_, .i32⟩
  | 54 => ⟨S_, .i32⟩
  | 55 => ⟨S500000, .i32⟩
  | 56 => ⟨S500000, .i32⟩
  | 57 => ⟨S_, .i32⟩
  | 58 => ⟨S500000, .i32⟩
  | 59 => ⟨S500000, .i32⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S_, .i32⟩
  | 68 => ⟨S500000, .i32⟩
  | 69 => ⟨S500000, .i1⟩
  | 70 => ⟨S_, .i32⟩
  | 71 => ⟨S500000, .i32⟩
  | 72 => ⟨S500000, .i32⟩
  | 73 => ⟨S500000, .i32⟩
  | 74 => ⟨S500000x1, .i32⟩
  | 75 => ⟨S500000x1, .i32⟩
  | 76 => ⟨S500000x2, .i32⟩
  | 77 => ⟨S8x500000, .f32⟩
  | 78 => ⟨S_, .i32⟩
  | 79 => ⟨S500000, .i32⟩
  | 80 => ⟨S500000, .i1⟩
  | 81 => ⟨S_, .i32⟩
  | 82 => ⟨S500000, .i32⟩
  | 83 => ⟨S500000, .i32⟩
  | 84 => ⟨S500000, .i32⟩
  | 85 => ⟨S_, .i32⟩
  | 86 => ⟨S500000, .i32⟩
  | 87 => ⟨S500000, .i1⟩
  | 88 => ⟨S_, .i32⟩
  | 89 => ⟨S500000, .i32⟩
  | 90 => ⟨S500000, .i32⟩
  | 91 => ⟨S500000, .i32⟩
  | 92 => ⟨S500000x1, .i32⟩
  | 93 => ⟨S500000x1, .i32⟩
  | 94 => ⟨S500000x2, .i32⟩
  | 95 => ⟨S8x500000, .f32⟩
  | 96 => ⟨S_, .i32⟩
  | 97 => ⟨S500000, .i32⟩
  | 98 => ⟨S500000, .i1⟩
  | 99 => ⟨S_, .i32⟩
  | 100 => ⟨S500000, .i32⟩
  | 101 => ⟨S500000, .i32⟩
  | 102 => ⟨S500000, .i32⟩
  | 103 => ⟨S_, .i32⟩
  | 104 => ⟨S500000, .i32⟩
  | 105 => ⟨S500000, .i1⟩
  | 106 => ⟨S_, .i32⟩
  | 107 => ⟨S500000, .i32⟩
  | 108 => ⟨S500000, .i32⟩
  | 109 => ⟨S500000, .i32⟩
  | 110 => ⟨S500000x1, .i32⟩
  | 111 => ⟨S500000x1, .i32⟩
  | 112 => ⟨S500000x2, .i32⟩
  | 113 => ⟨S8x500000, .f32⟩
  | 114 => ⟨S_, .i32⟩
  | 115 => ⟨S500000, .i32⟩
  | 116 => ⟨S500000, .i1⟩
  | 117 => ⟨S_, .i32⟩
  | 118 => ⟨S500000, .i32⟩
  | 119 => ⟨S500000, .i32⟩
  | 120 => ⟨S500000, .i32⟩
  | 121 => ⟨S_, .i32⟩
  | 122 => ⟨S500000, .i32⟩
  | 123 => ⟨S500000, .i1⟩
  | 124 => ⟨S_, .i32⟩
  | 125 => ⟨S500000, .i32⟩
  | 126 => ⟨S500000, .i32⟩
  | 127 => ⟨S500000, .i32⟩
  | _ => ⟨S500000x3, .f32⟩

abbrev hbmTy0_4 (i : Nat) : BufTy := match i % 128 with
  | 0 => ⟨S500000x1, .i32⟩
  | 1 => ⟨S500000x1, .i32⟩
  | 2 => ⟨S500000x2, .i32⟩
  | 3 => ⟨S8x500000, .f32⟩
  | 4 => ⟨S_, .f32⟩
  | 5 => ⟨S500000, .f32⟩
  | 6 => ⟨S500000, .f32⟩
  | 7 => ⟨S1x500000, .f32⟩
  | 8 => ⟨S8x500000, .f32⟩
  | 9 => ⟨S8x500000, .f32⟩
  | 10 => ⟨S1x500000, .f32⟩
  | 11 => ⟨S8x500000, .f32⟩
  | 12 => ⟨S8x500000, .f32⟩
  | 13 => ⟨S8x500000, .f32⟩
  | 14 => ⟨S_, .f32⟩
  | 15 => ⟨S500000, .f32⟩
  | 16 => ⟨S500000, .f32⟩
  | 17 => ⟨S1x500000, .f32⟩
  | 18 => ⟨S8x500000, .f32⟩
  | 19 => ⟨S8x500000, .f32⟩
  | 20 => ⟨S1x500000, .f32⟩
  | 21 => ⟨S8x500000, .f32⟩
  | 22 => ⟨S8x500000, .f32⟩
  | 23 => ⟨S8x500000, .f32⟩
  | 24 => ⟨S_, .f32⟩
  | 25 => ⟨S500000, .f32⟩
  | 26 => ⟨S500000, .f32⟩
  | 27 => ⟨S1x500000, .f32⟩
  | 28 => ⟨S8x500000, .f32⟩
  | 29 => ⟨S8x500000, .f32⟩
  | 30 => ⟨S1x500000, .f32⟩
  | 31 => ⟨S8x500000, .f32⟩
  | 32 => ⟨S8x500000, .f32⟩
  | 33 => ⟨S8x500000, .f32⟩
  | 34 => ⟨S500000x8, .f32⟩
  | 35 => ⟨S500000x24, .f32⟩
  | 36 => ⟨S500000x168, .f32⟩
  | 37 => ⟨S1x168, .f32⟩
  | 38 => ⟨S500000x168, .f32⟩
  | 39 => ⟨S500000x168, .f32⟩
  | 40 => ⟨S_, .f32⟩
  | 41 => ⟨S500000x168, .f32⟩
  | 42 => ⟨S500000x168, .f32⟩
  | 43 => ⟨S500000x168, .f32⟩
  | 44 => ⟨S1x168, .f32⟩
  | 45 => ⟨S500000x168, .f32⟩
  | 46 => ⟨S500000x168, .f32⟩
  | 47 => ⟨S_, .f32⟩
  | 48 => ⟨S500000x168, .f32⟩
  | 49 => ⟨S500000x168, .f32⟩
  | 50 => ⟨S500000x35, .f32⟩
  | 51 => ⟨S1x35, .f32⟩
  | 52 => ⟨S500000x35, .f32⟩
  | 53 => ⟨S500000x35, .f32⟩
  | 54 => ⟨S_, .f32⟩
  | 55 => ⟨S500000x35, .f32⟩
  | 56 => ⟨S500000x35, .f32⟩
  | 57 => ⟨S_, .f32⟩
  | 58 => ⟨S500000, .f32⟩
  | 59 => ⟨S500000, .f32⟩
  | 60 => ⟨S_, .f32⟩
  | 61 => ⟨S500000, .f32⟩
  | 62 => ⟨S500000, .f32⟩
  | 63 => ⟨S_, .f32⟩
  | 64 => ⟨S500000, .f32⟩
  | 65 => ⟨S500000, .f32⟩
  | 66 => ⟨S_, .f32⟩
  | 67 => ⟨S500000, .f32⟩
  | 68 => ⟨S500000, .f32⟩
  | 69 => ⟨S_, .f32⟩
  | 70 => ⟨S500000, .f32⟩
  | 71 => ⟨S500000, .f32⟩
  | 72 => ⟨S_, .f32⟩
  | 73 => ⟨S500000, .f32⟩
  | 74 => ⟨S500000, .f32⟩
  | 75 => ⟨S500000, .f32⟩
  | 76 => ⟨S500000, .i32⟩
  | 77 => ⟨S500000, .f32⟩
  | 78 => ⟨S500000, .i32⟩
  | 79 => ⟨S500000, .f32⟩
  | 80 => ⟨S500000, .f32⟩
  | 81 => ⟨S500000, .f32⟩
  | 82 => ⟨S500000, .f32⟩
  | 83 => ⟨S_, .i32⟩
  | 84 => ⟨S_, .i32⟩
  | 85 => ⟨S_, .i32⟩
  | 86 => ⟨S500000, .i32⟩
  | 87 => ⟨S500000, .i32⟩
  | 88 => ⟨S_, .i32⟩
  | 89 => ⟨S500000, .i32⟩
  | 90 => ⟨S500000, .i32⟩
  | 91 => ⟨S_, .i32⟩
  | 92 => ⟨S500000, .i32⟩
  | 93 => ⟨S500000, .i32⟩
  | 94 => ⟨S_, .i32⟩
  | 95 => ⟨S_, .i32⟩
  | 96 => ⟨S_, .i32⟩
  | 97 => ⟨S500000, .i32⟩
  | 98 => ⟨S500000, .i32⟩
  | 99 => ⟨S_, .i32⟩
  | 100 => ⟨S500000, .i32⟩
  | 101 => ⟨S500000, .i32⟩
  | 102 => ⟨S_, .i32⟩
  | 103 => ⟨S_, .i32⟩
  | 104 => ⟨S_, .i32⟩
  | 105 => ⟨S500000, .i32⟩
  | 106 => ⟨S500000, .i32⟩
  | 107 => ⟨S_, .i32⟩
  | 108 => ⟨S500000, .i32⟩
  | 109 => ⟨S500000, .i32⟩
  | 110 => ⟨S_, .i32⟩
  | 111 => ⟨S500000, .i32⟩
  | 112 => ⟨S500000, .i32⟩
  | 113 => ⟨S_, .i32⟩
  | 114 => ⟨S_, .i32⟩
  | 115 => ⟨S_, .i32⟩
  | 116 => ⟨S500000, .i32⟩
  | 117 => ⟨S500000, .i32⟩
  | 118 => ⟨S_, .i32⟩
  | 119 => ⟨S500000, .i32⟩
  | 120 => ⟨S500000, .i32⟩
  | 121 => ⟨S_, .i32⟩
  | 122 => ⟨S500000, .i32⟩
  | 123 => ⟨S500000, .i1⟩
  | 124 => ⟨S_, .i32⟩
  | 125 => ⟨S500000, .i32⟩
  | 126 => ⟨S500000, .i32⟩
  | 127 => ⟨S500000, .i32⟩
  | _ => ⟨S500000x3, .f32⟩

abbrev hbmTy0_5 (i : Nat) : BufTy := match i % 128 with
  | 0 => ⟨S_, .i32⟩
  | 1 => ⟨S500000, .i32⟩
  | 2 => ⟨S500000, .i1⟩
  | 3 => ⟨S_, .i32⟩
  | 4 => ⟨S500000, .i32⟩
  | 5 => ⟨S500000, .i32⟩
  | 6 => ⟨S500000, .i32⟩
  | 7 => ⟨S500000x1, .i32⟩
  | 8 => ⟨S500000x1, .i32⟩
  | 9 => ⟨S500000x2, .i32⟩
  | 10 => ⟨S8x500000, .f32⟩
  | 11 => ⟨S_, .i32⟩
  | 12 => ⟨S500000, .i32⟩
  | 13 => ⟨S500000, .i1⟩
  | 14 => ⟨S_, .i32⟩
  | 15 => ⟨S500000, .i32⟩
  | 16 => ⟨S500000, .i32⟩
  | 17 => ⟨S500000, .i32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S500000x1, .i32⟩
  | 27 => ⟨S500000x2, .i32⟩
  | 28 => ⟨S8x500000, .f32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S_, .i32⟩
  | 37 => ⟨S500000, .i32⟩
  | 38 => ⟨S500000, .i1⟩
  | 39 => ⟨S_, .i32⟩
  | 40 => ⟨S500000, .i32⟩
  | 41 => ⟨S500000, .i32⟩
  | 42 => ⟨S500000, .i32⟩
  | 43 => ⟨S500000x1, .i32⟩
  | 44 => ⟨S500000x1, .i32⟩
  | 45 => ⟨S500000x2, .i32⟩
  | 46 => ⟨S8x500000, .f32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S_, .i32⟩
  | 55 => ⟨S500000, .i32⟩
  | 56 => ⟨S500000, .i1⟩
  | 57 => ⟨S_, .i32⟩
  | 58 => ⟨S500000, .i32⟩
  | 59 => ⟨S500000, .i32⟩
  | 60 => ⟨S500000, .i32⟩
  | 61 => ⟨S500000x1, .i32⟩
  | 62 => ⟨S500000x1, .i32⟩
  | 63 => ⟨S500000x2, .i32⟩
  | 64 => ⟨S8x500000, .f32⟩
  | 65 => ⟨S_, .f32⟩
  | 66 => ⟨S500000, .f32⟩
  | 67 => ⟨S500000, .f32⟩
  | 68 => ⟨S1x500000, .f32⟩
  | 69 => ⟨S8x500000, .f32⟩
  | 70 => ⟨S8x500000, .f32⟩
  | 71 => ⟨S1x500000, .f32⟩
  | 72 => ⟨S8x500000, .f32⟩
  | 73 => ⟨S8x500000, .f32⟩
  | 74 => ⟨S8x500000, .f32⟩
  | 75 => ⟨S_, .f32⟩
  | 76 => ⟨S500000, .f32⟩
  | 77 => ⟨S500000, .f32⟩
  | 78 => ⟨S1x500000, .f32⟩
  | 79 => ⟨S8x500000, .f32⟩
  | 80 => ⟨S8x500000, .f32⟩
  | 81 => ⟨S1x500000, .f32⟩
  | 82 => ⟨S8x500000, .f32⟩
  | 83 => ⟨S8x500000, .f32⟩
  | 84 => ⟨S8x500000, .f32⟩
  | 85 => ⟨S_, .f32⟩
  | 86 => ⟨S500000, .f32⟩
  | 87 => ⟨S500000, .f32⟩
  | 88 => ⟨S1x500000, .f32⟩
  | 89 => ⟨S8x500000, .f32⟩
  | 90 => ⟨S8x500000, .f32⟩
  | 91 => ⟨S1x500000, .f32⟩
  | 92 => ⟨S8x500000, .f32⟩
  | 93 => ⟨S8x500000, .f32⟩
  | 94 => ⟨S8x500000, .f32⟩
  | 95 => ⟨S500000x8, .f32⟩
  | 96 => ⟨S_, .f32⟩
  | 97 => ⟨S500000, .f32⟩
  | 98 => ⟨S500000, .f32⟩
  | 99 => ⟨S_, .f32⟩
  | 100 => ⟨S500000, .f32⟩
  | 101 => ⟨S500000, .f32⟩
  | 102 => ⟨S_, .f32⟩
  | 103 => ⟨S500000, .f32⟩
  | 104 => ⟨S500000, .f32⟩
  | 105 => ⟨S_, .f32⟩
  | 106 => ⟨S500000, .f32⟩
  | 107 => ⟨S500000, .f32⟩
  | 108 => ⟨S_, .f32⟩
  | 109 => ⟨S500000, .f32⟩
  | 110 => ⟨S500000, .f32⟩
  | 111 => ⟨S_, .f32⟩
  | 112 => ⟨S500000, .f32⟩
  | 113 => ⟨S500000, .f32⟩
  | 114 => ⟨S500000, .f32⟩
  | 115 => ⟨S500000, .i32⟩
  | 116 => ⟨S500000, .f32⟩
  | 117 => ⟨S500000, .i32⟩
  | 118 => ⟨S500000, .f32⟩
  | 119 => ⟨S500000, .f32⟩
  | 120 => ⟨S500000, .f32⟩
  | 121 => ⟨S500000, .f32⟩
  | 122 => ⟨S_, .i32⟩
  | 123 => ⟨S_, .i32⟩
  | 124 => ⟨S_, .i32⟩
  | 125 => ⟨S500000, .i32⟩
  | 126 => ⟨S500000, .i32⟩
  | 127 => ⟨S_, .i32⟩
  | _ => ⟨S500000x3, .f32⟩

abbrev hbmTy0_6 (i : Nat) : BufTy := match i % 128 with
  | 0 => ⟨S500000, .i32⟩
  | 1 => ⟨S500000, .i32⟩
  | 2 => ⟨S_, .i32⟩
  | 3 => ⟨S500000, .i32⟩
  | 4 => ⟨S500000, .i32⟩
  | 5 => ⟨S_, .i32⟩
  | 6 => ⟨S_, .i32⟩
  | 7 => ⟨S_, .i32⟩
  | 8 => ⟨S500000, .i32⟩
  | 9 => ⟨S500000, .i32⟩
  | 10 => ⟨S_, .i32⟩
  | 11 => ⟨S500000, .i32⟩
  | 12 => ⟨S500000, .i32⟩
  | 13 => ⟨S_, .i32⟩
  | 14 => ⟨S_, .i32⟩
  | 15 => ⟨S_, .i32⟩
  | 16 => ⟨S500000, .i32⟩
  | 17 => ⟨S500000, .i32⟩
  | 18 => ⟨S_, .i32⟩
  | 19 => ⟨S500000, .i32⟩
  | 20 => ⟨S500000, .i32⟩
  | 21 => ⟨S_, .i32⟩
  | 22 => ⟨S500000, .i32⟩
  | 23 => ⟨S500000, .i32⟩
  | 24 => ⟨S_, .i32⟩
  | 25 => ⟨S_, .i32⟩
  | 26 => ⟨S_, .i32⟩
  | 27 => ⟨S500000, .i32⟩
  | 28 => ⟨S500000, .i32⟩
  | 29 => ⟨S_, .i32⟩
  | 30 => ⟨S500000, .i32⟩
  | 31 => ⟨S500000, .i32⟩
  | 32 => ⟨S_, .i32⟩
  | 33 => ⟨S500000, .i32⟩
  | 34 => ⟨S500000, .i1⟩
  | 35 => ⟨S_, .i32⟩
  | 36 => ⟨S500000, .i32⟩
  | 37 => ⟨S500000, .i32⟩
  | 38 => ⟨S500000, .i32⟩
  | 39 => ⟨S_, .i32⟩
  | 40 => ⟨S500000, .i32⟩
  | 41 => ⟨S500000, .i1⟩
  | 42 => ⟨S_, .i32⟩
  | 43 => ⟨S500000, .i32⟩
  | 44 => ⟨S500000, .i32⟩
  | 45 => ⟨S500000, .i32⟩
  | 46 => ⟨S500000x1, .i32⟩
  | 47 => ⟨S500000x1, .i32⟩
  | 48 => ⟨S500000x2, .i32⟩
  | 49 => ⟨S8x500000, .f32⟩
  | 50 => ⟨S_, .i32⟩
  | 51 => ⟨S500000, .i32⟩
  | 52 => ⟨S500000, .i1⟩
  | 53 => ⟨S_, .i32⟩
  | 54 => ⟨S500000, .i32⟩
  | 55 => ⟨S500000, .i32⟩
  | 56 => ⟨S500000, .i32⟩
  | 57 => ⟨S_, .i32⟩
  | 58 => ⟨S500000, .i32⟩
  | 59 => ⟨S500000, .i1⟩
  | 60 => ⟨S_, .i32⟩
  | 61 => ⟨S500000, .i32⟩
  | 62 => ⟨S500000, .i32⟩
  | 63 => ⟨S500000, .i32⟩
  | 64 => ⟨S500000x1, .i32⟩
  | 65 => ⟨S500000x1, .i32⟩
  | 66 => ⟨S500000x2, .i32⟩
  | 67 => ⟨S8x500000, .f32⟩
  | 68 => ⟨S_, .i32⟩
  | 69 => ⟨S500000, .i32⟩
  | 70 => ⟨S500000, .i1⟩
  | 71 => ⟨S_, .i32⟩
  | 72 => ⟨S500000, .i32⟩
  | 73 => ⟨S500000, .i32⟩
  | 74 => ⟨S500000, .i32⟩
  | 75 => ⟨S_, .i32⟩
  | 76 => ⟨S500000, .i32⟩
  | 77 => ⟨S500000, .i1⟩
  | 78 => ⟨S_, .i32⟩
  | 79 => ⟨S500000, .i32⟩
  | 80 => ⟨S500000, .i32⟩
  | 81 => ⟨S500000, .i32⟩
  | 82 => ⟨S500000x1, .i32⟩
  | 83 => ⟨S500000x1, .i32⟩
  | 84 => ⟨S500000x2, .i32⟩
  | 85 => ⟨S8x500000, .f32⟩
  | 86 => ⟨S_, .i32⟩
  | 87 => ⟨S500000, .i32⟩
  | 88 => ⟨S500000, .i1⟩
  | 89 => ⟨S_, .i32⟩
  | 90 => ⟨S500000, .i32⟩
  | 91 => ⟨S500000, .i32⟩
  | 92 => ⟨S500000, .i32⟩
  | 93 => ⟨S_, .i32⟩
  | 94 => ⟨S500000, .i32⟩
  | 95 => ⟨S500000, .i1⟩
  | 96 => ⟨S_, .i32⟩
  | 97 => ⟨S500000, .i32⟩
  | 98 => ⟨S500000, .i32⟩
  | 99 => ⟨S500000, .i32⟩
  | 100 => ⟨S500000x1, .i32⟩
  | 101 => ⟨S500000x1, .i32⟩
  | 102 => ⟨S500000x2, .i32⟩
  | 103 => ⟨S8x500000, .f32⟩
  | 104 => ⟨S_, .f32⟩
  | 105 => ⟨S500000, .f32⟩
  | 106 => ⟨S500000, .f32⟩
  | 107 => ⟨S1x500000, .f32⟩
  | 108 => ⟨S8x500000, .f32⟩
  | 109 => ⟨S8x500000, .f32⟩
  | 110 => ⟨S1x500000, .f32⟩
  | 111 => ⟨S8x500000, .f32⟩
  | 112 => ⟨S8x500000, .f32⟩
  | 113 => ⟨S8x500000, .f32⟩
  | 114 => ⟨S_, .f32⟩
  | 115 => ⟨S500000, .f32⟩
  | 116 => ⟨S500000, .f32⟩
  | 117 => ⟨S1x500000, .f32⟩
  | 118 => ⟨S8x500000, .f32⟩
  | 119 => ⟨S8x500000, .f32⟩
  | 120 => ⟨S1x500000, .f32⟩
  | 121 => ⟨S8x500000, .f32⟩
  | 122 => ⟨S8x500000, .f32⟩
  | 123 => ⟨S8x500000, .f32⟩
  | 124 => ⟨S_, .f32⟩
  | 125 => ⟨S500000, .f32⟩
  | 126 => ⟨S500000, .f32⟩
  | 127 => ⟨S1x500000, .f32⟩
  | _ => ⟨S500000x3, .f32⟩

abbrev hbmTy0_7 (i : Nat) : BufTy := match i % 128 with
  | 0 => ⟨S8x500000, .f32⟩
  | 1 => ⟨S8x500000, .f32⟩
  | 2 => ⟨S1x500000, .f32⟩
  | 3 => ⟨S8x500000, .f32⟩
  | 4 => ⟨S8x500000, .f32⟩
  | 5 => ⟨S8x500000, .f32⟩
  | 6 => ⟨S500000x8, .f32⟩
  | 7 => ⟨S_, .f32⟩
  | 8 => ⟨S500000, .f32⟩
  | 9 => ⟨S500000, .f32⟩
  | 10 => ⟨S_, .f32⟩
  | 11 => ⟨S500000, .f32⟩
  | 12 => ⟨S500000, .f32⟩
  | 13 => ⟨S_, .f32⟩
  | 14 => ⟨S500000, .f32⟩
  | 15 => ⟨S500000, .f32⟩
  | 16 => ⟨S_, .f32⟩
  | 17 => ⟨S500000, .f32⟩
  | 18 => ⟨S500000, .f32⟩
  | 19 => ⟨S_, .f32⟩
  | 20 => ⟨S500000, .f32⟩
  | 21 => ⟨S500000, .f32⟩
  | 22 => ⟨S_, .f32⟩
  | 23 => ⟨S500000, .f32⟩
  | 24 => ⟨S500000, .f32⟩
  | 25 => ⟨S500000, .f32⟩
  | 26 => ⟨S500000, .i32⟩
  | 27 => ⟨S500000, .f32⟩
  | 28 => ⟨S500000, .i32⟩
  | 29 => ⟨S500000, .f32⟩
  | 30 => ⟨S500000, .f32⟩
  | 31 => ⟨S500000, .f32⟩
  | 32 => ⟨S500000, .f32⟩
  | 33 => ⟨S_, .i32⟩
  | 34 => ⟨S_, .i32⟩
  | 35 => ⟨S_, .i32⟩
  | 36 => ⟨S500000, .i32⟩
  | 37 => ⟨S500000, .i32⟩
  | 38 => ⟨S_, .i32⟩
  | 39 => ⟨S500000, .i32⟩
  | 40 => ⟨S500000, .i32⟩
  | 41 => ⟨S_, .i32⟩
  | 42 => ⟨S500000, .i32⟩
  | 43 => ⟨S500000, .i32⟩
  | 44 => ⟨S_, .i32⟩
  | 45 => ⟨S_, .i32⟩
  | 46 => ⟨S_, .i32⟩
  | 47 => ⟨S500000, .i32⟩
  | 48 => ⟨S500000, .i32⟩
  | 49 => ⟨S_, .i32⟩
  | 50 => ⟨S500000, .i32⟩
  | 51 => ⟨S500000, .i32⟩
  | 52 => ⟨S_, .i32⟩
  | 53 => ⟨S_, .i32⟩
  | 54 => ⟨S_, .i32⟩
  | 55 => ⟨S500000, .i32⟩
  | 56 => ⟨S500000, .i32⟩
  | 57 => ⟨S_, .i32⟩
  | 58 => ⟨S500000, .i32⟩
  | 59 => ⟨S500000, .i32⟩
  | 60 => ⟨S_, .i32⟩
  | 61 => ⟨S500000, .i32⟩
  | 62 => ⟨S500000, .i32⟩
  | 63 => ⟨S_, .i32⟩
  | 64 => ⟨S_, .i32⟩
  | 65 => ⟨S_, .i32⟩
  | 66 => ⟨S500000, .i32⟩
  | 67 => ⟨S500000, .i32⟩
  | 68 => ⟨S_, .i32⟩
  | 69 => ⟨S500000, .i32⟩
  | 70 => ⟨S500000, .i32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S_, .i32⟩
  | 79 => ⟨S500000, .i32⟩
  | 80 => ⟨S500000, .i1⟩
  | 81 => ⟨S_, .i32⟩
  | 82 => ⟨S500000, .i32⟩
  | 83 => ⟨S500000, .i32⟩
  | 84 => ⟨S500000, .i32⟩
  | 85 => ⟨S500000x1, .i32⟩
  | 86 => ⟨S500000x1, .i32⟩
  | 87 => ⟨S500000x2, .i32⟩
  | 88 => ⟨S8x500000, .f32⟩
  | 89 => ⟨S_, .i32⟩
  | 90 => ⟨S500000, .i32⟩
  | 91 => ⟨S500000, .i1⟩
  | 92 => ⟨S_, .i32⟩
  | 93 => ⟨S500000, .i32⟩
  | 94 => ⟨S500000, .i32⟩
  | 95 => ⟨S500000, .i32⟩
  | 96 => ⟨S_, .i32⟩
  | 97 => ⟨S500000, .i32⟩
  | 98 => ⟨S500000, .i1⟩
  | 99 => ⟨S_, .i32⟩
  | 100 => ⟨S500000, .i32⟩
  | 101 => ⟨S500000, .i32⟩
  | 102 => ⟨S500000, .i32⟩
  | 103 => ⟨S500000x1, .i32⟩
  | 104 => ⟨S500000x1, .i32⟩
  | 105 => ⟨S500000x2, .i32⟩
  | 106 => ⟨S8x500000, .f32⟩
  | 107 => ⟨S_, .i32⟩
  | 108 => ⟨S500000, .i32⟩
  | 109 => ⟨S500000, .i1⟩
  | 110 => ⟨S_, .i32⟩
  | 111 => ⟨S500000, .i32⟩
  | 112 => ⟨S500000, .i32⟩
  | 113 => ⟨S500000, .i32⟩
  | 114 => ⟨S_, .i32⟩
  | 115 => ⟨S500000, .i32⟩
  | 116 => ⟨S500000, .i1⟩
  | 117 => ⟨S_, .i32⟩
  | 118 => ⟨S500000, .i32⟩
  | 119 => ⟨S500000, .i32⟩
  | 120 => ⟨S500000, .i32⟩
  | 121 => ⟨S500000x1, .i32⟩
  | 122 => ⟨S500000x1, .i32⟩
  | 123 => ⟨S500000x2, .i32⟩
  | 124 => ⟨S8x500000, .f32⟩
  | 125 => ⟨S_, .i32⟩
  | 126 => ⟨S500000, .i32⟩
  | 127 => ⟨S500000, .i1⟩
  | _ => ⟨S500000x3, .f32⟩

abbrev hbmTy0_8 (i : Nat) : BufTy := match i % 128 with
  | 0 => ⟨S_, .i32⟩
  | 1 => ⟨S500000, .i32⟩
  | 2 => ⟨S500000, .i32⟩
  | 3 => ⟨S500000, .i32⟩
  | 4 => ⟨S_, .i32⟩
  | 5 => ⟨S500000, .i32⟩
  | 6 => ⟨S500000, .i1⟩
  | 7 => ⟨S_, .i32⟩
  | 8 => ⟨S500000, .i32⟩
  | 9 => ⟨S500000, .i32⟩
  | 10 => ⟨S500000, .i32⟩
  | 11 => ⟨S500000x1, .i32⟩
  | 12 => ⟨S500000x1, .i32⟩
  | 13 => ⟨S500000x2, .i32⟩
  | 14 => ⟨S8x500000, .f32⟩
  | 15 => ⟨S_, .f32⟩
  | 16 => ⟨S500000, .f32⟩
  | 17 => ⟨S500000, .f32⟩
  | 18 => ⟨S1x500000, .f32⟩
  | 19 => ⟨S8x500000, .f32⟩
  | 20 => ⟨S8x500000, .f32⟩
  | 21 => ⟨S1x500000, .f32⟩
  | 22 => ⟨S8x500000, .f32⟩
  | 23 => ⟨S8x500000, .f32⟩
  | 24 => ⟨S8x500000, .f32⟩
  | 25 => ⟨S_, .f32⟩
  | 26 => ⟨S500000, .f32⟩
  | 27 => ⟨S500000, .f32⟩
  | 28 => ⟨S1x500000, .f32⟩
  | 29 => ⟨S8x500000, .f32⟩
  | 30 => ⟨S8x500000, .f32⟩
  | 31 => ⟨S1x500000, .f32⟩
  | 32 => ⟨S8x500000, .f32⟩
  | 33 => ⟨S8x500000, .f32⟩
  | 34 => ⟨S8x500000, .f32⟩
  | 35 => ⟨S_, .f32⟩
  | 36 => ⟨S500000, .f32⟩
  | 37 => ⟨S500000, .f32⟩
  | 38 => ⟨S1x500000, .f32⟩
  | 39 => ⟨S8x500000, .f32⟩
  | 40 => ⟨S8x500000, .f32⟩
  | 41 => ⟨S1x500000, .f32⟩
  | 42 => ⟨S8x500000, .f32⟩
  | 43 => ⟨S8x500000, .f32⟩
  | 44 => ⟨S8x500000, .f32⟩
  | 45 => ⟨S500000x8, .f32⟩
  | 46 => ⟨S500000x24, .f32⟩
  | 47 => ⟨S500000x168, .f32⟩
  | 48 => ⟨S1x168, .f32⟩
  | 49 => ⟨S500000x168, .f32⟩
  | 50 => ⟨S500000x168, .f32⟩
  | 51 => ⟨S_, .f32⟩
  | 52 => ⟨S500000x168, .f32⟩
  | 53 => ⟨S500000x168, .f32⟩
  | 54 => ⟨S500000x168, .f32⟩
  | 55 => ⟨S1x168, .f32⟩
  | 56 => ⟨S500000x168, .f32⟩
  | 57 => ⟨S500000x168, .f32⟩
  | 58 => ⟨S_, .f32⟩
  | 59 => ⟨S500000x168, .f32⟩
  | 60 => ⟨S500000x168, .f32⟩
  | 61 => ⟨S500000x35, .f32⟩
  | 62 => ⟨S1x35, .f32⟩
  | 63 => ⟨S500000x35, .f32⟩
  | 64 => ⟨S500000x35, .f32⟩
  | 65 => ⟨S500000x35, .f32⟩
  | 66 => ⟨S_, .f32⟩
  | 67 => ⟨S500000, .f32⟩
  | 68 => ⟨S500000, .f32⟩
  | 69 => ⟨S_, .f32⟩
  | 70 => ⟨S500000, .f32⟩
  | 71 => ⟨S500000, .f32⟩
  | 72 => ⟨S_, .f32⟩
  | 73 => ⟨S500000, .f32⟩
  | 74 => ⟨S500000, .f32⟩
  | 75 => ⟨S_, .f32⟩
  | 76 => ⟨S500000, .f32⟩
  | 77 => ⟨S500000, .f32⟩
  | 78 => ⟨S_, .f32⟩
  | 79 => ⟨S500000, .f32⟩
  | 80 => ⟨S500000, .f32⟩
  | 81 => ⟨S_, .f32⟩
  | 82 => ⟨S500000, .f32⟩
  | 83 => ⟨S500000, .f32⟩
  | 84 => ⟨S500000, .f32⟩
  | 85 => ⟨S500000, .i32⟩
  | 86 => ⟨S500000, .f32⟩
  | 87 => ⟨S500000, .i32⟩
  | 88 => ⟨S500000, .f32⟩
  | 89 => ⟨S500000, .f32⟩
  | 90 => ⟨S500000, .f32⟩
  | 91 => ⟨S500000, .f32⟩
  | 92 => ⟨S_, .i32⟩
  | 93 => ⟨S_, .i32⟩
  | 94 => ⟨S_, .i32⟩
  | 95 => ⟨S500000, .i32⟩
  | 96 => ⟨S500000, .i32⟩
  | 97 => ⟨S_, .i32⟩
  | 98 => ⟨S500000, .i32⟩
  | 99 => ⟨S500000, .i32⟩
  | 100 => ⟨S_, .i32⟩
  | 101 => ⟨S500000, .i32⟩
  | 102 => ⟨S500000, .i32⟩
  | 103 => ⟨S_, .i32⟩
  | 104 => ⟨S_, .i32⟩
  | 105 => ⟨S_, .i32⟩
  | 106 => ⟨S500000, .i32⟩
  | 107 => ⟨S500000, .i32⟩
  | 108 => ⟨S_, .i32⟩
  | 109 => ⟨S500000, .i32⟩
  | 110 => ⟨S500000, .i32⟩
  | 111 => ⟨S_, .i32⟩
  | 112 => ⟨S_, .i32⟩
  | 113 => ⟨S_, .i32⟩
  | 114 => ⟨S500000, .i32⟩
  | 115 => ⟨S500000, .i32⟩
  | 116 => ⟨S_, .i32⟩
  | 117 => ⟨S500000, .i32⟩
  | 118 => ⟨S500000, .i32⟩
  | 119 => ⟨S_, .i32⟩
  | 120 => ⟨S500000, .i32⟩
  | 121 => ⟨S500000, .i32⟩
  | 122 => ⟨S_, .i32⟩
  | 123 => ⟨S_, .i32⟩
  | 124 => ⟨S_, .i32⟩
  | 125 => ⟨S500000, .i32⟩
  | 126 => ⟨S500000, .i32⟩
  | 127 => ⟨S_, .i32⟩
  | _ => ⟨S500000x3, .f32⟩

abbrev hbmTy0_9 (i : Nat) : BufTy := match i % 128 with
  | 0 => ⟨S500000, .i32⟩
  | 1 => ⟨S500000, .i32⟩
  | 2 => ⟨S_, .i32⟩
  | 3 => ⟨S500000, .i32⟩
  | 4 => ⟨S500000, .i1⟩
  | 5 => ⟨S_, .i32⟩
  | 6 => ⟨S500000, .i32⟩
  | 7 => ⟨S500000, .i32⟩
  | 8 => ⟨S500000, .i32⟩
  | 9 => ⟨S_, .i32⟩
  | 10 => ⟨S500000, .i32⟩
  | 11 => ⟨S500000, .i1⟩
  | 12 => ⟨S_, .i32⟩
  | 13 => ⟨S500000, .i32⟩
  | 14 => ⟨S500000, .i32⟩
  | 15 => ⟨S500000, .i32⟩
  | 16 => ⟨S500000x1, .i32⟩
  | 17 => ⟨S500000x1, .i32⟩
  | 18 => ⟨S500000x2, .i32⟩
  | 19 => ⟨S8x500000, .f32⟩
  | 20 => ⟨S_, .i32⟩
  | 21 => ⟨S500000, .i32⟩
  | 22 => ⟨S500000, .i1⟩
  | 23 => ⟨S_, .i32⟩
  | 24 => ⟨S500000, .i32⟩
  | 25 => ⟨S500000, .i32⟩
  | 26 => ⟨S500000, .i32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S500000x1, .i32⟩
  | 36 => ⟨S500000x2, .i32⟩
  | 37 => ⟨S8x500000, .f32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S_, .i32⟩
  | 46 => ⟨S500000, .i32⟩
  | 47 => ⟨S500000, .i1⟩
  | 48 => ⟨S_, .i32⟩
  | 49 => ⟨S500000, .i32⟩
  | 50 => ⟨S500000, .i32⟩
  | 51 => ⟨S500000, .i32⟩
  | 52 => ⟨S500000x1, .i32⟩
  | 53 => ⟨S500000x1, .i32⟩
  | 54 => ⟨S500000x2, .i32⟩
  | 55 => ⟨S8x500000, .f32⟩
  | 56 => ⟨S_, .i32⟩
  | 57 => ⟨S500000, .i32⟩
  | 58 => ⟨S500000, .i1⟩
  | 59 => ⟨S_, .i32⟩
  | 60 => ⟨S500000, .i32⟩
  | 61 => ⟨S500000, .i32⟩
  | 62 => ⟨S500000, .i32⟩
  | 63 => ⟨S_, .i32⟩
  | 64 => ⟨S500000, .i32⟩
  | 65 => ⟨S500000, .i1⟩
  | 66 => ⟨S_, .i32⟩
  | 67 => ⟨S500000, .i32⟩
  | 68 => ⟨S500000, .i32⟩
  | 69 => ⟨S500000, .i32⟩
  | 70 => ⟨S500000x1, .i32⟩
  | 71 => ⟨S500000x1, .i32⟩
  | 72 => ⟨S500000x2, .i32⟩
  | 73 => ⟨S8x500000, .f32⟩
  | 74 => ⟨S_, .f32⟩
  | 75 => ⟨S500000, .f32⟩
  | 76 => ⟨S500000, .f32⟩
  | 77 => ⟨S1x500000, .f32⟩
  | 78 => ⟨S8x500000, .f32⟩
  | 79 => ⟨S8x500000, .f32⟩
  | 80 => ⟨S1x500000, .f32⟩
  | 81 => ⟨S8x500000, .f32⟩
  | 82 => ⟨S8x500000, .f32⟩
  | 83 => ⟨S8x500000, .f32⟩
  | 84 => ⟨S_, .f32⟩
  | 85 => ⟨S500000, .f32⟩
  | 86 => ⟨S500000, .f32⟩
  | 87 => ⟨S1x500000, .f32⟩
  | 88 => ⟨S8x500000, .f32⟩
  | 89 => ⟨S8x500000, .f32⟩
  | 90 => ⟨S1x500000, .f32⟩
  | 91 => ⟨S8x500000, .f32⟩
  | 92 => ⟨S8x500000, .f32⟩
  | 93 => ⟨S8x500000, .f32⟩
  | 94 => ⟨S_, .f32⟩
  | 95 => ⟨S500000, .f32⟩
  | 96 => ⟨S500000, .f32⟩
  | 97 => ⟨S1x500000, .f32⟩
  | 98 => ⟨S8x500000, .f32⟩
  | 99 => ⟨S8x500000, .f32⟩
  | 100 => ⟨S1x500000, .f32⟩
  | 101 => ⟨S8x500000, .f32⟩
  | 102 => ⟨S8x500000, .f32⟩
  | 103 => ⟨S8x500000, .f32⟩
  | 104 => ⟨S500000x8, .f32⟩
  | 105 => ⟨S_, .f32⟩
  | 106 => ⟨S500000, .f32⟩
  | 107 => ⟨S500000, .f32⟩
  | 108 => ⟨S_, .f32⟩
  | 109 => ⟨S500000, .f32⟩
  | 110 => ⟨S500000, .f32⟩
  | 111 => ⟨S_, .f32⟩
  | 112 => ⟨S500000, .f32⟩
  | 113 => ⟨S500000, .f32⟩
  | 114 => ⟨S_, .f32⟩
  | 115 => ⟨S500000, .f32⟩
  | 116 => ⟨S500000, .f32⟩
  | 117 => ⟨S_, .f32⟩
  | 118 => ⟨S500000, .f32⟩
  | 119 => ⟨S500000, .f32⟩
  | 120 => ⟨S_, .f32⟩
  | 121 => ⟨S500000, .f32⟩
  | 122 => ⟨S500000, .f32⟩
  | 123 => ⟨S500000, .f32⟩
  | 124 => ⟨S500000, .i32⟩
  | 125 => ⟨S500000, .f32⟩
  | 126 => ⟨S500000, .i32⟩
  | 127 => ⟨S500000, .f32⟩
  | _ => ⟨S500000x3, .f32⟩

abbrev hbmTy0_10 (i : Nat) : BufTy := match i % 128 with
  | 0 => ⟨S500000, .f32⟩
  | 1 => ⟨S500000, .f32⟩
  | 2 => ⟨S500000, .f32⟩
  | 3 => ⟨S_, .i32⟩
  | 4 => ⟨S_, .i32⟩
  | 5 => ⟨S_, .i32⟩
  | 6 => ⟨S500000, .i32⟩
  | 7 => ⟨S500000, .i32⟩
  | 8 => ⟨S_, .i32⟩
  | 9 => ⟨S500000, .i32⟩
  | 10 => ⟨S500000, .i32⟩
  | 11 => ⟨S_, .i32⟩
  | 12 => ⟨S500000, .i32⟩
  | 13 => ⟨S500000, .i32⟩
  | 14 => ⟨S_, .i32⟩
  | 15 => ⟨S_, .i32⟩
  | 16 => ⟨S_, .i32⟩
  | 17 => ⟨S500000, .i32⟩
  | 18 => ⟨S500000, .i32⟩
  | 19 => ⟨S_, .i32⟩
  | 20 => ⟨S500000, .i32⟩
  | 21 => ⟨S500000, .i32⟩
  | 22 => ⟨S_, .i32⟩
  | 23 => ⟨S_, .i32⟩
  | 24 => ⟨S_, .i32⟩
  | 25 => ⟨S500000, .i32⟩
  | 26 => ⟨S500000, .i32⟩
  | 27 => ⟨S_, .i32⟩
  | 28 => ⟨S500000, .i32⟩
  | 29 => ⟨S500000, .i32⟩
  | 30 => ⟨S_, .i32⟩
  | 31 => ⟨S500000, .i32⟩
  | 32 => ⟨S500000, .i32⟩
  | 33 => ⟨S_, .i32⟩
  | 34 => ⟨S_, .i32⟩
  | 35 => ⟨S_, .i32⟩
  | 36 => ⟨S500000, .i32⟩
  | 37 => ⟨S500000, .i32⟩
  | 38 => ⟨S_, .i32⟩
  | 39 => ⟨S500000, .i32⟩
  | 40 => ⟨S500000, .i32⟩
  | 41 => ⟨S_, .i32⟩
  | 42 => ⟨S500000, .i32⟩
  | 43 => ⟨S500000, .i1⟩
  | 44 => ⟨S_, .i32⟩
  | 45 => ⟨S500000, .i32⟩
  | 46 => ⟨S500000, .i32⟩
  | 47 => ⟨S500000, .i32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x1, .i32⟩
  | 57 => ⟨S500000x2, .i32⟩
  | 58 => ⟨S8x500000, .f32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S_, .i32⟩
  | 67 => ⟨S500000, .i32⟩
  | 68 => ⟨S500000, .i1⟩
  | 69 => ⟨S_, .i32⟩
  | 70 => ⟨S500000, .i32⟩
  | 71 => ⟨S500000, .i32⟩
  | 72 => ⟨S500000, .i32⟩
  | 73 => ⟨S500000x1, .i32⟩
  | 74 => ⟨S500000x1, .i32⟩
  | 75 => ⟨S500000x2, .i32⟩
  | 76 => ⟨S8x500000, .f32⟩
  | 77 => ⟨S_, .i32⟩
  | 78 => ⟨S500000, .i32⟩
  | 79 => ⟨S500000, .i1⟩
  | 80 => ⟨S_, .i32⟩
  | 81 => ⟨S500000, .i32⟩
  | 82 => ⟨S500000, .i32⟩
  | 83 => ⟨S500000, .i32⟩
  | 84 => ⟨S_, .i32⟩
  | 85 => ⟨S500000, .i32⟩
  | 86 => ⟨S500000, .i1⟩
  | 87 => ⟨S_, .i32⟩
  | 88 => ⟨S500000, .i32⟩
  | 89 => ⟨S500000, .i32⟩
  | 90 => ⟨S500000, .i32⟩
  | 91 => ⟨S500000x1, .i32⟩
  | 92 => ⟨S500000x1, .i32⟩
  | 93 => ⟨S500000x2, .i32⟩
  | 94 => ⟨S8x500000, .f32⟩
  | 95 => ⟨S_, .i32⟩
  | 96 => ⟨S500000, .i32⟩
  | 97 => ⟨S500000, .i1⟩
  | 98 => ⟨S_, .i32⟩
  | 99 => ⟨S500000, .i32⟩
  | 100 => ⟨S500000, .i32⟩
  | 101 => ⟨S500000, .i32⟩
  | 102 => ⟨S_, .i32⟩
  | 103 => ⟨S500000, .i32⟩
  | 104 => ⟨S500000, .i1⟩
  | 105 => ⟨S_, .i32⟩
  | 106 => ⟨S500000, .i32⟩
  | 107 => ⟨S500000, .i32⟩
  | 108 => ⟨S500000, .i32⟩
  | 109 => ⟨S500000x1, .i32⟩
  | 110 => ⟨S500000x1, .i32⟩
  | 111 => ⟨S500000x2, .i32⟩
  | 112 => ⟨S8x500000, .f32⟩
  | 113 => ⟨S_, .f32⟩
  | 114 => ⟨S500000, .f32⟩
  | 115 => ⟨S500000, .f32⟩
  | 116 => ⟨S1x500000, .f32⟩
  | 117 => ⟨S8x500000, .f32⟩
  | 118 => ⟨S8x500000, .f32⟩
  | 119 => ⟨S1x500000, .f32⟩
  | 120 => ⟨S8x500000, .f32⟩
  | 121 => ⟨S8x500000, .f32⟩
  | 122 => ⟨S8x500000, .f32⟩
  | 123 => ⟨S_, .f32⟩
  | 124 => ⟨S500000, .f32⟩
  | 125 => ⟨S500000, .f32⟩
  | 126 => ⟨S1x500000, .f32⟩
  | 127 => ⟨S8x500000, .f32⟩
  | _ => ⟨S500000x3, .f32⟩

abbrev hbmTy0_11 (i : Nat) : BufTy := match i % 128 with
  | 0 => ⟨S8x500000, .f32⟩
  | 1 => ⟨S1x500000, .f32⟩
  | 2 => ⟨S8x500000, .f32⟩
  | 3 => ⟨S8x500000, .f32⟩
  | 4 => ⟨S8x500000, .f32⟩
  | 5 => ⟨S_, .f32⟩
  | 6 => ⟨S500000, .f32⟩
  | 7 => ⟨S500000, .f32⟩
  | 8 => ⟨S1x500000, .f32⟩
  | 9 => ⟨S8x500000, .f32⟩
  | 10 => ⟨S8x500000, .f32⟩
  | 11 => ⟨S1x500000, .f32⟩
  | 12 => ⟨S8x500000, .f32⟩
  | 13 => ⟨S8x500000, .f32⟩
  | 14 => ⟨S8x500000, .f32⟩
  | 15 => ⟨S500000x8, .f32⟩
  | 16 => ⟨S_, .f32⟩
  | 17 => ⟨S500000, .f32⟩
  | 18 => ⟨S500000, .f32⟩
  | 19 => ⟨S_, .f32⟩
  | 20 => ⟨S500000, .f32⟩
  | 21 => ⟨S500000, .f32⟩
  | 22 => ⟨S_, .f32⟩
  | 23 => ⟨S500000, .f32⟩
  | 24 => ⟨S500000, .f32⟩
  | 25 => ⟨S_, .f32⟩
  | 26 => ⟨S500000, .f32⟩
  | 27 => ⟨S500000, .f32⟩
  | 28 => ⟨S_, .f32⟩
  | 29 => ⟨S500000, .f32⟩
  | 30 => ⟨S500000, .f32⟩
  | 31 => ⟨S_, .f32⟩
  | 32 => ⟨S500000, .f32⟩
  | 33 => ⟨S500000, .f32⟩
  | 34 => ⟨S500000, .f32⟩
  | 35 => ⟨S500000, .i32⟩
  | 36 => ⟨S500000, .f32⟩
  | 37 => ⟨S500000, .i32⟩
  | 38 => ⟨S500000, .f32⟩
  | 39 => ⟨S500000, .f32⟩
  | 40 => ⟨S500000, .f32⟩
  | 41 => ⟨S500000, .f32⟩
  | 42 => ⟨S_, .i32⟩
  | 43 => ⟨S_, .i32⟩
  | 44 => ⟨S_, .i32⟩
  | 45 => ⟨S500000, .i32⟩
  | 46 => ⟨S500000, .i32⟩
  | 47 => ⟨S_, .i32⟩
  | 48 => ⟨S500000, .i32⟩
  | 49 => ⟨S500000, .i32⟩
  | 50 => ⟨S_, .i32⟩
  | 51 => ⟨S500000, .i32⟩
  | 52 => ⟨S500000, .i32⟩
  | 53 => ⟨S_, .i32⟩
  | 54 => ⟨S_, .i32⟩
  | 55 => ⟨S_, .i32⟩
  | 56 => ⟨S500000, .i32⟩
  | 57 => ⟨S500000, .i32⟩
  | 58 => ⟨S_, .i32⟩
  | 59 => ⟨S500000, .i32⟩
  | 60 => ⟨S500000, .i32⟩
  | 61 => ⟨S_, .i32⟩
  | 62 => ⟨S_, .i32⟩
  | 63 => ⟨S_, .i32⟩
  | 64 => ⟨S500000, .i32⟩
  | 65 => ⟨S500000, .i32⟩
  | 66 => ⟨S_, .i32⟩
  | 67 => ⟨S500000, .i32⟩
  | 68 => ⟨S500000, .i32⟩
  | 69 => ⟨S_, .i32⟩
  | 70 => ⟨S500000, .i32⟩
  | 71 => ⟨S500000, .i32⟩
  | 72 => ⟨S_, .i32⟩
  | 73 => ⟨S_, .i32⟩
  | 74 => ⟨S_, .i32⟩
  | 75 => ⟨S500000, .i32⟩
  | 76 => ⟨S500000, .i32⟩
  | 77 => ⟨S_, .i32⟩
  | 78 => ⟨S500000, .i32⟩
  | 79 => ⟨S500000, .i32⟩
  | 80 => ⟨S_, .i32⟩
  | 81 => ⟨S500000, .i32⟩
  | 82 => ⟨S500000, .i1⟩
  | 83 => ⟨S_, .i32⟩
  | 84 => ⟨S500000, .i32⟩
  | 85 => ⟨S500000, .i32⟩
  | 86 => ⟨S500000, .i32⟩
  | 87 => ⟨S_, .i32⟩
  | 88 => ⟨S500000, .i32⟩
  | 89 => ⟨S500000, .i1⟩
  | 90 => ⟨S_, .i32⟩
  | 91 => ⟨S500000, .i32⟩
  | 92 => ⟨S500000, .i32⟩
  | 93 => ⟨S500000, .i32⟩
  | 94 => ⟨S500000x1, .i32⟩
  | 95 => ⟨S500000x1, .i32⟩
  | 96 => ⟨S500000x2, .i32⟩
  | 97 => ⟨S8x500000, .f32⟩
  | 98 => ⟨S_, .i32⟩
  | 99 => ⟨S500000, .i32⟩
  | 100 => ⟨S500000, .i1⟩
  | 101 => ⟨S_, .i32⟩
  | 102 => ⟨S500000, .i32⟩
  | 103 => ⟨S500000, .i32⟩
  | 104 => ⟨S500000, .i32⟩
  | 105 => ⟨S_, .i32⟩
  | 106 => ⟨S500000, .i32⟩
  | 107 => ⟨S500000, .i1⟩
  | 108 => ⟨S_, .i32⟩
  | 109 => ⟨S500000, .i32⟩
  | 110 => ⟨S500000, .i32⟩
  | 111 => ⟨S500000, .i32⟩
  | 112 => ⟨S500000x1, .i32⟩
  | 113 => ⟨S500000x1, .i32⟩
  | 114 => ⟨S500000x2, .i32⟩
  | 115 => ⟨S8x500000, .f32⟩
  | 116 => ⟨S_, .i32⟩
  | 117 => ⟨S500000, .i32⟩
  | 118 => ⟨S500000, .i1⟩
  | 119 => ⟨S_, .i32⟩
  | 120 => ⟨S500000, .i32⟩
  | 121 => ⟨S500000, .i32⟩
  | 122 => ⟨S500000, .i32⟩
  | 123 => ⟨S_, .i32⟩
  | 124 => ⟨S500000, .i32⟩
  | 125 => ⟨S500000, .i1⟩
  | 126 => ⟨S_, .i32⟩
  | 127 => ⟨S500000, .i32⟩
  | _ => ⟨S500000x3, .f32⟩

abbrev hbmTy0_12 (i : Nat) : BufTy := match i % 128 with
  | 0 => ⟨S500000, .i32⟩
  | 1 => ⟨S500000, .i32⟩
  | 2 => ⟨S500000x1, .i32⟩
  | 3 => ⟨S500000x1, .i32⟩
  | 4 => ⟨S500000x2, .i32⟩
  | 5 => ⟨S8x500000, .f32⟩
  | 6 => ⟨S_, .i32⟩
  | 7 => ⟨S500000, .i32⟩
  | 8 => ⟨S500000, .i1⟩
  | 9 => ⟨S_, .i32⟩
  | 10 => ⟨S500000, .i32⟩
  | 11 => ⟨S500000, .i32⟩
  | 12 => ⟨S500000, .i32⟩
  | 13 => ⟨S_, .i32⟩
  | 14 => ⟨S500000, .i32⟩
  | 15 => ⟨S500000, .i1⟩
  | 16 => ⟨S_, .i32⟩
  | 17 => ⟨S500000, .i32⟩
  | 18 => ⟨S500000, .i32⟩
  | 19 => ⟨S500000, .i32⟩
  | 20 => ⟨S500000x1, .i32⟩
  | 21 => ⟨S500000x1, .i32⟩
  | 22 => ⟨S500000x2, .i32⟩
  | 23 => ⟨S8x500000, .f32⟩
  | 24 => ⟨S_, .f32⟩
  | 25 => ⟨S500000, .f32⟩
  | 26 => ⟨S500000, .f32⟩
  | 27 => ⟨S1x500000, .f32⟩
  | 28 => ⟨S8x500000, .f32⟩
  | 29 => ⟨S8x500000, .f32⟩
  | 30 => ⟨S1x500000, .f32⟩
  | 31 => ⟨S8x500000, .f32⟩
  | 32 => ⟨S8x500000, .f32⟩
  | 33 => ⟨S8x500000, .f32⟩
  | 34 => ⟨S_, .f32⟩
  | 35 => ⟨S500000, .f32⟩
  | 36 => ⟨S500000, .f32⟩
  | 37 => ⟨S1x500000, .f32⟩
  | 38 => ⟨S8x500000, .f32⟩
  | 39 => ⟨S8x500000, .f32⟩
  | 40 => ⟨S1x500000, .f32⟩
  | 41 => ⟨S8x500000, .f32⟩
  | 42 => ⟨S8x500000, .f32⟩
  | 43 => ⟨S8x500000, .f32⟩
  | 44 => ⟨S_, .f32⟩
  | 45 => ⟨S500000, .f32⟩
  | 46 => ⟨S500000, .f32⟩
  | 47 => ⟨S1x500000, .f32⟩
  | 48 => ⟨S8x500000, .f32⟩
  | 49 => ⟨S8x500000, .f32⟩
  | 50 => ⟨S1x500000, .f32⟩
  | 51 => ⟨S8x500000, .f32⟩
  | 52 => ⟨S8x500000, .f32⟩
  | 53 => ⟨S8x500000, .f32⟩
  | 54 => ⟨S500000x8, .f32⟩
  | 55 => ⟨S500000x24, .f32⟩
  | 56 => ⟨S500000x168, .f32⟩
  | 57 => ⟨S1x168, .f32⟩
  | 58 => ⟨S500000x168, .f32⟩
  | 59 => ⟨S500000x168, .f32⟩
  | 60 => ⟨S_, .f32⟩
  | 61 => ⟨S500000x168, .f32⟩
  | 62 => ⟨S500000x168, .f32⟩
  | 63 => ⟨S500000x168, .f32⟩
  | 64 => ⟨S1x168, .f32⟩
  | 65 => ⟨S500000x168, .f32⟩
  | 66 => ⟨S500000x168, .f32⟩
  | 67 => ⟨S_, .f32⟩
  | 68 => ⟨S500000x168, .f32⟩
  | 69 => ⟨S500000x168, .f32⟩
  | 70 => ⟨S500000x35, .f32⟩
  | 71 => ⟨S1x35, .f32⟩
  | 72 => ⟨S500000x35, .f32⟩
  | 73 => ⟨S500000x35, .f32⟩
  | 74 => ⟨S500000x35, .f32⟩
  | 75 => ⟨S500000x31, .f32⟩
  | 76 => ⟨S500000x3, .f32⟩
  | 77 => ⟨S500000x3, .f32⟩
  | 78 => ⟨S500000x3, .f32⟩
  | 79 => ⟨S_, .f32⟩
  | 80 => ⟨S500000x3, .f32⟩
  | 81 => ⟨S500000x3, .f32⟩
  | 82 => ⟨S_, .f32⟩
  | 83 => ⟨S500000x3, .f32⟩
  | 84 => ⟨S500000x3, .f32⟩
  | 85 => ⟨S500000x1, .f32⟩
  | 86 => ⟨S_, .f32⟩
  | 87 => ⟨S500000x1, .f32⟩
  | 88 => ⟨S500000x1, .f32⟩
  | 89 => ⟨S500000x35, .f32⟩
  | _ => ⟨S500000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | _ => ⟨S500000x3, .f32⟩

abbrev bufTy : (tb : Table) → Fin (tcTables nBuf tb) → BufTy
  | .hbm, ⟨i, _⟩ => hbmTy i
  | _, _ => ⟨S500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_cst_1 : Ref sig .tc := ⟨.hbm, 34, rfl⟩
abbrev main_v4 : Ref sig .tc := ⟨.hbm, 35, rfl⟩
abbrev main_v5 : Ref sig .tc := ⟨.hbm, 36, rfl⟩
abbrev main_cst_2 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_3 : Ref sig .tc := ⟨.hbm, 46, rfl⟩
abbrev main_v14 : Ref sig .tc := ⟨.hbm, 47, rfl⟩
abbrev main_v15 : Ref sig .tc := ⟨.hbm, 48, rfl⟩
abbrev main_cst_4 : Ref sig .tc := ⟨.hbm, 49, rfl⟩
abbrev main_v16 : Ref sig .tc := ⟨.hbm, 50, rfl⟩
abbrev main_v17 : Ref sig .tc := ⟨.hbm, 51, rfl⟩
abbrev main_cst_5 : Ref sig .tc := ⟨.hbm, 52, rfl⟩
abbrev main_v18 : Ref sig .tc := ⟨.hbm, 53, rfl⟩
abbrev main_v19 : Ref sig .tc := ⟨.hbm, 54, rfl⟩
abbrev main_cst_6 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_c : Ref sig .tc := ⟨.hbm, 72, rfl⟩
abbrev main_c_9 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_v34 : Ref sig .tc := ⟨.hbm, 79, rfl⟩
abbrev main_c_10 : Ref sig .tc := ⟨.hbm, 80, rfl⟩
abbrev main_v35 : Ref sig .tc := ⟨.hbm, 81, rfl⟩
abbrev main_v36 : Ref sig .tc := ⟨.hbm, 82, rfl⟩
abbrev main_c_11 : Ref sig .tc := ⟨.hbm, 83, rfl⟩
abbrev main_c_12 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_v37 : Ref sig .tc := ⟨.hbm, 90, rfl⟩
abbrev main_c_13 : Ref sig .tc := ⟨.hbm, 91, rfl⟩
abbrev main_c_14 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_v38 : Ref sig .tc := ⟨.hbm, 98, rfl⟩
abbrev main_c_15 : Ref sig .tc := ⟨.hbm, 99, rfl⟩
abbrev main_v39 : Ref sig .tc := ⟨.hbm, 100, rfl⟩
abbrev main_v40 : Ref sig .tc := ⟨.hbm, 101, rfl⟩
abbrev main_c_16 : Ref sig .tc := ⟨.hbm, 102, rfl⟩
abbrev main_c_17 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_v41 : Ref sig .tc := ⟨.hbm, 109, rfl⟩
abbrev main_c_18 : Ref sig .tc := ⟨.hbm, 110, rfl⟩
abbrev main_v42 : Ref sig .tc := ⟨.hbm, 111, rfl⟩
abbrev main_v43 : Ref sig .tc := ⟨.hbm, 112, rfl⟩
abbrev main_c_19 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_c_20 : Ref sig .tc := ⟨.hbm, 117, rfl⟩
abbrev main_v47 : Ref sig .tc := ⟨.hbm, 118, rfl⟩
abbrev main_v48 : Ref sig .tc := ⟨.hbm, 119, rfl⟩
abbrev main_c_21 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_c_22 : Ref sig .tc := ⟨.hbm, 128, rfl⟩
abbrev main_v56 : Ref sig .tc := ⟨.hbm, 129, rfl⟩
abbrev main_v57 : Ref sig .tc := ⟨.hbm, 130, rfl⟩
abbrev main_c_23 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_c_24 : Ref sig .tc := ⟨.hbm, 135, rfl⟩
abbrev main_v61 : Ref sig .tc := ⟨.hbm, 136, rfl⟩
abbrev main_v62 : Ref sig .tc := ⟨.hbm, 137, rfl⟩
abbrev main_c_25 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_c_26 : Ref sig .tc := ⟨.hbm, 146, rfl⟩
abbrev main_v70 : Ref sig .tc := ⟨.hbm, 147, rfl⟩
abbrev main_v71 : Ref sig .tc := ⟨.hbm, 148, rfl⟩
abbrev main_c_27 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_c_28 : Ref sig .tc := ⟨.hbm, 153, rfl⟩
abbrev main_v75 : Ref sig .tc := ⟨.hbm, 154, rfl⟩
abbrev main_v76 : Ref sig .tc := ⟨.hbm, 155, rfl⟩
abbrev main_c_29 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_c_30 : Ref sig .tc := ⟨.hbm, 164, rfl⟩
abbrev main_v84 : Ref sig .tc := ⟨.hbm, 165, rfl⟩
abbrev main_v85 : Ref sig .tc := ⟨.hbm, 166, rfl⟩
abbrev main_c_31 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_c_32 : Ref sig .tc := ⟨.hbm, 171, rfl⟩
abbrev main_v89 : Ref sig .tc := ⟨.hbm, 172, rfl⟩
abbrev main_v90 : Ref sig .tc := ⟨.hbm, 173, rfl⟩
abbrev main_c_33 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_cst_34 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_cst_35 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_cst_36 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_cst_37 : Ref sig .tc := ⟨.hbm, 213, rfl⟩
abbrev main_v126 : Ref sig .tc := ⟨.hbm, 214, rfl⟩
abbrev main_v127 : Ref sig .tc := ⟨.hbm, 215, rfl⟩
abbrev main_cst_38 : Ref sig .tc := ⟨.hbm, 216, rfl⟩
abbrev main_v128 : Ref sig .tc := ⟨.hbm, 217, rfl⟩
abbrev main_v129 : Ref sig .tc := ⟨.hbm, 218, rfl⟩
abbrev main_cst_39 : Ref sig .tc := ⟨.hbm, 219, rfl⟩
abbrev main_v130 : Ref sig .tc := ⟨.hbm, 220, rfl⟩
abbrev main_v131 : Ref sig .tc := ⟨.hbm, 221, rfl⟩
abbrev main_cst_40 : Ref sig .tc := ⟨.hbm, 222, rfl⟩
abbrev main_v132 : Ref sig .tc := ⟨.hbm, 223, rfl⟩
abbrev main_v133 : Ref sig .tc := ⟨.hbm, 224, rfl⟩
abbrev main_cst_41 : Ref sig .tc := ⟨.hbm, 225, rfl⟩
abbrev main_v134 : Ref sig .tc := ⟨.hbm, 226, rfl⟩
abbrev main_v135 : Ref sig .tc := ⟨.hbm, 227, rfl⟩
abbrev main_cst_42 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_c_43 : Ref sig .tc := ⟨.hbm, 239, rfl⟩
abbrev main_c_44 : Ref sig .tc := ⟨.hbm, 240, rfl⟩
abbrev main_call4_v0 : Ref sig .tc := ⟨.hbm, 241, rfl⟩
abbrev main_call4_v1 : Ref sig .tc := ⟨.hbm, 242, rfl⟩
abbrev main_call4_v2 : Ref sig .tc := ⟨.hbm, 243, rfl⟩
abbrev main_call4_v3 : Ref sig .tc := ⟨.hbm, 244, rfl⟩
abbrev main_call4_v4 : Ref sig .tc := ⟨.hbm, 245, rfl⟩
abbrev main_v146 : Ref sig .tc := ⟨.hbm, 246, rfl⟩
abbrev main_c_45 : Ref sig .tc := ⟨.hbm, 247, rfl⟩
abbrev main_v147 : Ref sig .tc := ⟨.hbm, 248, rfl⟩
abbrev main_v148 : Ref sig .tc := ⟨.hbm, 249, rfl⟩
abbrev main_c_46 : Ref sig .tc := ⟨.hbm, 250, rfl⟩
abbrev main_c_47 : Ref sig .tc := ⟨.hbm, 251, rfl⟩
abbrev main_call5_v0 : Ref sig .tc := ⟨.hbm, 252, rfl⟩
abbrev main_call5_v1 : Ref sig .tc := ⟨.hbm, 253, rfl⟩
abbrev main_call5_v2 : Ref sig .tc := ⟨.hbm, 254, rfl⟩
abbrev main_call5_v3 : Ref sig .tc := ⟨.hbm, 255, rfl⟩
abbrev main_call5_v4 : Ref sig .tc := ⟨.hbm, 256, rfl⟩
abbrev main_v149 : Ref sig .tc := ⟨.hbm, 257, rfl⟩
abbrev main_c_48 : Ref sig .tc := ⟨.hbm, 258, rfl⟩
abbrev main_c_49 : Ref sig .tc := ⟨.hbm, 259, rfl⟩
abbrev main_call6_v0 : Ref sig .tc := ⟨.hbm, 260, rfl⟩
abbrev main_call6_v1 : Ref sig .tc := ⟨.hbm, 261, rfl⟩
abbrev main_call6_v2 : Ref sig .tc := ⟨.hbm, 262, rfl⟩
abbrev main_call6_v3 : Ref sig .tc := ⟨.hbm, 263, rfl⟩
abbrev main_call6_v4 : Ref sig .tc := ⟨.hbm, 264, rfl⟩
abbrev main_v150 : Ref sig .tc := ⟨.hbm, 265, rfl⟩
abbrev main_c_50 : Ref sig .tc := ⟨.hbm, 266, rfl⟩
abbrev main_v151 : Ref sig .tc := ⟨.hbm, 267, rfl⟩
abbrev main_v152 : Ref sig .tc := ⟨.hbm, 268, rfl⟩
abbrev main_c_51 : Ref sig .tc := ⟨.hbm, 269, rfl⟩
abbrev main_c_52 : Ref sig .tc := ⟨.hbm, 270, rfl⟩
abbrev main_call7_v0 : Ref sig .tc := ⟨.hbm, 271, rfl⟩
abbrev main_call7_v1 : Ref sig .tc := ⟨.hbm, 272, rfl⟩
abbrev main_call7_v2 : Ref sig .tc := ⟨.hbm, 273, rfl⟩
abbrev main_call7_v3 : Ref sig .tc := ⟨.hbm, 274, rfl⟩
abbrev main_call7_v4 : Ref sig .tc := ⟨.hbm, 275, rfl⟩
abbrev main_v153 : Ref sig .tc := ⟨.hbm, 276, rfl⟩
abbrev main_c_53 : Ref sig .tc := ⟨.hbm, 277, rfl⟩
abbrev main_v154 : Ref sig .tc := ⟨.hbm, 278, rfl⟩
abbrev main_v155 : Ref sig .tc := ⟨.hbm, 279, rfl⟩
abbrev main_c_54 : Ref sig .tc := ⟨.hbm, 280, rfl⟩
abbrev main_v156 : Ref sig .tc := ⟨.hbm, 281, rfl⟩
abbrev main_v157 : Ref sig .tc := ⟨.hbm, 282, rfl⟩
abbrev main_v158 : Ref sig .tc := ⟨.hbm, 283, rfl⟩
abbrev main_c_55 : Ref sig .tc := ⟨.hbm, 284, rfl⟩
abbrev main_v159 : Ref sig .tc := ⟨.hbm, 285, rfl⟩
abbrev main_v160 : Ref sig .tc := ⟨.hbm, 286, rfl⟩
abbrev main_c_56 : Ref sig .tc := ⟨.hbm, 287, rfl⟩
abbrev main_v161 : Ref sig .tc := ⟨.hbm, 288, rfl⟩
abbrev main_v162 : Ref sig .tc := ⟨.hbm, 289, rfl⟩
abbrev main_v163 : Ref sig .tc := ⟨.hbm, 290, rfl⟩
abbrev main_v164 : Ref sig .tc := ⟨.hbm, 291, rfl⟩
abbrev main_v165 : Ref sig .tc := ⟨.hbm, 292, rfl⟩
abbrev main_v166 : Ref sig .tc := ⟨.hbm, 293, rfl⟩
abbrev main_v167 : Ref sig .tc := ⟨.hbm, 294, rfl⟩
abbrev main_c_57 : Ref sig .tc := ⟨.hbm, 295, rfl⟩
abbrev main_v168 : Ref sig .tc := ⟨.hbm, 296, rfl⟩
abbrev main_v169 : Ref sig .tc := ⟨.hbm, 297, rfl⟩
abbrev main_c_58 : Ref sig .tc := ⟨.hbm, 298, rfl⟩
abbrev main_v170 : Ref sig .tc := ⟨.hbm, 299, rfl⟩
abbrev main_v171 : Ref sig .tc := ⟨.hbm, 300, rfl⟩
abbrev main_v172 : Ref sig .tc := ⟨.hbm, 301, rfl⟩
abbrev main_c_59 : Ref sig .tc := ⟨.hbm, 302, rfl⟩
abbrev main_v173 : Ref sig .tc := ⟨.hbm, 303, rfl⟩
abbrev main_v174 : Ref sig .tc := ⟨.hbm, 304, rfl⟩
abbrev main_c_60 : Ref sig .tc := ⟨.hbm, 305, rfl⟩
abbrev main_v175 : Ref sig .tc := ⟨.hbm, 306, rfl⟩
abbrev main_v176 : Ref sig .tc := ⟨.hbm, 307, rfl⟩
abbrev main_v177 : Ref sig .tc := ⟨.hbm, 308, rfl⟩
abbrev main_v178 : Ref sig .tc := ⟨.hbm, 309, rfl⟩
abbrev main_v179 : Ref sig .tc := ⟨.hbm, 310, rfl⟩
abbrev main_v180 : Ref sig .tc := ⟨.hbm, 311, rfl⟩
abbrev main_v181 : Ref sig .tc := ⟨.hbm, 312, rfl⟩
abbrev main_c_61 : Ref sig .tc := ⟨.hbm, 313, rfl⟩
abbrev main_v182 : Ref sig .tc := ⟨.hbm, 314, rfl⟩
abbrev main_v183 : Ref sig .tc := ⟨.hbm, 315, rfl⟩
abbrev main_c_62 : Ref sig .tc := ⟨.hbm, 316, rfl⟩
abbrev main_v184 : Ref sig .tc := ⟨.hbm, 317, rfl⟩
abbrev main_v185 : Ref sig .tc := ⟨.hbm, 318, rfl⟩
abbrev main_v186 : Ref sig .tc := ⟨.hbm, 319, rfl⟩
abbrev main_c_63 : Ref sig .tc := ⟨.hbm, 320, rfl⟩
abbrev main_v187 : Ref sig .tc := ⟨.hbm, 321, rfl⟩
abbrev main_v188 : Ref sig .tc := ⟨.hbm, 322, rfl⟩
abbrev main_c_64 : Ref sig .tc := ⟨.hbm, 323, rfl⟩
abbrev main_v189 : Ref sig .tc := ⟨.hbm, 324, rfl⟩
abbrev main_v190 : Ref sig .tc := ⟨.hbm, 325, rfl⟩
abbrev main_v191 : Ref sig .tc := ⟨.hbm, 326, rfl⟩
abbrev main_v192 : Ref sig .tc := ⟨.hbm, 327, rfl⟩
abbrev main_v193 : Ref sig .tc := ⟨.hbm, 328, rfl⟩
abbrev main_v194 : Ref sig .tc := ⟨.hbm, 329, rfl⟩
abbrev main_v195 : Ref sig .tc := ⟨.hbm, 330, rfl⟩
abbrev main_c_65 : Ref sig .tc := ⟨.hbm, 331, rfl⟩
abbrev main_v196 : Ref sig .tc := ⟨.hbm, 332, rfl⟩
abbrev main_v197 : Ref sig .tc := ⟨.hbm, 333, rfl⟩
abbrev main_c_66 : Ref sig .tc := ⟨.hbm, 334, rfl⟩
abbrev main_v198 : Ref sig .tc := ⟨.hbm, 335, rfl⟩
abbrev main_v199 : Ref sig .tc := ⟨.hbm, 336, rfl⟩
abbrev main_v200 : Ref sig .tc := ⟨.hbm, 337, rfl⟩
abbrev main_c_67 : Ref sig .tc := ⟨.hbm, 338, rfl⟩
abbrev main_v201 : Ref sig .tc := ⟨.hbm, 339, rfl⟩
abbrev main_v202 : Ref sig .tc := ⟨.hbm, 340, rfl⟩
abbrev main_c_68 : Ref sig .tc := ⟨.hbm, 341, rfl⟩
abbrev main_v203 : Ref sig .tc := ⟨.hbm, 342, rfl⟩
abbrev main_v204 : Ref sig .tc := ⟨.hbm, 343, rfl⟩
abbrev main_v205 : Ref sig .tc := ⟨.hbm, 344, rfl⟩
abbrev main_v206 : Ref sig .tc := ⟨.hbm, 345, rfl⟩
abbrev main_v207 : Ref sig .tc := ⟨.hbm, 346, rfl⟩
abbrev main_v208 : Ref sig .tc := ⟨.hbm, 347, rfl⟩
abbrev main_v209 : Ref sig .tc := ⟨.hbm, 348, rfl⟩
abbrev main_cst_69 : Ref sig .tc := ⟨.hbm, 349, rfl⟩
abbrev main_v210 : Ref sig .tc := ⟨.hbm, 350, rfl⟩
abbrev main_v211 : Ref sig .tc := ⟨.hbm, 351, rfl⟩
abbrev main_v212 : Ref sig .tc := ⟨.hbm, 352, rfl⟩
abbrev main_v213 : Ref sig .tc := ⟨.hbm, 353, rfl⟩
abbrev main_v214 : Ref sig .tc := ⟨.hbm, 354, rfl⟩
abbrev main_v215 : Ref sig .tc := ⟨.hbm, 355, rfl⟩
abbrev main_v216 : Ref sig .tc := ⟨.hbm, 356, rfl⟩
abbrev main_v217 : Ref sig .tc := ⟨.hbm, 357, rfl⟩
abbrev main_v218 : Ref sig .tc := ⟨.hbm, 358, rfl⟩
abbrev main_cst_70 : Ref sig .tc := ⟨.hbm, 359, rfl⟩
abbrev main_v219 : Ref sig .tc := ⟨.hbm, 360, rfl⟩
abbrev main_v220 : Ref sig .tc := ⟨.hbm, 361, rfl⟩
abbrev main_v221 : Ref sig .tc := ⟨.hbm, 362, rfl⟩
abbrev main_v222 : Ref sig .tc := ⟨.hbm, 363, rfl⟩
abbrev main_v223 : Ref sig .tc := ⟨.hbm, 364, rfl⟩
abbrev main_v224 : Ref sig .tc := ⟨.hbm, 365, rfl⟩
abbrev main_v225 : Ref sig .tc := ⟨.hbm, 366, rfl⟩
abbrev main_v226 : Ref sig .tc := ⟨.hbm, 367, rfl⟩
abbrev main_v227 : Ref sig .tc := ⟨.hbm, 368, rfl⟩
abbrev main_cst_71 : Ref sig .tc := ⟨.hbm, 369, rfl⟩
abbrev main_v228 : Ref sig .tc := ⟨.hbm, 370, rfl⟩
abbrev main_v229 : Ref sig .tc := ⟨.hbm, 371, rfl⟩
abbrev main_v230 : Ref sig .tc := ⟨.hbm, 372, rfl⟩
abbrev main_v231 : Ref sig .tc := ⟨.hbm, 373, rfl⟩
abbrev main_v232 : Ref sig .tc := ⟨.hbm, 374, rfl⟩
abbrev main_v233 : Ref sig .tc := ⟨.hbm, 375, rfl⟩
abbrev main_v234 : Ref sig .tc := ⟨.hbm, 376, rfl⟩
abbrev main_v235 : Ref sig .tc := ⟨.hbm, 377, rfl⟩
abbrev main_v236 : Ref sig .tc := ⟨.hbm, 378, rfl⟩
abbrev main_v237 : Ref sig .tc := ⟨.hbm, 379, rfl⟩
abbrev main_cst_72 : Ref sig .tc := ⟨.hbm, 380, rfl⟩
abbrev main_v238 : Ref sig .tc := ⟨.hbm, 381, rfl⟩
abbrev main_v239 : Ref sig .tc := ⟨.hbm, 382, rfl⟩
abbrev main_cst_73 : Ref sig .tc := ⟨.hbm, 383, rfl⟩
abbrev main_v240 : Ref sig .tc := ⟨.hbm, 384, rfl⟩
abbrev main_v241 : Ref sig .tc := ⟨.hbm, 385, rfl⟩
abbrev main_cst_74 : Ref sig .tc := ⟨.hbm, 386, rfl⟩
abbrev main_v242 : Ref sig .tc := ⟨.hbm, 387, rfl⟩
abbrev main_v243 : Ref sig .tc := ⟨.hbm, 388, rfl⟩
abbrev main_cst_75 : Ref sig .tc := ⟨.hbm, 389, rfl⟩
abbrev main_v244 : Ref sig .tc := ⟨.hbm, 390, rfl⟩
abbrev main_v245 : Ref sig .tc := ⟨.hbm, 391, rfl⟩
abbrev main_cst_76 : Ref sig .tc := ⟨.hbm, 392, rfl⟩
abbrev main_v246 : Ref sig .tc := ⟨.hbm, 393, rfl⟩
abbrev main_v247 : Ref sig .tc := ⟨.hbm, 394, rfl⟩
abbrev main_cst_77 : Ref sig .tc := ⟨.hbm, 395, rfl⟩
abbrev main_v248 : Ref sig .tc := ⟨.hbm, 396, rfl⟩
abbrev main_v249 : Ref sig .tc := ⟨.hbm, 397, rfl⟩
abbrev main_v250 : Ref sig .tc := ⟨.hbm, 398, rfl⟩
abbrev main_v251 : Ref sig .tc := ⟨.hbm, 399, rfl⟩
abbrev main_v252 : Ref sig .tc := ⟨.hbm, 400, rfl⟩
abbrev main_v253 : Ref sig .tc := ⟨.hbm, 401, rfl⟩
abbrev main_v254 : Ref sig .tc := ⟨.hbm, 402, rfl⟩
abbrev main_v255 : Ref sig .tc := ⟨.hbm, 403, rfl⟩
abbrev main_v256 : Ref sig .tc := ⟨.hbm, 404, rfl⟩
abbrev main_v257 : Ref sig .tc := ⟨.hbm, 405, rfl⟩
abbrev main_c_78 : Ref sig .tc := ⟨.hbm, 406, rfl⟩
abbrev main_c_79 : Ref sig .tc := ⟨.hbm, 407, rfl⟩
abbrev main_call8_v0 : Ref sig .tc := ⟨.hbm, 408, rfl⟩
abbrev main_call8_v1 : Ref sig .tc := ⟨.hbm, 409, rfl⟩
abbrev main_call8_v2 : Ref sig .tc := ⟨.hbm, 410, rfl⟩
abbrev main_call8_v3 : Ref sig .tc := ⟨.hbm, 411, rfl⟩
abbrev main_call8_v4 : Ref sig .tc := ⟨.hbm, 412, rfl⟩
abbrev main_v258 : Ref sig .tc := ⟨.hbm, 413, rfl⟩
abbrev main_c_80 : Ref sig .tc := ⟨.hbm, 414, rfl⟩
abbrev main_v259 : Ref sig .tc := ⟨.hbm, 415, rfl⟩
abbrev main_v260 : Ref sig .tc := ⟨.hbm, 416, rfl⟩
abbrev main_c_81 : Ref sig .tc := ⟨.hbm, 417, rfl⟩
abbrev main_c_82 : Ref sig .tc := ⟨.hbm, 418, rfl⟩
abbrev main_call9_v0 : Ref sig .tc := ⟨.hbm, 419, rfl⟩
abbrev main_call9_v1 : Ref sig .tc := ⟨.hbm, 420, rfl⟩
abbrev main_call9_v2 : Ref sig .tc := ⟨.hbm, 421, rfl⟩
abbrev main_call9_v3 : Ref sig .tc := ⟨.hbm, 422, rfl⟩
abbrev main_call9_v4 : Ref sig .tc := ⟨.hbm, 423, rfl⟩
abbrev main_v261 : Ref sig .tc := ⟨.hbm, 424, rfl⟩
abbrev main_c_83 : Ref sig .tc := ⟨.hbm, 425, rfl⟩
abbrev main_c_84 : Ref sig .tc := ⟨.hbm, 426, rfl⟩
abbrev main_call10_v0 : Ref sig .tc := ⟨.hbm, 427, rfl⟩
abbrev main_call10_v1 : Ref sig .tc := ⟨.hbm, 428, rfl⟩
abbrev main_call10_v2 : Ref sig .tc := ⟨.hbm, 429, rfl⟩
abbrev main_call10_v3 : Ref sig .tc := ⟨.hbm, 430, rfl⟩
abbrev main_call10_v4 : Ref sig .tc := ⟨.hbm, 431, rfl⟩
abbrev main_v262 : Ref sig .tc := ⟨.hbm, 432, rfl⟩
abbrev main_c_85 : Ref sig .tc := ⟨.hbm, 433, rfl⟩
abbrev main_v263 : Ref sig .tc := ⟨.hbm, 434, rfl⟩
abbrev main_v264 : Ref sig .tc := ⟨.hbm, 435, rfl⟩
abbrev main_c_86 : Ref sig .tc := ⟨.hbm, 436, rfl⟩
abbrev main_c_87 : Ref sig .tc := ⟨.hbm, 437, rfl⟩
abbrev main_call11_v0 : Ref sig .tc := ⟨.hbm, 438, rfl⟩
abbrev main_call11_v1 : Ref sig .tc := ⟨.hbm, 439, rfl⟩
abbrev main_call11_v2 : Ref sig .tc := ⟨.hbm, 440, rfl⟩
abbrev main_call11_v3 : Ref sig .tc := ⟨.hbm, 441, rfl⟩
abbrev main_call11_v4 : Ref sig .tc := ⟨.hbm, 442, rfl⟩
abbrev main_v265 : Ref sig .tc := ⟨.hbm, 443, rfl⟩
abbrev main_c_88 : Ref sig .tc := ⟨.hbm, 444, rfl⟩
abbrev main_v266 : Ref sig .tc := ⟨.hbm, 445, rfl⟩
abbrev main_v267 : Ref sig .tc := ⟨.hbm, 446, rfl⟩
abbrev main_c_89 : Ref sig .tc := ⟨.hbm, 447, rfl⟩
abbrev main_v268 : Ref sig .tc := ⟨.hbm, 448, rfl⟩
abbrev main_v269 : Ref sig .tc := ⟨.hbm, 449, rfl⟩
abbrev main_v270 : Ref sig .tc := ⟨.hbm, 450, rfl⟩
abbrev main_c_90 : Ref sig .tc := ⟨.hbm, 451, rfl⟩
abbrev main_v271 : Ref sig .tc := ⟨.hbm, 452, rfl⟩
abbrev main_v272 : Ref sig .tc := ⟨.hbm, 453, rfl⟩
abbrev main_c_91 : Ref sig .tc := ⟨.hbm, 454, rfl⟩
abbrev main_v273 : Ref sig .tc := ⟨.hbm, 455, rfl⟩
abbrev main_v274 : Ref sig .tc := ⟨.hbm, 456, rfl⟩
abbrev main_v275 : Ref sig .tc := ⟨.hbm, 457, rfl⟩
abbrev main_v276 : Ref sig .tc := ⟨.hbm, 458, rfl⟩
abbrev main_v277 : Ref sig .tc := ⟨.hbm, 459, rfl⟩
abbrev main_v278 : Ref sig .tc := ⟨.hbm, 460, rfl⟩
abbrev main_v279 : Ref sig .tc := ⟨.hbm, 461, rfl⟩
abbrev main_c_92 : Ref sig .tc := ⟨.hbm, 462, rfl⟩
abbrev main_v280 : Ref sig .tc := ⟨.hbm, 463, rfl⟩
abbrev main_v281 : Ref sig .tc := ⟨.hbm, 464, rfl⟩
abbrev main_c_93 : Ref sig .tc := ⟨.hbm, 465, rfl⟩
abbrev main_v282 : Ref sig .tc := ⟨.hbm, 466, rfl⟩
abbrev main_v283 : Ref sig .tc := ⟨.hbm, 467, rfl⟩
abbrev main_v284 : Ref sig .tc := ⟨.hbm, 468, rfl⟩
abbrev main_c_94 : Ref sig .tc := ⟨.hbm, 469, rfl⟩
abbrev main_v285 : Ref sig .tc := ⟨.hbm, 470, rfl⟩
abbrev main_v286 : Ref sig .tc := ⟨.hbm, 471, rfl⟩
abbrev main_c_95 : Ref sig .tc := ⟨.hbm, 472, rfl⟩
abbrev main_v287 : Ref sig .tc := ⟨.hbm, 473, rfl⟩
abbrev main_v288 : Ref sig .tc := ⟨.hbm, 474, rfl⟩
abbrev main_v289 : Ref sig .tc := ⟨.hbm, 475, rfl⟩
abbrev main_v290 : Ref sig .tc := ⟨.hbm, 476, rfl⟩
abbrev main_v291 : Ref sig .tc := ⟨.hbm, 477, rfl⟩
abbrev main_v292 : Ref sig .tc := ⟨.hbm, 478, rfl⟩
abbrev main_v293 : Ref sig .tc := ⟨.hbm, 479, rfl⟩
abbrev main_c_96 : Ref sig .tc := ⟨.hbm, 480, rfl⟩
abbrev main_v294 : Ref sig .tc := ⟨.hbm, 481, rfl⟩
abbrev main_v295 : Ref sig .tc := ⟨.hbm, 482, rfl⟩
abbrev main_c_97 : Ref sig .tc := ⟨.hbm, 483, rfl⟩
abbrev main_v296 : Ref sig .tc := ⟨.hbm, 484, rfl⟩
abbrev main_v297 : Ref sig .tc := ⟨.hbm, 485, rfl⟩
abbrev main_v298 : Ref sig .tc := ⟨.hbm, 486, rfl⟩
abbrev main_c_98 : Ref sig .tc := ⟨.hbm, 487, rfl⟩
abbrev main_v299 : Ref sig .tc := ⟨.hbm, 488, rfl⟩
abbrev main_v300 : Ref sig .tc := ⟨.hbm, 489, rfl⟩
abbrev main_c_99 : Ref sig .tc := ⟨.hbm, 490, rfl⟩
abbrev main_v301 : Ref sig .tc := ⟨.hbm, 491, rfl⟩
abbrev main_v302 : Ref sig .tc := ⟨.hbm, 492, rfl⟩
abbrev main_v303 : Ref sig .tc := ⟨.hbm, 493, rfl⟩
abbrev main_v304 : Ref sig .tc := ⟨.hbm, 494, rfl⟩
abbrev main_v305 : Ref sig .tc := ⟨.hbm, 495, rfl⟩
abbrev main_v306 : Ref sig .tc := ⟨.hbm, 496, rfl⟩
abbrev main_v307 : Ref sig .tc := ⟨.hbm, 497, rfl⟩
abbrev main_c_100 : Ref sig .tc := ⟨.hbm, 498, rfl⟩
abbrev main_v308 : Ref sig .tc := ⟨.hbm, 499, rfl⟩
abbrev main_v309 : Ref sig .tc := ⟨.hbm, 500, rfl⟩
abbrev main_c_101 : Ref sig .tc := ⟨.hbm, 501, rfl⟩
abbrev main_v310 : Ref sig .tc := ⟨.hbm, 502, rfl⟩
abbrev main_v311 : Ref sig .tc := ⟨.hbm, 503, rfl⟩
abbrev main_v312 : Ref sig .tc := ⟨.hbm, 504, rfl⟩
abbrev main_c_102 : Ref sig .tc := ⟨.hbm, 505, rfl⟩
abbrev main_v313 : Ref sig .tc := ⟨.hbm, 506, rfl⟩
abbrev main_v314 : Ref sig .tc := ⟨.hbm, 507, rfl⟩
abbrev main_c_103 : Ref sig .tc := ⟨.hbm, 508, rfl⟩
abbrev main_v315 : Ref sig .tc := ⟨.hbm, 509, rfl⟩
abbrev main_v316 : Ref sig .tc := ⟨.hbm, 510, rfl⟩
abbrev main_v317 : Ref sig .tc := ⟨.hbm, 511, rfl⟩
abbrev main_v318 : Ref sig .tc := ⟨.hbm, 512, rfl⟩
abbrev main_v319 : Ref sig .tc := ⟨.hbm, 513, rfl⟩
abbrev main_v320 : Ref sig .tc := ⟨.hbm, 514, rfl⟩
abbrev main_v321 : Ref sig .tc := ⟨.hbm, 515, rfl⟩
abbrev main_cst_104 : Ref sig .tc := ⟨.hbm, 516, rfl⟩
abbrev main_v322 : Ref sig .tc := ⟨.hbm, 517, rfl⟩
abbrev main_v323 : Ref sig .tc := ⟨.hbm, 518, rfl⟩
abbrev main_v324 : Ref sig .tc := ⟨.hbm, 519, rfl⟩
abbrev main_v325 : Ref sig .tc := ⟨.hbm, 520, rfl⟩
abbrev main_v326 : Ref sig .tc := ⟨.hbm, 521, rfl⟩
abbrev main_v327 : Ref sig .tc := ⟨.hbm, 522, rfl⟩
abbrev main_v328 : Ref sig .tc := ⟨.hbm, 523, rfl⟩
abbrev main_v329 : Ref sig .tc := ⟨.hbm, 524, rfl⟩
abbrev main_v330 : Ref sig .tc := ⟨.hbm, 525, rfl⟩
abbrev main_cst_105 : Ref sig .tc := ⟨.hbm, 526, rfl⟩
abbrev main_v331 : Ref sig .tc := ⟨.hbm, 527, rfl⟩
abbrev main_v332 : Ref sig .tc := ⟨.hbm, 528, rfl⟩
abbrev main_v333 : Ref sig .tc := ⟨.hbm, 529, rfl⟩
abbrev main_v334 : Ref sig .tc := ⟨.hbm, 530, rfl⟩
abbrev main_v335 : Ref sig .tc := ⟨.hbm, 531, rfl⟩
abbrev main_v336 : Ref sig .tc := ⟨.hbm, 532, rfl⟩
abbrev main_v337 : Ref sig .tc := ⟨.hbm, 533, rfl⟩
abbrev main_v338 : Ref sig .tc := ⟨.hbm, 534, rfl⟩
abbrev main_v339 : Ref sig .tc := ⟨.hbm, 535, rfl⟩
abbrev main_cst_106 : Ref sig .tc := ⟨.hbm, 536, rfl⟩
abbrev main_v340 : Ref sig .tc := ⟨.hbm, 537, rfl⟩
abbrev main_v341 : Ref sig .tc := ⟨.hbm, 538, rfl⟩
abbrev main_v342 : Ref sig .tc := ⟨.hbm, 539, rfl⟩
abbrev main_v343 : Ref sig .tc := ⟨.hbm, 540, rfl⟩
abbrev main_v344 : Ref sig .tc := ⟨.hbm, 541, rfl⟩
abbrev main_v345 : Ref sig .tc := ⟨.hbm, 542, rfl⟩
abbrev main_v346 : Ref sig .tc := ⟨.hbm, 543, rfl⟩
abbrev main_v347 : Ref sig .tc := ⟨.hbm, 544, rfl⟩
abbrev main_v348 : Ref sig .tc := ⟨.hbm, 545, rfl⟩
abbrev main_v349 : Ref sig .tc := ⟨.hbm, 546, rfl⟩
abbrev main_v350 : Ref sig .tc := ⟨.hbm, 547, rfl⟩
abbrev main_v351 : Ref sig .tc := ⟨.hbm, 548, rfl⟩
abbrev main_v352 : Ref sig .tc := ⟨.hbm, 549, rfl⟩
abbrev main_v353 : Ref sig .tc := ⟨.hbm, 550, rfl⟩
abbrev main_v354 : Ref sig .tc := ⟨.hbm, 551, rfl⟩
abbrev main_call12_cst : Ref sig .tc := ⟨.hbm, 552, rfl⟩
abbrev main_call12_v0 : Ref sig .tc := ⟨.hbm, 553, rfl⟩
abbrev main_v355 : Ref sig .tc := ⟨.hbm, 554, rfl⟩
abbrev main_v356 : Ref sig .tc := ⟨.hbm, 555, rfl⟩
abbrev main_v357 : Ref sig .tc := ⟨.hbm, 556, rfl⟩
abbrev main_v358 : Ref sig .tc := ⟨.hbm, 557, rfl⟩
abbrev main_v359 : Ref sig .tc := ⟨.hbm, 558, rfl⟩
abbrev main_call13_cst : Ref sig .tc := ⟨.hbm, 559, rfl⟩
abbrev main_call13_v0 : Ref sig .tc := ⟨.hbm, 560, rfl⟩
abbrev main_v360 : Ref sig .tc := ⟨.hbm, 561, rfl⟩
abbrev main_v361 : Ref sig .tc := ⟨.hbm, 562, rfl⟩
abbrev main_v362 : Ref sig .tc := ⟨.hbm, 563, rfl⟩
abbrev main_v363 : Ref sig .tc := ⟨.hbm, 564, rfl⟩
abbrev main_v364 : Ref sig .tc := ⟨.hbm, 565, rfl⟩
abbrev main_cst_107 : Ref sig .tc := ⟨.hbm, 566, rfl⟩
abbrev main_v365 : Ref sig .tc := ⟨.hbm, 567, rfl⟩
abbrev main_v366 : Ref sig .tc := ⟨.hbm, 568, rfl⟩
abbrev main_cst_108 : Ref sig .tc := ⟨.hbm, 569, rfl⟩
abbrev main_v367 : Ref sig .tc := ⟨.hbm, 570, rfl⟩
abbrev main_v368 : Ref sig .tc := ⟨.hbm, 571, rfl⟩
abbrev main_cst_109 : Ref sig .tc := ⟨.hbm, 572, rfl⟩
abbrev main_v369 : Ref sig .tc := ⟨.hbm, 573, rfl⟩
abbrev main_v370 : Ref sig .tc := ⟨.hbm, 574, rfl⟩
abbrev main_cst_110 : Ref sig .tc := ⟨.hbm, 575, rfl⟩
abbrev main_v371 : Ref sig .tc := ⟨.hbm, 576, rfl⟩
abbrev main_v372 : Ref sig .tc := ⟨.hbm, 577, rfl⟩
abbrev main_cst_111 : Ref sig .tc := ⟨.hbm, 578, rfl⟩
abbrev main_v373 : Ref sig .tc := ⟨.hbm, 579, rfl⟩
abbrev main_v374 : Ref sig .tc := ⟨.hbm, 580, rfl⟩
abbrev main_cst_112 : Ref sig .tc := ⟨.hbm, 581, rfl⟩
abbrev main_v375 : Ref sig .tc := ⟨.hbm, 582, rfl⟩
abbrev main_v376 : Ref sig .tc := ⟨.hbm, 583, rfl⟩
abbrev main_cst_113 : Ref sig .tc := ⟨.hbm, 584, rfl⟩
abbrev main_v377 : Ref sig .tc := ⟨.hbm, 585, rfl⟩
abbrev main_v378 : Ref sig .tc := ⟨.hbm, 586, rfl⟩
abbrev main_v379 : Ref sig .tc := ⟨.hbm, 587, rfl⟩
abbrev main_v380 : Ref sig .tc := ⟨.hbm, 588, rfl⟩
abbrev main_v381 : Ref sig .tc := ⟨.hbm, 589, rfl⟩
abbrev main_v382 : Ref sig .tc := ⟨.hbm, 590, rfl⟩
abbrev main_v383 : Ref sig .tc := ⟨.hbm, 591, rfl⟩
abbrev main_v384 : Ref sig .tc := ⟨.hbm, 592, rfl⟩
abbrev main_v385 : Ref sig .tc := ⟨.hbm, 593, rfl⟩
abbrev main_v386 : Ref sig .tc := ⟨.hbm, 594, rfl⟩
abbrev main_c_114 : Ref sig .tc := ⟨.hbm, 595, rfl⟩
abbrev main_c_115 : Ref sig .tc := ⟨.hbm, 596, rfl⟩
abbrev main_call14_v0 : Ref sig .tc := ⟨.hbm, 597, rfl⟩
abbrev main_call14_v1 : Ref sig .tc := ⟨.hbm, 598, rfl⟩
abbrev main_call14_v2 : Ref sig .tc := ⟨.hbm, 599, rfl⟩
abbrev main_call14_v3 : Ref sig .tc := ⟨.hbm, 600, rfl⟩
abbrev main_call14_v4 : Ref sig .tc := ⟨.hbm, 601, rfl⟩
abbrev main_v387 : Ref sig .tc := ⟨.hbm, 602, rfl⟩
abbrev main_c_116 : Ref sig .tc := ⟨.hbm, 603, rfl⟩
abbrev main_v388 : Ref sig .tc := ⟨.hbm, 604, rfl⟩
abbrev main_v389 : Ref sig .tc := ⟨.hbm, 605, rfl⟩
abbrev main_c_117 : Ref sig .tc := ⟨.hbm, 606, rfl⟩
abbrev main_c_118 : Ref sig .tc := ⟨.hbm, 607, rfl⟩
abbrev main_call15_v0 : Ref sig .tc := ⟨.hbm, 608, rfl⟩
abbrev main_call15_v1 : Ref sig .tc := ⟨.hbm, 609, rfl⟩
abbrev main_call15_v2 : Ref sig .tc := ⟨.hbm, 610, rfl⟩
abbrev main_call15_v3 : Ref sig .tc := ⟨.hbm, 611, rfl⟩
abbrev main_call15_v4 : Ref sig .tc := ⟨.hbm, 612, rfl⟩
abbrev main_v390 : Ref sig .tc := ⟨.hbm, 613, rfl⟩
abbrev main_c_119 : Ref sig .tc := ⟨.hbm, 614, rfl⟩
abbrev main_c_120 : Ref sig .tc := ⟨.hbm, 615, rfl⟩
abbrev main_call16_v0 : Ref sig .tc := ⟨.hbm, 616, rfl⟩
abbrev main_call16_v1 : Ref sig .tc := ⟨.hbm, 617, rfl⟩
abbrev main_call16_v2 : Ref sig .tc := ⟨.hbm, 618, rfl⟩
abbrev main_call16_v3 : Ref sig .tc := ⟨.hbm, 619, rfl⟩
abbrev main_call16_v4 : Ref sig .tc := ⟨.hbm, 620, rfl⟩
abbrev main_v391 : Ref sig .tc := ⟨.hbm, 621, rfl⟩
abbrev main_c_121 : Ref sig .tc := ⟨.hbm, 622, rfl⟩
abbrev main_v392 : Ref sig .tc := ⟨.hbm, 623, rfl⟩
abbrev main_v393 : Ref sig .tc := ⟨.hbm, 624, rfl⟩
abbrev main_c_122 : Ref sig .tc := ⟨.hbm, 625, rfl⟩
abbrev main_c_123 : Ref sig .tc := ⟨.hbm, 626, rfl⟩
abbrev main_call17_v0 : Ref sig .tc := ⟨.hbm, 627, rfl⟩
abbrev main_call17_v1 : Ref sig .tc := ⟨.hbm, 628, rfl⟩
abbrev main_call17_v2 : Ref sig .tc := ⟨.hbm, 629, rfl⟩
abbrev main_call17_v3 : Ref sig .tc := ⟨.hbm, 630, rfl⟩
abbrev main_call17_v4 : Ref sig .tc := ⟨.hbm, 631, rfl⟩
abbrev main_v394 : Ref sig .tc := ⟨.hbm, 632, rfl⟩
abbrev main_c_124 : Ref sig .tc := ⟨.hbm, 633, rfl⟩
abbrev main_v395 : Ref sig .tc := ⟨.hbm, 634, rfl⟩
abbrev main_v396 : Ref sig .tc := ⟨.hbm, 635, rfl⟩
abbrev main_c_125 : Ref sig .tc := ⟨.hbm, 636, rfl⟩
abbrev main_v397 : Ref sig .tc := ⟨.hbm, 637, rfl⟩
abbrev main_v398 : Ref sig .tc := ⟨.hbm, 638, rfl⟩
abbrev main_v399 : Ref sig .tc := ⟨.hbm, 639, rfl⟩
abbrev main_c_126 : Ref sig .tc := ⟨.hbm, 640, rfl⟩
abbrev main_v400 : Ref sig .tc := ⟨.hbm, 641, rfl⟩
abbrev main_v401 : Ref sig .tc := ⟨.hbm, 642, rfl⟩
abbrev main_c_127 : Ref sig .tc := ⟨.hbm, 643, rfl⟩
abbrev main_v402 : Ref sig .tc := ⟨.hbm, 644, rfl⟩
abbrev main_v403 : Ref sig .tc := ⟨.hbm, 645, rfl⟩
abbrev main_v404 : Ref sig .tc := ⟨.hbm, 646, rfl⟩
abbrev main_v405 : Ref sig .tc := ⟨.hbm, 647, rfl⟩
abbrev main_v406 : Ref sig .tc := ⟨.hbm, 648, rfl⟩
abbrev main_v407 : Ref sig .tc := ⟨.hbm, 649, rfl⟩
abbrev main_v408 : Ref sig .tc := ⟨.hbm, 650, rfl⟩
abbrev main_c_128 : Ref sig .tc := ⟨.hbm, 651, rfl⟩
abbrev main_v409 : Ref sig .tc := ⟨.hbm, 652, rfl⟩
abbrev main_v410 : Ref sig .tc := ⟨.hbm, 653, rfl⟩
abbrev main_c_129 : Ref sig .tc := ⟨.hbm, 654, rfl⟩
abbrev main_v411 : Ref sig .tc := ⟨.hbm, 655, rfl⟩
abbrev main_v412 : Ref sig .tc := ⟨.hbm, 656, rfl⟩
abbrev main_v413 : Ref sig .tc := ⟨.hbm, 657, rfl⟩
abbrev main_c_130 : Ref sig .tc := ⟨.hbm, 658, rfl⟩
abbrev main_v414 : Ref sig .tc := ⟨.hbm, 659, rfl⟩
abbrev main_v415 : Ref sig .tc := ⟨.hbm, 660, rfl⟩
abbrev main_c_131 : Ref sig .tc := ⟨.hbm, 661, rfl⟩
abbrev main_v416 : Ref sig .tc := ⟨.hbm, 662, rfl⟩
abbrev main_v417 : Ref sig .tc := ⟨.hbm, 663, rfl⟩
abbrev main_v418 : Ref sig .tc := ⟨.hbm, 664, rfl⟩
abbrev main_v419 : Ref sig .tc := ⟨.hbm, 665, rfl⟩
abbrev main_v420 : Ref sig .tc := ⟨.hbm, 666, rfl⟩
abbrev main_v421 : Ref sig .tc := ⟨.hbm, 667, rfl⟩
abbrev main_v422 : Ref sig .tc := ⟨.hbm, 668, rfl⟩
abbrev main_c_132 : Ref sig .tc := ⟨.hbm, 669, rfl⟩
abbrev main_v423 : Ref sig .tc := ⟨.hbm, 670, rfl⟩
abbrev main_v424 : Ref sig .tc := ⟨.hbm, 671, rfl⟩
abbrev main_c_133 : Ref sig .tc := ⟨.hbm, 672, rfl⟩
abbrev main_v425 : Ref sig .tc := ⟨.hbm, 673, rfl⟩
abbrev main_v426 : Ref sig .tc := ⟨.hbm, 674, rfl⟩
abbrev main_v427 : Ref sig .tc := ⟨.hbm, 675, rfl⟩
abbrev main_c_134 : Ref sig .tc := ⟨.hbm, 676, rfl⟩
abbrev main_v428 : Ref sig .tc := ⟨.hbm, 677, rfl⟩
abbrev main_v429 : Ref sig .tc := ⟨.hbm, 678, rfl⟩
abbrev main_c_135 : Ref sig .tc := ⟨.hbm, 679, rfl⟩
abbrev main_v430 : Ref sig .tc := ⟨.hbm, 680, rfl⟩
abbrev main_v431 : Ref sig .tc := ⟨.hbm, 681, rfl⟩
abbrev main_v432 : Ref sig .tc := ⟨.hbm, 682, rfl⟩
abbrev main_v433 : Ref sig .tc := ⟨.hbm, 683, rfl⟩
abbrev main_v434 : Ref sig .tc := ⟨.hbm, 684, rfl⟩
abbrev main_v435 : Ref sig .tc := ⟨.hbm, 685, rfl⟩
abbrev main_v436 : Ref sig .tc := ⟨.hbm, 686, rfl⟩
abbrev main_c_136 : Ref sig .tc := ⟨.hbm, 687, rfl⟩
abbrev main_v437 : Ref sig .tc := ⟨.hbm, 688, rfl⟩
abbrev main_v438 : Ref sig .tc := ⟨.hbm, 689, rfl⟩
abbrev main_c_137 : Ref sig .tc := ⟨.hbm, 690, rfl⟩
abbrev main_v439 : Ref sig .tc := ⟨.hbm, 691, rfl⟩
abbrev main_v440 : Ref sig .tc := ⟨.hbm, 692, rfl⟩
abbrev main_v441 : Ref sig .tc := ⟨.hbm, 693, rfl⟩
abbrev main_c_138 : Ref sig .tc := ⟨.hbm, 694, rfl⟩
abbrev main_v442 : Ref sig .tc := ⟨.hbm, 695, rfl⟩
abbrev main_v443 : Ref sig .tc := ⟨.hbm, 696, rfl⟩
abbrev main_c_139 : Ref sig .tc := ⟨.hbm, 697, rfl⟩
abbrev main_v444 : Ref sig .tc := ⟨.hbm, 698, rfl⟩
abbrev main_v445 : Ref sig .tc := ⟨.hbm, 699, rfl⟩
abbrev main_v446 : Ref sig .tc := ⟨.hbm, 700, rfl⟩
abbrev main_v447 : Ref sig .tc := ⟨.hbm, 701, rfl⟩
abbrev main_v448 : Ref sig .tc := ⟨.hbm, 702, rfl⟩
abbrev main_v449 : Ref sig .tc := ⟨.hbm, 703, rfl⟩
abbrev main_v450 : Ref sig .tc := ⟨.hbm, 704, rfl⟩
abbrev main_cst_140 : Ref sig .tc := ⟨.hbm, 705, rfl⟩
abbrev main_v451 : Ref sig .tc := ⟨.hbm, 706, rfl⟩
abbrev main_v452 : Ref sig .tc := ⟨.hbm, 707, rfl⟩
abbrev main_v453 : Ref sig .tc := ⟨.hbm, 708, rfl⟩
abbrev main_v454 : Ref sig .tc := ⟨.hbm, 709, rfl⟩
abbrev main_v455 : Ref sig .tc := ⟨.hbm, 710, rfl⟩
abbrev main_v456 : Ref sig .tc := ⟨.hbm, 711, rfl⟩
abbrev main_v457 : Ref sig .tc := ⟨.hbm, 712, rfl⟩
abbrev main_v458 : Ref sig .tc := ⟨.hbm, 713, rfl⟩
abbrev main_v459 : Ref sig .tc := ⟨.hbm, 714, rfl⟩
abbrev main_cst_141 : Ref sig .tc := ⟨.hbm, 715, rfl⟩
abbrev main_v460 : Ref sig .tc := ⟨.hbm, 716, rfl⟩
abbrev main_v461 : Ref sig .tc := ⟨.hbm, 717, rfl⟩
abbrev main_v462 : Ref sig .tc := ⟨.hbm, 718, rfl⟩
abbrev main_v463 : Ref sig .tc := ⟨.hbm, 719, rfl⟩
abbrev main_v464 : Ref sig .tc := ⟨.hbm, 720, rfl⟩
abbrev main_v465 : Ref sig .tc := ⟨.hbm, 721, rfl⟩
abbrev main_v466 : Ref sig .tc := ⟨.hbm, 722, rfl⟩
abbrev main_v467 : Ref sig .tc := ⟨.hbm, 723, rfl⟩
abbrev main_v468 : Ref sig .tc := ⟨.hbm, 724, rfl⟩
abbrev main_cst_142 : Ref sig .tc := ⟨.hbm, 725, rfl⟩
abbrev main_v469 : Ref sig .tc := ⟨.hbm, 726, rfl⟩
abbrev main_v470 : Ref sig .tc := ⟨.hbm, 727, rfl⟩
abbrev main_v471 : Ref sig .tc := ⟨.hbm, 728, rfl⟩
abbrev main_v472 : Ref sig .tc := ⟨.hbm, 729, rfl⟩
abbrev main_v473 : Ref sig .tc := ⟨.hbm, 730, rfl⟩
abbrev main_v474 : Ref sig .tc := ⟨.hbm, 731, rfl⟩
abbrev main_v475 : Ref sig .tc := ⟨.hbm, 732, rfl⟩
abbrev main_v476 : Ref sig .tc := ⟨.hbm, 733, rfl⟩
abbrev main_v477 : Ref sig .tc := ⟨.hbm, 734, rfl⟩
abbrev main_v478 : Ref sig .tc := ⟨.hbm, 735, rfl⟩
abbrev main_cst_143 : Ref sig .tc := ⟨.hbm, 736, rfl⟩
abbrev main_v479 : Ref sig .tc := ⟨.hbm, 737, rfl⟩
abbrev main_v480 : Ref sig .tc := ⟨.hbm, 738, rfl⟩
abbrev main_cst_144 : Ref sig .tc := ⟨.hbm, 739, rfl⟩
abbrev main_v481 : Ref sig .tc := ⟨.hbm, 740, rfl⟩
abbrev main_v482 : Ref sig .tc := ⟨.hbm, 741, rfl⟩
abbrev main_cst_145 : Ref sig .tc := ⟨.hbm, 742, rfl⟩
abbrev main_v483 : Ref sig .tc := ⟨.hbm, 743, rfl⟩
abbrev main_v484 : Ref sig .tc := ⟨.hbm, 744, rfl⟩
abbrev main_cst_146 : Ref sig .tc := ⟨.hbm, 745, rfl⟩
abbrev main_v485 : Ref sig .tc := ⟨.hbm, 746, rfl⟩
abbrev main_v486 : Ref sig .tc := ⟨.hbm, 747, rfl⟩
abbrev main_cst_147 : Ref sig .tc := ⟨.hbm, 748, rfl⟩
abbrev main_v487 : Ref sig .tc := ⟨.hbm, 749, rfl⟩
abbrev main_v488 : Ref sig .tc := ⟨.hbm, 750, rfl⟩
abbrev main_cst_148 : Ref sig .tc := ⟨.hbm, 751, rfl⟩
abbrev main_v489 : Ref sig .tc := ⟨.hbm, 752, rfl⟩
abbrev main_v490 : Ref sig .tc := ⟨.hbm, 753, rfl⟩
abbrev main_v491 : Ref sig .tc := ⟨.hbm, 754, rfl⟩
abbrev main_v492 : Ref sig .tc := ⟨.hbm, 755, rfl⟩
abbrev main_v493 : Ref sig .tc := ⟨.hbm, 756, rfl⟩
abbrev main_v494 : Ref sig .tc := ⟨.hbm, 757, rfl⟩
abbrev main_v495 : Ref sig .tc := ⟨.hbm, 758, rfl⟩
abbrev main_v496 : Ref sig .tc := ⟨.hbm, 759, rfl⟩
abbrev main_v497 : Ref sig .tc := ⟨.hbm, 760, rfl⟩
abbrev main_v498 : Ref sig .tc := ⟨.hbm, 761, rfl⟩
abbrev main_c_149 : Ref sig .tc := ⟨.hbm, 762, rfl⟩
abbrev main_c_150 : Ref sig .tc := ⟨.hbm, 763, rfl⟩
abbrev main_call18_v0 : Ref sig .tc := ⟨.hbm, 764, rfl⟩
abbrev main_call18_v1 : Ref sig .tc := ⟨.hbm, 765, rfl⟩
abbrev main_call18_v2 : Ref sig .tc := ⟨.hbm, 766, rfl⟩
abbrev main_call18_v3 : Ref sig .tc := ⟨.hbm, 767, rfl⟩
abbrev main_call18_v4 : Ref sig .tc := ⟨.hbm, 768, rfl⟩
abbrev main_v499 : Ref sig .tc := ⟨.hbm, 769, rfl⟩
abbrev main_c_151 : Ref sig .tc := ⟨.hbm, 770, rfl⟩
abbrev main_v500 : Ref sig .tc := ⟨.hbm, 771, rfl⟩
abbrev main_v501 : Ref sig .tc := ⟨.hbm, 772, rfl⟩
abbrev main_c_152 : Ref sig .tc := ⟨.hbm, 773, rfl⟩
abbrev main_c_153 : Ref sig .tc := ⟨.hbm, 774, rfl⟩
abbrev main_call19_v0 : Ref sig .tc := ⟨.hbm, 775, rfl⟩
abbrev main_call19_v1 : Ref sig .tc := ⟨.hbm, 776, rfl⟩
abbrev main_call19_v2 : Ref sig .tc := ⟨.hbm, 777, rfl⟩
abbrev main_call19_v3 : Ref sig .tc := ⟨.hbm, 778, rfl⟩
abbrev main_call19_v4 : Ref sig .tc := ⟨.hbm, 779, rfl⟩
abbrev main_v502 : Ref sig .tc := ⟨.hbm, 780, rfl⟩
abbrev main_c_154 : Ref sig .tc := ⟨.hbm, 781, rfl⟩
abbrev main_c_155 : Ref sig .tc := ⟨.hbm, 782, rfl⟩
abbrev main_call20_v0 : Ref sig .tc := ⟨.hbm, 783, rfl⟩
abbrev main_call20_v1 : Ref sig .tc := ⟨.hbm, 784, rfl⟩
abbrev main_call20_v2 : Ref sig .tc := ⟨.hbm, 785, rfl⟩
abbrev main_call20_v3 : Ref sig .tc := ⟨.hbm, 786, rfl⟩
abbrev main_call20_v4 : Ref sig .tc := ⟨.hbm, 787, rfl⟩
abbrev main_v503 : Ref sig .tc := ⟨.hbm, 788, rfl⟩
abbrev main_c_156 : Ref sig .tc := ⟨.hbm, 789, rfl⟩
abbrev main_v504 : Ref sig .tc := ⟨.hbm, 790, rfl⟩
abbrev main_v505 : Ref sig .tc := ⟨.hbm, 791, rfl⟩
abbrev main_c_157 : Ref sig .tc := ⟨.hbm, 792, rfl⟩
abbrev main_c_158 : Ref sig .tc := ⟨.hbm, 793, rfl⟩
abbrev main_call21_v0 : Ref sig .tc := ⟨.hbm, 794, rfl⟩
abbrev main_call21_v1 : Ref sig .tc := ⟨.hbm, 795, rfl⟩
abbrev main_call21_v2 : Ref sig .tc := ⟨.hbm, 796, rfl⟩
abbrev main_call21_v3 : Ref sig .tc := ⟨.hbm, 797, rfl⟩
abbrev main_call21_v4 : Ref sig .tc := ⟨.hbm, 798, rfl⟩
abbrev main_v506 : Ref sig .tc := ⟨.hbm, 799, rfl⟩
abbrev main_c_159 : Ref sig .tc := ⟨.hbm, 800, rfl⟩
abbrev main_v507 : Ref sig .tc := ⟨.hbm, 801, rfl⟩
abbrev main_v508 : Ref sig .tc := ⟨.hbm, 802, rfl⟩
abbrev main_c_160 : Ref sig .tc := ⟨.hbm, 803, rfl⟩
abbrev main_v509 : Ref sig .tc := ⟨.hbm, 804, rfl⟩
abbrev main_v510 : Ref sig .tc := ⟨.hbm, 805, rfl⟩
abbrev main_v511 : Ref sig .tc := ⟨.hbm, 806, rfl⟩
abbrev main_c_161 : Ref sig .tc := ⟨.hbm, 807, rfl⟩
abbrev main_v512 : Ref sig .tc := ⟨.hbm, 808, rfl⟩
abbrev main_v513 : Ref sig .tc := ⟨.hbm, 809, rfl⟩
abbrev main_c_162 : Ref sig .tc := ⟨.hbm, 810, rfl⟩
abbrev main_v514 : Ref sig .tc := ⟨.hbm, 811, rfl⟩
abbrev main_v515 : Ref sig .tc := ⟨.hbm, 812, rfl⟩
abbrev main_v516 : Ref sig .tc := ⟨.hbm, 813, rfl⟩
abbrev main_v517 : Ref sig .tc := ⟨.hbm, 814, rfl⟩
abbrev main_v518 : Ref sig .tc := ⟨.hbm, 815, rfl⟩
abbrev main_v519 : Ref sig .tc := ⟨.hbm, 816, rfl⟩
abbrev main_v520 : Ref sig .tc := ⟨.hbm, 817, rfl⟩
abbrev main_c_163 : Ref sig .tc := ⟨.hbm, 818, rfl⟩
abbrev main_v521 : Ref sig .tc := ⟨.hbm, 819, rfl⟩
abbrev main_v522 : Ref sig .tc := ⟨.hbm, 820, rfl⟩
abbrev main_c_164 : Ref sig .tc := ⟨.hbm, 821, rfl⟩
abbrev main_v523 : Ref sig .tc := ⟨.hbm, 822, rfl⟩
abbrev main_v524 : Ref sig .tc := ⟨.hbm, 823, rfl⟩
abbrev main_v525 : Ref sig .tc := ⟨.hbm, 824, rfl⟩
abbrev main_c_165 : Ref sig .tc := ⟨.hbm, 825, rfl⟩
abbrev main_v526 : Ref sig .tc := ⟨.hbm, 826, rfl⟩
abbrev main_v527 : Ref sig .tc := ⟨.hbm, 827, rfl⟩
abbrev main_c_166 : Ref sig .tc := ⟨.hbm, 828, rfl⟩
abbrev main_v528 : Ref sig .tc := ⟨.hbm, 829, rfl⟩
abbrev main_v529 : Ref sig .tc := ⟨.hbm, 830, rfl⟩
abbrev main_v530 : Ref sig .tc := ⟨.hbm, 831, rfl⟩
abbrev main_v531 : Ref sig .tc := ⟨.hbm, 832, rfl⟩
abbrev main_v532 : Ref sig .tc := ⟨.hbm, 833, rfl⟩
abbrev main_v533 : Ref sig .tc := ⟨.hbm, 834, rfl⟩
abbrev main_v534 : Ref sig .tc := ⟨.hbm, 835, rfl⟩
abbrev main_c_167 : Ref sig .tc := ⟨.hbm, 836, rfl⟩
abbrev main_v535 : Ref sig .tc := ⟨.hbm, 837, rfl⟩
abbrev main_v536 : Ref sig .tc := ⟨.hbm, 838, rfl⟩
abbrev main_c_168 : Ref sig .tc := ⟨.hbm, 839, rfl⟩
abbrev main_v537 : Ref sig .tc := ⟨.hbm, 840, rfl⟩
abbrev main_v538 : Ref sig .tc := ⟨.hbm, 841, rfl⟩
abbrev main_v539 : Ref sig .tc := ⟨.hbm, 842, rfl⟩
abbrev main_c_169 : Ref sig .tc := ⟨.hbm, 843, rfl⟩
abbrev main_v540 : Ref sig .tc := ⟨.hbm, 844, rfl⟩
abbrev main_v541 : Ref sig .tc := ⟨.hbm, 845, rfl⟩
abbrev main_c_170 : Ref sig .tc := ⟨.hbm, 846, rfl⟩
abbrev main_v542 : Ref sig .tc := ⟨.hbm, 847, rfl⟩
abbrev main_v543 : Ref sig .tc := ⟨.hbm, 848, rfl⟩
abbrev main_v544 : Ref sig .tc := ⟨.hbm, 849, rfl⟩
abbrev main_v545 : Ref sig .tc := ⟨.hbm, 850, rfl⟩
abbrev main_v546 : Ref sig .tc := ⟨.hbm, 851, rfl⟩
abbrev main_v547 : Ref sig .tc := ⟨.hbm, 852, rfl⟩
abbrev main_v548 : Ref sig .tc := ⟨.hbm, 853, rfl⟩
abbrev main_c_171 : Ref sig .tc := ⟨.hbm, 854, rfl⟩
abbrev main_v549 : Ref sig .tc := ⟨.hbm, 855, rfl⟩
abbrev main_v550 : Ref sig .tc := ⟨.hbm, 856, rfl⟩
abbrev main_c_172 : Ref sig .tc := ⟨.hbm, 857, rfl⟩
abbrev main_v551 : Ref sig .tc := ⟨.hbm, 858, rfl⟩
abbrev main_v552 : Ref sig .tc := ⟨.hbm, 859, rfl⟩
abbrev main_v553 : Ref sig .tc := ⟨.hbm, 860, rfl⟩
abbrev main_c_173 : Ref sig .tc := ⟨.hbm, 861, rfl⟩
abbrev main_v554 : Ref sig .tc := ⟨.hbm, 862, rfl⟩
abbrev main_v555 : Ref sig .tc := ⟨.hbm, 863, rfl⟩
abbrev main_c_174 : Ref sig .tc := ⟨.hbm, 864, rfl⟩
abbrev main_v556 : Ref sig .tc := ⟨.hbm, 865, rfl⟩
abbrev main_v557 : Ref sig .tc := ⟨.hbm, 866, rfl⟩
abbrev main_v558 : Ref sig .tc := ⟨.hbm, 867, rfl⟩
abbrev main_v559 : Ref sig .tc := ⟨.hbm, 868, rfl⟩
abbrev main_v560 : Ref sig .tc := ⟨.hbm, 869, rfl⟩
abbrev main_v561 : Ref sig .tc := ⟨.hbm, 870, rfl⟩
abbrev main_v562 : Ref sig .tc := ⟨.hbm, 871, rfl⟩
abbrev main_cst_175 : Ref sig .tc := ⟨.hbm, 872, rfl⟩
abbrev main_v563 : Ref sig .tc := ⟨.hbm, 873, rfl⟩
abbrev main_v564 : Ref sig .tc := ⟨.hbm, 874, rfl⟩
abbrev main_v565 : Ref sig .tc := ⟨.hbm, 875, rfl⟩
abbrev main_v566 : Ref sig .tc := ⟨.hbm, 876, rfl⟩
abbrev main_v567 : Ref sig .tc := ⟨.hbm, 877, rfl⟩
abbrev main_v568 : Ref sig .tc := ⟨.hbm, 878, rfl⟩
abbrev main_v569 : Ref sig .tc := ⟨.hbm, 879, rfl⟩
abbrev main_v570 : Ref sig .tc := ⟨.hbm, 880, rfl⟩
abbrev main_v571 : Ref sig .tc := ⟨.hbm, 881, rfl⟩
abbrev main_cst_176 : Ref sig .tc := ⟨.hbm, 882, rfl⟩
abbrev main_v572 : Ref sig .tc := ⟨.hbm, 883, rfl⟩
abbrev main_v573 : Ref sig .tc := ⟨.hbm, 884, rfl⟩
abbrev main_v574 : Ref sig .tc := ⟨.hbm, 885, rfl⟩
abbrev main_v575 : Ref sig .tc := ⟨.hbm, 886, rfl⟩
abbrev main_v576 : Ref sig .tc := ⟨.hbm, 887, rfl⟩
abbrev main_v577 : Ref sig .tc := ⟨.hbm, 888, rfl⟩
abbrev main_v578 : Ref sig .tc := ⟨.hbm, 889, rfl⟩
abbrev main_v579 : Ref sig .tc := ⟨.hbm, 890, rfl⟩
abbrev main_v580 : Ref sig .tc := ⟨.hbm, 891, rfl⟩
abbrev main_cst_177 : Ref sig .tc := ⟨.hbm, 892, rfl⟩
abbrev main_v581 : Ref sig .tc := ⟨.hbm, 893, rfl⟩
abbrev main_v582 : Ref sig .tc := ⟨.hbm, 894, rfl⟩
abbrev main_v583 : Ref sig .tc := ⟨.hbm, 895, rfl⟩
abbrev main_v584 : Ref sig .tc := ⟨.hbm, 896, rfl⟩
abbrev main_v585 : Ref sig .tc := ⟨.hbm, 897, rfl⟩
abbrev main_v586 : Ref sig .tc := ⟨.hbm, 898, rfl⟩
abbrev main_v587 : Ref sig .tc := ⟨.hbm, 899, rfl⟩
abbrev main_v588 : Ref sig .tc := ⟨.hbm, 900, rfl⟩
abbrev main_v589 : Ref sig .tc := ⟨.hbm, 901, rfl⟩
abbrev main_v590 : Ref sig .tc := ⟨.hbm, 902, rfl⟩
abbrev main_cst_178 : Ref sig .tc := ⟨.hbm, 903, rfl⟩
abbrev main_v591 : Ref sig .tc := ⟨.hbm, 904, rfl⟩
abbrev main_v592 : Ref sig .tc := ⟨.hbm, 905, rfl⟩
abbrev main_cst_179 : Ref sig .tc := ⟨.hbm, 906, rfl⟩
abbrev main_v593 : Ref sig .tc := ⟨.hbm, 907, rfl⟩
abbrev main_v594 : Ref sig .tc := ⟨.hbm, 908, rfl⟩
abbrev main_cst_180 : Ref sig .tc := ⟨.hbm, 909, rfl⟩
abbrev main_v595 : Ref sig .tc := ⟨.hbm, 910, rfl⟩
abbrev main_v596 : Ref sig .tc := ⟨.hbm, 911, rfl⟩
abbrev main_cst_181 : Ref sig .tc := ⟨.hbm, 912, rfl⟩
abbrev main_v597 : Ref sig .tc := ⟨.hbm, 913, rfl⟩
abbrev main_v598 : Ref sig .tc := ⟨.hbm, 914, rfl⟩
abbrev main_cst_182 : Ref sig .tc := ⟨.hbm, 915, rfl⟩
abbrev main_v599 : Ref sig .tc := ⟨.hbm, 916, rfl⟩
abbrev main_v600 : Ref sig .tc := ⟨.hbm, 917, rfl⟩
abbrev main_cst_183 : Ref sig .tc := ⟨.hbm, 918, rfl⟩
abbrev main_v601 : Ref sig .tc := ⟨.hbm, 919, rfl⟩
abbrev main_v602 : Ref sig .tc := ⟨.hbm, 920, rfl⟩
abbrev main_v603 : Ref sig .tc := ⟨.hbm, 921, rfl⟩
abbrev main_v604 : Ref sig .tc := ⟨.hbm, 922, rfl⟩
abbrev main_v605 : Ref sig .tc := ⟨.hbm, 923, rfl⟩
abbrev main_v606 : Ref sig .tc := ⟨.hbm, 924, rfl⟩
abbrev main_v607 : Ref sig .tc := ⟨.hbm, 925, rfl⟩
abbrev main_v608 : Ref sig .tc := ⟨.hbm, 926, rfl⟩
abbrev main_v609 : Ref sig .tc := ⟨.hbm, 927, rfl⟩
abbrev main_v610 : Ref sig .tc := ⟨.hbm, 928, rfl⟩
abbrev main_c_184 : Ref sig .tc := ⟨.hbm, 929, rfl⟩
abbrev main_c_185 : Ref sig .tc := ⟨.hbm, 930, rfl⟩
abbrev main_call22_v0 : Ref sig .tc := ⟨.hbm, 931, rfl⟩
abbrev main_call22_v1 : Ref sig .tc := ⟨.hbm, 932, rfl⟩
abbrev main_call22_v2 : Ref sig .tc := ⟨.hbm, 933, rfl⟩
abbrev main_call22_v3 : Ref sig .tc := ⟨.hbm, 934, rfl⟩
abbrev main_call22_v4 : Ref sig .tc := ⟨.hbm, 935, rfl⟩
abbrev main_v611 : Ref sig .tc := ⟨.hbm, 936, rfl⟩
abbrev main_c_186 : Ref sig .tc := ⟨.hbm, 937, rfl⟩
abbrev main_v612 : Ref sig .tc := ⟨.hbm, 938, rfl⟩
abbrev main_v613 : Ref sig .tc := ⟨.hbm, 939, rfl⟩
abbrev main_c_187 : Ref sig .tc := ⟨.hbm, 940, rfl⟩
abbrev main_c_188 : Ref sig .tc := ⟨.hbm, 941, rfl⟩
abbrev main_call23_v0 : Ref sig .tc := ⟨.hbm, 942, rfl⟩
abbrev main_call23_v1 : Ref sig .tc := ⟨.hbm, 943, rfl⟩
abbrev main_call23_v2 : Ref sig .tc := ⟨.hbm, 944, rfl⟩
abbrev main_call23_v3 : Ref sig .tc := ⟨.hbm, 945, rfl⟩
abbrev main_call23_v4 : Ref sig .tc := ⟨.hbm, 946, rfl⟩
abbrev main_v614 : Ref sig .tc := ⟨.hbm, 947, rfl⟩
abbrev main_c_189 : Ref sig .tc := ⟨.hbm, 948, rfl⟩
abbrev main_c_190 : Ref sig .tc := ⟨.hbm, 949, rfl⟩
abbrev main_call24_v0 : Ref sig .tc := ⟨.hbm, 950, rfl⟩
abbrev main_call24_v1 : Ref sig .tc := ⟨.hbm, 951, rfl⟩
abbrev main_call24_v2 : Ref sig .tc := ⟨.hbm, 952, rfl⟩
abbrev main_call24_v3 : Ref sig .tc := ⟨.hbm, 953, rfl⟩
abbrev main_call24_v4 : Ref sig .tc := ⟨.hbm, 954, rfl⟩
abbrev main_v615 : Ref sig .tc := ⟨.hbm, 955, rfl⟩
abbrev main_c_191 : Ref sig .tc := ⟨.hbm, 956, rfl⟩
abbrev main_v616 : Ref sig .tc := ⟨.hbm, 957, rfl⟩
abbrev main_v617 : Ref sig .tc := ⟨.hbm, 958, rfl⟩
abbrev main_c_192 : Ref sig .tc := ⟨.hbm, 959, rfl⟩
abbrev main_c_193 : Ref sig .tc := ⟨.hbm, 960, rfl⟩
abbrev main_call25_v0 : Ref sig .tc := ⟨.hbm, 961, rfl⟩
abbrev main_call25_v1 : Ref sig .tc := ⟨.hbm, 962, rfl⟩
abbrev main_call25_v2 : Ref sig .tc := ⟨.hbm, 963, rfl⟩
abbrev main_call25_v3 : Ref sig .tc := ⟨.hbm, 964, rfl⟩
abbrev main_call25_v4 : Ref sig .tc := ⟨.hbm, 965, rfl⟩
abbrev main_v618 : Ref sig .tc := ⟨.hbm, 966, rfl⟩
abbrev main_c_194 : Ref sig .tc := ⟨.hbm, 967, rfl⟩
abbrev main_v619 : Ref sig .tc := ⟨.hbm, 968, rfl⟩
abbrev main_v620 : Ref sig .tc := ⟨.hbm, 969, rfl⟩
abbrev main_c_195 : Ref sig .tc := ⟨.hbm, 970, rfl⟩
abbrev main_v621 : Ref sig .tc := ⟨.hbm, 971, rfl⟩
abbrev main_v622 : Ref sig .tc := ⟨.hbm, 972, rfl⟩
abbrev main_v623 : Ref sig .tc := ⟨.hbm, 973, rfl⟩
abbrev main_c_196 : Ref sig .tc := ⟨.hbm, 974, rfl⟩
abbrev main_v624 : Ref sig .tc := ⟨.hbm, 975, rfl⟩
abbrev main_v625 : Ref sig .tc := ⟨.hbm, 976, rfl⟩
abbrev main_c_197 : Ref sig .tc := ⟨.hbm, 977, rfl⟩
abbrev main_v626 : Ref sig .tc := ⟨.hbm, 978, rfl⟩
abbrev main_v627 : Ref sig .tc := ⟨.hbm, 979, rfl⟩
abbrev main_v628 : Ref sig .tc := ⟨.hbm, 980, rfl⟩
abbrev main_v629 : Ref sig .tc := ⟨.hbm, 981, rfl⟩
abbrev main_v630 : Ref sig .tc := ⟨.hbm, 982, rfl⟩
abbrev main_v631 : Ref sig .tc := ⟨.hbm, 983, rfl⟩
abbrev main_v632 : Ref sig .tc := ⟨.hbm, 984, rfl⟩
abbrev main_c_198 : Ref sig .tc := ⟨.hbm, 985, rfl⟩
abbrev main_v633 : Ref sig .tc := ⟨.hbm, 986, rfl⟩
abbrev main_v634 : Ref sig .tc := ⟨.hbm, 987, rfl⟩
abbrev main_c_199 : Ref sig .tc := ⟨.hbm, 988, rfl⟩
abbrev main_v635 : Ref sig .tc := ⟨.hbm, 989, rfl⟩
abbrev main_v636 : Ref sig .tc := ⟨.hbm, 990, rfl⟩
abbrev main_v637 : Ref sig .tc := ⟨.hbm, 991, rfl⟩
abbrev main_c_200 : Ref sig .tc := ⟨.hbm, 992, rfl⟩
abbrev main_v638 : Ref sig .tc := ⟨.hbm, 993, rfl⟩
abbrev main_v639 : Ref sig .tc := ⟨.hbm, 994, rfl⟩
abbrev main_c_201 : Ref sig .tc := ⟨.hbm, 995, rfl⟩
abbrev main_v640 : Ref sig .tc := ⟨.hbm, 996, rfl⟩
abbrev main_v641 : Ref sig .tc := ⟨.hbm, 997, rfl⟩
abbrev main_v642 : Ref sig .tc := ⟨.hbm, 998, rfl⟩
abbrev main_v643 : Ref sig .tc := ⟨.hbm, 999, rfl⟩
abbrev main_v644 : Ref sig .tc := ⟨.hbm, 1000, rfl⟩
abbrev main_v645 : Ref sig .tc := ⟨.hbm, 1001, rfl⟩
abbrev main_v646 : Ref sig .tc := ⟨.hbm, 1002, rfl⟩
abbrev main_c_202 : Ref sig .tc := ⟨.hbm, 1003, rfl⟩
abbrev main_v647 : Ref sig .tc := ⟨.hbm, 1004, rfl⟩
abbrev main_v648 : Ref sig .tc := ⟨.hbm, 1005, rfl⟩
abbrev main_c_203 : Ref sig .tc := ⟨.hbm, 1006, rfl⟩
abbrev main_v649 : Ref sig .tc := ⟨.hbm, 1007, rfl⟩
abbrev main_v650 : Ref sig .tc := ⟨.hbm, 1008, rfl⟩
abbrev main_v651 : Ref sig .tc := ⟨.hbm, 1009, rfl⟩
abbrev main_c_204 : Ref sig .tc := ⟨.hbm, 1010, rfl⟩
abbrev main_v652 : Ref sig .tc := ⟨.hbm, 1011, rfl⟩
abbrev main_v653 : Ref sig .tc := ⟨.hbm, 1012, rfl⟩
abbrev main_c_205 : Ref sig .tc := ⟨.hbm, 1013, rfl⟩
abbrev main_v654 : Ref sig .tc := ⟨.hbm, 1014, rfl⟩
abbrev main_v655 : Ref sig .tc := ⟨.hbm, 1015, rfl⟩
abbrev main_v656 : Ref sig .tc := ⟨.hbm, 1016, rfl⟩
abbrev main_v657 : Ref sig .tc := ⟨.hbm, 1017, rfl⟩
abbrev main_v658 : Ref sig .tc := ⟨.hbm, 1018, rfl⟩
abbrev main_v659 : Ref sig .tc := ⟨.hbm, 1019, rfl⟩
abbrev main_v660 : Ref sig .tc := ⟨.hbm, 1020, rfl⟩
abbrev main_c_206 : Ref sig .tc := ⟨.hbm, 1021, rfl⟩
abbrev main_v661 : Ref sig .tc := ⟨.hbm, 1022, rfl⟩
abbrev main_v662 : Ref sig .tc := ⟨.hbm, 1023, rfl⟩
abbrev main_c_207 : Ref sig .tc := ⟨.hbm, 1024, rfl⟩
abbrev main_v663 : Ref sig .tc := ⟨.hbm, 1025, rfl⟩
abbrev main_v664 : Ref sig .tc := ⟨.hbm, 1026, rfl⟩
abbrev main_v665 : Ref sig .tc := ⟨.hbm, 1027, rfl⟩
abbrev main_c_208 : Ref sig .tc := ⟨.hbm, 1028, rfl⟩
abbrev main_v666 : Ref sig .tc := ⟨.hbm, 1029, rfl⟩
abbrev main_v667 : Ref sig .tc := ⟨.hbm, 1030, rfl⟩
abbrev main_c_209 : Ref sig .tc := ⟨.hbm, 1031, rfl⟩
abbrev main_v668 : Ref sig .tc := ⟨.hbm, 1032, rfl⟩
abbrev main_v669 : Ref sig .tc := ⟨.hbm, 1033, rfl⟩
abbrev main_v670 : Ref sig .tc := ⟨.hbm, 1034, rfl⟩
abbrev main_v671 : Ref sig .tc := ⟨.hbm, 1035, rfl⟩
abbrev main_v672 : Ref sig .tc := ⟨.hbm, 1036, rfl⟩
abbrev main_v673 : Ref sig .tc := ⟨.hbm, 1037, rfl⟩
abbrev main_v674 : Ref sig .tc := ⟨.hbm, 1038, rfl⟩
abbrev main_cst_210 : Ref sig .tc := ⟨.hbm, 1039, rfl⟩
abbrev main_v675 : Ref sig .tc := ⟨.hbm, 1040, rfl⟩
abbrev main_v676 : Ref sig .tc := ⟨.hbm, 1041, rfl⟩
abbrev main_v677 : Ref sig .tc := ⟨.hbm, 1042, rfl⟩
abbrev main_v678 : Ref sig .tc := ⟨.hbm, 1043, rfl⟩
abbrev main_v679 : Ref sig .tc := ⟨.hbm, 1044, rfl⟩
abbrev main_v680 : Ref sig .tc := ⟨.hbm, 1045, rfl⟩
abbrev main_v681 : Ref sig .tc := ⟨.hbm, 1046, rfl⟩
abbrev main_v682 : Ref sig .tc := ⟨.hbm, 1047, rfl⟩
abbrev main_v683 : Ref sig .tc := ⟨.hbm, 1048, rfl⟩
abbrev main_cst_211 : Ref sig .tc := ⟨.hbm, 1049, rfl⟩
abbrev main_v684 : Ref sig .tc := ⟨.hbm, 1050, rfl⟩
abbrev main_v685 : Ref sig .tc := ⟨.hbm, 1051, rfl⟩
abbrev main_v686 : Ref sig .tc := ⟨.hbm, 1052, rfl⟩
abbrev main_v687 : Ref sig .tc := ⟨.hbm, 1053, rfl⟩
abbrev main_v688 : Ref sig .tc := ⟨.hbm, 1054, rfl⟩
abbrev main_v689 : Ref sig .tc := ⟨.hbm, 1055, rfl⟩
abbrev main_v690 : Ref sig .tc := ⟨.hbm, 1056, rfl⟩
abbrev main_v691 : Ref sig .tc := ⟨.hbm, 1057, rfl⟩
abbrev main_v692 : Ref sig .tc := ⟨.hbm, 1058, rfl⟩
abbrev main_cst_212 : Ref sig .tc := ⟨.hbm, 1059, rfl⟩
abbrev main_v693 : Ref sig .tc := ⟨.hbm, 1060, rfl⟩
abbrev main_v694 : Ref sig .tc := ⟨.hbm, 1061, rfl⟩
abbrev main_v695 : Ref sig .tc := ⟨.hbm, 1062, rfl⟩
abbrev main_v696 : Ref sig .tc := ⟨.hbm, 1063, rfl⟩
abbrev main_v697 : Ref sig .tc := ⟨.hbm, 1064, rfl⟩
abbrev main_v698 : Ref sig .tc := ⟨.hbm, 1065, rfl⟩
abbrev main_v699 : Ref sig .tc := ⟨.hbm, 1066, rfl⟩
abbrev main_v700 : Ref sig .tc := ⟨.hbm, 1067, rfl⟩
abbrev main_v701 : Ref sig .tc := ⟨.hbm, 1068, rfl⟩
abbrev main_v702 : Ref sig .tc := ⟨.hbm, 1069, rfl⟩
abbrev main_v703 : Ref sig .tc := ⟨.hbm, 1070, rfl⟩
abbrev main_v704 : Ref sig .tc := ⟨.hbm, 1071, rfl⟩
abbrev main_v705 : Ref sig .tc := ⟨.hbm, 1072, rfl⟩
abbrev main_v706 : Ref sig .tc := ⟨.hbm, 1073, rfl⟩
abbrev main_v707 : Ref sig .tc := ⟨.hbm, 1074, rfl⟩
abbrev main_call26_cst : Ref sig .tc := ⟨.hbm, 1075, rfl⟩
abbrev main_call26_v0 : Ref sig .tc := ⟨.hbm, 1076, rfl⟩
abbrev main_v708 : Ref sig .tc := ⟨.hbm, 1077, rfl⟩
abbrev main_v709 : Ref sig .tc := ⟨.hbm, 1078, rfl⟩
abbrev main_v710 : Ref sig .tc := ⟨.hbm, 1079, rfl⟩
abbrev main_v711 : Ref sig .tc := ⟨.hbm, 1080, rfl⟩
abbrev main_v712 : Ref sig .tc := ⟨.hbm, 1081, rfl⟩
abbrev main_call27_cst : Ref sig .tc := ⟨.hbm, 1082, rfl⟩
abbrev main_call27_v0 : Ref sig .tc := ⟨.hbm, 1083, rfl⟩
abbrev main_v713 : Ref sig .tc := ⟨.hbm, 1084, rfl⟩
abbrev main_v714 : Ref sig .tc := ⟨.hbm, 1085, rfl⟩
abbrev main_v715 : Ref sig .tc := ⟨.hbm, 1086, rfl⟩
abbrev main_v716 : Ref sig .tc := ⟨.hbm, 1087, rfl⟩
abbrev main_v717 : Ref sig .tc := ⟨.hbm, 1088, rfl⟩
abbrev main_v718 : Ref sig .tc := ⟨.hbm, 1089, rfl⟩
abbrev main_cst_213 : Ref sig .tc := ⟨.hbm, 1090, rfl⟩
abbrev main_v719 : Ref sig .tc := ⟨.hbm, 1091, rfl⟩
abbrev main_v720 : Ref sig .tc := ⟨.hbm, 1092, rfl⟩
abbrev main_cst_214 : Ref sig .tc := ⟨.hbm, 1093, rfl⟩
abbrev main_v721 : Ref sig .tc := ⟨.hbm, 1094, rfl⟩
abbrev main_v722 : Ref sig .tc := ⟨.hbm, 1095, rfl⟩
abbrev main_cst_215 : Ref sig .tc := ⟨.hbm, 1096, rfl⟩
abbrev main_v723 : Ref sig .tc := ⟨.hbm, 1097, rfl⟩
abbrev main_v724 : Ref sig .tc := ⟨.hbm, 1098, rfl⟩
abbrev main_cst_216 : Ref sig .tc := ⟨.hbm, 1099, rfl⟩
abbrev main_v725 : Ref sig .tc := ⟨.hbm, 1100, rfl⟩
abbrev main_v726 : Ref sig .tc := ⟨.hbm, 1101, rfl⟩
abbrev main_cst_217 : Ref sig .tc := ⟨.hbm, 1102, rfl⟩
abbrev main_v727 : Ref sig .tc := ⟨.hbm, 1103, rfl⟩
abbrev main_v728 : Ref sig .tc := ⟨.hbm, 1104, rfl⟩
abbrev main_cst_218 : Ref sig .tc := ⟨.hbm, 1105, rfl⟩
abbrev main_v729 : Ref sig .tc := ⟨.hbm, 1106, rfl⟩
abbrev main_v730 : Ref sig .tc := ⟨.hbm, 1107, rfl⟩
abbrev main_v731 : Ref sig .tc := ⟨.hbm, 1108, rfl⟩
abbrev main_v732 : Ref sig .tc := ⟨.hbm, 1109, rfl⟩
abbrev main_v733 : Ref sig .tc := ⟨.hbm, 1110, rfl⟩
abbrev main_v734 : Ref sig .tc := ⟨.hbm, 1111, rfl⟩
abbrev main_v735 : Ref sig .tc := ⟨.hbm, 1112, rfl⟩
abbrev main_v736 : Ref sig .tc := ⟨.hbm, 1113, rfl⟩
abbrev main_v737 : Ref sig .tc := ⟨.hbm, 1114, rfl⟩
abbrev main_v738 : Ref sig .tc := ⟨.hbm, 1115, rfl⟩
abbrev main_c_219 : Ref sig .tc := ⟨.hbm, 1116, rfl⟩
abbrev main_c_220 : Ref sig .tc := ⟨.hbm, 1117, rfl⟩
abbrev main_call28_v0 : Ref sig .tc := ⟨.hbm, 1118, rfl⟩
abbrev main_call28_v1 : Ref sig .tc := ⟨.hbm, 1119, rfl⟩
abbrev main_call28_v2 : Ref sig .tc := ⟨.hbm, 1120, rfl⟩
abbrev main_call28_v3 : Ref sig .tc := ⟨.hbm, 1121, rfl⟩
abbrev main_call28_v4 : Ref sig .tc := ⟨.hbm, 1122, rfl⟩
abbrev main_v739 : Ref sig .tc := ⟨.hbm, 1123, rfl⟩
abbrev main_c_221 : Ref sig .tc := ⟨.hbm, 1124, rfl⟩
abbrev main_v740 : Ref sig .tc := ⟨.hbm, 1125, rfl⟩
abbrev main_v741 : Ref sig .tc := ⟨.hbm, 1126, rfl⟩
abbrev main_c_222 : Ref sig .tc := ⟨.hbm, 1127, rfl⟩
abbrev main_c_223 : Ref sig .tc := ⟨.hbm, 1128, rfl⟩
abbrev main_call29_v0 : Ref sig .tc := ⟨.hbm, 1129, rfl⟩
abbrev main_call29_v1 : Ref sig .tc := ⟨.hbm, 1130, rfl⟩
abbrev main_call29_v2 : Ref sig .tc := ⟨.hbm, 1131, rfl⟩
abbrev main_call29_v3 : Ref sig .tc := ⟨.hbm, 1132, rfl⟩
abbrev main_call29_v4 : Ref sig .tc := ⟨.hbm, 1133, rfl⟩
abbrev main_v742 : Ref sig .tc := ⟨.hbm, 1134, rfl⟩
abbrev main_c_224 : Ref sig .tc := ⟨.hbm, 1135, rfl⟩
abbrev main_c_225 : Ref sig .tc := ⟨.hbm, 1136, rfl⟩
abbrev main_call30_v0 : Ref sig .tc := ⟨.hbm, 1137, rfl⟩
abbrev main_call30_v1 : Ref sig .tc := ⟨.hbm, 1138, rfl⟩
abbrev main_call30_v2 : Ref sig .tc := ⟨.hbm, 1139, rfl⟩
abbrev main_call30_v3 : Ref sig .tc := ⟨.hbm, 1140, rfl⟩
abbrev main_call30_v4 : Ref sig .tc := ⟨.hbm, 1141, rfl⟩
abbrev main_v743 : Ref sig .tc := ⟨.hbm, 1142, rfl⟩
abbrev main_c_226 : Ref sig .tc := ⟨.hbm, 1143, rfl⟩
abbrev main_v744 : Ref sig .tc := ⟨.hbm, 1144, rfl⟩
abbrev main_v745 : Ref sig .tc := ⟨.hbm, 1145, rfl⟩
abbrev main_c_227 : Ref sig .tc := ⟨.hbm, 1146, rfl⟩
abbrev main_c_228 : Ref sig .tc := ⟨.hbm, 1147, rfl⟩
abbrev main_call31_v0 : Ref sig .tc := ⟨.hbm, 1148, rfl⟩
abbrev main_call31_v1 : Ref sig .tc := ⟨.hbm, 1149, rfl⟩
abbrev main_call31_v2 : Ref sig .tc := ⟨.hbm, 1150, rfl⟩
abbrev main_call31_v3 : Ref sig .tc := ⟨.hbm, 1151, rfl⟩
abbrev main_call31_v4 : Ref sig .tc := ⟨.hbm, 1152, rfl⟩
abbrev main_v746 : Ref sig .tc := ⟨.hbm, 1153, rfl⟩
abbrev main_c_229 : Ref sig .tc := ⟨.hbm, 1154, rfl⟩
abbrev main_v747 : Ref sig .tc := ⟨.hbm, 1155, rfl⟩
abbrev main_v748 : Ref sig .tc := ⟨.hbm, 1156, rfl⟩
abbrev main_c_230 : Ref sig .tc := ⟨.hbm, 1157, rfl⟩
abbrev main_v749 : Ref sig .tc := ⟨.hbm, 1158, rfl⟩
abbrev main_v750 : Ref sig .tc := ⟨.hbm, 1159, rfl⟩
abbrev main_v751 : Ref sig .tc := ⟨.hbm, 1160, rfl⟩
abbrev main_c_231 : Ref sig .tc := ⟨.hbm, 1161, rfl⟩
abbrev main_v752 : Ref sig .tc := ⟨.hbm, 1162, rfl⟩
abbrev main_v753 : Ref sig .tc := ⟨.hbm, 1163, rfl⟩
abbrev main_c_232 : Ref sig .tc := ⟨.hbm, 1164, rfl⟩
abbrev main_v754 : Ref sig .tc := ⟨.hbm, 1165, rfl⟩
abbrev main_v755 : Ref sig .tc := ⟨.hbm, 1166, rfl⟩
abbrev main_v756 : Ref sig .tc := ⟨.hbm, 1167, rfl⟩
abbrev main_v757 : Ref sig .tc := ⟨.hbm, 1168, rfl⟩
abbrev main_v758 : Ref sig .tc := ⟨.hbm, 1169, rfl⟩
abbrev main_v759 : Ref sig .tc := ⟨.hbm, 1170, rfl⟩
abbrev main_v760 : Ref sig .tc := ⟨.hbm, 1171, rfl⟩
abbrev main_c_233 : Ref sig .tc := ⟨.hbm, 1172, rfl⟩
abbrev main_v761 : Ref sig .tc := ⟨.hbm, 1173, rfl⟩
abbrev main_v762 : Ref sig .tc := ⟨.hbm, 1174, rfl⟩
abbrev main_c_234 : Ref sig .tc := ⟨.hbm, 1175, rfl⟩
abbrev main_v763 : Ref sig .tc := ⟨.hbm, 1176, rfl⟩
abbrev main_v764 : Ref sig .tc := ⟨.hbm, 1177, rfl⟩
abbrev main_v765 : Ref sig .tc := ⟨.hbm, 1178, rfl⟩
abbrev main_c_235 : Ref sig .tc := ⟨.hbm, 1179, rfl⟩
abbrev main_v766 : Ref sig .tc := ⟨.hbm, 1180, rfl⟩
abbrev main_v767 : Ref sig .tc := ⟨.hbm, 1181, rfl⟩
abbrev main_c_236 : Ref sig .tc := ⟨.hbm, 1182, rfl⟩
abbrev main_v768 : Ref sig .tc := ⟨.hbm, 1183, rfl⟩
abbrev main_v769 : Ref sig .tc := ⟨.hbm, 1184, rfl⟩
abbrev main_v770 : Ref sig .tc := ⟨.hbm, 1185, rfl⟩
abbrev main_v771 : Ref sig .tc := ⟨.hbm, 1186, rfl⟩
abbrev main_v772 : Ref sig .tc := ⟨.hbm, 1187, rfl⟩
abbrev main_v773 : Ref sig .tc := ⟨.hbm, 1188, rfl⟩
abbrev main_v774 : Ref sig .tc := ⟨.hbm, 1189, rfl⟩
abbrev main_c_237 : Ref sig .tc := ⟨.hbm, 1190, rfl⟩
abbrev main_v775 : Ref sig .tc := ⟨.hbm, 1191, rfl⟩
abbrev main_v776 : Ref sig .tc := ⟨.hbm, 1192, rfl⟩
abbrev main_c_238 : Ref sig .tc := ⟨.hbm, 1193, rfl⟩
abbrev main_v777 : Ref sig .tc := ⟨.hbm, 1194, rfl⟩
abbrev main_v778 : Ref sig .tc := ⟨.hbm, 1195, rfl⟩
abbrev main_v779 : Ref sig .tc := ⟨.hbm, 1196, rfl⟩
abbrev main_c_239 : Ref sig .tc := ⟨.hbm, 1197, rfl⟩
abbrev main_v780 : Ref sig .tc := ⟨.hbm, 1198, rfl⟩
abbrev main_v781 : Ref sig .tc := ⟨.hbm, 1199, rfl⟩
abbrev main_c_240 : Ref sig .tc := ⟨.hbm, 1200, rfl⟩
abbrev main_v782 : Ref sig .tc := ⟨.hbm, 1201, rfl⟩
abbrev main_v783 : Ref sig .tc := ⟨.hbm, 1202, rfl⟩
abbrev main_v784 : Ref sig .tc := ⟨.hbm, 1203, rfl⟩
abbrev main_v785 : Ref sig .tc := ⟨.hbm, 1204, rfl⟩
abbrev main_v786 : Ref sig .tc := ⟨.hbm, 1205, rfl⟩
abbrev main_v787 : Ref sig .tc := ⟨.hbm, 1206, rfl⟩
abbrev main_v788 : Ref sig .tc := ⟨.hbm, 1207, rfl⟩
abbrev main_c_241 : Ref sig .tc := ⟨.hbm, 1208, rfl⟩
abbrev main_v789 : Ref sig .tc := ⟨.hbm, 1209, rfl⟩
abbrev main_v790 : Ref sig .tc := ⟨.hbm, 1210, rfl⟩
abbrev main_c_242 : Ref sig .tc := ⟨.hbm, 1211, rfl⟩
abbrev main_v791 : Ref sig .tc := ⟨.hbm, 1212, rfl⟩
abbrev main_v792 : Ref sig .tc := ⟨.hbm, 1213, rfl⟩
abbrev main_v793 : Ref sig .tc := ⟨.hbm, 1214, rfl⟩
abbrev main_c_243 : Ref sig .tc := ⟨.hbm, 1215, rfl⟩
abbrev main_v794 : Ref sig .tc := ⟨.hbm, 1216, rfl⟩
abbrev main_v795 : Ref sig .tc := ⟨.hbm, 1217, rfl⟩
abbrev main_c_244 : Ref sig .tc := ⟨.hbm, 1218, rfl⟩
abbrev main_v796 : Ref sig .tc := ⟨.hbm, 1219, rfl⟩
abbrev main_v797 : Ref sig .tc := ⟨.hbm, 1220, rfl⟩
abbrev main_v798 : Ref sig .tc := ⟨.hbm, 1221, rfl⟩
abbrev main_v799 : Ref sig .tc := ⟨.hbm, 1222, rfl⟩
abbrev main_v800 : Ref sig .tc := ⟨.hbm, 1223, rfl⟩
abbrev main_v801 : Ref sig .tc := ⟨.hbm, 1224, rfl⟩
abbrev main_v802 : Ref sig .tc := ⟨.hbm, 1225, rfl⟩
abbrev main_cst_245 : Ref sig .tc := ⟨.hbm, 1226, rfl⟩
abbrev main_v803 : Ref sig .tc := ⟨.hbm, 1227, rfl⟩
abbrev main_v804 : Ref sig .tc := ⟨.hbm, 1228, rfl⟩
abbrev main_v805 : Ref sig .tc := ⟨.hbm, 1229, rfl⟩
abbrev main_v806 : Ref sig .tc := ⟨.hbm, 1230, rfl⟩
abbrev main_v807 : Ref sig .tc := ⟨.hbm, 1231, rfl⟩
abbrev main_v808 : Ref sig .tc := ⟨.hbm, 1232, rfl⟩
abbrev main_v809 : Ref sig .tc := ⟨.hbm, 1233, rfl⟩
abbrev main_v810 : Ref sig .tc := ⟨.hbm, 1234, rfl⟩
abbrev main_v811 : Ref sig .tc := ⟨.hbm, 1235, rfl⟩
abbrev main_cst_246 : Ref sig .tc := ⟨.hbm, 1236, rfl⟩
abbrev main_v812 : Ref sig .tc := ⟨.hbm, 1237, rfl⟩
abbrev main_v813 : Ref sig .tc := ⟨.hbm, 1238, rfl⟩
abbrev main_v814 : Ref sig .tc := ⟨.hbm, 1239, rfl⟩
abbrev main_v815 : Ref sig .tc := ⟨.hbm, 1240, rfl⟩
abbrev main_v816 : Ref sig .tc := ⟨.hbm, 1241, rfl⟩
abbrev main_v817 : Ref sig .tc := ⟨.hbm, 1242, rfl⟩
abbrev main_v818 : Ref sig .tc := ⟨.hbm, 1243, rfl⟩
abbrev main_v819 : Ref sig .tc := ⟨.hbm, 1244, rfl⟩
abbrev main_v820 : Ref sig .tc := ⟨.hbm, 1245, rfl⟩
abbrev main_cst_247 : Ref sig .tc := ⟨.hbm, 1246, rfl⟩
abbrev main_v821 : Ref sig .tc := ⟨.hbm, 1247, rfl⟩
abbrev main_v822 : Ref sig .tc := ⟨.hbm, 1248, rfl⟩
abbrev main_v823 : Ref sig .tc := ⟨.hbm, 1249, rfl⟩
abbrev main_v824 : Ref sig .tc := ⟨.hbm, 1250, rfl⟩
abbrev main_v825 : Ref sig .tc := ⟨.hbm, 1251, rfl⟩
abbrev main_v826 : Ref sig .tc := ⟨.hbm, 1252, rfl⟩
abbrev main_v827 : Ref sig .tc := ⟨.hbm, 1253, rfl⟩
abbrev main_v828 : Ref sig .tc := ⟨.hbm, 1254, rfl⟩
abbrev main_v829 : Ref sig .tc := ⟨.hbm, 1255, rfl⟩
abbrev main_v830 : Ref sig .tc := ⟨.hbm, 1256, rfl⟩
abbrev main_cst_248 : Ref sig .tc := ⟨.hbm, 1257, rfl⟩
abbrev main_v831 : Ref sig .tc := ⟨.hbm, 1258, rfl⟩
abbrev main_v832 : Ref sig .tc := ⟨.hbm, 1259, rfl⟩
abbrev main_cst_249 : Ref sig .tc := ⟨.hbm, 1260, rfl⟩
abbrev main_v833 : Ref sig .tc := ⟨.hbm, 1261, rfl⟩
abbrev main_v834 : Ref sig .tc := ⟨.hbm, 1262, rfl⟩
abbrev main_cst_250 : Ref sig .tc := ⟨.hbm, 1263, rfl⟩
abbrev main_v835 : Ref sig .tc := ⟨.hbm, 1264, rfl⟩
abbrev main_v836 : Ref sig .tc := ⟨.hbm, 1265, rfl⟩
abbrev main_cst_251 : Ref sig .tc := ⟨.hbm, 1266, rfl⟩
abbrev main_v837 : Ref sig .tc := ⟨.hbm, 1267, rfl⟩
abbrev main_v838 : Ref sig .tc := ⟨.hbm, 1268, rfl⟩
abbrev main_cst_252 : Ref sig .tc := ⟨.hbm, 1269, rfl⟩
abbrev main_v839 : Ref sig .tc := ⟨.hbm, 1270, rfl⟩
abbrev main_v840 : Ref sig .tc := ⟨.hbm, 1271, rfl⟩
abbrev main_cst_253 : Ref sig .tc := ⟨.hbm, 1272, rfl⟩
abbrev main_v841 : Ref sig .tc := ⟨.hbm, 1273, rfl⟩
abbrev main_v842 : Ref sig .tc := ⟨.hbm, 1274, rfl⟩
abbrev main_v843 : Ref sig .tc := ⟨.hbm, 1275, rfl⟩
abbrev main_v844 : Ref sig .tc := ⟨.hbm, 1276, rfl⟩
abbrev main_v845 : Ref sig .tc := ⟨.hbm, 1277, rfl⟩
abbrev main_v846 : Ref sig .tc := ⟨.hbm, 1278, rfl⟩
abbrev main_v847 : Ref sig .tc := ⟨.hbm, 1279, rfl⟩
abbrev main_v848 : Ref sig .tc := ⟨.hbm, 1280, rfl⟩
abbrev main_v849 : Ref sig .tc := ⟨.hbm, 1281, rfl⟩
abbrev main_v850 : Ref sig .tc := ⟨.hbm, 1282, rfl⟩
abbrev main_c_254 : Ref sig .tc := ⟨.hbm, 1283, rfl⟩
abbrev main_c_255 : Ref sig .tc := ⟨.hbm, 1284, rfl⟩
abbrev main_call32_v0 : Ref sig .tc := ⟨.hbm, 1285, rfl⟩
abbrev main_call32_v1 : Ref sig .tc := ⟨.hbm, 1286, rfl⟩
abbrev main_call32_v2 : Ref sig .tc := ⟨.hbm, 1287, rfl⟩
abbrev main_call32_v3 : Ref sig .tc := ⟨.hbm, 1288, rfl⟩
abbrev main_call32_v4 : Ref sig .tc := ⟨.hbm, 1289, rfl⟩
abbrev main_v851 : Ref sig .tc := ⟨.hbm, 1290, rfl⟩
abbrev main_c_256 : Ref sig .tc := ⟨.hbm, 1291, rfl⟩
abbrev main_v852 : Ref sig .tc := ⟨.hbm, 1292, rfl⟩
abbrev main_v853 : Ref sig .tc := ⟨.hbm, 1293, rfl⟩
abbrev main_c_257 : Ref sig .tc := ⟨.hbm, 1294, rfl⟩
abbrev main_c_258 : Ref sig .tc := ⟨.hbm, 1295, rfl⟩
abbrev main_call33_v0 : Ref sig .tc := ⟨.hbm, 1296, rfl⟩
abbrev main_call33_v1 : Ref sig .tc := ⟨.hbm, 1297, rfl⟩
abbrev main_call33_v2 : Ref sig .tc := ⟨.hbm, 1298, rfl⟩
abbrev main_call33_v3 : Ref sig .tc := ⟨.hbm, 1299, rfl⟩
abbrev main_call33_v4 : Ref sig .tc := ⟨.hbm, 1300, rfl⟩
abbrev main_v854 : Ref sig .tc := ⟨.hbm, 1301, rfl⟩
abbrev main_c_259 : Ref sig .tc := ⟨.hbm, 1302, rfl⟩
abbrev main_c_260 : Ref sig .tc := ⟨.hbm, 1303, rfl⟩
abbrev main_call34_v0 : Ref sig .tc := ⟨.hbm, 1304, rfl⟩
abbrev main_call34_v1 : Ref sig .tc := ⟨.hbm, 1305, rfl⟩
abbrev main_call34_v2 : Ref sig .tc := ⟨.hbm, 1306, rfl⟩
abbrev main_call34_v3 : Ref sig .tc := ⟨.hbm, 1307, rfl⟩
abbrev main_call34_v4 : Ref sig .tc := ⟨.hbm, 1308, rfl⟩
abbrev main_v855 : Ref sig .tc := ⟨.hbm, 1309, rfl⟩
abbrev main_c_261 : Ref sig .tc := ⟨.hbm, 1310, rfl⟩
abbrev main_v856 : Ref sig .tc := ⟨.hbm, 1311, rfl⟩
abbrev main_v857 : Ref sig .tc := ⟨.hbm, 1312, rfl⟩
abbrev main_c_262 : Ref sig .tc := ⟨.hbm, 1313, rfl⟩
abbrev main_c_263 : Ref sig .tc := ⟨.hbm, 1314, rfl⟩
abbrev main_call35_v0 : Ref sig .tc := ⟨.hbm, 1315, rfl⟩
abbrev main_call35_v1 : Ref sig .tc := ⟨.hbm, 1316, rfl⟩
abbrev main_call35_v2 : Ref sig .tc := ⟨.hbm, 1317, rfl⟩
abbrev main_call35_v3 : Ref sig .tc := ⟨.hbm, 1318, rfl⟩
abbrev main_call35_v4 : Ref sig .tc := ⟨.hbm, 1319, rfl⟩
abbrev main_v858 : Ref sig .tc := ⟨.hbm, 1320, rfl⟩
abbrev main_c_264 : Ref sig .tc := ⟨.hbm, 1321, rfl⟩
abbrev main_v859 : Ref sig .tc := ⟨.hbm, 1322, rfl⟩
abbrev main_v860 : Ref sig .tc := ⟨.hbm, 1323, rfl⟩
abbrev main_c_265 : Ref sig .tc := ⟨.hbm, 1324, rfl⟩
abbrev main_v861 : Ref sig .tc := ⟨.hbm, 1325, rfl⟩
abbrev main_v862 : Ref sig .tc := ⟨.hbm, 1326, rfl⟩
abbrev main_v863 : Ref sig .tc := ⟨.hbm, 1327, rfl⟩
abbrev main_c_266 : Ref sig .tc := ⟨.hbm, 1328, rfl⟩
abbrev main_v864 : Ref sig .tc := ⟨.hbm, 1329, rfl⟩
abbrev main_v865 : Ref sig .tc := ⟨.hbm, 1330, rfl⟩
abbrev main_c_267 : Ref sig .tc := ⟨.hbm, 1331, rfl⟩
abbrev main_v866 : Ref sig .tc := ⟨.hbm, 1332, rfl⟩
abbrev main_v867 : Ref sig .tc := ⟨.hbm, 1333, rfl⟩
abbrev main_v868 : Ref sig .tc := ⟨.hbm, 1334, rfl⟩
abbrev main_v869 : Ref sig .tc := ⟨.hbm, 1335, rfl⟩
abbrev main_v870 : Ref sig .tc := ⟨.hbm, 1336, rfl⟩
abbrev main_v871 : Ref sig .tc := ⟨.hbm, 1337, rfl⟩
abbrev main_v872 : Ref sig .tc := ⟨.hbm, 1338, rfl⟩
abbrev main_c_268 : Ref sig .tc := ⟨.hbm, 1339, rfl⟩
abbrev main_v873 : Ref sig .tc := ⟨.hbm, 1340, rfl⟩
abbrev main_v874 : Ref sig .tc := ⟨.hbm, 1341, rfl⟩
abbrev main_c_269 : Ref sig .tc := ⟨.hbm, 1342, rfl⟩
abbrev main_v875 : Ref sig .tc := ⟨.hbm, 1343, rfl⟩
abbrev main_v876 : Ref sig .tc := ⟨.hbm, 1344, rfl⟩
abbrev main_v877 : Ref sig .tc := ⟨.hbm, 1345, rfl⟩
abbrev main_c_270 : Ref sig .tc := ⟨.hbm, 1346, rfl⟩
abbrev main_v878 : Ref sig .tc := ⟨.hbm, 1347, rfl⟩
abbrev main_v879 : Ref sig .tc := ⟨.hbm, 1348, rfl⟩
abbrev main_c_271 : Ref sig .tc := ⟨.hbm, 1349, rfl⟩
abbrev main_v880 : Ref sig .tc := ⟨.hbm, 1350, rfl⟩
abbrev main_v881 : Ref sig .tc := ⟨.hbm, 1351, rfl⟩
abbrev main_v882 : Ref sig .tc := ⟨.hbm, 1352, rfl⟩
abbrev main_v883 : Ref sig .tc := ⟨.hbm, 1353, rfl⟩
abbrev main_v884 : Ref sig .tc := ⟨.hbm, 1354, rfl⟩
abbrev main_v885 : Ref sig .tc := ⟨.hbm, 1355, rfl⟩
abbrev main_v886 : Ref sig .tc := ⟨.hbm, 1356, rfl⟩
abbrev main_c_272 : Ref sig .tc := ⟨.hbm, 1357, rfl⟩
abbrev main_v887 : Ref sig .tc := ⟨.hbm, 1358, rfl⟩
abbrev main_v888 : Ref sig .tc := ⟨.hbm, 1359, rfl⟩
abbrev main_c_273 : Ref sig .tc := ⟨.hbm, 1360, rfl⟩
abbrev main_v889 : Ref sig .tc := ⟨.hbm, 1361, rfl⟩
abbrev main_v890 : Ref sig .tc := ⟨.hbm, 1362, rfl⟩
abbrev main_v891 : Ref sig .tc := ⟨.hbm, 1363, rfl⟩
abbrev main_c_274 : Ref sig .tc := ⟨.hbm, 1364, rfl⟩
abbrev main_v892 : Ref sig .tc := ⟨.hbm, 1365, rfl⟩
abbrev main_v893 : Ref sig .tc := ⟨.hbm, 1366, rfl⟩
abbrev main_c_275 : Ref sig .tc := ⟨.hbm, 1367, rfl⟩
abbrev main_v894 : Ref sig .tc := ⟨.hbm, 1368, rfl⟩
abbrev main_v895 : Ref sig .tc := ⟨.hbm, 1369, rfl⟩
abbrev main_v896 : Ref sig .tc := ⟨.hbm, 1370, rfl⟩
abbrev main_v897 : Ref sig .tc := ⟨.hbm, 1371, rfl⟩
abbrev main_v898 : Ref sig .tc := ⟨.hbm, 1372, rfl⟩
abbrev main_v899 : Ref sig .tc := ⟨.hbm, 1373, rfl⟩
abbrev main_v900 : Ref sig .tc := ⟨.hbm, 1374, rfl⟩
abbrev main_c_276 : Ref sig .tc := ⟨.hbm, 1375, rfl⟩
abbrev main_v901 : Ref sig .tc := ⟨.hbm, 1376, rfl⟩
abbrev main_v902 : Ref sig .tc := ⟨.hbm, 1377, rfl⟩
abbrev main_c_277 : Ref sig .tc := ⟨.hbm, 1378, rfl⟩
abbrev main_v903 : Ref sig .tc := ⟨.hbm, 1379, rfl⟩
abbrev main_v904 : Ref sig .tc := ⟨.hbm, 1380, rfl⟩
abbrev main_v905 : Ref sig .tc := ⟨.hbm, 1381, rfl⟩
abbrev main_c_278 : Ref sig .tc := ⟨.hbm, 1382, rfl⟩
abbrev main_v906 : Ref sig .tc := ⟨.hbm, 1383, rfl⟩
abbrev main_v907 : Ref sig .tc := ⟨.hbm, 1384, rfl⟩
abbrev main_c_279 : Ref sig .tc := ⟨.hbm, 1385, rfl⟩
abbrev main_v908 : Ref sig .tc := ⟨.hbm, 1386, rfl⟩
abbrev main_v909 : Ref sig .tc := ⟨.hbm, 1387, rfl⟩
abbrev main_v910 : Ref sig .tc := ⟨.hbm, 1388, rfl⟩
abbrev main_v911 : Ref sig .tc := ⟨.hbm, 1389, rfl⟩
abbrev main_v912 : Ref sig .tc := ⟨.hbm, 1390, rfl⟩
abbrev main_v913 : Ref sig .tc := ⟨.hbm, 1391, rfl⟩
abbrev main_v914 : Ref sig .tc := ⟨.hbm, 1392, rfl⟩
abbrev main_cst_280 : Ref sig .tc := ⟨.hbm, 1393, rfl⟩
abbrev main_v915 : Ref sig .tc := ⟨.hbm, 1394, rfl⟩
abbrev main_v916 : Ref sig .tc := ⟨.hbm, 1395, rfl⟩
abbrev main_v917 : Ref sig .tc := ⟨.hbm, 1396, rfl⟩
abbrev main_v918 : Ref sig .tc := ⟨.hbm, 1397, rfl⟩
abbrev main_v919 : Ref sig .tc := ⟨.hbm, 1398, rfl⟩
abbrev main_v920 : Ref sig .tc := ⟨.hbm, 1399, rfl⟩
abbrev main_v921 : Ref sig .tc := ⟨.hbm, 1400, rfl⟩
abbrev main_v922 : Ref sig .tc := ⟨.hbm, 1401, rfl⟩
abbrev main_v923 : Ref sig .tc := ⟨.hbm, 1402, rfl⟩
abbrev main_cst_281 : Ref sig .tc := ⟨.hbm, 1403, rfl⟩
abbrev main_v924 : Ref sig .tc := ⟨.hbm, 1404, rfl⟩
abbrev main_v925 : Ref sig .tc := ⟨.hbm, 1405, rfl⟩
abbrev main_v926 : Ref sig .tc := ⟨.hbm, 1406, rfl⟩
abbrev main_v927 : Ref sig .tc := ⟨.hbm, 1407, rfl⟩
abbrev main_v928 : Ref sig .tc := ⟨.hbm, 1408, rfl⟩
abbrev main_v929 : Ref sig .tc := ⟨.hbm, 1409, rfl⟩
abbrev main_v930 : Ref sig .tc := ⟨.hbm, 1410, rfl⟩
abbrev main_v931 : Ref sig .tc := ⟨.hbm, 1411, rfl⟩
abbrev main_v932 : Ref sig .tc := ⟨.hbm, 1412, rfl⟩
abbrev main_cst_282 : Ref sig .tc := ⟨.hbm, 1413, rfl⟩
abbrev main_v933 : Ref sig .tc := ⟨.hbm, 1414, rfl⟩
abbrev main_v934 : Ref sig .tc := ⟨.hbm, 1415, rfl⟩
abbrev main_v935 : Ref sig .tc := ⟨.hbm, 1416, rfl⟩
abbrev main_v936 : Ref sig .tc := ⟨.hbm, 1417, rfl⟩
abbrev main_v937 : Ref sig .tc := ⟨.hbm, 1418, rfl⟩
abbrev main_v938 : Ref sig .tc := ⟨.hbm, 1419, rfl⟩
abbrev main_v939 : Ref sig .tc := ⟨.hbm, 1420, rfl⟩
abbrev main_v940 : Ref sig .tc := ⟨.hbm, 1421, rfl⟩
abbrev main_v941 : Ref sig .tc := ⟨.hbm, 1422, rfl⟩
abbrev main_v942 : Ref sig .tc := ⟨.hbm, 1423, rfl⟩
abbrev main_cst_283 : Ref sig .tc := ⟨.hbm, 1424, rfl⟩
abbrev main_v943 : Ref sig .tc := ⟨.hbm, 1425, rfl⟩
abbrev main_v944 : Ref sig .tc := ⟨.hbm, 1426, rfl⟩
abbrev main_cst_284 : Ref sig .tc := ⟨.hbm, 1427, rfl⟩
abbrev main_v945 : Ref sig .tc := ⟨.hbm, 1428, rfl⟩
abbrev main_v946 : Ref sig .tc := ⟨.hbm, 1429, rfl⟩
abbrev main_cst_285 : Ref sig .tc := ⟨.hbm, 1430, rfl⟩
abbrev main_v947 : Ref sig .tc := ⟨.hbm, 1431, rfl⟩
abbrev main_v948 : Ref sig .tc := ⟨.hbm, 1432, rfl⟩
abbrev main_cst_286 : Ref sig .tc := ⟨.hbm, 1433, rfl⟩
abbrev main_v949 : Ref sig .tc := ⟨.hbm, 1434, rfl⟩
abbrev main_v950 : Ref sig .tc := ⟨.hbm, 1435, rfl⟩
abbrev main_cst_287 : Ref sig .tc := ⟨.hbm, 1436, rfl⟩
abbrev main_v951 : Ref sig .tc := ⟨.hbm, 1437, rfl⟩
abbrev main_v952 : Ref sig .tc := ⟨.hbm, 1438, rfl⟩
abbrev main_cst_288 : Ref sig .tc := ⟨.hbm, 1439, rfl⟩
abbrev main_v953 : Ref sig .tc := ⟨.hbm, 1440, rfl⟩
abbrev main_v954 : Ref sig .tc := ⟨.hbm, 1441, rfl⟩
abbrev main_v955 : Ref sig .tc := ⟨.hbm, 1442, rfl⟩
abbrev main_v956 : Ref sig .tc := ⟨.hbm, 1443, rfl⟩
abbrev main_v957 : Ref sig .tc := ⟨.hbm, 1444, rfl⟩
abbrev main_v958 : Ref sig .tc := ⟨.hbm, 1445, rfl⟩
abbrev main_v959 : Ref sig .tc := ⟨.hbm, 1446, rfl⟩
abbrev main_v960 : Ref sig .tc := ⟨.hbm, 1447, rfl⟩
abbrev main_v961 : Ref sig .tc := ⟨.hbm, 1448, rfl⟩
abbrev main_v962 : Ref sig .tc := ⟨.hbm, 1449, rfl⟩
abbrev main_c_289 : Ref sig .tc := ⟨.hbm, 1450, rfl⟩
abbrev main_c_290 : Ref sig .tc := ⟨.hbm, 1451, rfl⟩
abbrev main_call36_v0 : Ref sig .tc := ⟨.hbm, 1452, rfl⟩
abbrev main_call36_v1 : Ref sig .tc := ⟨.hbm, 1453, rfl⟩
abbrev main_call36_v2 : Ref sig .tc := ⟨.hbm, 1454, rfl⟩
abbrev main_call36_v3 : Ref sig .tc := ⟨.hbm, 1455, rfl⟩
abbrev main_call36_v4 : Ref sig .tc := ⟨.hbm, 1456, rfl⟩
abbrev main_v963 : Ref sig .tc := ⟨.hbm, 1457, rfl⟩
abbrev main_c_291 : Ref sig .tc := ⟨.hbm, 1458, rfl⟩
abbrev main_v964 : Ref sig .tc := ⟨.hbm, 1459, rfl⟩
abbrev main_v965 : Ref sig .tc := ⟨.hbm, 1460, rfl⟩
abbrev main_c_292 : Ref sig .tc := ⟨.hbm, 1461, rfl⟩
abbrev main_c_293 : Ref sig .tc := ⟨.hbm, 1462, rfl⟩
abbrev main_call37_v0 : Ref sig .tc := ⟨.hbm, 1463, rfl⟩
abbrev main_call37_v1 : Ref sig .tc := ⟨.hbm, 1464, rfl⟩
abbrev main_call37_v2 : Ref sig .tc := ⟨.hbm, 1465, rfl⟩
abbrev main_call37_v3 : Ref sig .tc := ⟨.hbm, 1466, rfl⟩
abbrev main_call37_v4 : Ref sig .tc := ⟨.hbm, 1467, rfl⟩
abbrev main_v966 : Ref sig .tc := ⟨.hbm, 1468, rfl⟩
abbrev main_c_294 : Ref sig .tc := ⟨.hbm, 1469, rfl⟩
abbrev main_c_295 : Ref sig .tc := ⟨.hbm, 1470, rfl⟩
abbrev main_call38_v0 : Ref sig .tc := ⟨.hbm, 1471, rfl⟩
abbrev main_call38_v1 : Ref sig .tc := ⟨.hbm, 1472, rfl⟩
abbrev main_call38_v2 : Ref sig .tc := ⟨.hbm, 1473, rfl⟩
abbrev main_call38_v3 : Ref sig .tc := ⟨.hbm, 1474, rfl⟩
abbrev main_call38_v4 : Ref sig .tc := ⟨.hbm, 1475, rfl⟩
abbrev main_v967 : Ref sig .tc := ⟨.hbm, 1476, rfl⟩
abbrev main_c_296 : Ref sig .tc := ⟨.hbm, 1477, rfl⟩
abbrev main_v968 : Ref sig .tc := ⟨.hbm, 1478, rfl⟩
abbrev main_v969 : Ref sig .tc := ⟨.hbm, 1479, rfl⟩
abbrev main_c_297 : Ref sig .tc := ⟨.hbm, 1480, rfl⟩
abbrev main_c_298 : Ref sig .tc := ⟨.hbm, 1481, rfl⟩
abbrev main_call39_v0 : Ref sig .tc := ⟨.hbm, 1482, rfl⟩
abbrev main_call39_v1 : Ref sig .tc := ⟨.hbm, 1483, rfl⟩
abbrev main_call39_v2 : Ref sig .tc := ⟨.hbm, 1484, rfl⟩
abbrev main_call39_v3 : Ref sig .tc := ⟨.hbm, 1485, rfl⟩
abbrev main_call39_v4 : Ref sig .tc := ⟨.hbm, 1486, rfl⟩
abbrev main_v970 : Ref sig .tc := ⟨.hbm, 1487, rfl⟩
abbrev main_c_299 : Ref sig .tc := ⟨.hbm, 1488, rfl⟩
abbrev main_v971 : Ref sig .tc := ⟨.hbm, 1489, rfl⟩
abbrev main_v972 : Ref sig .tc := ⟨.hbm, 1490, rfl⟩
abbrev main_c_300 : Ref sig .tc := ⟨.hbm, 1491, rfl⟩
abbrev main_v973 : Ref sig .tc := ⟨.hbm, 1492, rfl⟩
abbrev main_v974 : Ref sig .tc := ⟨.hbm, 1493, rfl⟩
abbrev main_v975 : Ref sig .tc := ⟨.hbm, 1494, rfl⟩
abbrev main_c_301 : Ref sig .tc := ⟨.hbm, 1495, rfl⟩
abbrev main_v976 : Ref sig .tc := ⟨.hbm, 1496, rfl⟩
abbrev main_v977 : Ref sig .tc := ⟨.hbm, 1497, rfl⟩
abbrev main_c_302 : Ref sig .tc := ⟨.hbm, 1498, rfl⟩
abbrev main_v978 : Ref sig .tc := ⟨.hbm, 1499, rfl⟩
abbrev main_v979 : Ref sig .tc := ⟨.hbm, 1500, rfl⟩
abbrev main_v980 : Ref sig .tc := ⟨.hbm, 1501, rfl⟩
abbrev main_v981 : Ref sig .tc := ⟨.hbm, 1502, rfl⟩
abbrev main_v982 : Ref sig .tc := ⟨.hbm, 1503, rfl⟩
abbrev main_v983 : Ref sig .tc := ⟨.hbm, 1504, rfl⟩
abbrev main_v984 : Ref sig .tc := ⟨.hbm, 1505, rfl⟩
abbrev main_c_303 : Ref sig .tc := ⟨.hbm, 1506, rfl⟩
abbrev main_v985 : Ref sig .tc := ⟨.hbm, 1507, rfl⟩
abbrev main_v986 : Ref sig .tc := ⟨.hbm, 1508, rfl⟩
abbrev main_c_304 : Ref sig .tc := ⟨.hbm, 1509, rfl⟩
abbrev main_v987 : Ref sig .tc := ⟨.hbm, 1510, rfl⟩
abbrev main_v988 : Ref sig .tc := ⟨.hbm, 1511, rfl⟩
abbrev main_v989 : Ref sig .tc := ⟨.hbm, 1512, rfl⟩
abbrev main_c_305 : Ref sig .tc := ⟨.hbm, 1513, rfl⟩
abbrev main_v990 : Ref sig .tc := ⟨.hbm, 1514, rfl⟩
abbrev main_v991 : Ref sig .tc := ⟨.hbm, 1515, rfl⟩
abbrev main_c_306 : Ref sig .tc := ⟨.hbm, 1516, rfl⟩
abbrev main_v992 : Ref sig .tc := ⟨.hbm, 1517, rfl⟩
abbrev main_v993 : Ref sig .tc := ⟨.hbm, 1518, rfl⟩
abbrev main_v994 : Ref sig .tc := ⟨.hbm, 1519, rfl⟩
abbrev main_v995 : Ref sig .tc := ⟨.hbm, 1520, rfl⟩
abbrev main_v996 : Ref sig .tc := ⟨.hbm, 1521, rfl⟩
abbrev main_v997 : Ref sig .tc := ⟨.hbm, 1522, rfl⟩
abbrev main_v998 : Ref sig .tc := ⟨.hbm, 1523, rfl⟩
abbrev main_c_307 : Ref sig .tc := ⟨.hbm, 1524, rfl⟩
abbrev main_v999 : Ref sig .tc := ⟨.hbm, 1525, rfl⟩
abbrev main_v1000 : Ref sig .tc := ⟨.hbm, 1526, rfl⟩
abbrev main_c_308 : Ref sig .tc := ⟨.hbm, 1527, rfl⟩
abbrev main_v1001 : Ref sig .tc := ⟨.hbm, 1528, rfl⟩
abbrev main_v1002 : Ref sig .tc := ⟨.hbm, 1529, rfl⟩
abbrev main_v1003 : Ref sig .tc := ⟨.hbm, 1530, rfl⟩
abbrev main_c_309 : Ref sig .tc := ⟨.hbm, 1531, rfl⟩
abbrev main_v1004 : Ref sig .tc := ⟨.hbm, 1532, rfl⟩
abbrev main_v1005 : Ref sig .tc := ⟨.hbm, 1533, rfl⟩
abbrev main_c_310 : Ref sig .tc := ⟨.hbm, 1534, rfl⟩
abbrev main_v1006 : Ref sig .tc := ⟨.hbm, 1535, rfl⟩
abbrev main_v1007 : Ref sig .tc := ⟨.hbm, 1536, rfl⟩
abbrev main_v1008 : Ref sig .tc := ⟨.hbm, 1537, rfl⟩
abbrev main_v1009 : Ref sig .tc := ⟨.hbm, 1538, rfl⟩
abbrev main_v1010 : Ref sig .tc := ⟨.hbm, 1539, rfl⟩
abbrev main_v1011 : Ref sig .tc := ⟨.hbm, 1540, rfl⟩
abbrev main_v1012 : Ref sig .tc := ⟨.hbm, 1541, rfl⟩
abbrev main_c_311 : Ref sig .tc := ⟨.hbm, 1542, rfl⟩
abbrev main_v1013 : Ref sig .tc := ⟨.hbm, 1543, rfl⟩
abbrev main_v1014 : Ref sig .tc := ⟨.hbm, 1544, rfl⟩
abbrev main_c_312 : Ref sig .tc := ⟨.hbm, 1545, rfl⟩
abbrev main_v1015 : Ref sig .tc := ⟨.hbm, 1546, rfl⟩
abbrev main_v1016 : Ref sig .tc := ⟨.hbm, 1547, rfl⟩
abbrev main_v1017 : Ref sig .tc := ⟨.hbm, 1548, rfl⟩
abbrev main_c_313 : Ref sig .tc := ⟨.hbm, 1549, rfl⟩
abbrev main_v1018 : Ref sig .tc := ⟨.hbm, 1550, rfl⟩
abbrev main_v1019 : Ref sig .tc := ⟨.hbm, 1551, rfl⟩
abbrev main_c_314 : Ref sig .tc := ⟨.hbm, 1552, rfl⟩
abbrev main_v1020 : Ref sig .tc := ⟨.hbm, 1553, rfl⟩
abbrev main_v1021 : Ref sig .tc := ⟨.hbm, 1554, rfl⟩
abbrev main_v1022 : Ref sig .tc := ⟨.hbm, 1555, rfl⟩
abbrev main_v1023 : Ref sig .tc := ⟨.hbm, 1556, rfl⟩
abbrev main_v1024 : Ref sig .tc := ⟨.hbm, 1557, rfl⟩
abbrev main_v1025 : Ref sig .tc := ⟨.hbm, 1558, rfl⟩
abbrev main_v1026 : Ref sig .tc := ⟨.hbm, 1559, rfl⟩
abbrev main_cst_315 : Ref sig .tc := ⟨.hbm, 1560, rfl⟩
abbrev main_v1027 : Ref sig .tc := ⟨.hbm, 1561, rfl⟩
abbrev main_v1028 : Ref sig .tc := ⟨.hbm, 1562, rfl⟩
abbrev main_v1029 : Ref sig .tc := ⟨.hbm, 1563, rfl⟩
abbrev main_v1030 : Ref sig .tc := ⟨.hbm, 1564, rfl⟩
abbrev main_v1031 : Ref sig .tc := ⟨.hbm, 1565, rfl⟩
abbrev main_v1032 : Ref sig .tc := ⟨.hbm, 1566, rfl⟩
abbrev main_v1033 : Ref sig .tc := ⟨.hbm, 1567, rfl⟩
abbrev main_v1034 : Ref sig .tc := ⟨.hbm, 1568, rfl⟩
abbrev main_v1035 : Ref sig .tc := ⟨.hbm, 1569, rfl⟩
abbrev main_cst_316 : Ref sig .tc := ⟨.hbm, 1570, rfl⟩
abbrev main_v1036 : Ref sig .tc := ⟨.hbm, 1571, rfl⟩
abbrev main_v1037 : Ref sig .tc := ⟨.hbm, 1572, rfl⟩
abbrev main_v1038 : Ref sig .tc := ⟨.hbm, 1573, rfl⟩
abbrev main_v1039 : Ref sig .tc := ⟨.hbm, 1574, rfl⟩
abbrev main_v1040 : Ref sig .tc := ⟨.hbm, 1575, rfl⟩
abbrev main_v1041 : Ref sig .tc := ⟨.hbm, 1576, rfl⟩
abbrev main_v1042 : Ref sig .tc := ⟨.hbm, 1577, rfl⟩
abbrev main_v1043 : Ref sig .tc := ⟨.hbm, 1578, rfl⟩
abbrev main_v1044 : Ref sig .tc := ⟨.hbm, 1579, rfl⟩
abbrev main_cst_317 : Ref sig .tc := ⟨.hbm, 1580, rfl⟩
abbrev main_v1045 : Ref sig .tc := ⟨.hbm, 1581, rfl⟩
abbrev main_v1046 : Ref sig .tc := ⟨.hbm, 1582, rfl⟩
abbrev main_v1047 : Ref sig .tc := ⟨.hbm, 1583, rfl⟩
abbrev main_v1048 : Ref sig .tc := ⟨.hbm, 1584, rfl⟩
abbrev main_v1049 : Ref sig .tc := ⟨.hbm, 1585, rfl⟩
abbrev main_v1050 : Ref sig .tc := ⟨.hbm, 1586, rfl⟩
abbrev main_v1051 : Ref sig .tc := ⟨.hbm, 1587, rfl⟩
abbrev main_v1052 : Ref sig .tc := ⟨.hbm, 1588, rfl⟩
abbrev main_v1053 : Ref sig .tc := ⟨.hbm, 1589, rfl⟩
abbrev main_v1054 : Ref sig .tc := ⟨.hbm, 1590, rfl⟩
abbrev main_v1055 : Ref sig .tc := ⟨.hbm, 1591, rfl⟩
abbrev main_v1056 : Ref sig .tc := ⟨.hbm, 1592, rfl⟩
abbrev main_v1057 : Ref sig .tc := ⟨.hbm, 1593, rfl⟩
abbrev main_v1058 : Ref sig .tc := ⟨.hbm, 1594, rfl⟩
abbrev main_v1059 : Ref sig .tc := ⟨.hbm, 1595, rfl⟩
abbrev main_call40_cst : Ref sig .tc := ⟨.hbm, 1596, rfl⟩
abbrev main_call40_v0 : Ref sig .tc := ⟨.hbm, 1597, rfl⟩
abbrev main_v1060 : Ref sig .tc := ⟨.hbm, 1598, rfl⟩
abbrev main_v1061 : Ref sig .tc := ⟨.hbm, 1599, rfl⟩
abbrev main_v1062 : Ref sig .tc := ⟨.hbm, 1600, rfl⟩
abbrev main_v1063 : Ref sig .tc := ⟨.hbm, 1601, rfl⟩
abbrev main_v1064 : Ref sig .tc := ⟨.hbm, 1602, rfl⟩
abbrev main_call41_cst : Ref sig .tc := ⟨.hbm, 1603, rfl⟩
abbrev main_call41_v0 : Ref sig .tc := ⟨.hbm, 1604, rfl⟩
abbrev main_v1065 : Ref sig .tc := ⟨.hbm, 1605, rfl⟩
abbrev main_v1066 : Ref sig .tc := ⟨.hbm, 1606, rfl⟩
abbrev main_v1067 : Ref sig .tc := ⟨.hbm, 1607, rfl⟩
abbrev main_v1068 : Ref sig .tc := ⟨.hbm, 1608, rfl⟩
abbrev main_v1069 : Ref sig .tc := ⟨.hbm, 1609, rfl⟩
abbrev main_v1070 : Ref sig .tc := ⟨.hbm, 1610, rfl⟩
abbrev main_v1071 : Ref sig .tc := ⟨.hbm, 1611, rfl⟩
abbrev main_v1072 : Ref sig .tc := ⟨.hbm, 1612, rfl⟩
abbrev main_v1073 : Ref sig .tc := ⟨.hbm, 1613, rfl⟩
abbrev main_v1074 : Ref sig .tc := ⟨.hbm, 1614, rfl⟩
abbrev main_cst_318 : Ref sig .tc := ⟨.hbm, 1615, rfl⟩
abbrev main_v1075 : Ref sig .tc := ⟨.hbm, 1616, rfl⟩
abbrev main_v1076 : Ref sig .tc := ⟨.hbm, 1617, rfl⟩
abbrev main_cst_319 : Ref sig .tc := ⟨.hbm, 1618, rfl⟩
abbrev main_v1077 : Ref sig .tc := ⟨.hbm, 1619, rfl⟩
abbrev main_v1078 : Ref sig .tc := ⟨.hbm, 1620, rfl⟩
abbrev main_v1079 : Ref sig .tc := ⟨.hbm, 1621, rfl⟩
abbrev main_cst_320 : Ref sig .tc := ⟨.hbm, 1622, rfl⟩
abbrev main_v1080 : Ref sig .tc := ⟨.hbm, 1623, rfl⟩
abbrev main_v1081 : Ref sig .tc := ⟨.hbm, 1624, rfl⟩
abbrev main_v1082 : Ref sig .tc := ⟨.hbm, 1625, rfl⟩

abbrev nD : Nat := 1
abbrev τ : Topo := Topo.v7x

variable {F : FTy → Type} [FloatOps F]

class Facts₀ : Prop where
  bcast_S_S500000x3 : S_.BroadcastsInDim S500000x3 (![] : Fin 0 → Fin S500000x3.rank)
  slices_S500000x3_S500000x1_0_0 : S500000x3.Slices ![0, 0] S500000x1
  shapeCasts_S500000x1_S500000 : S500000x1.ShapeCasts S500000
  slices_S500000x3_S500000x1_0_1 : S500000x3.Slices ![0, 1] S500000x1
  slices_S500000x3_S500000x1_0_2 : S500000x3.Slices ![0, 2] S500000x1
  bcast_S_S500000 : S_.BroadcastsInDim S500000 (![] : Fin 0 → Fin S500000.rank)
  bcast_S500000_S500000x1_0 : S500000.BroadcastsInDim S500000x1 (![0] : Fin 1 → Fin S500000x1.rank)
  concatenates_S500000x1_S500000x1_S500000x2_d1 : Shape.Concatenates [S500000x1, S500000x1] S500000x2 1
  bcast_S500000_S1x500000_1 : S500000.BroadcastsInDim S1x500000 (![1] : Fin 1 → Fin S1x500000.rank)
  bcast_S1x500000_S8x500000_0_1 : S1x500000.BroadcastsInDim S8x500000 (![0, 1] : Fin 2 → Fin S8x500000.rank)
  transposes_S8x500000_S500000x8_1_0 : S8x500000.Transposes [1, 0] S500000x8
  concatenates_S500000x8_S500000x8_S500000x8_S500000x24_d1 : Shape.Concatenates [S500000x8, S500000x8, S500000x8] S500000x24 1
  bcast_S168_S1x168_1 : S168.BroadcastsInDim S1x168 (![1] : Fin 1 → Fin S1x168.rank)
  bcast_S1x168_S500000x168_0_1 : S1x168.BroadcastsInDim S500000x168 (![0, 1] : Fin 2 → Fin S500000x168.rank)
  bcast_S_S500000x168 : S_.BroadcastsInDim S500000x168 (![] : Fin 0 → Fin S500000x168.rank)
  bcast_S35_S1x35_1 : S35.BroadcastsInDim S1x35 (![1] : Fin 1 → Fin S1x35.rank)
  bcast_S1x35_S500000x35_0_1 : S1x35.BroadcastsInDim S500000x35 (![0, 1] : Fin 2 → Fin S500000x35.rank)
  bcast_S_S500000x35 : S_.BroadcastsInDim S500000x35 (![] : Fin 0 → Fin S500000x35.rank)
  slices_S500000x35_S500000x31_0_0 : S500000x35.Slices ![0, 0] S500000x31
  slices_S500000x35_S500000x3_0_31 : S500000x35.Slices ![0, 31] S500000x3
  slices_S500000x35_S500000x1_0_34 : S500000x35.Slices ![0, 34] S500000x1
  bcast_S_S500000x1 : S_.BroadcastsInDim S500000x1 (![] : Fin 0 → Fin S500000x1.rank)
  concatenates_S500000x31_S500000x3_S500000x1_S500000x35_d1 : Shape.Concatenates [S500000x31, S500000x3, S500000x1] S500000x35 1
  gather_S8x128x128_S500000x2_S8x500000_0_12_n_n_12_1_811_wf : GatherDims.WF S8x128x128 S500000x2 S8x500000 [0] [1, 2] [] [1, 2] [] 1 ![8, 1, 1]
  dot_S500000x24_S24x168_S500000x168_1_0_0_1_n_n_wf : DotDims.WF S500000x24 S24x168 S500000x168 [1] [0] [0] [1] [] []
  dot_S500000x168_S168x168_S500000x168_1_0_0_1_n_n_wf : DotDims.WF S500000x168 S168x168 S500000x168 [1] [0] [0] [1] [] []
  dot_S500000x168_S168x35_S500000x35_1_0_0_1_n_n_wf : DotDims.WF S500000x168 S168x35 S500000x35 [1] [0] [0] [1] [] []
  gather_S8x256x256_S500000x2_S8x500000_0_12_n_n_12_1_811_wf : GatherDims.WF S8x256x256 S500000x2 S8x500000 [0] [1, 2] [] [1, 2] [] 1 ![8, 1, 1]
  gather_S8x512x512_S500000x2_S8x500000_0_12_n_n_12_1_811_wf : GatherDims.WF S8x512x512 S500000x2 S8x500000 [0] [1, 2] [] [1, 2] [] 1 ![8, 1, 1]

variable [Facts₀]

def gather_S8x128x128_S500000x2_S8x500000_0_12_n_n_12_1_811 : GatherDims S8x128x128 S500000x2 S8x500000 where
  offsetDims := [0]
  collapsedSliceDims := [1, 2]
  operandBatchingDims := []
  startIndicesBatchingDims := []
  startIndexMap := [1, 2]
  indexVectorDim := 1
  sliceSizes := ![8, 1, 1]
  wf := gather_S8x128x128_S500000x2_S8x500000_0_12_n_n_12_1_811_wf
def dot_S500000x24_S24x168_S500000x168_1_0_0_1_n_n : DotDims S500000x24 S24x168 S500000x168 where
  lhsContracting := [1]
  rhsContracting := [0]
  lhsNonContracting := [0]
  rhsNonContracting := [1]
  lhsBatch := []
  rhsBatch := []
  wf := dot_S500000x24_S24x168_S500000x168_1_0_0_1_n_n_wf
def dot_S500000x168_S168x168_S500000x168_1_0_0_1_n_n : DotDims S500000x168 S168x168 S500000x168 where
  lhsContracting := [1]
  rhsContracting := [0]
  lhsNonContracting := [0]
  rhsNonContracting := [1]
  lhsBatch := []
  rhsBatch := []
  wf := dot_S500000x168_S168x168_S500000x168_1_0_0_1_n_n_wf
def dot_S500000x168_S168x35_S500000x35_1_0_0_1_n_n : DotDims S500000x168 S168x35 S500000x35 where
  lhsContracting := [1]
  rhsContracting := [0]
  lhsNonContracting := [0]
  rhsNonContracting := [1]
  lhsBatch := []
  rhsBatch := []
  wf := dot_S500000x168_S168x35_S500000x35_1_0_0_1_n_n_wf
def gather_S8x256x256_S500000x2_S8x500000_0_12_n_n_12_1_811 : GatherDims S8x256x256 S500000x2 S8x500000 where
  offsetDims := [0]
  collapsedSliceDims := [1, 2]
  operandBatchingDims := []
  startIndicesBatchingDims := []
  startIndexMap := [1, 2]
  indexVectorDim := 1
  sliceSizes := ![8, 1, 1]
  wf := gather_S8x256x256_S500000x2_S8x500000_0_12_n_n_12_1_811_wf
def gather_S8x512x512_S500000x2_S8x500000_0_12_n_n_12_1_811 : GatherDims S8x512x512 S500000x2 S8x500000 where
  offsetDims := [0]
  collapsedSliceDims := [1, 2]
  operandBatchingDims := []
  startIndicesBatchingDims := []
  startIndexMap := [1, 2]
  indexVectorDim := 1
  sliceSizes := ![8, 1, 1]
  wf := gather_S8x512x512_S500000x2_S8x500000_0_12_n_n_12_1_811_wf

class Facts : Prop extends Facts₀ where

variable [Facts]
-- ==== Proof.Kernel.Entry.lean ====
/- The memory a core's TensorCore finds when @main reaches its one pipeline: the fold of the host operations before it
   (the three levels' tri-plane samplings, 73 stretches) over the launch memory, and @main as those stretches followed by the
   region. -/
import proofs.«138882_j46462956208560_1_alg».proof.Proof.Gen.Kernel.Launch
import Idealize.ShloMosaic.Lib.Pipeline.FrameBody

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The host stretches before the region, in order. -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72]

/-- Core `c`'s TensorCore buffers when the region is entered: the host stretches folded over the launch memory. -/
abbrev V (c : Dev nD) (b : Ref sig .tc) : Buf (Elt F) ((c : Thread nD τ).loc b) :=
  StableHlo.after (List.flatten (stretches (F := F))) (fun b => m (c, b)) b

/-- Every stretch touches TensorCore references only. -/
theorem stretches_sub : (stretches (F := F)).Forall fun ops => ops.Forall fun op => op.bufs ⊆ StableHlo.tcRefs τ sig := by
  simp only [stretches, List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub, hostOps0_55_sub, hostOps0_56_sub, hostOps0_57_sub, hostOps0_58_sub, hostOps0_59_sub, hostOps0_60_sub, hostOps0_61_sub, hostOps0_62_sub, hostOps0_63_sub, hostOps0_64_sub, hostOps0_65_sub, hostOps0_66_sub, hostOps0_67_sub, hostOps0_68_sub, hostOps0_69_sub, hostOps0_70_sub, hostOps0_71_sub, hostOps0_72_sub⟩

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps0_51_fresh : (hostOps0_51 : List (HloOp τ sig (Elt F))).Forall fun op => op.fresh = ∅ := by
  simp only [List.Forall]; repeat' constructor
theorem hostOps0_52_fresh : (hostOps0_52 : List (HloOp τ sig (Elt F))).Forall fun op => op.fresh = ∅ := by
  simp only [List.Forall]; repeat' constructor
theorem hostOps0_53_fresh : (hostOps0_53 : List (HloOp τ sig (Elt F))).Forall fun op => op.fresh = ∅ := by
  simp only [List.Forall]; repeat' constructor
theorem hostOps0_54_fresh : (hostOps0_54 : List (HloOp τ sig (Elt F))).Forall fun op => op.fresh = ∅ := by
  simp only [List.Forall]; repeat' constructor
theorem hostOps0_55_fresh : (hostOps0_55 : List (HloOp τ sig (Elt F))).Forall fun op => op.fresh = ∅ := by
  simp only [List.Forall]; repeat' constructor
theorem hostOps0_56_fresh : (hostOps0_56 : List (HloOp τ sig (Elt F))).Forall fun op => op.fresh = ∅ := by
  simp only [List.Forall]; repeat' constructor
theorem hostOps0_57_fresh : (hostOps0_57 : List (HloOp τ sig (Elt F))).Forall fun op => op.fresh = ∅ := by
  simp only [List.Forall]; repeat' constructor
theorem hostOps0_58_fresh : (hostOps0_58 : List (HloOp τ sig (Elt F))).Forall fun op => op.fresh = ∅ := by
  simp only [List.Forall]; repeat' constructor
theorem hostOps0_59_fresh : (hostOps0_59 : List (HloOp τ sig (Elt F))).Forall fun op => op.fresh = ∅ := by
  simp only [List.Forall]; repeat' constructor
theorem hostOps0_60_fresh : (hostOps0_60 : List (HloOp τ sig (Elt F))).Forall fun op => op.fresh = ∅ := by
  simp only [List.Forall]; repeat' constructor
theorem hostOps0_61_fresh : (hostOps0_61 : List (HloOp τ sig (Elt F))).Forall fun op => op.fresh = ∅ := by
  simp only [List.Forall]; repeat' constructor
theorem hostOps0_62_fresh : (hostOps0_62 : List (HloOp τ sig (Elt F))).Forall fun op => op.fresh = ∅ := by
  simp only [List.Forall]; repeat' constructor
theorem hostOps0_63_fresh : (hostOps0_63 : List (HloOp τ sig (Elt F))).Forall fun op => op.fresh = ∅ := by
  simp only [List.Forall]; repeat' constructor
theorem hostOps0_64_fresh : (hostOps0_64 : List (HloOp τ sig (Elt F))).Forall fun op => op.fresh = ∅ := by
  simp only [List.Forall]; repeat' constructor
theorem hostOps0_65_fresh : (hostOps0_65 : List (HloOp τ sig (Elt F))).Forall fun op => op.fresh = ∅ := by
  simp only [List.Forall]; repeat' constructor
theorem hostOps0_66_fresh : (hostOps0_66 : List (HloOp τ sig (Elt F))).Forall fun op => op.fresh = ∅ := by
  simp only [List.Forall]; repeat' constructor
theorem hostOps0_67_fresh : (hostOps0_67 : List (HloOp τ sig (Elt F))).Forall fun op => op.fresh = ∅ := by
  simp only [List.Forall]; repeat' constructor
theorem hostOps0_68_fresh : (hostOps0_68 : List (HloOp τ sig (Elt F))).Forall fun op => op.fresh = ∅ := by
  simp only [List.Forall]; repeat' constructor
theorem hostOps0_69_fresh : (hostOps0_69 : List (HloOp τ sig (Elt F))).Forall fun op => op.fresh = ∅ := by
  simp only [List.Forall]; repeat' constructor
theorem hostOps0_70_fresh : (hostOps0_70 : List (HloOp τ sig (Elt F))).Forall fun op => op.fresh = ∅ := by
  simp only [List.Forall]; repeat' constructor
theorem hostOps0_71_fresh : (hostOps0_71 : List (HloOp τ sig (Elt F))).Forall fun op => op.fresh = ∅ := by
  simp only [List.Forall]; repeat' constructor
theorem hostOps0_72_fresh : (hostOps0_72 : List (HloOp τ sig (Elt F))).Forall fun op => op.fresh = ∅ := by
  simp only [List.Forall]; repeat' constructor

/-- No host operation allocates. -/
theorem stretches_fresh : (stretches (F := F)).Forall fun ops => ops.Forall fun op => op.fresh = ∅ := by
  simp only [stretches, List.Forall]
  exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, hostOps0_50_fresh, hostOps0_51_fresh, hostOps0_52_fresh, hostOps0_53_fresh, hostOps0_54_fresh, hostOps0_55_fresh, hostOps0_56_fresh, hostOps0_57_fresh, hostOps0_58_fresh, hostOps0_59_fresh, hostOps0_60_fresh, hostOps0_61_fresh, hostOps0_62_fresh, hostOps0_63_fresh, hostOps0_64_fresh, hostOps0_65_fresh, hostOps0_66_fresh, hostOps0_67_fresh, hostOps0_68_fresh, hostOps0_69_fresh, hostOps0_70_fresh, hostOps0_71_fresh, hostOps0_72_fresh⟩

/-- @main is the host stretches, then the region entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (stretches (F := F)) stretches_sub stretches_fresh main_chain

end Cert.Kernel.Hand

end
-- ==== Proof.Kernel.Body.lean ====
/- The body of the one pipeline: each input window's block at a grid point, what the single store leaves in the output
   window's buffer as a function of the twenty-one input blocks, the body's triple, and the proof data whose body
   obligation follows from it. -/
import proofs.«138882_j46462956208560_1_alg».proof.Proof.Kernel.Entry
import proofs.«138882_j46462956208560_1_alg».proof.Proof.Gen.Kernel.Skeleton
import proofs.«138882_j46462956208560_1_alg».proof.Proof.Gen.Kernel.Points
import Idealize.ShloMosaic.Lib.Ring
import Idealize.ShloMosaic.Lib.Tactic

-- deciding that a whole rectangle covers a shape with an axis of 10000 recurses once per coordinate of that axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`: the part of its array, as the region finds it, that the window's index map
    selects there. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds its block at every point. Windows 0, 1, 2 move with the point and are fetched at
    each; windows 3 to 20 have a constant index map and are fetched at the first point only: at a later point nothing
    was fetched, the index has not moved, and the buffer still holds the block it was given, which the body leaves in
    place. One statement covers both. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)

/-! ## The body's accesses

Every access is through the whole of its buffer: one rectangle per shape. -/

abbrev r0_0 : Rect S10000x35 := Rect.unit (s := S10000x35) ![0, 0] S10000x35.size inb_S10000x35_S10000x35_0_0
abbrev rx : Rect S10000x24 := Rect.unit (s := S10000x24) ![0, 0] S10000x24.size inb_S10000x24_S10000x24_0_0
abbrev rW1 : Rect S24x168 := Rect.unit (s := S24x168) ![0, 0] S24x168.size inb_S24x168_S24x168_0_0
abbrev rB : Rect S168 := Rect.unit (s := S168) ![0] S168.size inb_S168_S168_0
abbrev rW2 : Rect S168x168 := Rect.unit (s := S168x168) ![0, 0] S168x168.size inb_S168x168_S168x168_0_0
abbrev rW3 : Rect S168x35 := Rect.unit (s := S168x35) ![0, 0] S168x35.size inb_S168x35_S168x35_0_0
abbrev rB3 : Rect S35 := Rect.unit (s := S35) ![0] S35.size inb_S35_S35_0

/-! ## What the body leaves in the output window's buffer -/

/-- The output buffer after the body, from the input blocks: its one store, whose payload is the head applied to the sum
    of the three levels' dense stacks over the three feature blocks, each operand read through its whole rectangle. -/
def out0_21 (x0 : Vec F S10000x24 .f32) (x1 : Vec F S10000x24 .f32) (x2 : Vec F S10000x24 .f32) (v6 : Vec F S24x168 .f32) (v7 : Vec F S168 .f32) (v8 : Vec F S168x168 .f32) (v9 : Vec F S168 .f32) (v10 : Vec F S168x35 .f32) (v11 : Vec F S35 .f32) (v12 : Vec F S24x168 .f32) (v13 : Vec F S168 .f32) (v14 : Vec F S168x168 .f32) (v15 : Vec F S168 .f32) (v16 : Vec F S168x35 .f32) (v17 : Vec F S35 .f32) (v18 : Vec F S24x168 .f32) (v19 : Vec F S168 .f32) (v20 : Vec F S168x168 .f32) (v21 : Vec F S168 .f32) (v22 : Vec F S168x35 .f32) (v23 : Vec F S35 .f32) : Vec F S10000x35 .f32 :=
  View.canon [⟨r0_0, k0_pay1 (View.ld v19 rB) (View.ld v20 rW2) (View.ld v21 rB) (View.ld v22 rW3) (View.ld v23 rB3)
      (k0_pay6 (k0_pay2 (View.ld x0 rx)) (k0_pay3 (View.ld x1 rx)) (View.ld v6 rW1) (View.ld v7 rB) (View.ld v8 rW2) (View.ld v9 rB) (View.ld v10 rW3) (View.ld v11 rB3) (View.ld v12 rW1) (View.ld v13 rB) (View.ld v14 rW2) (View.ld v15 rB) (View.ld v16 rW3) (View.ld v17 rB3) k0_pay5)
      (k0_pay7 (k0_pay4 (View.ld x2 rx)) (View.ld v18 rW1))⟩]

/-- The one store is through the whole buffer, so it covers it. -/
theorem cover0_21 (p0 : Vec F S10000x35 .f32) (y : S10000x35.Idx) :
    ∃ pc ∈ ([⟨r0_0, p0⟩] : List (View.Piece (Elt F) S10000x35 .f32)), y ∈ pc.1.set :=
  View.cover_of_tiled [⟨r0_0, p0⟩] S10000x35.size (by rfl) y

/-! ## The body's triple -/

set_option maxHeartbeats 2000000 in
/-- The body on whole buffers, the twenty-one inputs' holding `x0 … v23` and the output's anything, runs to the
    continuation with the inputs' unchanged and the output's at `out0_21` of them: twenty-one whole loads, a load of the
    output buffer whose value is never used, and one whole store. -/
theorem sound_kernel (c : Dev nD) (E : Set ℕ) (i : grid0.Coords) (arg1 : Memref sig .tc .vmem S10000x24 .f32) (harg1 : arg1.IsWhole) (arg2 : Memref sig .tc .vmem S10000x24 .f32) (harg2 : arg2.IsWhole) (arg3 : Memref sig .tc .vmem S10000x24 .f32) (harg3 : arg3.IsWhole) (arg4 : Memref sig .tc .vmem S24x168 .f32) (harg4 : arg4.IsWhole) (arg5 : Memref sig .tc .vmem S168 .f32) (harg5 : arg5.IsWhole) (arg6 : Memref sig .tc .vmem S168x168 .f32) (harg6 : arg6.IsWhole) (arg7 : Memref sig .tc .vmem S168 .f32) (harg7 : arg7.IsWhole) (arg8 : Memref sig .tc .vmem S168x35 .f32) (harg8 : arg8.IsWhole) (arg9 : Memref sig .tc .vmem S35 .f32) (harg9 : arg9.IsWhole) (arg10 : Memref sig .tc .vmem S24x168 .f32) (harg10 : arg10.IsWhole) (arg11 : Memref sig .tc .vmem S168 .f32) (harg11 : arg11.IsWhole) (arg12 : Memref sig .tc .vmem S168x168 .f32) (harg12 : arg12.IsWhole) (arg13 : Memref sig .tc .vmem S168 .f32) (harg13 : arg13.IsWhole) (arg14 : Memref sig .tc .vmem S168x35 .f32) (harg14 : arg14.IsWhole) (arg15 : Memref sig .tc .vmem S35 .f32) (harg15 : arg15.IsWhole) (arg16 : Memref sig .tc .vmem S24x168 .f32) (harg16 : arg16.IsWhole) (arg17 : Memref sig .tc .vmem S168 .f32) (harg17 : arg17.IsWhole) (arg18 : Memref sig .tc .vmem S168x168 .f32) (harg18 : arg18.IsWhole) (arg19 : Memref sig .tc .vmem S168 .f32) (harg19 : arg19.IsWhole) (arg20 : Memref sig .tc .vmem S168x35 .f32) (harg20 : arg20.IsWhole) (arg21 : Memref sig .tc .vmem S35 .f32) (harg21 : arg21.IsWhole) (arg22 : Memref sig .tc .vmem S10000x35 .f32) (harg22 : arg22.IsWhole)
    (x0 : Vec F S10000x24 .f32) (x1 : Vec F S10000x24 .f32) (x2 : Vec F S10000x24 .f32) (v6 : Vec F S24x168 .f32) (v7 : Vec F S168 .f32) (v8 : Vec F S168x168 .f32) (v9 : Vec F S168 .f32) (v10 : Vec F S168x35 .f32) (v11 : Vec F S35 .f32) (v12 : Vec F S24x168 .f32) (v13 : Vec F S168 .f32) (v14 : Vec F S168x168 .f32) (v15 : Vec F S168 .f32) (v16 : Vec F S168x35 .f32) (v17 : Vec F S35 .f32) (v18 : Vec F S24x168 .f32) (v19 : Vec F S168 .f32) (v20 : Vec F S168x168 .f32) (v21 : Vec F S168 .f32) (v22 : Vec F S168x35 .f32) (v23 : Vec F S35 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare v6
        ∗ owns (c : Thread nD τ) arg5 fullShare v7
        ∗ owns (c : Thread nD τ) arg6 fullShare v8
        ∗ owns (c : Thread nD τ) arg7 fullShare v9
        ∗ owns (c : Thread nD τ) arg8 fullShare v10
        ∗ owns (c : Thread nD τ) arg9 fullShare v11
        ∗ owns (c : Thread nD τ) arg10 fullShare v12
        ∗ owns (c : Thread nD τ) arg11 fullShare v13
        ∗ owns (c : Thread nD τ) arg12 fullShare v14
        ∗ owns (c : Thread nD τ) arg13 fullShare v15
        ∗ owns (c : Thread nD τ) arg14 fullShare v16
        ∗ owns (c : Thread nD τ) arg15 fullShare v17
        ∗ owns (c : Thread nD τ) arg16 fullShare v18
        ∗ owns (c : Thread nD τ) arg17 fullShare v19
        ∗ owns (c : Thread nD τ) arg18 fullShare v20
        ∗ owns (c : Thread nD τ) arg19 fullShare v21
        ∗ owns (c : Thread nD τ) arg20 fullShare v22
        ∗ owns (c : Thread nD τ) arg21 fullShare v23
        ∗ (∃ d, owns (c : Thread nD τ) arg22 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare v6
          ∗ owns (c : Thread nD τ) arg5 fullShare v7
          ∗ owns (c : Thread nD τ) arg6 fullShare v8
          ∗ owns (c : Thread nD τ) arg7 fullShare v9
          ∗ owns (c : Thread nD τ) arg8 fullShare v10
          ∗ owns (c : Thread nD τ) arg9 fullShare v11
          ∗ owns (c : Thread nD τ) arg10 fullShare v12
          ∗ owns (c : Thread nD τ) arg11 fullShare v13
          ∗ owns (c : Thread nD τ) arg12 fullShare v14
          ∗ owns (c : Thread nD τ) arg13 fullShare v15
          ∗ owns (c : Thread nD τ) arg14 fullShare v16
          ∗ owns (c : Thread nD τ) arg15 fullShare v17
          ∗ owns (c : Thread nD τ) arg16 fullShare v18
          ∗ owns (c : Thread nD τ) arg17 fullShare v19
          ∗ owns (c : Thread nD τ) arg18 fullShare v20
          ∗ owns (c : Thread nD τ) arg19 fullShare v21
          ∗ owns (c : Thread nD τ) arg20 fullShare v22
          ∗ owns (c : Thread nD τ) arg21 fullShare v23
          ∗ owns (c : Thread nD τ) arg22 fullShare (out0_21 x0 x1 x2 v6 v7 v8 v9 v10 v11 v12 v13 v14 v15 v16 v17 v18 v19 v20 v21 v22 v23)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__mlp_kernel_eq_skeleton]; unfold cc0__mlp_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  iexists _; isplitr
  swap; · iexact H21
  ipureintro
  try dsimp only
  exact View.read_writes_eq_canon _ _ _ (cover0_21 _)

/-! ## The pipeline's proof data -/

/-- The proof data on core `c`: the arrays as the region finds them; after the body at point `t` each input's buffer at
    its block and the output's at `out0_21` of the input blocks; the invariant that nothing else is touched; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨_ + 22, h⟩ => absurd h (Nat.not_lt.2 (Nat.le_add_left _ _))
  Φ _ := Pipeline.ΦA spec0 c
  q _ := fullShare
  owed _ := 0

/-- The proof data's arrays are the region-entry contents: a projection, so the fold over the host operations is never
    unfolded. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]

/-! Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t))

set_option maxHeartbeats 1000000 in
/-- The body at any point: the inputs' buffers hold their blocks, so the triple applies; the invariant and what is owed
    pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel c Set.univ (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.Kernel.Args.lean ====
/- The argument arrays are as launched when the region is entered: every host operation before it writes one buffer,
   its result's, and no result is an argument array. Hence the frame claim's post from a run to the frame post: an
   argument a window stages is an input, so the array holds its entry contents; any other bypasses the region. -/
import proofs.«138882_j46462956208560_1_alg».proof.Proof.Kernel.Entry

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Whether a reference is one of the 28 argument arrays: they are the first 28 references of HBM. -/
def isArg (r : Ref sig .tc) : Bool :=
  match r.space with
  | .hbm => decide (r.idx.val < 28)
  | _ => false

/-- An operation keeps the arguments: it writes one buffer, and that buffer is no argument array. -/
def KeepsArgs (op : HloOp τ sig (Elt F)) : Prop :=
  ∃ y : Ref sig .tc, op.writes = {Proc.devRef .tc y} ∧ isArg y = false

/-- A line of operations each of which keeps the arguments leaves every argument array as it found it. -/
theorem after_arg (ops : List (HloOp τ sig (Elt F))) (h : ∀ op ∈ ops, KeepsArgs op)
    (W : Valuation τ sig (Elt F)) {r : Ref sig .tc} (hr : isArg r = true) :
    StableHlo.after ops W (Proc.devRef .tc r) = W (Proc.devRef .tc r) :=
  StableHlo.after_of_forall_not_mem ops W fun op hop hb => by
    obtain ⟨y, hw, hy⟩ := h op hop
    rw [hw, Finset.mem_singleton] at hb
    have e : r = y := Proc.devRef_injective _ hb
    rw [e, hy] at hr
    exact Bool.false_ne_true hr

/-! ## Each stretch keeps the arguments -/

theorem hostOps0_keeps : (hostOps0 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem hostOps0_1_keeps : (hostOps0_1 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_2_keeps : (hostOps0_2 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_3_keeps : (hostOps0_3 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_4_keeps : (hostOps0_4 : List (HloOp τ sig (Elt F))).Forall KeepsArgs :=
  ⟨⟨_, rfl, rfl⟩, ⟨_, rfl, rfl⟩⟩
theorem hostOps0_5_keeps : (hostOps0_5 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_6_keeps : (hostOps0_6 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_7_keeps : (hostOps0_7 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_8_keeps : (hostOps0_8 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem hostOps0_9_keeps : (hostOps0_9 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_10_keeps : (hostOps0_10 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_11_keeps : (hostOps0_11 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_12_keeps : (hostOps0_12 : List (HloOp τ sig (Elt F))).Forall KeepsArgs :=
  ⟨⟨_, rfl, rfl⟩, ⟨_, rfl, rfl⟩⟩
theorem hostOps0_13_keeps : (hostOps0_13 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_14_keeps : (hostOps0_14 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_15_keeps : (hostOps0_15 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_16_keeps : (hostOps0_16 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem hostOps0_17_keeps : (hostOps0_17 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_18_keeps : (hostOps0_18 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_19_keeps : (hostOps0_19 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_20_keeps : (hostOps0_20 : List (HloOp τ sig (Elt F))).Forall KeepsArgs :=
  ⟨⟨_, rfl, rfl⟩, ⟨_, rfl, rfl⟩⟩
theorem hostOps0_21_keeps : (hostOps0_21 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_22_keeps : (hostOps0_22 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_23_keeps : (hostOps0_23 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_24_keeps : (hostOps0_24 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem hostOps0_25_keeps : (hostOps0_25 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_26_keeps : (hostOps0_26 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_27_keeps : (hostOps0_27 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_28_keeps : (hostOps0_28 : List (HloOp τ sig (Elt F))).Forall KeepsArgs :=
  ⟨⟨_, rfl, rfl⟩, ⟨_, rfl, rfl⟩⟩
theorem hostOps0_29_keeps : (hostOps0_29 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_30_keeps : (hostOps0_30 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_31_keeps : (hostOps0_31 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_32_keeps : (hostOps0_32 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem hostOps0_33_keeps : (hostOps0_33 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_34_keeps : (hostOps0_34 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_35_keeps : (hostOps0_35 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_36_keeps : (hostOps0_36 : List (HloOp τ sig (Elt F))).Forall KeepsArgs :=
  ⟨⟨_, rfl, rfl⟩, ⟨_, rfl, rfl⟩⟩
theorem hostOps0_37_keeps : (hostOps0_37 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_38_keeps : (hostOps0_38 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_39_keeps : (hostOps0_39 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_40_keeps : (hostOps0_40 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem hostOps0_41_keeps : (hostOps0_41 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_42_keeps : (hostOps0_42 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_43_keeps : (hostOps0_43 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_44_keeps : (hostOps0_44 : List (HloOp τ sig (Elt F))).Forall KeepsArgs :=
  ⟨⟨_, rfl, rfl⟩, ⟨_, rfl, rfl⟩⟩
theorem hostOps0_45_keeps : (hostOps0_45 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_46_keeps : (hostOps0_46 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_47_keeps : (hostOps0_47 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_48_keeps : (hostOps0_48 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem hostOps0_49_keeps : (hostOps0_49 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_50_keeps : (hostOps0_50 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_51_keeps : (hostOps0_51 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_52_keeps : (hostOps0_52 : List (HloOp τ sig (Elt F))).Forall KeepsArgs :=
  ⟨⟨_, rfl, rfl⟩, ⟨_, rfl, rfl⟩⟩
theorem hostOps0_53_keeps : (hostOps0_53 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_54_keeps : (hostOps0_54 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_55_keeps : (hostOps0_55 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_56_keeps : (hostOps0_56 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem hostOps0_57_keeps : (hostOps0_57 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_58_keeps : (hostOps0_58 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_59_keeps : (hostOps0_59 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_60_keeps : (hostOps0_60 : List (HloOp τ sig (Elt F))).Forall KeepsArgs :=
  ⟨⟨_, rfl, rfl⟩, ⟨_, rfl, rfl⟩⟩
theorem hostOps0_61_keeps : (hostOps0_61 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_62_keeps : (hostOps0_62 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_63_keeps : (hostOps0_63 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_64_keeps : (hostOps0_64 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem hostOps0_65_keeps : (hostOps0_65 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_66_keeps : (hostOps0_66 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_67_keeps : (hostOps0_67 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_68_keeps : (hostOps0_68 : List (HloOp τ sig (Elt F))).Forall KeepsArgs :=
  ⟨⟨_, rfl, rfl⟩, ⟨_, rfl, rfl⟩⟩
theorem hostOps0_69_keeps : (hostOps0_69 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_70_keeps : (hostOps0_70 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_71_keeps : (hostOps0_71 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_72_keeps : (hostOps0_72 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩

/-- Every stretch keeps the arguments. -/
theorem stretches_keeps : (stretches (F := F)).Forall fun ops => ops.Forall KeepsArgs :=
  ⟨hostOps0_keeps, hostOps0_1_keeps, hostOps0_2_keeps, hostOps0_3_keeps, hostOps0_4_keeps, hostOps0_5_keeps, hostOps0_6_keeps, hostOps0_7_keeps, hostOps0_8_keeps, hostOps0_9_keeps, hostOps0_10_keeps, hostOps0_11_keeps, hostOps0_12_keeps, hostOps0_13_keeps, hostOps0_14_keeps, hostOps0_15_keeps, hostOps0_16_keeps, hostOps0_17_keeps, hostOps0_18_keeps, hostOps0_19_keeps, hostOps0_20_keeps, hostOps0_21_keeps, hostOps0_22_keeps, hostOps0_23_keeps, hostOps0_24_keeps, hostOps0_25_keeps, hostOps0_26_keeps, hostOps0_27_keeps, hostOps0_28_keeps, hostOps0_29_keeps, hostOps0_30_keeps, hostOps0_31_keeps, hostOps0_32_keeps, hostOps0_33_keeps, hostOps0_34_keeps, hostOps0_35_keeps, hostOps0_36_keeps, hostOps0_37_keeps, hostOps0_38_keeps, hostOps0_39_keeps, hostOps0_40_keeps, hostOps0_41_keeps, hostOps0_42_keeps, hostOps0_43_keeps, hostOps0_44_keeps, hostOps0_45_keeps, hostOps0_46_keeps, hostOps0_47_keeps, hostOps0_48_keeps, hostOps0_49_keeps, hostOps0_50_keeps, hostOps0_51_keeps, hostOps0_52_keeps, hostOps0_53_keeps, hostOps0_54_keeps, hostOps0_55_keeps, hostOps0_56_keeps, hostOps0_57_keeps, hostOps0_58_keeps, hostOps0_59_keeps, hostOps0_60_keeps, hostOps0_61_keeps, hostOps0_62_keeps, hostOps0_63_keeps, hostOps0_64_keeps, hostOps0_65_keeps, hostOps0_66_keeps, hostOps0_67_keeps, hostOps0_68_keeps, hostOps0_69_keeps, hostOps0_70_keeps, hostOps0_71_keeps, hostOps0_72_keeps⟩

/-- So does every operation of their concatenation. -/
theorem flatten_keeps : ∀ op ∈ List.flatten (stretches (F := F)), KeepsArgs op := fun op hop => by
  obtain ⟨l, hl, hop⟩ := List.mem_flatten.mp hop
  exact List.forall_iff_forall_mem.mp (List.forall_iff_forall_mem.mp stretches_keeps l hl) op hop

/-! ## The arguments at the region's entry -/

theorem V_main_arg0 (c : Dev nD) : V m c main_arg0 = m ((c : Thread nD τ).loc main_arg0) :=
  after_arg _ flatten_keeps _ rfl
theorem V_main_arg1 (c : Dev nD) : V m c main_arg1 = m ((c : Thread nD τ).loc main_arg1) :=
  after_arg _ flatten_keeps _ rfl
theorem V_main_arg2 (c : Dev nD) : V m c main_arg2 = m ((c : Thread nD τ).loc main_arg2) :=
  after_arg _ flatten_keeps _ rfl
theorem V_main_arg3 (c : Dev nD) : V m c main_arg3 = m ((c : Thread nD τ).loc main_arg3) :=
  after_arg _ flatten_keeps _ rfl
theorem V_main_arg4 (c : Dev nD) : V m c main_arg4 = m ((c : Thread nD τ).loc main_arg4) :=
  after_arg _ flatten_keeps _ rfl
theorem V_main_arg5 (c : Dev nD) : V m c main_arg5 = m ((c : Thread nD τ).loc main_arg5) :=
  after_arg _ flatten_keeps _ rfl
theorem V_main_arg6 (c : Dev nD) : V m c main_arg6 = m ((c : Thread nD τ).loc main_arg6) :=
  after_arg _ flatten_keeps _ rfl
theorem V_main_arg7 (c : Dev nD) : V m c main_arg7 = m ((c : Thread nD τ).loc main_arg7) :=
  after_arg _ flatten_keeps _ rfl
theorem V_main_arg8 (c : Dev nD) : V m c main_arg8 = m ((c : Thread nD τ).loc main_arg8) :=
  after_arg _ flatten_keeps _ rfl
theorem V_main_arg9 (c : Dev nD) : V m c main_arg9 = m ((c : Thread nD τ).loc main_arg9) :=
  after_arg _ flatten_keeps _ rfl
theorem V_main_arg10 (c : Dev nD) : V m c main_arg10 = m ((c : Thread nD τ).loc main_arg10) :=
  after_arg _ flatten_keeps _ rfl
theorem V_main_arg11 (c : Dev nD) : V m c main_arg11 = m ((c : Thread nD τ).loc main_arg11) :=
  after_arg _ flatten_keeps _ rfl
theorem V_main_arg12 (c : Dev nD) : V m c main_arg12 = m ((c : Thread nD τ).loc main_arg12) :=
  after_arg _ flatten_keeps _ rfl
theorem V_main_arg13 (c : Dev nD) : V m c main_arg13 = m ((c : Thread nD τ).loc main_arg13) :=
  after_arg _ flatten_keeps _ rfl
theorem V_main_arg14 (c : Dev nD) : V m c main_arg14 = m ((c : Thread nD τ).loc main_arg14) :=
  after_arg _ flatten_keeps _ rfl
theorem V_main_arg15 (c : Dev nD) : V m c main_arg15 = m ((c : Thread nD τ).loc main_arg15) :=
  after_arg _ flatten_keeps _ rfl
theorem V_main_arg16 (c : Dev nD) : V m c main_arg16 = m ((c : Thread nD τ).loc main_arg16) :=
  after_arg _ flatten_keeps _ rfl
theorem V_main_arg17 (c : Dev nD) : V m c main_arg17 = m ((c : Thread nD τ).loc main_arg17) :=
  after_arg _ flatten_keeps _ rfl
theorem V_main_arg18 (c : Dev nD) : V m c main_arg18 = m ((c : Thread nD τ).loc main_arg18) :=
  after_arg _ flatten_keeps _ rfl
theorem V_main_arg19 (c : Dev nD) : V m c main_arg19 = m ((c : Thread nD τ).loc main_arg19) :=
  after_arg _ flatten_keeps _ rfl
theorem V_main_arg20 (c : Dev nD) : V m c main_arg20 = m ((c : Thread nD τ).loc main_arg20) :=
  after_arg _ flatten_keeps _ rfl
theorem V_main_arg21 (c : Dev nD) : V m c main_arg21 = m ((c : Thread nD τ).loc main_arg21) :=
  after_arg _ flatten_keeps _ rfl
theorem V_main_arg22 (c : Dev nD) : V m c main_arg22 = m ((c : Thread nD τ).loc main_arg22) :=
  after_arg _ flatten_keeps _ rfl
theorem V_main_arg23 (c : Dev nD) : V m c main_arg23 = m ((c : Thread nD τ).loc main_arg23) :=
  after_arg _ flatten_keeps _ rfl
theorem V_main_arg24 (c : Dev nD) : V m c main_arg24 = m ((c : Thread nD τ).loc main_arg24) :=
  after_arg _ flatten_keeps _ rfl
theorem V_main_arg25 (c : Dev nD) : V m c main_arg25 = m ((c : Thread nD τ).loc main_arg25) :=
  after_arg _ flatten_keeps _ rfl
theorem V_main_arg26 (c : Dev nD) : V m c main_arg26 = m ((c : Thread nD τ).loc main_arg26) :=
  after_arg _ flatten_keeps _ rfl
theorem V_main_arg27 (c : Dev nD) : V m c main_arg27 = m ((c : Thread nD τ).loc main_arg27) :=
  after_arg _ flatten_keeps _ rfl

/-! ## The frame claim's post from the frame run's -/

/-! At the end of a run to the frame post, argument by argument: an argument staged by an input window holds its array's
    entry contents, any other is among the buffers that bypass the region; the entry contents of either are the
    contents at the start. -/

theorem kept_main_arg0 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg0) = m ((c.tc : Thread nD τ).loc main_arg0) :=
  ((h c).2 main_arg0 (Pipeline.mem_restRefs_of main_arg0 (by decide) (by decide))).trans (V_main_arg0 m c)
theorem kept_main_arg1 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg1) = m ((c.tc : Thread nD τ).loc main_arg1) :=
  ((h c).2 main_arg1 (Pipeline.mem_restRefs_of main_arg1 (by decide) (by decide))).trans (V_main_arg1 m c)
theorem kept_main_arg2 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg2) = m ((c.tc : Thread nD τ).loc main_arg2) :=
  ((h c).2 main_arg2 (Pipeline.mem_restRefs_of main_arg2 (by decide) (by decide))).trans (V_main_arg2 m c)
theorem kept_main_arg3 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg3) = m ((c.tc : Thread nD τ).loc main_arg3) :=
  ((h c).2 main_arg3 (Pipeline.mem_restRefs_of main_arg3 (by decide) (by decide))).trans (V_main_arg3 m c)
theorem kept_main_arg4 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg4) = m ((c.tc : Thread nD τ).loc main_arg4) :=
  ((h c).1 3).trans (((dats 0 c).arrAt_in 3 rfl _).trans ((hA c 3).trans (V_main_arg4 m c)))
theorem kept_main_arg5 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg5) = m ((c.tc : Thread nD τ).loc main_arg5) :=
  ((h c).1 4).trans (((dats 0 c).arrAt_in 4 rfl _).trans ((hA c 4).trans (V_main_arg5 m c)))
theorem kept_main_arg6 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg6) = m ((c.tc : Thread nD τ).loc main_arg6) :=
  ((h c).1 5).trans (((dats 0 c).arrAt_in 5 rfl _).trans ((hA c 5).trans (V_main_arg6 m c)))
theorem kept_main_arg7 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg7) = m ((c.tc : Thread nD τ).loc main_arg7) :=
  ((h c).1 6).trans (((dats 0 c).arrAt_in 6 rfl _).trans ((hA c 6).trans (V_main_arg7 m c)))
theorem kept_main_arg8 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg8) = m ((c.tc : Thread nD τ).loc main_arg8) :=
  ((h c).1 7).trans (((dats 0 c).arrAt_in 7 rfl _).trans ((hA c 7).trans (V_main_arg8 m c)))
theorem kept_main_arg9 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg9) = m ((c.tc : Thread nD τ).loc main_arg9) :=
  ((h c).1 8).trans (((dats 0 c).arrAt_in 8 rfl _).trans ((hA c 8).trans (V_main_arg9 m c)))
theorem kept_main_arg10 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg10) = m ((c.tc : Thread nD τ).loc main_arg10) :=
  ((h c).2 main_arg10 (Pipeline.mem_restRefs_of main_arg10 (by decide) (by decide))).trans (V_main_arg10 m c)
theorem kept_main_arg11 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg11) = m ((c.tc : Thread nD τ).loc main_arg11) :=
  ((h c).2 main_arg11 (Pipeline.mem_restRefs_of main_arg11 (by decide) (by decide))).trans (V_main_arg11 m c)
theorem kept_main_arg12 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg12) = m ((c.tc : Thread nD τ).loc main_arg12) :=
  ((h c).2 main_arg12 (Pipeline.mem_restRefs_of main_arg12 (by decide) (by decide))).trans (V_main_arg12 m c)
theorem kept_main_arg13 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg13) = m ((c.tc : Thread nD τ).loc main_arg13) :=
  ((h c).1 9).trans (((dats 0 c).arrAt_in 9 rfl _).trans ((hA c 9).trans (V_main_arg13 m c)))
theorem kept_main_arg14 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg14) = m ((c.tc : Thread nD τ).loc main_arg14) :=
  ((h c).1 10).trans (((dats 0 c).arrAt_in 10 rfl _).trans ((hA c 10).trans (V_main_arg14 m c)))
theorem kept_main_arg15 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg15) = m ((c.tc : Thread nD τ).loc main_arg15) :=
  ((h c).1 11).trans (((dats 0 c).arrAt_in 11 rfl _).trans ((hA c 11).trans (V_main_arg15 m c)))
theorem kept_main_arg16 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg16) = m ((c.tc : Thread nD τ).loc main_arg16) :=
  ((h c).1 12).trans (((dats 0 c).arrAt_in 12 rfl _).trans ((hA c 12).trans (V_main_arg16 m c)))
theorem kept_main_arg17 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg17) = m ((c.tc : Thread nD τ).loc main_arg17) :=
  ((h c).1 13).trans (((dats 0 c).arrAt_in 13 rfl _).trans ((hA c 13).trans (V_main_arg17 m c)))
theorem kept_main_arg18 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg18) = m ((c.tc : Thread nD τ).loc main_arg18) :=
  ((h c).1 14).trans (((dats 0 c).arrAt_in 14 rfl _).trans ((hA c 14).trans (V_main_arg18 m c)))
theorem kept_main_arg19 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg19) = m ((c.tc : Thread nD τ).loc main_arg19) :=
  ((h c).2 main_arg19 (Pipeline.mem_restRefs_of main_arg19 (by decide) (by decide))).trans (V_main_arg19 m c)
theorem kept_main_arg20 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg20) = m ((c.tc : Thread nD τ).loc main_arg20) :=
  ((h c).2 main_arg20 (Pipeline.mem_restRefs_of main_arg20 (by decide) (by decide))).trans (V_main_arg20 m c)
theorem kept_main_arg21 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg21) = m ((c.tc : Thread nD τ).loc main_arg21) :=
  ((h c).2 main_arg21 (Pipeline.mem_restRefs_of main_arg21 (by decide) (by decide))).trans (V_main_arg21 m c)
theorem kept_main_arg22 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg22) = m ((c.tc : Thread nD τ).loc main_arg22) :=
  ((h c).1 15).trans (((dats 0 c).arrAt_in 15 rfl _).trans ((hA c 15).trans (V_main_arg22 m c)))
theorem kept_main_arg23 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg23) = m ((c.tc : Thread nD τ).loc main_arg23) :=
  ((h c).1 16).trans (((dats 0 c).arrAt_in 16 rfl _).trans ((hA c 16).trans (V_main_arg23 m c)))
theorem kept_main_arg24 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg24) = m ((c.tc : Thread nD τ).loc main_arg24) :=
  ((h c).1 17).trans (((dats 0 c).arrAt_in 17 rfl _).trans ((hA c 17).trans (V_main_arg24 m c)))
theorem kept_main_arg25 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg25) = m ((c.tc : Thread nD τ).loc main_arg25) :=
  ((h c).1 18).trans (((dats 0 c).arrAt_in 18 rfl _).trans ((hA c 18).trans (V_main_arg25 m c)))
theorem kept_main_arg26 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg26) = m ((c.tc : Thread nD τ).loc main_arg26) :=
  ((h c).1 19).trans (((dats 0 c).arrAt_in 19 rfl _).trans ((hA c 19).trans (V_main_arg26 m c)))
theorem kept_main_arg27 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg27) = m ((c.tc : Thread nD τ).loc main_arg27) :=
  ((h c).1 20).trans (((dats 0 c).arrAt_in 20 rfl _).trans ((hA c 20).trans (V_main_arg27 m c)))

/-- For any proof data whose arrays are the region-entry contents, a run to the frame post is a run to the frame claim's
    post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c => ⟨kept_main_arg0 m dats hA c r h, kept_main_arg1 m dats hA c r h, kept_main_arg2 m dats hA c r h, kept_main_arg3 m dats hA c r h, kept_main_arg4 m dats hA c r h, kept_main_arg5 m dats hA c r h, kept_main_arg6 m dats hA c r h, kept_main_arg7 m dats hA c r h, kept_main_arg8 m dats hA c r h, kept_main_arg9 m dats hA c r h, kept_main_arg10 m dats hA c r h, kept_main_arg11 m dats hA c r h, kept_main_arg12 m dats hA c r h, kept_main_arg13 m dats hA c r h, kept_main_arg14 m dats hA c r h, kept_main_arg15 m dats hA c r h, kept_main_arg16 m dats hA c r h, kept_main_arg17 m dats hA c r h, kept_main_arg18 m dats hA c r h, kept_main_arg19 m dats hA c r h, kept_main_arg20 m dats hA c r h, kept_main_arg21 m dats hA c r h, kept_main_arg22 m dats hA c r h, kept_main_arg23 m dats hA c r h, kept_main_arg24 m dats hA c r h, kept_main_arg25 m dats hA c r h, kept_main_arg26 m dats hA c r h, kept_main_arg27 m dats hA c r h⟩) h

end Cert.Kernel.Hand

end
-- ==== Proof.Kernel.FrameRun.lean ====
/- The run of the whole program to the pipeline's post, and from it the frame: every argument array ends as launched. -/
import proofs.«138882_j46462956208560_1_alg».proof.Proof.Kernel.Body
import proofs.«138882_j46462956208560_1_alg».proof.Proof.Kernel.Args

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- the implicit arguments of the run theorem are found by unifying its conclusion with this statement, which unfolds
-- plain definitions inside a metavariable's type
set_option backward.isDefEq.respectTransparency.types false in
/-- From any memory with zero counters, for any values: every weakly fair execution of the program on the TensorCores
    terminates, and in every final state each array of the pipeline holds what the proof data compute for it and every
    other unscoped buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame at any `F`: the program runs and its twenty-eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  frame_of m ρ (dats m) (A_eq m) (run_main m ρ)

end Cert.Kernel.Hand

end
-- ==== Proof.KernelIdeal.Entry.lean ====
/- The memory a core's TensorCore finds when @main reaches its one pipeline: the fold of the host operations before it
   (the three levels' tri-plane samplings, 73 stretches) over the launch memory, and @main as those stretches followed by the
   region. -/
import proofs.«138882_j46462956208560_1_alg».proof.Proof.Gen.KernelIdeal.Launch
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- The host stretches before the region, in order. -/
abbrev stretches : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72]

/-- Core `c`'s TensorCore buffers when the region is entered: the host stretches folded over the launch memory. -/
abbrev V (c : Dev nD) (b : Ref sig .tc) : Buf (Elt F) ((c : Thread nD τ).loc b) :=
  StableHlo.after (List.flatten (stretches (F := F))) (fun b => m (c, b)) b

/-- Every stretch touches TensorCore references only. -/
theorem stretches_sub : (stretches (F := F)).Forall fun ops => ops.Forall fun op => op.bufs ⊆ StableHlo.tcRefs τ sig := by
  simp only [stretches, List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub, hostOps0_55_sub, hostOps0_56_sub, hostOps0_57_sub, hostOps0_58_sub, hostOps0_59_sub, hostOps0_60_sub, hostOps0_61_sub, hostOps0_62_sub, hostOps0_63_sub, hostOps0_64_sub, hostOps0_65_sub, hostOps0_66_sub, hostOps0_67_sub, hostOps0_68_sub, hostOps0_69_sub, hostOps0_70_sub, hostOps0_71_sub, hostOps0_72_sub⟩

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps0_51_fresh : (hostOps0_51 : List (HloOp τ sig (Elt F))).Forall fun op => op.fresh = ∅ := by
  simp only [List.Forall]; repeat' constructor
theorem hostOps0_52_fresh : (hostOps0_52 : List (HloOp τ sig (Elt F))).Forall fun op => op.fresh = ∅ := by
  simp only [List.Forall]; repeat' constructor
theorem hostOps0_53_fresh : (hostOps0_53 : List (HloOp τ sig (Elt F))).Forall fun op => op.fresh = ∅ := by
  simp only [List.Forall]; repeat' constructor
theorem hostOps0_54_fresh : (hostOps0_54 : List (HloOp τ sig (Elt F))).Forall fun op => op.fresh = ∅ := by
  simp only [List.Forall]; repeat' constructor
theorem hostOps0_55_fresh : (hostOps0_55 : List (HloOp τ sig (Elt F))).Forall fun op => op.fresh = ∅ := by
  simp only [List.Forall]; repeat' constructor
theorem hostOps0_56_fresh : (hostOps0_56 : List (HloOp τ sig (Elt F))).Forall fun op => op.fresh = ∅ := by
  simp only [List.Forall]; repeat' constructor
theorem hostOps0_57_fresh : (hostOps0_57 : List (HloOp τ sig (Elt F))).Forall fun op => op.fresh = ∅ := by
  simp only [List.Forall]; repeat' constructor
theorem hostOps0_58_fresh : (hostOps0_58 : List (HloOp τ sig (Elt F))).Forall fun op => op.fresh = ∅ := by
  simp only [List.Forall]; repeat' constructor
theorem hostOps0_59_fresh : (hostOps0_59 : List (HloOp τ sig (Elt F))).Forall fun op => op.fresh = ∅ := by
  simp only [List.Forall]; repeat' constructor
theorem hostOps0_60_fresh : (hostOps0_60 : List (HloOp τ sig (Elt F))).Forall fun op => op.fresh = ∅ := by
  simp only [List.Forall]; repeat' constructor
theorem hostOps0_61_fresh : (hostOps0_61 : List (HloOp τ sig (Elt F))).Forall fun op => op.fresh = ∅ := by
  simp only [List.Forall]; repeat' constructor
theorem hostOps0_62_fresh : (hostOps0_62 : List (HloOp τ sig (Elt F))).Forall fun op => op.fresh = ∅ := by
  simp only [List.Forall]; repeat' constructor
theorem hostOps0_63_fresh : (hostOps0_63 : List (HloOp τ sig (Elt F))).Forall fun op => op.fresh = ∅ := by
  simp only [List.Forall]; repeat' constructor
theorem hostOps0_64_fresh : (hostOps0_64 : List (HloOp τ sig (Elt F))).Forall fun op => op.fresh = ∅ := by
  simp only [List.Forall]; repeat' constructor
theorem hostOps0_65_fresh : (hostOps0_65 : List (HloOp τ sig (Elt F))).Forall fun op => op.fresh = ∅ := by
  simp only [List.Forall]; repeat' constructor
theorem hostOps0_66_fresh : (hostOps0_66 : List (HloOp τ sig (Elt F))).Forall fun op => op.fresh = ∅ := by
  simp only [List.Forall]; repeat' constructor
theorem hostOps0_67_fresh : (hostOps0_67 : List (HloOp τ sig (Elt F))).Forall fun op => op.fresh = ∅ := by
  simp only [List.Forall]; repeat' constructor
theorem hostOps0_68_fresh : (hostOps0_68 : List (HloOp τ sig (Elt F))).Forall fun op => op.fresh = ∅ := by
  simp only [List.Forall]; repeat' constructor
theorem hostOps0_69_fresh : (hostOps0_69 : List (HloOp τ sig (Elt F))).Forall fun op => op.fresh = ∅ := by
  simp only [List.Forall]; repeat' constructor
theorem hostOps0_70_fresh : (hostOps0_70 : List (HloOp τ sig (Elt F))).Forall fun op => op.fresh = ∅ := by
  simp only [List.Forall]; repeat' constructor
theorem hostOps0_71_fresh : (hostOps0_71 : List (HloOp τ sig (Elt F))).Forall fun op => op.fresh = ∅ := by
  simp only [List.Forall]; repeat' constructor
theorem hostOps0_72_fresh : (hostOps0_72 : List (HloOp τ sig (Elt F))).Forall fun op => op.fresh = ∅ := by
  simp only [List.Forall]; repeat' constructor

/-- No host operation allocates. -/
theorem stretches_fresh : (stretches (F := F)).Forall fun ops => ops.Forall fun op => op.fresh = ∅ := by
  simp only [stretches, List.Forall]
  exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, hostOps0_50_fresh, hostOps0_51_fresh, hostOps0_52_fresh, hostOps0_53_fresh, hostOps0_54_fresh, hostOps0_55_fresh, hostOps0_56_fresh, hostOps0_57_fresh, hostOps0_58_fresh, hostOps0_59_fresh, hostOps0_60_fresh, hostOps0_61_fresh, hostOps0_62_fresh, hostOps0_63_fresh, hostOps0_64_fresh, hostOps0_65_fresh, hostOps0_66_fresh, hostOps0_67_fresh, hostOps0_68_fresh, hostOps0_69_fresh, hostOps0_70_fresh, hostOps0_71_fresh, hostOps0_72_fresh⟩

/-- @main is the host stretches, then the region entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (stretches (F := F)) stretches_sub stretches_fresh main_chain

end Cert.KernelIdeal.Hand

end
-- ==== Proof.KernelIdeal.Body.lean ====
/- The body of the one pipeline: each input window's block at a grid point, what the single store leaves in the output
   window's buffer as a function of the twenty-one input blocks, the body's triple, and the proof data whose body
   obligation follows from it. -/
import proofs.«138882_j46462956208560_1_alg».proof.Proof.KernelIdeal.Entry
import proofs.«138882_j46462956208560_1_alg».proof.Proof.Gen.KernelIdeal.Skeleton
import proofs.«138882_j46462956208560_1_alg».proof.Proof.Gen.KernelIdeal.Points
import Idealize.ShloMosaic.Lib.Ring
import Idealize.ShloMosaic.Lib.Tactic

-- deciding that a whole rectangle covers a shape with an axis of 10000 recurses once per coordinate of that axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`: the part of its array, as the region finds it, that the window's index map
    selects there. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds its block at every point. Windows 0, 1, 2 move with the point and are fetched at
    each; windows 3 to 20 have a constant index map and are fetched at the first point only: at a later point nothing
    was fetched, the index has not moved, and the buffer still holds the block it was given, which the body leaves in
    place. One statement covers both. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)

/-! ## The body's accesses

Every access is through the whole of its buffer: one rectangle per shape. -/

abbrev r0_0 : Rect S10000x35 := Rect.unit (s := S10000x35) ![0, 0] S10000x35.size inb_S10000x35_S10000x35_0_0
abbrev rx : Rect S10000x24 := Rect.unit (s := S10000x24) ![0, 0] S10000x24.size inb_S10000x24_S10000x24_0_0
abbrev rW1 : Rect S24x168 := Rect.unit (s := S24x168) ![0, 0] S24x168.size inb_S24x168_S24x168_0_0
abbrev rB : Rect S168 := Rect.unit (s := S168) ![0] S168.size inb_S168_S168_0
abbrev rW2 : Rect S168x168 := Rect.unit (s := S168x168) ![0, 0] S168x168.size inb_S168x168_S168x168_0_0
abbrev rW3 : Rect S168x35 := Rect.unit (s := S168x35) ![0, 0] S168x35.size inb_S168x35_S168x35_0_0
abbrev rB3 : Rect S35 := Rect.unit (s := S35) ![0] S35.size inb_S35_S35_0

/-! ## What the body leaves in the output window's buffer -/

/-- The output buffer after the body, from the input blocks: its one store, whose payload is the head applied to the sum
    of the three levels' dense stacks over the three feature blocks, each operand read through its whole rectangle. -/
def out0_21 (x0 : Vec F S10000x24 .f32) (x1 : Vec F S10000x24 .f32) (x2 : Vec F S10000x24 .f32) (v6 : Vec F S24x168 .f32) (v7 : Vec F S168 .f32) (v8 : Vec F S168x168 .f32) (v9 : Vec F S168 .f32) (v10 : Vec F S168x35 .f32) (v11 : Vec F S35 .f32) (v12 : Vec F S24x168 .f32) (v13 : Vec F S168 .f32) (v14 : Vec F S168x168 .f32) (v15 : Vec F S168 .f32) (v16 : Vec F S168x35 .f32) (v17 : Vec F S35 .f32) (v18 : Vec F S24x168 .f32) (v19 : Vec F S168 .f32) (v20 : Vec F S168x168 .f32) (v21 : Vec F S168 .f32) (v22 : Vec F S168x35 .f32) (v23 : Vec F S35 .f32) : Vec F S10000x35 .f32 :=
  View.canon [⟨r0_0, k0_pay1 (View.ld v19 rB) (View.ld v20 rW2) (View.ld v21 rB) (View.ld v22 rW3) (View.ld v23 rB3)
      (k0_pay6 (k0_pay2 (View.ld x0 rx)) (k0_pay3 (View.ld x1 rx)) (View.ld v6 rW1) (View.ld v7 rB) (View.ld v8 rW2) (View.ld v9 rB) (View.ld v10 rW3) (View.ld v11 rB3) (View.ld v12 rW1) (View.ld v13 rB) (View.ld v14 rW2) (View.ld v15 rB) (View.ld v16 rW3) (View.ld v17 rB3) k0_pay5)
      (k0_pay7 (k0_pay4 (View.ld x2 rx)) (View.ld v18 rW1))⟩]

/-- The one store is through the whole buffer, so it covers it. -/
theorem cover0_21 (p0 : Vec F S10000x35 .f32) (y : S10000x35.Idx) :
    ∃ pc ∈ ([⟨r0_0, p0⟩] : List (View.Piece (Elt F) S10000x35 .f32)), y ∈ pc.1.set :=
  View.cover_of_tiled [⟨r0_0, p0⟩] S10000x35.size (by rfl) y

/-! ## The body's triple -/

set_option maxHeartbeats 2000000 in
/-- The body on whole buffers, the twenty-one inputs' holding `x0 … v23` and the output's anything, runs to the
    continuation with the inputs' unchanged and the output's at `out0_21` of them: twenty-one whole loads, a load of the
    output buffer whose value is never used, and one whole store. -/
theorem sound_kernel (c : Dev nD) (E : Set ℕ) (i : grid0.Coords) (arg1 : Memref sig .tc .vmem S10000x24 .f32) (harg1 : arg1.IsWhole) (arg2 : Memref sig .tc .vmem S10000x24 .f32) (harg2 : arg2.IsWhole) (arg3 : Memref sig .tc .vmem S10000x24 .f32) (harg3 : arg3.IsWhole) (arg4 : Memref sig .tc .vmem S24x168 .f32) (harg4 : arg4.IsWhole) (arg5 : Memref sig .tc .vmem S168 .f32) (harg5 : arg5.IsWhole) (arg6 : Memref sig .tc .vmem S168x168 .f32) (harg6 : arg6.IsWhole) (arg7 : Memref sig .tc .vmem S168 .f32) (harg7 : arg7.IsWhole) (arg8 : Memref sig .tc .vmem S168x35 .f32) (harg8 : arg8.IsWhole) (arg9 : Memref sig .tc .vmem S35 .f32) (harg9 : arg9.IsWhole) (arg10 : Memref sig .tc .vmem S24x168 .f32) (harg10 : arg10.IsWhole) (arg11 : Memref sig .tc .vmem S168 .f32) (harg11 : arg11.IsWhole) (arg12 : Memref sig .tc .vmem S168x168 .f32) (harg12 : arg12.IsWhole) (arg13 : Memref sig .tc .vmem S168 .f32) (harg13 : arg13.IsWhole) (arg14 : Memref sig .tc .vmem S168x35 .f32) (harg14 : arg14.IsWhole) (arg15 : Memref sig .tc .vmem S35 .f32) (harg15 : arg15.IsWhole) (arg16 : Memref sig .tc .vmem S24x168 .f32) (harg16 : arg16.IsWhole) (arg17 : Memref sig .tc .vmem S168 .f32) (harg17 : arg17.IsWhole) (arg18 : Memref sig .tc .vmem S168x168 .f32) (harg18 : arg18.IsWhole) (arg19 : Memref sig .tc .vmem S168 .f32) (harg19 : arg19.IsWhole) (arg20 : Memref sig .tc .vmem S168x35 .f32) (harg20 : arg20.IsWhole) (arg21 : Memref sig .tc .vmem S35 .f32) (harg21 : arg21.IsWhole) (arg22 : Memref sig .tc .vmem S10000x35 .f32) (harg22 : arg22.IsWhole)
    (x0 : Vec F S10000x24 .f32) (x1 : Vec F S10000x24 .f32) (x2 : Vec F S10000x24 .f32) (v6 : Vec F S24x168 .f32) (v7 : Vec F S168 .f32) (v8 : Vec F S168x168 .f32) (v9 : Vec F S168 .f32) (v10 : Vec F S168x35 .f32) (v11 : Vec F S35 .f32) (v12 : Vec F S24x168 .f32) (v13 : Vec F S168 .f32) (v14 : Vec F S168x168 .f32) (v15 : Vec F S168 .f32) (v16 : Vec F S168x35 .f32) (v17 : Vec F S35 .f32) (v18 : Vec F S24x168 .f32) (v19 : Vec F S168 .f32) (v20 : Vec F S168x168 .f32) (v21 : Vec F S168 .f32) (v22 : Vec F S168x35 .f32) (v23 : Vec F S35 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare v6
        ∗ owns (c : Thread nD τ) arg5 fullShare v7
        ∗ owns (c : Thread nD τ) arg6 fullShare v8
        ∗ owns (c : Thread nD τ) arg7 fullShare v9
        ∗ owns (c : Thread nD τ) arg8 fullShare v10
        ∗ owns (c : Thread nD τ) arg9 fullShare v11
        ∗ owns (c : Thread nD τ) arg10 fullShare v12
        ∗ owns (c : Thread nD τ) arg11 fullShare v13
        ∗ owns (c : Thread nD τ) arg12 fullShare v14
        ∗ owns (c : Thread nD τ) arg13 fullShare v15
        ∗ owns (c : Thread nD τ) arg14 fullShare v16
        ∗ owns (c : Thread nD τ) arg15 fullShare v17
        ∗ owns (c : Thread nD τ) arg16 fullShare v18
        ∗ owns (c : Thread nD τ) arg17 fullShare v19
        ∗ owns (c : Thread nD τ) arg18 fullShare v20
        ∗ owns (c : Thread nD τ) arg19 fullShare v21
        ∗ owns (c : Thread nD τ) arg20 fullShare v22
        ∗ owns (c : Thread nD τ) arg21 fullShare v23
        ∗ (∃ d, owns (c : Thread nD τ) arg22 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare v6
          ∗ owns (c : Thread nD τ) arg5 fullShare v7
          ∗ owns (c : Thread nD τ) arg6 fullShare v8
          ∗ owns (c : Thread nD τ) arg7 fullShare v9
          ∗ owns (c : Thread nD τ) arg8 fullShare v10
          ∗ owns (c : Thread nD τ) arg9 fullShare v11
          ∗ owns (c : Thread nD τ) arg10 fullShare v12
          ∗ owns (c : Thread nD τ) arg11 fullShare v13
          ∗ owns (c : Thread nD τ) arg12 fullShare v14
          ∗ owns (c : Thread nD τ) arg13 fullShare v15
          ∗ owns (c : Thread nD τ) arg14 fullShare v16
          ∗ owns (c : Thread nD τ) arg15 fullShare v17
          ∗ owns (c : Thread nD τ) arg16 fullShare v18
          ∗ owns (c : Thread nD τ) arg17 fullShare v19
          ∗ owns (c : Thread nD τ) arg18 fullShare v20
          ∗ owns (c : Thread nD τ) arg19 fullShare v21
          ∗ owns (c : Thread nD τ) arg20 fullShare v22
          ∗ owns (c : Thread nD τ) arg21 fullShare v23
          ∗ owns (c : Thread nD τ) arg22 fullShare (out0_21 x0 x1 x2 v6 v7 v8 v9 v10 v11 v12 v13 v14 v15 v16 v17 v18 v19 v20 v21 v22 v23)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__mlp_kernel_eq_skeleton]; unfold cc0__mlp_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  iexists _; isplitr
  swap; · iexact H21
  ipureintro
  try dsimp only
  exact View.read_writes_eq_canon _ _ _ (cover0_21 _)

/-! ## The pipeline's proof data -/

/-- The proof data on core `c`: the arrays as the region finds them; after the body at point `t` each input's buffer at
    its block and the output's at `out0_21` of the input blocks; the invariant that nothing else is touched; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨_ + 22, h⟩ => absurd h (Nat.not_lt.2 (Nat.le_add_left _ _))
  Φ _ := Pipeline.ΦA spec0 c
  q _ := fullShare
  owed _ := 0

/-- The proof data's arrays are the region-entry contents: a projection, so the fold over the host operations is never
    unfolded. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]

/-! Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t))

set_option maxHeartbeats 1000000 in
/-- The body at any point: the inputs' buffers hold their blocks, so the triple applies; the invariant and what is owed
    pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel c Set.univ (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdeal.Args.lean ====
/- The argument arrays are as launched when the region is entered: every host operation before it writes one buffer,
   its result's, and no result is an argument array. Hence the frame claim's post from a run to the frame post: an
   argument a window stages is an input, so the array holds its entry contents; any other bypasses the region. -/
import proofs.«138882_j46462956208560_1_alg».proof.Proof.KernelIdeal.Entry

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Whether a reference is one of the 28 argument arrays: they are the first 28 references of HBM. -/
def isArg (r : Ref sig .tc) : Bool :=
  match r.space with
  | .hbm => decide (r.idx.val < 28)
  | _ => false

/-- An operation keeps the arguments: it writes one buffer, and that buffer is no argument array. -/
def KeepsArgs (op : HloOp τ sig (Elt F)) : Prop :=
  ∃ y : Ref sig .tc, op.writes = {Proc.devRef .tc y} ∧ isArg y = false

/-- A line of operations each of which keeps the arguments leaves every argument array as it found it. -/
theorem after_arg (ops : List (HloOp τ sig (Elt F))) (h : ∀ op ∈ ops, KeepsArgs op)
    (W : Valuation τ sig (Elt F)) {r : Ref sig .tc} (hr : isArg r = true) :
    StableHlo.after ops W (Proc.devRef .tc r) = W (Proc.devRef .tc r) :=
  StableHlo.after_of_forall_not_mem ops W fun op hop hb => by
    obtain ⟨y, hw, hy⟩ := h op hop
    rw [hw, Finset.mem_singleton] at hb
    have e : r = y := Proc.devRef_injective _ hb
    rw [e, hy] at hr
    exact Bool.false_ne_true hr

/-! ## Each stretch keeps the arguments -/

theorem hostOps0_keeps : (hostOps0 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem hostOps0_1_keeps : (hostOps0_1 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_2_keeps : (hostOps0_2 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_3_keeps : (hostOps0_3 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_4_keeps : (hostOps0_4 : List (HloOp τ sig (Elt F))).Forall KeepsArgs :=
  ⟨⟨_, rfl, rfl⟩, ⟨_, rfl, rfl⟩⟩
theorem hostOps0_5_keeps : (hostOps0_5 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_6_keeps : (hostOps0_6 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_7_keeps : (hostOps0_7 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_8_keeps : (hostOps0_8 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem hostOps0_9_keeps : (hostOps0_9 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_10_keeps : (hostOps0_10 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_11_keeps : (hostOps0_11 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_12_keeps : (hostOps0_12 : List (HloOp τ sig (Elt F))).Forall KeepsArgs :=
  ⟨⟨_, rfl, rfl⟩, ⟨_, rfl, rfl⟩⟩
theorem hostOps0_13_keeps : (hostOps0_13 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_14_keeps : (hostOps0_14 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_15_keeps : (hostOps0_15 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_16_keeps : (hostOps0_16 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem hostOps0_17_keeps : (hostOps0_17 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_18_keeps : (hostOps0_18 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_19_keeps : (hostOps0_19 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_20_keeps : (hostOps0_20 : List (HloOp τ sig (Elt F))).Forall KeepsArgs :=
  ⟨⟨_, rfl, rfl⟩, ⟨_, rfl, rfl⟩⟩
theorem hostOps0_21_keeps : (hostOps0_21 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_22_keeps : (hostOps0_22 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_23_keeps : (hostOps0_23 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_24_keeps : (hostOps0_24 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem hostOps0_25_keeps : (hostOps0_25 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_26_keeps : (hostOps0_26 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_27_keeps : (hostOps0_27 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_28_keeps : (hostOps0_28 : List (HloOp τ sig (Elt F))).Forall KeepsArgs :=
  ⟨⟨_, rfl, rfl⟩, ⟨_, rfl, rfl⟩⟩
theorem hostOps0_29_keeps : (hostOps0_29 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_30_keeps : (hostOps0_30 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_31_keeps : (hostOps0_31 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_32_keeps : (hostOps0_32 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem hostOps0_33_keeps : (hostOps0_33 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_34_keeps : (hostOps0_34 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_35_keeps : (hostOps0_35 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_36_keeps : (hostOps0_36 : List (HloOp τ sig (Elt F))).Forall KeepsArgs :=
  ⟨⟨_, rfl, rfl⟩, ⟨_, rfl, rfl⟩⟩
theorem hostOps0_37_keeps : (hostOps0_37 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_38_keeps : (hostOps0_38 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_39_keeps : (hostOps0_39 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_40_keeps : (hostOps0_40 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem hostOps0_41_keeps : (hostOps0_41 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_42_keeps : (hostOps0_42 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_43_keeps : (hostOps0_43 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_44_keeps : (hostOps0_44 : List (HloOp τ sig (Elt F))).Forall KeepsArgs :=
  ⟨⟨_, rfl, rfl⟩, ⟨_, rfl, rfl⟩⟩
theorem hostOps0_45_keeps : (hostOps0_45 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_46_keeps : (hostOps0_46 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_47_keeps : (hostOps0_47 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_48_keeps : (hostOps0_48 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem hostOps0_49_keeps : (hostOps0_49 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_50_keeps : (hostOps0_50 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_51_keeps : (hostOps0_51 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_52_keeps : (hostOps0_52 : List (HloOp τ sig (Elt F))).Forall KeepsArgs :=
  ⟨⟨_, rfl, rfl⟩, ⟨_, rfl, rfl⟩⟩
theorem hostOps0_53_keeps : (hostOps0_53 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_54_keeps : (hostOps0_54 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_55_keeps : (hostOps0_55 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_56_keeps : (hostOps0_56 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem hostOps0_57_keeps : (hostOps0_57 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_58_keeps : (hostOps0_58 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_59_keeps : (hostOps0_59 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_60_keeps : (hostOps0_60 : List (HloOp τ sig (Elt F))).Forall KeepsArgs :=
  ⟨⟨_, rfl, rfl⟩, ⟨_, rfl, rfl⟩⟩
theorem hostOps0_61_keeps : (hostOps0_61 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_62_keeps : (hostOps0_62 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_63_keeps : (hostOps0_63 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_64_keeps : (hostOps0_64 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem hostOps0_65_keeps : (hostOps0_65 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_66_keeps : (hostOps0_66 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_67_keeps : (hostOps0_67 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_68_keeps : (hostOps0_68 : List (HloOp τ sig (Elt F))).Forall KeepsArgs :=
  ⟨⟨_, rfl, rfl⟩, ⟨_, rfl, rfl⟩⟩
theorem hostOps0_69_keeps : (hostOps0_69 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_70_keeps : (hostOps0_70 : List (HloOp τ sig (Elt F))).Forall KeepsArgs :=
  ⟨⟨_, rfl, rfl⟩, ⟨_, rfl, rfl⟩, ⟨_, rfl, rfl⟩, ⟨_, rfl, rfl⟩, ⟨_, rfl, rfl⟩⟩
theorem hostOps0_71_keeps : (hostOps0_71 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩⟩
theorem hostOps0_72_keeps : (hostOps0_72 : List (HloOp τ sig (Elt F))).Forall KeepsArgs :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩

/-- Every stretch keeps the arguments. -/
theorem stretches_keeps : (stretches (F := F)).Forall fun ops => ops.Forall KeepsArgs :=
  ⟨hostOps0_keeps, hostOps0_1_keeps, hostOps0_2_keeps, hostOps0_3_keeps, hostOps0_4_keeps, hostOps0_5_keeps, hostOps0_6_keeps, hostOps0_7_keeps, hostOps0_8_keeps, hostOps0_9_keeps, hostOps0_10_keeps, hostOps0_11_keeps, hostOps0_12_keeps, hostOps0_13_keeps, hostOps0_14_keeps, hostOps0_15_keeps, hostOps0_16_keeps, hostOps0_17_keeps, hostOps0_18_keeps, hostOps0_19_keeps, hostOps0_20_keeps, hostOps0_21_keeps, hostOps0_22_keeps, hostOps0_23_keeps, hostOps0_24_keeps, hostOps0_25_keeps, hostOps0_26_keeps, hostOps0_27_keeps, hostOps0_28_keeps, hostOps0_29_keeps, hostOps0_30_keeps, hostOps0_31_keeps, hostOps0_32_keeps, hostOps0_33_keeps, hostOps0_34_keeps, hostOps0_35_keeps, hostOps0_36_keeps, hostOps0_37_keeps, hostOps0_38_keeps, hostOps0_39_keeps, hostOps0_40_keeps, hostOps0_41_keeps, hostOps0_42_keeps, hostOps0_43_keeps, hostOps0_44_keeps, hostOps0_45_keeps, hostOps0_46_keeps, hostOps0_47_keeps, hostOps0_48_keeps, hostOps0_49_keeps, hostOps0_50_keeps, hostOps0_51_keeps, hostOps0_52_keeps, hostOps0_53_keeps, hostOps0_54_keeps, hostOps0_55_keeps, hostOps0_56_keeps, hostOps0_57_keeps, hostOps0_58_keeps, hostOps0_59_keeps, hostOps0_60_keeps, hostOps0_61_keeps, hostOps0_62_keeps, hostOps0_63_keeps, hostOps0_64_keeps, hostOps0_65_keeps, hostOps0_66_keeps, hostOps0_67_keeps, hostOps0_68_keeps, hostOps0_69_keeps, hostOps0_70_keeps, hostOps0_71_keeps, hostOps0_72_keeps⟩

/-- So does every operation of their concatenation. -/
theorem flatten_keeps : ∀ op ∈ List.flatten (stretches (F := F)), KeepsArgs op := fun op hop => by
  obtain ⟨l, hl, hop⟩ := List.mem_flatten.mp hop
  exact List.forall_iff_forall_mem.mp (List.forall_iff_forall_mem.mp stretches_keeps l hl) op hop

/-! ## The arguments at the region's entry -/

theorem V_main_arg0 (c : Dev nD) : V m c main_arg0 = m ((c : Thread nD τ).loc main_arg0) :=
  after_arg _ flatten_keeps _ rfl
theorem V_main_arg1 (c : Dev nD) : V m c main_arg1 = m ((c : Thread nD τ).loc main_arg1) :=
  after_arg _ flatten_keeps _ rfl
theorem V_main_arg2 (c : Dev nD) : V m c main_arg2 = m ((c : Thread nD τ).loc main_arg2) :=
  after_arg _ flatten_keeps _ rfl
theorem V_main_arg3 (c : Dev nD) : V m c main_arg3 = m ((c : Thread nD τ).loc main_arg3) :=
  after_arg _ flatten_keeps _ rfl
theorem V_main_arg4 (c : Dev nD) : V m c main_arg4 = m ((c : Thread nD τ).loc main_arg4) :=
  after_arg _ flatten_keeps _ rfl
theorem V_main_arg5 (c : Dev nD) : V m c main_arg5 = m ((c : Thread nD τ).loc main_arg5) :=
  after_arg _ flatten_keeps _ rfl
theorem V_main_arg6 (c : Dev nD) : V m c main_arg6 = m ((c : Thread nD τ).loc main_arg6) :=
  after_arg _ flatten_keeps _ rfl
theorem V_main_arg7 (c : Dev nD) : V m c main_arg7 = m ((c : Thread nD τ).loc main_arg7) :=
  after_arg _ flatten_keeps _ rfl
theorem V_main_arg8 (c : Dev nD) : V m c main_arg8 = m ((c : Thread nD τ).loc main_arg8) :=
  after_arg _ flatten_keeps _ rfl
theorem V_main_arg9 (c : Dev nD) : V m c main_arg9 = m ((c : Thread nD τ).loc main_arg9) :=
  after_arg _ flatten_keeps _ rfl
theorem V_main_arg10 (c : Dev nD) : V m c main_arg10 = m ((c : Thread nD τ).loc main_arg10) :=
  after_arg _ flatten_keeps _ rfl
theorem V_main_arg11 (c : Dev nD) : V m c main_arg11 = m ((c : Thread nD τ).loc main_arg11) :=
  after_arg _ flatten_keeps _ rfl
theorem V_main_arg12 (c : Dev nD) : V m c main_arg12 = m ((c : Thread nD τ).loc main_arg12) :=
  after_arg _ flatten_keeps _ rfl
theorem V_main_arg13 (c : Dev nD) : V m c main_arg13 = m ((c : Thread nD τ).loc main_arg13) :=
  after_arg _ flatten_keeps _ rfl
theorem V_main_arg14 (c : Dev nD) : V m c main_arg14 = m ((c : Thread nD τ).loc main_arg14) :=
  after_arg _ flatten_keeps _ rfl
theorem V_main_arg15 (c : Dev nD) : V m c main_arg15 = m ((c : Thread nD τ).loc main_arg15) :=
  after_arg _ flatten_keeps _ rfl
theorem V_main_arg16 (c : Dev nD) : V m c main_arg16 = m ((c : Thread nD τ).loc main_arg16) :=
  after_arg _ flatten_keeps _ rfl
theorem V_main_arg17 (c : Dev nD) : V m c main_arg17 = m ((c : Thread nD τ).loc main_arg17) :=
  after_arg _ flatten_keeps _ rfl
theorem V_main_arg18 (c : Dev nD) : V m c main_arg18 = m ((c : Thread nD τ).loc main_arg18) :=
  after_arg _ flatten_keeps _ rfl
theorem V_main_arg19 (c : Dev nD) : V m c main_arg19 = m ((c : Thread nD τ).loc main_arg19) :=
  after_arg _ flatten_keeps _ rfl
theorem V_main_arg20 (c : Dev nD) : V m c main_arg20 = m ((c : Thread nD τ).loc main_arg20) :=
  after_arg _ flatten_keeps _ rfl
theorem V_main_arg21 (c : Dev nD) : V m c main_arg21 = m ((c : Thread nD τ).loc main_arg21) :=
  after_arg _ flatten_keeps _ rfl
theorem V_main_arg22 (c : Dev nD) : V m c main_arg22 = m ((c : Thread nD τ).loc main_arg22) :=
  after_arg _ flatten_keeps _ rfl
theorem V_main_arg23 (c : Dev nD) : V m c main_arg23 = m ((c : Thread nD τ).loc main_arg23) :=
  after_arg _ flatten_keeps _ rfl
theorem V_main_arg24 (c : Dev nD) : V m c main_arg24 = m ((c : Thread nD τ).loc main_arg24) :=
  after_arg _ flatten_keeps _ rfl
theorem V_main_arg25 (c : Dev nD) : V m c main_arg25 = m ((c : Thread nD τ).loc main_arg25) :=
  after_arg _ flatten_keeps _ rfl
theorem V_main_arg26 (c : Dev nD) : V m c main_arg26 = m ((c : Thread nD τ).loc main_arg26) :=
  after_arg _ flatten_keeps _ rfl
theorem V_main_arg27 (c : Dev nD) : V m c main_arg27 = m ((c : Thread nD τ).loc main_arg27) :=
  after_arg _ flatten_keeps _ rfl

/-! ## The frame claim's post from the frame run's -/

/-! At the end of a run to the frame post, argument by argument: an argument staged by an input window holds its array's
    entry contents, any other is among the buffers that bypass the region; the entry contents of either are the
    contents at the start. -/

theorem kept_main_arg0 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg0) = m ((c.tc : Thread nD τ).loc main_arg0) :=
  ((h c).2 main_arg0 (Pipeline.mem_restRefs_of main_arg0 (by decide) (by decide))).trans (V_main_arg0 m c)
theorem kept_main_arg1 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg1) = m ((c.tc : Thread nD τ).loc main_arg1) :=
  ((h c).2 main_arg1 (Pipeline.mem_restRefs_of main_arg1 (by decide) (by decide))).trans (V_main_arg1 m c)
theorem kept_main_arg2 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg2) = m ((c.tc : Thread nD τ).loc main_arg2) :=
  ((h c).2 main_arg2 (Pipeline.mem_restRefs_of main_arg2 (by decide) (by decide))).trans (V_main_arg2 m c)
theorem kept_main_arg3 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg3) = m ((c.tc : Thread nD τ).loc main_arg3) :=
  ((h c).2 main_arg3 (Pipeline.mem_restRefs_of main_arg3 (by decide) (by decide))).trans (V_main_arg3 m c)
theorem kept_main_arg4 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg4) = m ((c.tc : Thread nD τ).loc main_arg4) :=
  ((h c).1 3).trans (((dats 0 c).arrAt_in 3 rfl _).trans ((hA c 3).trans (V_main_arg4 m c)))
theorem kept_main_arg5 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg5) = m ((c.tc : Thread nD τ).loc main_arg5) :=
  ((h c).1 4).trans (((dats 0 c).arrAt_in 4 rfl _).trans ((hA c 4).trans (V_main_arg5 m c)))
theorem kept_main_arg6 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg6) = m ((c.tc : Thread nD τ).loc main_arg6) :=
  ((h c).1 5).trans (((dats 0 c).arrAt_in 5 rfl _).trans ((hA c 5).trans (V_main_arg6 m c)))
theorem kept_main_arg7 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg7) = m ((c.tc : Thread nD τ).loc main_arg7) :=
  ((h c).1 6).trans (((dats 0 c).arrAt_in 6 rfl _).trans ((hA c 6).trans (V_main_arg7 m c)))
theorem kept_main_arg8 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg8) = m ((c.tc : Thread nD τ).loc main_arg8) :=
  ((h c).1 7).trans (((dats 0 c).arrAt_in 7 rfl _).trans ((hA c 7).trans (V_main_arg8 m c)))
theorem kept_main_arg9 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg9) = m ((c.tc : Thread nD τ).loc main_arg9) :=
  ((h c).1 8).trans (((dats 0 c).arrAt_in 8 rfl _).trans ((hA c 8).trans (V_main_arg9 m c)))
theorem kept_main_arg10 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg10) = m ((c.tc : Thread nD τ).loc main_arg10) :=
  ((h c).2 main_arg10 (Pipeline.mem_restRefs_of main_arg10 (by decide) (by decide))).trans (V_main_arg10 m c)
theorem kept_main_arg11 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg11) = m ((c.tc : Thread nD τ).loc main_arg11) :=
  ((h c).2 main_arg11 (Pipeline.mem_restRefs_of main_arg11 (by decide) (by decide))).trans (V_main_arg11 m c)
theorem kept_main_arg12 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg12) = m ((c.tc : Thread nD τ).loc main_arg12) :=
  ((h c).2 main_arg12 (Pipeline.mem_restRefs_of main_arg12 (by decide) (by decide))).trans (V_main_arg12 m c)
theorem kept_main_arg13 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg13) = m ((c.tc : Thread nD τ).loc main_arg13) :=
  ((h c).1 9).trans (((dats 0 c).arrAt_in 9 rfl _).trans ((hA c 9).trans (V_main_arg13 m c)))
theorem kept_main_arg14 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg14) = m ((c.tc : Thread nD τ).loc main_arg14) :=
  ((h c).1 10).trans (((dats 0 c).arrAt_in 10 rfl _).trans ((hA c 10).trans (V_main_arg14 m c)))
theorem kept_main_arg15 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg15) = m ((c.tc : Thread nD τ).loc main_arg15) :=
  ((h c).1 11).trans (((dats 0 c).arrAt_in 11 rfl _).trans ((hA c 11).trans (V_main_arg15 m c)))
theorem kept_main_arg16 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg16) = m ((c.tc : Thread nD τ).loc main_arg16) :=
  ((h c).1 12).trans (((dats 0 c).arrAt_in 12 rfl _).trans ((hA c 12).trans (V_main_arg16 m c)))
theorem kept_main_arg17 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg17) = m ((c.tc : Thread nD τ).loc main_arg17) :=
  ((h c).1 13).trans (((dats 0 c).arrAt_in 13 rfl _).trans ((hA c 13).trans (V_main_arg17 m c)))
theorem kept_main_arg18 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg18) = m ((c.tc : Thread nD τ).loc main_arg18) :=
  ((h c).1 14).trans (((dats 0 c).arrAt_in 14 rfl _).trans ((hA c 14).trans (V_main_arg18 m c)))
theorem kept_main_arg19 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg19) = m ((c.tc : Thread nD τ).loc main_arg19) :=
  ((h c).2 main_arg19 (Pipeline.mem_restRefs_of main_arg19 (by decide) (by decide))).trans (V_main_arg19 m c)
theorem kept_main_arg20 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg20) = m ((c.tc : Thread nD τ).loc main_arg20) :=
  ((h c).2 main_arg20 (Pipeline.mem_restRefs_of main_arg20 (by decide) (by decide))).trans (V_main_arg20 m c)
theorem kept_main_arg21 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg21) = m ((c.tc : Thread nD τ).loc main_arg21) :=
  ((h c).2 main_arg21 (Pipeline.mem_restRefs_of main_arg21 (by decide) (by decide))).trans (V_main_arg21 m c)
theorem kept_main_arg22 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg22) = m ((c.tc : Thread nD τ).loc main_arg22) :=
  ((h c).1 15).trans (((dats 0 c).arrAt_in 15 rfl _).trans ((hA c 15).trans (V_main_arg22 m c)))
theorem kept_main_arg23 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg23) = m ((c.tc : Thread nD τ).loc main_arg23) :=
  ((h c).1 16).trans (((dats 0 c).arrAt_in 16 rfl _).trans ((hA c 16).trans (V_main_arg23 m c)))
theorem kept_main_arg24 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg24) = m ((c.tc : Thread nD τ).loc main_arg24) :=
  ((h c).1 17).trans (((dats 0 c).arrAt_in 17 rfl _).trans ((hA c 17).trans (V_main_arg24 m c)))
theorem kept_main_arg25 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg25) = m ((c.tc : Thread nD τ).loc main_arg25) :=
  ((h c).1 18).trans (((dats 0 c).arrAt_in 18 rfl _).trans ((hA c 18).trans (V_main_arg25 m c)))
theorem kept_main_arg26 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg26) = m ((c.tc : Thread nD τ).loc main_arg26) :=
  ((h c).1 19).trans (((dats 0 c).arrAt_in 19 rfl _).trans ((hA c 19).trans (V_main_arg26 m c)))
theorem kept_main_arg27 (dats : (p : Fin 1) → (c : Dev nD) → Dat τ (Elt F) Unit ℕ (UR sig nD τ) ℕ (cfgs p) c)
    (hA : ∀ c w, (dats 0 c).A w = V m c (Pipeline.arrRef spec0 w)) (c : Dev nD) (r : PUnit × MemSt nD τ sig (Elt F))
    (h : Pipeline.FramePost cfgs dats 0 (V m) r) :
    r.2.mem ((c.tc : Thread nD τ).loc main_arg27) = m ((c.tc : Thread nD τ).loc main_arg27) :=
  ((h c).1 20).trans (((dats 0 c).arrAt_in 20 rfl _).trans ((hA c 20).trans (V_main_arg27 m c)))

/-- For any proof data whose arrays are the region-entry contents, a run to the frame post is a run to the frame claim's
    post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c => ⟨kept_main_arg0 m dats hA c r h, kept_main_arg1 m dats hA c r h, kept_main_arg2 m dats hA c r h, kept_main_arg3 m dats hA c r h, kept_main_arg4 m dats hA c r h, kept_main_arg5 m dats hA c r h, kept_main_arg6 m dats hA c r h, kept_main_arg7 m dats hA c r h, kept_main_arg8 m dats hA c r h, kept_main_arg9 m dats hA c r h, kept_main_arg10 m dats hA c r h, kept_main_arg11 m dats hA c r h, kept_main_arg12 m dats hA c r h, kept_main_arg13 m dats hA c r h, kept_main_arg14 m dats hA c r h, kept_main_arg15 m dats hA c r h, kept_main_arg16 m dats hA c r h, kept_main_arg17 m dats hA c r h, kept_main_arg18 m dats hA c r h, kept_main_arg19 m dats hA c r h, kept_main_arg20 m dats hA c r h, kept_main_arg21 m dats hA c r h, kept_main_arg22 m dats hA c r h, kept_main_arg23 m dats hA c r h, kept_main_arg24 m dats hA c r h, kept_main_arg25 m dats hA c r h, kept_main_arg26 m dats hA c r h, kept_main_arg27 m dats hA c r h⟩) h

end Cert.KernelIdeal.Hand

end
-- ==== Proof.KernelIdeal.FrameRun.lean ====
/- The run of the whole program to the pipeline's post, and from it the frame: every argument array ends as launched. -/
import proofs.«138882_j46462956208560_1_alg».proof.Proof.KernelIdeal.Body
import proofs.«138882_j46462956208560_1_alg».proof.Proof.KernelIdeal.Args

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- the implicit arguments of the run theorem are found by unifying its conclusion with this statement, which unfolds
-- plain definitions inside a metavariable's type
set_option backward.isDefEq.respectTransparency.types false in
/-- From any memory with zero counters, for any values: every weakly fair execution of the program on the TensorCores
    terminates, and in every final state each array of the pipeline holds what the proof data compute for it and every
    other unscoped buffer is as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame at any `F`: the program runs and its twenty-eight argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  frame_of m ρ (dats m) (A_eq m) (run_main m ρ)

end Cert.KernelIdeal.Hand

end
-- ==== Proof.ReferenceIdeal.Line.lean ====
/- A straight line of host operations, cut into pieces: the cut of its run at a position, and one
   fact per operation from which the three side conditions of a run follow at once — it touches only
   TensorCore references, it determines what it writes, and it writes exactly one reference, whose
   index lies in a given range. A reference whose index lies outside the range of every operation of
   a piece keeps its contents through the piece. -/
import Idealize.ShloMosaic.Lib.StableHlo.Run
import Idealize.ShloMosaic.Lib.Pipeline.Frame

noncomputable section

namespace Cert.ReferenceIdeal.Hand

open Idealize.ShloMosaic Idealize.ShloMosaic.TcCoe Idealize.SL.Sem Idealize.ShloMosaic.StableHlo

variable {nD : Nat} {τ : Topo} {sig : RefSig} {Val : EltTy → Type} {Λ : Labels}

/-- A line runs as its first `n` operations, then the rest. -/
theorem seq_split (n : Nat) (L : List (HloOp τ sig Val)) :
    (seq L : Prog (TpuEff nD τ sig Val Λ .tc) PUnit) = seq (L.take n) >>= fun _ => seq (L.drop n) := by
  rw [← seq_append, List.take_append_drop]

/-- The operation touches TensorCore references only, determines everything it writes, and writes
    exactly one reference, of index in `[lo, hi)`. -/
def OpOk (lo hi : Nat) (op : HloOp τ sig Val) : Prop :=
  op.bufs ⊆ tcRefs τ sig ∧ op.fresh = ∅ ∧
    ∃ y : Ref sig .tc, op.writes = {Proc.devRef .tc y} ∧ lo ≤ y.idx.val ∧ y.idx.val < hi

section Builders

variable {lo hi : Nat} {x a b c y : Ref sig .tc}

theorem okNullary {v : y.ty.Contents Val} {hy} (h : lo ≤ y.idx.val ∧ y.idx.val < hi) :
    OpOk lo hi (nullary (τ := τ) y v hy) := ⟨nullary_bufs_sub .., rfl, y, rfl, h⟩
theorem okUnary {f : x.ty.Contents Val → y.ty.Contents Val} {hx hy} (h : lo ≤ y.idx.val ∧ y.idx.val < hi) :
    OpOk lo hi (unary (τ := τ) x y f hx hy) := ⟨unary_bufs_sub .., rfl, y, rfl, h⟩
theorem okBinary {f : a.ty.Contents Val → b.ty.Contents Val → y.ty.Contents Val} {ha hb hy}
    (h : lo ≤ y.idx.val ∧ y.idx.val < hi) : OpOk lo hi (binary (τ := τ) a b y f ha hb hy) :=
  ⟨binary_bufs_sub .., rfl, y, rfl, h⟩
theorem okTernary {f : c.ty.Contents Val → a.ty.Contents Val → b.ty.Contents Val → y.ty.Contents Val} {hc ha hb hy}
    (h : lo ≤ y.idx.val ∧ y.idx.val < hi) : OpOk lo hi (ternary (τ := τ) c a b y f hc ha hb hy) :=
  ⟨ternary_bufs_sub .., rfl, y, rfl, h⟩
theorem okReshape {he hn hx hy} (h : lo ≤ y.idx.val ∧ y.idx.val < hi) :
    OpOk lo hi (reshape (τ := τ) (Val := Val) x y he hn hx hy) := ⟨reshape_bufs_sub .., rfl, y, rfl, h⟩
theorem okNary {n : Nat} {xs : Fin n → Ref sig .tc} {f : ((k : Fin n) → (xs k).ty.Contents Val) → y.ty.Contents Val} {hxs hy}
    (h : lo ≤ y.idx.val ∧ y.idx.val < hi) : OpOk lo hi (nary (τ := τ) xs y f hxs hy) :=
  ⟨nary_bufs_sub .., rfl, y, rfl, h⟩

end Builders

/-- Every operation of the piece is as `OpOk lo hi` says. -/
def AllOk (lo hi : Nat) (L : List (HloOp τ sig Val)) : Prop := ∀ op ∈ L, OpOk lo hi op

namespace AllOk

variable {lo hi lo' hi' : Nat} {op : HloOp τ sig Val} {L L₁ L₂ : List (HloOp τ sig Val)}

theorem nil : AllOk lo hi ([] : List (HloOp τ sig Val)) := fun _ h => nomatch h

theorem cons (h : OpOk lo hi op) (t : AllOk lo hi L) : AllOk lo hi (op :: L) :=
  List.forall_mem_cons.mpr ⟨h, t⟩

theorem append (h₁ : AllOk lo hi L₁) (h₂ : AllOk lo hi L₂) : AllOk lo hi (L₁ ++ L₂) := fun o ho =>
  (List.mem_append.mp ho).elim (h₁ o) (h₂ o)

/-- A wider range. -/
theorem mono (hl : lo' ≤ lo) (hh : hi ≤ hi') (h : AllOk lo hi L) : AllOk lo' hi' L := fun o ho =>
  let ⟨hb, hf, y, hw, h1, h2⟩ := h o ho
  ⟨hb, hf, y, hw, hl.trans h1, h2.trans_le hh⟩

theorem sub (h : AllOk lo hi L) : L.Forall fun op => op.bufs ⊆ tcRefs τ sig :=
  List.forall_iff_forall_mem.mpr fun o ho => (h o ho).1

theorem fresh (h : AllOk lo hi L) : ∀ op ∈ L, op.fresh = ∅ := fun o ho => (h o ho).2.1

/-- A reference of index outside `[lo, hi)` keeps its contents through the piece. -/
theorem keep (h : AllOk lo hi L) (r : Ref sig .tc) (hr : r.idx.val < lo ∨ hi ≤ r.idx.val) (V : Valuation τ sig Val) :
    after L V (Proc.devRef .tc r) = V (Proc.devRef .tc r) :=
  after_of_forall_not_mem L V fun o ho hb => by
    obtain ⟨-, -, y, hw, h1, h2⟩ := h o ho
    rw [hw, Finset.mem_singleton] at hb
    have e : r = y := Proc.devRef_injective _ hb
    subst e
    omega

end AllOk

end Cert.ReferenceIdeal.Hand

end
-- ==== Proof.ReferenceIdeal.Ok.lean ====
/- Each piece of the reference's line of host operations: every operation touches TensorCore references
   only, determines what it writes, and writes one reference — the k-th operation of the program the
   reference of index 28 + k (the 28 arguments come first). -/
import proofs.«138882_j46462956208560_1_alg».proof.Proof.ReferenceIdeal.Ops
import proofs.«138882_j46462956208560_1_alg».proof.Proof.ReferenceIdeal.Line

set_option maxRecDepth 8192

noncomputable section

namespace Cert.ReferenceIdeal.Hand

open Cert.ReferenceIdeal Cert.ReferenceIdeal.Gen Cert.ReferenceIdeal.Chunks Idealize.ShloMosaic Idealize.ShloMosaic.TcCoe Idealize.SL.Sem Idealize.ShloMosaic.StableHlo

variable {F : FTy → Type} [FloatOps F]

/-- `opsPre`'s operations write the references of index 28 … 45, one each, in order. -/
theorem opsPre_ok : AllOk 28 46 (opsPre : List (HloOp τ sig (Elt F))) :=
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okReshape (by decide)) <|
  AllOk.cons (okUnary (by decide)) <|
  AllOk.cons (okReshape (by decide)) <|
  AllOk.cons (okUnary (by decide)) <|
  AllOk.cons (okReshape (by decide)) <|
  AllOk.nil

/-- `opsB0a`'s operations write the references of index 46 … 212, one each, in order. -/
theorem opsB0a_ok : AllOk 46 213 (opsB0a : List (HloOp τ sig (Elt F))) :=
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okUnary (by decide)) <|
  AllOk.cons (okUnary (by decide)) <|
  AllOk.cons (okUnary (by decide)) <|
  AllOk.cons (okBinary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okUnary (by decide)) <|
  AllOk.nil

/-- `opsB0b`'s operations write the references of index 213 … 379, one each, in order. -/
theorem opsB0b_ok : AllOk 213 380 (opsB0b : List (HloOp τ sig (Elt F))) :=
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okUnary (by decide)) <|
  AllOk.cons (okUnary (by decide)) <|
  AllOk.cons (okUnary (by decide)) <|
  AllOk.cons (okBinary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okUnary (by decide)) <|
  AllOk.nil

/-- `opsB0c`'s operations write the references of index 380 … 546, one each, in order. -/
theorem opsB0c_ok : AllOk 380 547 (opsB0c : List (HloOp τ sig (Elt F))) :=
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okUnary (by decide)) <|
  AllOk.cons (okUnary (by decide)) <|
  AllOk.cons (okUnary (by decide)) <|
  AllOk.cons (okBinary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okUnary (by decide)) <|
  AllOk.nil

/-- `opsCat0`'s operations write the references of index 547 … 547, one each, in order. -/
theorem opsCat0_ok : AllOk 547 548 (opsCat0 : List (HloOp τ sig (Elt F))) :=
  AllOk.cons (okNary (by decide)) <|
  AllOk.nil

/-- `opsMlp0`'s operations write the references of index 548 … 568, one each, in order. -/
theorem opsMlp0_ok : AllOk 548 569 (opsMlp0 : List (HloOp τ sig (Elt F))) :=
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.nil

/-- `opsB1a`'s operations write the references of index 569 … 735, one each, in order. -/
theorem opsB1a_ok : AllOk 569 736 (opsB1a : List (HloOp τ sig (Elt F))) :=
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okUnary (by decide)) <|
  AllOk.cons (okUnary (by decide)) <|
  AllOk.cons (okUnary (by decide)) <|
  AllOk.cons (okBinary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okUnary (by decide)) <|
  AllOk.nil

/-- `opsB1b`'s operations write the references of index 736 … 902, one each, in order. -/
theorem opsB1b_ok : AllOk 736 903 (opsB1b : List (HloOp τ sig (Elt F))) :=
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okUnary (by decide)) <|
  AllOk.cons (okUnary (by decide)) <|
  AllOk.cons (okUnary (by decide)) <|
  AllOk.cons (okBinary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okUnary (by decide)) <|
  AllOk.nil

/-- `opsB1c`'s operations write the references of index 903 … 1069, one each, in order. -/
theorem opsB1c_ok : AllOk 903 1070 (opsB1c : List (HloOp τ sig (Elt F))) :=
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okUnary (by decide)) <|
  AllOk.cons (okUnary (by decide)) <|
  AllOk.cons (okUnary (by decide)) <|
  AllOk.cons (okBinary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okUnary (by decide)) <|
  AllOk.nil

/-- `opsCat1`'s operations write the references of index 1070 … 1070, one each, in order. -/
theorem opsCat1_ok : AllOk 1070 1071 (opsCat1 : List (HloOp τ sig (Elt F))) :=
  AllOk.cons (okNary (by decide)) <|
  AllOk.nil

/-- `opsMlp1`'s operations write the references of index 1071 … 1089, one each, in order. -/
theorem opsMlp1_ok : AllOk 1071 1090 (opsMlp1 : List (HloOp τ sig (Elt F))) :=
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.nil

/-- `opsB2a`'s operations write the references of index 1090 … 1256, one each, in order. -/
theorem opsB2a_ok : AllOk 1090 1257 (opsB2a : List (HloOp τ sig (Elt F))) :=
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okUnary (by decide)) <|
  AllOk.cons (okUnary (by decide)) <|
  AllOk.cons (okUnary (by decide)) <|
  AllOk.cons (okBinary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okUnary (by decide)) <|
  AllOk.nil

/-- `opsB2b`'s operations write the references of index 1257 … 1423, one each, in order. -/
theorem opsB2b_ok : AllOk 1257 1424 (opsB2b : List (HloOp τ sig (Elt F))) :=
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okUnary (by decide)) <|
  AllOk.cons (okUnary (by decide)) <|
  AllOk.cons (okUnary (by decide)) <|
  AllOk.cons (okBinary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okUnary (by decide)) <|
  AllOk.nil

/-- `opsB2c`'s operations write the references of index 1424 … 1590, one each, in order. -/
theorem opsB2c_ok : AllOk 1424 1591 (opsB2c : List (HloOp τ sig (Elt F))) :=
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okUnary (by decide)) <|
  AllOk.cons (okUnary (by decide)) <|
  AllOk.cons (okUnary (by decide)) <|
  AllOk.cons (okBinary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okNullary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okTernary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.cons (okUnary (by decide)) <|
  AllOk.nil

/-- `opsCat2`'s operations write the references of index 1591 … 1591, one each, in order. -/
theorem opsCat2_ok : AllOk 1591 1592 (opsCat2 : List (HloOp τ sig (Elt F))) :=
  AllOk.cons (okNary (by decide)) <|
  AllOk.nil

/-- `opsMlp2`'s operations write the references of index 1592 … 1610, one each, in order. -/
theorem opsMlp2_ok : AllOk 1592 1611 (opsMlp2 : List (HloOp τ sig (Elt F))) :=
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okBinary (by decide)) <|
  AllOk.cons (okUnary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okBinary (by decide)) <|
  AllOk.cons (okUnary (by decide)) <|
  AllOk.cons (okUnary (by decide)) <|
  AllOk.cons (okBinary (by decide)) <|
  AllOk.cons (okBinary (by decide)) <|
  AllOk.nil

/-- `opsHead`'s operations write the references of index 1611 … 1625, one each, in order. -/
theorem opsHead_ok : AllOk 1611 1626 (opsHead : List (HloOp τ sig (Elt F))) :=
  AllOk.cons (okUnary (by decide)) <|
  AllOk.cons (okUnary (by decide)) <|
  AllOk.cons (okUnary (by decide)) <|
  AllOk.cons (okUnary (by decide)) <|
  AllOk.cons (okNullary (by decide)) <|
  AllOk.cons (okUnary (by decide)) <|
  AllOk.cons (okBinary (by decide)) <|
  AllOk.cons (okNullary (by decide)) <|
  AllOk.cons (okUnary (by decide)) <|
  AllOk.cons (okBinary (by decide)) <|
  AllOk.cons (okUnary (by decide)) <|
  AllOk.cons (okNullary (by decide)) <|
  AllOk.cons (okUnary (by decide)) <|
  AllOk.cons (okBinary (by decide)) <|
  AllOk.cons (okNary (by decide)) <|
  AllOk.nil

end Cert.ReferenceIdeal.Hand

end
-- ==== Proof.ReferenceIdeal.MainEq.lean ====
/- @main of the reference is the line of its host operations: the text runs 24 windows in order, each a
   stretch of the line (a called function's operations stand inline at the call), and the line cut at
   the windows' ends is their runs one after the other. -/
import proofs.«138882_j46462956208560_1_alg».proof.Proof.ReferenceIdeal.Ops
import proofs.«138882_j46462956208560_1_alg».proof.Proof.ReferenceIdeal.Line

noncomputable section

namespace Cert.ReferenceIdeal.Hand

open Cert.ReferenceIdeal Cert.ReferenceIdeal.Gen Cert.ReferenceIdeal.Chunks Idealize.ShloMosaic Idealize.ShloMosaic.TcCoe Idealize.SL.Sem Idealize.ShloMosaic.StableHlo

variable {F : FTy → Type} [FloatOps F]

/-- The reference's host operations, in @main's order: the pieces laid end to end. -/
abbrev line : List (HloOp τ sig (Elt F)) := List.flatten chunks

/-- The rest of a line from position `s` runs as its next `n` operations, then the rest from `s + n`. -/
theorem seq_drop_split {nD : Nat} {τ : Topo} {sig : RefSig} {Val : EltTy → Type} {Λ : Labels} (s n t : Nat) (h : s + n = t)
    (L : List (HloOp τ sig Val)) :
    (seq (L.drop s) : Prog (TpuEff nD τ sig Val Λ .tc) PUnit) = seq ((L.drop s).take n) >>= fun _ => seq (L.drop t) := by
  rw [seq_split n (L.drop s), List.drop_drop, h]

set_option maxRecDepth 8192 in
set_option maxHeartbeats 4000000 in
/-- Operations 0 … 74 of the line are the 1st window of @main's text, its calls unfolded. -/
theorem main_part0_eq (c : Dev nD) : main_part0 (F := F) c = seq ((List.drop 0 (line (F := F))).take 75) := rfl
set_option maxRecDepth 8192 in
set_option maxHeartbeats 4000000 in
/-- Operations 75 … 139 of the line are the 2nd window of @main's text, its calls unfolded. -/
theorem main_part1_eq (c : Dev nD) : main_part1 (F := F) c = seq ((List.drop 75 (line (F := F))).take 65) := rfl
set_option maxRecDepth 8192 in
set_option maxHeartbeats 4000000 in
/-- Operations 140 … 199 of the line are the 3rd window of @main's text, its calls unfolded. -/
theorem main_part2_eq (c : Dev nD) : main_part2 (F := F) c = seq ((List.drop 140 (line (F := F))).take 60) := rfl
set_option maxRecDepth 8192 in
set_option maxHeartbeats 4000000 in
/-- Operations 200 … 279 of the line are the 4th window of @main's text, its calls unfolded. -/
theorem main_part3_eq (c : Dev nD) : main_part3 (F := F) c = seq ((List.drop 200 (line (F := F))).take 80) := rfl
set_option maxRecDepth 8192 in
set_option maxHeartbeats 4000000 in
/-- Operations 280 … 339 of the line are the 5th window of @main's text, its calls unfolded. -/
theorem main_part4_eq (c : Dev nD) : main_part4 (F := F) c = seq ((List.drop 280 (line (F := F))).take 60) := rfl
set_option maxRecDepth 8192 in
set_option maxHeartbeats 4000000 in
/-- Operations 340 … 419 of the line are the 6th window of @main's text, its calls unfolded. -/
theorem main_part5_eq (c : Dev nD) : main_part5 (F := F) c = seq ((List.drop 340 (line (F := F))).take 80) := rfl
set_option maxRecDepth 8192 in
set_option maxHeartbeats 4000000 in
/-- Operations 420 … 479 of the line are the 7th window of @main's text, its calls unfolded. -/
theorem main_part6_eq (c : Dev nD) : main_part6 (F := F) c = seq ((List.drop 420 (line (F := F))).take 60) := rfl
set_option maxRecDepth 8192 in
set_option maxHeartbeats 4000000 in
/-- Operations 480 … 543 of the line are the 8th window of @main's text, its calls unfolded. -/
theorem main_part7_eq (c : Dev nD) : main_part7 (F := F) c = seq ((List.drop 480 (line (F := F))).take 64) := rfl
set_option maxRecDepth 8192 in
set_option maxHeartbeats 4000000 in
/-- Operations 544 … 623 of the line are the 9th window of @main's text, its calls unfolded. -/
theorem main_part8_eq (c : Dev nD) : main_part8 (F := F) c = seq ((List.drop 544 (line (F := F))).take 80) := rfl
set_option maxRecDepth 8192 in
set_option maxHeartbeats 4000000 in
/-- Operations 624 … 683 of the line are the 10th window of @main's text, its calls unfolded. -/
theorem main_part9_eq (c : Dev nD) : main_part9 (F := F) c = seq ((List.drop 624 (line (F := F))).take 60) := rfl
set_option maxRecDepth 8192 in
set_option maxHeartbeats 4000000 in
/-- Operations 684 … 753 of the line are the 11th window of @main's text, its calls unfolded. -/
theorem main_part10_eq (c : Dev nD) : main_part10 (F := F) c = seq ((List.drop 684 (line (F := F))).take 70) := rfl
set_option maxRecDepth 8192 in
set_option maxHeartbeats 4000000 in
/-- Operations 754 … 823 of the line are the 12th window of @main's text, its calls unfolded. -/
theorem main_part11_eq (c : Dev nD) : main_part11 (F := F) c = seq ((List.drop 754 (line (F := F))).take 70) := rfl
set_option maxRecDepth 8192 in
set_option maxHeartbeats 4000000 in
/-- Operations 824 … 883 of the line are the 13th window of @main's text, its calls unfolded. -/
theorem main_part12_eq (c : Dev nD) : main_part12 (F := F) c = seq ((List.drop 824 (line (F := F))).take 60) := rfl
set_option maxRecDepth 8192 in
set_option maxHeartbeats 4000000 in
/-- Operations 884 … 963 of the line are the 14th window of @main's text, its calls unfolded. -/
theorem main_part13_eq (c : Dev nD) : main_part13 (F := F) c = seq ((List.drop 884 (line (F := F))).take 80) := rfl
set_option maxRecDepth 8192 in
set_option maxHeartbeats 4000000 in
/-- Operations 964 … 1023 of the line are the 15th window of @main's text, its calls unfolded. -/
theorem main_part14_eq (c : Dev nD) : main_part14 (F := F) c = seq ((List.drop 964 (line (F := F))).take 60) := rfl
set_option maxRecDepth 8192 in
set_option maxHeartbeats 4000000 in
/-- Operations 1024 … 1087 of the line are the 16th window of @main's text, its calls unfolded. -/
theorem main_part15_eq (c : Dev nD) : main_part15 (F := F) c = seq ((List.drop 1024 (line (F := F))).take 64) := rfl
set_option maxRecDepth 8192 in
set_option maxHeartbeats 4000000 in
/-- Operations 1088 … 1167 of the line are the 17th window of @main's text, its calls unfolded. -/
theorem main_part16_eq (c : Dev nD) : main_part16 (F := F) c = seq ((List.drop 1088 (line (F := F))).take 80) := rfl
set_option maxRecDepth 8192 in
set_option maxHeartbeats 4000000 in
/-- Operations 1168 … 1227 of the line are the 18th window of @main's text, its calls unfolded. -/
theorem main_part17_eq (c : Dev nD) : main_part17 (F := F) c = seq ((List.drop 1168 (line (F := F))).take 60) := rfl
set_option maxRecDepth 8192 in
set_option maxHeartbeats 4000000 in
/-- Operations 1228 … 1307 of the line are the 19th window of @main's text, its calls unfolded. -/
theorem main_part18_eq (c : Dev nD) : main_part18 (F := F) c = seq ((List.drop 1228 (line (F := F))).take 80) := rfl
set_option maxRecDepth 8192 in
set_option maxHeartbeats 4000000 in
/-- Operations 1308 … 1367 of the line are the 20th window of @main's text, its calls unfolded. -/
theorem main_part19_eq (c : Dev nD) : main_part19 (F := F) c = seq ((List.drop 1308 (line (F := F))).take 60) := rfl
set_option maxRecDepth 8192 in
set_option maxHeartbeats 4000000 in
/-- Operations 1368 … 1432 of the line are the 21th window of @main's text, its calls unfolded. -/
theorem main_part20_eq (c : Dev nD) : main_part20 (F := F) c = seq ((List.drop 1368 (line (F := F))).take 65) := rfl
set_option maxRecDepth 8192 in
set_option maxHeartbeats 4000000 in
/-- Operations 1433 … 1507 of the line are the 22th window of @main's text, its calls unfolded. -/
theorem main_part21_eq (c : Dev nD) : main_part21 (F := F) c = seq ((List.drop 1433 (line (F := F))).take 75) := rfl
set_option maxRecDepth 8192 in
set_option maxHeartbeats 4000000 in
/-- Operations 1508 … 1567 of the line are the 23th window of @main's text, its calls unfolded. -/
theorem main_part22_eq (c : Dev nD) : main_part22 (F := F) c = seq ((List.drop 1508 (line (F := F))).take 60) := rfl
set_option maxRecDepth 8192 in
set_option maxHeartbeats 4000000 in
/-- Operations 1568 … 1597 of the line are the 24th window of @main's text, its calls unfolded. -/
theorem main_part23_eq (c : Dev nD) : main_part23 (F := F) c = seq (List.drop 1568 (line (F := F))) := rfl

/-- @main runs the line. -/
theorem main_eq (c : Dev nD) : main (F := F) c = seq (List.flatten (Chunks.chunks (F := F))) := by
  show main (F := F) c = seq (List.drop 0 (line (F := F)))
  rw [seq_drop_split 0 75 75 rfl line,
    seq_drop_split 75 65 140 rfl line,
    seq_drop_split 140 60 200 rfl line,
    seq_drop_split 200 80 280 rfl line,
    seq_drop_split 280 60 340 rfl line,
    seq_drop_split 340 80 420 rfl line,
    seq_drop_split 420 60 480 rfl line,
    seq_drop_split 480 64 544 rfl line,
    seq_drop_split 544 80 624 rfl line,
    seq_drop_split 624 60 684 rfl line,
    seq_drop_split 684 70 754 rfl line,
    seq_drop_split 754 70 824 rfl line,
    seq_drop_split 824 60 884 rfl line,
    seq_drop_split 884 80 964 rfl line,
    seq_drop_split 964 60 1024 rfl line,
    seq_drop_split 1024 64 1088 rfl line,
    seq_drop_split 1088 80 1168 rfl line,
    seq_drop_split 1168 60 1228 rfl line,
    seq_drop_split 1228 80 1308 rfl line,
    seq_drop_split 1308 60 1368 rfl line,
    seq_drop_split 1368 65 1433 rfl line,
    seq_drop_split 1433 75 1508 rfl line,
    seq_drop_split 1508 60 1568 rfl line]
  rw [← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c, ← main_part13_eq c, ← main_part14_eq c, ← main_part15_eq c, ← main_part16_eq c, ← main_part17_eq c, ← main_part18_eq c, ← main_part19_eq c, ← main_part20_eq c, ← main_part21_eq c, ← main_part22_eq c, ← main_part23_eq c]
  rfl

end Cert.ReferenceIdeal.Hand

end
-- ==== Proof.ReferenceIdeal.Run.lean ====
/- The reference's run. @main is the line of its host operations (`main_eq`); every operation touches TensorCore
   references only, determines what it writes and writes one reference of index 28 or more, so a straight line's run
   applies: every weakly fair execution terminates with each buffer at the fold of the operations over the launch's
   contents. No operation writes an argument (their indices are 0 … 27): the arguments end as launched. The result
   buffer ends at the fold's value there, `refOut`. -/
import proofs.«138882_j46462956208560_1_alg».proof.Proof.ReferenceIdeal.Ops
import proofs.«138882_j46462956208560_1_alg».proof.Proof.ReferenceIdeal.Line
import proofs.«138882_j46462956208560_1_alg».proof.Proof.ReferenceIdeal.Ok
import proofs.«138882_j46462956208560_1_alg».proof.Proof.ReferenceIdeal.MainEq
import Idealize.ShloMosaic.Lib.StableHlo.Run

noncomputable section

namespace Cert.ReferenceIdeal.Hand

open Cert.ReferenceIdeal Cert.ReferenceIdeal.Gen Cert.ReferenceIdeal.Chunks Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

private theorem allCons {α : Type} {p : α → Prop} {a : α} {l : List α} (h : p a) (t : ∀ x ∈ l, p x) : ∀ x ∈ a :: l, p x :=
  List.forall_mem_cons.mpr ⟨h, t⟩

/-- Every operation of the line writes one reference, of index 28 … 1625. -/
theorem line_ok : AllOk 28 1626 (List.flatten (chunks (F := F))) := fun o ho =>
  let ⟨L, hL, hoL⟩ := List.mem_flatten.mp ho
  (show ∀ L ∈ (chunks (F := F)), AllOk 28 1626 L from
    allCons (opsPre_ok.mono (by decide) (by decide)) <| allCons (opsB0a_ok.mono (by decide) (by decide)) <| allCons (opsB0b_ok.mono (by decide) (by decide)) <| allCons (opsB0c_ok.mono (by decide) (by decide)) <| allCons (opsCat0_ok.mono (by decide) (by decide)) <| allCons (opsMlp0_ok.mono (by decide) (by decide)) <| allCons (opsB1a_ok.mono (by decide) (by decide)) <| allCons (opsB1b_ok.mono (by decide) (by decide)) <| allCons (opsB1c_ok.mono (by decide) (by decide)) <| allCons (opsCat1_ok.mono (by decide) (by decide)) <| allCons (opsMlp1_ok.mono (by decide) (by decide)) <| allCons (opsB2a_ok.mono (by decide) (by decide)) <| allCons (opsB2b_ok.mono (by decide) (by decide)) <| allCons (opsB2c_ok.mono (by decide) (by decide)) <| allCons (opsCat2_ok.mono (by decide) (by decide)) <| allCons (opsMlp2_ok.mono (by decide) (by decide)) <| allCons (opsHead_ok.mono (by decide) (by decide)) <| fun _ h => nomatch h) L hL o hoL

/-- An argument (index below 28) keeps its contents through the line. -/
theorem arg_keep (r : Ref sig .tc) (hr : r.idx.val < 28) (V : Valuation τ sig (Elt F)) :
    after (List.flatten (chunks (F := F))) V (Proc.devRef .tc r) = V (Proc.devRef .tc r) :=
  line_ok.keep r (Or.inl hr) V

/-- On every device, from any memory with zero counters: every weakly fair execution of @main terminates with each
    TensorCore buffer at the line's fold over the launch's contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after (List.flatten (chunks (F := F))) (launchContents m d) (Proc.devRef .tc b) :=
  run_seq scopedRefs_eq scopedSems_eq defs main (fun _ => List.flatten chunks) main_eq (fun _ => line_ok.sub) m ρ
    (fun _ => line_ok.fresh)

/-- The reference runs and its arguments end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c => ⟨(h c main_arg0).trans (arg_keep main_arg0 (by decide) _),
      (h c main_arg1).trans (arg_keep main_arg1 (by decide) _),
      (h c main_arg2).trans (arg_keep main_arg2 (by decide) _),
      (h c main_arg3).trans (arg_keep main_arg3 (by decide) _),
      (h c main_arg4).trans (arg_keep main_arg4 (by decide) _),
      (h c main_arg5).trans (arg_keep main_arg5 (by decide) _),
      (h c main_arg6).trans (arg_keep main_arg6 (by decide) _),
      (h c main_arg7).trans (arg_keep main_arg7 (by decide) _),
      (h c main_arg8).trans (arg_keep main_arg8 (by decide) _),
      (h c main_arg9).trans (arg_keep main_arg9 (by decide) _),
      (h c main_arg10).trans (arg_keep main_arg10 (by decide) _),
      (h c main_arg11).trans (arg_keep main_arg11 (by decide) _),
      (h c main_arg12).trans (arg_keep main_arg12 (by decide) _),
      (h c main_arg13).trans (arg_keep main_arg13 (by decide) _),
      (h c main_arg14).trans (arg_keep main_arg14 (by decide) _),
      (h c main_arg15).trans (arg_keep main_arg15 (by decide) _),
      (h c main_arg16).trans (arg_keep main_arg16 (by decide) _),
      (h c main_arg17).trans (arg_keep main_arg17 (by decide) _),
      (h c main_arg18).trans (arg_keep main_arg18 (by decide) _),
      (h c main_arg19).trans (arg_keep main_arg19 (by decide) _),
      (h c main_arg20).trans (arg_keep main_arg20 (by decide) _),
      (h c main_arg21).trans (arg_keep main_arg21 (by decide) _),
      (h c main_arg22).trans (arg_keep main_arg22 (by decide) _),
      (h c main_arg23).trans (arg_keep main_arg23 (by decide) _),
      (h c main_arg24).trans (arg_keep main_arg24 (by decide) _),
      (h c main_arg25).trans (arg_keep main_arg25 (by decide) _),
      (h c main_arg26).trans (arg_keep main_arg26 (by decide) _),
      (h c main_arg27).trans (arg_keep main_arg27 (by decide) _)⟩)
    (run_all m ρ)

/-- The reference's result: the line's fold at the result buffer, from the launch's contents. -/
def refOut (m : (ℓ : Loc nD τ sig) → Buf (Elt F) ℓ) (c : Dev nD) : Buf (Elt F) ((c.tc : Thread nD τ).loc main_v1082) :=
  after (List.flatten (chunks (F := F))) (launchContents m c) (Proc.devRef .tc main_v1082)

/-- The reference runs, its result buffer ends at `refOut` and its arguments unchanged. -/
theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v1082) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun _ h c => ⟨h c main_v1082,
      (h c main_arg0).trans (arg_keep main_arg0 (by decide) _),
      (h c main_arg1).trans (arg_keep main_arg1 (by decide) _),
      (h c main_arg2).trans (arg_keep main_arg2 (by decide) _),
      (h c main_arg3).trans (arg_keep main_arg3 (by decide) _),
      (h c main_arg4).trans (arg_keep main_arg4 (by decide) _),
      (h c main_arg5).trans (arg_keep main_arg5 (by decide) _),
      (h c main_arg6).trans (arg_keep main_arg6 (by decide) _),
      (h c main_arg7).trans (arg_keep main_arg7 (by decide) _),
      (h c main_arg8).trans (arg_keep main_arg8 (by decide) _),
      (h c main_arg9).trans (arg_keep main_arg9 (by decide) _),
      (h c main_arg10).trans (arg_keep main_arg10 (by decide) _),
      (h c main_arg11).trans (arg_keep main_arg11 (by decide) _),
      (h c main_arg12).trans (arg_keep main_arg12 (by decide) _),
      (h c main_arg13).trans (arg_keep main_arg13 (by decide) _),
      (h c main_arg14).trans (arg_keep main_arg14 (by decide) _),
      (h c main_arg15).trans (arg_keep main_arg15 (by decide) _),
      (h c main_arg16).trans (arg_keep main_arg16 (by decide) _),
      (h c main_arg17).trans (arg_keep main_arg17 (by decide) _),
      (h c main_arg18).trans (arg_keep main_arg18 (by decide) _),
      (h c main_arg19).trans (arg_keep main_arg19 (by decide) _),
      (h c main_arg20).trans (arg_keep main_arg20 (by decide) _),
      (h c main_arg21).trans (arg_keep main_arg21 (by decide) _),
      (h c main_arg22).trans (arg_keep main_arg22 (by decide) _),
      (h c main_arg23).trans (arg_keep main_arg23 (by decide) _),
      (h c main_arg24).trans (arg_keep main_arg24 (by decide) _),
      (h c main_arg25).trans (arg_keep main_arg25 (by decide) _),
      (h c main_arg26).trans (arg_keep main_arg26 (by decide) _),
      (h c main_arg27).trans (arg_keep main_arg27 (by decide) _)⟩)
    (run_all m ρ)

end Cert.ReferenceIdeal.Hand

end
-- ==== Proof.Frames.lean ====
/- The three frame conjuncts: each program runs to the end from any memory and leaves its twenty-eight argument arrays as
   launched — the host operations write no argument, and the pipeline's body writes only its output window. -/
import proofs.«138882_j46462956208560_1_alg».proof.Defs
import proofs.«138882_j46462956208560_1_alg».proof.Proof.Gen.Kernel
import proofs.«138882_j46462956208560_1_alg».proof.Proof.Gen.KernelIdeal
import proofs.«138882_j46462956208560_1_alg».proof.Proof.Gen.ReferenceIdeal
import proofs.«138882_j46462956208560_1_alg».proof.Proof.Gen.Pre_finite_inputs
import proofs.«138882_j46462956208560_1_alg».proof.Proof.Kernel.FrameRun
import proofs.«138882_j46462956208560_1_alg».proof.Proof.KernelIdeal.FrameRun
import proofs.«138882_j46462956208560_1_alg».proof.Proof.ReferenceIdeal.Run
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m g _ => Cert.Kernel.Hand.frame m g
theorem frame_ki : Cert.frame_KernelIdeal (hKernelIdeal := Cert.KernelIdeal.Gen.facts) (hPre_finite_inputs := Cert.Pre_finite_inputs.Gen.facts) :=
  fun m g _ => Cert.KernelIdeal.Hand.frame m g
theorem frame_ri : Cert.frame_ReferenceIdeal (hReferenceIdeal := Cert.ReferenceIdeal.Gen.facts) (hPre_finite_inputs := Cert.Pre_finite_inputs.Gen.facts) :=
  fun m g _ => Cert.ReferenceIdeal.Hand.frame m g

end Cert.Proof

end
-- ==== Proof.Spec.lean ====
/- The decoder one row at a time, on the extended reals.
   A point's 24 sampled features of one level go through three dense layers (24 → 168 → 168 → 35), the first two followed by
   `max · 0`; the three levels' outputs are added; of the 35 columns the first 31 are kept, columns 31..33 go through
   the logistic function and column 34 is multiplied by ten. Both programs compute this row by row: the kernel on blocks of
   10000 rows, the reference on all 500000 at once. -/
import Idealize.ShloMosaic.PureOps.Ideal

noncomputable section

namespace Cert.Spec

open Idealize.ShloMosaic

/-- One level's weights and biases, read by index. -/
structure Level where
  w1 : Fin 24 → Fin 168 → EReal
  b1 : Fin 168 → EReal
  w2 : Fin 168 → Fin 168 → EReal
  b2 : Fin 168 → EReal
  w3 : Fin 168 → Fin 35 → EReal
  b3 : Fin 35 → EReal

/-- A dense layer at one row: `(∑ k, x k · w k j) + b j`. -/
def dense {K N : ℕ} (x : Fin K → EReal) (w : Fin K → Fin N → EReal) (b : Fin N → EReal) (j : Fin N) : EReal :=
  (∑ k : Fin K, x k * w k j) + b j

/-- One level's 35 outputs for one row of features. -/
def Level.out (L : Level) (x : Fin 24 → EReal) (q : Fin 35) : EReal :=
  dense (fun i => max (dense (fun i' => max (dense x L.w1 L.b1 i') 0) L.w2 L.b2 i) 0) L.w3 L.b3 q

/-- The head: columns 0..30 kept, 31..33 through the logistic function, 34 times ten. -/
def head (a : Fin 35 → EReal) (q : Fin 35) : EReal :=
  if q.val < 31 then a q else if q.val < 34 then Ideal.logistic (a q) else a q * Ideal.ofBits .f32 0x41200000#32

/-- One output row: the head of the three levels' sum. -/
def rowOut (L0 L1 L2 : Level) (x0 x1 x2 : Fin 24 → EReal) (q : Fin 35) : EReal :=
  head (fun j => L0.out x0 j + L1.out x1 j + L2.out x2 j) q

/-- The whole output array, row by row. -/
def arrOut (L0 L1 L2 : Level) (f0 f1 f2 : Fin 500000 → Fin 24 → EReal) (r : Fin 500000) (q : Fin 35) : EReal :=
  rowOut L0 L1 L2 (f0 r) (f1 r) (f2 r) q

end Cert.Spec

end
-- ==== Proof.KernelIdeal.Payload.lean ====
/- The block of 10000 rows the kernel's body stores, read at one row and one column, on the extended reals.
   Each level is three dense layers: a product into a zero splat is the plain sum over the contracted axis, the narrowing of
   an operand before a product is the identity, a bias viewed as one row and repeated down the rows is read at its column,
   and `max · 0` is pointwise. The three levels' outputs are added to a zero splat in the order 0, 1, 2; of the sum, columns
   0..30 are kept, columns 31..33 go through the logistic function and column 34 is multiplied by the splat of ten. The row's
   value is `Cert.Spec.rowOut` of the three levels' weights and the three feature rows. -/
import proofs.«138882_j46462956208560_1_alg».proof.Proof.Gen.KernelIdeal.Skeleton
import proofs.«138882_j46462956208560_1_alg».proof.Proof.Spec
import Idealize.ShloMosaic.Lib.ValueIdx
import Idealize.ShloMosaic.PureOps.Ideal.Laws
import Idealize.ShloMosaic.Lib.Pipeline.Value

noncomputable section

namespace Cert.KernelIdeal.Hand

open Cert.KernelIdeal Cert.KernelIdeal.Gen
open Idealize.ShloMosaic Idealize.ShloMosaic.ValueIdx
open scoped BigOperators
/-- A two-axis contraction over its one contracted axis, read at row `p`, column `j`: the sum over `k` of the
    left operand at `(p, k)` times the right operand at `(k, j)`. The four coordinate facts say which operand
    coordinate each output and contraction coordinate lands on. -/
theorem contr_row {M K N : ℕ} (D : DotDims ⟨2, ![M, K]⟩ ⟨2, ![K, N]⟩ ⟨2, ![M, N]⟩) (hr : D.contr.rank = 1)
    (hs : D.contr.size ⟨0, by omega⟩ = K)
    (l0 : ∀ (i : (⟨2, ![M, N]⟩ : Shape).Idx) (q : D.contr.Idx), (D.lhsIdx i q (⟨0, Nat.zero_lt_two⟩ : Fin 2)).val = (i (⟨0, Nat.zero_lt_two⟩ : Fin 2)).val)
    (l1 : ∀ (i : (⟨2, ![M, N]⟩ : Shape).Idx) (q : D.contr.Idx), (D.lhsIdx i q (⟨1, Nat.one_lt_two⟩ : Fin 2)).val = (q ⟨0, by omega⟩).val)
    (r0 : ∀ (i : (⟨2, ![M, N]⟩ : Shape).Idx) (q : D.contr.Idx), (D.rhsIdx i q (⟨0, Nat.zero_lt_two⟩ : Fin 2)).val = (q ⟨0, by omega⟩).val)
    (r1 : ∀ (i : (⟨2, ![M, N]⟩ : Shape).Idx) (q : D.contr.Idx), (D.rhsIdx i q (⟨1, Nat.one_lt_two⟩ : Fin 2)).val = (i (⟨1, Nat.one_lt_two⟩ : Fin 2)).val)
    (lhs : (⟨2, ![M, K]⟩ : Shape).Idx → EReal) (rhs : (⟨2, ![K, N]⟩ : Shape).Idx → EReal) (p : Fin M) (j : Fin N) :
    ∑ q : D.contr.Idx, lhs (D.lhsIdx (ix2 p j) q) * rhs (D.rhsIdx (ix2 p j) q) = ∑ k : Fin K, lhs (ix2 p k) * rhs (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact l0 _ _
    | ⟨1, _⟩ => exact (l1 _ _).trans hk)
  have er : D.rhsIdx (ix2 p j) ((contrEquiv1 D K hr hs).symm k) = ix2 k j := funext fun a => Fin.ext (by
    match a with
    | ⟨0, _⟩ => exact (r0 _ _).trans hk
    | ⟨1, _⟩ => exact r1 _ _)
  rw [el, er]

theorem lhs_d24_0 (i : S10000x168.Idx) (q : dot_S10000x24_S24x168_S10000x168_1_0_0_1_n_n.contr.Idx) :
    (dot_S10000x24_S24x168_S10000x168_1_0_0_1_n_n.lhsIdx i q 0).val = (i 0).val := by
  unfold DotDims.lhsIdx
  rw [dif_neg (show ¬(0 : Fin S10000x24.rank) ∈ dot_S10000x24_S24x168_S10000x168_1_0_0_1_n_n.lhsBatch by decide), dif_pos (show (0 : Fin S10000x24.rank) ∈ dot_S10000x24_S24x168_S10000x168_1_0_0_1_n_n.lhsNonContracting by decide)]
  rfl
theorem lhs_d24_1 (i : S10000x168.Idx) (q : dot_S10000x24_S24x168_S10000x168_1_0_0_1_n_n.contr.Idx) :
    (dot_S10000x24_S24x168_S10000x168_1_0_0_1_n_n.lhsIdx i q 1).val = (q ⟨0, by decide⟩).val :=
  dot_S10000x24_S24x168_S10000x168_1_0_0_1_n_n.lhsIdx_val_of_single rfl i q
theorem rhs_d24_0 (i : S10000x168.Idx) (q : dot_S10000x24_S24x168_S10000x168_1_0_0_1_n_n.contr.Idx) :
    (dot_S10000x24_S24x168_S10000x168_1_0_0_1_n_n.rhsIdx i q 0).val = (q ⟨0, by decide⟩).val :=
  dot_S10000x24_S24x168_S10000x168_1_0_0_1_n_n.rhsIdx_val_of_single rfl i q
theorem rhs_d24_1 (i : S10000x168.Idx) (q : dot_S10000x24_S24x168_S10000x168_1_0_0_1_n_n.contr.Idx) :
    (dot_S10000x24_S24x168_S10000x168_1_0_0_1_n_n.rhsIdx i q 1).val = (i 1).val := by
  unfold DotDims.rhsIdx
  rw [dif_neg (show ¬(1 : Fin S24x168.rank) ∈ dot_S10000x24_S24x168_S10000x168_1_0_0_1_n_n.rhsBatch by decide), dif_pos (show (1 : Fin S24x168.rank) ∈ dot_S10000x24_S24x168_S10000x168_1_0_0_1_n_n.rhsNonContracting by decide)]
  rfl

theorem lhs_d168_0 (i : S10000x168.Idx) (q : dot_S10000x168_S168x168_S10000x168_1_0_0_1_n_n.contr.Idx) :
    (dot_S10000x168_S168x168_S10000x168_1_0_0_1_n_n.lhsIdx i q 0).val = (i 0).val := by
  unfold DotDims.lhsIdx
  rw [dif_neg (show ¬(0 : Fin S10000x168.rank) ∈ dot_S10000x168_S168x168_S10000x168_1_0_0_1_n_n.lhsBatch by decide), dif_pos (show (0 : Fin S10000x168.rank) ∈ dot_S10000x168_S168x168_S10000x168_1_0_0_1_n_n.lhsNonContracting by decide)]
  rfl
theorem lhs_d168_1 (i : S10000x168.Idx) (q : dot_S10000x168_S168x168_S10000x168_1_0_0_1_n_n.contr.Idx) :
    (dot_S10000x168_S168x168_S10000x168_1_0_0_1_n_n.lhsIdx i q 1).val = (q ⟨0, by decide⟩).val :=
  dot_S10000x168_S168x168_S10000x168_1_0_0_1_n_n.lhsIdx_val_of_single rfl i q
theorem rhs_d168_0 (i : S10000x168.Idx) (q : dot_S10000x168_S168x168_S10000x168_1_0_0_1_n_n.contr.Idx) :
    (dot_S10000x168_S168x168_S10000x168_1_0_0_1_n_n.rhsIdx i q 0).val = (q ⟨0, by decide⟩).val :=
  dot_S10000x168_S168x168_S10000x168_1_0_0_1_n_n.rhsIdx_val_of_single rfl i q
theorem rhs_d168_1 (i : S10000x168.Idx) (q : dot_S10000x168_S168x168_S10000x168_1_0_0_1_n_n.contr.Idx) :
    (dot_S10000x168_S168x168_S10000x168_1_0_0_1_n_n.rhsIdx i q 1).val = (i 1).val := by
  unfold DotDims.rhsIdx
  rw [dif_neg (show ¬(1 : Fin S168x168.rank) ∈ dot_S10000x168_S168x168_S10000x168_1_0_0_1_n_n.rhsBatch by decide), dif_pos (show (1 : Fin S168x168.rank) ∈ dot_S10000x168_S168x168_S10000x168_1_0_0_1_n_n.rhsNonContracting by decide)]
  rfl

theorem lhs_d35_0 (i : S10000x35.Idx) (q : dot_S10000x168_S168x35_S10000x35_1_0_0_1_n_n.contr.Idx) :
    (dot_S10000x168_S168x35_S10000x35_1_0_0_1_n_n.lhsIdx i q 0).val = (i 0).val := by
  unfold DotDims.lhsIdx
  rw [dif_neg (show ¬(0 : Fin S10000x168.rank) ∈ dot_S10000x168_S168x35_S10000x35_1_0_0_1_n_n.lhsBatch by decide), dif_pos (show (0 : Fin S10000x168.rank) ∈ dot_S10000x168_S168x35_S10000x35_1_0_0_1_n_n.lhsNonContracting by decide)]
  rfl
theorem lhs_d35_1 (i : S10000x35.Idx) (q : dot_S10000x168_S168x35_S10000x35_1_0_0_1_n_n.contr.Idx) :
    (dot_S10000x168_S168x35_S10000x35_1_0_0_1_n_n.lhsIdx i q 1).val = (q ⟨0, by decide⟩).val :=
  dot_S10000x168_S168x35_S10000x35_1_0_0_1_n_n.lhsIdx_val_of_single rfl i q
theorem rhs_d35_0 (i : S10000x35.Idx) (q : dot_S10000x168_S168x35_S10000x35_1_0_0_1_n_n.contr.Idx) :
    (dot_S10000x168_S168x35_S10000x35_1_0_0_1_n_n.rhsIdx i q 0).val = (q ⟨0, by decide⟩).val :=
  dot_S10000x168_S168x35_S10000x35_1_0_0_1_n_n.rhsIdx_val_of_single rfl i q
theorem rhs_d35_1 (i : S10000x35.Idx) (q : dot_S10000x168_S168x35_S10000x35_1_0_0_1_n_n.contr.Idx) :
    (dot_S10000x168_S168x35_S10000x35_1_0_0_1_n_n.rhsIdx i q 1).val = (i 1).val := by
  unfold DotDims.rhsIdx
  rw [dif_neg (show ¬(1 : Fin S168x35.rank) ∈ dot_S10000x168_S168x35_S10000x35_1_0_0_1_n_n.rhsBatch by decide), dif_pos (show (1 : Fin S168x35.rank) ∈ dot_S10000x168_S168x35_S10000x35_1_0_0_1_n_n.rhsNonContracting by decide)]
  rfl

/-- The first layer's product into the zero splat, at `(p, j)`: the sum over the 24 features. -/
theorem mm24 {φ₁ φ₂ : FTy} (lhs : FVec Ideal S10000x24 φ₁) (rhs : FVec Ideal S24x168 φ₂) (p : Fin 10000) (j : Fin 168) :
    matmul dot_S10000x24_S24x168_S10000x168_1_0_0_1_n_n none lhs rhs (constant (F := Ideal) S10000x168 .f32 0x00000000#32) (ix2 p j)
      = ∑ k : Fin 24, lhs (ix2 p k) * rhs (ix2 k j) := by
  simp only [matmul]
  rw [Ideal.matmul_constant_zero_apply]
  exact contr_row dot_S10000x24_S24x168_S10000x168_1_0_0_1_n_n rfl rfl lhs_d24_0 lhs_d24_1 rhs_d24_0 rhs_d24_1 lhs rhs p j

/-- The second layer's product into the zero splat, at `(p, j)`: the sum over the 168 hidden units. -/
theorem mm168 {φ₁ φ₂ : FTy} (lhs : FVec Ideal S10000x168 φ₁) (rhs : FVec Ideal S168x168 φ₂) (p : Fin 10000) (j : Fin 168) :
    matmul dot_S10000x168_S168x168_S10000x168_1_0_0_1_n_n none lhs rhs (constant (F := Ideal) S10000x168 .f32 0x00000000#32) (ix2 p j)
      = ∑ k : Fin 168, lhs (ix2 p k) * rhs (ix2 k j) := by
  simp only [matmul]
  rw [Ideal.matmul_constant_zero_apply]
  exact contr_row dot_S10000x168_S168x168_S10000x168_1_0_0_1_n_n rfl rfl lhs_d168_0 lhs_d168_1 rhs_d168_0 rhs_d168_1 lhs rhs p j

/-- The third layer's product into the zero splat, at `(p, j)`: the sum over the 168 hidden units. -/
theorem mm35 {φ₁ φ₂ : FTy} (lhs : FVec Ideal S10000x168 φ₁) (rhs : FVec Ideal S168x35 φ₂) (p : Fin 10000) (j : Fin 35) :
    matmul dot_S10000x168_S168x35_S10000x35_1_0_0_1_n_n none lhs rhs (constant (F := Ideal) S10000x35 .f32 0x00000000#32) (ix2 p j)
      = ∑ k : Fin 168, lhs (ix2 p k) * rhs (ix2 k j) := by
  simp only [matmul]
  rw [Ideal.matmul_constant_zero_apply]
  exact contr_row dot_S10000x168_S168x35_S10000x35_1_0_0_1_n_n rfl rfl lhs_d35_0 lhs_d35_1 rhs_d35_0 rhs_d35_1 lhs rhs p j

/-- A bias vector viewed as one row and repeated down the rows reads, at `(p, j)`, its entry `j`. -/
theorem bias168 (b : Vec Ideal S168 .f32) (p : Fin 10000) (j : Fin 168) :
    (broadcastTo S10000x168 (shapeCast S1x168 b shapeCasts_S168_S1x168) broadcasts_S1x168_S10000x168 : FVec Ideal S10000x168 .f32) (ix2 p j)
      = b (ix1 j) := by
  refine (broadcastTo_apply _ broadcasts_S1x168_S10000x168 (ix2 p j) (ix2 (⟨0, Nat.one_pos⟩ : Fin 1) j) (fun a => ?_)).trans ?_
  · match a with
    | ⟨0, _⟩ => show 0 = if (1 : Nat) = 1 then 0 else p.val; rw [if_pos rfl]
    | ⟨1, _⟩ => show j.val = if (168 : Nat) = 1 then 0 else j.val; rw [if_neg (by decide)]
  · exact shapeCast_apply b shapeCasts_S168_S1x168 _ (ix1 j) (by
      rw [Shape.rowMajor_val_one, Shape.rowMajor_val_two]; show j.val = 0 * 168 + j.val; omega)

/-- A bias vector viewed as one row and repeated down the rows reads, at `(p, j)`, its entry `j`. -/
theorem bias35 (b : Vec Ideal S35 .f32) (p : Fin 10000) (j : Fin 35) :
    (broadcastTo S10000x35 (shapeCast S1x35 b shapeCasts_S35_S1x35) broadcasts_S1x35_S10000x35 : FVec Ideal S10000x35 .f32) (ix2 p j)
      = b (ix1 j) := by
  refine (broadcastTo_apply _ broadcasts_S1x35_S10000x35 (ix2 p j) (ix2 (⟨0, Nat.one_pos⟩ : Fin 1) j) (fun a => ?_)).trans ?_
  · match a with
    | ⟨0, _⟩ => show 0 = if (1 : Nat) = 1 then 0 else p.val; rw [if_pos rfl]
    | ⟨1, _⟩ => show j.val = if (35 : Nat) = 1 then 0 else j.val; rw [if_neg (by decide)]
  · exact shapeCast_apply b shapeCasts_S35_S1x35 _ (ix1 j) (by
      rw [Shape.rowMajor_val_one, Shape.rowMajor_val_two]; show j.val = 0 * 35 + j.val; omega)

/-- The zero word read as a scalar is the extended real `0`. -/
theorem scalar_zero : Scalar.ofBits (F := Ideal) .f32 0x00000000#32 = (0 : EReal) := Ideal.ofBits_zero_f32

/-- The head at `(p, q)`: columns 0..30 sliced out and kept, columns 31..33 sliced out and sent through the logistic
    function, column 34 sliced out and multiplied by the splat of ten, the three laid side by side. -/
theorem head_at (v : FVec Ideal S10000x35 .f32) (p : Fin 10000) (q : Fin 35) :
    concatenate S10000x35 1 [⟨S10000x31, extractStridedSlice S10000x31 ![0, 0] v slices_S10000x35_o0_0_S10000x31⟩,
        ⟨S10000x3, logistic (extractStridedSlice S10000x3 ![0, 31] v slices_S10000x35_o0_31_S10000x3)⟩,
        ⟨S10000x1, mulf (extractStridedSlice S10000x1 ![0, 34] v slices_S10000x35_o0_34_S10000x1)
          (broadcast S10000x1 (Scalar.ofBits .f32 0x41200000#32))⟩]
        concatenates_S10000x31_S10000x3_S10000x1_S10000x35_d1 (ix2 p q)
      = Cert.Spec.head (fun j => v (ix2 p j)) q := by
  unfold Cert.Spec.head
  by_cases h1 : q.val < 31
  · rw [if_pos h1]
    · refine Eq.trans (concatenate_apply_piece _ _ _ (ix2 p q) 0 ?_ S10000x31 (extractStridedSlice S10000x31 ![0, 0] v slices_S10000x35_o0_0_S10000x31) ?_ rfl 0 ?_ (ix2 p (⟨q.val, h1⟩ : Fin 31)) ?_ ?_) ?_
      · exact Nat.succ_pos _
      · rfl
      · rfl
      · intro b hb
        match b with
        | ⟨0, _⟩ => rfl
        | ⟨1, _⟩ => exact absurd rfl hb
      · show 0 + q.val = q.val
        omega
      · exact extractStridedSlice_apply _ v slices_S10000x35_o0_0_S10000x31 _ (ix2 p q) (fun a => match a with
          | ⟨0, _⟩ => by show p.val = 0 + p.val; omega
          | ⟨1, _⟩ => by show q.val = 0 + q.val; omega)
  · rw [if_neg h1]
    by_cases h2 : q.val < 34
    · rw [if_pos h2]
      refine Eq.trans (concatenate_apply_piece _ _ _ (ix2 p q) 1 ?_ S10000x3 (logistic (extractStridedSlice S10000x3 ![0, 31] v slices_S10000x35_o0_31_S10000x3)) ?_ rfl 31 ?_ (ix2 p (⟨q.val - 31, by omega⟩ : Fin 3)) ?_ ?_) ?_
      · exact (by decide : (1 : ℕ) < 3)
      · rfl
      · rfl
      · intro b hb
        match b with
        | ⟨0, _⟩ => rfl
        | ⟨1, _⟩ => exact absurd rfl hb
      · show 31 + (q.val - 31) = q.val
        omega
      · show Ideal.logistic (extractStridedSlice S10000x3 ![0, 31] v slices_S10000x35_o0_31_S10000x3 (ix2 p (⟨q.val - 31, by omega⟩ : Fin 3))) = _
        rw [extractStridedSlice_apply _ v slices_S10000x35_o0_31_S10000x3 _ (ix2 p q) (fun a => match a with
          | ⟨0, _⟩ => by show p.val = 0 + p.val; omega
          | ⟨1, _⟩ => by show q.val = 31 + (q.val - 31); omega)]
    · rw [if_neg h2]
      have hq : q.val = 34 := by have := q.isLt; omega
      refine Eq.trans (concatenate_apply_piece _ _ _ (ix2 p q) 2 ?_ S10000x1 (mulf (extractStridedSlice S10000x1 ![0, 34] v slices_S10000x35_o0_34_S10000x1) (broadcast S10000x1 (Scalar.ofBits .f32 0x41200000#32))) ?_ rfl 34 ?_ (ix2 p (⟨0, Nat.one_pos⟩ : Fin 1)) ?_ ?_) ?_
      · exact (by decide : (2 : ℕ) < 3)
      · rfl
      · rfl
      · intro b hb
        match b with
        | ⟨0, _⟩ => rfl
        | ⟨1, _⟩ => exact absurd rfl hb
      · show 34 + 0 = q.val
        omega
      · show extractStridedSlice S10000x1 ![0, 34] v slices_S10000x35_o0_34_S10000x1 (ix2 p (⟨0, Nat.one_pos⟩ : Fin 1)) * Ideal.ofBits .f32 0x41200000#32 = _
        rw [extractStridedSlice_apply _ v slices_S10000x35_o0_34_S10000x1 _ (ix2 p q) (fun a => match a with
          | ⟨0, _⟩ => by show p.val = 0 + p.val; omega
          | ⟨1, _⟩ => by show q.val = 34 + 0; omega)]

/-- One level's weights and biases read by row and column. -/
def lvl (w1 : Vec Ideal S24x168 .f32) (b1 : Vec Ideal S168 .f32) (w2 : Vec Ideal S168x168 .f32) (b2 : Vec Ideal S168 .f32)
    (w3 : Vec Ideal S168x35 .f32) (b3 : Vec Ideal S35 .f32) : Cert.Spec.Level :=
  ⟨fun k j => w1 (ix2 k j), fun j => b1 (ix1 j), fun k j => w2 (ix2 k j), fun j => b2 (ix1 j), fun k j => w3 (ix2 k j),
    fun j => b3 (ix1 j)⟩

/-- One level's three dense layers on a block of rows, at `(p, q)`: the narrowing of each operand is the identity, each
    product into the zero splat is a plain sum, each bias is read at its column, and the two `max · 0` are pointwise. -/
theorem level_at (x : FVec Ideal S10000x24 .f32) (w1 : Vec Ideal S24x168 .f32) (b1 : Vec Ideal S168 .f32)
    (w2 : Vec Ideal S168x168 .f32) (b2 : Vec Ideal S168 .f32) (w3 : Vec Ideal S168x35 .f32) (b3 : Vec Ideal S35 .f32)
    (p : Fin 10000) (q : Fin 35) :
    addf (matmul dot_S10000x168_S168x35_S10000x35_1_0_0_1_n_n none
        (truncf .bf16 (maximumf (addf (matmul dot_S10000x168_S168x168_S10000x168_1_0_0_1_n_n none
            (truncf .bf16 (maximumf (addf (matmul dot_S10000x24_S24x168_S10000x168_1_0_0_1_n_n none
                (truncf .bf16 x bitsLt_bf16_f32) (truncf .bf16 w1 bitsLt_bf16_f32) (constant S10000x168 .f32 0x00000000#32))
              (broadcastTo S10000x168 (shapeCast S1x168 b1 shapeCasts_S168_S1x168) broadcasts_S1x168_S10000x168))
              (broadcast S10000x168 (Scalar.ofBits .f32 0x00000000#32))) bitsLt_bf16_f32)
            (truncf .bf16 w2 bitsLt_bf16_f32) (constant S10000x168 .f32 0x00000000#32))
          (broadcastTo S10000x168 (shapeCast S1x168 b2 shapeCasts_S168_S1x168) broadcasts_S1x168_S10000x168))
          (broadcast S10000x168 (Scalar.ofBits .f32 0x00000000#32))) bitsLt_bf16_f32)
        (truncf .bf16 w3 bitsLt_bf16_f32) (constant S10000x35 .f32 0x00000000#32))
      (broadcastTo S10000x35 (shapeCast S1x35 b3 shapeCasts_S35_S1x35) broadcasts_S1x35_S10000x35) (ix2 p q)
      = (lvl w1 b1 w2 b2 w3 b3).out (fun k => x (ix2 p k)) q := by
  simp only [addf_apply, maximumf_apply, truncf_apply, broadcast_apply, mm24, mm168, mm35, bias168, bias35, scalar_zero]
  rfl

/-- **The block the body stores, at `(p, q)`**: the head of the three levels' outputs for row `p`, summed from the zero
    splat in the order level 0, level 1, level 2. -/
theorem pay_at (x0 x1 x2 : Vec Ideal S10000x24 .f32)
    (v6 : Vec Ideal S24x168 .f32) (v7 : Vec Ideal S168 .f32) (v8 : Vec Ideal S168x168 .f32) (v9 : Vec Ideal S168 .f32) (v10 : Vec Ideal S168x35 .f32) (v11 : Vec Ideal S35 .f32)
    (v12 : Vec Ideal S24x168 .f32) (v13 : Vec Ideal S168 .f32) (v14 : Vec Ideal S168x168 .f32) (v15 : Vec Ideal S168 .f32) (v16 : Vec Ideal S168x35 .f32) (v17 : Vec Ideal S35 .f32)
    (v18 : Vec Ideal S24x168 .f32) (v19 : Vec Ideal S168 .f32) (v20 : Vec Ideal S168x168 .f32) (v21 : Vec Ideal S168 .f32) (v22 : Vec Ideal S168x35 .f32) (v23 : Vec Ideal S35 .f32)
    (p : Fin 10000) (q : Fin 35) :
    k0_pay1 (F := Ideal) v19 v20 v21 v22 v23
        (k0_pay6 (k0_pay2 x0) (k0_pay3 x1) v6 v7 v8 v9 v10 v11 v12 v13 v14 v15 v16 v17 k0_pay5) (k0_pay7 (k0_pay4 x2) v18) (ix2 p q)
      = Cert.Spec.rowOut (lvl v6 v7 v8 v9 v10 v11) (lvl v12 v13 v14 v15 v16 v17) (lvl v18 v19 v20 v21 v22 v23)
          (fun k => x0 (ix2 p k)) (fun k => x1 (ix2 p k)) (fun k => x2 (ix2 p k)) q := by
  unfold k0_pay1 k0_pay6 k0_pay7 k0_pay2 k0_pay3 k0_pay4 k0_pay5
  dsimp only
  rw [head_at]
  unfold Cert.Spec.rowOut
  congr 1
  funext j
  simp only [shapeCast_self]
  show _ + _ + _ + _ = _
  rw [level_at, level_at, level_at, broadcast_apply, scalar_zero, zero_add]

end Cert.KernelIdeal.Hand
end
-- ==== Proof.KernelIdeal.Value.lean ====
/- The output array after the run, read at an index.
   The region has 50 points; point `t` stores one block of 10000 rows. Each of the three feature windows sits on the same
   rows as the output's block, and each of the 18 weight windows holds its whole array, so what point `t` writes is block
   `t` of ONE function of the arrays the region finds: the decoder applied row by row. The 50 blocks cover the 500000 rows
   (row `r` is in block `r / 10000`), so the array ends holding that function; and the run's post, read at the output and
   at the 28 arguments, says so of every final state. -/
import proofs.«138882_j46462956208560_1_alg».proof.Proof.KernelIdeal.FrameRun
import proofs.«138882_j46462956208560_1_alg».proof.Proof.KernelIdeal.Payload
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section Blocks

theorem zero2 : (![0, 0] : Fin 2 → Nat) = fun _ => 0 := funext fun a => by fin_cases a <;> rfl
theorem zero1 : (![0] : Fin 1 → Nat) = fun _ => 0 := funext fun a => by fin_cases a <;> rfl

/-! ## Where each window's block sits -/

/-- At every point the three feature windows sit on the output's block of rows, all columns; the output's block of rows
    is one of the 50. -/
theorem idx_facts : ∀ t : Fin cfg0.N,
    win0_0.index t (0 : Fin 2) = win0_21.index t (0 : Fin 2) ∧ win0_0.index t (1 : Fin 2) = 0
    ∧ win0_1.index t (0 : Fin 2) = win0_21.index t (0 : Fin 2) ∧ win0_1.index t (1 : Fin 2) = 0
    ∧ win0_2.index t (0 : Fin 2) = win0_21.index t (0 : Fin 2) ∧ win0_2.index t (1 : Fin 2) = 0
    ∧ win0_21.index t (1 : Fin 2) = 0 ∧ win0_21.index t (0 : Fin 2) ≤ 49 :=
  (by decide +kernel : ∀ t : Fin grid0.N, _)

/-- Every one of the 50 blocks of rows is some point's. -/
theorem idx_onto : ∀ b : Fin 50, ∃ t : Fin cfg0.N, win0_21.index t = ![b.val, 0] :=
  (by decide +kernel : ∀ b : Fin 50, ∃ t : Fin grid0.N, win0_21.index t = ![b.val, 0])

theorem idx_whole3 : ∀ t : Fin cfg0.N, win0_3.index t (0 : Fin 2) = 0 ∧ win0_3.index t (1 : Fin 2) = 0 :=
  (by decide +kernel : ∀ t : Fin grid0.N, _)
theorem idx_whole4 : ∀ t : Fin cfg0.N, win0_4.index t (0 : Fin 1) = 0 :=
  (by decide +kernel : ∀ t : Fin grid0.N, _)
theorem idx_whole5 : ∀ t : Fin cfg0.N, win0_5.index t (0 : Fin 2) = 0 ∧ win0_5.index t (1 : Fin 2) = 0 :=
  (by decide +kernel : ∀ t : Fin grid0.N, _)
theorem idx_whole6 : ∀ t : Fin cfg0.N, win0_6.index t (0 : Fin 1) = 0 :=
  (by decide +kernel : ∀ t : Fin grid0.N, _)
theorem idx_whole7 : ∀ t : Fin cfg0.N, win0_7.index t (0 : Fin 2) = 0 ∧ win0_7.index t (1 : Fin 2) = 0 :=
  (by decide +kernel : ∀ t : Fin grid0.N, _)
theorem idx_whole8 : ∀ t : Fin cfg0.N, win0_8.index t (0 : Fin 1) = 0 :=
  (by decide +kernel : ∀ t : Fin grid0.N, _)
theorem idx_whole9 : ∀ t : Fin cfg0.N, win0_9.index t (0 : Fin 2) = 0 ∧ win0_9.index t (1 : Fin 2) = 0 :=
  (by decide +kernel : ∀ t : Fin grid0.N, _)
theorem idx_whole10 : ∀ t : Fin cfg0.N, win0_10.index t (0 : Fin 1) = 0 :=
  (by decide +kernel : ∀ t : Fin grid0.N, _)
theorem idx_whole11 : ∀ t : Fin cfg0.N, win0_11.index t (0 : Fin 2) = 0 ∧ win0_11.index t (1 : Fin 2) = 0 :=
  (by decide +kernel : ∀ t : Fin grid0.N, _)
theorem idx_whole12 : ∀ t : Fin cfg0.N, win0_12.index t (0 : Fin 1) = 0 :=
  (by decide +kernel : ∀ t : Fin grid0.N, _)
theorem idx_whole13 : ∀ t : Fin cfg0.N, win0_13.index t (0 : Fin 2) = 0 ∧ win0_13.index t (1 : Fin 2) = 0 :=
  (by decide +kernel : ∀ t : Fin grid0.N, _)
theorem idx_whole14 : ∀ t : Fin cfg0.N, win0_14.index t (0 : Fin 1) = 0 :=
  (by decide +kernel : ∀ t : Fin grid0.N, _)
theorem idx_whole15 : ∀ t : Fin cfg0.N, win0_15.index t (0 : Fin 2) = 0 ∧ win0_15.index t (1 : Fin 2) = 0 :=
  (by decide +kernel : ∀ t : Fin grid0.N, _)
theorem idx_whole16 : ∀ t : Fin cfg0.N, win0_16.index t (0 : Fin 1) = 0 :=
  (by decide +kernel : ∀ t : Fin grid0.N, _)
theorem idx_whole17 : ∀ t : Fin cfg0.N, win0_17.index t (0 : Fin 2) = 0 ∧ win0_17.index t (1 : Fin 2) = 0 :=
  (by decide +kernel : ∀ t : Fin grid0.N, _)
theorem idx_whole18 : ∀ t : Fin cfg0.N, win0_18.index t (0 : Fin 1) = 0 :=
  (by decide +kernel : ∀ t : Fin grid0.N, _)
theorem idx_whole19 : ∀ t : Fin cfg0.N, win0_19.index t (0 : Fin 2) = 0 ∧ win0_19.index t (1 : Fin 2) = 0 :=
  (by decide +kernel : ∀ t : Fin grid0.N, _)
theorem idx_whole20 : ∀ t : Fin cfg0.N, win0_20.index t (0 : Fin 1) = 0 :=
  (by decide +kernel : ∀ t : Fin grid0.N, _)

/-! ## An array read through a window's block, for any array -/

/-- Row `p` of window 0's block at point `t` is row `R` of its array, when `R` is the output block's first row plus `p`. -/
theorem blk0_read (t : Fin cfg0.N) (X : S500000x24.Idx → EReal) (p : Fin 10000) (k : Fin 24) (R : Fin 500000)
    (hR : R.val = win0_21.index t (0 : Fin 2) * 10000 + p.val) :
    ((((cfg0.win 0).blk t).view.read (Elt Ideal) X) : S10000x24.Idx → EReal) (ix2 p k) = X (ix2 R k) := by
  obtain ⟨e0, e1, e2, e3, e4, e5, e6, e7⟩ := idx_facts t
  show X (((cfg0.win 0).blk t).view.emb (ix2 p k)) = X (ix2 R k)
  refine congrArg X (funext fun a => Fin.ext ?_)
  match a with
  | ⟨0, _⟩ => show win0_0.index t (0 : Fin 2) * 10000 + 1 * p.val = R.val; omega
  | ⟨1, _⟩ => show win0_0.index t (1 : Fin 2) * 24 + 1 * k.val = k.val; omega

/-- Row `p` of window 1's block at point `t` is row `R` of its array, when `R` is the output block's first row plus `p`. -/
theorem blk1_read (t : Fin cfg0.N) (X : S500000x24.Idx → EReal) (p : Fin 10000) (k : Fin 24) (R : Fin 500000)
    (hR : R.val = win0_21.index t (0 : Fin 2) * 10000 + p.val) :
    ((((cfg0.win 1).blk t).view.read (Elt Ideal) X) : S10000x24.Idx → EReal) (ix2 p k) = X (ix2 R k) := by
  obtain ⟨e0, e1, e2, e3, e4, e5, e6, e7⟩ := idx_facts t
  show X (((cfg0.win 1).blk t).view.emb (ix2 p k)) = X (ix2 R k)
  refine congrArg X (funext fun a => Fin.ext ?_)
  match a with
  | ⟨0, _⟩ => show win0_1.index t (0 : Fin 2) * 10000 + 1 * p.val = R.val; omega
  | ⟨1, _⟩ => show win0_1.index t (1 : Fin 2) * 24 + 1 * k.val = k.val; omega

/-- Row `p` of window 2's block at point `t` is row `R` of its array, when `R` is the output block's first row plus `p`. -/
theorem blk2_read (t : Fin cfg0.N) (X : S500000x24.Idx → EReal) (p : Fin 10000) (k : Fin 24) (R : Fin 500000)
    (hR : R.val = win0_21.index t (0 : Fin 2) * 10000 + p.val) :
    ((((cfg0.win 2).blk t).view.read (Elt Ideal) X) : S10000x24.Idx → EReal) (ix2 p k) = X (ix2 R k) := by
  obtain ⟨e0, e1, e2, e3, e4, e5, e6, e7⟩ := idx_facts t
  show X (((cfg0.win 2).blk t).view.emb (ix2 p k)) = X (ix2 R k)
  refine congrArg X (funext fun a => Fin.ext ?_)
  match a with
  | ⟨0, _⟩ => show win0_2.index t (0 : Fin 2) * 10000 + 1 * p.val = R.val; omega
  | ⟨1, _⟩ => show win0_2.index t (1 : Fin 2) * 24 + 1 * k.val = k.val; omega

/-- Window 3 holds its whole array: read through its one block, at every point, an array is itself. -/
theorem blk3_read (t : Fin cfg0.N) (X : S24x168.Idx → EReal) : ((((cfg0.win 3).blk t).view.read (Elt Ideal) X) : S24x168.Idx → EReal) = X := by
  obtain ⟨e0, e1⟩ := idx_whole3 t
  funext y
  show X (((cfg0.win 3).blk t).view.emb y) = X y
  refine congrArg X (funext fun a => Fin.ext ?_)
  match a with
  | ⟨0, _⟩ => show win0_3.index t (0 : Fin 2) * 24 + 1 * (y 0).val = (y 0).val; omega
  | ⟨1, _⟩ => show win0_3.index t (1 : Fin 2) * 168 + 1 * (y 1).val = (y 1).val; omega

/-- Window 4 holds its whole array: read through its one block, at every point, an array is itself. -/
theorem blk4_read (t : Fin cfg0.N) (X : S168.Idx → EReal) : ((((cfg0.win 4).blk t).view.read (Elt Ideal) X) : S168.Idx → EReal) = X := by
  have e0 := idx_whole4 t
  funext y
  show X (((cfg0.win 4).blk t).view.emb y) = X y
  refine congrArg X (funext fun a => Fin.ext ?_)
  match a with
  | ⟨0, _⟩ => show win0_4.index t (0 : Fin 1) * 168 + 1 * (y 0).val = (y 0).val; omega

/-- Window 5 holds its whole array: read through its one block, at every point, an array is itself. -/
theorem blk5_read (t : Fin cfg0.N) (X : S168x168.Idx → EReal) : ((((cfg0.win 5).blk t).view.read (Elt Ideal) X) : S168x168.Idx → EReal) = X := by
  obtain ⟨e0, e1⟩ := idx_whole5 t
  funext y
  show X (((cfg0.win 5).blk t).view.emb y) = X y
  refine congrArg X (funext fun a => Fin.ext ?_)
  match a with
  | ⟨0, _⟩ => show win0_5.index t (0 : Fin 2) * 168 + 1 * (y 0).val = (y 0).val; omega
  | ⟨1, _⟩ => show win0_5.index t (1 : Fin 2) * 168 + 1 * (y 1).val = (y 1).val; omega

/-- Window 6 holds its whole array: read through its one block, at every point, an array is itself. -/
theorem blk6_read (t : Fin cfg0.N) (X : S168.Idx → EReal) : ((((cfg0.win 6).blk t).view.read (Elt Ideal) X) : S168.Idx → EReal) = X := by
  have e0 := idx_whole6 t
  funext y
  show X (((cfg0.win 6).blk t).view.emb y) = X y
  refine congrArg X (funext fun a => Fin.ext ?_)
  match a with
  | ⟨0, _⟩ => show win0_6.index t (0 : Fin 1) * 168 + 1 * (y 0).val = (y 0).val; omega

/-- Window 7 holds its whole array: read through its one block, at every point, an array is itself. -/
theorem blk7_read (t : Fin cfg0.N) (X : S168x35.Idx → EReal) : ((((cfg0.win 7).blk t).view.read (Elt Ideal) X) : S168x35.Idx → EReal) = X := by
  obtain ⟨e0, e1⟩ := idx_whole7 t
  funext y
  show X (((cfg0.win 7).blk t).view.emb y) = X y
  refine congrArg X (funext fun a => Fin.ext ?_)
  match a with
  | ⟨0, _⟩ => show win0_7.index t (0 : Fin 2) * 168 + 1 * (y 0).val = (y 0).val; omega
  | ⟨1, _⟩ => show win0_7.index t (1 : Fin 2) * 35 + 1 * (y 1).val = (y 1).val; omega

/-- Window 8 holds its whole array: read through its one block, at every point, an array is itself. -/
theorem blk8_read (t : Fin cfg0.N) (X : S35.Idx → EReal) : ((((cfg0.win 8).blk t).view.read (Elt Ideal) X) : S35.Idx → EReal) = X := by
  have e0 := idx_whole8 t
  funext y
  show X (((cfg0.win 8).blk t).view.emb y) = X y
  refine congrArg X (funext fun a => Fin.ext ?_)
  match a with
  | ⟨0, _⟩ => show win0_8.index t (0 : Fin 1) * 35 + 1 * (y 0).val = (y 0).val; omega

/-- Window 9 holds its whole array: read through its one block, at every point, an array is itself. -/
theorem blk9_read (t : Fin cfg0.N) (X : S24x168.Idx → EReal) : ((((cfg0.win 9).blk t).view.read (Elt Ideal) X) : S24x168.Idx → EReal) = X := by
  obtain ⟨e0, e1⟩ := idx_whole9 t
  funext y
  show X (((cfg0.win 9).blk t).view.emb y) = X y
  refine congrArg X (funext fun a => Fin.ext ?_)
  match a with
  | ⟨0, _⟩ => show win0_9.index t (0 : Fin 2) * 24 + 1 * (y 0).val = (y 0).val; omega
  | ⟨1, _⟩ => show win0_9.index t (1 : Fin 2) * 168 + 1 * (y 1).val = (y 1).val; omega

/-- Window 10 holds its whole array: read through its one block, at every point, an array is itself. -/
theorem blk10_read (t : Fin cfg0.N) (X : S168.Idx → EReal) : ((((cfg0.win 10).blk t).view.read (Elt Ideal) X) : S168.Idx → EReal) = X := by
  have e0 := idx_whole10 t
  funext y
  show X (((cfg0.win 10).blk t).view.emb y) = X y
  refine congrArg X (funext fun a => Fin.ext ?_)
  match a with
  | ⟨0, _⟩ => show win0_10.index t (0 : Fin 1) * 168 + 1 * (y 0).val = (y 0).val; omega

/-- Window 11 holds its whole array: read through its one block, at every point, an array is itself. -/
theorem blk11_read (t : Fin cfg0.N) (X : S168x168.Idx → EReal) : ((((cfg0.win 11).blk t).view.read (Elt Ideal) X) : S168x168.Idx → EReal) = X := by
  obtain ⟨e0, e1⟩ := idx_whole11 t
  funext y
  show X (((cfg0.win 11).blk t).view.emb y) = X y
  refine congrArg X (funext fun a => Fin.ext ?_)
  match a with
  | ⟨0, _⟩ => show win0_11.index t (0 : Fin 2) * 168 + 1 * (y 0).val = (y 0).val; omega
  | ⟨1, _⟩ => show win0_11.index t (1 : Fin 2) * 168 + 1 * (y 1).val = (y 1).val; omega

/-- Window 12 holds its whole array: read through its one block, at every point, an array is itself. -/
theorem blk12_read (t : Fin cfg0.N) (X : S168.Idx → EReal) : ((((cfg0.win 12).blk t).view.read (Elt Ideal) X) : S168.Idx → EReal) = X := by
  have e0 := idx_whole12 t
  funext y
  show X (((cfg0.win 12).blk t).view.emb y) = X y
  refine congrArg X (funext fun a => Fin.ext ?_)
  match a with
  | ⟨0, _⟩ => show win0_12.index t (0 : Fin 1) * 168 + 1 * (y 0).val = (y 0).val; omega

/-- Window 13 holds its whole array: read through its one block, at every point, an array is itself. -/
theorem blk13_read (t : Fin cfg0.N) (X : S168x35.Idx → EReal) : ((((cfg0.win 13).blk t).view.read (Elt Ideal) X) : S168x35.Idx → EReal) = X := by
  obtain ⟨e0, e1⟩ := idx_whole13 t
  funext y
  show X (((cfg0.win 13).blk t).view.emb y) = X y
  refine congrArg X (funext fun a => Fin.ext ?_)
  match a with
  | ⟨0, _⟩ => show win0_13.index t (0 : Fin 2) * 168 + 1 * (y 0).val = (y 0).val; omega
  | ⟨1, _⟩ => show win0_13.index t (1 : Fin 2) * 35 + 1 * (y 1).val = (y 1).val; omega

/-- Window 14 holds its whole array: read through its one block, at every point, an array is itself. -/
theorem blk14_read (t : Fin cfg0.N) (X : S35.Idx → EReal) : ((((cfg0.win 14).blk t).view.read (Elt Ideal) X) : S35.Idx → EReal) = X := by
  have e0 := idx_whole14 t
  funext y
  show X (((cfg0.win 14).blk t).view.emb y) = X y
  refine congrArg X (funext fun a => Fin.ext ?_)
  match a with
  | ⟨0, _⟩ => show win0_14.index t (0 : Fin 1) * 35 + 1 * (y 0).val = (y 0).val; omega

/-- Window 15 holds its whole array: read through its one block, at every point, an array is itself. -/
theorem blk15_read (t : Fin cfg0.N) (X : S24x168.Idx → EReal) : ((((cfg0.win 15).blk t).view.read (Elt Ideal) X) : S24x168.Idx → EReal) = X := by
  obtain ⟨e0, e1⟩ := idx_whole15 t
  funext y
  show X (((cfg0.win 15).blk t).view.emb y) = X y
  refine congrArg X (funext fun a => Fin.ext ?_)
  match a with
  | ⟨0, _⟩ => show win0_15.index t (0 : Fin 2) * 24 + 1 * (y 0).val = (y 0).val; omega
  | ⟨1, _⟩ => show win0_15.index t (1 : Fin 2) * 168 + 1 * (y 1).val = (y 1).val; omega

/-- Window 16 holds its whole array: read through its one block, at every point, an array is itself. -/
theorem blk16_read (t : Fin cfg0.N) (X : S168.Idx → EReal) : ((((cfg0.win 16).blk t).view.read (Elt Ideal) X) : S168.Idx → EReal) = X := by
  have e0 := idx_whole16 t
  funext y
  show X (((cfg0.win 16).blk t).view.emb y) = X y
  refine congrArg X (funext fun a => Fin.ext ?_)
  match a with
  | ⟨0, _⟩ => show win0_16.index t (0 : Fin 1) * 168 + 1 * (y 0).val = (y 0).val; omega

/-- Window 17 holds its whole array: read through its one block, at every point, an array is itself. -/
theorem blk17_read (t : Fin cfg0.N) (X : S168x168.Idx → EReal) : ((((cfg0.win 17).blk t).view.read (Elt Ideal) X) : S168x168.Idx → EReal) = X := by
  obtain ⟨e0, e1⟩ := idx_whole17 t
  funext y
  show X (((cfg0.win 17).blk t).view.emb y) = X y
  refine congrArg X (funext fun a => Fin.ext ?_)
  match a with
  | ⟨0, _⟩ => show win0_17.index t (0 : Fin 2) * 168 + 1 * (y 0).val = (y 0).val; omega
  | ⟨1, _⟩ => show win0_17.index t (1 : Fin 2) * 168 + 1 * (y 1).val = (y 1).val; omega

/-- Window 18 holds its whole array: read through its one block, at every point, an array is itself. -/
theorem blk18_read (t : Fin cfg0.N) (X : S168.Idx → EReal) : ((((cfg0.win 18).blk t).view.read (Elt Ideal) X) : S168.Idx → EReal) = X := by
  have e0 := idx_whole18 t
  funext y
  show X (((cfg0.win 18).blk t).view.emb y) = X y
  refine congrArg X (funext fun a => Fin.ext ?_)
  match a with
  | ⟨0, _⟩ => show win0_18.index t (0 : Fin 1) * 168 + 1 * (y 0).val = (y 0).val; omega

/-- Window 19 holds its whole array: read through its one block, at every point, an array is itself. -/
theorem blk19_read (t : Fin cfg0.N) (X : S168x35.Idx → EReal) : ((((cfg0.win 19).blk t).view.read (Elt Ideal) X) : S168x35.Idx → EReal) = X := by
  obtain ⟨e0, e1⟩ := idx_whole19 t
  funext y
  show X (((cfg0.win 19).blk t).view.emb y) = X y
  refine congrArg X (funext fun a => Fin.ext ?_)
  match a with
  | ⟨0, _⟩ => show win0_19.index t (0 : Fin 2) * 168 + 1 * (y 0).val = (y 0).val; omega
  | ⟨1, _⟩ => show win0_19.index t (1 : Fin 2) * 35 + 1 * (y 1).val = (y 1).val; omega

/-- Window 20 holds its whole array: read through its one block, at every point, an array is itself. -/
theorem blk20_read (t : Fin cfg0.N) (X : S35.Idx → EReal) : ((((cfg0.win 20).blk t).view.read (Elt Ideal) X) : S35.Idx → EReal) = X := by
  have e0 := idx_whole20 t
  funext y
  show X (((cfg0.win 20).blk t).view.emb y) = X y
  refine congrArg X (funext fun a => Fin.ext ?_)
  match a with
  | ⟨0, _⟩ => show win0_20.index t (0 : Fin 1) * 35 + 1 * (y 0).val = (y 0).val; omega

/-! ## One entry of what a point writes -/

/-- The decoder applied to every row of three feature arrays: entry `(r, q)` is the head of the three levels' sum on row `r`. -/
def decode (A0 A1 A2 : Cert.Spec.Level) (g0 g1 g2 : Fin 500000 → Fin 24 → EReal) : S500000x35.Idx → EReal :=
  fun i => Cert.Spec.arrOut A0 A1 A2 g0 g1 g2 (i 0) (i 1)

/-- The body's result at row `p`, column `q` of a block is the decoder's row output, for any levels and rows that the
    loaded blocks read as. -/
theorem out_point (x0 x1 x2 : Vec Ideal S10000x24 .f32) (v6 : Vec Ideal S24x168 .f32) (v7 : Vec Ideal S168 .f32) (v8 : Vec Ideal S168x168 .f32) (v9 : Vec Ideal S168 .f32) (v10 : Vec Ideal S168x35 .f32) (v11 : Vec Ideal S35 .f32) (v12 : Vec Ideal S24x168 .f32) (v13 : Vec Ideal S168 .f32) (v14 : Vec Ideal S168x168 .f32) (v15 : Vec Ideal S168 .f32) (v16 : Vec Ideal S168x35 .f32) (v17 : Vec Ideal S35 .f32) (v18 : Vec Ideal S24x168 .f32) (v19 : Vec Ideal S168 .f32) (v20 : Vec Ideal S168x168 .f32) (v21 : Vec Ideal S168 .f32) (v22 : Vec Ideal S168x35 .f32) (v23 : Vec Ideal S35 .f32)
    (A0 A1 A2 : Cert.Spec.Level) (g0 g1 g2 : Fin 24 → EReal) (p : Fin 10000) (q : Fin 35)
    (hA0 : lvl v6 v7 v8 v9 v10 v11 = A0) (hA1 : lvl v12 v13 v14 v15 v16 v17 = A1) (hA2 : lvl v18 v19 v20 v21 v22 v23 = A2)
    (h0 : ∀ k, x0 (ix2 p k) = g0 k) (h1 : ∀ k, x1 (ix2 p k) = g1 k) (h2 : ∀ k, x2 (ix2 p k) = g2 k) :
    k0_pay1 (F := Ideal) v19 v20 v21 v22 v23 (k0_pay6 (k0_pay2 x0) (k0_pay3 x1) v6 v7 v8 v9 v10 v11 v12 v13 v14 v15 v16 v17 k0_pay5) (k0_pay7 (k0_pay4 x2) v18) (ix2 p q)
      = Cert.Spec.rowOut A0 A1 A2 g0 g1 g2 q := by
  subst hA0 hA1 hA2
  have e0 := funext h0; have e1 := funext h1; have e2 := funext h2
  subst e0 e1 e2
  exact pay_at x0 x1 x2 v6 v7 v8 v9 v10 v11 v12 v13 v14 v15 v16 v17 v18 v19 v20 v21 v22 v23 p q

/-- For any arrays: the body's result on their blocks at point `t`, cut to what is written back, is block `t` of the
    decoder of the arrays. -/
theorem block_eq (t : Fin cfg0.N) (X0 X1 X2 : S500000x24.Idx → EReal) (W3 : S24x168.Idx → EReal) (W4 : S168.Idx → EReal) (W5 : S168x168.Idx → EReal) (W6 : S168.Idx → EReal) (W7 : S168x35.Idx → EReal) (W8 : S35.Idx → EReal) (W9 : S24x168.Idx → EReal) (W10 : S168.Idx → EReal) (W11 : S168x168.Idx → EReal) (W12 : S168.Idx → EReal) (W13 : S168x35.Idx → EReal) (W14 : S35.Idx → EReal) (W15 : S24x168.Idx → EReal) (W16 : S168.Idx → EReal) (W17 : S168x168.Idx → EReal) (W18 : S168.Idx → EReal) (W19 : S168x35.Idx → EReal) (W20 : S35.Idx → EReal) :
    (cfg0.win 21).cut (grid0.coords t) (out0_21 (F := Ideal) (((cfg0.win 0).blk t).view.read (Elt Ideal) X0) (((cfg0.win 1).blk t).view.read (Elt Ideal) X1) (((cfg0.win 2).blk t).view.read (Elt Ideal) X2) (((cfg0.win 3).blk t).view.read (Elt Ideal) W3) (((cfg0.win 4).blk t).view.read (Elt Ideal) W4) (((cfg0.win 5).blk t).view.read (Elt Ideal) W5) (((cfg0.win 6).blk t).view.read (Elt Ideal) W6) (((cfg0.win 7).blk t).view.read (Elt Ideal) W7) (((cfg0.win 8).blk t).view.read (Elt Ideal) W8) (((cfg0.win 9).blk t).view.read (Elt Ideal) W9) (((cfg0.win 10).blk t).view.read (Elt Ideal) W10) (((cfg0.win 11).blk t).view.read (Elt Ideal) W11) (((cfg0.win 12).blk t).view.read (Elt Ideal) W12) (((cfg0.win 13).blk t).view.read (Elt Ideal) W13) (((cfg0.win 14).blk t).view.read (Elt Ideal) W14) (((cfg0.win 15).blk t).view.read (Elt Ideal) W15) (((cfg0.win 16).blk t).view.read (Elt Ideal) W16) (((cfg0.win 17).blk t).view.read (Elt Ideal) W17) (((cfg0.win 18).blk t).view.read (Elt Ideal) W18) (((cfg0.win 19).blk t).view.read (Elt Ideal) W19) (((cfg0.win 20).blk t).view.read (Elt Ideal) W20))
      = ((cfg0.win 21).blk t).view.read (Elt Ideal) (decode (lvl W3 W4 W5 W6 W7 W8) (lvl W9 W10 W11 W12 W13 W14) (lvl W15 W16 W17 W18 W19 W20) (fun r k => X0 (ix2 r k)) (fun r k => X1 (ix2 r k)) (fun r k => X2 (ix2 r k))) := by
  unfold out0_21
  rw [View.canon_unit_zero zero2]
  simp only [View.ld_unit_zero (S := S10000x24) zero2, View.ld_unit_zero (S := S24x168) zero2, View.ld_unit_zero (S := S168x168) zero2, View.ld_unit_zero (S := S168x35) zero2, View.ld_unit_zero (S := S168) zero1, View.ld_unit_zero (S := S35) zero1]
  obtain ⟨e0, e1, e2, e3, e4, e5, e6, e7⟩ := idx_facts t
  refine funext fun (j : S10000x35.Idx) => ?_
  obtain ⟨p, q, rfl⟩ : ∃ (p : Fin 10000) (q : Fin 35), j = ix2 p q := ⟨j 0, j 1, eq_ix2 j⟩
  have hp : p.val < 10000 := p.isLt
  have hR : win0_21.index t (0 : Fin 2) * 10000 + p.val < 500000 := by omega
  have hemb : ((cfg0.win 21).blk t).view.emb (ix2 p q) = (ix2 (⟨win0_21.index t (0 : Fin 2) * 10000 + p.val, hR⟩ : Fin 500000) q : S500000x35.Idx) := by
    funext a; apply Fin.ext
    match a with
    | ⟨0, _⟩ => show win0_21.index t (0 : Fin 2) * 10000 + 1 * p.val = win0_21.index t (0 : Fin 2) * 10000 + p.val; omega
    | ⟨1, _⟩ => show win0_21.index t (1 : Fin 2) * 35 + 1 * q.val = q.val; omega
  show k0_pay1 (F := Ideal) (((cfg0.win 16).blk t).view.read (Elt Ideal) W16) (((cfg0.win 17).blk t).view.read (Elt Ideal) W17) (((cfg0.win 18).blk t).view.read (Elt Ideal) W18) (((cfg0.win 19).blk t).view.read (Elt Ideal) W19) (((cfg0.win 20).blk t).view.read (Elt Ideal) W20) (k0_pay6 (k0_pay2 (((cfg0.win 0).blk t).view.read (Elt Ideal) X0)) (k0_pay3 (((cfg0.win 1).blk t).view.read (Elt Ideal) X1)) (((cfg0.win 3).blk t).view.read (Elt Ideal) W3) (((cfg0.win 4).blk t).view.read (Elt Ideal) W4) (((cfg0.win 5).blk t).view.read (Elt Ideal) W5) (((cfg0.win 6).blk t).view.read (Elt Ideal) W6) (((cfg0.win 7).blk t).view.read (Elt Ideal) W7) (((cfg0.win 8).blk t).view.read (Elt Ideal) W8) (((cfg0.win 9).blk t).view.read (Elt Ideal) W9) (((cfg0.win 10).blk t).view.read (Elt Ideal) W10) (((cfg0.win 11).blk t).view.read (Elt Ideal) W11) (((cfg0.win 12).blk t).view.read (Elt Ideal) W12) (((cfg0.win 13).blk t).view.read (Elt Ideal) W13) (((cfg0.win 14).blk t).view.read (Elt Ideal) W14) k0_pay5) (k0_pay7 (k0_pay4 (((cfg0.win 2).blk t).view.read (Elt Ideal) X2)) (((cfg0.win 15).blk t).view.read (Elt Ideal) W15)) (ix2 p q)
      = decode (lvl W3 W4 W5 W6 W7 W8) (lvl W9 W10 W11 W12 W13 W14) (lvl W15 W16 W17 W18 W19 W20) (fun r k => X0 (ix2 r k)) (fun r k => X1 (ix2 r k)) (fun r k => X2 (ix2 r k)) (((cfg0.win 21).blk t).view.emb (ix2 p q))
  rw [hemb]
  exact out_point _ _ _ _ _ _ _ _ _ _ _ _ _ _ _ _ _ _ _ _ _ _ _ _ _ _ _ p q
    (by rw [blk3_read t W3, blk4_read t W4, blk5_read t W5, blk6_read t W6, blk7_read t W7, blk8_read t W8]) (by rw [blk9_read t W9, blk10_read t W10, blk11_read t W11, blk12_read t W12, blk13_read t W13, blk14_read t W14]) (by rw [blk15_read t W15, blk16_read t W16, blk17_read t W17, blk18_read t W18, blk19_read t W19, blk20_read t W20])
    (fun k => blk0_read t X0 p k _ rfl) (fun k => blk1_read t X1 p k _ rfl) (fun k => blk2_read t X2 p k _ rfl)

/-! ## The blocks cover the array -/

/-- An index of the array is in point `t`'s block iff each coordinate is in the block's range on its axis. -/
theorem mem_blk (t : Fin cfg0.N) (i : S500000x35.Idx) :
    i ∈ ((cfg0.win 21).blk t).view.set ↔ ∀ a : Fin 2, win0_21.index t a * S10000x35.size a ≤ (i a).val ∧ (i a).val < win0_21.index t a * S10000x35.size a + S10000x35.size a := by
  show i ∈ ((View.whole main_v1025).slice (win0_21.rect t)).set ↔ _
  rw [View.set_slice_whole, Rect.mem_set_unit]
  exact Iff.rfl

/-- Row `r` is in the block of the point whose block of rows is `r / 10000`. -/
theorem cover (i : S500000x35.Idx) : ∃ t : Fin cfg0.N, (cfg0.win 21).flush t = true ∧ i ∈ ((cfg0.win 21).blk t).view.set := by
  have hi0 : (i 0).val < 500000 := (i 0).isLt
  have hi1 : (i 1).val < 35 := (i 1).isLt
  obtain ⟨t, ht⟩ := idx_onto ⟨(i 0).val / 10000, by omega⟩
  have q0 : win0_21.index t (0 : Fin 2) = (i 0).val / 10000 := congrFun ht 0
  have q1 : win0_21.index t (1 : Fin 2) = 0 := congrFun ht 1
  refine ⟨t, flush0_21 t, ?_⟩
  rw [mem_blk]
  intro a
  match a with
  | ⟨0, _⟩ => show win0_21.index t (0 : Fin 2) * 10000 ≤ (i 0).val ∧ (i 0).val < win0_21.index t (0 : Fin 2) * 10000 + 10000; omega
  | ⟨1, _⟩ => show win0_21.index t (1 : Fin 2) * 35 ≤ (i 1).val ∧ (i 1).val < win0_21.index t (1 : Fin 2) * 35 + 35; omega
end Blocks

section Value
variable (m : (ℓ : Loc nD τ sig) → Buf (Elt Ideal) ℓ) (ρ : Dev nD → PrngReg)

/-! ## The array the output ends holding -/

/-- The decoder of the three feature arrays and the three levels' weights as the region finds them. -/
def G (c : Dev nD) : S500000x35.Idx → EReal :=
  decode (lvl (V m c main_arg4) (V m c main_arg5) (V m c main_arg6) (V m c main_arg7) (V m c main_arg8) (V m c main_arg9)) (lvl (V m c main_arg13) (V m c main_arg14) (V m c main_arg15) (V m c main_arg16) (V m c main_arg17) (V m c main_arg18)) (lvl (V m c main_arg22) (V m c main_arg23) (V m c main_arg24) (V m c main_arg25) (V m c main_arg26) (V m c main_arg27))
    (fun r k => V m c main_v350 (ix2 r k)) (fun r k => V m c main_v687 (ix2 r k)) (fun r k => V m c main_v1024 (ix2 r k))

/-- What point `t` writes back is block `t` of `G`. -/
theorem flushed_eq (c : Dev nD) (t : Fin cfg0.N) :
    (dats (F := Ideal) m 0 c).flushed 21 t = ((cfg0.win 21).blk t).view.read (Elt Ideal) (G m c) := by
  show (cfg0.win 21).cut (grid0.coords t) ((dats m 0 c).after 21 t) = _
  rw [after0_21]
  exact block_eq t (V m c main_v350) (V m c main_v687) (V m c main_v1024) (V m c main_arg4) (V m c main_arg5) (V m c main_arg6) (V m c main_arg7) (V m c main_arg8) (V m c main_arg9) (V m c main_arg13) (V m c main_arg14) (V m c main_arg15) (V m c main_arg16) (V m c main_arg17) (V m c main_arg18) (V m c main_arg22) (V m c main_arg23) (V m c main_arg24) (V m c main_arg25) (V m c main_arg26) (V m c main_arg27)

/-- The output array ends holding `G`. -/
theorem final_arr (c : Dev nD) : (dats (F := Ideal) m 0 c).arrAt 21 cfg0.N = G m c :=
  (dats m 0 c).arrAt_eq_of_cover 21 (G m c) (fun t _ => flushed_eq m c t) cover

/-- Entry `(r, q)` of the output array after the run: the decoder on row `r` of the three feature arrays, column `q`. -/
theorem final_out (c : Dev nD) (r : Fin 500000) (q : Fin 35) :
    ((dats (F := Ideal) m 0 c).arrAt 21 cfg0.N : S500000x35.Idx → EReal) (ix2 r q)
      = Cert.Spec.arrOut (lvl (V m c main_arg4) (V m c main_arg5) (V m c main_arg6) (V m c main_arg7) (V m c main_arg8) (V m c main_arg9)) (lvl (V m c main_arg13) (V m c main_arg14) (V m c main_arg15) (V m c main_arg16) (V m c main_arg17) (V m c main_arg18)) (lvl (V m c main_arg22) (V m c main_arg23) (V m c main_arg24) (V m c main_arg25) (V m c main_arg26) (V m c main_arg27))
          (fun r k => V m c main_v350 (ix2 r k)) (fun r k => V m c main_v687 (ix2 r k)) (fun r k => V m c main_v1024 (ix2 r k)) r q :=
  congrFun (final_arr m c) (ix2 r q)

/-! ## The run, read -/

/-- Every fair execution from the launch memory terminates with the output array at what the write-backs left and every
    argument as launched. -/
theorem run_value : θ_run defs (onTc (τ := τ) (main (F := Ideal))) ⟨m, fun _ => 0, ρ⟩ (fun r => ∀ c : Dev nD,
      r.2.mem ((c.tc : Thread nD τ).loc main_v1025) = (dats m 0 c).arrAt 21 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c => ⟨(h c).1 21,
      kept_main_arg0 m (dats m) (A_eq m) c r h,
      kept_main_arg1 m (dats m) (A_eq m) c r h,
      kept_main_arg2 m (dats m) (A_eq m) c r h,
      kept_main_arg3 m (dats m) (A_eq m) c r h,
      kept_main_arg4 m (dats m) (A_eq m) c r h,
      kept_main_arg5 m (dats m) (A_eq m) c r h,
      kept_main_arg6 m (dats m) (A_eq m) c r h,
      kept_main_arg7 m (dats m) (A_eq m) c r h,
      kept_main_arg8 m (dats m) (A_eq m) c r h,
      kept_main_arg9 m (dats m) (A_eq m) c r h,
      kept_main_arg10 m (dats m) (A_eq m) c r h,
      kept_main_arg11 m (dats m) (A_eq m) c r h,
      kept_main_arg12 m (dats m) (A_eq m) c r h,
      kept_main_arg13 m (dats m) (A_eq m) c r h,
      kept_main_arg14 m (dats m) (A_eq m) c r h,
      kept_main_arg15 m (dats m) (A_eq m) c r h,
      kept_main_arg16 m (dats m) (A_eq m) c r h,
      kept_main_arg17 m (dats m) (A_eq m) c r h,
      kept_main_arg18 m (dats m) (A_eq m) c r h,
      kept_main_arg19 m (dats m) (A_eq m) c r h,
      kept_main_arg20 m (dats m) (A_eq m) c r h,
      kept_main_arg21 m (dats m) (A_eq m) c r h,
      kept_main_arg22 m (dats m) (A_eq m) c r h,
      kept_main_arg23 m (dats m) (A_eq m) c r h,
      kept_main_arg24 m (dats m) (A_eq m) c r h,
      kept_main_arg25 m (dats m) (A_eq m) c r h,
      kept_main_arg26 m (dats m) (A_eq m) c r h,
      kept_main_arg27 m (dats m) (A_eq m) c r h⟩)
    (run_main m ρ)
end Value

end Cert.KernelIdeal.Hand

end
-- ==== Proof.KernelIdeal.HostOps.lean ====
/- The host operations before the region, in order, cut where the mathematics cuts them: the scaling of the coordinates,
   then per level three bilinear plane samplings and their concatenation. The same 1524 operations as the 73 stretches
   (`flatten_eq`). -/
import proofs.«138882_j46462956208560_1_alg».proof.Proof.KernelIdeal.Entry

noncomputable section

namespace Cert.KernelIdeal.Chunks

open Cert.KernelIdeal Cert.KernelIdeal.Gen Cert.KernelIdeal.Hand Idealize.ShloMosaic Idealize.ShloMosaic.TcCoe Idealize.SL.Sem

variable {F : FTy → Type} [FloatOps F]

/-- Operations 0 … 17 (18): the coordinates scaled to [-1, 1] and split. -/
abbrev opsPre : List (HloOp τ sig (Elt F)) :=
  [ StableHlo.nullary main_cst (constant S_ .f32 0xC0000000#32),
    StableHlo.unary main_cst main_v0 (broadcastInDim S500000x3 ![] bcast_S_S500000x3 : (⟨S_, .f32⟩ : BufTy).Contents (Elt F) → (⟨S500000x3, .f32⟩ : BufTy).Contents (Elt F)),
    StableHlo.binary main_arg0 main_v0 main_v1 (subf : (⟨S500000x3, .f32⟩ : BufTy).Contents (Elt F) → (⟨S500000x3, .f32⟩ : BufTy).Contents (Elt F) → (⟨S500000x3, .f32⟩ : BufTy).Contents (Elt F)),
    StableHlo.nullary main_cst_0 (constant S_ .f32 0x40800000#32),
    StableHlo.unary main_cst_0 main_v2 (broadcastInDim S500000x3 ![] bcast_S_S500000x3 : (⟨S_, .f32⟩ : BufTy).Contents (Elt F) → (⟨S500000x3, .f32⟩ : BufTy).Contents (Elt F)),
    StableHlo.binary main_v1 main_v2 main_v3 (Host.divf : (⟨S500000x3, .f32⟩ : BufTy).Contents (Elt F) → (⟨S500000x3, .f32⟩ : BufTy).Contents (Elt F) → (⟨S500000x3, .f32⟩ : BufTy).Contents (Elt F)),
    StableHlo.nullary main_cst_1 (constant S_ .f32 0x40000000#32),
    StableHlo.unary main_cst_1 main_v4 (broadcastInDim S500000x3 ![] bcast_S_S500000x3 : (⟨S_, .f32⟩ : BufTy).Contents (Elt F) → (⟨S500000x3, .f32⟩ : BufTy).Contents (Elt F)),
    StableHlo.binary main_v3 main_v4 main_v5 (mulf : (⟨S500000x3, .f32⟩ : BufTy).Contents (Elt F) → (⟨S500000x3, .f32⟩ : BufTy).Contents (Elt F) → (⟨S500000x3, .f32⟩ : BufTy).Contents (Elt F)),
    StableHlo.nullary main_cst_2 (constant S_ .f32 0x3F800000#32),
    StableHlo.unary main_cst_2 main_v6 (broadcastInDim S500000x3 ![] bcast_S_S500000x3 : (⟨S_, .f32⟩ : BufTy).Contents (Elt F) → (⟨S500000x3, .f32⟩ : BufTy).Contents (Elt F)),
    StableHlo.binary main_v5 main_v6 main_v7 (subf : (⟨S500000x3, .f32⟩ : BufTy).Contents (Elt F) → (⟨S500000x3, .f32⟩ : BufTy).Contents (Elt F) → (⟨S500000x3, .f32⟩ : BufTy).Contents (Elt F)),
    StableHlo.unary main_v7 main_v8 ((extractStridedSlice S500000x1 ![0, 0] · slices_S500000x3_S500000x1_0_0) : (⟨S500000x3, .f32⟩ : BufTy).Contents (Elt F) → (⟨S500000x1, .f32⟩ : BufTy).Contents (Elt F)),
    StableHlo.reshape main_v8 main_v9 rfl shapeCasts_S500000x1_S500000,
    StableHlo.unary main_v7 main_v10 ((extractStridedSlice S500000x1 ![0, 1] · slices_S500000x3_S500000x1_0_1) : (⟨S500000x3, .f32⟩ : BufTy).Contents (Elt F) → (⟨S500000x1, .f32⟩ : BufTy).Contents (Elt F)),
    StableHlo.reshape main_v10 main_v11 rfl shapeCasts_S500000x1_S500000,
    StableHlo.unary main_v7 main_v12 ((extractStridedSlice S500000x1 ![0, 2] · slices_S500000x3_S500000x1_0_2) : (⟨S500000x3, .f32⟩ : BufTy).Contents (Elt F) → (⟨S500000x1, .f32⟩ : BufTy).Contents (Elt F)),
    StableHlo.reshape main_v12 main_v13 rfl shapeCasts_S500000x1_S500000 ]

/-- Operations 18 … 184 (167): level 0, plane xy. -/
abbrev opsB0a : List (HloOp τ sig (Elt F)) :=
  [ StableHlo.nullary main_cst_3 (constant S_ .f32 0x3F800000#32),
    StableHlo.unary main_cst_3 main_v14 (broadcastInDim S500000 ![] bcast_S_S500000 : (⟨S_, .f32⟩ : BufTy).Contents (Elt F) → (⟨S500000, .f32⟩ : BufTy).Contents (Elt F)),
    StableHlo.binary main_v11 main_v14 main_v15 (addf : (⟨S500000, .f32⟩ : BufTy).Contents (Elt F) → (⟨S500000, .f32⟩ : BufTy).Contents (Elt F) → (⟨S500000, .f32⟩ : BufTy).Contents (Elt F)),
    StableHlo.nullary main_cst_4 (constant S_ .f32 0x3F000000#32),
    StableHlo.unary main_cst_4 main_v16 (broadcastInDim S500000 ![] bcast_S_S500000 : (⟨S_, .f32⟩ : BufTy).Contents (Elt F) → (⟨S500000, .f32⟩ : BufTy).Contents (Elt F)),
    StableHlo.binary main_v15 main_v16 main_v17 (mulf : (⟨S500000, .f32⟩ : BufTy).Contents (Elt F) → (⟨S500000, .f32⟩ : BufTy).Contents (Elt F) → (⟨S500000, .f32⟩ : BufTy).Contents (Elt F)),
    StableHlo.nullary main_cst_5 (constant S_ .f32 0x42FE0000#32),
    StableHlo.unary main_cst_5 main_v18 (broadcastInDim S500000 ![] bcast_S_S500000 : (⟨S_, .f32⟩ : BufTy).Contents (Elt F) → (⟨S500000, .f32⟩ : BufTy).Contents (Elt F)),
    StableHlo.binary main_v17 main_v18 main_v19 (mulf : (⟨S500000, .f32⟩ : BufTy).Contents (Elt F) → (⟨S500000, .f32⟩ : BufTy).Contents (Elt F) → (⟨S500000, .f32⟩ : BufTy).Contents (Elt F)),
    StableHlo.nullary main_cst_6 (constant S_ .f32 0x3F800000#32),
    StableHlo.unary main_cst_6 main_v20 (broadcastInDim S500000 ![] bcast_S_S500000 : (⟨S_, .f32⟩ : BufTy).Contents (Elt F) → (⟨S500000, .f32⟩ : BufTy).Contents (Elt F)),
    StableHlo.binary main_v9 main_v20 main_v21 (addf : (⟨S500000, .f32⟩ : BufTy).Contents (Elt F) → (⟨S500000, .f32⟩ : BufTy).Contents (Elt F) → (⟨S500000, .f32⟩ : BufTy).Contents (Elt F)),
    StableHlo.nullary main_cst_7 (constant S_ .f32 0x3F000000#32),
    StableHlo.unary main_cst_7 main_v22 (broadcastInDim S500000 ![] bcast_S_S500000 : (⟨S_, .f32⟩ : BufTy).Contents (Elt F) → (⟨S500000, .f32⟩ : BufTy).Contents (Elt F)),
    StableHlo.binary main_v21 main_v22 main_v23 (mulf : (⟨S500000, .f32⟩ : BufTy).Contents (Elt F) → (⟨S500000, .f32⟩ : BufTy).Contents (Elt F) → (⟨S500000, .f32⟩ : BufTy).Contents (Elt F)),
    StableHlo.nullary main_cst_8 (constant S_ .f32 0x42FE0000#32),
    StableHlo.unary main_cst_8 main_v24 (broadcastInDim S500000 ![] bcast_S_S500000 : (⟨S_, .f32⟩ : BufTy).Contents (Elt F) → (⟨S500000, .f32⟩ : BufTy).Contents (Elt F)),
    StableHlo.binary main_v23 main_v24 main_v25 (mulf : (⟨S500000, .f32⟩ : BufTy).Contents (Elt F) → (⟨S500000, .f32⟩ : BufTy).Contents (Elt F) → (⟨S500000, .f32⟩ : BufTy).Contents (Elt F)),
    StableHlo.unary main_v19 main_v26 (Host.floor : (⟨S500000, .f32⟩ : BufTy).Contents (Elt F) → (⟨S500000, .f32⟩ : BufTy).Contents (Elt F)),
    StableHlo.unary main_v26 main_v27 (fptosi 32 : (⟨S500000, .f32⟩ : BufTy).Contents (Elt F) → (⟨S500000, .i32⟩ : BufTy).Contents (Elt F)),
    StableHlo.unary main_v25 main_v28 (Host.floor : (⟨S500000, .f32⟩ : BufTy).Contents (Elt F) → (⟨S500000, .f32⟩ : BufTy).Contents (Elt F)),
    StableHlo.unary main_v28 main_v29 (fptosi 32 : (⟨S500000, .f32⟩ : BufTy).Contents (Elt F) → (⟨S500000, .i32⟩ : BufTy).Contents (Elt F)),
    StableHlo.unary main_v27 main_v30 (sitofp .f32 : (⟨S500000, .i32⟩ : BufTy).Contents (Elt F) → (⟨S500000, .f32⟩ : BufTy).Contents (Elt F)),
    StableHlo.binary main_v19 main_v30 main_v31 (subf : (⟨S500000, .f32⟩ : BufTy).Contents (Elt F) → (⟨S500000, .f32⟩ : BufTy).Contents (Elt F) → (⟨S500000, .f32⟩ : BufTy).Contents (Elt F)),
    StableHlo.unary main_v29 main_v32 (sitofp .f32 : (⟨S500000, .i32⟩ : BufTy).Contents (Elt F) → (⟨S500000, .f32⟩ : BufTy).Contents (Elt F)),
    StableHlo.binary main_v25 main_v32 main_v33 (subf : (⟨S500000, .f32⟩ : BufTy).Contents (Elt F) → (⟨S500000, .f32⟩ : BufTy).Contents (Elt F) → (⟨S500000, .f32⟩ : BufTy).Contents (Elt F)),
    StableHlo.nullary main_c (constantI S_ 32 0#32),
    StableHlo.nullary main_c_9 (constantI S_ 32 127#32),
    StableHlo.TRef.unary (.of main_c : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S500000, .i32⟩) (broadcastInDim S500000 ![] bcast_S_S500000),
    StableHlo.TRef.binary (.of main_call0_v1 : StableHlo.TRef sig ⟨S500000, .i32⟩) (.of main_v27 : StableHlo.TRef sig ⟨S500000, .i32⟩) (.of main_call0_v2 : StableHlo.TRef sig ⟨S500000, .i32⟩) maxsi,
    StableHlo.TRef.unary (.of main_c_9 : StableHlo.TRef sig ⟨S_, .i32⟩) (.of main_call0_v3 : StableHlo.TRef sig ⟨S_, .i32⟩) id,
    StableHlo.TRef.unary (.of main_call0_v3 : StableHlo.TRef sig ⟨S_, .i32⟩) (.of main_call0_v4 : StableHlo.TRef sig ⟨S500000, .i32⟩) (broadcastInDim S500000 ![] bcast_S_S500000),
    StableHlo.TRef.binary (.of main_call0_v4 : StableHlo.TRef sig ⟨S500000, .i32⟩) (.of main_call0_v2 : StableHlo.TRef sig ⟨S500000, .i32⟩) (.of main_v34 : StableHlo.TRef sig ⟨S500000, .i32⟩) minsi,
    StableHlo.nullary main_c_10 (constantI S_ 32 1#32),
    StableHlo.unary main_c_10 main_v35 (broadcastInDim S500000 ![] bcast_S_S500000 : (⟨S_, .i32⟩ : BufTy).Contents (Elt F) → (⟨S500000, .i32⟩ : BufTy).Contents (Elt F)),
    StableHlo.binary main_v27 main_v35 main_v36 (addi : (⟨S500000, .i32⟩ : BufTy).Contents (Elt F) → (⟨S500000, .i32⟩ : BufTy).Contents (Elt F) → (⟨S500000, .i32⟩ : BufTy).Contents (Elt F)),
    StableHlo.nullary main_c_11 (constantI S_ 32 0#32),
    StableHlo.nullary main_c_12 (constantI S_ 32 127#32),
    StableHlo.TRef.unary (.of main_c_11 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S500000, .i32⟩) (broadcastInDim S500000 ![] bcast_S_S500000),
    StableHlo.TRef.binary (.of main_call1_v1 : StableHlo.TRef sig ⟨S500000, .i32⟩) (.of main_v36 : StableHlo.TRef sig ⟨S500000, .i32⟩) (.of main_call1_v2 : StableHlo.TRef sig ⟨S500000, .i32⟩) maxsi,
    StableHlo.TRef.unary (.of main_c_12 : StableHlo.TRef sig ⟨S_, .i32⟩) (.of main_call1_v3 : StableHlo.TRef sig ⟨S_, .i32⟩) id,
    StableHlo.TRef.unary (.of main_call1_v3 : StableHlo.TRef sig ⟨S_, .i32⟩) (.of main_call1_v4 : StableHlo.TRef sig ⟨S500000, .i32⟩) (broadcastInDim S500000 ![] bcast_S_S500000),
    StableHlo.TRef.binary (.of main_call1_v4 : StableHlo.TRef sig ⟨S500000, .i32⟩) (.of main_call1_v2 : StableHlo.TRef sig ⟨S500000, .i32⟩) (.of main_v37 : StableHlo.TRef sig ⟨S500000, .i32⟩) minsi,
    StableHlo.nullary main_c_13 (constantI S_ 32 0#32),
    StableHlo.nullary main_c_14 (constantI S_ 32 127#32),
    StableHlo.TRef.unary (.of main_c_13 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S500000, .i32⟩) (broadcastInDim S500000 ![] bcast_S_S500000),
    StableHlo.TRef.binary (.of main_call2_v1 : StableHlo.TRef sig ⟨S500000, .i32⟩) (.of main_v29 : StableHlo.TRef sig ⟨S500000, .i32⟩) (.of main_call2_v2 : StableHlo.TRef sig ⟨S500000, .i32⟩) maxsi,
    StableHlo.TRef.unary (.of main_c_14 : StableHlo.TRef sig ⟨S_, .i32⟩) (.of main_call2_v3 : StableHlo.TRef sig ⟨S_, .i32⟩) id,
    StableHlo.TRef.unary (.of main_call2_v3 : StableHlo.TRef sig ⟨S_, .i32⟩) (.of main_call2_v4 : StableHlo.TRef sig ⟨S500000, .i32⟩) (broadcastInDim S500000 ![] bcast_S_S500000),
    StableHlo.TRef.binary (.of main_call2_v4 : StableHlo.TRef sig ⟨S500000, .i32⟩) (.of main_call2_v2 : StableHlo.TRef sig ⟨S500000, .i32⟩) (.of main_v38 : StableHlo.TRef sig ⟨S500000, .i32⟩) minsi,
    StableHlo.nullary main_c_15 (constantI S_ 32 1#32),
    StableHlo.unary main_c_15 main_v39 (broadcastInDim S500000 ![] bcast_S_S500000 : (⟨S_, .i32⟩ : BufTy).Contents (Elt F) → (⟨S500000, .i32⟩ : BufTy).Contents (Elt F)),
    StableHlo.binary main_v29 main_v39 main_v40 (addi : (⟨S500000, .i32⟩ : BufTy).Contents (Elt F) → (⟨S500000, .i32⟩ : BufTy).Contents (Elt F) → (⟨S500000, .i32⟩ : BufTy).Contents (Elt F)),
    StableHlo.nullary main_c_16 (constantI S_ 32 0#32),
    StableHlo.nullary main_c_17 (constantI S_ 32 127#32),
    StableHlo.TRef.unary (.of main_c_16 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S500000, .i32⟩) (broadcastInDim S500000 ![] bcast_S_S500000),
    StableHlo.TRef.binary (.of main_call3_v1 : StableHlo.TRef sig ⟨S500000, .i32⟩) (.of main_v40 : StableHlo.TRef sig ⟨S500000, .i32⟩) (.of main_call3_v2 : StableHlo.TRef sig ⟨S500000, .i32⟩) maxsi,
    StableHlo.TRef.unary (.of main_c_17 : StableHlo.TRef sig ⟨S_, .i32⟩) (.of main_call3_v3 : StableHlo.TRef sig ⟨S_, .i32⟩) id,
    StableHlo.TRef.unary (.of main_call3_v3 : StableHlo.TRef sig ⟨S_, .i32⟩) (.of main_call3_v4 : StableHlo.TRef sig ⟨S500000, .i32⟩) (broadcastInDim S500000 ![] bcast_S_S500000),
    StableHlo.TRef.binary (.of main_call3_v4 : StableHlo.TRef sig ⟨S500000, .i32⟩) (.of main_call3_v2 : StableHlo.TRef sig ⟨S500000, .i32⟩) (.of main_v41 : StableHlo.TRef sig ⟨S500000, .i32⟩) minsi,
    StableHlo.nullary main_c_18 (constantI S_ 32 0#32),
    StableHlo.unary main_c_18 main_v42 (broadcastInDim S500000 ![] bcast_S_S500000 : (⟨S_, .i32⟩ : BufTy).Contents (Elt F) → (⟨S500000, .i32⟩ : BufTy).Contents (Elt F)),
    StableHlo.binary main_v38 main_v42 main_v43 (cmpi .slt : (⟨S500000, .i32⟩ : BufTy).Contents (Elt F) → (⟨S500000, .i32⟩ : BufTy).Contents (Elt F) → (⟨S500000, .i1⟩ : BufTy).Contents (Elt F)),
    StableHlo.nullary main_c_19 (constantI S_ 32 128#32),
    StableHlo.unary main_c_19 main_v44 (broadcastInDim S500000 ![] bcast_S_S500000 : (⟨S_, .i32⟩ : BufTy).Contents (Elt F) → (⟨S500000, .i32⟩ : BufTy).Contents (Elt F)),
    StableHlo.binary main_v38 main_v44 main_v45 (addi : (⟨S500000, .i32⟩ : BufTy).Contents (Elt F) → (⟨S500000, .i32⟩ : BufTy).Contents (Elt F) → (⟨S500000, .i32⟩ : BufTy).Contents (Elt F)),
    StableHlo.ternary main_v43 main_v45 main_v38 main_v46 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_20 (constantI S_ 32 0#32),
    StableHlo.unary main_c_20 main_v47 (broadcastInDim S500000 ![] bcast_S_S500000 : (⟨S_, .i32⟩ : BufTy).Contents (Elt F) → (⟨S500000, .i32⟩ : BufTy).Contents (Elt F)),
    StableHlo.binary main_v34 main_v47 main_v48 (cmpi .slt : (⟨S500000, .i32⟩ : BufTy).Contents (Elt F) → (⟨S500000, .i32⟩ : BufTy).Contents (Elt F) → (⟨S500000, .i1⟩ : BufTy).Contents (Elt F)),
    StableHlo.nullary main_c_21 (constantI S_ 32 128#32),
    StableHlo.unary main_c_21 main_v49 (broadcastInDim S500000 ![] bcast_S_S500000 : (⟨S_, .i32⟩ : BufTy).Contents (Elt F) → (⟨S500000, .i32⟩ : BufTy).Contents (Elt F)),
    StableHlo.binary main_v34 main_v49 main_v50 (addi : (⟨S500000, .i32⟩ : BufTy).Contents (Elt F) → (⟨S500000, .i32⟩ : BufTy).Contents (Elt F) → (⟨S500000, .i32⟩ : BufTy).Contents (Elt F)),
    StableHlo.ternary main_v48 main_v50 main_v34 main_v51 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v46 main_v52 (broadcastInDim S500000x1 ![0] bcast_S500000_S500000x1_0 : (⟨S500000, .i32⟩ : BufTy).Contents (Elt F) → (⟨S500000x1, .i32⟩ : BufTy).Contents (Elt F)),
    StableHlo.unary main_v51 main_v53 (broadcastInDim S500000x1 ![0] bcast_S500000_S500000x1_0 : (⟨S500000, .i32⟩ : BufTy).Contents (Elt F) → (⟨S500000x1, .i32⟩ : BufTy).Contents (Elt F)),
    StableHlo.binary main_v52 main_v53 main_v54 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg1 main_v54 main_v55 ((fun x i => Host.gather gather_S8x128x128_S500000x2_S8x500000_0_12_n_n_12_1_811 x i) : (⟨S8x128x128, .f32⟩ : BufTy).Contents (Elt F) → (⟨S500000x2, .i32⟩ : BufTy).Contents (Elt F) → (⟨S8x500000, .f32⟩ : BufTy).Contents (Elt F)),
    StableHlo.nullary main_c_22 (constantI S_ 32 0#32),
    StableHlo.unary main_c_22 main_v56 (broadcastInDim S500000 ![] bcast_S_S500000 : (⟨S_, .i32⟩ : BufTy).Contents (Elt F) → (⟨S500000, .i32⟩ : BufTy).Contents (Elt F)),
    StableHlo.binary main_v38 main_v56 main_v57 (cmpi .slt : (⟨S500000, .i32⟩ : BufTy).Contents (Elt F) → (⟨S500000, .i32⟩ : BufTy).Contents (Elt F) → (⟨S500000, .i1⟩ : BufTy).Contents (Elt F)),
    StableHlo.nullary main_c_23 (constantI S_ 32 128#32),
    StableHlo.unary main_c_23 main_v58 (broadcastInDim S500000 ![] bcast_S_S500000 : (⟨S_, .i32⟩ : BufTy).Contents (Elt F) → (⟨S500000, .i32⟩ : BufTy).Contents (Elt F)),
    StableHlo.binary main_v38 main_v58 main_v59 (addi : (⟨S500000, .i32⟩ : BufTy).Contents (Elt F) → (⟨S500000, .i32⟩ : BufTy).Contents (Elt F) → (⟨S500000, .i32⟩ : BufTy).Contents (Elt F)),
    StableHlo.ternary main_v57 main_v59 main_v38 main_v60 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_24 (constantI S_ 32 0#32),
    StableHlo.unary main_c_24 main_v61 (broadcastInDim S500000 ![] bcast_S_S500000 : (⟨S_, .i32⟩ : BufTy).Contents (Elt F) → (⟨S500000, .i32⟩ : BufTy).Contents (Elt F)),
    StableHlo.binary main_v37 main_v61 main_v62 (cmpi .slt : (⟨S500000, .i32⟩ : BufTy).Contents (Elt F) → (⟨S500000, .i32⟩ : BufTy).Contents (Elt F) → (⟨S500000, .i1⟩ : BufTy).Contents (Elt F)),
    StableHlo.nullary main_c_25 (constantI S_ 32 128#32),
    StableHlo.unary main_c_25 main_v63 (broadcastInDim S500000 ![] bcast_S_S500000 : (⟨S_, .i32⟩ : BufTy).Contents (Elt F) → (⟨S500000, .i32⟩ : BufTy).Contents (Elt F)),
    StableHlo.binary main_v37 main_v63 main_v64 (addi : (⟨S500000, .i32⟩ : BufTy).Contents (Elt F) → (⟨S500000, .i32⟩ : BufTy).Contents (Elt F) → (⟨S500000, .i32⟩ : BufTy).Contents (Elt F)),
    StableHlo.ternary main_v62 main_v64 main_v37 main_v65 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v60 main_v66 (broadcastInDim S500000x1 ![0] bcast_S500000_S500000x1_0 : (⟨S500000, .i32⟩ : BufTy).Contents (Elt F) → (⟨S500000x1, .i32⟩ : BufTy).Contents (Elt F)),
    StableHlo.unary main_v65 main_v67 (broadcastInDim S500000x1 ![0] bcast_S500000_S500000x1_0 : (⟨S500000, .i32⟩ : BufTy).Contents (Elt F) → (⟨S500000x1, .i32⟩ : BufTy).Contents (Elt F)),
    StableHlo.binary main_v66 main_v67 main_v68 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg1 main_v68 main_v69 ((fun x i => Host.gather gather_S8x128x128_S500000x2_S8x500000_0_12_n_n_12_1_811 x i) : (⟨S8x128x128, .f32⟩ : BufTy).Contents (Elt F) → (⟨S500000x2, .i32⟩ : BufTy).Contents (Elt F) → (⟨S8x500000, .f32⟩ : BufTy).Contents (Elt F)),
    StableHlo.nullary main_c_26 (constantI S_ 32 0#32),
    StableHlo.unary main_c_26 main_v70 (broadcastInDim S500000 ![] bcast_S_S500000 : (⟨S_, .i32⟩ : BufTy).Contents (Elt F) → (⟨S500000, .i32⟩ : BufTy).Contents (Elt F)),
    StableHlo.binary main_v41 main_v70 main_v71 (cmpi .slt : (⟨S500000, .i32⟩ : BufTy).Contents (Elt F) → (⟨S500000, .i32⟩ : BufTy).Contents (Elt F) → (⟨S500000, .i1⟩ : BufTy).Contents (Elt F)),
    StableHlo.nullary main_c_27 (constantI S_ 32 128#32),
    StableHlo.unary main_c_27 main_v72 (broadcastInDim S500000 ![] bcast_S_S500000 : (⟨S_, .i32⟩ : BufTy).Contents (Elt F) → (⟨S500000, .i32⟩ : BufTy).Contents (Elt F)),
    StableHlo.binary main_v41 main_v72 main_v73 (addi : (⟨S500000, .i32⟩ : BufTy).Contents (Elt F) → (⟨S500000, .i32⟩ : BufTy).Contents (Elt F) → (⟨S500000, .i32⟩ : BufTy).Contents (Elt F)),
    StableHlo.ternary main_v71 main_v73 main_v41 main_v74 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_28 (constantI S_ 32 0#32),
    StableHlo.unary main_c_28 main_v75 (broadcastInDim S500000 ![] bcast_S_S500000 : (⟨S_, .i32⟩ : BufTy).Contents (Elt F) → (⟨S500000, .i32⟩ : BufTy).Contents (Elt F)),
    StableHlo.binary main_v34 main_v75 main_v76 (cmpi .slt : (⟨S500000, .i32⟩ : BufTy).Contents (Elt F) → (⟨S500000, .i32⟩ : BufTy).Contents (Elt F) → (⟨S500000, .i1⟩ : BufTy).Contents (Elt F)),
    StableHlo.nullary main_c_29 (constantI S_ 32 128#32),
    StableHlo.unary main_c_29 main_v77 (broadcastInDim S500000 ![] bcast_S_S500000 : (⟨S_, .i32⟩ : BufTy).Contents (Elt F) → (⟨S500000, .i32⟩ : BufTy).Contents (Elt F)),
    StableHlo.binary main_v34 main_v77 main_v78 (addi : (⟨S500000, .i32⟩ : BufTy).Contents (Elt F) → (⟨S500000, .i32⟩ : BufTy).Contents (Elt F) → (⟨S500000, .i32⟩ : BufTy).Contents (Elt F)),
    StableHlo.ternary main_v76 main_v78 main_v34 main_v79 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v74 main_v80 (broadcastInDim S500000x1 ![0] bcast_S500000_S500000x1_0 : (⟨S500000, .i32⟩ : BufTy).Contents (Elt F) → (⟨S500000x1, .i32⟩ : BufTy).Contents (Elt F)),
    StableHlo.unary main_v79 main_v81 (broadcastInDim S500000x1 ![0] bcast_S500000_S500000x1_0 : (⟨S500000, .i32⟩ : BufTy).Contents (Elt F) → (⟨S500000x1, .i32⟩ : BufTy).Contents (Elt F)),
    StableHlo.binary main_v80 main_v81 main_v82 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg1 main_v82 main_v83 ((fun x i => Host.gather gather_S8x128x128_S500000x2_S8x500000_0_12_n_n_12_1_811 x i) : (⟨S8x128x128, .f32⟩ : BufTy).Contents (Elt F) → (⟨S500000x2, .i32⟩ : BufTy).Contents (Elt F) → (⟨S8x500000, .f32⟩ : BufTy).Contents (Elt F)),
    StableHlo.nullary main_c_30 (constantI S_ 32 0#32),
    StableHlo.unary main_c_30 main_v84 (broadcastInDim S500000 ![] bcast_S_S500000 : (⟨S_, .i32⟩ : BufTy).Contents (Elt F) → (⟨S500000, .i32⟩ : BufTy).Contents (Elt F)),
    StableHlo.binary main_v41 main_v84 main_v85 (cmpi .slt : (⟨S500000, .i32⟩ : BufTy).Contents (Elt F) → (⟨S500000, .i32⟩ : BufTy).Contents (Elt F) → (⟨S500000, .i1⟩ : BufTy).Contents (Elt F)),
    StableHlo.nullary main_c_31 (constantI S_ 32 128#32),
    StableHlo.unary main_c_31 main_v86 (broadcastInDim S500000 ![] bcast_S_S500000 : (⟨S_, .i32⟩ : BufTy).Contents (Elt F) → (⟨S500000, .i32⟩ : BufTy).Contents (Elt F)),
    StableHlo.binary main_v41 main_v86 main_v87 (addi : (⟨S500000, .i32⟩ : BufTy).Contents (Elt F) → (⟨S500000, .i32⟩ : BufTy).Contents (Elt F) → (⟨S500000, .i32⟩ : BufTy).Contents (Elt F)),
    StableHlo.ternary main_v85 main_v87 main_v41 main_v88 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_32 (constantI S_ 32 0#32),
    StableHlo.unary main_c_32 main_v89 (broadcastInDim S500000 ![] bcast_S_S500000 : (⟨S_, .i32⟩ : BufTy).Contents (Elt F) → (⟨S500000, .i32⟩ : BufTy).Contents (Elt F)),
    StableHlo.binary main_v37 main_v89 main_v90 (cmpi .slt : (⟨S500000, .i32⟩ : BufTy).Contents (Elt F) → (⟨S500000, .i32⟩ : BufTy).Contents (Elt F) → (⟨S500000, .i1⟩ : BufTy).Contents (Elt F)),
    StableHlo.nullary main_c_33 (constantI S_ 32 128#32),
    StableHlo.unary main_c_33 main_v91 (broadcastInDim S500000 ![] bcast_S_S500000 : (⟨S_, .i32⟩ : BufTy).Contents (Elt F) → (⟨S500000, .i32⟩ : BufTy).Contents (Elt F)),
    StableHlo.binary main_v37 main_v91 main_v92 (addi : (⟨S500000, .i32⟩ : BufTy).Contents (Elt F) → (⟨S500000, .i32⟩ : BufTy).Contents (Elt F) → (⟨S500000, .i32⟩ : BufTy).Contents (Elt F)),
    StableHlo.ternary main_v90 main_v92 main_v37 main_v93 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v88 main_v94 (broadcastInDim S500000x1 ![0] bcast_S500000_S500000x1_0 : (⟨S500000, .i32⟩ : BufTy).Contents (Elt F) → (⟨S500000x1, .i32⟩ : BufTy).Contents (Elt F)),
    StableHlo.unary main_v93 main_v95 (broadcastInDim S500000x1 ![0] bcast_S500000_S500000x1_0 : (⟨S500000, .i32⟩ : BufTy).Contents (Elt F) → (⟨S500000x1, .i32⟩ : BufTy).Contents (Elt F)),
    StableHlo.binary main_v94 main_v95 main_v96 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg1 main_v96 main_v97 ((fun x i => Host.gather gather_S8x128x128_S500000x2_S8x500000_0_12_n_n_12_1_811 x i) : (⟨S8x128x128, .f32⟩ : BufTy).Contents (Elt F) → (⟨S500000x2, .i32⟩ : BufTy).Contents (Elt F) → (⟨S8x500000, .f32⟩ : BufTy).Contents (Elt F)),
    StableHlo.nullary main_cst_34 (constant S_ .f32 0x3F800000#32),
    StableHlo.unary main_cst_34 main_v98 (broadcastInDim S500000 ![] bcast_S_S500000 : (⟨S_, .f32⟩ : BufTy).Contents (Elt F) → (⟨S500000, .f32⟩ : BufTy).Contents (Elt F)),
    StableHlo.binary main_v98 main_v31 main_v99 (subf : (⟨S500000, .f32⟩ : BufTy).Contents (Elt F) → (⟨S500000, .f32⟩ : BufTy).Contents (Elt F) → (⟨S500000, .f32⟩ : BufTy).Contents (Elt F)),
    StableHlo.unary main_v99 main_v100 (broadcastInDim S1x500000 ![1] bcast_S500000_S1x500000_1 : (⟨S500000, .f32⟩ : BufTy).Contents (Elt F) → (⟨S1x500000, .f32⟩ : BufTy).Contents (Elt F)),
    StableHlo.unary main_v100 main_v101 (broadcastInDim S8x500000 ![0, 1] bcast_S1x500000_S8x500000_0_1 : (⟨S1x500000, .f32⟩ : BufTy).Contents (Elt F) → (⟨S8x500000, .f32⟩ : BufTy).Contents (Elt F)),
    StableHlo.binary main_v55 main_v101 main_v102 (mulf : (⟨S8x500000, .f32⟩ : BufTy).Contents (Elt F) → (⟨S8x500000, .f32⟩ : BufTy).Contents (Elt F) → (⟨S8x500000, .f32⟩ : BufTy).Contents (Elt F)),
    StableHlo.unary main_v31 main_v103 (broadcastInDim S1x500000 ![1] bcast_S500000_S1x500000_1 : (⟨S500000, .f32⟩ : BufTy).Contents (Elt F) → (⟨S1x500000, .f32⟩ : BufTy).Contents (Elt F)),
    StableHlo.unary main_v103 main_v104 (broadcastInDim S8x500000 ![0, 1] bcast_S1x500000_S8x500000_0_1 : (⟨S1x500000, .f32⟩ : BufTy).Contents (Elt F) → (⟨S8x500000, .f32⟩ : BufTy).Contents (Elt F)),
    StableHlo.binary main_v69 main_v104 main_v105 (mulf : (⟨S8x500000, .f32⟩ : BufTy).Contents (Elt F) → (⟨S8x500000, .f32⟩ : BufTy).Contents (Elt F) → (⟨S8x500000, .f32⟩ : BufTy).Contents (Elt F)),
    StableHlo.binary main_v102 main_v105 main_v106 (addf : (⟨S8x500000, .f32⟩ : BufTy).Contents (Elt F) → (⟨S8x500000, .f32⟩ : BufTy).Contents (Elt F) → (⟨S8x500000, .f32⟩ : BufTy).Contents (Elt F)),
    StableHlo.nullary main_cst_35 (constant S_ .f32 0x3F800000#32),
    StableHlo.unary main_cst_35 main_v107 (broadcastInDim S500000 ![] bcast_S_S500000 : (⟨S_, .f32⟩ : BufTy).Contents (Elt F) → (⟨S500000, .f32⟩ : BufTy).Contents (Elt F)),
    StableHlo.binary main_v107 main_v31 main_v108 (subf : (⟨S500000, .f32⟩ : BufTy).Contents (Elt F) → (⟨S500000, .f32⟩ : BufTy).Contents (Elt F) → (⟨S500000, .f32⟩ : BufTy).Contents (Elt F)),
    StableHlo.unary main_v108 main_v109 (broadcastInDim S1x500000 ![1] bcast_S500000_S1x500000_1 : (⟨S500000, .f32⟩ : BufTy).Contents (Elt F) → (⟨S1x500000, .f32⟩ : BufTy).Contents (Elt F)),
    StableHlo.unary main_v109 main_v110 (broadcastInDim S8x500000 ![0, 1] bcast_S1x500000_S8x500000_0_1 : (⟨S1x500000, .f32⟩ : BufTy).Contents (Elt F) → (⟨S8x500000, .f32⟩ : BufTy).Contents (Elt F)),
    StableHlo.binary main_v83 main_v110 main_v111 (mulf : (⟨S8x500000, .f32⟩ : BufTy).Contents (Elt F) → (⟨S8x500000, .f32⟩ : BufTy).Contents (Elt F) → (⟨S8x500000, .f32⟩ : BufTy).Contents (Elt F)),
    StableHlo.unary main_v31 main_v112 (broadcastInDim S1x500000 ![1] bcast_S500000_S1x500000_1 : (⟨S500000, .f32⟩ : BufTy).Contents (Elt F) → (⟨S1x500000, .f32⟩ : BufTy).Contents (Elt F)),
    StableHlo.unary main_v112 main_v113 (broadcastInDim S8x500000 ![0, 1] bcast_S1x500000_S8x500000_0_1 : (⟨S1x500000, .f32⟩ : BufTy).Contents (Elt F) → (⟨S8x500000, .f32⟩ : BufTy).Contents (Elt F)),
    StableHlo.binary main_v97 main_v113 main_v114 (mulf : (⟨S8x500000, .f32⟩ : BufTy).Contents (Elt F) → (⟨S8x500000, .f32⟩ : BufTy).Contents (Elt F) → (⟨S8x500000, .f32⟩ : BufTy).Contents (Elt F)),
    StableHlo.binary main_v111 main_v114 main_v115 (addf : (⟨S8x500000, .f32⟩ : BufTy).Contents (Elt F) → (⟨S8x500000, .f32⟩ : BufTy).Contents (Elt F) → (⟨S8x500000, .f32⟩ : BufTy).Contents (Elt F)),
    StableHlo.nullary main_cst_36 (constant S_ .f32 0x3F800000#32),
    StableHlo.unary main_cst_36 main_v116 (broadcastInDim S500000 ![] bcast_S_S500000 : (⟨S_, .f32⟩ : BufTy).Contents (Elt F) → (⟨S500000, .f32⟩ : BufTy).Contents (Elt F)),
    StableHlo.binary main_v116 main_v33 main_v117 (subf : (⟨S500000, .f32⟩ : BufTy).Contents (Elt F) → (⟨S500000, .f32⟩ : BufTy).Contents (Elt F) → (⟨S500000, .f32⟩ : BufTy).Contents (Elt F)),
    StableHlo.unary main_v117 main_v118 (broadcastInDim S1x500000 ![1] bcast_S500000_S1x500000_1 : (⟨S500000, .f32⟩ : BufTy).Contents (Elt F) → (⟨S1x500000, .f32⟩ : BufTy).Contents (Elt F)),
    StableHlo.unary main_v118 main_v119 (broadcastInDim S8x500000 ![0, 1] bcast_S1x500000_S8x500000_0_1 : (⟨S1x500000, .f32⟩ : BufTy).Contents (Elt F) → (⟨S8x500000, .f32⟩ : BufTy).Contents (Elt F)),
    StableHlo.binary main_v106 main_v119 main_v120 (mulf : (⟨S8x500000, .f32⟩ : BufTy).Contents (Elt F) → (⟨S8x500000, .f32⟩ : BufTy).Contents (Elt F) → (⟨S8x500000, .f32⟩ : BufTy).Contents (Elt F)),
    StableHlo.unary main_v33 main_v121 (broadcastInDim S1x500000 ![1] bcast_S500000_S1x500000_1 : (⟨S500000, .f32⟩ : BufTy).Contents (Elt F) → (⟨S1x500000, .f32⟩ : BufTy).Contents (Elt F)),
    StableHlo.unary main_v121 main_v122 (broadcastInDim S8x500000 ![0, 1] bcast_S1x500000_S8x500000_0_1 : (⟨S1x500000, .f32⟩ : BufTy).Contents (Elt F) → (⟨S8x500000, .f32⟩ : BufTy).Contents (Elt F)),
    StableHlo.binary main_v115 main_v122 main_v123 (mulf : (⟨S8x500000, .f32⟩ : BufTy).Contents (Elt F) → (⟨S8x500000, .f32⟩ : BufTy).Contents (Elt F) → (⟨S8x500000, .f32⟩ : BufTy).Contents (Elt F)),
    StableHlo.binary main_v120 main_v123 main_v124 (addf : (⟨S8x500000, .f32⟩ : BufTy).Contents (Elt F) → (⟨S8x500000, .f32⟩ : BufTy).Contents (Elt F) → (⟨S8x500000, .f32⟩ : BufTy).Contents (Elt F)),
    StableHlo.unary main_v124 main_v125 ((transpose S500000x8 [1, 0] · transposes_S8x500000_S500000x8_1_0) : (⟨S8x500000, .f32⟩ : BufTy).Contents (Elt F) → (⟨S500000x8, .f32⟩ : BufTy).Contents (Elt F)) ]

/-- Operations 185 … 351 (167): level 0, plane xz. -/
abbrev opsB0b : List (HloOp τ sig (Elt F)) :=
  [ StableHlo.nullary main_cst_37 (constant S_ .f32 0x3F800000#32),
    StableHlo.unary main_cst_37 main_v126 (broadcastInDim S500000 ![] bcast_S_S500000 : (⟨S_, .f32⟩ : BufTy).Contents (Elt F) → (⟨S500000, .f32⟩ : BufTy).Contents (Elt F)),
    StableHlo.binary main_v13 main_v126 main_v127 (addf : (⟨S500000, .f32⟩ : BufTy).Contents (Elt F) → (⟨S500000, .f32⟩ : BufTy).Contents (Elt F) → (⟨S500000, .f32⟩ : BufTy).Contents (Elt F)),
    StableHlo.nullary main_cst_38 (constant S_ .f32 0x3F000000#32),
    StableHlo.unary main_cst_38 main_v128 (broadcastInDim S500000 ![] bcast_S_S500000 : (⟨S_, .f32⟩ : BufTy).Contents (Elt F) → (⟨S500000, .f32⟩ : BufTy).Contents (Elt F)),
    StableHlo.binary main_v127 main_v128 main_v129 (mulf : (⟨S500000, .f32⟩ : BufTy).Contents (Elt F) → (⟨S500000, .f32⟩ : BufTy).Contents (Elt F) → (⟨S500000, .f32⟩ : BufTy).Contents (Elt F)),
    StableHlo.nullary main_cst_39 (constant S_ .f32 0x42FE0000#32),
    StableHlo.unary main_cst_39 main_v130 (broadcastInDim S500000 ![] bcast_S_S500000 : (⟨S_, .f32⟩ : BufTy).Contents (Elt F) → (⟨S500000, .f32⟩ : BufTy).Contents (Elt F)),
    StableHlo.binary main_v129 main_v130 main_v131 (mulf : (⟨S500000, .f32⟩ : BufTy).Contents (Elt F) → (⟨S500000, .f32⟩ : BufTy).Contents (Elt F) → (⟨S500000, .f32⟩ : BufTy).Contents (Elt F)),
    StableHlo.nullary main_cst_40 (constant S_ .f32 0x3F800000#32),
    StableHlo.unary main_cst_40 main_v132 (broadcastInDim S500000 ![] bcast_S_S500000 : (⟨S_, .f32⟩ : BufTy).Contents (Elt F) → (⟨S500000, .f32⟩ : BufTy).Contents (Elt F)),
    StableHlo.binary main_v9 main_v132 main_v133 (addf : (⟨S500000, .f32⟩ : BufTy).Contents (Elt F) → (⟨S500000, .f32⟩ : BufTy).Contents (Elt F) → (⟨S500000, .f32⟩ : BufTy).Contents (Elt F)),
    StableHlo.nullary main_cst_41 (constant S_ .f32 0x3F000000#32),
    StableHlo.unary main_cst_41 main_v134 (broadcastInDim S500000 ![] bcast_S_S500000 : (⟨S_, .f32⟩ : BufTy).Contents (Elt F) → (⟨S500000, .f32⟩ : BufTy).Contents (Elt F)),
    StableHlo.binary main_v133 main_v134 main_v135 (mulf : (⟨S500000, .f32⟩ : BufTy).Contents (Elt F) → (⟨S500000, .f32⟩ : BufTy).Contents (Elt F) → (⟨S500000, .f32⟩ : BufTy).Contents (Elt F)),
    StableHlo.nullary main_cst_42 (constant S_ .f32 0x42FE0000#32),
    StableHlo.unary main_cst_42 main_v136 (broadcastInDim S500000 ![] bcast_S_S500000 : (⟨S_, .f32⟩ : BufTy).Contents (Elt F) → (⟨S500000, .f32⟩ : BufTy).Contents (Elt F)),
    StableHlo.binary main_v135 main_v136 main_v137 (mulf : (⟨S500000, .f32⟩ : BufTy).Contents (Elt F) → (⟨S500000, .f32⟩ : BufTy).Contents (Elt F) → (⟨S500000, .f32⟩ : BufTy).Contents (Elt F)),
    StableHlo.unary main_v131 main_v138 (Host.floor : (⟨S500000, .f32⟩ : BufTy).Contents (Elt F) → (⟨S500000, .f32⟩ : BufTy).Contents (Elt F)),
    StableHlo.unary main_v138 main_v139 (fptosi 32 : (⟨S500000, .f32⟩ : BufTy).Contents (Elt F) → (⟨S500000, .i32⟩ : BufTy).Contents (Elt F)),
    StableHlo.unary main_v137 main_v140 (Host.floor : (⟨S500000, .f32⟩ : BufTy).Contents (Elt F) → (⟨S500000, .f32⟩ : BufTy).Contents (Elt F)),
    StableHlo.unary main_v140 main_v141 (fptosi 32 : (⟨S500000, .f32⟩ : BufTy).Contents (Elt F) → (⟨S500000, .i32⟩ : BufTy).Contents (Elt F)),
    StableHlo.unary main_v139 main_v142 (sitofp .f32 : (⟨S500000, .i32⟩ : BufTy).Contents (Elt F) → (⟨S500000, .f32⟩ : BufTy).Contents (Elt F)),
    StableHlo.binary main_v131 main_v142 main_v143 (subf : (⟨S500000, .f32⟩ : BufTy).Contents (Elt F) → (⟨S500000, .f32⟩ : BufTy).Contents (Elt F) → (⟨S500000, .f32⟩ : BufTy).Contents (Elt F)),
    StableHlo.unary main_v141 main_v144 (sitofp .f32 : (⟨S500000, .i32⟩ : BufTy).Contents (Elt F) → (⟨S500000, .f32⟩ : BufTy).Contents (Elt F)),
    StableHlo.binary main_v137 main_v144 main_v145 (subf : (⟨S500000, .f32⟩ : BufTy).Contents (Elt F) → (⟨S500000, .f32⟩ : BufTy).Contents (Elt F) → (⟨S500000, .f32⟩ : BufTy).Contents (Elt F)),
    StableHlo.nullary main_c_43 (constantI S_ 32 0#32),
    StableHlo.nullary main_c_44 (constantI S_ 32 127#32),
    StableHlo.TRef.unary (.of main_c_43 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S500000, .i32⟩) (broadcastInDim S500000 ![] bcast_S_S500000),
    StableHlo.TRef.binary (.of main_call4_v1 : StableHlo.TRef sig ⟨S500000, .i32⟩) (.of main_v139 : StableHlo.TRef sig ⟨S500000, .i32⟩) (.of main_call4_v2 : StableHlo.TRef sig ⟨S500000, .i32⟩) maxsi,
    StableHlo.TRef.unary (.of main_c_44 : StableHlo.TRef sig ⟨S_, .i32⟩) (.of main_call4_v3 : StableHlo.TRef sig ⟨S_, .i32⟩) id,
    StableHlo.TRef.unary (.of main_call4_v3 : StableHlo.TRef sig ⟨S_, .i32⟩) (.of main_call4_v4 : StableHlo.TRef sig ⟨S500000, .i32⟩) (broadcastInDim S500000 ![] bcast_S_S500000),
    StableHlo.TRef.binary (.of main_call4_v4 : StableHlo.TRef sig ⟨S500000, .i32⟩) (.of main_call4_v2 : StableHlo.TRef sig ⟨S500000, .i32⟩) (.of main_v146 : StableHlo.TRef sig ⟨S500000, .i32⟩) minsi,
    StableHlo.nullary main_c_45 (constantI S_ 32 1#32),
    StableHlo.unary main_c_45 main_v147 (broadcastInDim S500000 ![] bcast_S_S500000 : (⟨S_, .i32⟩ : BufTy).Contents (Elt F) → (⟨S500000, .i32⟩ : BufTy).Contents (Elt F)),
    StableHlo.binary main_v139 main_v147 main_v148 (addi : (⟨S500000, .i32⟩ : BufTy).Contents (Elt F) → (⟨S500000, .i32⟩ : BufTy).Contents (Elt F) → (⟨S500000, .i32⟩ : BufTy).Contents (Elt F)),
    StableHlo.nullary main_c_46 (constantI S_ 32 0#32),
    StableHlo.nullary main_c_47 (constantI S_ 32 127#32),
    StableHlo.TRef.unary (.of main_c_46 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S500000, .i32⟩) (broadcastInDim S500000 ![] bcast_S_S500000),
    StableHlo.TRef.binary (.of main_call5_v1 : StableHlo.TRef sig ⟨S500000, .i32⟩) (.of main_v148 : StableHlo.TRef sig ⟨S500000, .i32⟩) (.of main_call5_v2 : StableHlo.TRef sig ⟨S500000, .i32⟩) maxsi,
    StableHlo.TRef.unary (.of main_c_47 : StableHlo.TRef sig ⟨S_, .i32⟩) (.of main_call5_v3 : StableHlo.TRef sig ⟨S_, .i32⟩) id,
    StableHlo.TRef.unary (.of main_call5_v3 : StableHlo.TRef sig ⟨S_, .i32⟩) (.of main_call5_v4 : StableHlo.TRef sig ⟨S500000, .i32⟩) (broadcastInDim S500000 ![] bcast_S_S500000),
    StableHlo.TRef.binary (.of main_call5_v4 : StableHlo.TRef sig ⟨S500000, .i32⟩) (.of main_call5_v2 : StableHlo.TRef sig ⟨S500000, .i32⟩) (.of main_v149 : StableHlo.TRef sig ⟨S500000, .i32⟩) minsi,
    StableHlo.nullary main_c_48 (constantI S_ 32 0#32),
    StableHlo.nullary main_c_49 (constantI S_ 32 127#32),
    StableHlo.TRef.unary (.of main_c_48 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S500000, .i32⟩) (broadcastInDim S500000 ![] bcast_S_S500000),
    StableHlo.TRef.binary (.of main_call6_v1 : StableHlo.TRef sig ⟨S500000, .i32⟩) (.of main_v141 : StableHlo.TRef sig ⟨S500000, .i32⟩) (.of main_call6_v2 : StableHlo.TRef sig ⟨S500000, .i32⟩) maxsi,
    StableHlo.TRef.unary (.of main_c_49 : StableHlo.TRef sig ⟨S_, .i32⟩) (.of main_call6_v3 : StableHlo.TRef sig ⟨S_, .i32⟩) id,
    StableHlo.TRef.unary (.of main_call6_v3 : StableHlo.TRef sig ⟨S_, .i32⟩) (.of main_call6_v4 : StableHlo.TRef sig ⟨S500000, .i32⟩) (broadcastInDim S500000 ![] bcast_S_S500000),
    StableHlo.TRef.binary (.of main_call6_v4 : StableHlo.TRef sig ⟨S500000, .i32⟩) (.of main_call6_v2 : StableHlo.TRef sig ⟨S500000, .i32⟩) (.of main_v150 : StableHlo.TRef sig ⟨S500000, .i32⟩) minsi,
    StableHlo.nullary main_c_50 (constantI S_ 32 1#32),
    StableHlo.unary main_c_50 main_v151 (broadcastInDim S500000 ![] bcast_S_S500000 : (⟨S_, .i32⟩ : BufTy).Contents (Elt F) → (⟨S500000, .i32⟩ : BufTy).Contents (Elt F)),
    StableHlo.binary main_v141 main_v151 main_v152 (addi : (⟨S500000, .i32⟩ : BufTy).Contents (Elt F) → (⟨S500000, .i32⟩ : BufTy).Contents (Elt F) → (⟨S500000, .i32⟩ : BufTy).Contents (Elt F)),
    StableHlo.nullary main_c_51 (constantI S_ 32 0#32),
    StableHlo.nullary main_c_52 (constantI S_ 32 127#32),
    StableHlo.TRef.unary (.of main_c_51 : StableHlo.TRef sig ⟨S_, .i32⟩) (.of main_call7_v0 : StableHlo.TRef sig ⟨S_, .i32⟩) id,
    StableHlo.TRef.unary (.of main_call7_v0 : StableHlo.TRef sig ⟨S_, .i32⟩) (.of main_call7_v1 : StableHlo.TRef sig ⟨S500000, .i32⟩) (broadcastInDim S500000 ![] bcast_S_S500000),
    StableHlo.TRef.binary (.of main_call7_v1 : StableHlo.TRef sig ⟨S500000, .i32⟩) (.of main_v152 : StableHlo.TRef sig ⟨S500000, .i32⟩) (.of main_call7_v2 : StableHlo.TRef sig ⟨S500000, .i32⟩) maxsi,
    StableHlo.TRef.unary (.of main_c_52 : StableHlo.TRef sig ⟨S_, .i32⟩) (.of main_call7_v3 : StableHlo.TRef sig ⟨S_, .i32⟩) id,
    StableHlo.TRef.unary (.of main_call7_v3 : StableHlo.TRef sig ⟨S_, .i32⟩) (.of main_call7_v4 : StableHlo.TRef sig ⟨S500000, .i32⟩) (broadcastInDim S500000 ![] bcast_S_S500000),
    StableHlo.TRef.binary (.of main_call7_v4 : StableHlo.TRef sig ⟨S500000, .i32⟩) (.of main_call7_v2 : StableHlo.TRef sig ⟨S500000, .i32⟩) (.of main_v153 : StableHlo.TRef sig ⟨S500000, .i32⟩) minsi,
    StableHlo.nullary main_c_53 (constantI S_ 32 0#32),
    StableHlo.unary main_c_53 main_v154 (broadcastInDim S500000 ![] bcast_S_S500000 : (⟨S_, .i32⟩ : BufTy).Contents (Elt F) → (⟨S500000, .i32⟩ : BufTy).Contents (Elt F)),
    StableHlo.binary main_v150 main_v154 main_v155 (cmpi .slt : (⟨S500000, .i32⟩ : BufTy).Contents (Elt F) → (⟨S500000, .i32⟩ : BufTy).Contents (Elt F) → (⟨S500000, .i1⟩ : BufTy).Contents (Elt F)),
    StableHlo.nullary main_c_54 (constantI S_ 32 128#32),
    StableHlo.unary main_c_54 main_v156 (broadcastInDim S500000 ![] bcast_S_S500000 : (⟨S_, .i32⟩ : BufTy).Contents (Elt F) → (⟨S500000, .i32⟩ : BufTy).Contents (Elt F)),
    StableHlo.binary main_v150 main_v156 main_v157 (addi : (⟨S500000, .i32⟩ : BufTy).Contents (Elt F) → (⟨S500000, .i32⟩ : BufTy).Contents (Elt F) → (⟨S500000, .i32⟩ : BufTy).Contents (Elt F)),
    StableHlo.ternary main_v155 main_v157 main_v150 main_v158 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_55 (constantI S_ 32 0#32),
    StableHlo.unary main_c_55 main_v159 (broadcastInDim S500000 ![] bcast_S_S500000 : (⟨S_, .i32⟩ : BufTy).Contents (Elt F) → (⟨S500000, .i32⟩ : BufTy).Contents (Elt F)),
    StableHlo.binary main_v146 main_v159 main_v160 (cmpi .slt : (⟨S500000, .i32⟩ : BufTy).Contents (Elt F) → (⟨S500000, .i32⟩ : BufTy).Contents (Elt F) → (⟨S500000, .i1⟩ : BufTy).Contents (Elt F)),
    StableHlo.nullary main_c_56 (constantI S_ 32 128#32),
    StableHlo.unary main_c_56 main_v161 (broadcastInDim S500000 ![] bcast_S_S500000 : (⟨S_, .i32⟩ : BufTy).Contents (Elt F) → (⟨S500000, .i32⟩ : BufTy).Contents (Elt F)),
    StableHlo.binary main_v146 main_v161 main_v162 (addi : (⟨S500000, .i32⟩ : BufTy).Contents (Elt F) → (⟨S500000, .i32⟩ : BufTy).Contents (Elt F) → (⟨S500000, .i32⟩ : BufTy).Contents (Elt F)),
    StableHlo.ternary main_v160 main_v162 main_v146 main_v163 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v158 main_v164 (broadcastInDim S500000x1 ![0] bcast_S500000_S500000x1_0 : (⟨S500000, .i32⟩ : BufTy).Contents (Elt F) → (⟨S500000x1, .i32⟩ : BufTy).Contents (Elt F)),
    StableHlo.unary main_v163 main_v165 (broadcastInDim S500000x1 ![0] bcast_S500000_S500000x1_0 : (⟨S500000, .i32⟩ : BufTy).Contents (Elt F) → (⟨S500000x1, .i32⟩ : BufTy).Contents (Elt F)),
    StableHlo.binary main_v164 main_v165 main_v166 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg2 main_v166 main_v167 ((fun x i => Host.gather gather_S8x128x128_S500000x2_S8x500000_0_12_n_n_12_1_811 x i) : (⟨S8x128x128, .f32⟩ : BufTy).Contents (Elt F) → (⟨S500000x2, .i32⟩ : BufTy).Contents (Elt F) → (⟨S8x500000, .f32⟩ : BufTy).Contents (Elt F)),
    StableHlo.nullary main_c_57 (constantI S_ 32 0#32),
    StableHlo.unary main_c_57 main_v168 (broadcastInDim S500000 ![] bcast_S_S500000 : (⟨S_, .i32⟩ : BufTy).Contents (Elt F) → (⟨S500000, .i32⟩ : BufTy).Contents (Elt F)),
    StableHlo.binary main_v150 main_v168 main_v169 (cmpi .slt : (⟨S500000, .i32⟩ : BufTy).Contents (Elt F) → (⟨S500000, .i32⟩ : BufTy).Contents (Elt F) → (⟨S500000, .i1⟩ : BufTy).Contents (Elt F)),
    StableHlo.nullary main_c_58 (constantI S_ 32 128#32),
    StableHlo.unary main_c_58 main_v170 (broadcastInDim S500000 ![] bcast_S_S500000 : (⟨S_, .i32⟩ : BufTy).Contents (Elt F) → (⟨S500000, .i32⟩ : BufTy).Contents (Elt F)),
    StableHlo.binary main_v150 main_v170 main_v171 (addi : (⟨S500000, .i32⟩ : BufTy).Contents (Elt F) → (⟨S500000, .i32⟩ : BufTy).Contents (Elt F) → (⟨S500000, .i32⟩ : BufTy).Contents (Elt F)),
    StableHlo.ternary main_v169 main_v171 main_v150 main_v172 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_59 (constantI S_ 32 0#32),
    StableHlo.unary main_c_59 main_v173 (broadcastInDim S500000 ![] bcast_S_S500000 : (⟨S_, .i32⟩ : BufTy).Contents (Elt F) → (⟨S500000, .i32⟩ : BufTy).Contents (Elt F)),
    StableHlo.binary main_v149 main_v173 main_v174 (cmpi .slt : (⟨S500000, .i32⟩ : BufTy).Contents (Elt F) → (⟨S500000, .i32⟩ : BufTy).Contents (Elt F) → (⟨S500000, .i1⟩ : BufTy).Contents (Elt F)),
    StableHlo.nullary main_c_60 (constantI S_ 32 128#32),
    StableHlo.unary main_c_60 main_v175 (broadcastInDim S500000 ![] bcast_S_S500000 : (⟨S_, .i32⟩ : BufTy).Contents (Elt F) → (⟨S500000, .i32⟩ : BufTy).Contents (Elt F)),
    StableHlo.binary main_v149 main_v175 main_v176 (addi : (⟨S500000, .i32⟩ : BufTy).Contents (Elt F) → (⟨S500000, .i32⟩ : BufTy).Contents (Elt F) → (⟨S500000, .i32⟩ : BufTy).Contents (Elt F)),
    StableHlo.ternary main_v174 main_v176 main_v149 main_v177 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v172 main_v178 (broadcastInDim S500000x1 ![0] bcast_S500000_S500000x1_0 : (⟨S500000, .i32⟩ : BufTy).Contents (Elt F) → (⟨S500000x1, .i32⟩ : BufTy).Contents (Elt F)),
    StableHlo.unary main_v177 main_v179 (broadcastInDim S500000x1 ![0] bcast_S500000_S500000x1_0 : (⟨S500000, .i32⟩ : BufTy).Contents (Elt F) → (⟨S500000x1, .i32⟩ : BufTy).Contents (Elt F)),
    StableHlo.binary main_v178 main_v179 main_v180 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg2 main_v180 main_v181 ((fun x i => Host.gather gather_S8x128x128_S500000x2_S8x500000_0_12_n_n_12_1_811 x i) : (⟨S8x128x128, .f32⟩ : BufTy).Contents (Elt F) → (⟨S500000x2, .i32⟩ : BufTy).Contents (Elt F) → (⟨S8x500000, .f32⟩ : BufTy).Contents (Elt F)),
    StableHlo.nullary main_c_61 (constantI S_ 32 0#32),
    StableHlo.unary main_c_61 main_v182 (broadcastInDim S500000 ![] bcast_S_S500000 : (⟨S_, .i32⟩ : BufTy).Contents (Elt F) → (⟨S500000, .i32⟩ : BufTy).Contents (Elt F)),
    StableHlo.binary main_v153 main_v182 main_v183 (cmpi .slt : (⟨S500000, .i32⟩ : BufTy).Contents (Elt F) → (⟨S500000, .i32⟩ : BufTy).Contents (Elt F) → (⟨S500000, .i1⟩ : BufTy).Contents (Elt F)),
    StableHlo.nullary main_c_62 (constantI S_ 32 128#32),
    StableHlo.unary main_c_62 main_v184 (broadcastInDim S500000 ![] bcast_S_S500000 : (⟨S_, .i32⟩ : BufTy).Contents (Elt F) → (⟨S500000, .i32⟩ : BufTy).Contents (Elt F)),
    StableHlo.binary main_v153 main_v184 main_v185 (addi : (⟨S500000, .i32⟩ : BufTy).Contents (Elt F) → (⟨S500000, .i32⟩ : BufTy).Contents (Elt F) → (⟨S500000, .i32⟩ : BufTy).Contents (Elt F)),
    StableHlo.ternary main_v183 main_v185 main_v153 main_v186 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_63 (constantI S_ 32 0#32),
    StableHlo.unary main_c_63 main_v187 (broadcastInDim S500000 ![] bcast_S_S500000 : (⟨S_, .i32⟩ : BufTy).Contents (Elt F) → (⟨S500000, .i32⟩ : BufTy).Contents (Elt F)),
    StableHlo.binary main_v146 main_v187 main_v188 (cmpi .slt : (⟨S500000, .i32⟩ : BufTy).Contents (Elt F) → (⟨S500000, .i32⟩ : BufTy).Contents (Elt F) → (⟨S500000, .i1⟩ : BufTy).Contents (Elt F)),
    StableHlo.nullary main_c_64 (constantI S_ 32 128#32),
    StableHlo.unary main_c_64 main_v189 (broadcastInDim S500000 ![] bcast_S_S500000 : (⟨S_, .i32⟩ : BufTy).Contents (Elt F) → (⟨S500000, .i32⟩ : BufTy).Contents (Elt F)),
    StableHlo.binary main_v146 main_v189 main_v190 (addi : (⟨S500000, .i32⟩ : BufTy).Contents (Elt F) → (⟨S500000, .i32⟩ : BufTy).Contents (Elt F) → (⟨S500000, .i32⟩ : BufTy).Contents (Elt F)),
    StableHlo.ternary main_v188 main_v190 main_v146 main_v191 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v186 main_v192 (broadcastInDim S500000x1 ![0] bcast_S500000_S500000x1_0 : (⟨S500000, .i32⟩ : BufTy).Contents (Elt F) → (⟨S500000x1, .i32⟩ : BufTy).Contents (Elt F)),
    StableHlo.unary main_v191 main_v193 (broadcastInDim S500000x1 ![0] bcast_S500000_S500000x1_0 : (⟨S500000, .i32⟩ : BufTy).Contents (Elt F) → (⟨S500000x1, .i32⟩ : BufTy).Contents (Elt F)),
    StableHlo.binary main_v192 main_v193 main_v194 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg2 main_v194 main_v195 ((fun x i => Host.gather gather_S8x128x128_S500000x2_S8x500000_0_12_n_n_12_1_811 x i) : (⟨S8x128x128, .f32⟩ : BufTy).Contents (Elt F) → (⟨S500000x2, .i32⟩ : BufTy).Contents (Elt F) → (⟨S8x500000, .f32⟩ : BufTy).Contents (Elt F)),
    StableHlo.nullary main_c_65 (constantI S_ 32 0#32),
    StableHlo.unary main_c_65 main_v196 (broadcastInDim S500000 ![] bcast_S_S500000 : (⟨S_, .i32⟩ : BufTy).Contents (Elt F) → (⟨S500000, .i32⟩ : BufTy).Contents (Elt F)),
    StableHlo.binary main_v153 main_v196 main_v197 (cmpi .slt : (⟨S500000, .i32⟩ : BufTy).Contents (Elt F) → (⟨S500000, .i32⟩ : BufTy).Contents (Elt F) → (⟨S500000, .i1⟩ : BufTy).Contents (Elt F)),
    StableHlo.nullary main_c_66 (constantI S_ 32 128#32),
    StableHlo.unary main_c_66 main_v198 (broadcastInDim S500000 ![] bcast_S_S500000 : (⟨S_, .i32⟩ : BufTy).Contents (Elt F) → (⟨S500000, .i32⟩ : BufTy).Contents (Elt F)),
    StableHlo.binary main_v153 main_v198 main_v199 (addi : (⟨S500000, .i32⟩ : BufTy).Contents (Elt F) → (⟨S500000, .i32⟩ : BufTy).Contents (Elt F) → (⟨S500000, .i32⟩ : BufTy).Contents (Elt F)),
    StableHlo.ternary main_v197 main_v199 main_v153 main_v200 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_67 (constantI S_ 32 0#32),
    StableHlo.unary main_c_67 main_v201 (broadcastInDim S500000 ![] bcast_S_S500000 : (⟨S_, .i32⟩ : BufTy).Contents (Elt F) → (⟨S500000, .i32⟩ : BufTy).Contents (Elt F)),
    StableHlo.binary main_v149 main_v201 main_v202 (cmpi .slt : (⟨S500000, .i32⟩ : BufTy).Contents (Elt F) → (⟨S500000, .i32⟩ : BufTy).Contents (Elt F) → (⟨S500000, .i1⟩ : BufTy).Contents (Elt F)),
    StableHlo.nullary main_c_68 (constantI S_ 32 128#32),
    StableHlo.unary main_c_68 main_v203 (broadcastInDim S500000 ![] bcast_S_S500000 : (⟨S_, .i32⟩ : BufTy).Contents (Elt F) → (⟨S500000, .i32⟩ : BufTy).Contents (Elt F)),
    StableHlo.binary main_v149 main_v203 main_v204 (addi : (⟨S500000, .i32⟩ : BufTy).Contents (Elt F) → (⟨S500000, .i32⟩ : BufTy).Contents (Elt F) → (⟨S500000, .i32⟩ : BufTy).Contents (Elt F)),
    StableHlo.ternary main_v202 main_v204 main_v149 main_v205 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v200 main_v206 (broadcastInDim S500000x1 ![0] bcast_S500000_S500000x1_0 : (⟨S500000, .i32⟩ : BufTy).Contents (Elt F) → (⟨S500000x1, .i32⟩ : BufTy).Contents (Elt F)),
    StableHlo.unary main_v205 main_v207 (broadcastInDim S500000x1 ![0] bcast_S500000_S500000x1_0 : (⟨S500000, .i32⟩ : BufTy).Contents (Elt F) → (⟨S500000x1, .i32⟩ : BufTy).Contents (Elt F)),
    StableHlo.binary main_v206 main_v207 main_v208 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg2 main_v208 main_v209 ((fun x i => Host.gather gather_S8x128x128_S500000x2_S8x500000_0_12_n_n_12_1_811 x i) : (⟨S8x128x128, .f32⟩ : BufTy).Contents (Elt F) → (⟨S500000x2, .i32⟩ : BufTy).Contents (Elt F) → (⟨S8x500000, .f32⟩ : BufTy).Contents (Elt F)),
    StableHlo.nullary main_cst_69 (constant S_ .f32 0x3F800000#32),
    StableHlo.unary main_cst_69 main_v210 (broadcastInDim S500000 ![] bcast_S_S500000 : (⟨S_, .f32⟩ : BufTy).Contents (Elt F) → (⟨S500000, .f32⟩ : BufTy).Contents (Elt F)),
    StableHlo.binary main_v210 main_v143 main_v211 (subf : (⟨S500000, .f32⟩ : BufTy).Contents (Elt F) → (⟨S500000, .f32⟩ : BufTy).Contents (Elt F) → (⟨S500000, .f32⟩ : BufTy).Contents (Elt F)),
    StableHlo.unary main_v211 main_v212 (broadcastInDim S1x500000 ![1] bcast_S500000_S1x500000_1 : (⟨S500000, .f32⟩ : BufTy).Contents (Elt F) → (⟨S1x500000, .f32⟩ : BufTy).Contents (Elt F)),
    StableHlo.unary main_v212 main_v213 (broadcastInDim S8x500000 ![0, 1] bcast_S1x500000_S8x500000_0_1 : (⟨S1x500000, .f32⟩ : BufTy).Contents (Elt F) → (⟨S8x500000, .f32⟩ : BufTy).Contents (Elt F)),
    StableHlo.binary main_v167 main_v213 main_v214 (mulf : (⟨S8x500000, .f32⟩ : BufTy).Contents (Elt F) → (⟨S8x500000, .f32⟩ : BufTy).Contents (Elt F) → (⟨S8x500000, .f32⟩ : BufTy).Contents (Elt F)),
    StableHlo.unary main_v143 main_v215 (broadcastInDim S1x500000 ![1] bcast_S500000_S1x500000_1 : (⟨S500000, .f32⟩ : BufTy).Contents (Elt F) → (⟨S1x500000, .f32⟩ : BufTy).Contents (Elt F)),
    StableHlo.unary main_v215 main_v216 (broadcastInDim S8x500000 ![0, 1] bcast_S1x500000_S8x500000_0_1 : (⟨S1x500000, .f32⟩ : BufTy).Contents (Elt F) → (⟨S8x500000, .f32⟩ : BufTy).Contents (Elt F)),
    StableHlo.binary main_v181 main_v216 main_v217 (mulf : (⟨S8x500000, .f32⟩ : BufTy).Contents (Elt F) → (⟨S8x500000, .f32⟩ : BufTy).Contents (Elt F) → (⟨S8x500000, .f32⟩ : BufTy).Contents (Elt F)),
    StableHlo.binary main_v214 main_v217 main_v218 (addf : (⟨S8x500000, .f32⟩ : BufTy).Contents (Elt F) → (⟨S8x500000, .f32⟩ : BufTy).Contents (Elt F) → (⟨S8x500000, .f32⟩ : BufTy).Contents (Elt F)),
    StableHlo.nullary main_cst_70 (constant S_ .f32 0x3F800000#32),
    StableHlo.unary main_cst_70 main_v219 (broadcastInDim S500000 ![] bcast_S_S500000 : (⟨S_, .f32⟩ : BufTy).Contents (Elt F) → (⟨S500000, .f32⟩ : BufTy).Contents (Elt F)),
    StableHlo.binary main_v219 main_v143 main_v220 (subf : (⟨S500000, .f32⟩ : BufTy).Contents (Elt F) → (⟨S500000, .f32⟩ : BufTy).Contents (Elt F) → (⟨S500000, .f32⟩ : BufTy).Contents (Elt F)),
    StableHlo.unary main_v220 main_v221 (broadcastInDim S1x500000 ![1] bcast_S500000_S1x500000_1 : (⟨S500000, .f32⟩ : BufTy).Contents (Elt F) → (⟨S1x500000, .f32⟩ : BufTy).Contents (Elt F)),
    StableHlo.unary main_v221 main_v222 (broadcastInDim S8x500000 ![0, 1] bcast_S1x500000_S8x500000_0_1 : (⟨S1x500000, .f32⟩ : BufTy).Contents (Elt F) → (⟨S8x500000, .f32⟩ : BufTy).Contents (Elt F)),
    StableHlo.binary main_v195 main_v222 main_v223 (mulf : (⟨S8x500000, .f32⟩ : BufTy).Contents (Elt F) → (⟨S8x500000, .f32⟩ : BufTy).Contents (Elt F) → (⟨S8x500000, .f32⟩ : BufTy).Contents (Elt F)),
    StableHlo.unary main_v143 main_v224 (broadcastInDim S1x500000 ![1] bcast_S500000_S1x500000_1 : (⟨S500000, .f32⟩ : BufTy).Contents (Elt F) → (⟨S1x500000, .f32⟩ : BufTy).Contents (Elt F)),
    StableHlo.unary main_v224 main_v225 (broadcastInDim S8x500000 ![0, 1] bcast_S1x500000_S8x500000_0_1 : (⟨S1x500000, .f32⟩ : BufTy).Contents (Elt F) → (⟨S8x500000, .f32⟩ : BufTy).Contents (Elt F)),
    StableHlo.binary main_v209 main_v225 main_v226 (mulf : (⟨S8x500000, .f32⟩ : BufTy).Contents (Elt F) → (⟨S8x500000, .f32⟩ : BufTy).Contents (Elt F) → (⟨S8x500000, .f32⟩ : BufTy).Contents (Elt F)),
    StableHlo.binary main_v223 main_v226 main_v227 (addf : (⟨S8x500000, .f32⟩ : BufTy).Contents (Elt F) → (⟨S8x500000, .f32⟩ : BufTy).Contents (Elt F) → (⟨S8x500000, .f32⟩ : BufTy).Contents (Elt F)),
    StableHlo.nullary main_cst_71 (constant S_ .f32 0x3F800000#32),
    StableHlo.unary main_cst_71 main_v228 (broadcastInDim S500000 ![] bcast_S_S500000 : (⟨S_, .f32⟩ : BufTy).Contents (Elt F) → (⟨S500000, .f32⟩ : BufTy).Contents (Elt F)),
    StableHlo.binary main_v228 main_v145 main_v229 (subf : (⟨S500000, .f32⟩ : BufTy).Contents (Elt F) → (⟨S500000, .f32⟩ : BufTy).Contents (Elt F) → (⟨S500000, .f32⟩ : BufTy).Contents (Elt F)),
    StableHlo.unary main_v229 main_v230 (broadcastInDim S1x500000 ![1] bcast_S500000_S1x500000_1 : (⟨S500000, .f32⟩ : BufTy).Contents (Elt F) → (⟨S1x500000, .f32⟩ : BufTy).Contents (Elt F)),
    StableHlo.unary main_v230 main_v231 (broadcastInDim S8x500000 ![0, 1] bcast_S1x500000_S8x500000_0_1 : (⟨S1x500000, .f32⟩ : BufTy).Contents (Elt F) → (⟨S8x500000, .f32⟩ : BufTy).Contents (Elt F)),
    StableHlo.binary main_v218 main_v231 main_v232 (mulf : (⟨S8x500000, .f32⟩ : BufTy).Contents (Elt F) → (⟨S8x500000, .f32⟩ : BufTy).Contents (Elt F) → (⟨S8x500000, .f32⟩ : BufTy).Contents (Elt F)),
    StableHlo.unary main_v145 main_v233 (broadcastInDim S1x500000 ![1] bcast_S500000_S1x500000_1 : (⟨S500000, .f32⟩ : BufTy).Contents (Elt F) → (⟨S1x500000, .f32⟩ : BufTy).Contents (Elt F)),
    StableHlo.unary main_v233 main_v234 (broadcastInDim S8x500000 ![0, 1] bcast_S1x500000_S8x500000_0_1 : (⟨S1x500000, .f32⟩ : BufTy).Contents (Elt F) → (⟨S8x500000, .f32⟩ : BufTy).Contents (Elt F)),
    StableHlo.binary main_v227 main_v234 main_v235 (mulf : (⟨S8x500000, .f32⟩ : BufTy).Contents (Elt F) → (⟨S8x500000, .f32⟩ : BufTy).Contents (Elt F) → (⟨S8x500000, .f32⟩ : BufTy).Contents (Elt F)),
    StableHlo.binary main_v232 main_v235 main_v236 (addf : (⟨S8x500000, .f32⟩ : BufTy).Contents (Elt F) → (⟨S8x500000, .f32⟩ : BufTy).Contents (Elt F) → (⟨S8x500000, .f32⟩ : BufTy).Contents (Elt F)),
    StableHlo.unary main_v236 main_v237 ((transpose S500000x8 [1, 0] · transposes_S8x500000_S500000x8_1_0) : (⟨S8x500000, .f32⟩ : BufTy).Contents (Elt F) → (⟨S500000x8, .f32⟩ : BufTy).Contents (Elt F)) ]

/-- Operations 352 … 518 (167): level 0, plane yz. -/
abbrev opsB0c : List (HloOp τ sig (Elt F)) :=
  [ StableHlo.nullary main_cst_72 (constant S_ .f32 0x3F800000#32),
    StableHlo.unary main_cst_72 main_v238 (broadcastInDim S500000 ![] bcast_S_S500000 : (⟨S_, .f32⟩ : BufTy).Contents (Elt F) → (⟨S500000, .f32⟩ : BufTy).Contents (Elt F)),
    StableHlo.binary main_v13 main_v238 main_v239 (addf : (⟨S500000, .f32⟩ : BufTy).Contents (Elt F) → (⟨S500000, .f32⟩ : BufTy).Contents (Elt F) → (⟨S500000, .f32⟩ : BufTy).Contents (Elt F)),
    StableHlo.nullary main_cst_73 (constant S_ .f32 0x3F000000#32),
    StableHlo.unary main_cst_73 main_v240 (broadcastInDim S500000 ![] bcast_S_S500000 : (⟨S_, .f32⟩ : BufTy).Contents (Elt F) → (⟨S500000, .f32⟩ : BufTy).Contents (Elt F)),
    StableHlo.binary main_v239 main_v240 main_v241 (mulf : (⟨S500000, .f32⟩ : BufTy).Contents (Elt F) → (⟨S500000, .f32⟩ : BufTy).Contents (Elt F) → (⟨S500000, .f32⟩ : BufTy).Contents (Elt F)),
    StableHlo.nullary main_cst_74 (constant S_ .f32 0x42FE0000#32),
    StableHlo.unary main_cst_74 main_v242 (broadcastInDim S500000 ![] bcast_S_S500000 : (⟨S_, .f32⟩ : BufTy).Contents (Elt F) → (⟨S500000, .f32⟩ : BufTy).Contents (Elt F)),
    StableHlo.binary main_v241 main_v242 main_v243 (mulf : (⟨S500000, .f32⟩ : BufTy).Contents (Elt F) → (⟨S500000, .f32⟩ : BufTy).Contents (Elt F) → (⟨S500000, .f32⟩ : BufTy).Contents (Elt F)),
    StableHlo.nullary main_cst_75 (constant S_ .f32 0x3F800000#32),
    StableHlo.unary main_cst_75 main_v244 (broadcastInDim S500000 ![] bcast_S_S500000 : (⟨S_, .f32⟩ : BufTy).Contents (Elt F) → (⟨S500000, .f32⟩ : BufTy).Contents (Elt F)),
    StableHlo.binary main_v11 main_v244 main_v245 (addf : (⟨S500000, .f32⟩ : BufTy).Contents (Elt F) → (⟨S500000, .f32⟩ : BufTy).Contents (Elt F) → (⟨S500000, .f32⟩ : BufTy).Contents (Elt F)),
    StableHlo.nullary main_cst_76 (constant S_ .f32 0x3F000000#32),
    StableHlo.unary main_cst_76 main_v246 (broadcastInDim S500000 ![] bcast_S_S500000 : (⟨S_, .f32⟩ : BufTy).Contents (Elt F) → (⟨S500000, .f32⟩ : BufTy).Contents (Elt F)),
    StableHlo.binary main_v245 main_v246 main_v247 (mulf : (⟨S500000, .f32⟩ : BufTy).Contents (Elt F) → (⟨S500000, .f32⟩ : BufTy).Contents (Elt F) → (⟨S500000, .f32⟩ : BufTy).Contents (Elt F)),
    StableHlo.nullary main_cst_77 (constant S_ .f32 0x42FE0000#32),
    StableHlo.unary main_cst_77 main_v248 (broadcastInDim S500000 ![] bcast_S_S500000 : (⟨S_, .f32⟩ : BufTy).Contents (Elt F) → (⟨S500000, .f32⟩ : BufTy).Contents (Elt F)),
    StableHlo.binary main_v247 main_v248 main_v249 (mulf : (⟨S500000, .f32⟩ : BufTy).Contents (Elt F) → (⟨S500000, .f32⟩ : BufTy).Contents (Elt F) → (⟨S500000, .f32⟩ : BufTy).Contents (Elt F)),
    StableHlo.unary main_v243 main_v250 (Host.floor : (⟨S500000, .f32⟩ : BufTy).Contents (Elt F) → (⟨S500000, .f32⟩ : BufTy).Contents (Elt F)),
    StableHlo.unary main_v250 main_v251 (fptosi 32 : (⟨S500000, .f32⟩ : BufTy).Contents (Elt F) → (⟨S500000, .i32⟩ : BufTy).Contents (Elt F)),
    StableHlo.unary main_v249 main_v252 (Host.floor : (⟨S500000, .f32⟩ : BufTy).Contents (Elt F) → (⟨S500000, .f32⟩ : BufTy).Contents (Elt F)),
    StableHlo.unary main_v252 main_v253 (fptosi 32 : (⟨S500000, .f32⟩ : BufTy).Contents (Elt F) → (⟨S500000, .i32⟩ : BufTy).Contents (Elt F)),
    StableHlo.unary main_v251 main_v254 (sitofp .f32 : (⟨S500000, .i32⟩ : BufTy).Contents (Elt F) → (⟨S500000, .f32⟩ : BufTy).Contents (Elt F)),
    StableHlo.binary main_v243 main_v254 main_v255 (subf : (⟨S500000, .f32⟩ : BufTy).Contents (Elt F) → (⟨S500000, .f32⟩ : BufTy).Contents (Elt F) → (⟨S500000, .f32⟩ : BufTy).Contents (Elt F)),
    StableHlo.unary main_v253 main_v256 (sitofp .f32 : (⟨S500000, .i32⟩ : BufTy).Contents (Elt F) → (⟨S500000, .f32⟩ : BufTy).Contents (Elt F)),
    StableHlo.binary main_v249 main_v256 main_v257 (subf : (⟨S500000, .f32⟩ : BufTy).Contents (Elt F) → (⟨S500000, .f32⟩ : BufTy).Contents (Elt F) → (⟨S500000, .f32⟩ : BufTy).Contents (Elt F)),
    StableHlo.nullary main_c_78 (constantI S_ 32 0#32),
    StableHlo.nullary main_c_79 (constantI S_ 32 127#32),
    StableHlo.TRef.unary (.of main_c_78 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S500000, .i32⟩) (broadcastInDim S500000 ![] bcast_S_S500000),
    StableHlo.TRef.binary (.of main_call8_v1 : StableHlo.TRef sig ⟨S500000, .i32⟩) (.of main_v251 : StableHlo.TRef sig ⟨S500000, .i32⟩) (.of main_call8_v2 : StableHlo.TRef sig ⟨S500000, .i32⟩) maxsi,
    StableHlo.TRef.unary (.of main_c_79 : StableHlo.TRef sig ⟨S_, .i32⟩) (.of main_call8_v3 : StableHlo.TRef sig ⟨S_, .i32⟩) id,
    StableHlo.TRef.unary (.of main_call8_v3 : StableHlo.TRef sig ⟨S_, .i32⟩) (.of main_call8_v4 : StableHlo.TRef sig ⟨S500000, .i32⟩) (broadcastInDim S500000 ![] bcast_S_S500000),
    StableHlo.TRef.binary (.of main_call8_v4 : StableHlo.TRef sig ⟨S500000, .i32⟩) (.of main_call8_v2 : StableHlo.TRef sig ⟨S500000, .i32⟩) (.of main_v258 : StableHlo.TRef sig ⟨S500000, .i32⟩) minsi,
    StableHlo.nullary main_c_80 (constantI S_ 32 1#32),
    StableHlo.unary main_c_80 main_v259 (broadcastInDim S500000 ![] bcast_S_S500000 : (⟨S_, .i32⟩ : BufTy).Contents (Elt F) → (⟨S500000, .i32⟩ : BufTy).Contents (Elt F)),
    StableHlo.binary main_v251 main_v259 main_v260 (addi : (⟨S500000, .i32⟩ : BufTy).Contents (Elt F) → (⟨S500000, .i32⟩ : BufTy).Contents (Elt F) → (⟨S500000, .i32⟩ : BufTy).Contents (Elt F)),
    StableHlo.nullary main_c_81 (constantI S_ 32 0#32),
    StableHlo.nullary main_c_82 (constantI S_ 32 127#32),
    StableHlo.TRef.unary (.of main_c_81 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S500000, .i32⟩) (broadcastInDim S500000 ![] bcast_S_S500000),
    StableHlo.TRef.binary (.of main_call9_v1 : StableHlo.TRef sig ⟨S500000, .i32⟩) (.of main_v260 : StableHlo.TRef sig ⟨S500000, .i32⟩) (.of main_call9_v2 : StableHlo.TRef sig ⟨S500000, .i32⟩) maxsi,
    StableHlo.TRef.unary (.of main_c_82 : StableHlo.TRef sig ⟨S_, .i32⟩) (.of main_call9_v3 : StableHlo.TRef sig ⟨S_, .i32⟩) id,
    StableHlo.TRef.unary (.of main_call9_v3 : StableHlo.TRef sig ⟨S_, .i32⟩) (.of main_call9_v4 : StableHlo.TRef sig ⟨S500000, .i32⟩) (broadcastInDim S500000 ![] bcast_S_S500000),
    StableHlo.TRef.binary (.of main_call9_v4 : StableHlo.TRef sig ⟨S500000, .i32⟩) (.of main_call9_v2 : StableHlo.TRef sig ⟨S500000, .i32⟩) (.of main_v261 : StableHlo.TRef sig ⟨S500000, .i32⟩) minsi,
    StableHlo.nullary main_c_83 (constantI S_ 32 0#32),
    StableHlo.nullary main_c_84 (constantI S_ 32 127#32),
    StableHlo.TRef.unary (.of main_c_83 : StableHlo.TRef sig ⟨S_, .i32⟩) (.of main_call10_v0 : StableHlo.TRef sig ⟨S_, .i32⟩) id,
    StableHlo.TRef.unary (.of main_call10_v0 : StableHlo.TRef sig ⟨S_, .i32⟩) (.of main_call10_v1 : StableHlo.TRef sig ⟨S500000, .i32⟩) (broadcastInDim S500000 ![] bcast_S_S500000),
    StableHlo.TRef.binary (.of main_call10_v1 : StableHlo.TRef sig ⟨S500000, .i32⟩) (.of main_v253 : StableHlo.TRef sig ⟨S500000, .i32⟩) (.of main_call10_v2 : StableHlo.TRef sig ⟨S500000, .i32⟩) maxsi,
    StableHlo.TRef.unary (.of main_c_84 : StableHlo.TRef sig ⟨S_, .i32⟩) (.of main_call10_v3 : StableHlo.TRef sig ⟨S_, .i32⟩) id,
    StableHlo.TRef.unary (.of main_call10_v3 : StableHlo.TRef sig ⟨S_, .i32⟩) (.of main_call10_v4 : StableHlo.TRef sig ⟨S500000, .i32⟩) (broadcastInDim S500000 ![] bcast_S_S500000),
    StableHlo.TRef.binary (.of main_call10_v4 : StableHlo.TRef sig ⟨S500000, .i32⟩) (.of main_call10_v2 : StableHlo.TRef sig ⟨S500000, .i32⟩) (.of main_v262 : StableHlo.TRef sig ⟨S500000, .i32⟩) minsi,
    StableHlo.nullary main_c_85 (constantI S_ 32 1#32),
    StableHlo.unary main_c_85 main_v263 (broadcastInDim S500000 ![] bcast_S_S500000 : (⟨S_, .i32⟩ : BufTy).Contents (Elt F) → (⟨S500000, .i32⟩ : BufTy).Contents (Elt F)),
    StableHlo.binary main_v253 main_v263 main_v264 (addi : (⟨S500000, .i32⟩ : BufTy).Contents (Elt F) → (⟨S500000, .i32⟩ : BufTy).Contents (Elt F) → (⟨S500000, .i32⟩ : BufTy).Contents (Elt F)),
    StableHlo.nullary main_c_86 (constantI S_ 32 0#32),
    StableHlo.nullary main_c_87 (constantI S_ 32 127#32),
    StableHlo.TRef.unary (.of main_c_86 : StableHlo.TRef sig ⟨S_, .i32⟩) (.of main_call11_v0 : StableHlo.TRef sig ⟨S_, .i32⟩) id,
    StableHlo.TRef.unary (.of main_call11_v0 : StableHlo.TRef sig ⟨S_, .i32⟩) (.of main_call11_v1 : StableHlo.TRef sig ⟨S500000, .i32⟩) (broadcastInDim S500000 ![] bcast_S_S500000),
    StableHlo.TRef.binary (.of main_call11_v1 : StableHlo.TRef sig ⟨S500000, .i32⟩) (.of main_v264 : StableHlo.TRef sig ⟨S500000, .i32⟩) (.of main_call11_v2 : StableHlo.TRef sig ⟨S500000, .i32⟩) maxsi,
    StableHlo.TRef.unary (.of main_c_87 : StableHlo.TRef sig ⟨S_, .i32⟩) (.of main_call11_v3 : StableHlo.TRef sig ⟨S_, .i32⟩) id,
    StableHlo.TRef.unary (.of main_call11_v3 : StableHlo.TRef sig ⟨S_, .i32⟩) (.of main_call11_v4 : StableHlo.TRef sig ⟨S500000, .i32⟩) (broadcastInDim S500000 ![] bcast_S_S500000),
    StableHlo.TRef.binary (.of main_call11_v4 : StableHlo.TRef sig ⟨S500000, .i32⟩) (.of main_call11_v2 : StableHlo.TRef sig ⟨S500000, .i32⟩) (.of main_v265 : StableHlo.TRef sig ⟨S500000, .i32⟩) minsi,
    StableHlo.nullary main_c_88 (constantI S_ 32 0#32),
    StableHlo.unary main_c_88 main_v266 (broadcastInDim S500000 ![] bcast_S_S500000 : (⟨S_, .i32⟩ : BufTy).Contents (Elt F) → (⟨S500000, .i32⟩ : BufTy).Contents (Elt F)),
    StableHlo.binary main_v262 main_v266 main_v267 (cmpi .slt : (⟨S500000, .i32⟩ : BufTy).Contents (Elt F) → (⟨S500000, .i32⟩ : BufTy).Contents (Elt F) → (⟨S500000, .i1⟩ : BufTy).Contents (Elt F)),
    StableHlo.nullary main_c_89 (constantI S_ 32 128#32),
    StableHlo.unary main_c_89 main_v268 (broadcastInDim S500000 ![] bcast_S_S500000 : (⟨S_, .i32⟩ : BufTy).Contents (Elt F) → (⟨S500000, .i32⟩ : BufTy).Contents (Elt F)),
    StableHlo.binary main_v262 main_v268 main_v269 (addi : (⟨S500000, .i32⟩ : BufTy).Contents (Elt F) → (⟨S500000, .i32⟩ : BufTy).Contents (Elt F) → (⟨S500000, .i32⟩ : BufTy).Contents (Elt F)),
    StableHlo.ternary main_v267 main_v269 main_v262 main_v270 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_90 (constantI S_ 32 0#32),
    StableHlo.unary main_c_90 main_v271 (broadcastInDim S500000 ![] bcast_S_S500000 : (⟨S_, .i32⟩ : BufTy).Contents (Elt F) → (⟨S500000, .i32⟩ : BufTy).Contents (Elt F)),
    StableHlo.binary main_v258 main_v271 main_v272 (cmpi .slt : (⟨S500000, .i32⟩ : BufTy).Contents (Elt F) → (⟨S500000, .i32⟩ : BufTy).Contents (Elt F) → (⟨S500000, .i1⟩ : BufTy).Contents (Elt F)),
    StableHlo.nullary main_c_91 (constantI S_ 32 128#32),
    StableHlo.unary main_c_91 main_v273 (broadcastInDim S500000 ![] bcast_S_S500000 : (⟨S_, .i32⟩ : BufTy).Contents (Elt F) → (⟨S500000, .i32⟩ : BufTy).Contents (Elt F)),
    StableHlo.binary main_v258 main_v273 main_v274 (addi : (⟨S500000, .i32⟩ : BufTy).Contents (Elt F) → (⟨S500000, .i32⟩ : BufTy).Contents (Elt F) → (⟨S500000, .i32⟩ : BufTy).Contents (Elt F)),
    StableHlo.ternary main_v272 main_v274 main_v258 main_v275 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v270 main_v276 (broadcastInDim S500000x1 ![0] bcast_S500000_S500000x1_0 : (⟨S500000, .i32⟩ : BufTy).Contents (Elt F) → (⟨S500000x1, .i32⟩ : BufTy).Contents (Elt F)),
    StableHlo.unary main_v275 main_v277 (broadcastInDim S500000x1 ![0] bcast_S500000_S500000x1_0 : (⟨S500000, .i32⟩ : BufTy).Contents (Elt F) → (⟨S500000x1, .i32⟩ : BufTy).Contents (Elt F)),
    StableHlo.binary main_v276 main_v277 main_v278 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg3 main_v278 main_v279 ((fun x i => Host.gather gather_S8x128x128_S500000x2_S8x500000_0_12_n_n_12_1_811 x i) : (⟨S8x128x128, .f32⟩ : BufTy).Contents (Elt F) → (⟨S500000x2, .i32⟩ : BufTy).Contents (Elt F) → (⟨S8x500000, .f32⟩ : BufTy).Contents (Elt F)),
    StableHlo.nullary main_c_92 (constantI S_ 32 0#32),
    StableHlo.unary main_c_92 main_v280 (broadcastInDim S500000 ![] bcast_S_S500000 : (⟨S_, .i32⟩ : BufTy).Contents (Elt F) → (⟨S500000, .i32⟩ : BufTy).Contents (Elt F)),
    StableHlo.binary main_v262 main_v280 main_v281 (cmpi .slt : (⟨S500000, .i32⟩ : BufTy).Contents (Elt F) → (⟨S500000, .i32⟩ : BufTy).Contents (Elt F) → (⟨S500000, .i1⟩ : BufTy).Contents (Elt F)),
    StableHlo.nullary main_c_93 (constantI S_ 32 128#32),
    StableHlo.unary main_c_93 main_v282 (broadcastInDim S500000 ![] bcast_S_S500000 : (⟨S_, .i32⟩ : BufTy).Contents (Elt F) → (⟨S500000, .i32⟩ : BufTy).Contents (Elt F)),
    StableHlo.binary main_v262 main_v282 main_v283 (addi : (⟨S500000, .i32⟩ : BufTy).Contents (Elt F) → (⟨S500000, .i32⟩ : BufTy).Contents (Elt F) → (⟨S500000, .i32⟩ : BufTy).Contents (Elt F)),
    StableHlo.ternary main_v281 main_v283 main_v262 main_v284 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_94 (constantI S_ 32 0#32),
    StableHlo.unary main_c_94 main_v285 (broadcastInDim S500000 ![] bcast_S_S500000 : (⟨S_, .i32⟩ : BufTy).Contents (Elt F) → (⟨S500000, .i32⟩ : BufTy).Contents (Elt F)),
    StableHlo.binary main_v261 main_v285 main_v286 (cmpi .slt : (⟨S500000, .i32⟩ : BufTy).Contents (Elt F) → (⟨S500000, .i32⟩ : BufTy).Contents (Elt F) → (⟨S500000, .i1⟩ : BufTy).Contents (Elt F)),
    StableHlo.nullary main_c_95 (constantI S_ 32 128#32),
    StableHlo.unary main_c_95 main_v287 (broadcastInDim S500000 ![] bcast_S_S500000 : (⟨S_, .i32⟩ : BufTy).Contents (Elt F) → (⟨S500000, .i32⟩ : BufTy).Contents (Elt F)),
    StableHlo.binary main_v261 main_v287 main_v288 (addi : (⟨S500000, .i32⟩ : BufTy).Contents (Elt F) → (⟨S500000, .i32⟩ : BufTy).Contents (Elt F) → (⟨S500000, .i32⟩ : BufTy).Contents (Elt F)),
    StableHlo.ternary main_v286 main_v288 main_v261 main_v289 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v284 main_v290 (broadcastInDim S500000x1 ![0] bcast_S500000_S500000x1_0 : (⟨S500000, .i32⟩ : BufTy).Contents (Elt F) → (⟨S500000x1, .i32⟩ : BufTy).Contents (Elt F)),
    StableHlo.unary main_v289 main_v291 (broadcastInDim S500000x1 ![0] bcast_S500000_S500000x1_0 : (⟨S500000, .i32⟩ : BufTy).Contents (Elt F) → (⟨S500000x1, .i32⟩ : BufTy).Contents (Elt F)),
    StableHlo.binary main_v290 main_v291 main_v292 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg3 main_v292 main_v293 ((fun x i => Host.gather gather_S8x128x128_S500000x2_S8x500000_0_12_n_n_12_1_811 x i) : (⟨S8x128x128, .f32⟩ : BufTy).Contents (Elt F) → (⟨S500000x2, .i32⟩ : BufTy).Contents (Elt F) → (⟨S8x500000, .f32⟩ : BufTy).Contents (Elt F)),
    StableHlo.nullary main_c_96 (constantI S_ 32 0#32),
    StableHlo.unary main_c_96 main_v294 (broadcastInDim S500000 ![] bcast_S_S500000 : (⟨S_, .i32⟩ : BufTy).Contents (Elt F) → (⟨S500000, .i32⟩ : BufTy).Contents (Elt F)),
    StableHlo.binary main_v265 main_v294 main_v295 (cmpi .slt : (⟨S500000, .i32⟩ : BufTy).Contents (Elt F) → (⟨S500000, .i32⟩ : BufTy).Contents (Elt F) → (⟨S500000, .i1⟩ : BufTy).Contents (Elt F)),
    StableHlo.nullary main_c_97 (constantI S_ 32 128#32),
    StableHlo.unary main_c_97 main_v296 (broadcastInDim S500000 ![] bcast_S_S500000 : (⟨S_, .i32⟩ : BufTy).Contents (Elt F) → (⟨S500000, .i32⟩ : BufTy).Contents (Elt F)),
    StableHlo.binary main_v265 main_v296 main_v297 (addi : (⟨S500000, .i32⟩ : BufTy).Contents (Elt F) → (⟨S500000, .i32⟩ : BufTy).Contents (Elt F) → (⟨S500000, .i32⟩ : BufTy).Contents (Elt F)),
    StableHlo.ternary main_v295 main_v297 main_v265 main_v298 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_98 (constantI S_ 32 0#32),
    StableHlo.unary main_c_98 main_v299 (broadcastInDim S500000 ![] bcast_S_S500000 : (⟨S_, .i32⟩ : BufTy).Contents (Elt F) → (⟨S500000, .i32⟩ : BufTy).Contents (Elt F)),
    StableHlo.binary main_v258 main_v299 main_v300 (cmpi .slt : (⟨S500000, .i32⟩ : BufTy).Contents (Elt F) → (⟨S500000, .i32⟩ : BufTy).Contents (Elt F) → (⟨S500000, .i1⟩ : BufTy).Contents (Elt F)),
    StableHlo.nullary main_c_99 (constantI S_ 32 128#32),
    StableHlo.unary main_c_99 main_v301 (broadcastInDim S500000 ![] bcast_S_S500000 : (⟨S_, .i32⟩ : BufTy).Contents (Elt F) → (⟨S500000, .i32⟩ : BufTy).Contents (Elt F)),
    StableHlo.binary main_v258 main_v301 main_v302 (addi : (⟨S500000, .i32⟩ : BufTy).Contents (Elt F) → (⟨S500000, .i32⟩ : BufTy).Contents (Elt F) → (⟨S500000, .i32⟩ : BufTy).Contents (Elt F)),
    StableHlo.ternary main_v300 main_v302 main_v258 main_v303 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v298 main_v304 (broadcastInDim S500000x1 ![0] bcast_S500000_S500000x1_0 : (⟨S500000, .i32⟩ : BufTy).Contents (Elt F) → (⟨S500000x1, .i32⟩ : BufTy).Contents (Elt F)),
    StableHlo.unary main_v303 main_v305 (broadcastInDim S500000x1 ![0] bcast_S500000_S500000x1_0 : (⟨S500000, .i32⟩ : BufTy).Contents (Elt F) → (⟨S500000x1, .i32⟩ : BufTy).Contents (Elt F)),
    StableHlo.binary main_v304 main_v305 main_v306 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg3 main_v306 main_v307 ((fun x i => Host.gather gather_S8x128x128_S500000x2_S8x500000_0_12_n_n_12_1_811 x i) : (⟨S8x128x128, .f32⟩ : BufTy).Contents (Elt F) → (⟨S500000x2, .i32⟩ : BufTy).Contents (Elt F) → (⟨S8x500000, .f32⟩ : BufTy).Contents (Elt F)),
    StableHlo.nullary main_c_100 (constantI S_ 32 0#32),
    StableHlo.unary main_c_100 main_v308 (broadcastInDim S500000 ![] bcast_S_S500000 : (⟨S_, .i32⟩ : BufTy).Contents (Elt F) → (⟨S500000, .i32⟩ : BufTy).Contents (Elt F)),
    StableHlo.binary main_v265 main_v308 main_v309 (cmpi .slt : (⟨S500000, .i32⟩ : BufTy).Contents (Elt F) → (⟨S500000, .i32⟩ : BufTy).Contents (Elt F) → (⟨S500000, .i1⟩ : BufTy).Contents (Elt F)),
    StableHlo.nullary main_c_101 (constantI S_ 32 128#32),
    StableHlo.unary main_c_101 main_v310 (broadcastInDim S500000 ![] bcast_S_S500000 : (⟨S_, .i32⟩ : BufTy).Contents (Elt F) → (⟨S500000, .i32⟩ : BufTy).Contents (Elt F)),
    StableHlo.binary main_v265 main_v310 main_v311 (addi : (⟨S500000, .i32⟩ : BufTy).Contents (Elt F) → (⟨S500000, .i32⟩ : BufTy).Contents (Elt F) → (⟨S500000, .i32⟩ : BufTy).Contents (Elt F)),
    StableHlo.ternary main_v309 main_v311 main_v265 main_v312 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_102 (constantI S_ 32 0#32),
    StableHlo.unary main_c_102 main_v313 (broadcastInDim S500000 ![] bcast_S_S500000 : (⟨S_, .i32⟩ : BufTy).Contents (Elt F) → (⟨S500000, .i32⟩ : BufTy).Contents (Elt F)),
    StableHlo.binary main_v261 main_v313 main_v314 (cmpi .slt : (⟨S500000, .i32⟩ : BufTy).Contents (Elt F) → (⟨S500000, .i32⟩ : BufTy).Contents (Elt F) → (⟨S500000, .i1⟩ : BufTy).Contents (Elt F)),
    StableHlo.nullary main_c_103 (constantI S_ 32 128#32),
    StableHlo.unary main_c_103 main_v315 (broadcastInDim S500000 ![] bcast_S_S500000 : (⟨S_, .i32⟩ : BufTy).Contents (Elt F) → (⟨S500000, .i32⟩ : BufTy).Contents (Elt F)),
    StableHlo.binary main_v261 main_v315 main_v316 (addi : (⟨S500000, .i32⟩ : BufTy).Contents (Elt F) → (⟨S500000, .i32⟩ : BufTy).Contents (Elt F) → (⟨S500000, .i32⟩ : BufTy).Contents (Elt F)),
    StableHlo.ternary main_v314 main_v316 main_v261 main_v317 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v312 main_v318 (broadcastInDim S500000x1 ![0] bcast_S500000_S500000x1_0 : (⟨S500000, .i32⟩ : BufTy).Contents (Elt F) → (⟨S500000x1, .i32⟩ : BufTy).Contents (Elt F)),
    StableHlo.unary main_v317 main_v319 (broadcastInDim S500000x1 ![0] bcast_S500000_S500000x1_0 : (⟨S500000, .i32⟩ : BufTy).Contents (Elt F) → (⟨S500000x1, .i32⟩ : BufTy).Contents (Elt F)),
    StableHlo.binary main_v318 main_v319 main_v320 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg3 main_v320 main_v321 ((fun x i => Host.gather gather_S8x128x128_S500000x2_S8x500000_0_12_n_n_12_1_811 x i) : (⟨S8x128x128, .f32⟩ : BufTy).Contents (Elt F) → (⟨S500000x2, .i32⟩ : BufTy).Contents (Elt F) → (⟨S8x500000, .f32⟩ : BufTy).Contents (Elt F)),
    StableHlo.nullary main_cst_104 (constant S_ .f32 0x3F800000#32),
    StableHlo.unary main_cst_104 main_v322 (broadcastInDim S500000 ![] bcast_S_S500000 : (⟨S_, .f32⟩ : BufTy).Contents (Elt F) → (⟨S500000, .f32⟩ : BufTy).Contents (Elt F)),
    StableHlo.binary main_v322 main_v255 main_v323 (subf : (⟨S500000, .f32⟩ : BufTy).Contents (Elt F) → (⟨S500000, .f32⟩ : BufTy).Contents (Elt F) → (⟨S500000, .f32⟩ : BufTy).Contents (Elt F)),
    StableHlo.unary main_v323 main_v324 (broadcastInDim S1x500000 ![1] bcast_S500000_S1x500000_1 : (⟨S500000, .f32⟩ : BufTy).Contents (Elt F) → (⟨S1x500000, .f32⟩ : BufTy).Contents (Elt F)),
    StableHlo.unary main_v324 main_v325 (broadcastInDim S8x500000 ![0, 1] bcast_S1x500000_S8x500000_0_1 : (⟨S1x500000, .f32⟩ : BufTy).Contents (Elt F) → (⟨S8x500000, .f32⟩ : BufTy).Contents (Elt F)),
    StableHlo.binary main_v279 main_v325 main_v326 (mulf : (⟨S8x500000, .f32⟩ : BufTy).Contents (Elt F) → (⟨S8x500000, .f32⟩ : BufTy).Contents (Elt F) → (⟨S8x500000, .f32⟩ : BufTy).Contents (Elt F)),
    StableHlo.unary main_v255 main_v327 (broadcastInDim S1x500000 ![1] bcast_S500000_S1x500000_1 : (⟨S500000, .f32⟩ : BufTy).Contents (Elt F) → (⟨S1x500000, .f32⟩ : BufTy).Contents (Elt F)),
    StableHlo.unary main_v327 main_v328 (broadcastInDim S8x500000 ![0, 1] bcast_S1x500000_S8x500000_0_1 : (⟨S1x500000, .f32⟩ : BufTy).Contents (Elt F) → (⟨S8x500000, .f32⟩ : BufTy).Contents (Elt F)),
    StableHlo.binary main_v293 main_v328 main_v329 (mulf : (⟨S8x500000, .f32⟩ : BufTy).Contents (Elt F) → (⟨S8x500000, .f32⟩ : BufTy).Contents (Elt F) → (⟨S8x500000, .f32⟩ : BufTy).Contents (Elt F)),
    StableHlo.binary main_v326 main_v329 main_v330 (addf : (⟨S8x500000, .f32⟩ : BufTy).Contents (Elt F) → (⟨S8x500000, .f32⟩ : BufTy).Contents (Elt F) → (⟨S8x500000, .f32⟩ : BufTy).Contents (Elt F)),
    StableHlo.nullary main_cst_105 (constant S_ .f32 0x3F800000#32),
    StableHlo.unary main_cst_105 main_v331 (broadcastInDim S500000 ![] bcast_S_S500000 : (⟨S_, .f32⟩ : BufTy).Contents (Elt F) → (⟨S500000, .f32⟩ : BufTy).Contents (Elt F)),
    StableHlo.binary main_v331 main_v255 main_v332 (subf : (⟨S500000, .f32⟩ : BufTy).Contents (Elt F) → (⟨S500000, .f32⟩ : BufTy).Contents (Elt F) → (⟨S500000, .f32⟩ : BufTy).Contents (Elt F)),
    StableHlo.unary main_v332 main_v333 (broadcastInDim S1x500000 ![1] bcast_S500000_S1x500000_1 : (⟨S500000, .f32⟩ : BufTy).Contents (Elt F) → (⟨S1x500000, .f32⟩ : BufTy).Contents (Elt F)),
    StableHlo.unary main_v333 main_v334 (broadcastInDim S8x500000 ![0, 1] bcast_S1x500000_S8x500000_0_1 : (⟨S1x500000, .f32⟩ : BufTy).Contents (Elt F) → (⟨S8x500000, .f32⟩ : BufTy).Contents (Elt F)),
    StableHlo.binary main_v307 main_v334 main_v335 (mulf : (⟨S8x500000, .f32⟩ : BufTy).Contents (Elt F) → (⟨S8x500000, .f32⟩ : BufTy).Contents (Elt F) → (⟨S8x500000, .f32⟩ : BufTy).Contents (Elt F)),
    StableHlo.unary main_v255 main_v336 (broadcastInDim S1x500000 ![1] bcast_S500000_S1x500000_1 : (⟨S500000, .f32⟩ : BufTy).Contents (Elt F) → (⟨S1x500000, .f32⟩ : BufTy).Contents (Elt F)),
    StableHlo.unary main_v336 main_v337 (broadcastInDim S8x500000 ![0, 1] bcast_S1x500000_S8x500000_0_1 : (⟨S1x500000, .f32⟩ : BufTy).Contents (Elt F) → (⟨S8x500000, .f32⟩ : BufTy).Contents (Elt F)),
    StableHlo.binary main_v321 main_v337 main_v338 (mulf : (⟨S8x500000, .f32⟩ : BufTy).Contents (Elt F) → (⟨S8x500000, .f32⟩ : BufTy).Contents (Elt F) → (⟨S8x500000, .f32⟩ : BufTy).Contents (Elt F)),
    StableHlo.binary main_v335 main_v338 main_v339 (addf : (⟨S8x500000, .f32⟩ : BufTy).Contents (Elt F) → (⟨S8x500000, .f32⟩ : BufTy).Contents (Elt F) → (⟨S8x500000, .f32⟩ : BufTy).Contents (Elt F)),
    StableHlo.nullary main_cst_106 (constant S_ .f32 0x3F800000#32),
    StableHlo.unary main_cst_106 main_v340 (broadcastInDim S500000 ![] bcast_S_S500000 : (⟨S_, .f32⟩ : BufTy).Contents (Elt F) → (⟨S500000, .f32⟩ : BufTy).Contents (Elt F)),
    StableHlo.binary main_v340 main_v257 main_v341 (subf : (⟨S500000, .f32⟩ : BufTy).Contents (Elt F) → (⟨S500000, .f32⟩ : BufTy).Contents (Elt F) → (⟨S500000, .f32⟩ : BufTy).Contents (Elt F)),
    StableHlo.unary main_v341 main_v342 (broadcastInDim S1x500000 ![1] bcast_S500000_S1x500000_1 : (⟨S500000, .f32⟩ : BufTy).Contents (Elt F) → (⟨S1x500000, .f32⟩ : BufTy).Contents (Elt F)),
    StableHlo.unary main_v342 main_v343 (broadcastInDim S8x500000 ![0, 1] bcast_S1x500000_S8x500000_0_1 : (⟨S1x500000, .f32⟩ : BufTy).Contents (Elt F) → (⟨S8x500000, .f32⟩ : BufTy).Contents (Elt F)),
    StableHlo.binary main_v330 main_v343 main_v344 (mulf : (⟨S8x500000, .f32⟩ : BufTy).Contents (Elt F) → (⟨S8x500000, .f32⟩ : BufTy).Contents (Elt F) → (⟨S8x500000, .f32⟩ : BufTy).Contents (Elt F)),
    StableHlo.unary main_v257 main_v345 (broadcastInDim S1x500000 ![1] bcast_S500000_S1x500000_1 : (⟨S500000, .f32⟩ : BufTy).Contents (Elt F) → (⟨S1x500000, .f32⟩ : BufTy).Contents (Elt F)),
    StableHlo.unary main_v345 main_v346 (broadcastInDim S8x500000 ![0, 1] bcast_S1x500000_S8x500000_0_1 : (⟨S1x500000, .f32⟩ : BufTy).Contents (Elt F) → (⟨S8x500000, .f32⟩ : BufTy).Contents (Elt F)),
    StableHlo.binary main_v339 main_v346 main_v347 (mulf : (⟨S8x500000, .f32⟩ : BufTy).Contents (Elt F) → (⟨S8x500000, .f32⟩ : BufTy).Contents (Elt F) → (⟨S8x500000, .f32⟩ : BufTy).Contents (Elt F)),
    StableHlo.binary main_v344 main_v347 main_v348 (addf : (⟨S8x500000, .f32⟩ : BufTy).Contents (Elt F) → (⟨S8x500000, .f32⟩ : BufTy).Contents (Elt F) → (⟨S8x500000, .f32⟩ : BufTy).Contents (Elt F)),
    StableHlo.unary main_v348 main_v349 ((transpose S500000x8 [1, 0] · transposes_S8x500000_S500000x8_1_0) : (⟨S8x500000, .f32⟩ : BufTy).Contents (Elt F) → (⟨S500000x8, .f32⟩ : BufTy).Contents (Elt F)) ]

/-- Operations 519 … 519 (1): level 0's three samplings side by side. -/
abbrev opsCat0 : List (HloOp τ sig (Elt F)) :=
  [ StableHlo.nary ![main_v125, main_v237, main_v349] main_v350 (fun u => concatenate S500000x24 1 [⟨S500000x8, u 0⟩, ⟨S500000x8, u 1⟩, ⟨S500000x8, u 2⟩] concatenates_S500000x8_S500000x8_S500000x8_S500000x24_d1) ]

/-- Operations 520 … 686 (167): level 1, plane xy. -/
abbrev opsB1a : List (HloOp τ sig (Elt F)) :=
  [ StableHlo.nullary main_cst_107 (constant S_ .f32 0x3F800000#32),
    StableHlo.unary main_cst_107 main_v351 (broadcastInDim S500000 ![] bcast_S_S500000 : (⟨S_, .f32⟩ : BufTy).Contents (Elt F) → (⟨S500000, .f32⟩ : BufTy).Contents (Elt F)),
    StableHlo.binary main_v11 main_v351 main_v352 (addf : (⟨S500000, .f32⟩ : BufTy).Contents (Elt F) → (⟨S500000, .f32⟩ : BufTy).Contents (Elt F) → (⟨S500000, .f32⟩ : BufTy).Contents (Elt F)),
    StableHlo.nullary main_cst_108 (constant S_ .f32 0x3F000000#32),
    StableHlo.unary main_cst_108 main_v353 (broadcastInDim S500000 ![] bcast_S_S500000 : (⟨S_, .f32⟩ : BufTy).Contents (Elt F) → (⟨S500000, .f32⟩ : BufTy).Contents (Elt F)),
    StableHlo.binary main_v352 main_v353 main_v354 (mulf : (⟨S500000, .f32⟩ : BufTy).Contents (Elt F) → (⟨S500000, .f32⟩ : BufTy).Contents (Elt F) → (⟨S500000, .f32⟩ : BufTy).Contents (Elt F)),
    StableHlo.nullary main_cst_109 (constant S_ .f32 0x437F0000#32),
    StableHlo.unary main_cst_109 main_v355 (broadcastInDim S500000 ![] bcast_S_S500000 : (⟨S_, .f32⟩ : BufTy).Contents (Elt F) → (⟨S500000, .f32⟩ : BufTy).Contents (Elt F)),
    StableHlo.binary main_v354 main_v355 main_v356 (mulf : (⟨S500000, .f32⟩ : BufTy).Contents (Elt F) → (⟨S500000, .f32⟩ : BufTy).Contents (Elt F) → (⟨S500000, .f32⟩ : BufTy).Contents (Elt F)),
    StableHlo.nullary main_cst_110 (constant S_ .f32 0x3F800000#32),
    StableHlo.unary main_cst_110 main_v357 (broadcastInDim S500000 ![] bcast_S_S500000 : (⟨S_, .f32⟩ : BufTy).Contents (Elt F) → (⟨S500000, .f32⟩ : BufTy).Contents (Elt F)),
    StableHlo.binary main_v9 main_v357 main_v358 (addf : (⟨S500000, .f32⟩ : BufTy).Contents (Elt F) → (⟨S500000, .f32⟩ : BufTy).Contents (Elt F) → (⟨S500000, .f32⟩ : BufTy).Contents (Elt F)),
    StableHlo.nullary main_cst_111 (constant S_ .f32 0x3F000000#32),
    StableHlo.unary main_cst_111 main_v359 (broadcastInDim S500000 ![] bcast_S_S500000 : (⟨S_, .f32⟩ : BufTy).Contents (Elt F) → (⟨S500000, .f32⟩ : BufTy).Contents (Elt F)),
    StableHlo.binary main_v358 main_v359 main_v360 (mulf : (⟨S500000, .f32⟩ : BufTy).Contents (Elt F) → (⟨S500000, .f32⟩ : BufTy).Contents (Elt F) → (⟨S500000, .f32⟩ : BufTy).Contents (Elt F)),
    StableHlo.nullary main_cst_112 (constant S_ .f32 0x437F0000#32),
    StableHlo.unary main_cst_112 main_v361 (broadcastInDim S500000 ![] bcast_S_S500000 : (⟨S_, .f32⟩ : BufTy).Contents (Elt F) → (⟨S500000, .f32⟩ : BufTy).Contents (Elt F)),
    StableHlo.binary main_v360 main_v361 main_v362 (mulf : (⟨S500000, .f32⟩ : BufTy).Contents (Elt F) → (⟨S500000, .f32⟩ : BufTy).Contents (Elt F) → (⟨S500000, .f32⟩ : BufTy).Contents (Elt F)),
    StableHlo.unary main_v356 main_v363 (Host.floor : (⟨S500000, .f32⟩ : BufTy).Contents (Elt F) → (⟨S500000, .f32⟩ : BufTy).Contents (Elt F)),
    StableHlo.unary main_v363 main_v364 (fptosi 32 : (⟨S500000, .f32⟩ : BufTy).Contents (Elt F) → (⟨S500000, .i32⟩ : BufTy).Contents (Elt F)),
    StableHlo.unary main_v362 main_v365 (Host.floor : (⟨S500000, .f32⟩ : BufTy).Contents (Elt F) → (⟨S500000, .f32⟩ : BufTy).Contents (Elt F)),
    StableHlo.unary main_v365 main_v366 (fptosi 32 : (⟨S500000, .f32⟩ : BufTy).Contents (Elt F) → (⟨S500000, .i32⟩ : BufTy).Contents (Elt F)),
    StableHlo.unary main_v364 main_v367 (sitofp .f32 : (⟨S500000, .i32⟩ : BufTy).Contents (Elt F) → (⟨S500000, .f32⟩ : BufTy).Contents (Elt F)),
    StableHlo.binary main_v356 main_v367 main_v368 (subf : (⟨S500000, .f32⟩ : BufTy).Contents (Elt F) → (⟨S500000, .f32⟩ : BufTy).Contents (Elt F) → (⟨S500000, .f32⟩ : BufTy).Contents (Elt F)),
    StableHlo.unary main_v366 main_v369 (sitofp .f32 : (⟨S500000, .i32⟩ : BufTy).Contents (Elt F) → (⟨S500000, .f32⟩ : BufTy).Contents (Elt F)),
    StableHlo.binary main_v362 main_v369 main_v370 (subf : (⟨S500000, .f32⟩ : BufTy).Contents (Elt F) → (⟨S500000, .f32⟩ : BufTy).Contents (Elt F) → (⟨S500000, .f32⟩ : BufTy).Contents (Elt F)),
    StableHlo.nullary main_c_113 (constantI S_ 32 0#32),
    StableHlo.nullary main_c_114 (constantI S_ 32 255#32),
    StableHlo.TRef.unary (.of main_c_113 : StableHlo.TRef sig ⟨S_, .i32⟩) (.of main_call12_v0 : StableHlo.TRef sig ⟨S_, .i32⟩) id,
    StableHlo.TRef.unary (.of main_call12_v0 : StableHlo.TRef sig ⟨S_, .i32⟩) (.of main_call12_v1 : StableHlo.TRef sig ⟨S500000, .i32⟩) (broadcastInDim S500000 ![] bcast_S_S500000),
    StableHlo.TRef.binary (.of main_call12_v1 : StableHlo.TRef sig ⟨S500000, .i32⟩) (.of main_v364 : StableHlo.TRef sig ⟨S500000, .i32⟩) (.of main_call12_v2 : StableHlo.TRef sig ⟨S500000, .i32⟩) maxsi,
    StableHlo.TRef.unary (.of main_c_114 : StableHlo.TRef sig ⟨S_, .i32⟩) (.of main_call12_v3 : StableHlo.TRef sig ⟨S_, .i32⟩) id,
    StableHlo.TRef.unary (.of main_call12_v3 : StableHlo.TRef sig ⟨S_, .i32⟩) (.of main_call12_v4 : StableHlo.TRef sig ⟨S500000, .i32⟩) (broadcastInDim S500000 ![] bcast_S_S500000),
    StableHlo.TRef.binary (.of main_call12_v4 : StableHlo.TRef sig ⟨S500000, .i32⟩) (.of main_call12_v2 : StableHlo.TRef sig ⟨S500000, .i32⟩) (.of main_v371 : StableHlo.TRef sig ⟨S500000, .i32⟩) minsi,
    StableHlo.nullary main_c_115 (constantI S_ 32 1#32),
    StableHlo.unary main_c_115 main_v372 (broadcastInDim S500000 ![] bcast_S_S500000 : (⟨S_, .i32⟩ : BufTy).Contents (Elt F) → (⟨S500000, .i32⟩ : BufTy).Contents (Elt F)),
    StableHlo.binary main_v364 main_v372 main_v373 (addi : (⟨S500000, .i32⟩ : BufTy).Contents (Elt F) → (⟨S500000, .i32⟩ : BufTy).Contents (Elt F) → (⟨S500000, .i32⟩ : BufTy).Contents (Elt F)),
    StableHlo.nullary main_c_116 (constantI S_ 32 0#32),
    StableHlo.nullary main_c_117 (constantI S_ 32 255#32),
    StableHlo.TRef.unary (.of main_c_116 : StableHlo.TRef sig ⟨S_, .i32⟩) (.of main_call13_v0 : StableHlo.TRef sig ⟨S_, .i32⟩) id,
    StableHlo.TRef.unary (.of main_call13_v0 : StableHlo.TRef sig ⟨S_, .i32⟩) (.of main_call13_v1 : StableHlo.TRef sig ⟨S500000, .i32⟩) (broadcastInDim S500000 ![] bcast_S_S500000),
    StableHlo.TRef.binary (.of main_call13_v1 : StableHlo.TRef sig ⟨S500000, .i32⟩) (.of main_v373 : StableHlo.TRef sig ⟨S500000, .i32⟩) (.of main_call13_v2 : StableHlo.TRef sig ⟨S500000, .i32⟩) maxsi,
    StableHlo.TRef.unary (.of main_c_117 : StableHlo.TRef sig ⟨S_, .i32⟩) (.of main_call13_v3 : StableHlo.TRef sig ⟨S_, .i32⟩) id,
    StableHlo.TRef.unary (.of main_call13_v3 : StableHlo.TRef sig ⟨S_, .i32⟩) (.of main_call13_v4 : StableHlo.TRef sig ⟨S500000, .i32⟩) (broadcastInDim S500000 ![] bcast_S_S500000),
    StableHlo.TRef.binary (.of main_call13_v4 : StableHlo.TRef sig ⟨S500000, .i32⟩) (.of main_call13_v2 : StableHlo.TRef sig ⟨S500000, .i32⟩) (.of main_v374 : StableHlo.TRef sig ⟨S500000, .i32⟩) minsi,
    StableHlo.nullary main_c_118 (constantI S_ 32 0#32),
    StableHlo.nullary main_c_119 (constantI S_ 32 255#32),
    StableHlo.TRef.unary (.of main_c_118 : StableHlo.TRef sig ⟨S_, .i32⟩) (.of main_call14_v0 : StableHlo.TRef sig ⟨S_, .i32⟩) id,
    StableHlo.TRef.unary (.of main_call14_v0 : StableHlo.TRef sig ⟨S_, .i32⟩) (.of main_call14_v1 : StableHlo.TRef sig ⟨S500000, .i32⟩) (broadcastInDim S500000 ![] bcast_S_S500000),
    StableHlo.TRef.binary (.of main_call14_v1 : StableHlo.TRef sig ⟨S500000, .i32⟩) (.of main_v366 : StableHlo.TRef sig ⟨S500000, .i32⟩) (.of main_call14_v2 : StableHlo.TRef sig ⟨S500000, .i32⟩) maxsi,
    StableHlo.TRef.unary (.of main_c_119 : StableHlo.TRef sig ⟨S_, .i32⟩) (.of main_call14_v3 : StableHlo.TRef sig ⟨S_, .i32⟩) id,
    StableHlo.TRef.unary (.of main_call14_v3 : StableHlo.TRef sig ⟨S_, .i32⟩) (.of main_call14_v4 : StableHlo.TRef sig ⟨S500000, .i32⟩) (broadcastInDim S500000 ![] bcast_S_S500000),
    StableHlo.TRef.binary (.of main_call14_v4 : StableHlo.TRef sig ⟨S500000, .i32⟩) (.of main_call14_v2 : StableHlo.TRef sig ⟨S500000, .i32⟩) (.of main_v375 : StableHlo.TRef sig ⟨S500000, .i32⟩) minsi,
    StableHlo.nullary main_c_120 (constantI S_ 32 1#32),
    StableHlo.unary main_c_120 main_v376 (broadcastInDim S500000 ![] bcast_S_S500000 : (⟨S_, .i32⟩ : BufTy).Contents (Elt F) → (⟨S500000, .i32⟩ : BufTy).Contents (Elt F)),
    StableHlo.binary main_v366 main_v376 main_v377 (addi : (⟨S500000, .i32⟩ : BufTy).Contents (Elt F) → (⟨S500000, .i32⟩ : BufTy).Contents (Elt F) → (⟨S500000, .i32⟩ : BufTy).Contents (Elt F)),
    StableHlo.nullary main_c_121 (constantI S_ 32 0#32),
    StableHlo.nullary main_c_122 (constantI S_ 32 255#32),
    StableHlo.TRef.unary (.of main_c_121 : StableHlo.TRef sig ⟨S_, .i32⟩) (.of main_call15_v0 : StableHlo.TRef sig ⟨S_, .i32⟩) id,
    StableHlo.TRef.unary (.of main_call15_v0 : StableHlo.TRef sig ⟨S_, .i32⟩) (.of main_call15_v1 : StableHlo.TRef sig ⟨S500000, .i32⟩) (broadcastInDim S500000 ![] bcast_S_S500000),
    StableHlo.TRef.binary (.of main_call15_v1 : StableHlo.TRef sig ⟨S500000, .i32⟩) (.of main_v377 : StableHlo.TRef sig ⟨S500000, .i32⟩) (.of main_call15_v2 : StableHlo.TRef sig ⟨S500000, .i32⟩) maxsi,
    StableHlo.TRef.unary (.of main_c_122 : StableHlo.TRef sig ⟨S_, .i32⟩) (.of main_call15_v3 : StableHlo.TRef sig ⟨S_, .i32⟩) id,
    StableHlo.TRef.unary (.of main_call15_v3 : StableHlo.TRef sig ⟨S_, .i32⟩) (.of main_call15_v4 : StableHlo.TRef sig ⟨S500000, .i32⟩) (broadcastInDim S500000 ![] bcast_S_S500000),
    StableHlo.TRef.binary (.of main_call15_v4 : StableHlo.TRef sig ⟨S500000, .i32⟩) (.of main_call15_v2 : StableHlo.TRef sig ⟨S500000, .i32⟩) (.of main_v378 : StableHlo.TRef sig ⟨S500000, .i32⟩) minsi,
    StableHlo.nullary main_c_123 (constantI S_ 32 0#32),
    StableHlo.unary main_c_123 main_v379 (broadcastInDim S500000 ![] bcast_S_S500000 : (⟨S_, .i32⟩ : BufTy).Contents (Elt F) → (⟨S500000, .i32⟩ : BufTy).Contents (Elt F)),
    StableHlo.binary main_v375 main_v379 main_v380 (cmpi .slt : (⟨S500000, .i32⟩ : BufTy).Contents (Elt F) → (⟨S500000, .i32⟩ : BufTy).Contents (Elt F) → (⟨S500000, .i1⟩ : BufTy).Contents (Elt F)),
    StableHlo.nullary main_c_124 (constantI S_ 32 256#32),
    StableHlo.unary main_c_124 main_v381 (broadcastInDim S500000 ![] bcast_S_S500000 : (⟨S_, .i32⟩ : BufTy).Contents (Elt F) → (⟨S500000, .i32⟩ : BufTy).Contents (Elt F)),
    StableHlo.binary main_v375 main_v381 main_v382 (addi : (⟨S500000, .i32⟩ : BufTy).Contents (Elt F) → (⟨S500000, .i32⟩ : BufTy).Contents (Elt F) → (⟨S500000, .i32⟩ : BufTy).Contents (Elt F)),
    StableHlo.ternary main_v380 main_v382 main_v375 main_v383 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_125 (constantI S_ 32 0#32),
    StableHlo.unary main_c_125 main_v384 (broadcastInDim S500000 ![] bcast_S_S500000 : (⟨S_, .i32⟩ : BufTy).Contents (Elt F) → (⟨S500000, .i32⟩ : BufTy).Contents (Elt F)),
    StableHlo.binary main_v371 main_v384 main_v385 (cmpi .slt : (⟨S500000, .i32⟩ : BufTy).Contents (Elt F) → (⟨S500000, .i32⟩ : BufTy).Contents (Elt F) → (⟨S500000, .i1⟩ : BufTy).Contents (Elt F)),
    StableHlo.nullary main_c_126 (constantI S_ 32 256#32),
    StableHlo.unary main_c_126 main_v386 (broadcastInDim S500000 ![] bcast_S_S500000 : (⟨S_, .i32⟩ : BufTy).Contents (Elt F) → (⟨S500000, .i32⟩ : BufTy).Contents (Elt F)),
    StableHlo.binary main_v371 main_v386 main_v387 (addi : (⟨S500000, .i32⟩ : BufTy).Contents (Elt F) → (⟨S500000, .i32⟩ : BufTy).Contents (Elt F) → (⟨S500000, .i32⟩ : BufTy).Contents (Elt F)),
    StableHlo.ternary main_v385 main_v387 main_v371 main_v388 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v383 main_v389 (broadcastInDim S500000x1 ![0] bcast_S500000_S500000x1_0 : (⟨S500000, .i32⟩ : BufTy).Contents (Elt F) → (⟨S500000x1, .i32⟩ : BufTy).Contents (Elt F)),
    StableHlo.unary main_v388 main_v390 (broadcastInDim S500000x1 ![0] bcast_S500000_S500000x1_0 : (⟨S500000, .i32⟩ : BufTy).Contents (Elt F) → (⟨S500000x1, .i32⟩ : BufTy).Contents (Elt F)),
    StableHlo.binary main_v389 main_v390 main_v391 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg10 main_v391 main_v392 ((fun x i => Host.gather gather_S8x256x256_S500000x2_S8x500000_0_12_n_n_12_1_811 x i) : (⟨S8x256x256, .f32⟩ : BufTy).Contents (Elt F) → (⟨S500000x2, .i32⟩ : BufTy).Contents (Elt F) → (⟨S8x500000, .f32⟩ : BufTy).Contents (Elt F)),
    StableHlo.nullary main_c_127 (constantI S_ 32 0#32),
    StableHlo.unary main_c_127 main_v393 (broadcastInDim S500000 ![] bcast_S_S500000 : (⟨S_, .i32⟩ : BufTy).Contents (Elt F) → (⟨S500000, .i32⟩ : BufTy).Contents (Elt F)),
    StableHlo.binary main_v375 main_v393 main_v394 (cmpi .slt : (⟨S500000, .i32⟩ : BufTy).Contents (Elt F) → (⟨S500000, .i32⟩ : BufTy).Contents (Elt F) → (⟨S500000, .i1⟩ : BufTy).Contents (Elt F)),
    StableHlo.nullary main_c_128 (constantI S_ 32 256#32),
    StableHlo.unary main_c_128 main_v395 (broadcastInDim S500000 ![] bcast_S_S500000 : (⟨S_, .i32⟩ : BufTy).Contents (Elt F) → (⟨S500000, .i32⟩ : BufTy).Contents (Elt F)),
    StableHlo.binary main_v375 main_v395 main_v396 (addi : (⟨S500000, .i32⟩ : BufTy).Contents (Elt F) → (⟨S500000, .i32⟩ : BufTy).Contents (Elt F) → (⟨S500000, .i32⟩ : BufTy).Contents (Elt F)),
    StableHlo.ternary main_v394 main_v396 main_v375 main_v397 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_129 (constantI S_ 32 0#32),
    StableHlo.unary main_c_129 main_v398 (broadcastInDim S500000 ![] bcast_S_S500000 : (⟨S_, .i32⟩ : BufTy).Contents (Elt F) → (⟨S500000, .i32⟩ : BufTy).Contents (Elt F)),
    StableHlo.binary main_v374 main_v398 main_v399 (cmpi .slt : (⟨S500000, .i32⟩ : BufTy).Contents (Elt F) → (⟨S500000, .i32⟩ : BufTy).Contents (Elt F) → (⟨S500000, .i1⟩ : BufTy).Contents (Elt F)),
    StableHlo.nullary main_c_130 (constantI S_ 32 256#32),
    StableHlo.unary main_c_130 main_v400 (broadcastInDim S500000 ![] bcast_S_S500000 : (⟨S_, .i32⟩ : BufTy).Contents (Elt F) → (⟨S500000, .i32⟩ : BufTy).Contents (Elt F)),
    StableHlo.binary main_v374 main_v400 main_v401 (addi : (⟨S500000, .i32⟩ : BufTy).Contents (Elt F) → (⟨S500000, .i32⟩ : BufTy).Contents (Elt F) → (⟨S500000, .i32⟩ : BufTy).Contents (Elt F)),
    StableHlo.ternary main_v399 main_v401 main_v374 main_v402 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v397 main_v403 (broadcastInDim S500000x1 ![0] bcast_S500000_S500000x1_0 : (⟨S500000, .i32⟩ : BufTy).Contents (Elt F) → (⟨S500000x1, .i32⟩ : BufTy).Contents (Elt F)),
    StableHlo.unary main_v402 main_v404 (broadcastInDim S500000x1 ![0] bcast_S500000_S500000x1_0 : (⟨S500000, .i32⟩ : BufTy).Contents (Elt F) → (⟨S500000x1, .i32⟩ : BufTy).Contents (Elt F)),
    StableHlo.binary main_v403 main_v404 main_v405 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg10 main_v405 main_v406 ((fun x i => Host.gather gather_S8x256x256_S500000x2_S8x500000_0_12_n_n_12_1_811 x i) : (⟨S8x256x256, .f32⟩ : BufTy).Contents (Elt F) → (⟨S500000x2, .i32⟩ : BufTy).Contents (Elt F) → (⟨S8x500000, .f32⟩ : BufTy).Contents (Elt F)),
    StableHlo.nullary main_c_131 (constantI S_ 32 0#32),
    StableHlo.unary main_c_131 main_v407 (broadcastInDim S500000 ![] bcast_S_S500000 : (⟨S_, .i32⟩ : BufTy).Contents (Elt F) → (⟨S500000, .i32⟩ : BufTy).Contents (Elt F)),
    StableHlo.binary main_v378 main_v407 main_v408 (cmpi .slt : (⟨S500000, .i32⟩ : BufTy).Contents (Elt F) → (⟨S500000, .i32⟩ : BufTy).Contents (Elt F) → (⟨S500000, .i1⟩ : BufTy).Contents (Elt F)),
    StableHlo.nullary main_c_132 (constantI S_ 32 256#32),
    StableHlo.unary main_c_132 main_v409 (broadcastInDim S500000 ![] bcast_S_S500000 : (⟨S_, .i32⟩ : BufTy).Contents (Elt F) → (⟨S500000, .i32⟩ : BufTy).Contents (Elt F)),
    StableHlo.binary main_v378 main_v409 main_v410 (addi : (⟨S500000, .i32⟩ : BufTy).Contents (Elt F) → (⟨S500000, .i32⟩ : BufTy).Contents (Elt F) → (⟨S500000, .i32⟩ : BufTy).Contents (Elt F)),
    StableHlo.ternary main_v408 main_v410 main_v378 main_v411 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_133 (constantI S_ 32 0#32),
    StableHlo.unary main_c_133 main_v412 (broadcastInDim S500000 ![] bcast_S_S500000 : (⟨S_, .i32⟩ : BufTy).Contents (Elt F) → (⟨S500000, .i32⟩ : BufTy).Contents (Elt F)),
    StableHlo.binary main_v371 main_v412 main_v413 (cmpi .slt : (⟨S500000, .i32⟩ : BufTy).Contents (Elt F) → (⟨S500000, .i32⟩ : BufTy).Contents (Elt F) → (⟨S500000, .i1⟩ : BufTy).Contents (Elt F)),
    StableHlo.nullary main_c_134 (constantI S_ 32 256#32),
    StableHlo.unary main_c_134 main_v414 (broadcastInDim S500000 ![] bcast_S_S500000 : (⟨S_, .i32⟩ : BufTy).Contents (Elt F) → (⟨S500000, .i32⟩ : BufTy).Contents (Elt F)),
    StableHlo.binary main_v371 main_v414 main_v415 (addi : (⟨S500000, .i32⟩ : BufTy).Contents (Elt F) → (⟨S500000, .i32⟩ : BufTy).Contents (Elt F) → (⟨S500000, .i32⟩ : BufTy).Contents (Elt F)),
    StableHlo.ternary main_v413 main_v415 main_v371 main_v416 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v411 main_v417 (broadcastInDim S500000x1 ![0] bcast_S500000_S500000x1_0 : (⟨S500000, .i32⟩ : BufTy).Contents (Elt F) → (⟨S500000x1, .i32⟩ : BufTy).Contents (Elt F)),
    StableHlo.unary main_v416 main_v418 (broadcastInDim S500000x1 ![0] bcast_S500000_S500000x1_0 : (⟨S500000, .i32⟩ : BufTy).Contents (Elt F) → (⟨S500000x1, .i32⟩ : BufTy).Contents (Elt F)),
    StableHlo.binary main_v417 main_v418 main_v419 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg10 main_v419 main_v420 ((fun x i => Host.gather gather_S8x256x256_S500000x2_S8x500000_0_12_n_n_12_1_811 x i) : (⟨S8x256x256, .f32⟩ : BufTy).Contents (Elt F) → (⟨S500000x2, .i32⟩ : BufTy).Contents (Elt F) → (⟨S8x500000, .f32⟩ : BufTy).Contents (Elt F)),
    StableHlo.nullary main_c_135 (constantI S_ 32 0#32),
    StableHlo.unary main_c_135 main_v421 (broadcastInDim S500000 ![] bcast_S_S500000 : (⟨S_, .i32⟩ : BufTy).Contents (Elt F) → (⟨S500000, .i32⟩ : BufTy).Contents (Elt F)),
    StableHlo.binary main_v378 main_v421 main_v422 (cmpi .slt : (⟨S500000, .i32⟩ : BufTy).Contents (Elt F) → (⟨S500000, .i32⟩ : BufTy).Contents (Elt F) → (⟨S500000, .i1⟩ : BufTy).Contents (Elt F)),
    StableHlo.nullary main_c_136 (constantI S_ 32 256#32),
    StableHlo.unary main_c_136 main_v423 (broadcastInDim S500000 ![] bcast_S_S500000 : (⟨S_, .i32⟩ : BufTy).Contents (Elt F) → (⟨S500000, .i32⟩ : BufTy).Contents (Elt F)),
    StableHlo.binary main_v378 main_v423 main_v424 (addi : (⟨S500000, .i32⟩ : BufTy).Contents (Elt F) → (⟨S500000, .i32⟩ : BufTy).Contents (Elt F) → (⟨S500000, .i32⟩ : BufTy).Contents (Elt F)),
    StableHlo.ternary main_v422 main_v424 main_v378 main_v425 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_137 (constantI S_ 32 0#32),
    StableHlo.unary main_c_137 main_v426 (broadcastInDim S500000 ![] bcast_S_S500000 : (⟨S_, .i32⟩ : BufTy).Contents (Elt F) → (⟨S500000, .i32⟩ : BufTy).Contents (Elt F)),
    StableHlo.binary main_v374 main_v426 main_v427 (cmpi .slt : (⟨S500000, .i32⟩ : BufTy).Contents (Elt F) → (⟨S500000, .i32⟩ : BufTy).Contents (Elt F) → (⟨S500000, .i1⟩ : BufTy).Contents (Elt F)),
    StableHlo.nullary main_c_138 (constantI S_ 32 256#32),
    StableHlo.unary main_c_138 main_v428 (broadcastInDim S500000 ![] bcast_S_S500000 : (⟨S_, .i32⟩ : BufTy).Contents (Elt F) → (⟨S500000, .i32⟩ : BufTy).Contents (Elt F)),
    StableHlo.binary main_v374 main_v428 main_v429 (addi : (⟨S500000, .i32⟩ : BufTy).Contents (Elt F) → (⟨S500000, .i32⟩ : BufTy).Contents (Elt F) → (⟨S500000, .i32⟩ : BufTy).Contents (Elt F)),
    StableHlo.ternary main_v427 main_v429 main_v374 main_v430 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v425 main_v431 (broadcastInDim S500000x1 ![0] bcast_S500000_S500000x1_0 : (⟨S500000, .i32⟩ : BufTy).Contents (Elt F) → (⟨S500000x1, .i32⟩ : BufTy).Contents (Elt F)),
    StableHlo.unary main_v430 main_v432 (broadcastInDim S500000x1 ![0] bcast_S500000_S500000x1_0 : (⟨S500000, .i32⟩ : BufTy).Contents (Elt F) → (⟨S500000x1, .i32⟩ : BufTy).Contents (Elt F)),
    StableHlo.binary main_v431 main_v432 main_v433 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg10 main_v433 main_v434 ((fun x i => Host.gather gather_S8x256x256_S500000x2_S8x500000_0_12_n_n_12_1_811 x i) : (⟨S8x256x256, .f32⟩ : BufTy).Contents (Elt F) → (⟨S500000x2, .i32⟩ : BufTy).Contents (Elt F) → (⟨S8x500000, .f32⟩ : BufTy).Contents (Elt F)),
    StableHlo.nullary main_cst_139 (constant S_ .f32 0x3F800000#32),
    StableHlo.unary main_cst_139 main_v435 (broadcastInDim S500000 ![] bcast_S_S500000 : (⟨S_, .f32⟩ : BufTy).Contents (Elt F) → (⟨S500000, .f32⟩ : BufTy).Contents (Elt F)),
    StableHlo.binary main_v435 main_v368 main_v436 (subf : (⟨S500000, .f32⟩ : BufTy).Contents (Elt F) → (⟨S500000, .f32⟩ : BufTy).Contents (Elt F) → (⟨S500000, .f32⟩ : BufTy).Contents (Elt F)),
    StableHlo.unary main_v436 main_v437 (broadcastInDim S1x500000 ![1] bcast_S500000_S1x500000_1 : (⟨S500000, .f32⟩ : BufTy).Contents (Elt F) → (⟨S1x500000, .f32⟩ : BufTy).Contents (Elt F)),
    StableHlo.unary main_v437 main_v438 (broadcastInDim S8x500000 ![0, 1] bcast_S1x500000_S8x500000_0_1 : (⟨S1x500000, .f32⟩ : BufTy).Contents (Elt F) → (⟨S8x500000, .f32⟩ : BufTy).Contents (Elt F)),
    StableHlo.binary main_v392 main_v438 main_v439 (mulf : (⟨S8x500000, .f32⟩ : BufTy).Contents (Elt F) → (⟨S8x500000, .f32⟩ : BufTy).Contents (Elt F) → (⟨S8x500000, .f32⟩ : BufTy).Contents (Elt F)),
    StableHlo.unary main_v368 main_v440 (broadcastInDim S1x500000 ![1] bcast_S500000_S1x500000_1 : (⟨S500000, .f32⟩ : BufTy).Contents (Elt F) → (⟨S1x500000, .f32⟩ : BufTy).Contents (Elt F)),
    StableHlo.unary main_v440 main_v441 (broadcastInDim S8x500000 ![0, 1] bcast_S1x500000_S8x500000_0_1 : (⟨S1x500000, .f32⟩ : BufTy).Contents (Elt F) → (⟨S8x500000, .f32⟩ : BufTy).Contents (Elt F)),
    StableHlo.binary main_v406 main_v441 main_v442 (mulf : (⟨S8x500000, .f32⟩ : BufTy).Contents (Elt F) → (⟨S8x500000, .f32⟩ : BufTy).Contents (Elt F) → (⟨S8x500000, .f32⟩ : BufTy).Contents (Elt F)),
    StableHlo.binary main_v439 main_v442 main_v443 (addf : (⟨S8x500000, .f32⟩ : BufTy).Contents (Elt F) → (⟨S8x500000, .f32⟩ : BufTy).Contents (Elt F) → (⟨S8x500000, .f32⟩ : BufTy).Contents (Elt F)),
    StableHlo.nullary main_cst_140 (constant S_ .f32 0x3F800000#32),
    StableHlo.unary main_cst_140 main_v444 (broadcastInDim S500000 ![] bcast_S_S500000 : (⟨S_, .f32⟩ : BufTy).Contents (Elt F) → (⟨S500000, .f32⟩ : BufTy).Contents (Elt F)),
    StableHlo.binary main_v444 main_v368 main_v445 (subf : (⟨S500000, .f32⟩ : BufTy).Contents (Elt F) → (⟨S500000, .f32⟩ : BufTy).Contents (Elt F) → (⟨S500000, .f32⟩ : BufTy).Contents (Elt F)),
    StableHlo.unary main_v445 main_v446 (broadcastInDim S1x500000 ![1] bcast_S500000_S1x500000_1 : (⟨S500000, .f32⟩ : BufTy).Contents (Elt F) → (⟨S1x500000, .f32⟩ : BufTy).Contents (Elt F)),
    StableHlo.unary main_v446 main_v447 (broadcastInDim S8x500000 ![0, 1] bcast_S1x500000_S8x500000_0_1 : (⟨S1x500000, .f32⟩ : BufTy).Contents (Elt F) → (⟨S8x500000, .f32⟩ : BufTy).Contents (Elt F)),
    StableHlo.binary main_v420 main_v447 main_v448 (mulf : (⟨S8x500000, .f32⟩ : BufTy).Contents (Elt F) → (⟨S8x500000, .f32⟩ : BufTy).Contents (Elt F) → (⟨S8x500000, .f32⟩ : BufTy).Contents (Elt F)),
    StableHlo.unary main_v368 main_v449 (broadcastInDim S1x500000 ![1] bcast_S500000_S1x500000_1 : (⟨S500000, .f32⟩ : BufTy).Contents (Elt F) → (⟨S1x500000, .f32⟩ : BufTy).Contents (Elt F)),
    StableHlo.unary main_v449 main_v450 (broadcastInDim S8x500000 ![0, 1] bcast_S1x500000_S8x500000_0_1 : (⟨S1x500000, .f32⟩ : BufTy).Contents (Elt F) → (⟨S8x500000, .f32⟩ : BufTy).Contents (Elt F)),
    StableHlo.binary main_v434 main_v450 main_v451 (mulf : (⟨S8x500000, .f32⟩ : BufTy).Contents (Elt F) → (⟨S8x500000, .f32⟩ : BufTy).Contents (Elt F) → (⟨S8x500000, .f32⟩ : BufTy).Contents (Elt F)),
    StableHlo.binary main_v448 main_v451 main_v452 (addf : (⟨S8x500000, .f32⟩ : BufTy).Contents (Elt F) → (⟨S8x500000, .f32⟩ : BufTy).Contents (Elt F) → (⟨S8x500000, .f32⟩ : BufTy).Contents (Elt F)),
    StableHlo.nullary main_cst_141 (constant S_ .f32 0x3F800000#32),
    StableHlo.unary main_cst_141 main_v453 (broadcastInDim S500000 ![] bcast_S_S500000 : (⟨S_, .f32⟩ : BufTy).Contents (Elt F) → (⟨S500000, .f32⟩ : BufTy).Contents (Elt F)),
    StableHlo.binary main_v453 main_v370 main_v454 (subf : (⟨S500000, .f32⟩ : BufTy).Contents (Elt F) → (⟨S500000, .f32⟩ : BufTy).Contents (Elt F) → (⟨S500000, .f32⟩ : BufTy).Contents (Elt F)),
    StableHlo.unary main_v454 main_v455 (broadcastInDim S1x500000 ![1] bcast_S500000_S1x500000_1 : (⟨S500000, .f32⟩ : BufTy).Contents (Elt F) → (⟨S1x500000, .f32⟩ : BufTy).Contents (Elt F)),
    StableHlo.unary main_v455 main_v456 (broadcastInDim S8x500000 ![0, 1] bcast_S1x500000_S8x500000_0_1 : (⟨S1x500000, .f32⟩ : BufTy).Contents (Elt F) → (⟨S8x500000, .f32⟩ : BufTy).Contents (Elt F)),
    StableHlo.binary main_v443 main_v456 main_v457 (mulf : (⟨S8x500000, .f32⟩ : BufTy).Contents (Elt F) → (⟨S8x500000, .f32⟩ : BufTy).Contents (Elt F) → (⟨S8x500000, .f32⟩ : BufTy).Contents (Elt F)),
    StableHlo.unary main_v370 main_v458 (broadcastInDim S1x500000 ![1] bcast_S500000_S1x500000_1 : (⟨S500000, .f32⟩ : BufTy).Contents (Elt F) → (⟨S1x500000, .f32⟩ : BufTy).Contents (Elt F)),
    StableHlo.unary main_v458 main_v459 (broadcastInDim S8x500000 ![0, 1] bcast_S1x500000_S8x500000_0_1 : (⟨S1x500000, .f32⟩ : BufTy).Contents (Elt F) → (⟨S8x500000, .f32⟩ : BufTy).Contents (Elt F)),
    StableHlo.binary main_v452 main_v459 main_v460 (mulf : (⟨S8x500000, .f32⟩ : BufTy).Contents (Elt F) → (⟨S8x500000, .f32⟩ : BufTy).Contents (Elt F) → (⟨S8x500000, .f32⟩ : BufTy).Contents (Elt F)),
    StableHlo.binary main_v457 main_v460 main_v461 (addf : (⟨S8x500000, .f32⟩ : BufTy).Contents (Elt F) → (⟨S8x500000, .f32⟩ : BufTy).Contents (Elt F) → (⟨S8x500000, .f32⟩ : BufTy).Contents (Elt F)),
    StableHlo.unary main_v461 main_v462 ((transpose S500000x8 [1, 0] · transposes_S8x500000_S500000x8_1_0) : (⟨S8x500000, .f32⟩ : BufTy).Contents (Elt F) → (⟨S500000x8, .f32⟩ : BufTy).Contents (Elt F)) ]

/-- Operations 687 … 853 (167): level 1, plane xz. -/
abbrev opsB1b : List (HloOp τ sig (Elt F)) :=
  [ StableHlo.nullary main_cst_142 (constant S_ .f32 0x3F800000#32),
    StableHlo.unary main_cst_142 main_v463 (broadcastInDim S500000 ![] bcast_S_S500000 : (⟨S_, .f32⟩ : BufTy).Contents (Elt F) → (⟨S500000, .f32⟩ : BufTy).Contents (Elt F)),
    StableHlo.binary main_v13 main_v463 main_v464 (addf : (⟨S500000, .f32⟩ : BufTy).Contents (Elt F) → (⟨S500000, .f32⟩ : BufTy).Contents (Elt F) → (⟨S500000, .f32⟩ : BufTy).Contents (Elt F)),
    StableHlo.nullary main_cst_143 (constant S_ .f32 0x3F000000#32),
    StableHlo.unary main_cst_143 main_v465 (broadcastInDim S500000 ![] bcast_S_S500000 : (⟨S_, .f32⟩ : BufTy).Contents (Elt F) → (⟨S500000, .f32⟩ : BufTy).Contents (Elt F)),
    StableHlo.binary main_v464 main_v465 main_v466 (mulf : (⟨S500000, .f32⟩ : BufTy).Contents (Elt F) → (⟨S500000, .f32⟩ : BufTy).Contents (Elt F) → (⟨S500000, .f32⟩ : BufTy).Contents (Elt F)),
    StableHlo.nullary main_cst_144 (constant S_ .f32 0x437F0000#32),
    StableHlo.unary main_cst_144 main_v467 (broadcastInDim S500000 ![] bcast_S_S500000 : (⟨S_, .f32⟩ : BufTy).Contents (Elt F) → (⟨S500000, .f32⟩ : BufTy).Contents (Elt F)),
    StableHlo.binary main_v466 main_v467 main_v468 (mulf : (⟨S500000, .f32⟩ : BufTy).Contents (Elt F) → (⟨S500000, .f32⟩ : BufTy).Contents (Elt F) → (⟨S500000, .f32⟩ : BufTy).Contents (Elt F)),
    StableHlo.nullary main_cst_145 (constant S_ .f32 0x3F800000#32),
    StableHlo.unary main_cst_145 main_v469 (broadcastInDim S500000 ![] bcast_S_S500000 : (⟨S_, .f32⟩ : BufTy).Contents (Elt F) → (⟨S500000, .f32⟩ : BufTy).Contents (Elt F)),
    StableHlo.binary main_v9 main_v469 main_v470 (addf : (⟨S500000, .f32⟩ : BufTy).Contents (Elt F) → (⟨S500000, .f32⟩ : BufTy).Contents (Elt F) → (⟨S500000, .f32⟩ : BufTy).Contents (Elt F)),
    StableHlo.nullary main_cst_146 (constant S_ .f32 0x3F000000#32),
    StableHlo.unary main_cst_146 main_v471 (broadcastInDim S500000 ![] bcast_S_S500000 : (⟨S_, .f32⟩ : BufTy).Contents (Elt F) → (⟨S500000, .f32⟩ : BufTy).Contents (Elt F)),
    StableHlo.binary main_v470 main_v471 main_v472 (mulf : (⟨S500000, .f32⟩ : BufTy).Contents (Elt F) → (⟨S500000, .f32⟩ : BufTy).Contents (Elt F) → (⟨S500000, .f32⟩ : BufTy).Contents (Elt F)),
    StableHlo.nullary main_cst_147 (constant S_ .f32 0x437F0000#32),
    StableHlo.unary main_cst_147 main_v473 (broadcastInDim S500000 ![] bcast_S_S500000 : (⟨S_, .f32⟩ : BufTy).Contents (Elt F) → (⟨S500000, .f32⟩ : BufTy).Contents (Elt F)),
    StableHlo.binary main_v472 main_v473 main_v474 (mulf : (⟨S500000, .f32⟩ : BufTy).Contents (Elt F) → (⟨S500000, .f32⟩ : BufTy).Contents (Elt F) → (⟨S500000, .f32⟩ : BufTy).Contents (Elt F)),
    StableHlo.unary main_v468 main_v475 (Host.floor : (⟨S500000, .f32⟩ : BufTy).Contents (Elt F) → (⟨S500000, .f32⟩ : BufTy).Contents (Elt F)),
    StableHlo.unary main_v475 main_v476 (fptosi 32 : (⟨S500000, .f32⟩ : BufTy).Contents (Elt F) → (⟨S500000, .i32⟩ : BufTy).Contents (Elt F)),
    StableHlo.unary main_v474 main_v477 (Host.floor : (⟨S500000, .f32⟩ : BufTy).Contents (Elt F) → (⟨S500000, .f32⟩ : BufTy).Contents (Elt F)),
    StableHlo.unary main_v477 main_v478 (fptosi 32 : (⟨S500000, .f32⟩ : BufTy).Contents (Elt F) → (⟨S500000, .i32⟩ : BufTy).Contents (Elt F)),
    StableHlo.unary main_v476 main_v479 (sitofp .f32 : (⟨S500000, .i32⟩ : BufTy).Contents (Elt F) → (⟨S500000, .f32⟩ : BufTy).Contents (Elt F)),
    StableHlo.binary main_v468 main_v479 main_v480 (subf : (⟨S500000, .f32⟩ : BufTy).Contents (Elt F) → (⟨S500000, .f32⟩ : BufTy).Contents (Elt F) → (⟨S500000, .f32⟩ : BufTy).Contents (Elt F)),
    StableHlo.unary main_v478 main_v481 (sitofp .f32 : (⟨S500000, .i32⟩ : BufTy).Contents (Elt F) → (⟨S500000, .f32⟩ : BufTy).Contents (Elt F)),
    StableHlo.binary main_v474 main_v481 main_v482 (subf : (⟨S500000, .f32⟩ : BufTy).Contents (Elt F) → (⟨S500000, .f32⟩ : BufTy).Contents (Elt F) → (⟨S500000, .f32⟩ : BufTy).Contents (Elt F)),
    StableHlo.nullary main_c_148 (constantI S_ 32 0#32),
    StableHlo.nullary main_c_149 (constantI S_ 32 255#32),
    StableHlo.TRef.unary (.of main_c_148 : StableHlo.TRef sig ⟨S_, .i32⟩) (.of main_call16_v0 : StableHlo.TRef sig ⟨S_, .i32⟩) id,
    StableHlo.TRef.unary (.of main_call16_v0 : StableHlo.TRef sig ⟨S_, .i32⟩) (.of main_call16_v1 : StableHlo.TRef sig ⟨S500000, .i32⟩) (broadcastInDim S500000 ![] bcast_S_S500000),
    StableHlo.TRef.binary (.of main_call16_v1 : StableHlo.TRef sig ⟨S500000, .i32⟩) (.of main_v476 : StableHlo.TRef sig ⟨S500000, .i32⟩) (.of main_call16_v2 : StableHlo.TRef sig ⟨S500000, .i32⟩) maxsi,
    StableHlo.TRef.unary (.of main_c_149 : StableHlo.TRef sig ⟨S_, .i32⟩) (.of main_call16_v3 : StableHlo.TRef sig ⟨S_, .i32⟩) id,
    StableHlo.TRef.unary (.of main_call16_v3 : StableHlo.TRef sig ⟨S_, .i32⟩) (.of main_call16_v4 : StableHlo.TRef sig ⟨S500000, .i32⟩) (broadcastInDim S500000 ![] bcast_S_S500000),
    StableHlo.TRef.binary (.of main_call16_v4 : StableHlo.TRef sig ⟨S500000, .i32⟩) (.of main_call16_v2 : StableHlo.TRef sig ⟨S500000, .i32⟩) (.of main_v483 : StableHlo.TRef sig ⟨S500000, .i32⟩) minsi,
    StableHlo.nullary main_c_150 (constantI S_ 32 1#32),
    StableHlo.unary main_c_150 main_v484 (broadcastInDim S500000 ![] bcast_S_S500000 : (⟨S_, .i32⟩ : BufTy).Contents (Elt F) → (⟨S500000, .i32⟩ : BufTy).Contents (Elt F)),
    StableHlo.binary main_v476 main_v484 main_v485 (addi : (⟨S500000, .i32⟩ : BufTy).Contents (Elt F) → (⟨S500000, .i32⟩ : BufTy).Contents (Elt F) → (⟨S500000, .i32⟩ : BufTy).Contents (Elt F)),
    StableHlo.nullary main_c_151 (constantI S_ 32 0#32),
    StableHlo.nullary main_c_152 (constantI S_ 32 255#32),
    StableHlo.TRef.unary (.of main_c_151 : StableHlo.TRef sig ⟨S_, .i32⟩) (.of main_call17_v0 : StableHlo.TRef sig ⟨S_, .i32⟩) id,
    StableHlo.TRef.unary (.of main_call17_v0 : StableHlo.TRef sig ⟨S_, .i32⟩) (.of main_call17_v1 : StableHlo.TRef sig ⟨S500000, .i32⟩) (broadcastInDim S500000 ![] bcast_S_S500000),
    StableHlo.TRef.binary (.of main_call17_v1 : StableHlo.TRef sig ⟨S500000, .i32⟩) (.of main_v485 : StableHlo.TRef sig ⟨S500000, .i32⟩) (.of main_call17_v2 : StableHlo.TRef sig ⟨S500000, .i32⟩) maxsi,
    StableHlo.TRef.unary (.of main_c_152 : StableHlo.TRef sig ⟨S_, .i32⟩) (.of main_call17_v3 : StableHlo.TRef sig ⟨S_, .i32⟩) id,
    StableHlo.TRef.unary (.of main_call17_v3 : StableHlo.TRef sig ⟨S_, .i32⟩) (.of main_call17_v4 : StableHlo.TRef sig ⟨S500000, .i32⟩) (broadcastInDim S500000 ![] bcast_S_S500000),
    StableHlo.TRef.binary (.of main_call17_v4 : StableHlo.TRef sig ⟨S500000, .i32⟩) (.of main_call17_v2 : StableHlo.TRef sig ⟨S500000, .i32⟩) (.of main_v486 : StableHlo.TRef sig ⟨S500000, .i32⟩) minsi,
    StableHlo.nullary main_c_153 (constantI S_ 32 0#32),
    StableHlo.nullary main_c_154 (constantI S_ 32 255#32),
    StableHlo.TRef.unary (.of main_c_153 : StableHlo.TRef sig ⟨S_, .i32⟩) (.of main_call18_v0 : StableHlo.TRef sig ⟨S_, .i32⟩) id,
    StableHlo.TRef.unary (.of main_call18_v0 : StableHlo.TRef sig ⟨S_, .i32⟩) (.of main_call18_v1 : StableHlo.TRef sig ⟨S500000, .i32⟩) (broadcastInDim S500000 ![] bcast_S_S500000),
    StableHlo.TRef.binary (.of main_call18_v1 : StableHlo.TRef sig ⟨S500000, .i32⟩) (.of main_v478 : StableHlo.TRef sig ⟨S500000, .i32⟩) (.of main_call18_v2 : StableHlo.TRef sig ⟨S500000, .i32⟩) maxsi,
    StableHlo.TRef.unary (.of main_c_154 : StableHlo.TRef sig ⟨S_, .i32⟩) (.of main_call18_v3 : StableHlo.TRef sig ⟨S_, .i32⟩) id,
    StableHlo.TRef.unary (.of main_call18_v3 : StableHlo.TRef sig ⟨S_, .i32⟩) (.of main_call18_v4 : StableHlo.TRef sig ⟨S500000, .i32⟩) (broadcastInDim S500000 ![] bcast_S_S500000),
    StableHlo.TRef.binary (.of main_call18_v4 : StableHlo.TRef sig ⟨S500000, .i32⟩) (.of main_call18_v2 : StableHlo.TRef sig ⟨S500000, .i32⟩) (.of main_v487 : StableHlo.TRef sig ⟨S500000, .i32⟩) minsi,
    StableHlo.nullary main_c_155 (constantI S_ 32 1#32),
    StableHlo.unary main_c_155 main_v488 (broadcastInDim S500000 ![] bcast_S_S500000 : (⟨S_, .i32⟩ : BufTy).Contents (Elt F) → (⟨S500000, .i32⟩ : BufTy).Contents (Elt F)),
    StableHlo.binary main_v478 main_v488 main_v489 (addi : (⟨S500000, .i32⟩ : BufTy).Contents (Elt F) → (⟨S500000, .i32⟩ : BufTy).Contents (Elt F) → (⟨S500000, .i32⟩ : BufTy).Contents (Elt F)),
    StableHlo.nullary main_c_156 (constantI S_ 32 0#32),
    StableHlo.nullary main_c_157 (constantI S_ 32 255#32),
    StableHlo.TRef.unary (.of main_c_156 : StableHlo.TRef sig ⟨S_, .i32⟩) (.of main_call19_v0 : StableHlo.TRef sig ⟨S_, .i32⟩) id,
    StableHlo.TRef.unary (.of main_call19_v0 : StableHlo.TRef sig ⟨S_, .i32⟩) (.of main_call19_v1 : StableHlo.TRef sig ⟨S500000, .i32⟩) (broadcastInDim S500000 ![] bcast_S_S500000),
    StableHlo.TRef.binary (.of main_call19_v1 : StableHlo.TRef sig ⟨S500000, .i32⟩) (.of main_v489 : StableHlo.TRef sig ⟨S500000, .i32⟩) (.of main_call19_v2 : StableHlo.TRef sig ⟨S500000, .i32⟩) maxsi,
    StableHlo.TRef.unary (.of main_c_157 : StableHlo.TRef sig ⟨S_, .i32⟩) (.of main_call19_v3 : StableHlo.TRef sig ⟨S_, .i32⟩) id,
    StableHlo.TRef.unary (.of main_call19_v3 : StableHlo.TRef sig ⟨S_, .i32⟩) (.of main_call19_v4 : StableHlo.TRef sig ⟨S500000, .i32⟩) (broadcastInDim S500000 ![] bcast_S_S500000),
    StableHlo.TRef.binary (.of main_call19_v4 : StableHlo.TRef sig ⟨S500000, .i32⟩) (.of main_call19_v2 : StableHlo.TRef sig ⟨S500000, .i32⟩) (.of main_v490 : StableHlo.TRef sig ⟨S500000, .i32⟩) minsi,
    StableHlo.nullary main_c_158 (constantI S_ 32 0#32),
    StableHlo.unary main_c_158 main_v491 (broadcastInDim S500000 ![] bcast_S_S500000 : (⟨S_, .i32⟩ : BufTy).Contents (Elt F) → (⟨S500000, .i32⟩ : BufTy).Contents (Elt F)),
    StableHlo.binary main_v487 main_v491 main_v492 (cmpi .slt : (⟨S500000, .i32⟩ : BufTy).Contents (Elt F) → (⟨S500000, .i32⟩ : BufTy).Contents (Elt F) → (⟨S500000, .i1⟩ : BufTy).Contents (Elt F)),
    StableHlo.nullary main_c_159 (constantI S_ 32 256#32),
    StableHlo.unary main_c_159 main_v493 (broadcastInDim S500000 ![] bcast_S_S500000 : (⟨S_, .i32⟩ : BufTy).Contents (Elt F) → (⟨S500000, .i32⟩ : BufTy).Contents (Elt F)),
    StableHlo.binary main_v487 main_v493 main_v494 (addi : (⟨S500000, .i32⟩ : BufTy).Contents (Elt F) → (⟨S500000, .i32⟩ : BufTy).Contents (Elt F) → (⟨S500000, .i32⟩ : BufTy).Contents (Elt F)),
    StableHlo.ternary main_v492 main_v494 main_v487 main_v495 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_160 (constantI S_ 32 0#32),
    StableHlo.unary main_c_160 main_v496 (broadcastInDim S500000 ![] bcast_S_S500000 : (⟨S_, .i32⟩ : BufTy).Contents (Elt F) → (⟨S500000, .i32⟩ : BufTy).Contents (Elt F)),
    StableHlo.binary main_v483 main_v496 main_v497 (cmpi .slt : (⟨S500000, .i32⟩ : BufTy).Contents (Elt F) → (⟨S500000, .i32⟩ : BufTy).Contents (Elt F) → (⟨S500000, .i1⟩ : BufTy).Contents (Elt F)),
    StableHlo.nullary main_c_161 (constantI S_ 32 256#32),
    StableHlo.unary main_c_161 main_v498 (broadcastInDim S500000 ![] bcast_S_S500000 : (⟨S_, .i32⟩ : BufTy).Contents (Elt F) → (⟨S500000, .i32⟩ : BufTy).Contents (Elt F)),
    StableHlo.binary main_v483 main_v498 main_v499 (addi : (⟨S500000, .i32⟩ : BufTy).Contents (Elt F) → (⟨S500000, .i32⟩ : BufTy).Contents (Elt F) → (⟨S500000, .i32⟩ : BufTy).Contents (Elt F)),
    StableHlo.ternary main_v497 main_v499 main_v483 main_v500 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v495 main_v501 (broadcastInDim S500000x1 ![0] bcast_S500000_S500000x1_0 : (⟨S500000, .i32⟩ : BufTy).Contents (Elt F) → (⟨S500000x1, .i32⟩ : BufTy).Contents (Elt F)),
    StableHlo.unary main_v500 main_v502 (broadcastInDim S500000x1 ![0] bcast_S500000_S500000x1_0 : (⟨S500000, .i32⟩ : BufTy).Contents (Elt F) → (⟨S500000x1, .i32⟩ : BufTy).Contents (Elt F)),
    StableHlo.binary main_v501 main_v502 main_v503 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg11 main_v503 main_v504 ((fun x i => Host.gather gather_S8x256x256_S500000x2_S8x500000_0_12_n_n_12_1_811 x i) : (⟨S8x256x256, .f32⟩ : BufTy).Contents (Elt F) → (⟨S500000x2, .i32⟩ : BufTy).Contents (Elt F) → (⟨S8x500000, .f32⟩ : BufTy).Contents (Elt F)),
    StableHlo.nullary main_c_162 (constantI S_ 32 0#32),
    StableHlo.unary main_c_162 main_v505 (broadcastInDim S500000 ![] bcast_S_S500000 : (⟨S_, .i32⟩ : BufTy).Contents (Elt F) → (⟨S500000, .i32⟩ : BufTy).Contents (Elt F)),
    StableHlo.binary main_v487 main_v505 main_v506 (cmpi .slt : (⟨S500000, .i32⟩ : BufTy).Contents (Elt F) → (⟨S500000, .i32⟩ : BufTy).Contents (Elt F) → (⟨S500000, .i1⟩ : BufTy).Contents (Elt F)),
    StableHlo.nullary main_c_163 (constantI S_ 32 256#32),
    StableHlo.unary main_c_163 main_v507 (broadcastInDim S500000 ![] bcast_S_S500000 : (⟨S_, .i32⟩ : BufTy).Contents (Elt F) → (⟨S500000, .i32⟩ : BufTy).Contents (Elt F)),
    StableHlo.binary main_v487 main_v507 main_v508 (addi : (⟨S500000, .i32⟩ : BufTy).Contents (Elt F) → (⟨S500000, .i32⟩ : BufTy).Contents (Elt F) → (⟨S500000, .i32⟩ : BufTy).Contents (Elt F)),
    StableHlo.ternary main_v506 main_v508 main_v487 main_v509 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_164 (constantI S_ 32 0#32),
    StableHlo.unary main_c_164 main_v510 (broadcastInDim S500000 ![] bcast_S_S500000 : (⟨S_, .i32⟩ : BufTy).Contents (Elt F) → (⟨S500000, .i32⟩ : BufTy).Contents (Elt F)),
    StableHlo.binary main_v486 main_v510 main_v511 (cmpi .slt : (⟨S500000, .i32⟩ : BufTy).Contents (Elt F) → (⟨S500000, .i32⟩ : BufTy).Contents (Elt F) → (⟨S500000, .i1⟩ : BufTy).Contents (Elt F)),
    StableHlo.nullary main_c_165 (constantI S_ 32 256#32),
    StableHlo.unary main_c_165 main_v512 (broadcastInDim S500000 ![] bcast_S_S500000 : (⟨S_, .i32⟩ : BufTy).Contents (Elt F) → (⟨S500000, .i32⟩ : BufTy).Contents (Elt F)),
    StableHlo.binary main_v486 main_v512 main_v513 (addi : (⟨S500000, .i32⟩ : BufTy).Contents (Elt F) → (⟨S500000, .i32⟩ : BufTy).Contents (Elt F) → (⟨S500000, .i32⟩ : BufTy).Contents (Elt F)),
    StableHlo.ternary main_v511 main_v513 main_v486 main_v514 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v509 main_v515 (broadcastInDim S500000x1 ![0] bcast_S500000_S500000x1_0 : (⟨S500000, .i32⟩ : BufTy).Contents (Elt F) → (⟨S500000x1, .i32⟩ : BufTy).Contents (Elt F)),
    StableHlo.unary main_v514 main_v516 (broadcastInDim S500000x1 ![0] bcast_S500000_S500000x1_0 : (⟨S500000, .i32⟩ : BufTy).Contents (Elt F) → (⟨S500000x1, .i32⟩ : BufTy).Contents (Elt F)),
    StableHlo.binary main_v515 main_v516 main_v517 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg11 main_v517 main_v518 ((fun x i => Host.gather gather_S8x256x256_S500000x2_S8x500000_0_12_n_n_12_1_811 x i) : (⟨S8x256x256, .f32⟩ : BufTy).Contents (Elt F) → (⟨S500000x2, .i32⟩ : BufTy).Contents (Elt F) → (⟨S8x500000, .f32⟩ : BufTy).Contents (Elt F)),
    StableHlo.nullary main_c_166 (constantI S_ 32 0#32),
    StableHlo.unary main_c_166 main_v519 (broadcastInDim S500000 ![] bcast_S_S500000 : (⟨S_, .i32⟩ : BufTy).Contents (Elt F) → (⟨S500000, .i32⟩ : BufTy).Contents (Elt F)),
    StableHlo.binary main_v490 main_v519 main_v520 (cmpi .slt : (⟨S500000, .i32⟩ : BufTy).Contents (Elt F) → (⟨S500000, .i32⟩ : BufTy).Contents (Elt F) → (⟨S500000, .i1⟩ : BufTy).Contents (Elt F)),
    StableHlo.nullary main_c_167 (constantI S_ 32 256#32),
    StableHlo.unary main_c_167 main_v521 (broadcastInDim S500000 ![] bcast_S_S500000 : (⟨S_, .i32⟩ : BufTy).Contents (Elt F) → (⟨S500000, .i32⟩ : BufTy).Contents (Elt F)),
    StableHlo.binary main_v490 main_v521 main_v522 (addi : (⟨S500000, .i32⟩ : BufTy).Contents (Elt F) → (⟨S500000, .i32⟩ : BufTy).Contents (Elt F) → (⟨S500000, .i32⟩ : BufTy).Contents (Elt F)),
    StableHlo.ternary main_v520 main_v522 main_v490 main_v523 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_168 (constantI S_ 32 0#32),
    StableHlo.unary main_c_168 main_v524 (broadcastInDim S500000 ![] bcast_S_S500000 : (⟨S_, .i32⟩ : BufTy).Contents (Elt F) → (⟨S500000, .i32⟩ : BufTy).Contents (Elt F)),
    StableHlo.binary main_v483 main_v524 main_v525 (cmpi .slt : (⟨S500000, .i32⟩ : BufTy).Contents (Elt F) → (⟨S500000, .i32⟩ : BufTy).Contents (Elt F) → (⟨S500000, .i1⟩ : BufTy).Contents (Elt F)),
    StableHlo.nullary main_c_169 (constantI S_ 32 256#32),
    StableHlo.unary main_c_169 main_v526 (broadcastInDim S500000 ![] bcast_S_S500000 : (⟨S_, .i32⟩ : BufTy).Contents (Elt F) → (⟨S500000, .i32⟩ : BufTy).Contents (Elt F)),
    StableHlo.binary main_v483 main_v526 main_v527 (addi : (⟨S500000, .i32⟩ : BufTy).Contents (Elt F) → (⟨S500000, .i32⟩ : BufTy).Contents (Elt F) → (⟨S500000, .i32⟩ : BufTy).Contents (Elt F)),
    StableHlo.ternary main_v525 main_v527 main_v483 main_v528 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v523 main_v529 (broadcastInDim S500000x1 ![0] bcast_S500000_S500000x1_0 : (⟨S500000, .i32⟩ : BufTy).Contents (Elt F) → (⟨S500000x1, .i32⟩ : BufTy).Contents (Elt F)),
    StableHlo.unary main_v528 main_v530 (broadcastInDim S500000x1 ![0] bcast_S500000_S500000x1_0 : (⟨S500000, .i32⟩ : BufTy).Contents (Elt F) → (⟨S500000x1, .i32⟩ : BufTy).Contents (Elt F)),
    StableHlo.binary main_v529 main_v530 main_v531 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg11 main_v531 main_v532 ((fun x i => Host.gather gather_S8x256x256_S500000x2_S8x500000_0_12_n_n_12_1_811 x i) : (⟨S8x256x256, .f32⟩ : BufTy).Contents (Elt F) → (⟨S500000x2, .i32⟩ : BufTy).Contents (Elt F) → (⟨S8x500000, .f32⟩ : BufTy).Contents (Elt F)),
    StableHlo.nullary main_c_170 (constantI S_ 32 0#32),
    StableHlo.unary main_c_170 main_v533 (broadcastInDim S500000 ![] bcast_S_S500000 : (⟨S_, .i32⟩ : BufTy).Contents (Elt F) → (⟨S500000, .i32⟩ : BufTy).Contents (Elt F)),
    StableHlo.binary main_v490 main_v533 main_v534 (cmpi .slt : (⟨S500000, .i32⟩ : BufTy).Contents (Elt F) → (⟨S500000, .i32⟩ : BufTy).Contents (Elt F) → (⟨S500000, .i1⟩ : BufTy).Contents (Elt F)),
    StableHlo.nullary main_c_171 (constantI S_ 32 256#32),
    StableHlo.unary main_c_171 main_v535 (broadcastInDim S500000 ![] bcast_S_S500000 : (⟨S_, .i32⟩ : BufTy).Contents (Elt F) → (⟨S500000, .i32⟩ : BufTy).Contents (Elt F)),
    StableHlo.binary main_v490 main_v535 main_v536 (addi : (⟨S500000, .i32⟩ : BufTy).Contents (Elt F) → (⟨S500000, .i32⟩ : BufTy).Contents (Elt F) → (⟨S500000, .i32⟩ : BufTy).Contents (Elt F)),
    StableHlo.ternary main_v534 main_v536 main_v490 main_v537 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_172 (constantI S_ 32 0#32),
    StableHlo.unary main_c_172 main_v538 (broadcastInDim S500000 ![] bcast_S_S500000 : (⟨S_, .i32⟩ : BufTy).Contents (Elt F) → (⟨S500000, .i32⟩ : BufTy).Contents (Elt F)),
    StableHlo.binary main_v486 main_v538 main_v539 (cmpi .slt : (⟨S500000, .i32⟩ : BufTy).Contents (Elt F) → (⟨S500000, .i32⟩ : BufTy).Contents (Elt F) → (⟨S500000, .i1⟩ : BufTy).Contents (Elt F)),
    StableHlo.nullary main_c_173 (constantI S_ 32 256#32),
    StableHlo.unary main_c_173 main_v540 (broadcastInDim S500000 ![] bcast_S_S500000 : (⟨S_, .i32⟩ : BufTy).Contents (Elt F) → (⟨S500000, .i32⟩ : BufTy).Contents (Elt F)),
    StableHlo.binary main_v486 main_v540 main_v541 (addi : (⟨S500000, .i32⟩ : BufTy).Contents (Elt F) → (⟨S500000, .i32⟩ : BufTy).Contents (Elt F) → (⟨S500000, .i32⟩ : BufTy).Contents (Elt F)),
    StableHlo.ternary main_v539 main_v541 main_v486 main_v542 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v537 main_v543 (broadcastInDim S500000x1 ![0] bcast_S500000_S500000x1_0 : (⟨S500000, .i32⟩ : BufTy).Contents (Elt F) → (⟨S500000x1, .i32⟩ : BufTy).Contents (Elt F)),
    StableHlo.unary main_v542 main_v544 (broadcastInDim S500000x1 ![0] bcast_S500000_S500000x1_0 : (⟨S500000, .i32⟩ : BufTy).Contents (Elt F) → (⟨S500000x1, .i32⟩ : BufTy).Contents (Elt F)),
    StableHlo.binary main_v543 main_v544 main_v545 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg11 main_v545 main_v546 ((fun x i => Host.gather gather_S8x256x256_S500000x2_S8x500000_0_12_n_n_12_1_811 x i) : (⟨S8x256x256, .f32⟩ : BufTy).Contents (Elt F) → (⟨S500000x2, .i32⟩ : BufTy).Contents (Elt F) → (⟨S8x500000, .f32⟩ : BufTy).Contents (Elt F)),
    StableHlo.nullary main_cst_174 (constant S_ .f32 0x3F800000#32),
    StableHlo.unary main_cst_174 main_v547 (broadcastInDim S500000 ![] bcast_S_S500000 : (⟨S_, .f32⟩ : BufTy).Contents (Elt F) → (⟨S500000, .f32⟩ : BufTy).Contents (Elt F)),
    StableHlo.binary main_v547 main_v480 main_v548 (subf : (⟨S500000, .f32⟩ : BufTy).Contents (Elt F) → (⟨S500000, .f32⟩ : BufTy).Contents (Elt F) → (⟨S500000, .f32⟩ : BufTy).Contents (Elt F)),
    StableHlo.unary main_v548 main_v549 (broadcastInDim S1x500000 ![1] bcast_S500000_S1x500000_1 : (⟨S500000, .f32⟩ : BufTy).Contents (Elt F) → (⟨S1x500000, .f32⟩ : BufTy).Contents (Elt F)),
    StableHlo.unary main_v549 main_v550 (broadcastInDim S8x500000 ![0, 1] bcast_S1x500000_S8x500000_0_1 : (⟨S1x500000, .f32⟩ : BufTy).Contents (Elt F) → (⟨S8x500000, .f32⟩ : BufTy).Contents (Elt F)),
    StableHlo.binary main_v504 main_v550 main_v551 (mulf : (⟨S8x500000, .f32⟩ : BufTy).Contents (Elt F) → (⟨S8x500000, .f32⟩ : BufTy).Contents (Elt F) → (⟨S8x500000, .f32⟩ : BufTy).Contents (Elt F)),
    StableHlo.unary main_v480 main_v552 (broadcastInDim S1x500000 ![1] bcast_S500000_S1x500000_1 : (⟨S500000, .f32⟩ : BufTy).Contents (Elt F) → (⟨S1x500000, .f32⟩ : BufTy).Contents (Elt F)),
    StableHlo.unary main_v552 main_v553 (broadcastInDim S8x500000 ![0, 1] bcast_S1x500000_S8x500000_0_1 : (⟨S1x500000, .f32⟩ : BufTy).Contents (Elt F) → (⟨S8x500000, .f32⟩ : BufTy).Contents (Elt F)),
    StableHlo.binary main_v518 main_v553 main_v554 (mulf : (⟨S8x500000, .f32⟩ : BufTy).Contents (Elt F) → (⟨S8x500000, .f32⟩ : BufTy).Contents (Elt F) → (⟨S8x500000, .f32⟩ : BufTy).Contents (Elt F)),
    StableHlo.binary main_v551 main_v554 main_v555 (addf : (⟨S8x500000, .f32⟩ : BufTy).Contents (Elt F) → (⟨S8x500000, .f32⟩ : BufTy).Contents (Elt F) → (⟨S8x500000, .f32⟩ : BufTy).Contents (Elt F)),
    StableHlo.nullary main_cst_175 (constant S_ .f32 0x3F800000#32),
    StableHlo.unary main_cst_175 main_v556 (broadcastInDim S500000 ![] bcast_S_S500000 : (⟨S_, .f32⟩ : BufTy).Contents (Elt F) → (⟨S500000, .f32⟩ : BufTy).Contents (Elt F)),
    StableHlo.binary main_v556 main_v480 main_v557 (subf : (⟨S500000, .f32⟩ : BufTy).Contents (Elt F) → (⟨S500000, .f32⟩ : BufTy).Contents (Elt F) → (⟨S500000, .f32⟩ : BufTy).Contents (Elt F)),
    StableHlo.unary main_v557 main_v558 (broadcastInDim S1x500000 ![1] bcast_S500000_S1x500000_1 : (⟨S500000, .f32⟩ : BufTy).Contents (Elt F) → (⟨S1x500000, .f32⟩ : BufTy).Contents (Elt F)),
    StableHlo.unary main_v558 main_v559 (broadcastInDim S8x500000 ![0, 1] bcast_S1x500000_S8x500000_0_1 : (⟨S1x500000, .f32⟩ : BufTy).Contents (Elt F) → (⟨S8x500000, .f32⟩ : BufTy).Contents (Elt F)),
    StableHlo.binary main_v532 main_v559 main_v560 (mulf : (⟨S8x500000, .f32⟩ : BufTy).Contents (Elt F) → (⟨S8x500000, .f32⟩ : BufTy).Contents (Elt F) → (⟨S8x500000, .f32⟩ : BufTy).Contents (Elt F)),
    StableHlo.unary main_v480 main_v561 (broadcastInDim S1x500000 ![1] bcast_S500000_S1x500000_1 : (⟨S500000, .f32⟩ : BufTy).Contents (Elt F) → (⟨S1x500000, .f32⟩ : BufTy).Contents (Elt F)),
    StableHlo.unary main_v561 main_v562 (broadcastInDim S8x500000 ![0, 1] bcast_S1x500000_S8x500000_0_1 : (⟨S1x500000, .f32⟩ : BufTy).Contents (Elt F) → (⟨S8x500000, .f32⟩ : BufTy).Contents (Elt F)),
    StableHlo.binary main_v546 main_v562 main_v563 (mulf : (⟨S8x500000, .f32⟩ : BufTy).Contents (Elt F) → (⟨S8x500000, .f32⟩ : BufTy).Contents (Elt F) → (⟨S8x500000, .f32⟩ : BufTy).Contents (Elt F)),
    StableHlo.binary main_v560 main_v563 main_v564 (addf : (⟨S8x500000, .f32⟩ : BufTy).Contents (Elt F) → (⟨S8x500000, .f32⟩ : BufTy).Contents (Elt F) → (⟨S8x500000, .f32⟩ : BufTy).Contents (Elt F)),
    StableHlo.nullary main_cst_176 (constant S_ .f32 0x3F800000#32),
    StableHlo.unary main_cst_176 main_v565 (broadcastInDim S500000 ![] bcast_S_S500000 : (⟨S_, .f32⟩ : BufTy).Contents (Elt F) → (⟨S500000, .f32⟩ : BufTy).Contents (Elt F)),
    StableHlo.binary main_v565 main_v482 main_v566 (subf : (⟨S500000, .f32⟩ : BufTy).Contents (Elt F) → (⟨S500000, .f32⟩ : BufTy).Contents (Elt F) → (⟨S500000, .f32⟩ : BufTy).Contents (Elt F)),
    StableHlo.unary main_v566 main_v567 (broadcastInDim S1x500000 ![1] bcast_S500000_S1x500000_1 : (⟨S500000, .f32⟩ : BufTy).Contents (Elt F) → (⟨S1x500000, .f32⟩ : BufTy).Contents (Elt F)),
    StableHlo.unary main_v567 main_v568 (broadcastInDim S8x500000 ![0, 1] bcast_S1x500000_S8x500000_0_1 : (⟨S1x500000, .f32⟩ : BufTy).Contents (Elt F) → (⟨S8x500000, .f32⟩ : BufTy).Contents (Elt F)),
    StableHlo.binary main_v555 main_v568 main_v569 (mulf : (⟨S8x500000, .f32⟩ : BufTy).Contents (Elt F) → (⟨S8x500000, .f32⟩ : BufTy).Contents (Elt F) → (⟨S8x500000, .f32⟩ : BufTy).Contents (Elt F)),
    StableHlo.unary main_v482 main_v570 (broadcastInDim S1x500000 ![1] bcast_S500000_S1x500000_1 : (⟨S500000, .f32⟩ : BufTy).Contents (Elt F) → (⟨S1x500000, .f32⟩ : BufTy).Contents (Elt F)),
    StableHlo.unary main_v570 main_v571 (broadcastInDim S8x500000 ![0, 1] bcast_S1x500000_S8x500000_0_1 : (⟨S1x500000, .f32⟩ : BufTy).Contents (Elt F) → (⟨S8x500000, .f32⟩ : BufTy).Contents (Elt F)),
    StableHlo.binary main_v564 main_v571 main_v572 (mulf : (⟨S8x500000, .f32⟩ : BufTy).Contents (Elt F) → (⟨S8x500000, .f32⟩ : BufTy).Contents (Elt F) → (⟨S8x500000, .f32⟩ : BufTy).Contents (Elt F)),
    StableHlo.binary main_v569 main_v572 main_v573 (addf : (⟨S8x500000, .f32⟩ : BufTy).Contents (Elt F) → (⟨S8x500000, .f32⟩ : BufTy).Contents (Elt F) → (⟨S8x500000, .f32⟩ : BufTy).Contents (Elt F)),
    StableHlo.unary main_v573 main_v574 ((transpose S500000x8 [1, 0] · transposes_S8x500000_S500000x8_1_0) : (⟨S8x500000, .f32⟩ : BufTy).Contents (Elt F) → (⟨S500000x8, .f32⟩ : BufTy).Contents (Elt F)) ]

/-- Operations 854 … 1020 (167): level 1, plane yz. -/
abbrev opsB1c : List (HloOp τ sig (Elt F)) :=
  [ StableHlo.nullary main_cst_177 (constant S_ .f32 0x3F800000#32),
    StableHlo.unary main_cst_177 main_v575 (broadcastInDim S500000 ![] bcast_S_S500000 : (⟨S_, .f32⟩ : BufTy).Contents (Elt F) → (⟨S500000, .f32⟩ : BufTy).Contents (Elt F)),
    StableHlo.binary main_v13 main_v575 main_v576 (addf : (⟨S500000, .f32⟩ : BufTy).Contents (Elt F) → (⟨S500000, .f32⟩ : BufTy).Contents (Elt F) → (⟨S500000, .f32⟩ : BufTy).Contents (Elt F)),
    StableHlo.nullary main_cst_178 (constant S_ .f32 0x3F000000#32),
    StableHlo.unary main_cst_178 main_v577 (broadcastInDim S500000 ![] bcast_S_S500000 : (⟨S_, .f32⟩ : BufTy).Contents (Elt F) → (⟨S500000, .f32⟩ : BufTy).Contents (Elt F)),
    StableHlo.binary main_v576 main_v577 main_v578 (mulf : (⟨S500000, .f32⟩ : BufTy).Contents (Elt F) → (⟨S500000, .f32⟩ : BufTy).Contents (Elt F) → (⟨S500000, .f32⟩ : BufTy).Contents (Elt F)),
    StableHlo.nullary main_cst_179 (constant S_ .f32 0x437F0000#32),
    StableHlo.unary main_cst_179 main_v579 (broadcastInDim S500000 ![] bcast_S_S500000 : (⟨S_, .f32⟩ : BufTy).Contents (Elt F) → (⟨S500000, .f32⟩ : BufTy).Contents (Elt F)),
    StableHlo.binary main_v578 main_v579 main_v580 (mulf : (⟨S500000, .f32⟩ : BufTy).Contents (Elt F) → (⟨S500000, .f32⟩ : BufTy).Contents (Elt F) → (⟨S500000, .f32⟩ : BufTy).Contents (Elt F)),
    StableHlo.nullary main_cst_180 (constant S_ .f32 0x3F800000#32),
    StableHlo.unary main_cst_180 main_v581 (broadcastInDim S500000 ![] bcast_S_S500000 : (⟨S_, .f32⟩ : BufTy).Contents (Elt F) → (⟨S500000, .f32⟩ : BufTy).Contents (Elt F)),
    StableHlo.binary main_v11 main_v581 main_v582 (addf : (⟨S500000, .f32⟩ : BufTy).Contents (Elt F) → (⟨S500000, .f32⟩ : BufTy).Contents (Elt F) → (⟨S500000, .f32⟩ : BufTy).Contents (Elt F)),
    StableHlo.nullary main_cst_181 (constant S_ .f32 0x3F000000#32),
    StableHlo.unary main_cst_181 main_v583 (broadcastInDim S500000 ![] bcast_S_S500000 : (⟨S_, .f32⟩ : BufTy).Contents (Elt F) → (⟨S500000, .f32⟩ : BufTy).Contents (Elt F)),
    StableHlo.binary main_v582 main_v583 main_v584 (mulf : (⟨S500000, .f32⟩ : BufTy).Contents (Elt F) → (⟨S500000, .f32⟩ : BufTy).Contents (Elt F) → (⟨S500000, .f32⟩ : BufTy).Contents (Elt F)),
    StableHlo.nullary main_cst_182 (constant S_ .f32 0x437F0000#32),
    StableHlo.unary main_cst_182 main_v585 (broadcastInDim S500000 ![] bcast_S_S500000 : (⟨S_, .f32⟩ : BufTy).Contents (Elt F) → (⟨S500000, .f32⟩ : BufTy).Contents (Elt F)),
    StableHlo.binary main_v584 main_v585 main_v586 (mulf : (⟨S500000, .f32⟩ : BufTy).Contents (Elt F) → (⟨S500000, .f32⟩ : BufTy).Contents (Elt F) → (⟨S500000, .f32⟩ : BufTy).Contents (Elt F)),
    StableHlo.unary main_v580 main_v587 (Host.floor : (⟨S500000, .f32⟩ : BufTy).Contents (Elt F) → (⟨S500000, .f32⟩ : BufTy).Contents (Elt F)),
    StableHlo.unary main_v587 main_v588 (fptosi 32 : (⟨S500000, .f32⟩ : BufTy).Contents (Elt F) → (⟨S500000, .i32⟩ : BufTy).Contents (Elt F)),
    StableHlo.unary main_v586 main_v589 (Host.floor : (⟨S500000, .f32⟩ : BufTy).Contents (Elt F) → (⟨S500000, .f32⟩ : BufTy).Contents (Elt F)),
    StableHlo.unary main_v589 main_v590 (fptosi 32 : (⟨S500000, .f32⟩ : BufTy).Contents (Elt F) → (⟨S500000, .i32⟩ : BufTy).Contents (Elt F)),
    StableHlo.unary main_v588 main_v591 (sitofp .f32 : (⟨S500000, .i32⟩ : BufTy).Contents (Elt F) → (⟨S500000, .f32⟩ : BufTy).Contents (Elt F)),
    StableHlo.binary main_v580 main_v591 main_v592 (subf : (⟨S500000, .f32⟩ : BufTy).Contents (Elt F) → (⟨S500000, .f32⟩ : BufTy).Contents (Elt F) → (⟨S500000, .f32⟩ : BufTy).Contents (Elt F)),
    StableHlo.unary main_v590 main_v593 (sitofp .f32 : (⟨S500000, .i32⟩ : BufTy).Contents (Elt F) → (⟨S500000, .f32⟩ : BufTy).Contents (Elt F)),
    StableHlo.binary main_v586 main_v593 main_v594 (subf : (⟨S500000, .f32⟩ : BufTy).Contents (Elt F) → (⟨S500000, .f32⟩ : BufTy).Contents (Elt F) → (⟨S500000, .f32⟩ : BufTy).Contents (Elt F)),
    StableHlo.nullary main_c_183 (constantI S_ 32 0#32),
    StableHlo.nullary main_c_184 (constantI S_ 32 255#32),
    StableHlo.TRef.unary (.of main_c_183 : StableHlo.TRef sig ⟨S_, .i32⟩) (.of main_call20_v0 : StableHlo.TRef sig ⟨S_, .i32⟩) id,
    StableHlo.TRef.unary (.of main_call20_v0 : StableHlo.TRef sig ⟨S_, .i32⟩) (.of main_call20_v1 : StableHlo.TRef sig ⟨S500000, .i32⟩) (broadcastInDim S500000 ![] bcast_S_S500000),
    StableHlo.TRef.binary (.of main_call20_v1 : StableHlo.TRef sig ⟨S500000, .i32⟩) (.of main_v588 : StableHlo.TRef sig ⟨S500000, .i32⟩) (.of main_call20_v2 : StableHlo.TRef sig ⟨S500000, .i32⟩) maxsi,
    StableHlo.TRef.unary (.of main_c_184 : StableHlo.TRef sig ⟨S_, .i32⟩) (.of main_call20_v3 : StableHlo.TRef sig ⟨S_, .i32⟩) id,
    StableHlo.TRef.unary (.of main_call20_v3 : StableHlo.TRef sig ⟨S_, .i32⟩) (.of main_call20_v4 : StableHlo.TRef sig ⟨S500000, .i32⟩) (broadcastInDim S500000 ![] bcast_S_S500000),
    StableHlo.TRef.binary (.of main_call20_v4 : StableHlo.TRef sig ⟨S500000, .i32⟩) (.of main_call20_v2 : StableHlo.TRef sig ⟨S500000, .i32⟩) (.of main_v595 : StableHlo.TRef sig ⟨S500000, .i32⟩) minsi,
    StableHlo.nullary main_c_185 (constantI S_ 32 1#32),
    StableHlo.unary main_c_185 main_v596 (broadcastInDim S500000 ![] bcast_S_S500000 : (⟨S_, .i32⟩ : BufTy).Contents (Elt F) → (⟨S500000, .i32⟩ : BufTy).Contents (Elt F)),
    StableHlo.binary main_v588 main_v596 main_v597 (addi : (⟨S500000, .i32⟩ : BufTy).Contents (Elt F) → (⟨S500000, .i32⟩ : BufTy).Contents (Elt F) → (⟨S500000, .i32⟩ : BufTy).Contents (Elt F)),
    StableHlo.nullary main_c_186 (constantI S_ 32 0#32),
    StableHlo.nullary main_c_187 (constantI S_ 32 255#32),
    StableHlo.TRef.unary (.of main_c_186 : StableHlo.TRef sig ⟨S_, .i32⟩) (.of main_call21_v0 : StableHlo.TRef sig ⟨S_, .i32⟩) id,
    StableHlo.TRef.unary (.of main_call21_v0 : StableHlo.TRef sig ⟨S_, .i32⟩) (.of main_call21_v1 : StableHlo.TRef sig ⟨S500000, .i32⟩) (broadcastInDim S500000 ![] bcast_S_S500000),
    StableHlo.TRef.binary (.of main_call21_v1 : StableHlo.TRef sig ⟨S500000, .i32⟩) (.of main_v597 : StableHlo.TRef sig ⟨S500000, .i32⟩) (.of main_call21_v2 : StableHlo.TRef sig ⟨S500000, .i32⟩) maxsi,
    StableHlo.TRef.unary (.of main_c_187 : StableHlo.TRef sig ⟨S_, .i32⟩) (.of main_call21_v3 : StableHlo.TRef sig ⟨S_, .i32⟩) id,
    StableHlo.TRef.unary (.of main_call21_v3 : StableHlo.TRef sig ⟨S_, .i32⟩) (.of main_call21_v4 : StableHlo.TRef sig ⟨S500000, .i32⟩) (broadcastInDim S500000 ![] bcast_S_S500000),
    StableHlo.TRef.binary (.of main_call21_v4 : StableHlo.TRef sig ⟨S500000, .i32⟩) (.of main_call21_v2 : StableHlo.TRef sig ⟨S500000, .i32⟩) (.of main_v598 : StableHlo.TRef sig ⟨S500000, .i32⟩) minsi,
    StableHlo.nullary main_c_188 (constantI S_ 32 0#32),
    StableHlo.nullary main_c_189 (constantI S_ 32 255#32),
    StableHlo.TRef.unary (.of main_c_188 : StableHlo.TRef sig ⟨S_, .i32⟩) (.of main_call22_v0 : StableHlo.TRef sig ⟨S_, .i32⟩) id,
    StableHlo.TRef.unary (.of main_call22_v0 : StableHlo.TRef sig ⟨S_, .i32⟩) (.of main_call22_v1 : StableHlo.TRef sig ⟨S500000, .i32⟩) (broadcastInDim S500000 ![] bcast_S_S500000),
    StableHlo.TRef.binary (.of main_call22_v1 : StableHlo.TRef sig ⟨S500000, .i32⟩) (.of main_v590 : StableHlo.TRef sig ⟨S500000, .i32⟩) (.of main_call22_v2 : StableHlo.TRef sig ⟨S500000, .i32⟩) maxsi,
    StableHlo.TRef.unary (.of main_c_189 : StableHlo.TRef sig ⟨S_, .i32⟩) (.of main_call22_v3 : StableHlo.TRef sig ⟨S_, .i32⟩) id,
    StableHlo.TRef.unary (.of main_call22_v3 : StableHlo.TRef sig ⟨S_, .i32⟩) (.of main_call22_v4 : StableHlo.TRef sig ⟨S500000, .i32⟩) (broadcastInDim S500000 ![] bcast_S_S500000),
    StableHlo.TRef.binary (.of main_call22_v4 : StableHlo.TRef sig ⟨S500000, .i32⟩) (.of main_call22_v2 : StableHlo.TRef sig ⟨S500000, .i32⟩) (.of main_v599 : StableHlo.TRef sig ⟨S500000, .i32⟩) minsi,
    StableHlo.nullary main_c_190 (constantI S_ 32 1#32),
    StableHlo.unary main_c_190 main_v600 (broadcastInDim S500000 ![] bcast_S_S500000 : (⟨S_, .i32⟩ : BufTy).Contents (Elt F) → (⟨S500000, .i32⟩ : BufTy).Contents (Elt F)),
    StableHlo.binary main_v590 main_v600 main_v601 (addi : (⟨S500000, .i32⟩ : BufTy).Contents (Elt F) → (⟨S500000, .i32⟩ : BufTy).Contents (Elt F) → (⟨S500000, .i32⟩ : BufTy).Contents (Elt F)),
    StableHlo.nullary main_c_191 (constantI S_ 32 0#32),
    StableHlo.nullary main_c_192 (constantI S_ 32 255#32),
    StableHlo.TRef.unary (.of main_c_191 : StableHlo.TRef sig ⟨S_, .i32⟩) (.of main_call23_v0 : StableHlo.TRef sig ⟨S_, .i32⟩) id,
    StableHlo.TRef.unary (.of main_call23_v0 : StableHlo.TRef sig ⟨S_, .i32⟩) (.of main_call23_v1 : StableHlo.TRef sig ⟨S500000, .i32⟩) (broadcastInDim S500000 ![] bcast_S_S500000),
    StableHlo.TRef.binary (.of main_call23_v1 : StableHlo.TRef sig ⟨S500000, .i32⟩) (.of main_v601 : StableHlo.TRef sig ⟨S500000, .i32⟩) (.of main_call23_v2 : StableHlo.TRef sig ⟨S500000, .i32⟩) maxsi,
    StableHlo.TRef.unary (.of main_c_192 : StableHlo.TRef sig ⟨S_, .i32⟩) (.of main_call23_v3 : StableHlo.TRef sig ⟨S_, .i32⟩) id,
    StableHlo.TRef.unary (.of main_call23_v3 : StableHlo.TRef sig ⟨S_, .i32⟩) (.of main_call23_v4 : StableHlo.TRef sig ⟨S500000, .i32⟩) (broadcastInDim S500000 ![] bcast_S_S500000),
    StableHlo.TRef.binary (.of main_call23_v4 : StableHlo.TRef sig ⟨S500000, .i32⟩) (.of main_call23_v2 : StableHlo.TRef sig ⟨S500000, .i32⟩) (.of main_v602 : StableHlo.TRef sig ⟨S500000, .i32⟩) minsi,
    StableHlo.nullary main_c_193 (constantI S_ 32 0#32),
    StableHlo.unary main_c_193 main_v603 (broadcastInDim S500000 ![] bcast_S_S500000 : (⟨S_, .i32⟩ : BufTy).Contents (Elt F) → (⟨S500000, .i32⟩ : BufTy).Contents (Elt F)),
    StableHlo.binary main_v599 main_v603 main_v604 (cmpi .slt : (⟨S500000, .i32⟩ : BufTy).Contents (Elt F) → (⟨S500000, .i32⟩ : BufTy).Contents (Elt F) → (⟨S500000, .i1⟩ : BufTy).Contents (Elt F)),
    StableHlo.nullary main_c_194 (constantI S_ 32 256#32),
    StableHlo.unary main_c_194 main_v605 (broadcastInDim S500000 ![] bcast_S_S500000 : (⟨S_, .i32⟩ : BufTy).Contents (Elt F) → (⟨S500000, .i32⟩ : BufTy).Contents (Elt F)),
    StableHlo.binary main_v599 main_v605 main_v606 (addi : (⟨S500000, .i32⟩ : BufTy).Contents (Elt F) → (⟨S500000, .i32⟩ : BufTy).Contents (Elt F) → (⟨S500000, .i32⟩ : BufTy).Contents (Elt F)),
    StableHlo.ternary main_v604 main_v606 main_v599 main_v607 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_195 (constantI S_ 32 0#32),
    StableHlo.unary main_c_195 main_v608 (broadcastInDim S500000 ![] bcast_S_S500000 : (⟨S_, .i32⟩ : BufTy).Contents (Elt F) → (⟨S500000, .i32⟩ : BufTy).Contents (Elt F)),
    StableHlo.binary main_v595 main_v608 main_v609 (cmpi .slt : (⟨S500000, .i32⟩ : BufTy).Contents (Elt F) → (⟨S500000, .i32⟩ : BufTy).Contents (Elt F) → (⟨S500000, .i1⟩ : BufTy).Contents (Elt F)),
    StableHlo.nullary main_c_196 (constantI S_ 32 256#32),
    StableHlo.unary main_c_196 main_v610 (broadcastInDim S500000 ![] bcast_S_S500000 : (⟨S_, .i32⟩ : BufTy).Contents (Elt F) → (⟨S500000, .i32⟩ : BufTy).Contents (Elt F)),
    StableHlo.binary main_v595 main_v610 main_v611 (addi : (⟨S500000, .i32⟩ : BufTy).Contents (Elt F) → (⟨S500000, .i32⟩ : BufTy).Contents (Elt F) → (⟨S500000, .i32⟩ : BufTy).Contents (Elt F)),
    StableHlo.ternary main_v609 main_v611 main_v595 main_v612 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v607 main_v613 (broadcastInDim S500000x1 ![0] bcast_S500000_S500000x1_0 : (⟨S500000, .i32⟩ : BufTy).Contents (Elt F) → (⟨S500000x1, .i32⟩ : BufTy).Contents (Elt F)),
    StableHlo.unary main_v612 main_v614 (broadcastInDim S500000x1 ![0] bcast_S500000_S500000x1_0 : (⟨S500000, .i32⟩ : BufTy).Contents (Elt F) → (⟨S500000x1, .i32⟩ : BufTy).Contents (Elt F)),
    StableHlo.binary main_v613 main_v614 main_v615 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg12 main_v615 main_v616 ((fun x i => Host.gather gather_S8x256x256_S500000x2_S8x500000_0_12_n_n_12_1_811 x i) : (⟨S8x256x256, .f32⟩ : BufTy).Contents (Elt F) → (⟨S500000x2, .i32⟩ : BufTy).Contents (Elt F) → (⟨S8x500000, .f32⟩ : BufTy).Contents (Elt F)),
    StableHlo.nullary main_c_197 (constantI S_ 32 0#32),
    StableHlo.unary main_c_197 main_v617 (broadcastInDim S500000 ![] bcast_S_S500000 : (⟨S_, .i32⟩ : BufTy).Contents (Elt F) → (⟨S500000, .i32⟩ : BufTy).Contents (Elt F)),
    StableHlo.binary main_v599 main_v617 main_v618 (cmpi .slt : (⟨S500000, .i32⟩ : BufTy).Contents (Elt F) → (⟨S500000, .i32⟩ : BufTy).Contents (Elt F) → (⟨S500000, .i1⟩ : BufTy).Contents (Elt F)),
    StableHlo.nullary main_c_198 (constantI S_ 32 256#32),
    StableHlo.unary main_c_198 main_v619 (broadcastInDim S500000 ![] bcast_S_S500000 : (⟨S_, .i32⟩ : BufTy).Contents (Elt F) → (⟨S500000, .i32⟩ : BufTy).Contents (Elt F)),
    StableHlo.binary main_v599 main_v619 main_v620 (addi : (⟨S500000, .i32⟩ : BufTy).Contents (Elt F) → (⟨S500000, .i32⟩ : BufTy).Contents (Elt F) → (⟨S500000, .i32⟩ : BufTy).Contents (Elt F)),
    StableHlo.ternary main_v618 main_v620 main_v599 main_v621 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_199 (constantI S_ 32 0#32),
    StableHlo.unary main_c_199 main_v622 (broadcastInDim S500000 ![] bcast_S_S500000 : (⟨S_, .i32⟩ : BufTy).Contents (Elt F) → (⟨S500000, .i32⟩ : BufTy).Contents (Elt F)),
    StableHlo.binary main_v598 main_v622 main_v623 (cmpi .slt : (⟨S500000, .i32⟩ : BufTy).Contents (Elt F) → (⟨S500000, .i32⟩ : BufTy).Contents (Elt F) → (⟨S500000, .i1⟩ : BufTy).Contents (Elt F)),
    StableHlo.nullary main_c_200 (constantI S_ 32 256#32),
    StableHlo.unary main_c_200 main_v624 (broadcastInDim S500000 ![] bcast_S_S500000 : (⟨S_, .i32⟩ : BufTy).Contents (Elt F) → (⟨S500000, .i32⟩ : BufTy).Contents (Elt F)),
    StableHlo.binary main_v598 main_v624 main_v625 (addi : (⟨S500000, .i32⟩ : BufTy).Contents (Elt F) → (⟨S500000, .i32⟩ : BufTy).Contents (Elt F) → (⟨S500000, .i32⟩ : BufTy).Contents (Elt F)),
    StableHlo.ternary main_v623 main_v625 main_v598 main_v626 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v621 main_v627 (broadcastInDim S500000x1 ![0] bcast_S500000_S500000x1_0 : (⟨S500000, .i32⟩ : BufTy).Contents (Elt F) → (⟨S500000x1, .i32⟩ : BufTy).Contents (Elt F)),
    StableHlo.unary main_v626 main_v628 (broadcastInDim S500000x1 ![0] bcast_S500000_S500000x1_0 : (⟨S500000, .i32⟩ : BufTy).Contents (Elt F) → (⟨S500000x1, .i32⟩ : BufTy).Contents (Elt F)),
    StableHlo.binary main_v627 main_v628 main_v629 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg12 main_v629 main_v630 ((fun x i => Host.gather gather_S8x256x256_S500000x2_S8x500000_0_12_n_n_12_1_811 x i) : (⟨S8x256x256, .f32⟩ : BufTy).Contents (Elt F) → (⟨S500000x2, .i32⟩ : BufTy).Contents (Elt F) → (⟨S8x500000, .f32⟩ : BufTy).Contents (Elt F)),
    StableHlo.nullary main_c_201 (constantI S_ 32 0#32),
    StableHlo.unary main_c_201 main_v631 (broadcastInDim S500000 ![] bcast_S_S500000 : (⟨S_, .i32⟩ : BufTy).Contents (Elt F) → (⟨S500000, .i32⟩ : BufTy).Contents (Elt F)),
    StableHlo.binary main_v602 main_v631 main_v632 (cmpi .slt : (⟨S500000, .i32⟩ : BufTy).Contents (Elt F) → (⟨S500000, .i32⟩ : BufTy).Contents (Elt F) → (⟨S500000, .i1⟩ : BufTy).Contents (Elt F)),
    StableHlo.nullary main_c_202 (constantI S_ 32 256#32),
    StableHlo.unary main_c_202 main_v633 (broadcastInDim S500000 ![] bcast_S_S500000 : (⟨S_, .i32⟩ : BufTy).Contents (Elt F) → (⟨S500000, .i32⟩ : BufTy).Contents (Elt F)),
    StableHlo.binary main_v602 main_v633 main_v634 (addi : (⟨S500000, .i32⟩ : BufTy).Contents (Elt F) → (⟨S500000, .i32⟩ : BufTy).Contents (Elt F) → (⟨S500000, .i32⟩ : BufTy).Contents (Elt F)),
    StableHlo.ternary main_v632 main_v634 main_v602 main_v635 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_203 (constantI S_ 32 0#32),
    StableHlo.unary main_c_203 main_v636 (broadcastInDim S500000 ![] bcast_S_S500000 : (⟨S_, .i32⟩ : BufTy).Contents (Elt F) → (⟨S500000, .i32⟩ : BufTy).Contents (Elt F)),
    StableHlo.binary main_v595 main_v636 main_v637 (cmpi .slt : (⟨S500000, .i32⟩ : BufTy).Contents (Elt F) → (⟨S500000, .i32⟩ : BufTy).Contents (Elt F) → (⟨S500000, .i1⟩ : BufTy).Contents (Elt F)),
    StableHlo.nullary main_c_204 (constantI S_ 32 256#32),
    StableHlo.unary main_c_204 main_v638 (broadcastInDim S500000 ![] bcast_S_S500000 : (⟨S_, .i32⟩ : BufTy).Contents (Elt F) → (⟨S500000, .i32⟩ : BufTy).Contents (Elt F)),
    StableHlo.binary main_v595 main_v638 main_v639 (addi : (⟨S500000, .i32⟩ : BufTy).Contents (Elt F) → (⟨S500000, .i32⟩ : BufTy).Contents (Elt F) → (⟨S500000, .i32⟩ : BufTy).Contents (Elt F)),
    StableHlo.ternary main_v637 main_v639 main_v595 main_v640 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v635 main_v641 (broadcastInDim S500000x1 ![0] bcast_S500000_S500000x1_0 : (⟨S500000, .i32⟩ : BufTy).Contents (Elt F) → (⟨S500000x1, .i32⟩ : BufTy).Contents (Elt F)),
    StableHlo.unary main_v640 main_v642 (broadcastInDim S500000x1 ![0] bcast_S500000_S500000x1_0 : (⟨S500000, .i32⟩ : BufTy).Contents (Elt F) → (⟨S500000x1, .i32⟩ : BufTy).Contents (Elt F)),
    StableHlo.binary main_v641 main_v642 main_v643 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg12 main_v643 main_v644 ((fun x i => Host.gather gather_S8x256x256_S500000x2_S8x500000_0_12_n_n_12_1_811 x i) : (⟨S8x256x256, .f32⟩ : BufTy).Contents (Elt F) → (⟨S500000x2, .i32⟩ : BufTy).Contents (Elt F) → (⟨S8x500000, .f32⟩ : BufTy).Contents (Elt F)),
    StableHlo.nullary main_c_205 (constantI S_ 32 0#32),
    StableHlo.unary main_c_205 main_v645 (broadcastInDim S500000 ![] bcast_S_S500000 : (⟨S_, .i32⟩ : BufTy).Contents (Elt F) → (⟨S500000, .i32⟩ : BufTy).Contents (Elt F)),
    StableHlo.binary main_v602 main_v645 main_v646 (cmpi .slt : (⟨S500000, .i32⟩ : BufTy).Contents (Elt F) → (⟨S500000, .i32⟩ : BufTy).Contents (Elt F) → (⟨S500000, .i1⟩ : BufTy).Contents (Elt F)),
    StableHlo.nullary main_c_206 (constantI S_ 32 256#32),
    StableHlo.unary main_c_206 main_v647 (broadcastInDim S500000 ![] bcast_S_S500000 : (⟨S_, .i32⟩ : BufTy).Contents (Elt F) → (⟨S500000, .i32⟩ : BufTy).Contents (Elt F)),
    StableHlo.binary main_v602 main_v647 main_v648 (addi : (⟨S500000, .i32⟩ : BufTy).Contents (Elt F) → (⟨S500000, .i32⟩ : BufTy).Contents (Elt F) → (⟨S500000, .i32⟩ : BufTy).Contents (Elt F)),
    StableHlo.ternary main_v646 main_v648 main_v602 main_v649 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_207 (constantI S_ 32 0#32),
    StableHlo.unary main_c_207 main_v650 (broadcastInDim S500000 ![] bcast_S_S500000 : (⟨S_, .i32⟩ : BufTy).Contents (Elt F) → (⟨S500000, .i32⟩ : BufTy).Contents (Elt F)),
    StableHlo.binary main_v598 main_v650 main_v651 (cmpi .slt : (⟨S500000, .i32⟩ : BufTy).Contents (Elt F) → (⟨S500000, .i32⟩ : BufTy).Contents (Elt F) → (⟨S500000, .i1⟩ : BufTy).Contents (Elt F)),
    StableHlo.nullary main_c_208 (constantI S_ 32 256#32),
    StableHlo.unary main_c_208 main_v652 (broadcastInDim S500000 ![] bcast_S_S500000 : (⟨S_, .i32⟩ : BufTy).Contents (Elt F) → (⟨S500000, .i32⟩ : BufTy).Contents (Elt F)),
    StableHlo.binary main_v598 main_v652 main_v653 (addi : (⟨S500000, .i32⟩ : BufTy).Contents (Elt F) → (⟨S500000, .i32⟩ : BufTy).Contents (Elt F) → (⟨S500000, .i32⟩ : BufTy).Contents (Elt F)),
    StableHlo.ternary main_v651 main_v653 main_v598 main_v654 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v649 main_v655 (broadcastInDim S500000x1 ![0] bcast_S500000_S500000x1_0 : (⟨S500000, .i32⟩ : BufTy).Contents (Elt F) → (⟨S500000x1, .i32⟩ : BufTy).Contents (Elt F)),
    StableHlo.unary main_v654 main_v656 (broadcastInDim S500000x1 ![0] bcast_S500000_S500000x1_0 : (⟨S500000, .i32⟩ : BufTy).Contents (Elt F) → (⟨S500000x1, .i32⟩ : BufTy).Contents (Elt F)),
    StableHlo.binary main_v655 main_v656 main_v657 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg12 main_v657 main_v658 ((fun x i => Host.gather gather_S8x256x256_S500000x2_S8x500000_0_12_n_n_12_1_811 x i) : (⟨S8x256x256, .f32⟩ : BufTy).Contents (Elt F) → (⟨S500000x2, .i32⟩ : BufTy).Contents (Elt F) → (⟨S8x500000, .f32⟩ : BufTy).Contents (Elt F)),
    StableHlo.nullary main_cst_209 (constant S_ .f32 0x3F800000#32),
    StableHlo.unary main_cst_209 main_v659 (broadcastInDim S500000 ![] bcast_S_S500000 : (⟨S_, .f32⟩ : BufTy).Contents (Elt F) → (⟨S500000, .f32⟩ : BufTy).Contents (Elt F)),
    StableHlo.binary main_v659 main_v592 main_v660 (subf : (⟨S500000, .f32⟩ : BufTy).Contents (Elt F) → (⟨S500000, .f32⟩ : BufTy).Contents (Elt F) → (⟨S500000, .f32⟩ : BufTy).Contents (Elt F)),
    StableHlo.unary main_v660 main_v661 (broadcastInDim S1x500000 ![1] bcast_S500000_S1x500000_1 : (⟨S500000, .f32⟩ : BufTy).Contents (Elt F) → (⟨S1x500000, .f32⟩ : BufTy).Contents (Elt F)),
    StableHlo.unary main_v661 main_v662 (broadcastInDim S8x500000 ![0, 1] bcast_S1x500000_S8x500000_0_1 : (⟨S1x500000, .f32⟩ : BufTy).Contents (Elt F) → (⟨S8x500000, .f32⟩ : BufTy).Contents (Elt F)),
    StableHlo.binary main_v616 main_v662 main_v663 (mulf : (⟨S8x500000, .f32⟩ : BufTy).Contents (Elt F) → (⟨S8x500000, .f32⟩ : BufTy).Contents (Elt F) → (⟨S8x500000, .f32⟩ : BufTy).Contents (Elt F)),
    StableHlo.unary main_v592 main_v664 (broadcastInDim S1x500000 ![1] bcast_S500000_S1x500000_1 : (⟨S500000, .f32⟩ : BufTy).Contents (Elt F) → (⟨S1x500000, .f32⟩ : BufTy).Contents (Elt F)),
    StableHlo.unary main_v664 main_v665 (broadcastInDim S8x500000 ![0, 1] bcast_S1x500000_S8x500000_0_1 : (⟨S1x500000, .f32⟩ : BufTy).Contents (Elt F) → (⟨S8x500000, .f32⟩ : BufTy).Contents (Elt F)),
    StableHlo.binary main_v630 main_v665 main_v666 (mulf : (⟨S8x500000, .f32⟩ : BufTy).Contents (Elt F) → (⟨S8x500000, .f32⟩ : BufTy).Contents (Elt F) → (⟨S8x500000, .f32⟩ : BufTy).Contents (Elt F)),
    StableHlo.binary main_v663 main_v666 main_v667 (addf : (⟨S8x500000, .f32⟩ : BufTy).Contents (Elt F) → (⟨S8x500000, .f32⟩ : BufTy).Contents (Elt F) → (⟨S8x500000, .f32⟩ : BufTy).Contents (Elt F)),
    StableHlo.nullary main_cst_210 (constant S_ .f32 0x3F800000#32),
    StableHlo.unary main_cst_210 main_v668 (broadcastInDim S500000 ![] bcast_S_S500000 : (⟨S_, .f32⟩ : BufTy).Contents (Elt F) → (⟨S500000, .f32⟩ : BufTy).Contents (Elt F)),
    StableHlo.binary main_v668 main_v592 main_v669 (subf : (⟨S500000, .f32⟩ : BufTy).Contents (Elt F) → (⟨S500000, .f32⟩ : BufTy).Contents (Elt F) → (⟨S500000, .f32⟩ : BufTy).Contents (Elt F)),
    StableHlo.unary main_v669 main_v670 (broadcastInDim S1x500000 ![1] bcast_S500000_S1x500000_1 : (⟨S500000, .f32⟩ : BufTy).Contents (Elt F) → (⟨S1x500000, .f32⟩ : BufTy).Contents (Elt F)),
    StableHlo.unary main_v670 main_v671 (broadcastInDim S8x500000 ![0, 1] bcast_S1x500000_S8x500000_0_1 : (⟨S1x500000, .f32⟩ : BufTy).Contents (Elt F) → (⟨S8x500000, .f32⟩ : BufTy).Contents (Elt F)),
    StableHlo.binary main_v644 main_v671 main_v672 (mulf : (⟨S8x500000, .f32⟩ : BufTy).Contents (Elt F) → (⟨S8x500000, .f32⟩ : BufTy).Contents (Elt F) → (⟨S8x500000, .f32⟩ : BufTy).Contents (Elt F)),
    StableHlo.unary main_v592 main_v673 (broadcastInDim S1x500000 ![1] bcast_S500000_S1x500000_1 : (⟨S500000, .f32⟩ : BufTy).Contents (Elt F) → (⟨S1x500000, .f32⟩ : BufTy).Contents (Elt F)),
    StableHlo.unary main_v673 main_v674 (broadcastInDim S8x500000 ![0, 1] bcast_S1x500000_S8x500000_0_1 : (⟨S1x500000, .f32⟩ : BufTy).Contents (Elt F) → (⟨S8x500000, .f32⟩ : BufTy).Contents (Elt F)),
    StableHlo.binary main_v658 main_v674 main_v675 (mulf : (⟨S8x500000, .f32⟩ : BufTy).Contents (Elt F) → (⟨S8x500000, .f32⟩ : BufTy).Contents (Elt F) → (⟨S8x500000, .f32⟩ : BufTy).Contents (Elt F)),
    StableHlo.binary main_v672 main_v675 main_v676 (addf : (⟨S8x500000, .f32⟩ : BufTy).Contents (Elt F) → (⟨S8x500000, .f32⟩ : BufTy).Contents (Elt F) → (⟨S8x500000, .f32⟩ : BufTy).Contents (Elt F)),
    StableHlo.nullary main_cst_211 (constant S_ .f32 0x3F800000#32),
    StableHlo.unary main_cst_211 main_v677 (broadcastInDim S500000 ![] bcast_S_S500000 : (⟨S_, .f32⟩ : BufTy).Contents (Elt F) → (⟨S500000, .f32⟩ : BufTy).Contents (Elt F)),
    StableHlo.binary main_v677 main_v594 main_v678 (subf : (⟨S500000, .f32⟩ : BufTy).Contents (Elt F) → (⟨S500000, .f32⟩ : BufTy).Contents (Elt F) → (⟨S500000, .f32⟩ : BufTy).Contents (Elt F)),
    StableHlo.unary main_v678 main_v679 (broadcastInDim S1x500000 ![1] bcast_S500000_S1x500000_1 : (⟨S500000, .f32⟩ : BufTy).Contents (Elt F) → (⟨S1x500000, .f32⟩ : BufTy).Contents (Elt F)),
    StableHlo.unary main_v679 main_v680 (broadcastInDim S8x500000 ![0, 1] bcast_S1x500000_S8x500000_0_1 : (⟨S1x500000, .f32⟩ : BufTy).Contents (Elt F) → (⟨S8x500000, .f32⟩ : BufTy).Contents (Elt F)),
    StableHlo.binary main_v667 main_v680 main_v681 (mulf : (⟨S8x500000, .f32⟩ : BufTy).Contents (Elt F) → (⟨S8x500000, .f32⟩ : BufTy).Contents (Elt F) → (⟨S8x500000, .f32⟩ : BufTy).Contents (Elt F)),
    StableHlo.unary main_v594 main_v682 (broadcastInDim S1x500000 ![1] bcast_S500000_S1x500000_1 : (⟨S500000, .f32⟩ : BufTy).Contents (Elt F) → (⟨S1x500000, .f32⟩ : BufTy).Contents (Elt F)),
    StableHlo.unary main_v682 main_v683 (broadcastInDim S8x500000 ![0, 1] bcast_S1x500000_S8x500000_0_1 : (⟨S1x500000, .f32⟩ : BufTy).Contents (Elt F) → (⟨S8x500000, .f32⟩ : BufTy).Contents (Elt F)),
    StableHlo.binary main_v676 main_v683 main_v684 (mulf : (⟨S8x500000, .f32⟩ : BufTy).Contents (Elt F) → (⟨S8x500000, .f32⟩ : BufTy).Contents (Elt F) → (⟨S8x500000, .f32⟩ : BufTy).Contents (Elt F)),
    StableHlo.binary main_v681 main_v684 main_v685 (addf : (⟨S8x500000, .f32⟩ : BufTy).Contents (Elt F) → (⟨S8x500000, .f32⟩ : BufTy).Contents (Elt F) → (⟨S8x500000, .f32⟩ : BufTy).Contents (Elt F)),
    StableHlo.unary main_v685 main_v686 ((transpose S500000x8 [1, 0] · transposes_S8x500000_S500000x8_1_0) : (⟨S8x500000, .f32⟩ : BufTy).Contents (Elt F) → (⟨S500000x8, .f32⟩ : BufTy).Contents (Elt F)) ]

/-- Operations 1021 … 1021 (1): level 1's three samplings side by side. -/
abbrev opsCat1 : List (HloOp τ sig (Elt F)) :=
  [ StableHlo.nary ![main_v462, main_v574, main_v686] main_v687 (fun u => concatenate S500000x24 1 [⟨S500000x8, u 0⟩, ⟨S500000x8, u 1⟩, ⟨S500000x8, u 2⟩] concatenates_S500000x8_S500000x8_S500000x8_S500000x24_d1) ]

/-- Operations 1022 … 1188 (167): level 2, plane xy. -/
abbrev opsB2a : List (HloOp τ sig (Elt F)) :=
  [ StableHlo.nullary main_cst_212 (constant S_ .f32 0x3F800000#32),
    StableHlo.unary main_cst_212 main_v688 (broadcastInDim S500000 ![] bcast_S_S500000 : (⟨S_, .f32⟩ : BufTy).Contents (Elt F) → (⟨S500000, .f32⟩ : BufTy).Contents (Elt F)),
    StableHlo.binary main_v11 main_v688 main_v689 (addf : (⟨S500000, .f32⟩ : BufTy).Contents (Elt F) → (⟨S500000, .f32⟩ : BufTy).Contents (Elt F) → (⟨S500000, .f32⟩ : BufTy).Contents (Elt F)),
    StableHlo.nullary main_cst_213 (constant S_ .f32 0x3F000000#32),
    StableHlo.unary main_cst_213 main_v690 (broadcastInDim S500000 ![] bcast_S_S500000 : (⟨S_, .f32⟩ : BufTy).Contents (Elt F) → (⟨S500000, .f32⟩ : BufTy).Contents (Elt F)),
    StableHlo.binary main_v689 main_v690 main_v691 (mulf : (⟨S500000, .f32⟩ : BufTy).Contents (Elt F) → (⟨S500000, .f32⟩ : BufTy).Contents (Elt F) → (⟨S500000, .f32⟩ : BufTy).Contents (Elt F)),
    StableHlo.nullary main_cst_214 (constant S_ .f32 0x43FF8000#32),
    StableHlo.unary main_cst_214 main_v692 (broadcastInDim S500000 ![] bcast_S_S500000 : (⟨S_, .f32⟩ : BufTy).Contents (Elt F) → (⟨S500000, .f32⟩ : BufTy).Contents (Elt F)),
    StableHlo.binary main_v691 main_v692 main_v693 (mulf : (⟨S500000, .f32⟩ : BufTy).Contents (Elt F) → (⟨S500000, .f32⟩ : BufTy).Contents (Elt F) → (⟨S500000, .f32⟩ : BufTy).Contents (Elt F)),
    StableHlo.nullary main_cst_215 (constant S_ .f32 0x3F800000#32),
    StableHlo.unary main_cst_215 main_v694 (broadcastInDim S500000 ![] bcast_S_S500000 : (⟨S_, .f32⟩ : BufTy).Contents (Elt F) → (⟨S500000, .f32⟩ : BufTy).Contents (Elt F)),
    StableHlo.binary main_v9 main_v694 main_v695 (addf : (⟨S500000, .f32⟩ : BufTy).Contents (Elt F) → (⟨S500000, .f32⟩ : BufTy).Contents (Elt F) → (⟨S500000, .f32⟩ : BufTy).Contents (Elt F)),
    StableHlo.nullary main_cst_216 (constant S_ .f32 0x3F000000#32),
    StableHlo.unary main_cst_216 main_v696 (broadcastInDim S500000 ![] bcast_S_S500000 : (⟨S_, .f32⟩ : BufTy).Contents (Elt F) → (⟨S500000, .f32⟩ : BufTy).Contents (Elt F)),
    StableHlo.binary main_v695 main_v696 main_v697 (mulf : (⟨S500000, .f32⟩ : BufTy).Contents (Elt F) → (⟨S500000, .f32⟩ : BufTy).Contents (Elt F) → (⟨S500000, .f32⟩ : BufTy).Contents (Elt F)),
    StableHlo.nullary main_cst_217 (constant S_ .f32 0x43FF8000#32),
    StableHlo.unary main_cst_217 main_v698 (broadcastInDim S500000 ![] bcast_S_S500000 : (⟨S_, .f32⟩ : BufTy).Contents (Elt F) → (⟨S500000, .f32⟩ : BufTy).Contents (Elt F)),
    StableHlo.binary main_v697 main_v698 main_v699 (mulf : (⟨S500000, .f32⟩ : BufTy).Contents (Elt F) → (⟨S500000, .f32⟩ : BufTy).Contents (Elt F) → (⟨S500000, .f32⟩ : BufTy).Contents (Elt F)),
    StableHlo.unary main_v693 main_v700 (Host.floor : (⟨S500000, .f32⟩ : BufTy).Contents (Elt F) → (⟨S500000, .f32⟩ : BufTy).Contents (Elt F)),
    StableHlo.unary main_v700 main_v701 (fptosi 32 : (⟨S500000, .f32⟩ : BufTy).Contents (Elt F) → (⟨S500000, .i32⟩ : BufTy).Contents (Elt F)),
    StableHlo.unary main_v699 main_v702 (Host.floor : (⟨S500000, .f32⟩ : BufTy).Contents (Elt F) → (⟨S500000, .f32⟩ : BufTy).Contents (Elt F)),
    StableHlo.unary main_v702 main_v703 (fptosi 32 : (⟨S500000, .f32⟩ : BufTy).Contents (Elt F) → (⟨S500000, .i32⟩ : BufTy).Contents (Elt F)),
    StableHlo.unary main_v701 main_v704 (sitofp .f32 : (⟨S500000, .i32⟩ : BufTy).Contents (Elt F) → (⟨S500000, .f32⟩ : BufTy).Contents (Elt F)),
    StableHlo.binary main_v693 main_v704 main_v705 (subf : (⟨S500000, .f32⟩ : BufTy).Contents (Elt F) → (⟨S500000, .f32⟩ : BufTy).Contents (Elt F) → (⟨S500000, .f32⟩ : BufTy).Contents (Elt F)),
    StableHlo.unary main_v703 main_v706 (sitofp .f32 : (⟨S500000, .i32⟩ : BufTy).Contents (Elt F) → (⟨S500000, .f32⟩ : BufTy).Contents (Elt F)),
    StableHlo.binary main_v699 main_v706 main_v707 (subf : (⟨S500000, .f32⟩ : BufTy).Contents (Elt F) → (⟨S500000, .f32⟩ : BufTy).Contents (Elt F) → (⟨S500000, .f32⟩ : BufTy).Contents (Elt F)),
    StableHlo.nullary main_c_218 (constantI S_ 32 0#32),
    StableHlo.nullary main_c_219 (constantI S_ 32 511#32),
    StableHlo.TRef.unary (.of main_c_218 : StableHlo.TRef sig ⟨S_, .i32⟩) (.of main_call24_v0 : StableHlo.TRef sig ⟨S_, .i32⟩) id,
    StableHlo.TRef.unary (.of main_call24_v0 : StableHlo.TRef sig ⟨S_, .i32⟩) (.of main_call24_v1 : StableHlo.TRef sig ⟨S500000, .i32⟩) (broadcastInDim S500000 ![] bcast_S_S500000),
    StableHlo.TRef.binary (.of main_call24_v1 : StableHlo.TRef sig ⟨S500000, .i32⟩) (.of main_v701 : StableHlo.TRef sig ⟨S500000, .i32⟩) (.of main_call24_v2 : StableHlo.TRef sig ⟨S500000, .i32⟩) maxsi,
    StableHlo.TRef.unary (.of main_c_219 : StableHlo.TRef sig ⟨S_, .i32⟩) (.of main_call24_v3 : StableHlo.TRef sig ⟨S_, .i32⟩) id,
    StableHlo.TRef.unary (.of main_call24_v3 : StableHlo.TRef sig ⟨S_, .i32⟩) (.of main_call24_v4 : StableHlo.TRef sig ⟨S500000, .i32⟩) (broadcastInDim S500000 ![] bcast_S_S500000),
    StableHlo.TRef.binary (.of main_call24_v4 : StableHlo.TRef sig ⟨S500000, .i32⟩) (.of main_call24_v2 : StableHlo.TRef sig ⟨S500000, .i32⟩) (.of main_v708 : StableHlo.TRef sig ⟨S500000, .i32⟩) minsi,
    StableHlo.nullary main_c_220 (constantI S_ 32 1#32),
    StableHlo.unary main_c_220 main_v709 (broadcastInDim S500000 ![] bcast_S_S500000 : (⟨S_, .i32⟩ : BufTy).Contents (Elt F) → (⟨S500000, .i32⟩ : BufTy).Contents (Elt F)),
    StableHlo.binary main_v701 main_v709 main_v710 (addi : (⟨S500000, .i32⟩ : BufTy).Contents (Elt F) → (⟨S500000, .i32⟩ : BufTy).Contents (Elt F) → (⟨S500000, .i32⟩ : BufTy).Contents (Elt F)),
    StableHlo.nullary main_c_221 (constantI S_ 32 0#32),
    StableHlo.nullary main_c_222 (constantI S_ 32 511#32),
    StableHlo.TRef.unary (.of main_c_221 : StableHlo.TRef sig ⟨S_, .i32⟩) (.of main_call25_v0 : StableHlo.TRef sig ⟨S_, .i32⟩) id,
    StableHlo.TRef.unary (.of main_call25_v0 : StableHlo.TRef sig ⟨S_, .i32⟩) (.of main_call25_v1 : StableHlo.TRef sig ⟨S500000, .i32⟩) (broadcastInDim S500000 ![] bcast_S_S500000),
    StableHlo.TRef.binary (.of main_call25_v1 : StableHlo.TRef sig ⟨S500000, .i32⟩) (.of main_v710 : StableHlo.TRef sig ⟨S500000, .i32⟩) (.of main_call25_v2 : StableHlo.TRef sig ⟨S500000, .i32⟩) maxsi,
    StableHlo.TRef.unary (.of main_c_222 : StableHlo.TRef sig ⟨S_, .i32⟩) (.of main_call25_v3 : StableHlo.TRef sig ⟨S_, .i32⟩) id,
    StableHlo.TRef.unary (.of main_call25_v3 : StableHlo.TRef sig ⟨S_, .i32⟩) (.of main_call25_v4 : StableHlo.TRef sig ⟨S500000, .i32⟩) (broadcastInDim S500000 ![] bcast_S_S500000),
    StableHlo.TRef.binary (.of main_call25_v4 : StableHlo.TRef sig ⟨S500000, .i32⟩) (.of main_call25_v2 : StableHlo.TRef sig ⟨S500000, .i32⟩) (.of main_v711 : StableHlo.TRef sig ⟨S500000, .i32⟩) minsi,
    StableHlo.nullary main_c_223 (constantI S_ 32 0#32),
    StableHlo.nullary main_c_224 (constantI S_ 32 511#32),
    StableHlo.TRef.unary (.of main_c_223 : StableHlo.TRef sig ⟨S_, .i32⟩) (.of main_call26_v0 : StableHlo.TRef sig ⟨S_, .i32⟩) id,
    StableHlo.TRef.unary (.of main_call26_v0 : StableHlo.TRef sig ⟨S_, .i32⟩) (.of main_call26_v1 : StableHlo.TRef sig ⟨S500000, .i32⟩) (broadcastInDim S500000 ![] bcast_S_S500000),
    StableHlo.TRef.binary (.of main_call26_v1 : StableHlo.TRef sig ⟨S500000, .i32⟩) (.of main_v703 : StableHlo.TRef sig ⟨S500000, .i32⟩) (.of main_call26_v2 : StableHlo.TRef sig ⟨S500000, .i32⟩) maxsi,
    StableHlo.TRef.unary (.of main_c_224 : StableHlo.TRef sig ⟨S_, .i32⟩) (.of main_call26_v3 : StableHlo.TRef sig ⟨S_, .i32⟩) id,
    StableHlo.TRef.unary (.of main_call26_v3 : StableHlo.TRef sig ⟨S_, .i32⟩) (.of main_call26_v4 : StableHlo.TRef sig ⟨S500000, .i32⟩) (broadcastInDim S500000 ![] bcast_S_S500000),
    StableHlo.TRef.binary (.of main_call26_v4 : StableHlo.TRef sig ⟨S500000, .i32⟩) (.of main_call26_v2 : StableHlo.TRef sig ⟨S500000, .i32⟩) (.of main_v712 : StableHlo.TRef sig ⟨S500000, .i32⟩) minsi,
    StableHlo.nullary main_c_225 (constantI S_ 32 1#32),
    StableHlo.unary main_c_225 main_v713 (broadcastInDim S500000 ![] bcast_S_S500000 : (⟨S_, .i32⟩ : BufTy).Contents (Elt F) → (⟨S500000, .i32⟩ : BufTy).Contents (Elt F)),
    StableHlo.binary main_v703 main_v713 main_v714 (addi : (⟨S500000, .i32⟩ : BufTy).Contents (Elt F) → (⟨S500000, .i32⟩ : BufTy).Contents (Elt F) → (⟨S500000, .i32⟩ : BufTy).Contents (Elt F)),
    StableHlo.nullary main_c_226 (constantI S_ 32 0#32),
    StableHlo.nullary main_c_227 (constantI S_ 32 511#32),
    StableHlo.TRef.unary (.of main_c_226 : StableHlo.TRef sig ⟨S_, .i32⟩) (.of main_call27_v0 : StableHlo.TRef sig ⟨S_, .i32⟩) id,
    StableHlo.TRef.unary (.of main_call27_v0 : StableHlo.TRef sig ⟨S_, .i32⟩) (.of main_call27_v1 : StableHlo.TRef sig ⟨S500000, .i32⟩) (broadcastInDim S500000 ![] bcast_S_S500000),
    StableHlo.TRef.binary (.of main_call27_v1 : StableHlo.TRef sig ⟨S500000, .i32⟩) (.of main_v714 : StableHlo.TRef sig ⟨S500000, .i32⟩) (.of main_call27_v2 : StableHlo.TRef sig ⟨S500000, .i32⟩) maxsi,
    StableHlo.TRef.unary (.of main_c_227 : StableHlo.TRef sig ⟨S_, .i32⟩) (.of main_call27_v3 : StableHlo.TRef sig ⟨S_, .i32⟩) id,
    StableHlo.TRef.unary (.of main_call27_v3 : StableHlo.TRef sig ⟨S_, .i32⟩) (.of main_call27_v4 : StableHlo.TRef sig ⟨S500000, .i32⟩) (broadcastInDim S500000 ![] bcast_S_S500000),
    StableHlo.TRef.binary (.of main_call27_v4 : StableHlo.TRef sig ⟨S500000, .i32⟩) (.of main_call27_v2 : StableHlo.TRef sig ⟨S500000, .i32⟩) (.of main_v715 : StableHlo.TRef sig ⟨S500000, .i32⟩) minsi,
    StableHlo.nullary main_c_228 (constantI S_ 32 0#32),
    StableHlo.unary main_c_228 main_v716 (broadcastInDim S500000 ![] bcast_S_S500000 : (⟨S_, .i32⟩ : BufTy).Contents (Elt F) → (⟨S500000, .i32⟩ : BufTy).Contents (Elt F)),
    StableHlo.binary main_v712 main_v716 main_v717 (cmpi .slt : (⟨S500000, .i32⟩ : BufTy).Contents (Elt F) → (⟨S500000, .i32⟩ : BufTy).Contents (Elt F) → (⟨S500000, .i1⟩ : BufTy).Contents (Elt F)),
    StableHlo.nullary main_c_229 (constantI S_ 32 512#32),
    StableHlo.unary main_c_229 main_v718 (broadcastInDim S500000 ![] bcast_S_S500000 : (⟨S_, .i32⟩ : BufTy).Contents (Elt F) → (⟨S500000, .i32⟩ : BufTy).Contents (Elt F)),
    StableHlo.binary main_v712 main_v718 main_v719 (addi : (⟨S500000, .i32⟩ : BufTy).Contents (Elt F) → (⟨S500000, .i32⟩ : BufTy).Contents (Elt F) → (⟨S500000, .i32⟩ : BufTy).Contents (Elt F)),
    StableHlo.ternary main_v717 main_v719 main_v712 main_v720 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_230 (constantI S_ 32 0#32),
    StableHlo.unary main_c_230 main_v721 (broadcastInDim S500000 ![] bcast_S_S500000 : (⟨S_, .i32⟩ : BufTy).Contents (Elt F) → (⟨S500000, .i32⟩ : BufTy).Contents (Elt F)),
    StableHlo.binary main_v708 main_v721 main_v722 (cmpi .slt : (⟨S500000, .i32⟩ : BufTy).Contents (Elt F) → (⟨S500000, .i32⟩ : BufTy).Contents (Elt F) → (⟨S500000, .i1⟩ : BufTy).Contents (Elt F)),
    StableHlo.nullary main_c_231 (constantI S_ 32 512#32),
    StableHlo.unary main_c_231 main_v723 (broadcastInDim S500000 ![] bcast_S_S500000 : (⟨S_, .i32⟩ : BufTy).Contents (Elt F) → (⟨S500000, .i32⟩ : BufTy).Contents (Elt F)),
    StableHlo.binary main_v708 main_v723 main_v724 (addi : (⟨S500000, .i32⟩ : BufTy).Contents (Elt F) → (⟨S500000, .i32⟩ : BufTy).Contents (Elt F) → (⟨S500000, .i32⟩ : BufTy).Contents (Elt F)),
    StableHlo.ternary main_v722 main_v724 main_v708 main_v725 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v720 main_v726 (broadcastInDim S500000x1 ![0] bcast_S500000_S500000x1_0 : (⟨S500000, .i32⟩ : BufTy).Contents (Elt F) → (⟨S500000x1, .i32⟩ : BufTy).Contents (Elt F)),
    StableHlo.unary main_v725 main_v727 (broadcastInDim S500000x1 ![0] bcast_S500000_S500000x1_0 : (⟨S500000, .i32⟩ : BufTy).Contents (Elt F) → (⟨S500000x1, .i32⟩ : BufTy).Contents (Elt F)),
    StableHlo.binary main_v726 main_v727 main_v728 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg19 main_v728 main_v729 ((fun x i => Host.gather gather_S8x512x512_S500000x2_S8x500000_0_12_n_n_12_1_811 x i) : (⟨S8x512x512, .f32⟩ : BufTy).Contents (Elt F) → (⟨S500000x2, .i32⟩ : BufTy).Contents (Elt F) → (⟨S8x500000, .f32⟩ : BufTy).Contents (Elt F)),
    StableHlo.nullary main_c_232 (constantI S_ 32 0#32),
    StableHlo.unary main_c_232 main_v730 (broadcastInDim S500000 ![] bcast_S_S500000 : (⟨S_, .i32⟩ : BufTy).Contents (Elt F) → (⟨S500000, .i32⟩ : BufTy).Contents (Elt F)),
    StableHlo.binary main_v712 main_v730 main_v731 (cmpi .slt : (⟨S500000, .i32⟩ : BufTy).Contents (Elt F) → (⟨S500000, .i32⟩ : BufTy).Contents (Elt F) → (⟨S500000, .i1⟩ : BufTy).Contents (Elt F)),
    StableHlo.nullary main_c_233 (constantI S_ 32 512#32),
    StableHlo.unary main_c_233 main_v732 (broadcastInDim S500000 ![] bcast_S_S500000 : (⟨S_, .i32⟩ : BufTy).Contents (Elt F) → (⟨S500000, .i32⟩ : BufTy).Contents (Elt F)),
    StableHlo.binary main_v712 main_v732 main_v733 (addi : (⟨S500000, .i32⟩ : BufTy).Contents (Elt F) → (⟨S500000, .i32⟩ : BufTy).Contents (Elt F) → (⟨S500000, .i32⟩ : BufTy).Contents (Elt F)),
    StableHlo.ternary main_v731 main_v733 main_v712 main_v734 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_234 (constantI S_ 32 0#32),
    StableHlo.unary main_c_234 main_v735 (broadcastInDim S500000 ![] bcast_S_S500000 : (⟨S_, .i32⟩ : BufTy).Contents (Elt F) → (⟨S500000, .i32⟩ : BufTy).Contents (Elt F)),
    StableHlo.binary main_v711 main_v735 main_v736 (cmpi .slt : (⟨S500000, .i32⟩ : BufTy).Contents (Elt F) → (⟨S500000, .i32⟩ : BufTy).Contents (Elt F) → (⟨S500000, .i1⟩ : BufTy).Contents (Elt F)),
    StableHlo.nullary main_c_235 (constantI S_ 32 512#32),
    StableHlo.unary main_c_235 main_v737 (broadcastInDim S500000 ![] bcast_S_S500000 : (⟨S_, .i32⟩ : BufTy).Contents (Elt F) → (⟨S500000, .i32⟩ : BufTy).Contents (Elt F)),
    StableHlo.binary main_v711 main_v737 main_v738 (addi : (⟨S500000, .i32⟩ : BufTy).Contents (Elt F) → (⟨S500000, .i32⟩ : BufTy).Contents (Elt F) → (⟨S500000, .i32⟩ : BufTy).Contents (Elt F)),
    StableHlo.ternary main_v736 main_v738 main_v711 main_v739 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v734 main_v740 (broadcastInDim S500000x1 ![0] bcast_S500000_S500000x1_0 : (⟨S500000, .i32⟩ : BufTy).Contents (Elt F) → (⟨S500000x1, .i32⟩ : BufTy).Contents (Elt F)),
    StableHlo.unary main_v739 main_v741 (broadcastInDim S500000x1 ![0] bcast_S500000_S500000x1_0 : (⟨S500000, .i32⟩ : BufTy).Contents (Elt F) → (⟨S500000x1, .i32⟩ : BufTy).Contents (Elt F)),
    StableHlo.binary main_v740 main_v741 main_v742 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg19 main_v742 main_v743 ((fun x i => Host.gather gather_S8x512x512_S500000x2_S8x500000_0_12_n_n_12_1_811 x i) : (⟨S8x512x512, .f32⟩ : BufTy).Contents (Elt F) → (⟨S500000x2, .i32⟩ : BufTy).Contents (Elt F) → (⟨S8x500000, .f32⟩ : BufTy).Contents (Elt F)),
    StableHlo.nullary main_c_236 (constantI S_ 32 0#32),
    StableHlo.unary main_c_236 main_v744 (broadcastInDim S500000 ![] bcast_S_S500000 : (⟨S_, .i32⟩ : BufTy).Contents (Elt F) → (⟨S500000, .i32⟩ : BufTy).Contents (Elt F)),
    StableHlo.binary main_v715 main_v744 main_v745 (cmpi .slt : (⟨S500000, .i32⟩ : BufTy).Contents (Elt F) → (⟨S500000, .i32⟩ : BufTy).Contents (Elt F) → (⟨S500000, .i1⟩ : BufTy).Contents (Elt F)),
    StableHlo.nullary main_c_237 (constantI S_ 32 512#32),
    StableHlo.unary main_c_237 main_v746 (broadcastInDim S500000 ![] bcast_S_S500000 : (⟨S_, .i32⟩ : BufTy).Contents (Elt F) → (⟨S500000, .i32⟩ : BufTy).Contents (Elt F)),
    StableHlo.binary main_v715 main_v746 main_v747 (addi : (⟨S500000, .i32⟩ : BufTy).Contents (Elt F) → (⟨S500000, .i32⟩ : BufTy).Contents (Elt F) → (⟨S500000, .i32⟩ : BufTy).Contents (Elt F)),
    StableHlo.ternary main_v745 main_v747 main_v715 main_v748 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_238 (constantI S_ 32 0#32),
    StableHlo.unary main_c_238 main_v749 (broadcastInDim S500000 ![] bcast_S_S500000 : (⟨S_, .i32⟩ : BufTy).Contents (Elt F) → (⟨S500000, .i32⟩ : BufTy).Contents (Elt F)),
    StableHlo.binary main_v708 main_v749 main_v750 (cmpi .slt : (⟨S500000, .i32⟩ : BufTy).Contents (Elt F) → (⟨S500000, .i32⟩ : BufTy).Contents (Elt F) → (⟨S500000, .i1⟩ : BufTy).Contents (Elt F)),
    StableHlo.nullary main_c_239 (constantI S_ 32 512#32),
    StableHlo.unary main_c_239 main_v751 (broadcastInDim S500000 ![] bcast_S_S500000 : (⟨S_, .i32⟩ : BufTy).Contents (Elt F) → (⟨S500000, .i32⟩ : BufTy).Contents (Elt F)),
    StableHlo.binary main_v708 main_v751 main_v752 (addi : (⟨S500000, .i32⟩ : BufTy).Contents (Elt F) → (⟨S500000, .i32⟩ : BufTy).Contents (Elt F) → (⟨S500000, .i32⟩ : BufTy).Contents (Elt F)),
    StableHlo.ternary main_v750 main_v752 main_v708 main_v753 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v748 main_v754 (broadcastInDim S500000x1 ![0] bcast_S500000_S500000x1_0 : (⟨S500000, .i32⟩ : BufTy).Contents (Elt F) → (⟨S500000x1, .i32⟩ : BufTy).Contents (Elt F)),
    StableHlo.unary main_v753 main_v755 (broadcastInDim S500000x1 ![0] bcast_S500000_S500000x1_0 : (⟨S500000, .i32⟩ : BufTy).Contents (Elt F) → (⟨S500000x1, .i32⟩ : BufTy).Contents (Elt F)),
    StableHlo.binary main_v754 main_v755 main_v756 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg19 main_v756 main_v757 ((fun x i => Host.gather gather_S8x512x512_S500000x2_S8x500000_0_12_n_n_12_1_811 x i) : (⟨S8x512x512, .f32⟩ : BufTy).Contents (Elt F) → (⟨S500000x2, .i32⟩ : BufTy).Contents (Elt F) → (⟨S8x500000, .f32⟩ : BufTy).Contents (Elt F)),
    StableHlo.nullary main_c_240 (constantI S_ 32 0#32),
    StableHlo.unary main_c_240 main_v758 (broadcastInDim S500000 ![] bcast_S_S500000 : (⟨S_, .i32⟩ : BufTy).Contents (Elt F) → (⟨S500000, .i32⟩ : BufTy).Contents (Elt F)),
    StableHlo.binary main_v715 main_v758 main_v759 (cmpi .slt : (⟨S500000, .i32⟩ : BufTy).Contents (Elt F) → (⟨S500000, .i32⟩ : BufTy).Contents (Elt F) → (⟨S500000, .i1⟩ : BufTy).Contents (Elt F)),
    StableHlo.nullary main_c_241 (constantI S_ 32 512#32),
    StableHlo.unary main_c_241 main_v760 (broadcastInDim S500000 ![] bcast_S_S500000 : (⟨S_, .i32⟩ : BufTy).Contents (Elt F) → (⟨S500000, .i32⟩ : BufTy).Contents (Elt F)),
    StableHlo.binary main_v715 main_v760 main_v761 (addi : (⟨S500000, .i32⟩ : BufTy).Contents (Elt F) → (⟨S500000, .i32⟩ : BufTy).Contents (Elt F) → (⟨S500000, .i32⟩ : BufTy).Contents (Elt F)),
    StableHlo.ternary main_v759 main_v761 main_v715 main_v762 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_242 (constantI S_ 32 0#32),
    StableHlo.unary main_c_242 main_v763 (broadcastInDim S500000 ![] bcast_S_S500000 : (⟨S_, .i32⟩ : BufTy).Contents (Elt F) → (⟨S500000, .i32⟩ : BufTy).Contents (Elt F)),
    StableHlo.binary main_v711 main_v763 main_v764 (cmpi .slt : (⟨S500000, .i32⟩ : BufTy).Contents (Elt F) → (⟨S500000, .i32⟩ : BufTy).Contents (Elt F) → (⟨S500000, .i1⟩ : BufTy).Contents (Elt F)),
    StableHlo.nullary main_c_243 (constantI S_ 32 512#32),
    StableHlo.unary main_c_243 main_v765 (broadcastInDim S500000 ![] bcast_S_S500000 : (⟨S_, .i32⟩ : BufTy).Contents (Elt F) → (⟨S500000, .i32⟩ : BufTy).Contents (Elt F)),
    StableHlo.binary main_v711 main_v765 main_v766 (addi : (⟨S500000, .i32⟩ : BufTy).Contents (Elt F) → (⟨S500000, .i32⟩ : BufTy).Contents (Elt F) → (⟨S500000, .i32⟩ : BufTy).Contents (Elt F)),
    StableHlo.ternary main_v764 main_v766 main_v711 main_v767 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v762 main_v768 (broadcastInDim S500000x1 ![0] bcast_S500000_S500000x1_0 : (⟨S500000, .i32⟩ : BufTy).Contents (Elt F) → (⟨S500000x1, .i32⟩ : BufTy).Contents (Elt F)),
    StableHlo.unary main_v767 main_v769 (broadcastInDim S500000x1 ![0] bcast_S500000_S500000x1_0 : (⟨S500000, .i32⟩ : BufTy).Contents (Elt F) → (⟨S500000x1, .i32⟩ : BufTy).Contents (Elt F)),
    StableHlo.binary main_v768 main_v769 main_v770 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg19 main_v770 main_v771 ((fun x i => Host.gather gather_S8x512x512_S500000x2_S8x500000_0_12_n_n_12_1_811 x i) : (⟨S8x512x512, .f32⟩ : BufTy).Contents (Elt F) → (⟨S500000x2, .i32⟩ : BufTy).Contents (Elt F) → (⟨S8x500000, .f32⟩ : BufTy).Contents (Elt F)),
    StableHlo.nullary main_cst_244 (constant S_ .f32 0x3F800000#32),
    StableHlo.unary main_cst_244 main_v772 (broadcastInDim S500000 ![] bcast_S_S500000 : (⟨S_, .f32⟩ : BufTy).Contents (Elt F) → (⟨S500000, .f32⟩ : BufTy).Contents (Elt F)),
    StableHlo.binary main_v772 main_v705 main_v773 (subf : (⟨S500000, .f32⟩ : BufTy).Contents (Elt F) → (⟨S500000, .f32⟩ : BufTy).Contents (Elt F) → (⟨S500000, .f32⟩ : BufTy).Contents (Elt F)),
    StableHlo.unary main_v773 main_v774 (broadcastInDim S1x500000 ![1] bcast_S500000_S1x500000_1 : (⟨S500000, .f32⟩ : BufTy).Contents (Elt F) → (⟨S1x500000, .f32⟩ : BufTy).Contents (Elt F)),
    StableHlo.unary main_v774 main_v775 (broadcastInDim S8x500000 ![0, 1] bcast_S1x500000_S8x500000_0_1 : (⟨S1x500000, .f32⟩ : BufTy).Contents (Elt F) → (⟨S8x500000, .f32⟩ : BufTy).Contents (Elt F)),
    StableHlo.binary main_v729 main_v775 main_v776 (mulf : (⟨S8x500000, .f32⟩ : BufTy).Contents (Elt F) → (⟨S8x500000, .f32⟩ : BufTy).Contents (Elt F) → (⟨S8x500000, .f32⟩ : BufTy).Contents (Elt F)),
    StableHlo.unary main_v705 main_v777 (broadcastInDim S1x500000 ![1] bcast_S500000_S1x500000_1 : (⟨S500000, .f32⟩ : BufTy).Contents (Elt F) → (⟨S1x500000, .f32⟩ : BufTy).Contents (Elt F)),
    StableHlo.unary main_v777 main_v778 (broadcastInDim S8x500000 ![0, 1] bcast_S1x500000_S8x500000_0_1 : (⟨S1x500000, .f32⟩ : BufTy).Contents (Elt F) → (⟨S8x500000, .f32⟩ : BufTy).Contents (Elt F)),
    StableHlo.binary main_v743 main_v778 main_v779 (mulf : (⟨S8x500000, .f32⟩ : BufTy).Contents (Elt F) → (⟨S8x500000, .f32⟩ : BufTy).Contents (Elt F) → (⟨S8x500000, .f32⟩ : BufTy).Contents (Elt F)),
    StableHlo.binary main_v776 main_v779 main_v780 (addf : (⟨S8x500000, .f32⟩ : BufTy).Contents (Elt F) → (⟨S8x500000, .f32⟩ : BufTy).Contents (Elt F) → (⟨S8x500000, .f32⟩ : BufTy).Contents (Elt F)),
    StableHlo.nullary main_cst_245 (constant S_ .f32 0x3F800000#32),
    StableHlo.unary main_cst_245 main_v781 (broadcastInDim S500000 ![] bcast_S_S500000 : (⟨S_, .f32⟩ : BufTy).Contents (Elt F) → (⟨S500000, .f32⟩ : BufTy).Contents (Elt F)),
    StableHlo.binary main_v781 main_v705 main_v782 (subf : (⟨S500000, .f32⟩ : BufTy).Contents (Elt F) → (⟨S500000, .f32⟩ : BufTy).Contents (Elt F) → (⟨S500000, .f32⟩ : BufTy).Contents (Elt F)),
    StableHlo.unary main_v782 main_v783 (broadcastInDim S1x500000 ![1] bcast_S500000_S1x500000_1 : (⟨S500000, .f32⟩ : BufTy).Contents (Elt F) → (⟨S1x500000, .f32⟩ : BufTy).Contents (Elt F)),
    StableHlo.unary main_v783 main_v784 (broadcastInDim S8x500000 ![0, 1] bcast_S1x500000_S8x500000_0_1 : (⟨S1x500000, .f32⟩ : BufTy).Contents (Elt F) → (⟨S8x500000, .f32⟩ : BufTy).Contents (Elt F)),
    StableHlo.binary main_v757 main_v784 main_v785 (mulf : (⟨S8x500000, .f32⟩ : BufTy).Contents (Elt F) → (⟨S8x500000, .f32⟩ : BufTy).Contents (Elt F) → (⟨S8x500000, .f32⟩ : BufTy).Contents (Elt F)),
    StableHlo.unary main_v705 main_v786 (broadcastInDim S1x500000 ![1] bcast_S500000_S1x500000_1 : (⟨S500000, .f32⟩ : BufTy).Contents (Elt F) → (⟨S1x500000, .f32⟩ : BufTy).Contents (Elt F)),
    StableHlo.unary main_v786 main_v787 (broadcastInDim S8x500000 ![0, 1] bcast_S1x500000_S8x500000_0_1 : (⟨S1x500000, .f32⟩ : BufTy).Contents (Elt F) → (⟨S8x500000, .f32⟩ : BufTy).Contents (Elt F)),
    StableHlo.binary main_v771 main_v787 main_v788 (mulf : (⟨S8x500000, .f32⟩ : BufTy).Contents (Elt F) → (⟨S8x500000, .f32⟩ : BufTy).Contents (Elt F) → (⟨S8x500000, .f32⟩ : BufTy).Contents (Elt F)),
    StableHlo.binary main_v785 main_v788 main_v789 (addf : (⟨S8x500000, .f32⟩ : BufTy).Contents (Elt F) → (⟨S8x500000, .f32⟩ : BufTy).Contents (Elt F) → (⟨S8x500000, .f32⟩ : BufTy).Contents (Elt F)),
    StableHlo.nullary main_cst_246 (constant S_ .f32 0x3F800000#32),
    StableHlo.unary main_cst_246 main_v790 (broadcastInDim S500000 ![] bcast_S_S500000 : (⟨S_, .f32⟩ : BufTy).Contents (Elt F) → (⟨S500000, .f32⟩ : BufTy).Contents (Elt F)),
    StableHlo.binary main_v790 main_v707 main_v791 (subf : (⟨S500000, .f32⟩ : BufTy).Contents (Elt F) → (⟨S500000, .f32⟩ : BufTy).Contents (Elt F) → (⟨S500000, .f32⟩ : BufTy).Contents (Elt F)),
    StableHlo.unary main_v791 main_v792 (broadcastInDim S1x500000 ![1] bcast_S500000_S1x500000_1 : (⟨S500000, .f32⟩ : BufTy).Contents (Elt F) → (⟨S1x500000, .f32⟩ : BufTy).Contents (Elt F)),
    StableHlo.unary main_v792 main_v793 (broadcastInDim S8x500000 ![0, 1] bcast_S1x500000_S8x500000_0_1 : (⟨S1x500000, .f32⟩ : BufTy).Contents (Elt F) → (⟨S8x500000, .f32⟩ : BufTy).Contents (Elt F)),
    StableHlo.binary main_v780 main_v793 main_v794 (mulf : (⟨S8x500000, .f32⟩ : BufTy).Contents (Elt F) → (⟨S8x500000, .f32⟩ : BufTy).Contents (Elt F) → (⟨S8x500000, .f32⟩ : BufTy).Contents (Elt F)),
    StableHlo.unary main_v707 main_v795 (broadcastInDim S1x500000 ![1] bcast_S500000_S1x500000_1 : (⟨S500000, .f32⟩ : BufTy).Contents (Elt F) → (⟨S1x500000, .f32⟩ : BufTy).Contents (Elt F)),
    StableHlo.unary main_v795 main_v796 (broadcastInDim S8x500000 ![0, 1] bcast_S1x500000_S8x500000_0_1 : (⟨S1x500000, .f32⟩ : BufTy).Contents (Elt F) → (⟨S8x500000, .f32⟩ : BufTy).Contents (Elt F)),
    StableHlo.binary main_v789 main_v796 main_v797 (mulf : (⟨S8x500000, .f32⟩ : BufTy).Contents (Elt F) → (⟨S8x500000, .f32⟩ : BufTy).Contents (Elt F) → (⟨S8x500000, .f32⟩ : BufTy).Contents (Elt F)),
    StableHlo.binary main_v794 main_v797 main_v798 (addf : (⟨S8x500000, .f32⟩ : BufTy).Contents (Elt F) → (⟨S8x500000, .f32⟩ : BufTy).Contents (Elt F) → (⟨S8x500000, .f32⟩ : BufTy).Contents (Elt F)),
    StableHlo.unary main_v798 main_v799 ((transpose S500000x8 [1, 0] · transposes_S8x500000_S500000x8_1_0) : (⟨S8x500000, .f32⟩ : BufTy).Contents (Elt F) → (⟨S500000x8, .f32⟩ : BufTy).Contents (Elt F)) ]

/-- Operations 1189 … 1355 (167): level 2, plane xz. -/
abbrev opsB2b : List (HloOp τ sig (Elt F)) :=
  [ StableHlo.nullary main_cst_247 (constant S_ .f32 0x3F800000#32),
    StableHlo.unary main_cst_247 main_v800 (broadcastInDim S500000 ![] bcast_S_S500000 : (⟨S_, .f32⟩ : BufTy).Contents (Elt F) → (⟨S500000, .f32⟩ : BufTy).Contents (Elt F)),
    StableHlo.binary main_v13 main_v800 main_v801 (addf : (⟨S500000, .f32⟩ : BufTy).Contents (Elt F) → (⟨S500000, .f32⟩ : BufTy).Contents (Elt F) → (⟨S500000, .f32⟩ : BufTy).Contents (Elt F)),
    StableHlo.nullary main_cst_248 (constant S_ .f32 0x3F000000#32),
    StableHlo.unary main_cst_248 main_v802 (broadcastInDim S500000 ![] bcast_S_S500000 : (⟨S_, .f32⟩ : BufTy).Contents (Elt F) → (⟨S500000, .f32⟩ : BufTy).Contents (Elt F)),
    StableHlo.binary main_v801 main_v802 main_v803 (mulf : (⟨S500000, .f32⟩ : BufTy).Contents (Elt F) → (⟨S500000, .f32⟩ : BufTy).Contents (Elt F) → (⟨S500000, .f32⟩ : BufTy).Contents (Elt F)),
    StableHlo.nullary main_cst_249 (constant S_ .f32 0x43FF8000#32),
    StableHlo.unary main_cst_249 main_v804 (broadcastInDim S500000 ![] bcast_S_S500000 : (⟨S_, .f32⟩ : BufTy).Contents (Elt F) → (⟨S500000, .f32⟩ : BufTy).Contents (Elt F)),
    StableHlo.binary main_v803 main_v804 main_v805 (mulf : (⟨S500000, .f32⟩ : BufTy).Contents (Elt F) → (⟨S500000, .f32⟩ : BufTy).Contents (Elt F) → (⟨S500000, .f32⟩ : BufTy).Contents (Elt F)),
    StableHlo.nullary main_cst_250 (constant S_ .f32 0x3F800000#32),
    StableHlo.unary main_cst_250 main_v806 (broadcastInDim S500000 ![] bcast_S_S500000 : (⟨S_, .f32⟩ : BufTy).Contents (Elt F) → (⟨S500000, .f32⟩ : BufTy).Contents (Elt F)),
    StableHlo.binary main_v9 main_v806 main_v807 (addf : (⟨S500000, .f32⟩ : BufTy).Contents (Elt F) → (⟨S500000, .f32⟩ : BufTy).Contents (Elt F) → (⟨S500000, .f32⟩ : BufTy).Contents (Elt F)),
    StableHlo.nullary main_cst_251 (constant S_ .f32 0x3F000000#32),
    StableHlo.unary main_cst_251 main_v808 (broadcastInDim S500000 ![] bcast_S_S500000 : (⟨S_, .f32⟩ : BufTy).Contents (Elt F) → (⟨S500000, .f32⟩ : BufTy).Contents (Elt F)),
    StableHlo.binary main_v807 main_v808 main_v809 (mulf : (⟨S500000, .f32⟩ : BufTy).Contents (Elt F) → (⟨S500000, .f32⟩ : BufTy).Contents (Elt F) → (⟨S500000, .f32⟩ : BufTy).Contents (Elt F)),
    StableHlo.nullary main_cst_252 (constant S_ .f32 0x43FF8000#32),
    StableHlo.unary main_cst_252 main_v810 (broadcastInDim S500000 ![] bcast_S_S500000 : (⟨S_, .f32⟩ : BufTy).Contents (Elt F) → (⟨S500000, .f32⟩ : BufTy).Contents (Elt F)),
    StableHlo.binary main_v809 main_v810 main_v811 (mulf : (⟨S500000, .f32⟩ : BufTy).Contents (Elt F) → (⟨S500000, .f32⟩ : BufTy).Contents (Elt F) → (⟨S500000, .f32⟩ : BufTy).Contents (Elt F)),
    StableHlo.unary main_v805 main_v812 (Host.floor : (⟨S500000, .f32⟩ : BufTy).Contents (Elt F) → (⟨S500000, .f32⟩ : BufTy).Contents (Elt F)),
    StableHlo.unary main_v812 main_v813 (fptosi 32 : (⟨S500000, .f32⟩ : BufTy).Contents (Elt F) → (⟨S500000, .i32⟩ : BufTy).Contents (Elt F)),
    StableHlo.unary main_v811 main_v814 (Host.floor : (⟨S500000, .f32⟩ : BufTy).Contents (Elt F) → (⟨S500000, .f32⟩ : BufTy).Contents (Elt F)),
    StableHlo.unary main_v814 main_v815 (fptosi 32 : (⟨S500000, .f32⟩ : BufTy).Contents (Elt F) → (⟨S500000, .i32⟩ : BufTy).Contents (Elt F)),
    StableHlo.unary main_v813 main_v816 (sitofp .f32 : (⟨S500000, .i32⟩ : BufTy).Contents (Elt F) → (⟨S500000, .f32⟩ : BufTy).Contents (Elt F)),
    StableHlo.binary main_v805 main_v816 main_v817 (subf : (⟨S500000, .f32⟩ : BufTy).Contents (Elt F) → (⟨S500000, .f32⟩ : BufTy).Contents (Elt F) → (⟨S500000, .f32⟩ : BufTy).Contents (Elt F)),
    StableHlo.unary main_v815 main_v818 (sitofp .f32 : (⟨S500000, .i32⟩ : BufTy).Contents (Elt F) → (⟨S500000, .f32⟩ : BufTy).Contents (Elt F)),
    StableHlo.binary main_v811 main_v818 main_v819 (subf : (⟨S500000, .f32⟩ : BufTy).Contents (Elt F) → (⟨S500000, .f32⟩ : BufTy).Contents (Elt F) → (⟨S500000, .f32⟩ : BufTy).Contents (Elt F)),
    StableHlo.nullary main_c_253 (constantI S_ 32 0#32),
    StableHlo.nullary main_c_254 (constantI S_ 32 511#32),
    StableHlo.TRef.unary (.of main_c_253 : StableHlo.TRef sig ⟨S_, .i32⟩) (.of main_call28_v0 : StableHlo.TRef sig ⟨S_, .i32⟩) id,
    StableHlo.TRef.unary (.of main_call28_v0 : StableHlo.TRef sig ⟨S_, .i32⟩) (.of main_call28_v1 : StableHlo.TRef sig ⟨S500000, .i32⟩) (broadcastInDim S500000 ![] bcast_S_S500000),
    StableHlo.TRef.binary (.of main_call28_v1 : StableHlo.TRef sig ⟨S500000, .i32⟩) (.of main_v813 : StableHlo.TRef sig ⟨S500000, .i32⟩) (.of main_call28_v2 : StableHlo.TRef sig ⟨S500000, .i32⟩) maxsi,
    StableHlo.TRef.unary (.of main_c_254 : StableHlo.TRef sig ⟨S_, .i32⟩) (.of main_call28_v3 : StableHlo.TRef sig ⟨S_, .i32⟩) id,
    StableHlo.TRef.unary (.of main_call28_v3 : StableHlo.TRef sig ⟨S_, .i32⟩) (.of main_call28_v4 : StableHlo.TRef sig ⟨S500000, .i32⟩) (broadcastInDim S500000 ![] bcast_S_S500000),
    StableHlo.TRef.binary (.of main_call28_v4 : StableHlo.TRef sig ⟨S500000, .i32⟩) (.of main_call28_v2 : StableHlo.TRef sig ⟨S500000, .i32⟩) (.of main_v820 : StableHlo.TRef sig ⟨S500000, .i32⟩) minsi,
    StableHlo.nullary main_c_255 (constantI S_ 32 1#32),
    StableHlo.unary main_c_255 main_v821 (broadcastInDim S500000 ![] bcast_S_S500000 : (⟨S_, .i32⟩ : BufTy).Contents (Elt F) → (⟨S500000, .i32⟩ : BufTy).Contents (Elt F)),
    StableHlo.binary main_v813 main_v821 main_v822 (addi : (⟨S500000, .i32⟩ : BufTy).Contents (Elt F) → (⟨S500000, .i32⟩ : BufTy).Contents (Elt F) → (⟨S500000, .i32⟩ : BufTy).Contents (Elt F)),
    StableHlo.nullary main_c_256 (constantI S_ 32 0#32),
    StableHlo.nullary main_c_257 (constantI S_ 32 511#32),
    StableHlo.TRef.unary (.of main_c_256 : StableHlo.TRef sig ⟨S_, .i32⟩) (.of main_call29_v0 : StableHlo.TRef sig ⟨S_, .i32⟩) id,
    StableHlo.TRef.unary (.of main_call29_v0 : StableHlo.TRef sig ⟨S_, .i32⟩) (.of main_call29_v1 : StableHlo.TRef sig ⟨S500000, .i32⟩) (broadcastInDim S500000 ![] bcast_S_S500000),
    StableHlo.TRef.binary (.of main_call29_v1 : StableHlo.TRef sig ⟨S500000, .i32⟩) (.of main_v822 : StableHlo.TRef sig ⟨S500000, .i32⟩) (.of main_call29_v2 : StableHlo.TRef sig ⟨S500000, .i32⟩) maxsi,
    StableHlo.TRef.unary (.of main_c_257 : StableHlo.TRef sig ⟨S_, .i32⟩) (.of main_call29_v3 : StableHlo.TRef sig ⟨S_, .i32⟩) id,
    StableHlo.TRef.unary (.of main_call29_v3 : StableHlo.TRef sig ⟨S_, .i32⟩) (.of main_call29_v4 : StableHlo.TRef sig ⟨S500000, .i32⟩) (broadcastInDim S500000 ![] bcast_S_S500000),
    StableHlo.TRef.binary (.of main_call29_v4 : StableHlo.TRef sig ⟨S500000, .i32⟩) (.of main_call29_v2 : StableHlo.TRef sig ⟨S500000, .i32⟩) (.of main_v823 : StableHlo.TRef sig ⟨S500000, .i32⟩) minsi,
    StableHlo.nullary main_c_258 (constantI S_ 32 0#32),
    StableHlo.nullary main_c_259 (constantI S_ 32 511#32),
    StableHlo.TRef.unary (.of main_c_258 : StableHlo.TRef sig ⟨S_, .i32⟩) (.of main_call30_v0 : StableHlo.TRef sig ⟨S_, .i32⟩) id,
    StableHlo.TRef.unary (.of main_call30_v0 : StableHlo.TRef sig ⟨S_, .i32⟩) (.of main_call30_v1 : StableHlo.TRef sig ⟨S500000, .i32⟩) (broadcastInDim S500000 ![] bcast_S_S500000),
    StableHlo.TRef.binary (.of main_call30_v1 : StableHlo.TRef sig ⟨S500000, .i32⟩) (.of main_v815 : StableHlo.TRef sig ⟨S500000, .i32⟩) (.of main_call30_v2 : StableHlo.TRef sig ⟨S500000, .i32⟩) maxsi,
    StableHlo.TRef.unary (.of main_c_259 : StableHlo.TRef sig ⟨S_, .i32⟩) (.of main_call30_v3 : StableHlo.TRef sig ⟨S_, .i32⟩) id,
    StableHlo.TRef.unary (.of main_call30_v3 : StableHlo.TRef sig ⟨S_, .i32⟩) (.of main_call30_v4 : StableHlo.TRef sig ⟨S500000, .i32⟩) (broadcastInDim S500000 ![] bcast_S_S500000),
    StableHlo.TRef.binary (.of main_call30_v4 : StableHlo.TRef sig ⟨S500000, .i32⟩) (.of main_call30_v2 : StableHlo.TRef sig ⟨S500000, .i32⟩) (.of main_v824 : StableHlo.TRef sig ⟨S500000, .i32⟩) minsi,
    StableHlo.nullary main_c_260 (constantI S_ 32 1#32),
    StableHlo.unary main_c_260 main_v825 (broadcastInDim S500000 ![] bcast_S_S500000 : (⟨S_, .i32⟩ : BufTy).Contents (Elt F) → (⟨S500000, .i32⟩ : BufTy).Contents (Elt F)),
    StableHlo.binary main_v815 main_v825 main_v826 (addi : (⟨S500000, .i32⟩ : BufTy).Contents (Elt F) → (⟨S500000, .i32⟩ : BufTy).Contents (Elt F) → (⟨S500000, .i32⟩ : BufTy).Contents (Elt F)),
    StableHlo.nullary main_c_261 (constantI S_ 32 0#32),
    StableHlo.nullary main_c_262 (constantI S_ 32 511#32),
    StableHlo.TRef.unary (.of main_c_261 : StableHlo.TRef sig ⟨S_, .i32⟩) (.of main_call31_v0 : StableHlo.TRef sig ⟨S_, .i32⟩) id,
    StableHlo.TRef.unary (.of main_call31_v0 : StableHlo.TRef sig ⟨S_, .i32⟩) (.of main_call31_v1 : StableHlo.TRef sig ⟨S500000, .i32⟩) (broadcastInDim S500000 ![] bcast_S_S500000),
    StableHlo.TRef.binary (.of main_call31_v1 : StableHlo.TRef sig ⟨S500000, .i32⟩) (.of main_v826 : StableHlo.TRef sig ⟨S500000, .i32⟩) (.of main_call31_v2 : StableHlo.TRef sig ⟨S500000, .i32⟩) maxsi,
    StableHlo.TRef.unary (.of main_c_262 : StableHlo.TRef sig ⟨S_, .i32⟩) (.of main_call31_v3 : StableHlo.TRef sig ⟨S_, .i32⟩) id,
    StableHlo.TRef.unary (.of main_call31_v3 : StableHlo.TRef sig ⟨S_, .i32⟩) (.of main_call31_v4 : StableHlo.TRef sig ⟨S500000, .i32⟩) (broadcastInDim S500000 ![] bcast_S_S500000),
    StableHlo.TRef.binary (.of main_call31_v4 : StableHlo.TRef sig ⟨S500000, .i32⟩) (.of main_call31_v2 : StableHlo.TRef sig ⟨S500000, .i32⟩) (.of main_v827 : StableHlo.TRef sig ⟨S500000, .i32⟩) minsi,
    StableHlo.nullary main_c_263 (constantI S_ 32 0#32),
    StableHlo.unary main_c_263 main_v828 (broadcastInDim S500000 ![] bcast_S_S500000 : (⟨S_, .i32⟩ : BufTy).Contents (Elt F) → (⟨S500000, .i32⟩ : BufTy).Contents (Elt F)),
    StableHlo.binary main_v824 main_v828 main_v829 (cmpi .slt : (⟨S500000, .i32⟩ : BufTy).Contents (Elt F) → (⟨S500000, .i32⟩ : BufTy).Contents (Elt F) → (⟨S500000, .i1⟩ : BufTy).Contents (Elt F)),
    StableHlo.nullary main_c_264 (constantI S_ 32 512#32),
    StableHlo.unary main_c_264 main_v830 (broadcastInDim S500000 ![] bcast_S_S500000 : (⟨S_, .i32⟩ : BufTy).Contents (Elt F) → (⟨S500000, .i32⟩ : BufTy).Contents (Elt F)),
    StableHlo.binary main_v824 main_v830 main_v831 (addi : (⟨S500000, .i32⟩ : BufTy).Contents (Elt F) → (⟨S500000, .i32⟩ : BufTy).Contents (Elt F) → (⟨S500000, .i32⟩ : BufTy).Contents (Elt F)),
    StableHlo.ternary main_v829 main_v831 main_v824 main_v832 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_265 (constantI S_ 32 0#32),
    StableHlo.unary main_c_265 main_v833 (broadcastInDim S500000 ![] bcast_S_S500000 : (⟨S_, .i32⟩ : BufTy).Contents (Elt F) → (⟨S500000, .i32⟩ : BufTy).Contents (Elt F)),
    StableHlo.binary main_v820 main_v833 main_v834 (cmpi .slt : (⟨S500000, .i32⟩ : BufTy).Contents (Elt F) → (⟨S500000, .i32⟩ : BufTy).Contents (Elt F) → (⟨S500000, .i1⟩ : BufTy).Contents (Elt F)),
    StableHlo.nullary main_c_266 (constantI S_ 32 512#32),
    StableHlo.unary main_c_266 main_v835 (broadcastInDim S500000 ![] bcast_S_S500000 : (⟨S_, .i32⟩ : BufTy).Contents (Elt F) → (⟨S500000, .i32⟩ : BufTy).Contents (Elt F)),
    StableHlo.binary main_v820 main_v835 main_v836 (addi : (⟨S500000, .i32⟩ : BufTy).Contents (Elt F) → (⟨S500000, .i32⟩ : BufTy).Contents (Elt F) → (⟨S500000, .i32⟩ : BufTy).Contents (Elt F)),
    StableHlo.ternary main_v834 main_v836 main_v820 main_v837 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v832 main_v838 (broadcastInDim S500000x1 ![0] bcast_S500000_S500000x1_0 : (⟨S500000, .i32⟩ : BufTy).Contents (Elt F) → (⟨S500000x1, .i32⟩ : BufTy).Contents (Elt F)),
    StableHlo.unary main_v837 main_v839 (broadcastInDim S500000x1 ![0] bcast_S500000_S500000x1_0 : (⟨S500000, .i32⟩ : BufTy).Contents (Elt F) → (⟨S500000x1, .i32⟩ : BufTy).Contents (Elt F)),
    StableHlo.binary main_v838 main_v839 main_v840 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg20 main_v840 main_v841 ((fun x i => Host.gather gather_S8x512x512_S500000x2_S8x500000_0_12_n_n_12_1_811 x i) : (⟨S8x512x512, .f32⟩ : BufTy).Contents (Elt F) → (⟨S500000x2, .i32⟩ : BufTy).Contents (Elt F) → (⟨S8x500000, .f32⟩ : BufTy).Contents (Elt F)),
    StableHlo.nullary main_c_267 (constantI S_ 32 0#32),
    StableHlo.unary main_c_267 main_v842 (broadcastInDim S500000 ![] bcast_S_S500000 : (⟨S_, .i32⟩ : BufTy).Contents (Elt F) → (⟨S500000, .i32⟩ : BufTy).Contents (Elt F)),
    StableHlo.binary main_v824 main_v842 main_v843 (cmpi .slt : (⟨S500000, .i32⟩ : BufTy).Contents (Elt F) → (⟨S500000, .i32⟩ : BufTy).Contents (Elt F) → (⟨S500000, .i1⟩ : BufTy).Contents (Elt F)),
    StableHlo.nullary main_c_268 (constantI S_ 32 512#32),
    StableHlo.unary main_c_268 main_v844 (broadcastInDim S500000 ![] bcast_S_S500000 : (⟨S_, .i32⟩ : BufTy).Contents (Elt F) → (⟨S500000, .i32⟩ : BufTy).Contents (Elt F)),
    StableHlo.binary main_v824 main_v844 main_v845 (addi : (⟨S500000, .i32⟩ : BufTy).Contents (Elt F) → (⟨S500000, .i32⟩ : BufTy).Contents (Elt F) → (⟨S500000, .i32⟩ : BufTy).Contents (Elt F)),
    StableHlo.ternary main_v843 main_v845 main_v824 main_v846 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_269 (constantI S_ 32 0#32),
    StableHlo.unary main_c_269 main_v847 (broadcastInDim S500000 ![] bcast_S_S500000 : (⟨S_, .i32⟩ : BufTy).Contents (Elt F) → (⟨S500000, .i32⟩ : BufTy).Contents (Elt F)),
    StableHlo.binary main_v823 main_v847 main_v848 (cmpi .slt : (⟨S500000, .i32⟩ : BufTy).Contents (Elt F) → (⟨S500000, .i32⟩ : BufTy).Contents (Elt F) → (⟨S500000, .i1⟩ : BufTy).Contents (Elt F)),
    StableHlo.nullary main_c_270 (constantI S_ 32 512#32),
    StableHlo.unary main_c_270 main_v849 (broadcastInDim S500000 ![] bcast_S_S500000 : (⟨S_, .i32⟩ : BufTy).Contents (Elt F) → (⟨S500000, .i32⟩ : BufTy).Contents (Elt F)),
    StableHlo.binary main_v823 main_v849 main_v850 (addi : (⟨S500000, .i32⟩ : BufTy).Contents (Elt F) → (⟨S500000, .i32⟩ : BufTy).Contents (Elt F) → (⟨S500000, .i32⟩ : BufTy).Contents (Elt F)),
    StableHlo.ternary main_v848 main_v850 main_v823 main_v851 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v846 main_v852 (broadcastInDim S500000x1 ![0] bcast_S500000_S500000x1_0 : (⟨S500000, .i32⟩ : BufTy).Contents (Elt F) → (⟨S500000x1, .i32⟩ : BufTy).Contents (Elt F)),
    StableHlo.unary main_v851 main_v853 (broadcastInDim S500000x1 ![0] bcast_S500000_S500000x1_0 : (⟨S500000, .i32⟩ : BufTy).Contents (Elt F) → (⟨S500000x1, .i32⟩ : BufTy).Contents (Elt F)),
    StableHlo.binary main_v852 main_v853 main_v854 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg20 main_v854 main_v855 ((fun x i => Host.gather gather_S8x512x512_S500000x2_S8x500000_0_12_n_n_12_1_811 x i) : (⟨S8x512x512, .f32⟩ : BufTy).Contents (Elt F) → (⟨S500000x2, .i32⟩ : BufTy).Contents (Elt F) → (⟨S8x500000, .f32⟩ : BufTy).Contents (Elt F)),
    StableHlo.nullary main_c_271 (constantI S_ 32 0#32),
    StableHlo.unary main_c_271 main_v856 (broadcastInDim S500000 ![] bcast_S_S500000 : (⟨S_, .i32⟩ : BufTy).Contents (Elt F) → (⟨S500000, .i32⟩ : BufTy).Contents (Elt F)),
    StableHlo.binary main_v827 main_v856 main_v857 (cmpi .slt : (⟨S500000, .i32⟩ : BufTy).Contents (Elt F) → (⟨S500000, .i32⟩ : BufTy).Contents (Elt F) → (⟨S500000, .i1⟩ : BufTy).Contents (Elt F)),
    StableHlo.nullary main_c_272 (constantI S_ 32 512#32),
    StableHlo.unary main_c_272 main_v858 (broadcastInDim S500000 ![] bcast_S_S500000 : (⟨S_, .i32⟩ : BufTy).Contents (Elt F) → (⟨S500000, .i32⟩ : BufTy).Contents (Elt F)),
    StableHlo.binary main_v827 main_v858 main_v859 (addi : (⟨S500000, .i32⟩ : BufTy).Contents (Elt F) → (⟨S500000, .i32⟩ : BufTy).Contents (Elt F) → (⟨S500000, .i32⟩ : BufTy).Contents (Elt F)),
    StableHlo.ternary main_v857 main_v859 main_v827 main_v860 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_273 (constantI S_ 32 0#32),
    StableHlo.unary main_c_273 main_v861 (broadcastInDim S500000 ![] bcast_S_S500000 : (⟨S_, .i32⟩ : BufTy).Contents (Elt F) → (⟨S500000, .i32⟩ : BufTy).Contents (Elt F)),
    StableHlo.binary main_v820 main_v861 main_v862 (cmpi .slt : (⟨S500000, .i32⟩ : BufTy).Contents (Elt F) → (⟨S500000, .i32⟩ : BufTy).Contents (Elt F) → (⟨S500000, .i1⟩ : BufTy).Contents (Elt F)),
    StableHlo.nullary main_c_274 (constantI S_ 32 512#32),
    StableHlo.unary main_c_274 main_v863 (broadcastInDim S500000 ![] bcast_S_S500000 : (⟨S_, .i32⟩ : BufTy).Contents (Elt F) → (⟨S500000, .i32⟩ : BufTy).Contents (Elt F)),
    StableHlo.binary main_v820 main_v863 main_v864 (addi : (⟨S500000, .i32⟩ : BufTy).Contents (Elt F) → (⟨S500000, .i32⟩ : BufTy).Contents (Elt F) → (⟨S500000, .i32⟩ : BufTy).Contents (Elt F)),
    StableHlo.ternary main_v862 main_v864 main_v820 main_v865 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v860 main_v866 (broadcastInDim S500000x1 ![0] bcast_S500000_S500000x1_0 : (⟨S500000, .i32⟩ : BufTy).Contents (Elt F) → (⟨S500000x1, .i32⟩ : BufTy).Contents (Elt F)),
    StableHlo.unary main_v865 main_v867 (broadcastInDim S500000x1 ![0] bcast_S500000_S500000x1_0 : (⟨S500000, .i32⟩ : BufTy).Contents (Elt F) → (⟨S500000x1, .i32⟩ : BufTy).Contents (Elt F)),
    StableHlo.binary main_v866 main_v867 main_v868 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg20 main_v868 main_v869 ((fun x i => Host.gather gather_S8x512x512_S500000x2_S8x500000_0_12_n_n_12_1_811 x i) : (⟨S8x512x512, .f32⟩ : BufTy).Contents (Elt F) → (⟨S500000x2, .i32⟩ : BufTy).Contents (Elt F) → (⟨S8x500000, .f32⟩ : BufTy).Contents (Elt F)),
    StableHlo.nullary main_c_275 (constantI S_ 32 0#32),
    StableHlo.unary main_c_275 main_v870 (broadcastInDim S500000 ![] bcast_S_S500000 : (⟨S_, .i32⟩ : BufTy).Contents (Elt F) → (⟨S500000, .i32⟩ : BufTy).Contents (Elt F)),
    StableHlo.binary main_v827 main_v870 main_v871 (cmpi .slt : (⟨S500000, .i32⟩ : BufTy).Contents (Elt F) → (⟨S500000, .i32⟩ : BufTy).Contents (Elt F) → (⟨S500000, .i1⟩ : BufTy).Contents (Elt F)),
    StableHlo.nullary main_c_276 (constantI S_ 32 512#32),
    StableHlo.unary main_c_276 main_v872 (broadcastInDim S500000 ![] bcast_S_S500000 : (⟨S_, .i32⟩ : BufTy).Contents (Elt F) → (⟨S500000, .i32⟩ : BufTy).Contents (Elt F)),
    StableHlo.binary main_v827 main_v872 main_v873 (addi : (⟨S500000, .i32⟩ : BufTy).Contents (Elt F) → (⟨S500000, .i32⟩ : BufTy).Contents (Elt F) → (⟨S500000, .i32⟩ : BufTy).Contents (Elt F)),
    StableHlo.ternary main_v871 main_v873 main_v827 main_v874 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_277 (constantI S_ 32 0#32),
    StableHlo.unary main_c_277 main_v875 (broadcastInDim S500000 ![] bcast_S_S500000 : (⟨S_, .i32⟩ : BufTy).Contents (Elt F) → (⟨S500000, .i32⟩ : BufTy).Contents (Elt F)),
    StableHlo.binary main_v823 main_v875 main_v876 (cmpi .slt : (⟨S500000, .i32⟩ : BufTy).Contents (Elt F) → (⟨S500000, .i32⟩ : BufTy).Contents (Elt F) → (⟨S500000, .i1⟩ : BufTy).Contents (Elt F)),
    StableHlo.nullary main_c_278 (constantI S_ 32 512#32),
    StableHlo.unary main_c_278 main_v877 (broadcastInDim S500000 ![] bcast_S_S500000 : (⟨S_, .i32⟩ : BufTy).Contents (Elt F) → (⟨S500000, .i32⟩ : BufTy).Contents (Elt F)),
    StableHlo.binary main_v823 main_v877 main_v878 (addi : (⟨S500000, .i32⟩ : BufTy).Contents (Elt F) → (⟨S500000, .i32⟩ : BufTy).Contents (Elt F) → (⟨S500000, .i32⟩ : BufTy).Contents (Elt F)),
    StableHlo.ternary main_v876 main_v878 main_v823 main_v879 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v874 main_v880 (broadcastInDim S500000x1 ![0] bcast_S500000_S500000x1_0 : (⟨S500000, .i32⟩ : BufTy).Contents (Elt F) → (⟨S500000x1, .i32⟩ : BufTy).Contents (Elt F)),
    StableHlo.unary main_v879 main_v881 (broadcastInDim S500000x1 ![0] bcast_S500000_S500000x1_0 : (⟨S500000, .i32⟩ : BufTy).Contents (Elt F) → (⟨S500000x1, .i32⟩ : BufTy).Contents (Elt F)),
    StableHlo.binary main_v880 main_v881 main_v882 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg20 main_v882 main_v883 ((fun x i => Host.gather gather_S8x512x512_S500000x2_S8x500000_0_12_n_n_12_1_811 x i) : (⟨S8x512x512, .f32⟩ : BufTy).Contents (Elt F) → (⟨S500000x2, .i32⟩ : BufTy).Contents (Elt F) → (⟨S8x500000, .f32⟩ : BufTy).Contents (Elt F)),
    StableHlo.nullary main_cst_279 (constant S_ .f32 0x3F800000#32),
    StableHlo.unary main_cst_279 main_v884 (broadcastInDim S500000 ![] bcast_S_S500000 : (⟨S_, .f32⟩ : BufTy).Contents (Elt F) → (⟨S500000, .f32⟩ : BufTy).Contents (Elt F)),
    StableHlo.binary main_v884 main_v817 main_v885 (subf : (⟨S500000, .f32⟩ : BufTy).Contents (Elt F) → (⟨S500000, .f32⟩ : BufTy).Contents (Elt F) → (⟨S500000, .f32⟩ : BufTy).Contents (Elt F)),
    StableHlo.unary main_v885 main_v886 (broadcastInDim S1x500000 ![1] bcast_S500000_S1x500000_1 : (⟨S500000, .f32⟩ : BufTy).Contents (Elt F) → (⟨S1x500000, .f32⟩ : BufTy).Contents (Elt F)),
    StableHlo.unary main_v886 main_v887 (broadcastInDim S8x500000 ![0, 1] bcast_S1x500000_S8x500000_0_1 : (⟨S1x500000, .f32⟩ : BufTy).Contents (Elt F) → (⟨S8x500000, .f32⟩ : BufTy).Contents (Elt F)),
    StableHlo.binary main_v841 main_v887 main_v888 (mulf : (⟨S8x500000, .f32⟩ : BufTy).Contents (Elt F) → (⟨S8x500000, .f32⟩ : BufTy).Contents (Elt F) → (⟨S8x500000, .f32⟩ : BufTy).Contents (Elt F)),
    StableHlo.unary main_v817 main_v889 (broadcastInDim S1x500000 ![1] bcast_S500000_S1x500000_1 : (⟨S500000, .f32⟩ : BufTy).Contents (Elt F) → (⟨S1x500000, .f32⟩ : BufTy).Contents (Elt F)),
    StableHlo.unary main_v889 main_v890 (broadcastInDim S8x500000 ![0, 1] bcast_S1x500000_S8x500000_0_1 : (⟨S1x500000, .f32⟩ : BufTy).Contents (Elt F) → (⟨S8x500000, .f32⟩ : BufTy).Contents (Elt F)),
    StableHlo.binary main_v855 main_v890 main_v891 (mulf : (⟨S8x500000, .f32⟩ : BufTy).Contents (Elt F) → (⟨S8x500000, .f32⟩ : BufTy).Contents (Elt F) → (⟨S8x500000, .f32⟩ : BufTy).Contents (Elt F)),
    StableHlo.binary main_v888 main_v891 main_v892 (addf : (⟨S8x500000, .f32⟩ : BufTy).Contents (Elt F) → (⟨S8x500000, .f32⟩ : BufTy).Contents (Elt F) → (⟨S8x500000, .f32⟩ : BufTy).Contents (Elt F)),
    StableHlo.nullary main_cst_280 (constant S_ .f32 0x3F800000#32),
    StableHlo.unary main_cst_280 main_v893 (broadcastInDim S500000 ![] bcast_S_S500000 : (⟨S_, .f32⟩ : BufTy).Contents (Elt F) → (⟨S500000, .f32⟩ : BufTy).Contents (Elt F)),
    StableHlo.binary main_v893 main_v817 main_v894 (subf : (⟨S500000, .f32⟩ : BufTy).Contents (Elt F) → (⟨S500000, .f32⟩ : BufTy).Contents (Elt F) → (⟨S500000, .f32⟩ : BufTy).Contents (Elt F)),
    StableHlo.unary main_v894 main_v895 (broadcastInDim S1x500000 ![1] bcast_S500000_S1x500000_1 : (⟨S500000, .f32⟩ : BufTy).Contents (Elt F) → (⟨S1x500000, .f32⟩ : BufTy).Contents (Elt F)),
    StableHlo.unary main_v895 main_v896 (broadcastInDim S8x500000 ![0, 1] bcast_S1x500000_S8x500000_0_1 : (⟨S1x500000, .f32⟩ : BufTy).Contents (Elt F) → (⟨S8x500000, .f32⟩ : BufTy).Contents (Elt F)),
    StableHlo.binary main_v869 main_v896 main_v897 (mulf : (⟨S8x500000, .f32⟩ : BufTy).Contents (Elt F) → (⟨S8x500000, .f32⟩ : BufTy).Contents (Elt F) → (⟨S8x500000, .f32⟩ : BufTy).Contents (Elt F)),
    StableHlo.unary main_v817 main_v898 (broadcastInDim S1x500000 ![1] bcast_S500000_S1x500000_1 : (⟨S500000, .f32⟩ : BufTy).Contents (Elt F) → (⟨S1x500000, .f32⟩ : BufTy).Contents (Elt F)),
    StableHlo.unary main_v898 main_v899 (broadcastInDim S8x500000 ![0, 1] bcast_S1x500000_S8x500000_0_1 : (⟨S1x500000, .f32⟩ : BufTy).Contents (Elt F) → (⟨S8x500000, .f32⟩ : BufTy).Contents (Elt F)),
    StableHlo.binary main_v883 main_v899 main_v900 (mulf : (⟨S8x500000, .f32⟩ : BufTy).Contents (Elt F) → (⟨S8x500000, .f32⟩ : BufTy).Contents (Elt F) → (⟨S8x500000, .f32⟩ : BufTy).Contents (Elt F)),
    StableHlo.binary main_v897 main_v900 main_v901 (addf : (⟨S8x500000, .f32⟩ : BufTy).Contents (Elt F) → (⟨S8x500000, .f32⟩ : BufTy).Contents (Elt F) → (⟨S8x500000, .f32⟩ : BufTy).Contents (Elt F)),
    StableHlo.nullary main_cst_281 (constant S_ .f32 0x3F800000#32),
    StableHlo.unary main_cst_281 main_v902 (broadcastInDim S500000 ![] bcast_S_S500000 : (⟨S_, .f32⟩ : BufTy).Contents (Elt F) → (⟨S500000, .f32⟩ : BufTy).Contents (Elt F)),
    StableHlo.binary main_v902 main_v819 main_v903 (subf : (⟨S500000, .f32⟩ : BufTy).Contents (Elt F) → (⟨S500000, .f32⟩ : BufTy).Contents (Elt F) → (⟨S500000, .f32⟩ : BufTy).Contents (Elt F)),
    StableHlo.unary main_v903 main_v904 (broadcastInDim S1x500000 ![1] bcast_S500000_S1x500000_1 : (⟨S500000, .f32⟩ : BufTy).Contents (Elt F) → (⟨S1x500000, .f32⟩ : BufTy).Contents (Elt F)),
    StableHlo.unary main_v904 main_v905 (broadcastInDim S8x500000 ![0, 1] bcast_S1x500000_S8x500000_0_1 : (⟨S1x500000, .f32⟩ : BufTy).Contents (Elt F) → (⟨S8x500000, .f32⟩ : BufTy).Contents (Elt F)),
    StableHlo.binary main_v892 main_v905 main_v906 (mulf : (⟨S8x500000, .f32⟩ : BufTy).Contents (Elt F) → (⟨S8x500000, .f32⟩ : BufTy).Contents (Elt F) → (⟨S8x500000, .f32⟩ : BufTy).Contents (Elt F)),
    StableHlo.unary main_v819 main_v907 (broadcastInDim S1x500000 ![1] bcast_S500000_S1x500000_1 : (⟨S500000, .f32⟩ : BufTy).Contents (Elt F) → (⟨S1x500000, .f32⟩ : BufTy).Contents (Elt F)),
    StableHlo.unary main_v907 main_v908 (broadcastInDim S8x500000 ![0, 1] bcast_S1x500000_S8x500000_0_1 : (⟨S1x500000, .f32⟩ : BufTy).Contents (Elt F) → (⟨S8x500000, .f32⟩ : BufTy).Contents (Elt F)),
    StableHlo.binary main_v901 main_v908 main_v909 (mulf : (⟨S8x500000, .f32⟩ : BufTy).Contents (Elt F) → (⟨S8x500000, .f32⟩ : BufTy).Contents (Elt F) → (⟨S8x500000, .f32⟩ : BufTy).Contents (Elt F)),
    StableHlo.binary main_v906 main_v909 main_v910 (addf : (⟨S8x500000, .f32⟩ : BufTy).Contents (Elt F) → (⟨S8x500000, .f32⟩ : BufTy).Contents (Elt F) → (⟨S8x500000, .f32⟩ : BufTy).Contents (Elt F)),
    StableHlo.unary main_v910 main_v911 ((transpose S500000x8 [1, 0] · transposes_S8x500000_S500000x8_1_0) : (⟨S8x500000, .f32⟩ : BufTy).Contents (Elt F) → (⟨S500000x8, .f32⟩ : BufTy).Contents (Elt F)) ]

/-- Operations 1356 … 1522 (167): level 2, plane yz. -/
abbrev opsB2c : List (HloOp τ sig (Elt F)) :=
  [ StableHlo.nullary main_cst_282 (constant S_ .f32 0x3F800000#32),
    StableHlo.unary main_cst_282 main_v912 (broadcastInDim S500000 ![] bcast_S_S500000 : (⟨S_, .f32⟩ : BufTy).Contents (Elt F) → (⟨S500000, .f32⟩ : BufTy).Contents (Elt F)),
    StableHlo.binary main_v13 main_v912 main_v913 (addf : (⟨S500000, .f32⟩ : BufTy).Contents (Elt F) → (⟨S500000, .f32⟩ : BufTy).Contents (Elt F) → (⟨S500000, .f32⟩ : BufTy).Contents (Elt F)),
    StableHlo.nullary main_cst_283 (constant S_ .f32 0x3F000000#32),
    StableHlo.unary main_cst_283 main_v914 (broadcastInDim S500000 ![] bcast_S_S500000 : (⟨S_, .f32⟩ : BufTy).Contents (Elt F) → (⟨S500000, .f32⟩ : BufTy).Contents (Elt F)),
    StableHlo.binary main_v913 main_v914 main_v915 (mulf : (⟨S500000, .f32⟩ : BufTy).Contents (Elt F) → (⟨S500000, .f32⟩ : BufTy).Contents (Elt F) → (⟨S500000, .f32⟩ : BufTy).Contents (Elt F)),
    StableHlo.nullary main_cst_284 (constant S_ .f32 0x43FF8000#32),
    StableHlo.unary main_cst_284 main_v916 (broadcastInDim S500000 ![] bcast_S_S500000 : (⟨S_, .f32⟩ : BufTy).Contents (Elt F) → (⟨S500000, .f32⟩ : BufTy).Contents (Elt F)),
    StableHlo.binary main_v915 main_v916 main_v917 (mulf : (⟨S500000, .f32⟩ : BufTy).Contents (Elt F) → (⟨S500000, .f32⟩ : BufTy).Contents (Elt F) → (⟨S500000, .f32⟩ : BufTy).Contents (Elt F)),
    StableHlo.nullary main_cst_285 (constant S_ .f32 0x3F800000#32),
    StableHlo.unary main_cst_285 main_v918 (broadcastInDim S500000 ![] bcast_S_S500000 : (⟨S_, .f32⟩ : BufTy).Contents (Elt F) → (⟨S500000, .f32⟩ : BufTy).Contents (Elt F)),
    StableHlo.binary main_v11 main_v918 main_v919 (addf : (⟨S500000, .f32⟩ : BufTy).Contents (Elt F) → (⟨S500000, .f32⟩ : BufTy).Contents (Elt F) → (⟨S500000, .f32⟩ : BufTy).Contents (Elt F)),
    StableHlo.nullary main_cst_286 (constant S_ .f32 0x3F000000#32),
    StableHlo.unary main_cst_286 main_v920 (broadcastInDim S500000 ![] bcast_S_S500000 : (⟨S_, .f32⟩ : BufTy).Contents (Elt F) → (⟨S500000, .f32⟩ : BufTy).Contents (Elt F)),
    StableHlo.binary main_v919 main_v920 main_v921 (mulf : (⟨S500000, .f32⟩ : BufTy).Contents (Elt F) → (⟨S500000, .f32⟩ : BufTy).Contents (Elt F) → (⟨S500000, .f32⟩ : BufTy).Contents (Elt F)),
    StableHlo.nullary main_cst_287 (constant S_ .f32 0x43FF8000#32),
    StableHlo.unary main_cst_287 main_v922 (broadcastInDim S500000 ![] bcast_S_S500000 : (⟨S_, .f32⟩ : BufTy).Contents (Elt F) → (⟨S500000, .f32⟩ : BufTy).Contents (Elt F)),
    StableHlo.binary main_v921 main_v922 main_v923 (mulf : (⟨S500000, .f32⟩ : BufTy).Contents (Elt F) → (⟨S500000, .f32⟩ : BufTy).Contents (Elt F) → (⟨S500000, .f32⟩ : BufTy).Contents (Elt F)),
    StableHlo.unary main_v917 main_v924 (Host.floor : (⟨S500000, .f32⟩ : BufTy).Contents (Elt F) → (⟨S500000, .f32⟩ : BufTy).Contents (Elt F)),
    StableHlo.unary main_v924 main_v925 (fptosi 32 : (⟨S500000, .f32⟩ : BufTy).Contents (Elt F) → (⟨S500000, .i32⟩ : BufTy).Contents (Elt F)),
    StableHlo.unary main_v923 main_v926 (Host.floor : (⟨S500000, .f32⟩ : BufTy).Contents (Elt F) → (⟨S500000, .f32⟩ : BufTy).Contents (Elt F)),
    StableHlo.unary main_v926 main_v927 (fptosi 32 : (⟨S500000, .f32⟩ : BufTy).Contents (Elt F) → (⟨S500000, .i32⟩ : BufTy).Contents (Elt F)),
    StableHlo.unary main_v925 main_v928 (sitofp .f32 : (⟨S500000, .i32⟩ : BufTy).Contents (Elt F) → (⟨S500000, .f32⟩ : BufTy).Contents (Elt F)),
    StableHlo.binary main_v917 main_v928 main_v929 (subf : (⟨S500000, .f32⟩ : BufTy).Contents (Elt F) → (⟨S500000, .f32⟩ : BufTy).Contents (Elt F) → (⟨S500000, .f32⟩ : BufTy).Contents (Elt F)),
    StableHlo.unary main_v927 main_v930 (sitofp .f32 : (⟨S500000, .i32⟩ : BufTy).Contents (Elt F) → (⟨S500000, .f32⟩ : BufTy).Contents (Elt F)),
    StableHlo.binary main_v923 main_v930 main_v931 (subf : (⟨S500000, .f32⟩ : BufTy).Contents (Elt F) → (⟨S500000, .f32⟩ : BufTy).Contents (Elt F) → (⟨S500000, .f32⟩ : BufTy).Contents (Elt F)),
    StableHlo.nullary main_c_288 (constantI S_ 32 0#32),
    StableHlo.nullary main_c_289 (constantI S_ 32 511#32),
    StableHlo.TRef.unary (.of main_c_288 : StableHlo.TRef sig ⟨S_, .i32⟩) (.of main_call32_v0 : StableHlo.TRef sig ⟨S_, .i32⟩) id,
    StableHlo.TRef.unary (.of main_call32_v0 : StableHlo.TRef sig ⟨S_, .i32⟩) (.of main_call32_v1 : StableHlo.TRef sig ⟨S500000, .i32⟩) (broadcastInDim S500000 ![] bcast_S_S500000),
    StableHlo.TRef.binary (.of main_call32_v1 : StableHlo.TRef sig ⟨S500000, .i32⟩) (.of main_v925 : StableHlo.TRef sig ⟨S500000, .i32⟩) (.of main_call32_v2 : StableHlo.TRef sig ⟨S500000, .i32⟩) maxsi,
    StableHlo.TRef.unary (.of main_c_289 : StableHlo.TRef sig ⟨S_, .i32⟩) (.of main_call32_v3 : StableHlo.TRef sig ⟨S_, .i32⟩) id,
    StableHlo.TRef.unary (.of main_call32_v3 : StableHlo.TRef sig ⟨S_, .i32⟩) (.of main_call32_v4 : StableHlo.TRef sig ⟨S500000, .i32⟩) (broadcastInDim S500000 ![] bcast_S_S500000),
    StableHlo.TRef.binary (.of main_call32_v4 : StableHlo.TRef sig ⟨S500000, .i32⟩) (.of main_call32_v2 : StableHlo.TRef sig ⟨S500000, .i32⟩) (.of main_v932 : StableHlo.TRef sig ⟨S500000, .i32⟩) minsi,
    StableHlo.nullary main_c_290 (constantI S_ 32 1#32),
    StableHlo.unary main_c_290 main_v933 (broadcastInDim S500000 ![] bcast_S_S500000 : (⟨S_, .i32⟩ : BufTy).Contents (Elt F) → (⟨S500000, .i32⟩ : BufTy).Contents (Elt F)),
    StableHlo.binary main_v925 main_v933 main_v934 (addi : (⟨S500000, .i32⟩ : BufTy).Contents (Elt F) → (⟨S500000, .i32⟩ : BufTy).Contents (Elt F) → (⟨S500000, .i32⟩ : BufTy).Contents (Elt F)),
    StableHlo.nullary main_c_291 (constantI S_ 32 0#32),
    StableHlo.nullary main_c_292 (constantI S_ 32 511#32),
    StableHlo.TRef.unary (.of main_c_291 : StableHlo.TRef sig ⟨S_, .i32⟩) (.of main_call33_v0 : StableHlo.TRef sig ⟨S_, .i32⟩) id,
    StableHlo.TRef.unary (.of main_call33_v0 : StableHlo.TRef sig ⟨S_, .i32⟩) (.of main_call33_v1 : StableHlo.TRef sig ⟨S500000, .i32⟩) (broadcastInDim S500000 ![] bcast_S_S500000),
    StableHlo.TRef.binary (.of main_call33_v1 : StableHlo.TRef sig ⟨S500000, .i32⟩) (.of main_v934 : StableHlo.TRef sig ⟨S500000, .i32⟩) (.of main_call33_v2 : StableHlo.TRef sig ⟨S500000, .i32⟩) maxsi,
    StableHlo.TRef.unary (.of main_c_292 : StableHlo.TRef sig ⟨S_, .i32⟩) (.of main_call33_v3 : StableHlo.TRef sig ⟨S_, .i32⟩) id,
    StableHlo.TRef.unary (.of main_call33_v3 : StableHlo.TRef sig ⟨S_, .i32⟩) (.of main_call33_v4 : StableHlo.TRef sig ⟨S500000, .i32⟩) (broadcastInDim S500000 ![] bcast_S_S500000),
    StableHlo.TRef.binary (.of main_call33_v4 : StableHlo.TRef sig ⟨S500000, .i32⟩) (.of main_call33_v2 : StableHlo.TRef sig ⟨S500000, .i32⟩) (.of main_v935 : StableHlo.TRef sig ⟨S500000, .i32⟩) minsi,
    StableHlo.nullary main_c_293 (constantI S_ 32 0#32),
    StableHlo.nullary main_c_294 (constantI S_ 32 511#32),
    StableHlo.TRef.unary (.of main_c_293 : StableHlo.TRef sig ⟨S_, .i32⟩) (.of main_call34_v0 : StableHlo.TRef sig ⟨S_, .i32⟩) id,
    StableHlo.TRef.unary (.of main_call34_v0 : StableHlo.TRef sig ⟨S_, .i32⟩) (.of main_call34_v1 : StableHlo.TRef sig ⟨S500000, .i32⟩) (broadcastInDim S500000 ![] bcast_S_S500000),
    StableHlo.TRef.binary (.of main_call34_v1 : StableHlo.TRef sig ⟨S500000, .i32⟩) (.of main_v927 : StableHlo.TRef sig ⟨S500000, .i32⟩) (.of main_call34_v2 : StableHlo.TRef sig ⟨S500000, .i32⟩) maxsi,
    StableHlo.TRef.unary (.of main_c_294 : StableHlo.TRef sig ⟨S_, .i32⟩) (.of main_call34_v3 : StableHlo.TRef sig ⟨S_, .i32⟩) id,
    StableHlo.TRef.unary (.of main_call34_v3 : StableHlo.TRef sig ⟨S_, .i32⟩) (.of main_call34_v4 : StableHlo.TRef sig ⟨S500000, .i32⟩) (broadcastInDim S500000 ![] bcast_S_S500000),
    StableHlo.TRef.binary (.of main_call34_v4 : StableHlo.TRef sig ⟨S500000, .i32⟩) (.of main_call34_v2 : StableHlo.TRef sig ⟨S500000, .i32⟩) (.of main_v936 : StableHlo.TRef sig ⟨S500000, .i32⟩) minsi,
    StableHlo.nullary main_c_295 (constantI S_ 32 1#32),
    StableHlo.unary main_c_295 main_v937 (broadcastInDim S500000 ![] bcast_S_S500000 : (⟨S_, .i32⟩ : BufTy).Contents (Elt F) → (⟨S500000, .i32⟩ : BufTy).Contents (Elt F)),
    StableHlo.binary main_v927 main_v937 main_v938 (addi : (⟨S500000, .i32⟩ : BufTy).Contents (Elt F) → (⟨S500000, .i32⟩ : BufTy).Contents (Elt F) → (⟨S500000, .i32⟩ : BufTy).Contents (Elt F)),
    StableHlo.nullary main_c_296 (constantI S_ 32 0#32),
    StableHlo.nullary main_c_297 (constantI S_ 32 511#32),
    StableHlo.TRef.unary (.of main_c_296 : StableHlo.TRef sig ⟨S_, .i32⟩) (.of main_call35_v0 : StableHlo.TRef sig ⟨S_, .i32⟩) id,
    StableHlo.TRef.unary (.of main_call35_v0 : StableHlo.TRef sig ⟨S_, .i32⟩) (.of main_call35_v1 : StableHlo.TRef sig ⟨S500000, .i32⟩) (broadcastInDim S500000 ![] bcast_S_S500000),
    StableHlo.TRef.binary (.of main_call35_v1 : StableHlo.TRef sig ⟨S500000, .i32⟩) (.of main_v938 : StableHlo.TRef sig ⟨S500000, .i32⟩) (.of main_call35_v2 : StableHlo.TRef sig ⟨S500000, .i32⟩) maxsi,
    StableHlo.TRef.unary (.of main_c_297 : StableHlo.TRef sig ⟨S_, .i32⟩) (.of main_call35_v3 : StableHlo.TRef sig ⟨S_, .i32⟩) id,
    StableHlo.TRef.unary (.of main_call35_v3 : StableHlo.TRef sig ⟨S_, .i32⟩) (.of main_call35_v4 : StableHlo.TRef sig ⟨S500000, .i32⟩) (broadcastInDim S500000 ![] bcast_S_S500000),
    StableHlo.TRef.binary (.of main_call35_v4 : StableHlo.TRef sig ⟨S500000, .i32⟩) (.of main_call35_v2 : StableHlo.TRef sig ⟨S500000, .i32⟩) (.of main_v939 : StableHlo.TRef sig ⟨S500000, .i32⟩) minsi,
    StableHlo.nullary main_c_298 (constantI S_ 32 0#32),
    StableHlo.unary main_c_298 main_v940 (broadcastInDim S500000 ![] bcast_S_S500000 : (⟨S_, .i32⟩ : BufTy).Contents (Elt F) → (⟨S500000, .i32⟩ : BufTy).Contents (Elt F)),
    StableHlo.binary main_v936 main_v940 main_v941 (cmpi .slt : (⟨S500000, .i32⟩ : BufTy).Contents (Elt F) → (⟨S500000, .i32⟩ : BufTy).Contents (Elt F) → (⟨S500000, .i1⟩ : BufTy).Contents (Elt F)),
    StableHlo.nullary main_c_299 (constantI S_ 32 512#32),
    StableHlo.unary main_c_299 main_v942 (broadcastInDim S500000 ![] bcast_S_S500000 : (⟨S_, .i32⟩ : BufTy).Contents (Elt F) → (⟨S500000, .i32⟩ : BufTy).Contents (Elt F)),
    StableHlo.binary main_v936 main_v942 main_v943 (addi : (⟨S500000, .i32⟩ : BufTy).Contents (Elt F) → (⟨S500000, .i32⟩ : BufTy).Contents (Elt F) → (⟨S500000, .i32⟩ : BufTy).Contents (Elt F)),
    StableHlo.ternary main_v941 main_v943 main_v936 main_v944 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_300 (constantI S_ 32 0#32),
    StableHlo.unary main_c_300 main_v945 (broadcastInDim S500000 ![] bcast_S_S500000 : (⟨S_, .i32⟩ : BufTy).Contents (Elt F) → (⟨S500000, .i32⟩ : BufTy).Contents (Elt F)),
    StableHlo.binary main_v932 main_v945 main_v946 (cmpi .slt : (⟨S500000, .i32⟩ : BufTy).Contents (Elt F) → (⟨S500000, .i32⟩ : BufTy).Contents (Elt F) → (⟨S500000, .i1⟩ : BufTy).Contents (Elt F)),
    StableHlo.nullary main_c_301 (constantI S_ 32 512#32),
    StableHlo.unary main_c_301 main_v947 (broadcastInDim S500000 ![] bcast_S_S500000 : (⟨S_, .i32⟩ : BufTy).Contents (Elt F) → (⟨S500000, .i32⟩ : BufTy).Contents (Elt F)),
    StableHlo.binary main_v932 main_v947 main_v948 (addi : (⟨S500000, .i32⟩ : BufTy).Contents (Elt F) → (⟨S500000, .i32⟩ : BufTy).Contents (Elt F) → (⟨S500000, .i32⟩ : BufTy).Contents (Elt F)),
    StableHlo.ternary main_v946 main_v948 main_v932 main_v949 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v944 main_v950 (broadcastInDim S500000x1 ![0] bcast_S500000_S500000x1_0 : (⟨S500000, .i32⟩ : BufTy).Contents (Elt F) → (⟨S500000x1, .i32⟩ : BufTy).Contents (Elt F)),
    StableHlo.unary main_v949 main_v951 (broadcastInDim S500000x1 ![0] bcast_S500000_S500000x1_0 : (⟨S500000, .i32⟩ : BufTy).Contents (Elt F) → (⟨S500000x1, .i32⟩ : BufTy).Contents (Elt F)),
    StableHlo.binary main_v950 main_v951 main_v952 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg21 main_v952 main_v953 ((fun x i => Host.gather gather_S8x512x512_S500000x2_S8x500000_0_12_n_n_12_1_811 x i) : (⟨S8x512x512, .f32⟩ : BufTy).Contents (Elt F) → (⟨S500000x2, .i32⟩ : BufTy).Contents (Elt F) → (⟨S8x500000, .f32⟩ : BufTy).Contents (Elt F)),
    StableHlo.nullary main_c_302 (constantI S_ 32 0#32),
    StableHlo.unary main_c_302 main_v954 (broadcastInDim S500000 ![] bcast_S_S500000 : (⟨S_, .i32⟩ : BufTy).Contents (Elt F) → (⟨S500000, .i32⟩ : BufTy).Contents (Elt F)),
    StableHlo.binary main_v936 main_v954 main_v955 (cmpi .slt : (⟨S500000, .i32⟩ : BufTy).Contents (Elt F) → (⟨S500000, .i32⟩ : BufTy).Contents (Elt F) → (⟨S500000, .i1⟩ : BufTy).Contents (Elt F)),
    StableHlo.nullary main_c_303 (constantI S_ 32 512#32),
    StableHlo.unary main_c_303 main_v956 (broadcastInDim S500000 ![] bcast_S_S500000 : (⟨S_, .i32⟩ : BufTy).Contents (Elt F) → (⟨S500000, .i32⟩ : BufTy).Contents (Elt F)),
    StableHlo.binary main_v936 main_v956 main_v957 (addi : (⟨S500000, .i32⟩ : BufTy).Contents (Elt F) → (⟨S500000, .i32⟩ : BufTy).Contents (Elt F) → (⟨S500000, .i32⟩ : BufTy).Contents (Elt F)),
    StableHlo.ternary main_v955 main_v957 main_v936 main_v958 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_304 (constantI S_ 32 0#32),
    StableHlo.unary main_c_304 main_v959 (broadcastInDim S500000 ![] bcast_S_S500000 : (⟨S_, .i32⟩ : BufTy).Contents (Elt F) → (⟨S500000, .i32⟩ : BufTy).Contents (Elt F)),
    StableHlo.binary main_v935 main_v959 main_v960 (cmpi .slt : (⟨S500000, .i32⟩ : BufTy).Contents (Elt F) → (⟨S500000, .i32⟩ : BufTy).Contents (Elt F) → (⟨S500000, .i1⟩ : BufTy).Contents (Elt F)),
    StableHlo.nullary main_c_305 (constantI S_ 32 512#32),
    StableHlo.unary main_c_305 main_v961 (broadcastInDim S500000 ![] bcast_S_S500000 : (⟨S_, .i32⟩ : BufTy).Contents (Elt F) → (⟨S500000, .i32⟩ : BufTy).Contents (Elt F)),
    StableHlo.binary main_v935 main_v961 main_v962 (addi : (⟨S500000, .i32⟩ : BufTy).Contents (Elt F) → (⟨S500000, .i32⟩ : BufTy).Contents (Elt F) → (⟨S500000, .i32⟩ : BufTy).Contents (Elt F)),
    StableHlo.ternary main_v960 main_v962 main_v935 main_v963 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v958 main_v964 (broadcastInDim S500000x1 ![0] bcast_S500000_S500000x1_0 : (⟨S500000, .i32⟩ : BufTy).Contents (Elt F) → (⟨S500000x1, .i32⟩ : BufTy).Contents (Elt F)),
    StableHlo.unary main_v963 main_v965 (broadcastInDim S500000x1 ![0] bcast_S500000_S500000x1_0 : (⟨S500000, .i32⟩ : BufTy).Contents (Elt F) → (⟨S500000x1, .i32⟩ : BufTy).Contents (Elt F)),
    StableHlo.binary main_v964 main_v965 main_v966 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg21 main_v966 main_v967 ((fun x i => Host.gather gather_S8x512x512_S500000x2_S8x500000_0_12_n_n_12_1_811 x i) : (⟨S8x512x512, .f32⟩ : BufTy).Contents (Elt F) → (⟨S500000x2, .i32⟩ : BufTy).Contents (Elt F) → (⟨S8x500000, .f32⟩ : BufTy).Contents (Elt F)),
    StableHlo.nullary main_c_306 (constantI S_ 32 0#32),
    StableHlo.unary main_c_306 main_v968 (broadcastInDim S500000 ![] bcast_S_S500000 : (⟨S_, .i32⟩ : BufTy).Contents (Elt F) → (⟨S500000, .i32⟩ : BufTy).Contents (Elt F)),
    StableHlo.binary main_v939 main_v968 main_v969 (cmpi .slt : (⟨S500000, .i32⟩ : BufTy).Contents (Elt F) → (⟨S500000, .i32⟩ : BufTy).Contents (Elt F) → (⟨S500000, .i1⟩ : BufTy).Contents (Elt F)),
    StableHlo.nullary main_c_307 (constantI S_ 32 512#32),
    StableHlo.unary main_c_307 main_v970 (broadcastInDim S500000 ![] bcast_S_S500000 : (⟨S_, .i32⟩ : BufTy).Contents (Elt F) → (⟨S500000, .i32⟩ : BufTy).Contents (Elt F)),
    StableHlo.binary main_v939 main_v970 main_v971 (addi : (⟨S500000, .i32⟩ : BufTy).Contents (Elt F) → (⟨S500000, .i32⟩ : BufTy).Contents (Elt F) → (⟨S500000, .i32⟩ : BufTy).Contents (Elt F)),
    StableHlo.ternary main_v969 main_v971 main_v939 main_v972 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_308 (constantI S_ 32 0#32),
    StableHlo.unary main_c_308 main_v973 (broadcastInDim S500000 ![] bcast_S_S500000 : (⟨S_, .i32⟩ : BufTy).Contents (Elt F) → (⟨S500000, .i32⟩ : BufTy).Contents (Elt F)),
    StableHlo.binary main_v932 main_v973 main_v974 (cmpi .slt : (⟨S500000, .i32⟩ : BufTy).Contents (Elt F) → (⟨S500000, .i32⟩ : BufTy).Contents (Elt F) → (⟨S500000, .i1⟩ : BufTy).Contents (Elt F)),
    StableHlo.nullary main_c_309 (constantI S_ 32 512#32),
    StableHlo.unary main_c_309 main_v975 (broadcastInDim S500000 ![] bcast_S_S500000 : (⟨S_, .i32⟩ : BufTy).Contents (Elt F) → (⟨S500000, .i32⟩ : BufTy).Contents (Elt F)),
    StableHlo.binary main_v932 main_v975 main_v976 (addi : (⟨S500000, .i32⟩ : BufTy).Contents (Elt F) → (⟨S500000, .i32⟩ : BufTy).Contents (Elt F) → (⟨S500000, .i32⟩ : BufTy).Contents (Elt F)),
    StableHlo.ternary main_v974 main_v976 main_v932 main_v977 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v972 main_v978 (broadcastInDim S500000x1 ![0] bcast_S500000_S500000x1_0 : (⟨S500000, .i32⟩ : BufTy).Contents (Elt F) → (⟨S500000x1, .i32⟩ : BufTy).Contents (Elt F)),
    StableHlo.unary main_v977 main_v979 (broadcastInDim S500000x1 ![0] bcast_S500000_S500000x1_0 : (⟨S500000, .i32⟩ : BufTy).Contents (Elt F) → (⟨S500000x1, .i32⟩ : BufTy).Contents (Elt F)),
    StableHlo.binary main_v978 main_v979 main_v980 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg21 main_v980 main_v981 ((fun x i => Host.gather gather_S8x512x512_S500000x2_S8x500000_0_12_n_n_12_1_811 x i) : (⟨S8x512x512, .f32⟩ : BufTy).Contents (Elt F) → (⟨S500000x2, .i32⟩ : BufTy).Contents (Elt F) → (⟨S8x500000, .f32⟩ : BufTy).Contents (Elt F)),
    StableHlo.nullary main_c_310 (constantI S_ 32 0#32),
    StableHlo.unary main_c_310 main_v982 (broadcastInDim S500000 ![] bcast_S_S500000 : (⟨S_, .i32⟩ : BufTy).Contents (Elt F) → (⟨S500000, .i32⟩ : BufTy).Contents (Elt F)),
    StableHlo.binary main_v939 main_v982 main_v983 (cmpi .slt : (⟨S500000, .i32⟩ : BufTy).Contents (Elt F) → (⟨S500000, .i32⟩ : BufTy).Contents (Elt F) → (⟨S500000, .i1⟩ : BufTy).Contents (Elt F)),
    StableHlo.nullary main_c_311 (constantI S_ 32 512#32),
    StableHlo.unary main_c_311 main_v984 (broadcastInDim S500000 ![] bcast_S_S500000 : (⟨S_, .i32⟩ : BufTy).Contents (Elt F) → (⟨S500000, .i32⟩ : BufTy).Contents (Elt F)),
    StableHlo.binary main_v939 main_v984 main_v985 (addi : (⟨S500000, .i32⟩ : BufTy).Contents (Elt F) → (⟨S500000, .i32⟩ : BufTy).Contents (Elt F) → (⟨S500000, .i32⟩ : BufTy).Contents (Elt F)),
    StableHlo.ternary main_v983 main_v985 main_v939 main_v986 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.nullary main_c_312 (constantI S_ 32 0#32),
    StableHlo.unary main_c_312 main_v987 (broadcastInDim S500000 ![] bcast_S_S500000 : (⟨S_, .i32⟩ : BufTy).Contents (Elt F) → (⟨S500000, .i32⟩ : BufTy).Contents (Elt F)),
    StableHlo.binary main_v935 main_v987 main_v988 (cmpi .slt : (⟨S500000, .i32⟩ : BufTy).Contents (Elt F) → (⟨S500000, .i32⟩ : BufTy).Contents (Elt F) → (⟨S500000, .i1⟩ : BufTy).Contents (Elt F)),
    StableHlo.nullary main_c_313 (constantI S_ 32 512#32),
    StableHlo.unary main_c_313 main_v989 (broadcastInDim S500000 ![] bcast_S_S500000 : (⟨S_, .i32⟩ : BufTy).Contents (Elt F) → (⟨S500000, .i32⟩ : BufTy).Contents (Elt F)),
    StableHlo.binary main_v935 main_v989 main_v990 (addi : (⟨S500000, .i32⟩ : BufTy).Contents (Elt F) → (⟨S500000, .i32⟩ : BufTy).Contents (Elt F) → (⟨S500000, .i32⟩ : BufTy).Contents (Elt F)),
    StableHlo.ternary main_v988 main_v990 main_v935 main_v991 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v986 main_v992 (broadcastInDim S500000x1 ![0] bcast_S500000_S500000x1_0 : (⟨S500000, .i32⟩ : BufTy).Contents (Elt F) → (⟨S500000x1, .i32⟩ : BufTy).Contents (Elt F)),
    StableHlo.unary main_v991 main_v993 (broadcastInDim S500000x1 ![0] bcast_S500000_S500000x1_0 : (⟨S500000, .i32⟩ : BufTy).Contents (Elt F) → (⟨S500000x1, .i32⟩ : BufTy).Contents (Elt F)),
    StableHlo.binary main_v992 main_v993 main_v994 ((fun a b => concatenate S500000x2 1 [⟨S500000x1, a⟩, ⟨S500000x1, b⟩] concatenates_S500000x1_S500000x1_S500000x2_d1) : (⟨S500000x1, .i32⟩ : BufTy).Contents (Elt F) → (⟨S500000x1, .i32⟩ : BufTy).Contents (Elt F) → (⟨S500000x2, .i32⟩ : BufTy).Contents (Elt F)),
    StableHlo.binary main_arg21 main_v994 main_v995 ((fun x i => Host.gather gather_S8x512x512_S500000x2_S8x500000_0_12_n_n_12_1_811 x i) : (⟨S8x512x512, .f32⟩ : BufTy).Contents (Elt F) → (⟨S500000x2, .i32⟩ : BufTy).Contents (Elt F) → (⟨S8x500000, .f32⟩ : BufTy).Contents (Elt F)),
    StableHlo.nullary main_cst_314 (constant S_ .f32 0x3F800000#32),
    StableHlo.unary main_cst_314 main_v996 (broadcastInDim S500000 ![] bcast_S_S500000 : (⟨S_, .f32⟩ : BufTy).Contents (Elt F) → (⟨S500000, .f32⟩ : BufTy).Contents (Elt F)),
    StableHlo.binary main_v996 main_v929 main_v997 (subf : (⟨S500000, .f32⟩ : BufTy).Contents (Elt F) → (⟨S500000, .f32⟩ : BufTy).Contents (Elt F) → (⟨S500000, .f32⟩ : BufTy).Contents (Elt F)),
    StableHlo.unary main_v997 main_v998 (broadcastInDim S1x500000 ![1] bcast_S500000_S1x500000_1 : (⟨S500000, .f32⟩ : BufTy).Contents (Elt F) → (⟨S1x500000, .f32⟩ : BufTy).Contents (Elt F)),
    StableHlo.unary main_v998 main_v999 (broadcastInDim S8x500000 ![0, 1] bcast_S1x500000_S8x500000_0_1 : (⟨S1x500000, .f32⟩ : BufTy).Contents (Elt F) → (⟨S8x500000, .f32⟩ : BufTy).Contents (Elt F)),
    StableHlo.binary main_v953 main_v999 main_v1000 (mulf : (⟨S8x500000, .f32⟩ : BufTy).Contents (Elt F) → (⟨S8x500000, .f32⟩ : BufTy).Contents (Elt F) → (⟨S8x500000, .f32⟩ : BufTy).Contents (Elt F)),
    StableHlo.unary main_v929 main_v1001 (broadcastInDim S1x500000 ![1] bcast_S500000_S1x500000_1 : (⟨S500000, .f32⟩ : BufTy).Contents (Elt F) → (⟨S1x500000, .f32⟩ : BufTy).Contents (Elt F)),
    StableHlo.unary main_v1001 main_v1002 (broadcastInDim S8x500000 ![0, 1] bcast_S1x500000_S8x500000_0_1 : (⟨S1x500000, .f32⟩ : BufTy).Contents (Elt F) → (⟨S8x500000, .f32⟩ : BufTy).Contents (Elt F)),
    StableHlo.binary main_v967 main_v1002 main_v1003 (mulf : (⟨S8x500000, .f32⟩ : BufTy).Contents (Elt F) → (⟨S8x500000, .f32⟩ : BufTy).Contents (Elt F) → (⟨S8x500000, .f32⟩ : BufTy).Contents (Elt F)),
    StableHlo.binary main_v1000 main_v1003 main_v1004 (addf : (⟨S8x500000, .f32⟩ : BufTy).Contents (Elt F) → (⟨S8x500000, .f32⟩ : BufTy).Contents (Elt F) → (⟨S8x500000, .f32⟩ : BufTy).Contents (Elt F)),
    StableHlo.nullary main_cst_315 (constant S_ .f32 0x3F800000#32),
    StableHlo.unary main_cst_315 main_v1005 (broadcastInDim S500000 ![] bcast_S_S500000 : (⟨S_, .f32⟩ : BufTy).Contents (Elt F) → (⟨S500000, .f32⟩ : BufTy).Contents (Elt F)),
    StableHlo.binary main_v1005 main_v929 main_v1006 (subf : (⟨S500000, .f32⟩ : BufTy).Contents (Elt F) → (⟨S500000, .f32⟩ : BufTy).Contents (Elt F) → (⟨S500000, .f32⟩ : BufTy).Contents (Elt F)),
    StableHlo.unary main_v1006 main_v1007 (broadcastInDim S1x500000 ![1] bcast_S500000_S1x500000_1 : (⟨S500000, .f32⟩ : BufTy).Contents (Elt F) → (⟨S1x500000, .f32⟩ : BufTy).Contents (Elt F)),
    StableHlo.unary main_v1007 main_v1008 (broadcastInDim S8x500000 ![0, 1] bcast_S1x500000_S8x500000_0_1 : (⟨S1x500000, .f32⟩ : BufTy).Contents (Elt F) → (⟨S8x500000, .f32⟩ : BufTy).Contents (Elt F)),
    StableHlo.binary main_v981 main_v1008 main_v1009 (mulf : (⟨S8x500000, .f32⟩ : BufTy).Contents (Elt F) → (⟨S8x500000, .f32⟩ : BufTy).Contents (Elt F) → (⟨S8x500000, .f32⟩ : BufTy).Contents (Elt F)),
    StableHlo.unary main_v929 main_v1010 (broadcastInDim S1x500000 ![1] bcast_S500000_S1x500000_1 : (⟨S500000, .f32⟩ : BufTy).Contents (Elt F) → (⟨S1x500000, .f32⟩ : BufTy).Contents (Elt F)),
    StableHlo.unary main_v1010 main_v1011 (broadcastInDim S8x500000 ![0, 1] bcast_S1x500000_S8x500000_0_1 : (⟨S1x500000, .f32⟩ : BufTy).Contents (Elt F) → (⟨S8x500000, .f32⟩ : BufTy).Contents (Elt F)),
    StableHlo.binary main_v995 main_v1011 main_v1012 (mulf : (⟨S8x500000, .f32⟩ : BufTy).Contents (Elt F) → (⟨S8x500000, .f32⟩ : BufTy).Contents (Elt F) → (⟨S8x500000, .f32⟩ : BufTy).Contents (Elt F)),
    StableHlo.binary main_v1009 main_v1012 main_v1013 (addf : (⟨S8x500000, .f32⟩ : BufTy).Contents (Elt F) → (⟨S8x500000, .f32⟩ : BufTy).Contents (Elt F) → (⟨S8x500000, .f32⟩ : BufTy).Contents (Elt F)),
    StableHlo.nullary main_cst_316 (constant S_ .f32 0x3F800000#32),
    StableHlo.unary main_cst_316 main_v1014 (broadcastInDim S500000 ![] bcast_S_S500000 : (⟨S_, .f32⟩ : BufTy).Contents (Elt F) → (⟨S500000, .f32⟩ : BufTy).Contents (Elt F)),
    StableHlo.binary main_v1014 main_v931 main_v1015 (subf : (⟨S500000, .f32⟩ : BufTy).Contents (Elt F) → (⟨S500000, .f32⟩ : BufTy).Contents (Elt F) → (⟨S500000, .f32⟩ : BufTy).Contents (Elt F)),
    StableHlo.unary main_v1015 main_v1016 (broadcastInDim S1x500000 ![1] bcast_S500000_S1x500000_1 : (⟨S500000, .f32⟩ : BufTy).Contents (Elt F) → (⟨S1x500000, .f32⟩ : BufTy).Contents (Elt F)),
    StableHlo.unary main_v1016 main_v1017 (broadcastInDim S8x500000 ![0, 1] bcast_S1x500000_S8x500000_0_1 : (⟨S1x500000, .f32⟩ : BufTy).Contents (Elt F) → (⟨S8x500000, .f32⟩ : BufTy).Contents (Elt F)),
    StableHlo.binary main_v1004 main_v1017 main_v1018 (mulf : (⟨S8x500000, .f32⟩ : BufTy).Contents (Elt F) → (⟨S8x500000, .f32⟩ : BufTy).Contents (Elt F) → (⟨S8x500000, .f32⟩ : BufTy).Contents (Elt F)),
    StableHlo.unary main_v931 main_v1019 (broadcastInDim S1x500000 ![1] bcast_S500000_S1x500000_1 : (⟨S500000, .f32⟩ : BufTy).Contents (Elt F) → (⟨S1x500000, .f32⟩ : BufTy).Contents (Elt F)),
    StableHlo.unary main_v1019 main_v1020 (broadcastInDim S8x500000 ![0, 1] bcast_S1x500000_S8x500000_0_1 : (⟨S1x500000, .f32⟩ : BufTy).Contents (Elt F) → (⟨S8x500000, .f32⟩ : BufTy).Contents (Elt F)),
    StableHlo.binary main_v1013 main_v1020 main_v1021 (mulf : (⟨S8x500000, .f32⟩ : BufTy).Contents (Elt F) → (⟨S8x500000, .f32⟩ : BufTy).Contents (Elt F) → (⟨S8x500000, .f32⟩ : BufTy).Contents (Elt F)),
    StableHlo.binary main_v1018 main_v1021 main_v1022 (addf : (⟨S8x500000, .f32⟩ : BufTy).Contents (Elt F) → (⟨S8x500000, .f32⟩ : BufTy).Contents (Elt F) → (⟨S8x500000, .f32⟩ : BufTy).Contents (Elt F)),
    StableHlo.unary main_v1022 main_v1023 ((transpose S500000x8 [1, 0] · transposes_S8x500000_S500000x8_1_0) : (⟨S8x500000, .f32⟩ : BufTy).Contents (Elt F) → (⟨S500000x8, .f32⟩ : BufTy).Contents (Elt F)) ]

/-- Operations 1523 … 1523 (1): level 2's three samplings side by side. -/
abbrev opsCat2 : List (HloOp τ sig (Elt F)) :=
  [ StableHlo.nary ![main_v799, main_v911, main_v1023] main_v1024 (fun u => concatenate S500000x24 1 [⟨S500000x8, u 0⟩, ⟨S500000x8, u 1⟩, ⟨S500000x8, u 2⟩] concatenates_S500000x8_S500000x8_S500000x8_S500000x24_d1) ]

/-- The chunks in order. -/
abbrev chunks : List (List (HloOp τ sig (Elt F))) :=
  [opsPre, opsB0a, opsB0b, opsB0c, opsCat0, opsB1a, opsB1b, opsB1c, opsCat1, opsB2a, opsB2b, opsB2c, opsCat2]

set_option maxRecDepth 16384 in
set_option maxHeartbeats 4000000 in
/-- The stretches and the chunks are the same operations in the same order. -/
theorem flatten_eq : List.flatten (stretches (F := F)) = List.flatten (chunks (F := F)) := rfl

end Cert.KernelIdeal.Chunks

end
-- ==== Proof.KernelIdeal.HostChainPre.lean ====
/- The pieces of the host feature arrays that are not samplings: the scaling of the points' coordinates to
   [-1, 1] and their split into three coordinate vectors, and the concatenation of a level's three samplings. Each
   is stated as what the piece's operations leave from ANY contents of the buffers. -/
import proofs.«138882_j46462956208560_1_alg».proof.Proof.KernelIdeal.HostOps
import Idealize.ShloMosaic.Lib.StableHlo.Run

noncomputable section

namespace Cert.KernelIdeal.Hand

open Cert.KernelIdeal Cert.KernelIdeal.Gen Cert.KernelIdeal.Chunks Idealize.ShloMosaic Idealize.ShloMosaic.TcCoe Idealize.SL.Sem Idealize.ShloMosaic.StableHlo

variable {F : FTy → Type} [FloatOps F]

/-! ## The coordinates: ((p + 2) / 4) · 2 − 1 in every component, then the three columns -/

/-- The first scaled coordinate of every point, with the fact that the scaling's operations leave it. -/
def nxS : { f : Vec F S500000x3 .f32 → Vec F S500000 .f32 //
    ∀ M : Valuation τ sig (Elt F), after opsPre M (Proc.devRef .tc main_v9) = f (M (Proc.devRef .tc main_arg0)) } :=
  ⟨_, fun M => by
    after_results
    generalize M (Proc.devRef .tc main_arg0) = x
    rfl⟩
/-- The first scaled coordinate of every point. -/
def nx (xyz : Vec F S500000x3 .f32) : Vec F S500000 .f32 := nxS.1 xyz
theorem nx_at (M : Valuation τ sig (Elt F)) :
    after opsPre M (Proc.devRef .tc main_v9) = nx (M (Proc.devRef .tc main_arg0)) := nxS.2 M

/-- The second scaled coordinate of every point, with the fact that the scaling's operations leave it. -/
def nyS : { f : Vec F S500000x3 .f32 → Vec F S500000 .f32 //
    ∀ M : Valuation τ sig (Elt F), after opsPre M (Proc.devRef .tc main_v11) = f (M (Proc.devRef .tc main_arg0)) } :=
  ⟨_, fun M => by
    after_results
    generalize M (Proc.devRef .tc main_arg0) = x
    rfl⟩
/-- The second scaled coordinate of every point. -/
def ny (xyz : Vec F S500000x3 .f32) : Vec F S500000 .f32 := nyS.1 xyz
theorem ny_at (M : Valuation τ sig (Elt F)) :
    after opsPre M (Proc.devRef .tc main_v11) = ny (M (Proc.devRef .tc main_arg0)) := nyS.2 M

/-- The third scaled coordinate of every point, with the fact that the scaling's operations leave it. -/
def nzS : { f : Vec F S500000x3 .f32 → Vec F S500000 .f32 //
    ∀ M : Valuation τ sig (Elt F), after opsPre M (Proc.devRef .tc main_v13) = f (M (Proc.devRef .tc main_arg0)) } :=
  ⟨_, fun M => by
    after_results
    generalize M (Proc.devRef .tc main_arg0) = x
    rfl⟩
/-- The third scaled coordinate of every point. -/
def nz (xyz : Vec F S500000x3 .f32) : Vec F S500000 .f32 := nzS.1 xyz
theorem nz_at (M : Valuation τ sig (Elt F)) :
    after opsPre M (Proc.devRef .tc main_v13) = nz (M (Proc.devRef .tc main_arg0)) := nzS.2 M

/-! ## The concatenation: a level's three samplings side by side, eight channels each -/

/-- Three [500000, 8] arrays side by side. -/
def cat (a b c : Vec F S500000x8 .f32) : Vec F S500000x24 .f32 :=
  concatenate S500000x24 1 [⟨S500000x8, a⟩, ⟨S500000x8, b⟩, ⟨S500000x8, c⟩] concatenates_S500000x8_S500000x8_S500000x8_S500000x24_d1
theorem cat0_at (M : Valuation τ sig (Elt F)) : after opsCat0 M (Proc.devRef .tc main_v350)
    = cat (M (Proc.devRef .tc main_v125)) (M (Proc.devRef .tc main_v237)) (M (Proc.devRef .tc main_v349)) := by
  simp only [after_cons, after_nil]; rw [nary_result]; rfl
theorem cat1_at (M : Valuation τ sig (Elt F)) : after opsCat1 M (Proc.devRef .tc main_v687)
    = cat (M (Proc.devRef .tc main_v462)) (M (Proc.devRef .tc main_v574)) (M (Proc.devRef .tc main_v686)) := by
  simp only [after_cons, after_nil]; rw [nary_result]; rfl
theorem cat2_at (M : Valuation τ sig (Elt F)) : after opsCat2 M (Proc.devRef .tc main_v1024)
    = cat (M (Proc.devRef .tc main_v799)) (M (Proc.devRef .tc main_v911)) (M (Proc.devRef .tc main_v1023)) := by
  simp only [after_cons, after_nil]; rw [nary_result]; rfl

end Cert.KernelIdeal.Hand

end
-- ==== Proof.KernelIdeal.HostKeep.lean ====
/- The chunks of host operations under opaque names, and that each chunk writes only buffers of its own range of
   indices: a buffer whose index is outside the range passes through the chunk unchanged. -/
import proofs.«138882_j46462956208560_1_alg».proof.Proof.KernelIdeal.HostOps

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]

/-! ## The chunks, not unfolded unless asked -/

def kPre : List (HloOp τ sig (Elt F)) := Chunks.opsPre
def kB0a : List (HloOp τ sig (Elt F)) := Chunks.opsB0a
def kB0b : List (HloOp τ sig (Elt F)) := Chunks.opsB0b
def kB0c : List (HloOp τ sig (Elt F)) := Chunks.opsB0c
def kCat0 : List (HloOp τ sig (Elt F)) := Chunks.opsCat0
def kB1a : List (HloOp τ sig (Elt F)) := Chunks.opsB1a
def kB1b : List (HloOp τ sig (Elt F)) := Chunks.opsB1b
def kB1c : List (HloOp τ sig (Elt F)) := Chunks.opsB1c
def kCat1 : List (HloOp τ sig (Elt F)) := Chunks.opsCat1
def kB2a : List (HloOp τ sig (Elt F)) := Chunks.opsB2a
def kB2b : List (HloOp τ sig (Elt F)) := Chunks.opsB2b
def kB2c : List (HloOp τ sig (Elt F)) := Chunks.opsB2c
def kCat2 : List (HloOp τ sig (Elt F)) := Chunks.opsCat2

/-- The operations before the region, chunk after chunk. -/
theorem after_chunks (M : Valuation τ sig (Elt F)) :
    StableHlo.after (List.flatten (Chunks.chunks (F := F))) M
      = StableHlo.after kCat2 (StableHlo.after kB2c (StableHlo.after kB2b (StableHlo.after kB2a (StableHlo.after kCat1 (StableHlo.after kB1c (StableHlo.after kB1b (StableHlo.after kB1a (StableHlo.after kCat0 (StableHlo.after kB0c (StableHlo.after kB0b (StableHlo.after kB0a (StableHlo.after kPre (M))))))))))))) := by
  have e : List.flatten (Chunks.chunks (F := F))
      = kPre ++ (kB0a ++ (kB0b ++ (kB0c ++ (kCat0 ++ (kB1a ++ (kB1b ++ (kB1c ++ (kCat1 ++ (kB2a ++ (kB2b ++ (kB2c ++ (kCat2 ++ ([]))))))))))))) := rfl
  rw [e, List.append_nil]
  simp only [StableHlo.after_append]

/-! ## A chunk writes within its range -/

/-- An operation writes one buffer, whose index lies in `[lo, hi)`. -/
def Within (lo hi : ℕ) (op : HloOp τ sig (Elt F)) : Prop :=
  ∃ y : Ref sig .tc, op.writes = {Proc.devRef .tc y} ∧ (decide (lo ≤ y.idx.val) && decide (y.idx.val < hi)) = true

/-- A buffer whose index is outside `[lo, hi)` passes through a line of operations that write within it. -/
theorem after_keep {lo hi : ℕ} {ops : List (HloOp τ sig (Elt F))} (h : ops.Forall (Within lo hi))
    (W : Valuation τ sig (Elt F)) (r : Ref sig .tc) (hr : r.idx.val < lo ∨ hi ≤ r.idx.val) :
    StableHlo.after ops W (Proc.devRef .tc r) = W (Proc.devRef .tc r) :=
  StableHlo.after_of_forall_not_mem ops W fun op hop hb => by
    obtain ⟨y, hw, hy⟩ := List.forall_iff_forall_mem.mp h op hop
    rw [hw, Finset.mem_singleton] at hb
    have e : r = y := Proc.devRef_injective _ hb
    subst e
    simp only [Bool.and_eq_true, decide_eq_true_eq] at hy
    omega

theorem opsPre_within : (Chunks.opsPre : List (HloOp τ sig (Elt F))).Forall (Within 28 46) :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem kPre_within : (kPre : List (HloOp τ sig (Elt F))).Forall (Within 28 46) := opsPre_within
theorem opsB0a_within : (Chunks.opsB0a : List (HloOp τ sig (Elt F))).Forall (Within 46 213) :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem kB0a_within : (kB0a : List (HloOp τ sig (Elt F))).Forall (Within 46 213) := opsB0a_within
theorem opsB0b_within : (Chunks.opsB0b : List (HloOp τ sig (Elt F))).Forall (Within 213 380) :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem kB0b_within : (kB0b : List (HloOp τ sig (Elt F))).Forall (Within 213 380) := opsB0b_within
theorem opsB0c_within : (Chunks.opsB0c : List (HloOp τ sig (Elt F))).Forall (Within 380 547) :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem kB0c_within : (kB0c : List (HloOp τ sig (Elt F))).Forall (Within 380 547) := opsB0c_within
theorem opsCat0_within : (Chunks.opsCat0 : List (HloOp τ sig (Elt F))).Forall (Within 547 548) :=
  ⟨_, rfl, rfl⟩
theorem kCat0_within : (kCat0 : List (HloOp τ sig (Elt F))).Forall (Within 547 548) := opsCat0_within
theorem opsB1a_within : (Chunks.opsB1a : List (HloOp τ sig (Elt F))).Forall (Within 548 715) :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem kB1a_within : (kB1a : List (HloOp τ sig (Elt F))).Forall (Within 548 715) := opsB1a_within
theorem opsB1b_within : (Chunks.opsB1b : List (HloOp τ sig (Elt F))).Forall (Within 715 882) :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem kB1b_within : (kB1b : List (HloOp τ sig (Elt F))).Forall (Within 715 882) := opsB1b_within
theorem opsB1c_within : (Chunks.opsB1c : List (HloOp τ sig (Elt F))).Forall (Within 882 1049) :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem kB1c_within : (kB1c : List (HloOp τ sig (Elt F))).Forall (Within 882 1049) := opsB1c_within
theorem opsCat1_within : (Chunks.opsCat1 : List (HloOp τ sig (Elt F))).Forall (Within 1049 1050) :=
  ⟨_, rfl, rfl⟩
theorem kCat1_within : (kCat1 : List (HloOp τ sig (Elt F))).Forall (Within 1049 1050) := opsCat1_within
theorem opsB2a_within : (Chunks.opsB2a : List (HloOp τ sig (Elt F))).Forall (Within 1050 1217) :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem kB2a_within : (kB2a : List (HloOp τ sig (Elt F))).Forall (Within 1050 1217) := opsB2a_within
theorem opsB2b_within : (Chunks.opsB2b : List (HloOp τ sig (Elt F))).Forall (Within 1217 1384) :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem kB2b_within : (kB2b : List (HloOp τ sig (Elt F))).Forall (Within 1217 1384) := opsB2b_within
theorem opsB2c_within : (Chunks.opsB2c : List (HloOp τ sig (Elt F))).Forall (Within 1384 1551) :=
  ⟨⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩, ⟨_, rfl, rfl⟩⟩
theorem kB2c_within : (kB2c : List (HloOp τ sig (Elt F))).Forall (Within 1384 1551) := opsB2c_within
theorem opsCat2_within : (Chunks.opsCat2 : List (HloOp τ sig (Elt F))).Forall (Within 1551 1552) :=
  ⟨_, rfl, rfl⟩
theorem kCat2_within : (kCat2 : List (HloOp τ sig (Elt F))).Forall (Within 1551 1552) := opsCat2_within

end Cert.KernelIdeal.Hand

end
-- ==== Proof.LibNary.lean ====
/- One pass for the contents after a line of operations in which a two-operand operation is a concatenation.
   Such an operation's function places its operands inside the concatenation's list of (shape, array) pairs, where a
   rewriting pass does not reach them. Here the function is kept applied to its operands through `app2`, so that they
   are rewritten as plain arguments; unfolding `app2` afterwards puts them in their places. -/
import Idealize.ShloMosaic.Lib.StableHlo.Run

noncomputable section

namespace Idealize.ShloMosaic.StableHlo

open Idealize.SL.Sem

variable {τ : Topo} {sig : RefSig} {Val : EltTy → Type}

/-- A function of two arguments applied to them. -/
def app2 {α β γ : Type} (f : α → β → γ) (A : α) (B : β) : γ := f A B

variable {a b y : Ref sig .tc}

/-- The result of a two-operand operation at its own reference: its function applied, through `app2`, to the two
    operands' contents. -/
theorem binary_result_app (f : a.ty.Contents Val → b.ty.Contents Val → y.ty.Contents Val) (ha hb hy) (F : Valuation τ sig Val) :
    (binary (τ := τ) a b y f ha hb hy).result F (no_index (Proc.devRef .tc y))
      = app2 f (F (Proc.devRef .tc a)) (F (Proc.devRef .tc b)) := binary_result a b y f ha hb hy F

/-- The contents after a line of operations: one pass in which every operation's result at its own reference becomes
    its function's value and at any other reference what was there, then the two-operand functions applied. -/
macro "after_results_cat" : tactic =>
  `(tactic| (simp (disch := decide) only [after_cons, after_nil,
      nullary_result', unary_result', binary_result_app, ternary_result', quaternary_result', reshape_result',
      nary4_result', nary_result', unaryIndexed_result', binaryIndexed_result',
      nullary_result_ne', unary_result_ne', binary_result_ne', ternary_result_ne', quaternary_result_ne', reshape_result_ne',
      nary_result_ne', unaryIndexed_result_ne', binaryIndexed_result_ne']
             dsimp only [app2]))

end Idealize.ShloMosaic.StableHlo

end
-- ==== Proof.KernelIdeal.HostChain.B0a.lean ====
/- Level 0, plane xy: the bilinear sampling of the plane at the points' two coordinates, as a function of the two
   coordinate vectors and the plane. -/
import proofs.«138882_j46462956208560_1_alg».proof.Proof.KernelIdeal.HostOps
import proofs.«138882_j46462956208560_1_alg».proof.Proof.LibNary

noncomputable section

namespace Cert.KernelIdeal.Hand

open Cert.KernelIdeal Cert.KernelIdeal.Gen Cert.KernelIdeal.Chunks Idealize.ShloMosaic Idealize.ShloMosaic.TcCoe Idealize.SL.Sem Idealize.ShloMosaic.StableHlo

variable {F : FTy → Type} [FloatOps F]

set_option maxRecDepth 8192 in
set_option maxHeartbeats 4000000 in
/-- The sampling: from the first coordinate vector, the second, and the plane, the eight channels at every point. -/
def sampB0a : { f : Vec F S500000 .f32 → Vec F S500000 .f32 → Vec F S8x128x128 .f32 → Vec F S500000x8 .f32 //
    ∀ M : Valuation τ sig (Elt F), after opsB0a M (Proc.devRef .tc main_v125)
      = f (M (Proc.devRef .tc main_v9)) (M (Proc.devRef .tc main_v11)) (M (Proc.devRef .tc main_arg1)) } :=
  ⟨_, fun M => by
    after_results_cat
    try simp only [TRef.ofBuf, TRef.toBuf, cast_eq]
    generalize M (Proc.devRef .tc main_v9) = x
    generalize M (Proc.devRef .tc main_v11) = y
    generalize M (Proc.devRef .tc main_arg1) = z
    rfl⟩

/-- What the sampling's last operation leaves, from any contents. -/
theorem sampB0a_at (M : Valuation τ sig (Elt F)) : after opsB0a M (Proc.devRef .tc main_v125)
    = sampB0a.1 (M (Proc.devRef .tc main_v9)) (M (Proc.devRef .tc main_v11)) (M (Proc.devRef .tc main_arg1)) := sampB0a.2 M

end Cert.KernelIdeal.Hand

end
-- ==== Proof.KernelIdeal.HostChain.B0b.lean ====
/- Level 0, plane xz: the bilinear sampling of the plane at the points' two coordinates, as a function of the two
   coordinate vectors and the plane. -/
import proofs.«138882_j46462956208560_1_alg».proof.Proof.KernelIdeal.HostOps
import proofs.«138882_j46462956208560_1_alg».proof.Proof.LibNary

noncomputable section

namespace Cert.KernelIdeal.Hand

open Cert.KernelIdeal Cert.KernelIdeal.Gen Cert.KernelIdeal.Chunks Idealize.ShloMosaic Idealize.ShloMosaic.TcCoe Idealize.SL.Sem Idealize.ShloMosaic.StableHlo

variable {F : FTy → Type} [FloatOps F]

set_option maxRecDepth 8192 in
set_option maxHeartbeats 4000000 in
/-- The sampling: from the first coordinate vector, the second, and the plane, the eight channels at every point. -/
def sampB0b : { f : Vec F S500000 .f32 → Vec F S500000 .f32 → Vec F S8x128x128 .f32 → Vec F S500000x8 .f32 //
    ∀ M : Valuation τ sig (Elt F), after opsB0b M (Proc.devRef .tc main_v237)
      = f (M (Proc.devRef .tc main_v9)) (M (Proc.devRef .tc main_v13)) (M (Proc.devRef .tc main_arg2)) } :=
  ⟨_, fun M => by
    after_results_cat
    try simp only [TRef.ofBuf, TRef.toBuf, cast_eq]
    generalize M (Proc.devRef .tc main_v9) = x
    generalize M (Proc.devRef .tc main_v13) = y
    generalize M (Proc.devRef .tc main_arg2) = z
    rfl⟩

/-- What the sampling's last operation leaves, from any contents. -/
theorem sampB0b_at (M : Valuation τ sig (Elt F)) : after opsB0b M (Proc.devRef .tc main_v237)
    = sampB0b.1 (M (Proc.devRef .tc main_v9)) (M (Proc.devRef .tc main_v13)) (M (Proc.devRef .tc main_arg2)) := sampB0b.2 M

end Cert.KernelIdeal.Hand

end
-- ==== Proof.KernelIdeal.HostChain.B0c.lean ====
/- Level 0, plane yz: the bilinear sampling of the plane at the points' two coordinates, as a function of the two
   coordinate vectors and the plane. -/
import proofs.«138882_j46462956208560_1_alg».proof.Proof.KernelIdeal.HostOps
import proofs.«138882_j46462956208560_1_alg».proof.Proof.LibNary

noncomputable section

namespace Cert.KernelIdeal.Hand

open Cert.KernelIdeal Cert.KernelIdeal.Gen Cert.KernelIdeal.Chunks Idealize.ShloMosaic Idealize.ShloMosaic.TcCoe Idealize.SL.Sem Idealize.ShloMosaic.StableHlo

variable {F : FTy → Type} [FloatOps F]

set_option maxRecDepth 8192 in
set_option maxHeartbeats 4000000 in
/-- The sampling: from the first coordinate vector, the second, and the plane, the eight channels at every point. -/
def sampB0c : { f : Vec F S500000 .f32 → Vec F S500000 .f32 → Vec F S8x128x128 .f32 → Vec F S500000x8 .f32 //
    ∀ M : Valuation τ sig (Elt F), after opsB0c M (Proc.devRef .tc main_v349)
      = f (M (Proc.devRef .tc main_v11)) (M (Proc.devRef .tc main_v13)) (M (Proc.devRef .tc main_arg3)) } :=
  ⟨_, fun M => by
    after_results_cat
    try simp only [TRef.ofBuf, TRef.toBuf, cast_eq]
    generalize M (Proc.devRef .tc main_v11) = x
    generalize M (Proc.devRef .tc main_v13) = y
    generalize M (Proc.devRef .tc main_arg3) = z
    rfl⟩

/-- What the sampling's last operation leaves, from any contents. -/
theorem sampB0c_at (M : Valuation τ sig (Elt F)) : after opsB0c M (Proc.devRef .tc main_v349)
    = sampB0c.1 (M (Proc.devRef .tc main_v11)) (M (Proc.devRef .tc main_v13)) (M (Proc.devRef .tc main_arg3)) := sampB0c.2 M

end Cert.KernelIdeal.Hand

end
-- ==== Proof.KernelIdeal.HostChain.B1a.lean ====
/- Level 1, plane xy: the bilinear sampling of the plane at the points' two coordinates, as a function of the two
   coordinate vectors and the plane. -/
import proofs.«138882_j46462956208560_1_alg».proof.Proof.KernelIdeal.HostOps
import proofs.«138882_j46462956208560_1_alg».proof.Proof.LibNary

noncomputable section

namespace Cert.KernelIdeal.Hand

open Cert.KernelIdeal Cert.KernelIdeal.Gen Cert.KernelIdeal.Chunks Idealize.ShloMosaic Idealize.ShloMosaic.TcCoe Idealize.SL.Sem Idealize.ShloMosaic.StableHlo

variable {F : FTy → Type} [FloatOps F]

set_option maxRecDepth 8192 in
set_option maxHeartbeats 4000000 in
/-- The sampling: from the first coordinate vector, the second, and the plane, the eight channels at every point. -/
def sampB1a : { f : Vec F S500000 .f32 → Vec F S500000 .f32 → Vec F S8x256x256 .f32 → Vec F S500000x8 .f32 //
    ∀ M : Valuation τ sig (Elt F), after opsB1a M (Proc.devRef .tc main_v462)
      = f (M (Proc.devRef .tc main_v9)) (M (Proc.devRef .tc main_v11)) (M (Proc.devRef .tc main_arg10)) } :=
  ⟨_, fun M => by
    after_results_cat
    try simp only [TRef.ofBuf, TRef.toBuf, cast_eq]
    generalize M (Proc.devRef .tc main_v9) = x
    generalize M (Proc.devRef .tc main_v11) = y
    generalize M (Proc.devRef .tc main_arg10) = z
    rfl⟩

/-- What the sampling's last operation leaves, from any contents. -/
theorem sampB1a_at (M : Valuation τ sig (Elt F)) : after opsB1a M (Proc.devRef .tc main_v462)
    = sampB1a.1 (M (Proc.devRef .tc main_v9)) (M (Proc.devRef .tc main_v11)) (M (Proc.devRef .tc main_arg10)) := sampB1a.2 M

end Cert.KernelIdeal.Hand

end
-- ==== Proof.KernelIdeal.HostChain.B1b.lean ====
/- Level 1, plane xz: the bilinear sampling of the plane at the points' two coordinates, as a function of the two
   coordinate vectors and the plane. -/
import proofs.«138882_j46462956208560_1_alg».proof.Proof.KernelIdeal.HostOps
import proofs.«138882_j46462956208560_1_alg».proof.Proof.LibNary

noncomputable section

namespace Cert.KernelIdeal.Hand

open Cert.KernelIdeal Cert.KernelIdeal.Gen Cert.KernelIdeal.Chunks Idealize.ShloMosaic Idealize.ShloMosaic.TcCoe Idealize.SL.Sem Idealize.ShloMosaic.StableHlo

variable {F : FTy → Type} [FloatOps F]

set_option maxRecDepth 8192 in
set_option maxHeartbeats 4000000 in
/-- The sampling: from the first coordinate vector, the second, and the plane, the eight channels at every point. -/
def sampB1b : { f : Vec F S500000 .f32 → Vec F S500000 .f32 → Vec F S8x256x256 .f32 → Vec F S500000x8 .f32 //
    ∀ M : Valuation τ sig (Elt F), after opsB1b M (Proc.devRef .tc main_v574)
      = f (M (Proc.devRef .tc main_v9)) (M (Proc.devRef .tc main_v13)) (M (Proc.devRef .tc main_arg11)) } :=
  ⟨_, fun M => by
    after_results_cat
    try simp only [TRef.ofBuf, TRef.toBuf, cast_eq]
    generalize M (Proc.devRef .tc main_v9) = x
    generalize M (Proc.devRef .tc main_v13) = y
    generalize M (Proc.devRef .tc main_arg11) = z
    rfl⟩

/-- What the sampling's last operation leaves, from any contents. -/
theorem sampB1b_at (M : Valuation τ sig (Elt F)) : after opsB1b M (Proc.devRef .tc main_v574)
    = sampB1b.1 (M (Proc.devRef .tc main_v9)) (M (Proc.devRef .tc main_v13)) (M (Proc.devRef .tc main_arg11)) := sampB1b.2 M

end Cert.KernelIdeal.Hand

end
-- ==== Proof.KernelIdeal.HostChain.B1c.lean ====
/- Level 1, plane yz: the bilinear sampling of the plane at the points' two coordinates, as a function of the two
   coordinate vectors and the plane. -/
import proofs.«138882_j46462956208560_1_alg».proof.Proof.KernelIdeal.HostOps
import proofs.«138882_j46462956208560_1_alg».proof.Proof.LibNary

noncomputable section

namespace Cert.KernelIdeal.Hand

open Cert.KernelIdeal Cert.KernelIdeal.Gen Cert.KernelIdeal.Chunks Idealize.ShloMosaic Idealize.ShloMosaic.TcCoe Idealize.SL.Sem Idealize.ShloMosaic.StableHlo

variable {F : FTy → Type} [FloatOps F]

set_option maxRecDepth 8192 in
set_option maxHeartbeats 4000000 in
/-- The sampling: from the first coordinate vector, the second, and the plane, the eight channels at every point. -/
def sampB1c : { f : Vec F S500000 .f32 → Vec F S500000 .f32 → Vec F S8x256x256 .f32 → Vec F S500000x8 .f32 //
    ∀ M : Valuation τ sig (Elt F), after opsB1c M (Proc.devRef .tc main_v686)
      = f (M (Proc.devRef .tc main_v11)) (M (Proc.devRef .tc main_v13)) (M (Proc.devRef .tc main_arg12)) } :=
  ⟨_, fun M => by
    after_results_cat
    try simp only [TRef.ofBuf, TRef.toBuf, cast_eq]
    generalize M (Proc.devRef .tc main_v11) = x
    generalize M (Proc.devRef .tc main_v13) = y
    generalize M (Proc.devRef .tc main_arg12) = z
    rfl⟩

/-- What the sampling's last operation leaves, from any contents. -/
theorem sampB1c_at (M : Valuation τ sig (Elt F)) : after opsB1c M (Proc.devRef .tc main_v686)
    = sampB1c.1 (M (Proc.devRef .tc main_v11)) (M (Proc.devRef .tc main_v13)) (M (Proc.devRef .tc main_arg12)) := sampB1c.2 M

end Cert.KernelIdeal.Hand

end
-- ==== Proof.KernelIdeal.HostChain.B2a.lean ====
/- Level 2, plane xy: the bilinear sampling of the plane at the points' two coordinates, as a function of the two
   coordinate vectors and the plane. -/
import proofs.«138882_j46462956208560_1_alg».proof.Proof.KernelIdeal.HostOps
import proofs.«138882_j46462956208560_1_alg».proof.Proof.LibNary

noncomputable section

namespace Cert.KernelIdeal.Hand

open Cert.KernelIdeal Cert.KernelIdeal.Gen Cert.KernelIdeal.Chunks Idealize.ShloMosaic Idealize.ShloMosaic.TcCoe Idealize.SL.Sem Idealize.ShloMosaic.StableHlo

variable {F : FTy → Type} [FloatOps F]

set_option maxRecDepth 8192 in
set_option maxHeartbeats 4000000 in
/-- The sampling: from the first coordinate vector, the second, and the plane, the eight channels at every point. -/
def sampB2a : { f : Vec F S500000 .f32 → Vec F S500000 .f32 → Vec F S8x512x512 .f32 → Vec F S500000x8 .f32 //
    ∀ M : Valuation τ sig (Elt F), after opsB2a M (Proc.devRef .tc main_v799)
      = f (M (Proc.devRef .tc main_v9)) (M (Proc.devRef .tc main_v11)) (M (Proc.devRef .tc main_arg19)) } :=
  ⟨_, fun M => by
    after_results_cat
    try simp only [TRef.ofBuf, TRef.toBuf, cast_eq]
    generalize M (Proc.devRef .tc main_v9) = x
    generalize M (Proc.devRef .tc main_v11) = y
    generalize M (Proc.devRef .tc main_arg19) = z
    rfl⟩

/-- What the sampling's last operation leaves, from any contents. -/
theorem sampB2a_at (M : Valuation τ sig (Elt F)) : after opsB2a M (Proc.devRef .tc main_v799)
    = sampB2a.1 (M (Proc.devRef .tc main_v9)) (M (Proc.devRef .tc main_v11)) (M (Proc.devRef .tc main_arg19)) := sampB2a.2 M

end Cert.KernelIdeal.Hand

end
-- ==== Proof.KernelIdeal.HostChain.B2b.lean ====
/- Level 2, plane xz: the bilinear sampling of the plane at the points' two coordinates, as a function of the two
   coordinate vectors and the plane. -/
import proofs.«138882_j46462956208560_1_alg».proof.Proof.KernelIdeal.HostOps
import proofs.«138882_j46462956208560_1_alg».proof.Proof.LibNary

noncomputable section

namespace Cert.KernelIdeal.Hand

open Cert.KernelIdeal Cert.KernelIdeal.Gen Cert.KernelIdeal.Chunks Idealize.ShloMosaic Idealize.ShloMosaic.TcCoe Idealize.SL.Sem Idealize.ShloMosaic.StableHlo

variable {F : FTy → Type} [FloatOps F]

set_option maxRecDepth 8192 in
set_option maxHeartbeats 4000000 in
/-- The sampling: from the first coordinate vector, the second, and the plane, the eight channels at every point. -/
def sampB2b : { f : Vec F S500000 .f32 → Vec F S500000 .f32 → Vec F S8x512x512 .f32 → Vec F S500000x8 .f32 //
    ∀ M : Valuation τ sig (Elt F), after opsB2b M (Proc.devRef .tc main_v911)
      = f (M (Proc.devRef .tc main_v9)) (M (Proc.devRef .tc main_v13)) (M (Proc.devRef .tc main_arg20)) } :=
  ⟨_, fun M => by
    after_results_cat
    try simp only [TRef.ofBuf, TRef.toBuf, cast_eq]
    generalize M (Proc.devRef .tc main_v9) = x
    generalize M (Proc.devRef .tc main_v13) = y
    generalize M (Proc.devRef .tc main_arg20) = z
    rfl⟩

/-- What the sampling's last operation leaves, from any contents. -/
theorem sampB2b_at (M : Valuation τ sig (Elt F)) : after opsB2b M (Proc.devRef .tc main_v911)
    = sampB2b.1 (M (Proc.devRef .tc main_v9)) (M (Proc.devRef .tc main_v13)) (M (Proc.devRef .tc main_arg20)) := sampB2b.2 M

end Cert.KernelIdeal.Hand

end
-- ==== Proof.KernelIdeal.HostChain.B2c.lean ====
/- Level 2, plane yz: the bilinear sampling of the plane at the points' two coordinates, as a function of the two
   coordinate vectors and the plane. -/
import proofs.«138882_j46462956208560_1_alg».proof.Proof.KernelIdeal.HostOps
import proofs.«138882_j46462956208560_1_alg».proof.Proof.LibNary

noncomputable section

namespace Cert.KernelIdeal.Hand

open Cert.KernelIdeal Cert.KernelIdeal.Gen Cert.KernelIdeal.Chunks Idealize.ShloMosaic Idealize.ShloMosaic.TcCoe Idealize.SL.Sem Idealize.ShloMosaic.StableHlo

variable {F : FTy → Type} [FloatOps F]

set_option maxRecDepth 8192 in
set_option maxHeartbeats 4000000 in
/-- The sampling: from the first coordinate vector, the second, and the plane, the eight channels at every point. -/
def sampB2c : { f : Vec F S500000 .f32 → Vec F S500000 .f32 → Vec F S8x512x512 .f32 → Vec F S500000x8 .f32 //
    ∀ M : Valuation τ sig (Elt F), after opsB2c M (Proc.devRef .tc main_v1023)
      = f (M (Proc.devRef .tc main_v11)) (M (Proc.devRef .tc main_v13)) (M (Proc.devRef .tc main_arg21)) } :=
  ⟨_, fun M => by
    after_results_cat
    try simp only [TRef.ofBuf, TRef.toBuf, cast_eq]
    generalize M (Proc.devRef .tc main_v11) = x
    generalize M (Proc.devRef .tc main_v13) = y
    generalize M (Proc.devRef .tc main_arg21) = z
    rfl⟩

/-- What the sampling's last operation leaves, from any contents. -/
theorem sampB2c_at (M : Valuation τ sig (Elt F)) : after opsB2c M (Proc.devRef .tc main_v1023)
    = sampB2c.1 (M (Proc.devRef .tc main_v11)) (M (Proc.devRef .tc main_v13)) (M (Proc.devRef .tc main_arg21)) := sampB2c.2 M

end Cert.KernelIdeal.Hand

end
-- ==== Proof.KernelIdeal.HostChain.lean ====
/- The three feature arrays the region is entered with, as functions of the point array and the level's three planes:
   the host operations before the region, chunk by chunk, each chunk's result a function of what it reads, and what a
   chunk does not write carried through it. -/
import proofs.«138882_j46462956208560_1_alg».proof.Proof.KernelIdeal.HostChainPre
import proofs.«138882_j46462956208560_1_alg».proof.Proof.KernelIdeal.HostKeep
import proofs.«138882_j46462956208560_1_alg».proof.Proof.KernelIdeal.HostChain.B0a
import proofs.«138882_j46462956208560_1_alg».proof.Proof.KernelIdeal.HostChain.B0b
import proofs.«138882_j46462956208560_1_alg».proof.Proof.KernelIdeal.HostChain.B0c
import proofs.«138882_j46462956208560_1_alg».proof.Proof.KernelIdeal.HostChain.B1a
import proofs.«138882_j46462956208560_1_alg».proof.Proof.KernelIdeal.HostChain.B1b
import proofs.«138882_j46462956208560_1_alg».proof.Proof.KernelIdeal.HostChain.B1c
import proofs.«138882_j46462956208560_1_alg».proof.Proof.KernelIdeal.HostChain.B2a
import proofs.«138882_j46462956208560_1_alg».proof.Proof.KernelIdeal.HostChain.B2b
import proofs.«138882_j46462956208560_1_alg».proof.Proof.KernelIdeal.HostChain.B2c

set_option maxRecDepth 16384

noncomputable section

namespace Cert.KernelIdeal.Hand

open Cert.KernelIdeal Cert.KernelIdeal.Gen Cert.KernelIdeal.Chunks Idealize.ShloMosaic Idealize.ShloMosaic.TcCoe Idealize.SL.Sem Idealize.ShloMosaic.StableHlo

variable {F : FTy → Type} [FloatOps F]

/-! ## The samplings and the feature arrays as functions -/

/-- Level 0's sampling of its first plane, from two coordinate vectors and the plane. -/
def s0a (u v : Vec F S500000 .f32) (p : Vec F S8x128x128 .f32) : Vec F S500000x8 .f32 := sampB0a.1 u v p
theorem s0a_at (M : Valuation τ sig (Elt F)) : after kB0a M (Proc.devRef .tc main_v125)
    = s0a (M (Proc.devRef .tc main_v9)) (M (Proc.devRef .tc main_v11)) (M (Proc.devRef .tc main_arg1)) := sampB0a.2 M
/-- Level 0's sampling of its second plane, from two coordinate vectors and the plane. -/
def s0b (u v : Vec F S500000 .f32) (p : Vec F S8x128x128 .f32) : Vec F S500000x8 .f32 := sampB0b.1 u v p
theorem s0b_at (M : Valuation τ sig (Elt F)) : after kB0b M (Proc.devRef .tc main_v237)
    = s0b (M (Proc.devRef .tc main_v9)) (M (Proc.devRef .tc main_v13)) (M (Proc.devRef .tc main_arg2)) := sampB0b.2 M
/-- Level 0's sampling of its third plane, from two coordinate vectors and the plane. -/
def s0c (u v : Vec F S500000 .f32) (p : Vec F S8x128x128 .f32) : Vec F S500000x8 .f32 := sampB0c.1 u v p
theorem s0c_at (M : Valuation τ sig (Elt F)) : after kB0c M (Proc.devRef .tc main_v349)
    = s0c (M (Proc.devRef .tc main_v11)) (M (Proc.devRef .tc main_v13)) (M (Proc.devRef .tc main_arg3)) := sampB0c.2 M
/-- Level 1's sampling of its first plane, from two coordinate vectors and the plane. -/
def s1a (u v : Vec F S500000 .f32) (p : Vec F S8x256x256 .f32) : Vec F S500000x8 .f32 := sampB1a.1 u v p
theorem s1a_at (M : Valuation τ sig (Elt F)) : after kB1a M (Proc.devRef .tc main_v462)
    = s1a (M (Proc.devRef .tc main_v9)) (M (Proc.devRef .tc main_v11)) (M (Proc.devRef .tc main_arg10)) := sampB1a.2 M
/-- Level 1's sampling of its second plane, from two coordinate vectors and the plane. -/
def s1b (u v : Vec F S500000 .f32) (p : Vec F S8x256x256 .f32) : Vec F S500000x8 .f32 := sampB1b.1 u v p
theorem s1b_at (M : Valuation τ sig (Elt F)) : after kB1b M (Proc.devRef .tc main_v574)
    = s1b (M (Proc.devRef .tc main_v9)) (M (Proc.devRef .tc main_v13)) (M (Proc.devRef .tc main_arg11)) := sampB1b.2 M
/-- Level 1's sampling of its third plane, from two coordinate vectors and the plane. -/
def s1c (u v : Vec F S500000 .f32) (p : Vec F S8x256x256 .f32) : Vec F S500000x8 .f32 := sampB1c.1 u v p
theorem s1c_at (M : Valuation τ sig (Elt F)) : after kB1c M (Proc.devRef .tc main_v686)
    = s1c (M (Proc.devRef .tc main_v11)) (M (Proc.devRef .tc main_v13)) (M (Proc.devRef .tc main_arg12)) := sampB1c.2 M
/-- Level 2's sampling of its first plane, from two coordinate vectors and the plane. -/
def s2a (u v : Vec F S500000 .f32) (p : Vec F S8x512x512 .f32) : Vec F S500000x8 .f32 := sampB2a.1 u v p
theorem s2a_at (M : Valuation τ sig (Elt F)) : after kB2a M (Proc.devRef .tc main_v799)
    = s2a (M (Proc.devRef .tc main_v9)) (M (Proc.devRef .tc main_v11)) (M (Proc.devRef .tc main_arg19)) := sampB2a.2 M
/-- Level 2's sampling of its second plane, from two coordinate vectors and the plane. -/
def s2b (u v : Vec F S500000 .f32) (p : Vec F S8x512x512 .f32) : Vec F S500000x8 .f32 := sampB2b.1 u v p
theorem s2b_at (M : Valuation τ sig (Elt F)) : after kB2b M (Proc.devRef .tc main_v911)
    = s2b (M (Proc.devRef .tc main_v9)) (M (Proc.devRef .tc main_v13)) (M (Proc.devRef .tc main_arg20)) := sampB2b.2 M
/-- Level 2's sampling of its third plane, from two coordinate vectors and the plane. -/
def s2c (u v : Vec F S500000 .f32) (p : Vec F S8x512x512 .f32) : Vec F S500000x8 .f32 := sampB2c.1 u v p
theorem s2c_at (M : Valuation τ sig (Elt F)) : after kB2c M (Proc.devRef .tc main_v1023)
    = s2c (M (Proc.devRef .tc main_v11)) (M (Proc.devRef .tc main_v13)) (M (Proc.devRef .tc main_arg21)) := sampB2c.2 M

/-- Level 0's feature array: its three planes sampled at the scaled coordinates, side by side. -/
def feat0 (xyz : Vec F S500000x3 .f32) (xy xz yz : Vec F S8x128x128 .f32) : Vec F S500000x24 .f32 :=
  cat (s0a (nx xyz) (ny xyz) xy) (s0b (nx xyz) (nz xyz) xz) (s0c (ny xyz) (nz xyz) yz)
/-- Level 1's feature array: its three planes sampled at the scaled coordinates, side by side. -/
def feat1 (xyz : Vec F S500000x3 .f32) (xy xz yz : Vec F S8x256x256 .f32) : Vec F S500000x24 .f32 :=
  cat (s1a (nx xyz) (ny xyz) xy) (s1b (nx xyz) (nz xyz) xz) (s1c (ny xyz) (nz xyz) yz)
/-- Level 2's feature array: its three planes sampled at the scaled coordinates, side by side. -/
def feat2 (xyz : Vec F S500000x3 .f32) (xy xz yz : Vec F S8x512x512 .f32) : Vec F S500000x24 .f32 :=
  cat (s2a (nx xyz) (ny xyz) xy) (s2b (nx xyz) (nz xyz) xz) (s2c (ny xyz) (nz xyz) yz)

/-! ## The other chunks, under their opaque names -/

theorem kPre_v9 (M : Valuation τ sig (Elt F)) : after kPre M (Proc.devRef .tc main_v9) = nx (M (Proc.devRef .tc main_arg0)) := nx_at M
theorem kPre_v11 (M : Valuation τ sig (Elt F)) : after kPre M (Proc.devRef .tc main_v11) = ny (M (Proc.devRef .tc main_arg0)) := ny_at M
theorem kPre_v13 (M : Valuation τ sig (Elt F)) : after kPre M (Proc.devRef .tc main_v13) = nz (M (Proc.devRef .tc main_arg0)) := nz_at M
theorem kCat0_at (M : Valuation τ sig (Elt F)) : after kCat0 M (Proc.devRef .tc main_v350)
    = cat (M (Proc.devRef .tc main_v125)) (M (Proc.devRef .tc main_v237)) (M (Proc.devRef .tc main_v349)) := cat0_at M
theorem kCat1_at (M : Valuation τ sig (Elt F)) : after kCat1 M (Proc.devRef .tc main_v687)
    = cat (M (Proc.devRef .tc main_v462)) (M (Proc.devRef .tc main_v574)) (M (Proc.devRef .tc main_v686)) := cat1_at M
theorem kCat2_at (M : Valuation τ sig (Elt F)) : after kCat2 M (Proc.devRef .tc main_v1024)
    = cat (M (Proc.devRef .tc main_v799)) (M (Proc.devRef .tc main_v911)) (M (Proc.devRef .tc main_v1023)) := cat2_at M

/-! ## A level: what it leaves, and what passes through it -/

/-- Level 0's four chunks leave its feature array at the three samplings, of what the level found, side by side. -/
theorem level0_at (M : Valuation τ sig (Elt F)) : after kCat0 (after kB0c (after kB0b (after kB0a M))) (Proc.devRef .tc main_v350)
    = cat (s0a (M (Proc.devRef .tc main_v9)) (M (Proc.devRef .tc main_v11)) (M (Proc.devRef .tc main_arg1))) (s0b (M (Proc.devRef .tc main_v9)) (M (Proc.devRef .tc main_v13)) (M (Proc.devRef .tc main_arg2)))
        (s0c (M (Proc.devRef .tc main_v11)) (M (Proc.devRef .tc main_v13)) (M (Proc.devRef .tc main_arg3))) := by
  rw [kCat0_at,
    after_keep kB0c_within _ main_v125 (by decide), after_keep kB0b_within _ main_v125 (by decide), s0a_at,
    after_keep kB0c_within _ main_v237 (by decide), s0b_at, s0c_at,
    after_keep kB0b_within _ main_v11 (by decide), after_keep kB0b_within _ main_v13 (by decide), after_keep kB0b_within _ main_arg3 (by decide),
    after_keep kB0a_within _ main_v9 (by decide), after_keep kB0a_within _ main_v13 (by decide), after_keep kB0a_within _ main_arg2 (by decide), after_keep kB0a_within _ main_v11 (by decide), after_keep kB0a_within _ main_arg3 (by decide)]

/-- A buffer whose index is outside level 0's range passes through its four chunks. -/
theorem keep_level0 (M : Valuation τ sig (Elt F)) (r : Ref sig .tc) (hr : r.idx.val < 46 ∨ 548 ≤ r.idx.val) :
    after kCat0 (after kB0c (after kB0b (after kB0a M))) (Proc.devRef .tc r) = M (Proc.devRef .tc r) := by
  rw [after_keep kCat0_within _ r (by omega), after_keep kB0c_within _ r (by omega),
    after_keep kB0b_within _ r (by omega), after_keep kB0a_within _ r (by omega)]

/-- Level 1's four chunks leave its feature array at the three samplings, of what the level found, side by side. -/
theorem level1_at (M : Valuation τ sig (Elt F)) : after kCat1 (after kB1c (after kB1b (after kB1a M))) (Proc.devRef .tc main_v687)
    = cat (s1a (M (Proc.devRef .tc main_v9)) (M (Proc.devRef .tc main_v11)) (M (Proc.devRef .tc main_arg10))) (s1b (M (Proc.devRef .tc main_v9)) (M (Proc.devRef .tc main_v13)) (M (Proc.devRef .tc main_arg11)))
        (s1c (M (Proc.devRef .tc main_v11)) (M (Proc.devRef .tc main_v13)) (M (Proc.devRef .tc main_arg12))) := by
  rw [kCat1_at,
    after_keep kB1c_within _ main_v462 (by decide), after_keep kB1b_within _ main_v462 (by decide), s1a_at,
    after_keep kB1c_within _ main_v574 (by decide), s1b_at, s1c_at,
    after_keep kB1b_within _ main_v11 (by decide), after_keep kB1b_within _ main_v13 (by decide), after_keep kB1b_within _ main_arg12 (by decide),
    after_keep kB1a_within _ main_v9 (by decide), after_keep kB1a_within _ main_v13 (by decide), after_keep kB1a_within _ main_arg11 (by decide), after_keep kB1a_within _ main_v11 (by decide), after_keep kB1a_within _ main_arg12 (by decide)]

/-- A buffer whose index is outside level 1's range passes through its four chunks. -/
theorem keep_level1 (M : Valuation τ sig (Elt F)) (r : Ref sig .tc) (hr : r.idx.val < 548 ∨ 1050 ≤ r.idx.val) :
    after kCat1 (after kB1c (after kB1b (after kB1a M))) (Proc.devRef .tc r) = M (Proc.devRef .tc r) := by
  rw [after_keep kCat1_within _ r (by omega), after_keep kB1c_within _ r (by omega),
    after_keep kB1b_within _ r (by omega), after_keep kB1a_within _ r (by omega)]

/-- Level 2's four chunks leave its feature array at the three samplings, of what the level found, side by side. -/
theorem level2_at (M : Valuation τ sig (Elt F)) : after kCat2 (after kB2c (after kB2b (after kB2a M))) (Proc.devRef .tc main_v1024)
    = cat (s2a (M (Proc.devRef .tc main_v9)) (M (Proc.devRef .tc main_v11)) (M (Proc.devRef .tc main_arg19))) (s2b (M (Proc.devRef .tc main_v9)) (M (Proc.devRef .tc main_v13)) (M (Proc.devRef .tc main_arg20)))
        (s2c (M (Proc.devRef .tc main_v11)) (M (Proc.devRef .tc main_v13)) (M (Proc.devRef .tc main_arg21))) := by
  rw [kCat2_at,
    after_keep kB2c_within _ main_v799 (by decide), after_keep kB2b_within _ main_v799 (by decide), s2a_at,
    after_keep kB2c_within _ main_v911 (by decide), s2b_at, s2c_at,
    after_keep kB2b_within _ main_v11 (by decide), after_keep kB2b_within _ main_v13 (by decide), after_keep kB2b_within _ main_arg21 (by decide),
    after_keep kB2a_within _ main_v9 (by decide), after_keep kB2a_within _ main_v13 (by decide), after_keep kB2a_within _ main_arg20 (by decide), after_keep kB2a_within _ main_v11 (by decide), after_keep kB2a_within _ main_arg21 (by decide)]

/-- A buffer whose index is outside level 2's range passes through its four chunks. -/
theorem keep_level2 (M : Valuation τ sig (Elt F)) (r : Ref sig .tc) (hr : r.idx.val < 1050 ∨ 1552 ≤ r.idx.val) :
    after kCat2 (after kB2c (after kB2b (after kB2a M))) (Proc.devRef .tc r) = M (Proc.devRef .tc r) := by
  rw [after_keep kCat2_within _ r (by omega), after_keep kB2c_within _ r (by omega),
    after_keep kB2b_within _ r (by omega), after_keep kB2a_within _ r (by omega)]

/-! ## The feature arrays at the region's entry -/

variable (m : (ℓ : Loc nD τ sig) → Buf (Elt F) ℓ)

/-- The region finds level 0's feature array at `feat0` of the point array and the level's planes as they were at the start. -/
theorem V_feat0 (c : Dev nD) : V m c main_v350
    = feat0 (m ((c : Thread nD τ).loc main_arg0)) (m ((c : Thread nD τ).loc main_arg1)) (m ((c : Thread nD τ).loc main_arg2)) (m ((c : Thread nD τ).loc main_arg3)) := by
  show after (List.flatten (stretches (F := F))) (fun b => m (c, b)) (Proc.devRef .tc main_v350) = _
  rw [flatten_eq, after_chunks, keep_level2 _ main_v350 (by decide), keep_level1 _ main_v350 (by decide), level0_at]
  rw [kPre_v9,
    kPre_v11,
    kPre_v13,
    after_keep kPre_within _ main_arg1 (by decide),
    after_keep kPre_within _ main_arg2 (by decide),
    after_keep kPre_within _ main_arg3 (by decide)]
  rfl

/-- The region finds level 1's feature array at `feat1` of the point array and the level's planes as they were at the start. -/
theorem V_feat1 (c : Dev nD) : V m c main_v687
    = feat1 (m ((c : Thread nD τ).loc main_arg0)) (m ((c : Thread nD τ).loc main_arg10)) (m ((c : Thread nD τ).loc main_arg11)) (m ((c : Thread nD τ).loc main_arg12)) := by
  show after (List.flatten (stretches (F := F))) (fun b => m (c, b)) (Proc.devRef .tc main_v687) = _
  rw [flatten_eq, after_chunks, keep_level2 _ main_v687 (by decide), level1_at]
  rw [keep_level0 _ main_v9 (by decide),
    keep_level0 _ main_v11 (by decide),
    keep_level0 _ main_v13 (by decide),
    keep_level0 _ main_arg10 (by decide),
    keep_level0 _ main_arg11 (by decide),
    keep_level0 _ main_arg12 (by decide),
    kPre_v9,
    kPre_v11,
    kPre_v13,
    after_keep kPre_within _ main_arg10 (by decide),
    after_keep kPre_within _ main_arg11 (by decide),
    after_keep kPre_within _ main_arg12 (by decide)]
  rfl

/-- The region finds level 2's feature array at `feat2` of the point array and the level's planes as they were at the start. -/
theorem V_feat2 (c : Dev nD) : V m c main_v1024
    = feat2 (m ((c : Thread nD τ).loc main_arg0)) (m ((c : Thread nD τ).loc main_arg19)) (m ((c : Thread nD τ).loc main_arg20)) (m ((c : Thread nD τ).loc main_arg21)) := by
  show after (List.flatten (stretches (F := F))) (fun b => m (c, b)) (Proc.devRef .tc main_v1024) = _
  rw [flatten_eq, after_chunks, level2_at]
  rw [keep_level1 _ main_v9 (by decide),
    keep_level1 _ main_v11 (by decide),
    keep_level1 _ main_v13 (by decide),
    keep_level1 _ main_arg19 (by decide),
    keep_level1 _ main_arg20 (by decide),
    keep_level1 _ main_arg21 (by decide),
    keep_level0 _ main_v9 (by decide),
    keep_level0 _ main_v11 (by decide),
    keep_level0 _ main_v13 (by decide),
    keep_level0 _ main_arg19 (by decide),
    keep_level0 _ main_arg20 (by decide),
    keep_level0 _ main_arg21 (by decide),
    kPre_v9,
    kPre_v11,
    kPre_v13,
    after_keep kPre_within _ main_arg19 (by decide),
    after_keep kPre_within _ main_arg20 (by decide),
    after_keep kPre_within _ main_arg21 (by decide)]
  rfl

end Cert.KernelIdeal.Hand

end
-- ==== Proof.ReferenceIdeal.Stages.lean ====
/- The reference's line, piece by piece: the buffers' contents after each piece, the line's fold as the last of
   them, and what a piece leaves alone — a reference written before a run of pieces (its index below the first
   index they write) holds after them what it held before. -/
import proofs.«138882_j46462956208560_1_alg».proof.Proof.ReferenceIdeal.Ops
import proofs.«138882_j46462956208560_1_alg».proof.Proof.ReferenceIdeal.Line
import proofs.«138882_j46462956208560_1_alg».proof.Proof.ReferenceIdeal.Ok

noncomputable section

namespace Cert.ReferenceIdeal.Hand

open Cert.ReferenceIdeal Cert.ReferenceIdeal.Gen Cert.ReferenceIdeal.Chunks Idealize.ShloMosaic Idealize.ShloMosaic.TcCoe Idealize.SL.Sem Idealize.ShloMosaic.StableHlo

variable {F : FTy → Type} [FloatOps F]

/-- The buffers' contents before the first piece. -/
def W0 (M : Valuation τ sig (Elt F)) : Valuation τ sig (Elt F) := M
/-- The buffers' contents after the first 1 piece (through `opsPre`). -/
def W1 (M : Valuation τ sig (Elt F)) : Valuation τ sig (Elt F) := after opsPre (W0 M)
/-- The buffers' contents after the first 2 pieces (through `opsB0a`). -/
def W2 (M : Valuation τ sig (Elt F)) : Valuation τ sig (Elt F) := after opsB0a (W1 M)
/-- The buffers' contents after the first 3 pieces (through `opsB0b`). -/
def W3 (M : Valuation τ sig (Elt F)) : Valuation τ sig (Elt F) := after opsB0b (W2 M)
/-- The buffers' contents after the first 4 pieces (through `opsB0c`). -/
def W4 (M : Valuation τ sig (Elt F)) : Valuation τ sig (Elt F) := after opsB0c (W3 M)
/-- The buffers' contents after the first 5 pieces (through `opsCat0`). -/
def W5 (M : Valuation τ sig (Elt F)) : Valuation τ sig (Elt F) := after opsCat0 (W4 M)
/-- The buffers' contents after the first 6 pieces (through `opsMlp0`). -/
def W6 (M : Valuation τ sig (Elt F)) : Valuation τ sig (Elt F) := after opsMlp0 (W5 M)
/-- The buffers' contents after the first 7 pieces (through `opsB1a`). -/
def W7 (M : Valuation τ sig (Elt F)) : Valuation τ sig (Elt F) := after opsB1a (W6 M)
/-- The buffers' contents after the first 8 pieces (through `opsB1b`). -/
def W8 (M : Valuation τ sig (Elt F)) : Valuation τ sig (Elt F) := after opsB1b (W7 M)
/-- The buffers' contents after the first 9 pieces (through `opsB1c`). -/
def W9 (M : Valuation τ sig (Elt F)) : Valuation τ sig (Elt F) := after opsB1c (W8 M)
/-- The buffers' contents after the first 10 pieces (through `opsCat1`). -/
def W10 (M : Valuation τ sig (Elt F)) : Valuation τ sig (Elt F) := after opsCat1 (W9 M)
/-- The buffers' contents after the first 11 pieces (through `opsMlp1`). -/
def W11 (M : Valuation τ sig (Elt F)) : Valuation τ sig (Elt F) := after opsMlp1 (W10 M)
/-- The buffers' contents after the first 12 pieces (through `opsB2a`). -/
def W12 (M : Valuation τ sig (Elt F)) : Valuation τ sig (Elt F) := after opsB2a (W11 M)
/-- The buffers' contents after the first 13 pieces (through `opsB2b`). -/
def W13 (M : Valuation τ sig (Elt F)) : Valuation τ sig (Elt F) := after opsB2b (W12 M)
/-- The buffers' contents after the first 14 pieces (through `opsB2c`). -/
def W14 (M : Valuation τ sig (Elt F)) : Valuation τ sig (Elt F) := after opsB2c (W13 M)
/-- The buffers' contents after the first 15 pieces (through `opsCat2`). -/
def W15 (M : Valuation τ sig (Elt F)) : Valuation τ sig (Elt F) := after opsCat2 (W14 M)
/-- The buffers' contents after the first 16 pieces (through `opsMlp2`). -/
def W16 (M : Valuation τ sig (Elt F)) : Valuation τ sig (Elt F) := after opsMlp2 (W15 M)
/-- The buffers' contents after the first 17 pieces (through `opsHead`). -/
def W17 (M : Valuation τ sig (Elt F)) : Valuation τ sig (Elt F) := after opsHead (W16 M)

/-- The line's fold is the last stage. -/
theorem after_line (M : Valuation τ sig (Elt F)) : after (List.flatten (chunks (F := F))) M = W17 M := by
  simp only [chunks, List.flatten_cons, List.flatten_nil, List.append_nil, after_append]
  rfl

/-! ## What a run of pieces leaves alone

`carry_i_j`: a reference of index below the first index piece `i` (counting from 0) writes holds after piece
`j - 1` what it held before piece `i`. -/

theorem carry_0_1 (M : Valuation τ sig (Elt F)) (r : Ref sig .tc) (h : r.idx.val < 28) :
    W1 M (Proc.devRef .tc r) = W0 M (Proc.devRef .tc r) :=
  (opsPre_ok.keep r (Or.inl (h.trans_le (by decide))) (W0 M))
theorem carry_0_2 (M : Valuation τ sig (Elt F)) (r : Ref sig .tc) (h : r.idx.val < 28) :
    W2 M (Proc.devRef .tc r) = W0 M (Proc.devRef .tc r) :=
  ((opsB0a_ok.keep r (Or.inl (h.trans_le (by decide))) (W1 M)).trans (opsPre_ok.keep r (Or.inl (h.trans_le (by decide))) (W0 M)))
theorem carry_0_3 (M : Valuation τ sig (Elt F)) (r : Ref sig .tc) (h : r.idx.val < 28) :
    W3 M (Proc.devRef .tc r) = W0 M (Proc.devRef .tc r) :=
  (((opsB0b_ok.keep r (Or.inl (h.trans_le (by decide))) (W2 M)).trans (opsB0a_ok.keep r (Or.inl (h.trans_le (by decide))) (W1 M))).trans (opsPre_ok.keep r (Or.inl (h.trans_le (by decide))) (W0 M)))
theorem carry_0_4 (M : Valuation τ sig (Elt F)) (r : Ref sig .tc) (h : r.idx.val < 28) :
    W4 M (Proc.devRef .tc r) = W0 M (Proc.devRef .tc r) :=
  ((((opsB0c_ok.keep r (Or.inl (h.trans_le (by decide))) (W3 M)).trans (opsB0b_ok.keep r (Or.inl (h.trans_le (by decide))) (W2 M))).trans (opsB0a_ok.keep r (Or.inl (h.trans_le (by decide))) (W1 M))).trans (opsPre_ok.keep r (Or.inl (h.trans_le (by decide))) (W0 M)))
theorem carry_0_5 (M : Valuation τ sig (Elt F)) (r : Ref sig .tc) (h : r.idx.val < 28) :
    W5 M (Proc.devRef .tc r) = W0 M (Proc.devRef .tc r) :=
  (((((opsCat0_ok.keep r (Or.inl (h.trans_le (by decide))) (W4 M)).trans (opsB0c_ok.keep r (Or.inl (h.trans_le (by decide))) (W3 M))).trans (opsB0b_ok.keep r (Or.inl (h.trans_le (by decide))) (W2 M))).trans (opsB0a_ok.keep r (Or.inl (h.trans_le (by decide))) (W1 M))).trans (opsPre_ok.keep r (Or.inl (h.trans_le (by decide))) (W0 M)))
theorem carry_0_6 (M : Valuation τ sig (Elt F)) (r : Ref sig .tc) (h : r.idx.val < 28) :
    W6 M (Proc.devRef .tc r) = W0 M (Proc.devRef .tc r) :=
  ((((((opsMlp0_ok.keep r (Or.inl (h.trans_le (by decide))) (W5 M)).trans (opsCat0_ok.keep r (Or.inl (h.trans_le (by decide))) (W4 M))).trans (opsB0c_ok.keep r (Or.inl (h.trans_le (by decide))) (W3 M))).trans (opsB0b_ok.keep r (Or.inl (h.trans_le (by decide))) (W2 M))).trans (opsB0a_ok.keep r (Or.inl (h.trans_le (by decide))) (W1 M))).trans (opsPre_ok.keep r (Or.inl (h.trans_le (by decide))) (W0 M)))
theorem carry_0_7 (M : Valuation τ sig (Elt F)) (r : Ref sig .tc) (h : r.idx.val < 28) :
    W7 M (Proc.devRef .tc r) = W0 M (Proc.devRef .tc r) :=
  (((((((opsB1a_ok.keep r (Or.inl (h.trans_le (by decide))) (W6 M)).trans (opsMlp0_ok.keep r (Or.inl (h.trans_le (by decide))) (W5 M))).trans (opsCat0_ok.keep r (Or.inl (h.trans_le (by decide))) (W4 M))).trans (opsB0c_ok.keep r (Or.inl (h.trans_le (by decide))) (W3 M))).trans (opsB0b_ok.keep r (Or.inl (h.trans_le (by decide))) (W2 M))).trans (opsB0a_ok.keep r (Or.inl (h.trans_le (by decide))) (W1 M))).trans (opsPre_ok.keep r (Or.inl (h.trans_le (by decide))) (W0 M)))
theorem carry_0_8 (M : Valuation τ sig (Elt F)) (r : Ref sig .tc) (h : r.idx.val < 28) :
    W8 M (Proc.devRef .tc r) = W0 M (Proc.devRef .tc r) :=
  ((((((((opsB1b_ok.keep r (Or.inl (h.trans_le (by decide))) (W7 M)).trans (opsB1a_ok.keep r (Or.inl (h.trans_le (by decide))) (W6 M))).trans (opsMlp0_ok.keep r (Or.inl (h.trans_le (by decide))) (W5 M))).trans (opsCat0_ok.keep r (Or.inl (h.trans_le (by decide))) (W4 M))).trans (opsB0c_ok.keep r (Or.inl (h.trans_le (by decide))) (W3 M))).trans (opsB0b_ok.keep r (Or.inl (h.trans_le (by decide))) (W2 M))).trans (opsB0a_ok.keep r (Or.inl (h.trans_le (by decide))) (W1 M))).trans (opsPre_ok.keep r (Or.inl (h.trans_le (by decide))) (W0 M)))
theorem carry_0_9 (M : Valuation τ sig (Elt F)) (r : Ref sig .tc) (h : r.idx.val < 28) :
    W9 M (Proc.devRef .tc r) = W0 M (Proc.devRef .tc r) :=
  (((((((((opsB1c_ok.keep r (Or.inl (h.trans_le (by decide))) (W8 M)).trans (opsB1b_ok.keep r (Or.inl (h.trans_le (by decide))) (W7 M))).trans (opsB1a_ok.keep r (Or.inl (h.trans_le (by decide))) (W6 M))).trans (opsMlp0_ok.keep r (Or.inl (h.trans_le (by decide))) (W5 M))).trans (opsCat0_ok.keep r (Or.inl (h.trans_le (by decide))) (W4 M))).trans (opsB0c_ok.keep r (Or.inl (h.trans_le (by decide))) (W3 M))).trans (opsB0b_ok.keep r (Or.inl (h.trans_le (by decide))) (W2 M))).trans (opsB0a_ok.keep r (Or.inl (h.trans_le (by decide))) (W1 M))).trans (opsPre_ok.keep r (Or.inl (h.trans_le (by decide))) (W0 M)))
theorem carry_0_10 (M : Valuation τ sig (Elt F)) (r : Ref sig .tc) (h : r.idx.val < 28) :
    W10 M (Proc.devRef .tc r) = W0 M (Proc.devRef .tc r) :=
  ((((((((((opsCat1_ok.keep r (Or.inl (h.trans_le (by decide))) (W9 M)).trans (opsB1c_ok.keep r (Or.inl (h.trans_le (by decide))) (W8 M))).trans (opsB1b_ok.keep r (Or.inl (h.trans_le (by decide))) (W7 M))).trans (opsB1a_ok.keep r (Or.inl (h.trans_le (by decide))) (W6 M))).trans (opsMlp0_ok.keep r (Or.inl (h.trans_le (by decide))) (W5 M))).trans (opsCat0_ok.keep r (Or.inl (h.trans_le (by decide))) (W4 M))).trans (opsB0c_ok.keep r (Or.inl (h.trans_le (by decide))) (W3 M))).trans (opsB0b_ok.keep r (Or.inl (h.trans_le (by decide))) (W2 M))).trans (opsB0a_ok.keep r (Or.inl (h.trans_le (by decide))) (W1 M))).trans (opsPre_ok.keep r (Or.inl (h.trans_le (by decide))) (W0 M)))
theorem carry_0_11 (M : Valuation τ sig (Elt F)) (r : Ref sig .tc) (h : r.idx.val < 28) :
    W11 M (Proc.devRef .tc r) = W0 M (Proc.devRef .tc r) :=
  (((((((((((opsMlp1_ok.keep r (Or.inl (h.trans_le (by decide))) (W10 M)).trans (opsCat1_ok.keep r (Or.inl (h.trans_le (by decide))) (W9 M))).trans (opsB1c_ok.keep r (Or.inl (h.trans_le (by decide))) (W8 M))).trans (opsB1b_ok.keep r (Or.inl (h.trans_le (by decide))) (W7 M))).trans (opsB1a_ok.keep r (Or.inl (h.trans_le (by decide))) (W6 M))).trans (opsMlp0_ok.keep r (Or.inl (h.trans_le (by decide))) (W5 M))).trans (opsCat0_ok.keep r (Or.inl (h.trans_le (by decide))) (W4 M))).trans (opsB0c_ok.keep r (Or.inl (h.trans_le (by decide))) (W3 M))).trans (opsB0b_ok.keep r (Or.inl (h.trans_le (by decide))) (W2 M))).trans (opsB0a_ok.keep r (Or.inl (h.trans_le (by decide))) (W1 M))).trans (opsPre_ok.keep r (Or.inl (h.trans_le (by decide))) (W0 M)))
theorem carry_0_12 (M : Valuation τ sig (Elt F)) (r : Ref sig .tc) (h : r.idx.val < 28) :
    W12 M (Proc.devRef .tc r) = W0 M (Proc.devRef .tc r) :=
  ((((((((((((opsB2a_ok.keep r (Or.inl (h.trans_le (by decide))) (W11 M)).trans (opsMlp1_ok.keep r (Or.inl (h.trans_le (by decide))) (W10 M))).trans (opsCat1_ok.keep r (Or.inl (h.trans_le (by decide))) (W9 M))).trans (opsB1c_ok.keep r (Or.inl (h.trans_le (by decide))) (W8 M))).trans (opsB1b_ok.keep r (Or.inl (h.trans_le (by decide))) (W7 M))).trans (opsB1a_ok.keep r (Or.inl (h.trans_le (by decide))) (W6 M))).trans (opsMlp0_ok.keep r (Or.inl (h.trans_le (by decide))) (W5 M))).trans (opsCat0_ok.keep r (Or.inl (h.trans_le (by decide))) (W4 M))).trans (opsB0c_ok.keep r (Or.inl (h.trans_le (by decide))) (W3 M))).trans (opsB0b_ok.keep r (Or.inl (h.trans_le (by decide))) (W2 M))).trans (opsB0a_ok.keep r (Or.inl (h.trans_le (by decide))) (W1 M))).trans (opsPre_ok.keep r (Or.inl (h.trans_le (by decide))) (W0 M)))
theorem carry_0_13 (M : Valuation τ sig (Elt F)) (r : Ref sig .tc) (h : r.idx.val < 28) :
    W13 M (Proc.devRef .tc r) = W0 M (Proc.devRef .tc r) :=
  (((((((((((((opsB2b_ok.keep r (Or.inl (h.trans_le (by decide))) (W12 M)).trans (opsB2a_ok.keep r (Or.inl (h.trans_le (by decide))) (W11 M))).trans (opsMlp1_ok.keep r (Or.inl (h.trans_le (by decide))) (W10 M))).trans (opsCat1_ok.keep r (Or.inl (h.trans_le (by decide))) (W9 M))).trans (opsB1c_ok.keep r (Or.inl (h.trans_le (by decide))) (W8 M))).trans (opsB1b_ok.keep r (Or.inl (h.trans_le (by decide))) (W7 M))).trans (opsB1a_ok.keep r (Or.inl (h.trans_le (by decide))) (W6 M))).trans (opsMlp0_ok.keep r (Or.inl (h.trans_le (by decide))) (W5 M))).trans (opsCat0_ok.keep r (Or.inl (h.trans_le (by decide))) (W4 M))).trans (opsB0c_ok.keep r (Or.inl (h.trans_le (by decide))) (W3 M))).trans (opsB0b_ok.keep r (Or.inl (h.trans_le (by decide))) (W2 M))).trans (opsB0a_ok.keep r (Or.inl (h.trans_le (by decide))) (W1 M))).trans (opsPre_ok.keep r (Or.inl (h.trans_le (by decide))) (W0 M)))
theorem carry_0_14 (M : Valuation τ sig (Elt F)) (r : Ref sig .tc) (h : r.idx.val < 28) :
    W14 M (Proc.devRef .tc r) = W0 M (Proc.devRef .tc r) :=
  ((((((((((((((opsB2c_ok.keep r (Or.inl (h.trans_le (by decide))) (W13 M)).trans (opsB2b_ok.keep r (Or.inl (h.trans_le (by decide))) (W12 M))).trans (opsB2a_ok.keep r (Or.inl (h.trans_le (by decide))) (W11 M))).trans (opsMlp1_ok.keep r (Or.inl (h.trans_le (by decide))) (W10 M))).trans (opsCat1_ok.keep r (Or.inl (h.trans_le (by decide))) (W9 M))).trans (opsB1c_ok.keep r (Or.inl (h.trans_le (by decide))) (W8 M))).trans (opsB1b_ok.keep r (Or.inl (h.trans_le (by decide))) (W7 M))).trans (opsB1a_ok.keep r (Or.inl (h.trans_le (by decide))) (W6 M))).trans (opsMlp0_ok.keep r (Or.inl (h.trans_le (by decide))) (W5 M))).trans (opsCat0_ok.keep r (Or.inl (h.trans_le (by decide))) (W4 M))).trans (opsB0c_ok.keep r (Or.inl (h.trans_le (by decide))) (W3 M))).trans (opsB0b_ok.keep r (Or.inl (h.trans_le (by decide))) (W2 M))).trans (opsB0a_ok.keep r (Or.inl (h.trans_le (by decide))) (W1 M))).trans (opsPre_ok.keep r (Or.inl (h.trans_le (by decide))) (W0 M)))
theorem carry_0_15 (M : Valuation τ sig (Elt F)) (r : Ref sig .tc) (h : r.idx.val < 28) :
    W15 M (Proc.devRef .tc r) = W0 M (Proc.devRef .tc r) :=
  (((((((((((((((opsCat2_ok.keep r (Or.inl (h.trans_le (by decide))) (W14 M)).trans (opsB2c_ok.keep r (Or.inl (h.trans_le (by decide))) (W13 M))).trans (opsB2b_ok.keep r (Or.inl (h.trans_le (by decide))) (W12 M))).trans (opsB2a_ok.keep r (Or.inl (h.trans_le (by decide))) (W11 M))).trans (opsMlp1_ok.keep r (Or.inl (h.trans_le (by decide))) (W10 M))).trans (opsCat1_ok.keep r (Or.inl (h.trans_le (by decide))) (W9 M))).trans (opsB1c_ok.keep r (Or.inl (h.trans_le (by decide))) (W8 M))).trans (opsB1b_ok.keep r (Or.inl (h.trans_le (by decide))) (W7 M))).trans (opsB1a_ok.keep r (Or.inl (h.trans_le (by decide))) (W6 M))).trans (opsMlp0_ok.keep r (Or.inl (h.trans_le (by decide))) (W5 M))).trans (opsCat0_ok.keep r (Or.inl (h.trans_le (by decide))) (W4 M))).trans (opsB0c_ok.keep r (Or.inl (h.trans_le (by decide))) (W3 M))).trans (opsB0b_ok.keep r (Or.inl (h.trans_le (by decide))) (W2 M))).trans (opsB0a_ok.keep r (Or.inl (h.trans_le (by decide))) (W1 M))).trans (opsPre_ok.keep r (Or.inl (h.trans_le (by decide))) (W0 M)))
theorem carry_0_16 (M : Valuation τ sig (Elt F)) (r : Ref sig .tc) (h : r.idx.val < 28) :
    W16 M (Proc.devRef .tc r) = W0 M (Proc.devRef .tc r) :=
  ((((((((((((((((opsMlp2_ok.keep r (Or.inl (h.trans_le (by decide))) (W15 M)).trans (opsCat2_ok.keep r (Or.inl (h.trans_le (by decide))) (W14 M))).trans (opsB2c_ok.keep r (Or.inl (h.trans_le (by decide))) (W13 M))).trans (opsB2b_ok.keep r (Or.inl (h.trans_le (by decide))) (W12 M))).trans (opsB2a_ok.keep r (Or.inl (h.trans_le (by decide))) (W11 M))).trans (opsMlp1_ok.keep r (Or.inl (h.trans_le (by decide))) (W10 M))).trans (opsCat1_ok.keep r (Or.inl (h.trans_le (by decide))) (W9 M))).trans (opsB1c_ok.keep r (Or.inl (h.trans_le (by decide))) (W8 M))).trans (opsB1b_ok.keep r (Or.inl (h.trans_le (by decide))) (W7 M))).trans (opsB1a_ok.keep r (Or.inl (h.trans_le (by decide))) (W6 M))).trans (opsMlp0_ok.keep r (Or.inl (h.trans_le (by decide))) (W5 M))).trans (opsCat0_ok.keep r (Or.inl (h.trans_le (by decide))) (W4 M))).trans (opsB0c_ok.keep r (Or.inl (h.trans_le (by decide))) (W3 M))).trans (opsB0b_ok.keep r (Or.inl (h.trans_le (by decide))) (W2 M))).trans (opsB0a_ok.keep r (Or.inl (h.trans_le (by decide))) (W1 M))).trans (opsPre_ok.keep r (Or.inl (h.trans_le (by decide))) (W0 M)))
theorem carry_1_2 (M : Valuation τ sig (Elt F)) (r : Ref sig .tc) (h : r.idx.val < 46) :
    W2 M (Proc.devRef .tc r) = W1 M (Proc.devRef .tc r) :=
  (opsB0a_ok.keep r (Or.inl (h.trans_le (by decide))) (W1 M))
theorem carry_1_3 (M : Valuation τ sig (Elt F)) (r : Ref sig .tc) (h : r.idx.val < 46) :
    W3 M (Proc.devRef .tc r) = W1 M (Proc.devRef .tc r) :=
  ((opsB0b_ok.keep r (Or.inl (h.trans_le (by decide))) (W2 M)).trans (opsB0a_ok.keep r (Or.inl (h.trans_le (by decide))) (W1 M)))
theorem carry_1_4 (M : Valuation τ sig (Elt F)) (r : Ref sig .tc) (h : r.idx.val < 46) :
    W4 M (Proc.devRef .tc r) = W1 M (Proc.devRef .tc r) :=
  (((opsB0c_ok.keep r (Or.inl (h.trans_le (by decide))) (W3 M)).trans (opsB0b_ok.keep r (Or.inl (h.trans_le (by decide))) (W2 M))).trans (opsB0a_ok.keep r (Or.inl (h.trans_le (by decide))) (W1 M)))
theorem carry_1_5 (M : Valuation τ sig (Elt F)) (r : Ref sig .tc) (h : r.idx.val < 46) :
    W5 M (Proc.devRef .tc r) = W1 M (Proc.devRef .tc r) :=
  ((((opsCat0_ok.keep r (Or.inl (h.trans_le (by decide))) (W4 M)).trans (opsB0c_ok.keep r (Or.inl (h.trans_le (by decide))) (W3 M))).trans (opsB0b_ok.keep r (Or.inl (h.trans_le (by decide))) (W2 M))).trans (opsB0a_ok.keep r (Or.inl (h.trans_le (by decide))) (W1 M)))
theorem carry_1_6 (M : Valuation τ sig (Elt F)) (r : Ref sig .tc) (h : r.idx.val < 46) :
    W6 M (Proc.devRef .tc r) = W1 M (Proc.devRef .tc r) :=
  (((((opsMlp0_ok.keep r (Or.inl (h.trans_le (by decide))) (W5 M)).trans (opsCat0_ok.keep r (Or.inl (h.trans_le (by decide))) (W4 M))).trans (opsB0c_ok.keep r (Or.inl (h.trans_le (by decide))) (W3 M))).trans (opsB0b_ok.keep r (Or.inl (h.trans_le (by decide))) (W2 M))).trans (opsB0a_ok.keep r (Or.inl (h.trans_le (by decide))) (W1 M)))
theorem carry_1_7 (M : Valuation τ sig (Elt F)) (r : Ref sig .tc) (h : r.idx.val < 46) :
    W7 M (Proc.devRef .tc r) = W1 M (Proc.devRef .tc r) :=
  ((((((opsB1a_ok.keep r (Or.inl (h.trans_le (by decide))) (W6 M)).trans (opsMlp0_ok.keep r (Or.inl (h.trans_le (by decide))) (W5 M))).trans (opsCat0_ok.keep r (Or.inl (h.trans_le (by decide))) (W4 M))).trans (opsB0c_ok.keep r (Or.inl (h.trans_le (by decide))) (W3 M))).trans (opsB0b_ok.keep r (Or.inl (h.trans_le (by decide))) (W2 M))).trans (opsB0a_ok.keep r (Or.inl (h.trans_le (by decide))) (W1 M)))
theorem carry_1_8 (M : Valuation τ sig (Elt F)) (r : Ref sig .tc) (h : r.idx.val < 46) :
    W8 M (Proc.devRef .tc r) = W1 M (Proc.devRef .tc r) :=
  (((((((opsB1b_ok.keep r (Or.inl (h.trans_le (by decide))) (W7 M)).trans (opsB1a_ok.keep r (Or.inl (h.trans_le (by decide))) (W6 M))).trans (opsMlp0_ok.keep r (Or.inl (h.trans_le (by decide))) (W5 M))).trans (opsCat0_ok.keep r (Or.inl (h.trans_le (by decide))) (W4 M))).trans (opsB0c_ok.keep r (Or.inl (h.trans_le (by decide))) (W3 M))).trans (opsB0b_ok.keep r (Or.inl (h.trans_le (by decide))) (W2 M))).trans (opsB0a_ok.keep r (Or.inl (h.trans_le (by decide))) (W1 M)))
theorem carry_1_9 (M : Valuation τ sig (Elt F)) (r : Ref sig .tc) (h : r.idx.val < 46) :
    W9 M (Proc.devRef .tc r) = W1 M (Proc.devRef .tc r) :=
  ((((((((opsB1c_ok.keep r (Or.inl (h.trans_le (by decide))) (W8 M)).trans (opsB1b_ok.keep r (Or.inl (h.trans_le (by decide))) (W7 M))).trans (opsB1a_ok.keep r (Or.inl (h.trans_le (by decide))) (W6 M))).trans (opsMlp0_ok.keep r (Or.inl (h.trans_le (by decide))) (W5 M))).trans (opsCat0_ok.keep r (Or.inl (h.trans_le (by decide))) (W4 M))).trans (opsB0c_ok.keep r (Or.inl (h.trans_le (by decide))) (W3 M))).trans (opsB0b_ok.keep r (Or.inl (h.trans_le (by decide))) (W2 M))).trans (opsB0a_ok.keep r (Or.inl (h.trans_le (by decide))) (W1 M)))
theorem carry_1_10 (M : Valuation τ sig (Elt F)) (r : Ref sig .tc) (h : r.idx.val < 46) :
    W10 M (Proc.devRef .tc r) = W1 M (Proc.devRef .tc r) :=
  (((((((((opsCat1_ok.keep r (Or.inl (h.trans_le (by decide))) (W9 M)).trans (opsB1c_ok.keep r (Or.inl (h.trans_le (by decide))) (W8 M))).trans (opsB1b_ok.keep r (Or.inl (h.trans_le (by decide))) (W7 M))).trans (opsB1a_ok.keep r (Or.inl (h.trans_le (by decide))) (W6 M))).trans (opsMlp0_ok.keep r (Or.inl (h.trans_le (by decide))) (W5 M))).trans (opsCat0_ok.keep r (Or.inl (h.trans_le (by decide))) (W4 M))).trans (opsB0c_ok.keep r (Or.inl (h.trans_le (by decide))) (W3 M))).trans (opsB0b_ok.keep r (Or.inl (h.trans_le (by decide))) (W2 M))).trans (opsB0a_ok.keep r (Or.inl (h.trans_le (by decide))) (W1 M)))
theorem carry_1_11 (M : Valuation τ sig (Elt F)) (r : Ref sig .tc) (h : r.idx.val < 46) :
    W11 M (Proc.devRef .tc r) = W1 M (Proc.devRef .tc r) :=
  ((((((((((opsMlp1_ok.keep r (Or.inl (h.trans_le (by decide))) (W10 M)).trans (opsCat1_ok.keep r (Or.inl (h.trans_le (by decide))) (W9 M))).trans (opsB1c_ok.keep r (Or.inl (h.trans_le (by decide))) (W8 M))).trans (opsB1b_ok.keep r (Or.inl (h.trans_le (by decide))) (W7 M))).trans (opsB1a_ok.keep r (Or.inl (h.trans_le (by decide))) (W6 M))).trans (opsMlp0_ok.keep r (Or.inl (h.trans_le (by decide))) (W5 M))).trans (opsCat0_ok.keep r (Or.inl (h.trans_le (by decide))) (W4 M))).trans (opsB0c_ok.keep r (Or.inl (h.trans_le (by decide))) (W3 M))).trans (opsB0b_ok.keep r (Or.inl (h.trans_le (by decide))) (W2 M))).trans (opsB0a_ok.keep r (Or.inl (h.trans_le (by decide))) (W1 M)))
theorem carry_1_12 (M : Valuation τ sig (Elt F)) (r : Ref sig .tc) (h : r.idx.val < 46) :
    W12 M (Proc.devRef .tc r) = W1 M (Proc.devRef .tc r) :=
  (((((((((((opsB2a_ok.keep r (Or.inl (h.trans_le (by decide))) (W11 M)).trans (opsMlp1_ok.keep r (Or.inl (h.trans_le (by decide))) (W10 M))).trans (opsCat1_ok.keep r (Or.inl (h.trans_le (by decide))) (W9 M))).trans (opsB1c_ok.keep r (Or.inl (h.trans_le (by decide))) (W8 M))).trans (opsB1b_ok.keep r (Or.inl (h.trans_le (by decide))) (W7 M))).trans (opsB1a_ok.keep r (Or.inl (h.trans_le (by decide))) (W6 M))).trans (opsMlp0_ok.keep r (Or.inl (h.trans_le (by decide))) (W5 M))).trans (opsCat0_ok.keep r (Or.inl (h.trans_le (by decide))) (W4 M))).trans (opsB0c_ok.keep r (Or.inl (h.trans_le (by decide))) (W3 M))).trans (opsB0b_ok.keep r (Or.inl (h.trans_le (by decide))) (W2 M))).trans (opsB0a_ok.keep r (Or.inl (h.trans_le (by decide))) (W1 M)))
theorem carry_1_13 (M : Valuation τ sig (Elt F)) (r : Ref sig .tc) (h : r.idx.val < 46) :
    W13 M (Proc.devRef .tc r) = W1 M (Proc.devRef .tc r) :=
  ((((((((((((opsB2b_ok.keep r (Or.inl (h.trans_le (by decide))) (W12 M)).trans (opsB2a_ok.keep r (Or.inl (h.trans_le (by decide))) (W11 M))).trans (opsMlp1_ok.keep r (Or.inl (h.trans_le (by decide))) (W10 M))).trans (opsCat1_ok.keep r (Or.inl (h.trans_le (by decide))) (W9 M))).trans (opsB1c_ok.keep r (Or.inl (h.trans_le (by decide))) (W8 M))).trans (opsB1b_ok.keep r (Or.inl (h.trans_le (by decide))) (W7 M))).trans (opsB1a_ok.keep r (Or.inl (h.trans_le (by decide))) (W6 M))).trans (opsMlp0_ok.keep r (Or.inl (h.trans_le (by decide))) (W5 M))).trans (opsCat0_ok.keep r (Or.inl (h.trans_le (by decide))) (W4 M))).trans (opsB0c_ok.keep r (Or.inl (h.trans_le (by decide))) (W3 M))).trans (opsB0b_ok.keep r (Or.inl (h.trans_le (by decide))) (W2 M))).trans (opsB0a_ok.keep r (Or.inl (h.trans_le (by decide))) (W1 M)))
theorem carry_2_4 (M : Valuation τ sig (Elt F)) (r : Ref sig .tc) (h : r.idx.val < 213) :
    W4 M (Proc.devRef .tc r) = W2 M (Proc.devRef .tc r) :=
  ((opsB0c_ok.keep r (Or.inl (h.trans_le (by decide))) (W3 M)).trans (opsB0b_ok.keep r (Or.inl (h.trans_le (by decide))) (W2 M)))
theorem carry_3_4 (M : Valuation τ sig (Elt F)) (r : Ref sig .tc) (h : r.idx.val < 380) :
    W4 M (Proc.devRef .tc r) = W3 M (Proc.devRef .tc r) :=
  (opsB0c_ok.keep r (Or.inl (h.trans_le (by decide))) (W3 M))
theorem carry_6_10 (M : Valuation τ sig (Elt F)) (r : Ref sig .tc) (h : r.idx.val < 569) :
    W10 M (Proc.devRef .tc r) = W6 M (Proc.devRef .tc r) :=
  ((((opsCat1_ok.keep r (Or.inl (h.trans_le (by decide))) (W9 M)).trans (opsB1c_ok.keep r (Or.inl (h.trans_le (by decide))) (W8 M))).trans (opsB1b_ok.keep r (Or.inl (h.trans_le (by decide))) (W7 M))).trans (opsB1a_ok.keep r (Or.inl (h.trans_le (by decide))) (W6 M)))
theorem carry_7_9 (M : Valuation τ sig (Elt F)) (r : Ref sig .tc) (h : r.idx.val < 736) :
    W9 M (Proc.devRef .tc r) = W7 M (Proc.devRef .tc r) :=
  ((opsB1c_ok.keep r (Or.inl (h.trans_le (by decide))) (W8 M)).trans (opsB1b_ok.keep r (Or.inl (h.trans_le (by decide))) (W7 M)))
theorem carry_8_9 (M : Valuation τ sig (Elt F)) (r : Ref sig .tc) (h : r.idx.val < 903) :
    W9 M (Proc.devRef .tc r) = W8 M (Proc.devRef .tc r) :=
  (opsB1c_ok.keep r (Or.inl (h.trans_le (by decide))) (W8 M))
theorem carry_11_15 (M : Valuation τ sig (Elt F)) (r : Ref sig .tc) (h : r.idx.val < 1090) :
    W15 M (Proc.devRef .tc r) = W11 M (Proc.devRef .tc r) :=
  ((((opsCat2_ok.keep r (Or.inl (h.trans_le (by decide))) (W14 M)).trans (opsB2c_ok.keep r (Or.inl (h.trans_le (by decide))) (W13 M))).trans (opsB2b_ok.keep r (Or.inl (h.trans_le (by decide))) (W12 M))).trans (opsB2a_ok.keep r (Or.inl (h.trans_le (by decide))) (W11 M)))
theorem carry_12_14 (M : Valuation τ sig (Elt F)) (r : Ref sig .tc) (h : r.idx.val < 1257) :
    W14 M (Proc.devRef .tc r) = W12 M (Proc.devRef .tc r) :=
  ((opsB2c_ok.keep r (Or.inl (h.trans_le (by decide))) (W13 M)).trans (opsB2b_ok.keep r (Or.inl (h.trans_le (by decide))) (W12 M)))
theorem carry_13_14 (M : Valuation τ sig (Elt F)) (r : Ref sig .tc) (h : r.idx.val < 1424) :
    W14 M (Proc.devRef .tc r) = W13 M (Proc.devRef .tc r) :=
  (opsB2c_ok.keep r (Or.inl (h.trans_le (by decide))) (W13 M))

end Cert.ReferenceIdeal.Hand

end
-- ==== Proof.ReferenceIdeal.FeatCore.lean ====
/- The three feature arrays of the reference, from what each sampling piece computes of the buffers it reads: the
   normalised coordinates are computed once, by the first piece, and carried through every later piece; each level's
   three samplings read two of them and one plane, and the level's concatenation joins the three results. -/
import proofs.«138882_j46462956208560_1_alg».proof.Proof.ReferenceIdeal.Stages

noncomputable section

namespace Cert.ReferenceIdeal.Hand

open Cert.ReferenceIdeal Cert.ReferenceIdeal.Gen Cert.ReferenceIdeal.Chunks Idealize.ShloMosaic Idealize.ShloMosaic.TcCoe Idealize.SL.Sem Idealize.ShloMosaic.StableHlo

variable {F : FTy → Type} [FloatOps F]

/-- The contents' type of a reference's buffer. -/
abbrev Cn (x : Ref sig .tc) : Type := (Proc.devRef (τ := τ) .tc x).ty.Contents (Elt F)

theorem W0_eq (M : Valuation τ sig (Elt F)) : W0 M = M := rfl

/-- Level 0: from what its three samplings and its concatenation compute of the buffers they read, what the
    concatenation holds after them, in terms of the launch's point array and planes. -/
theorem feat0_of_chunks (M : Valuation τ sig (Elt F))
    (nx : Cn (F := F) main_arg0 → Cn (F := F) main_v9) (ny : Cn (F := F) main_arg0 → Cn (F := F) main_v11)
    (nz : Cn (F := F) main_arg0 → Cn (F := F) main_v13)
    (sA : Cn (F := F) main_v9 → Cn (F := F) main_v11 → Cn (F := F) main_arg1 → Cn (F := F) main_v125)
    (sB : Cn (F := F) main_v9 → Cn (F := F) main_v13 → Cn (F := F) main_arg2 → Cn (F := F) main_v237)
    (sC : Cn (F := F) main_v11 → Cn (F := F) main_v13 → Cn (F := F) main_arg3 → Cn (F := F) main_v349)
    (cat : Cn (F := F) main_v125 → Cn (F := F) main_v237 → Cn (F := F) main_v349 → Cn (F := F) main_v350)
    (hx : ∀ V : Valuation τ sig (Elt F), after opsPre V (Proc.devRef .tc main_v9) = nx (V (Proc.devRef .tc main_arg0)))
    (hy : ∀ V : Valuation τ sig (Elt F), after opsPre V (Proc.devRef .tc main_v11) = ny (V (Proc.devRef .tc main_arg0)))
    (hz : ∀ V : Valuation τ sig (Elt F), after opsPre V (Proc.devRef .tc main_v13) = nz (V (Proc.devRef .tc main_arg0)))
    (hA : ∀ V : Valuation τ sig (Elt F), after opsB0a V (Proc.devRef .tc main_v125) = sA (V (Proc.devRef .tc main_v9)) (V (Proc.devRef .tc main_v11)) (V (Proc.devRef .tc main_arg1)))
    (hB : ∀ V : Valuation τ sig (Elt F), after opsB0b V (Proc.devRef .tc main_v237) = sB (V (Proc.devRef .tc main_v9)) (V (Proc.devRef .tc main_v13)) (V (Proc.devRef .tc main_arg2)))
    (hC : ∀ V : Valuation τ sig (Elt F), after opsB0c V (Proc.devRef .tc main_v349) = sC (V (Proc.devRef .tc main_v11)) (V (Proc.devRef .tc main_v13)) (V (Proc.devRef .tc main_arg3)))
    (hK : ∀ V : Valuation τ sig (Elt F), after opsCat0 V (Proc.devRef .tc main_v350) = cat (V (Proc.devRef .tc main_v125)) (V (Proc.devRef .tc main_v237)) (V (Proc.devRef .tc main_v349))) :
    W5 M (Proc.devRef .tc main_v350)
      = cat (sA (nx (M (Proc.devRef .tc main_arg0))) (ny (M (Proc.devRef .tc main_arg0))) (M (Proc.devRef .tc main_arg1)))
          (sB (nx (M (Proc.devRef .tc main_arg0))) (nz (M (Proc.devRef .tc main_arg0))) (M (Proc.devRef .tc main_arg2)))
          (sC (ny (M (Proc.devRef .tc main_arg0))) (nz (M (Proc.devRef .tc main_arg0))) (M (Proc.devRef .tc main_arg3))) := by
  have e9 : W1 M (Proc.devRef .tc main_v9) = nx (M (Proc.devRef .tc main_arg0)) := hx M
  have e11 : W1 M (Proc.devRef .tc main_v11) = ny (M (Proc.devRef .tc main_arg0)) := hy M
  have e13 : W1 M (Proc.devRef .tc main_v13) = nz (M (Proc.devRef .tc main_arg0)) := hz M
  have a : W2 M (Proc.devRef .tc main_v125) = sA (nx (M (Proc.devRef .tc main_arg0))) (ny (M (Proc.devRef .tc main_arg0))) (M (Proc.devRef .tc main_arg1)) := by
    rw [show W2 M (Proc.devRef .tc main_v125) = _ from hA (W1 M), e9, e11,
      carry_0_1 M main_arg1 (by decide), W0_eq]
  have b' : W3 M (Proc.devRef .tc main_v237) = sB (nx (M (Proc.devRef .tc main_arg0))) (nz (M (Proc.devRef .tc main_arg0))) (M (Proc.devRef .tc main_arg2)) := by
    rw [show W3 M (Proc.devRef .tc main_v237) = _ from hB (W2 M), carry_1_2 M main_v9 (by decide), e9, carry_1_2 M main_v13 (by decide), e13,
      carry_0_2 M main_arg2 (by decide), W0_eq]
  have c : W4 M (Proc.devRef .tc main_v349) = sC (ny (M (Proc.devRef .tc main_arg0))) (nz (M (Proc.devRef .tc main_arg0))) (M (Proc.devRef .tc main_arg3)) := by
    rw [show W4 M (Proc.devRef .tc main_v349) = _ from hC (W3 M), carry_1_3 M main_v11 (by decide), e11, carry_1_3 M main_v13 (by decide), e13,
      carry_0_3 M main_arg3 (by decide), W0_eq]
  rw [show W5 M (Proc.devRef .tc main_v350) = _ from hK (W4 M), carry_2_4 M main_v125 (by decide),
    carry_3_4 M main_v237 (by decide), a, b', c]

/-- Level 1: from what its three samplings and its concatenation compute of the buffers they read, what the
    concatenation holds after them, in terms of the launch's point array and planes. -/
theorem feat1_of_chunks (M : Valuation τ sig (Elt F))
    (nx : Cn (F := F) main_arg0 → Cn (F := F) main_v9) (ny : Cn (F := F) main_arg0 → Cn (F := F) main_v11)
    (nz : Cn (F := F) main_arg0 → Cn (F := F) main_v13)
    (sA : Cn (F := F) main_v9 → Cn (F := F) main_v11 → Cn (F := F) main_arg10 → Cn (F := F) main_v478)
    (sB : Cn (F := F) main_v9 → Cn (F := F) main_v13 → Cn (F := F) main_arg11 → Cn (F := F) main_v590)
    (sC : Cn (F := F) main_v11 → Cn (F := F) main_v13 → Cn (F := F) main_arg12 → Cn (F := F) main_v702)
    (cat : Cn (F := F) main_v478 → Cn (F := F) main_v590 → Cn (F := F) main_v702 → Cn (F := F) main_v703)
    (hx : ∀ V : Valuation τ sig (Elt F), after opsPre V (Proc.devRef .tc main_v9) = nx (V (Proc.devRef .tc main_arg0)))
    (hy : ∀ V : Valuation τ sig (Elt F), after opsPre V (Proc.devRef .tc main_v11) = ny (V (Proc.devRef .tc main_arg0)))
    (hz : ∀ V : Valuation τ sig (Elt F), after opsPre V (Proc.devRef .tc main_v13) = nz (V (Proc.devRef .tc main_arg0)))
    (hA : ∀ V : Valuation τ sig (Elt F), after opsB1a V (Proc.devRef .tc main_v478) = sA (V (Proc.devRef .tc main_v9)) (V (Proc.devRef .tc main_v11)) (V (Proc.devRef .tc main_arg10)))
    (hB : ∀ V : Valuation τ sig (Elt F), after opsB1b V (Proc.devRef .tc main_v590) = sB (V (Proc.devRef .tc main_v9)) (V (Proc.devRef .tc main_v13)) (V (Proc.devRef .tc main_arg11)))
    (hC : ∀ V : Valuation τ sig (Elt F), after opsB1c V (Proc.devRef .tc main_v702) = sC (V (Proc.devRef .tc main_v11)) (V (Proc.devRef .tc main_v13)) (V (Proc.devRef .tc main_arg12)))
    (hK : ∀ V : Valuation τ sig (Elt F), after opsCat1 V (Proc.devRef .tc main_v703) = cat (V (Proc.devRef .tc main_v478)) (V (Proc.devRef .tc main_v590)) (V (Proc.devRef .tc main_v702))) :
    W10 M (Proc.devRef .tc main_v703)
      = cat (sA (nx (M (Proc.devRef .tc main_arg0))) (ny (M (Proc.devRef .tc main_arg0))) (M (Proc.devRef .tc main_arg10)))
          (sB (nx (M (Proc.devRef .tc main_arg0))) (nz (M (Proc.devRef .tc main_arg0))) (M (Proc.devRef .tc main_arg11)))
          (sC (ny (M (Proc.devRef .tc main_arg0))) (nz (M (Proc.devRef .tc main_arg0))) (M (Proc.devRef .tc main_arg12))) := by
  have e9 : W1 M (Proc.devRef .tc main_v9) = nx (M (Proc.devRef .tc main_arg0)) := hx M
  have e11 : W1 M (Proc.devRef .tc main_v11) = ny (M (Proc.devRef .tc main_arg0)) := hy M
  have e13 : W1 M (Proc.devRef .tc main_v13) = nz (M (Proc.devRef .tc main_arg0)) := hz M
  have a : W7 M (Proc.devRef .tc main_v478) = sA (nx (M (Proc.devRef .tc main_arg0))) (ny (M (Proc.devRef .tc main_arg0))) (M (Proc.devRef .tc main_arg10)) := by
    rw [show W7 M (Proc.devRef .tc main_v478) = _ from hA (W6 M), carry_1_6 M main_v9 (by decide), e9, carry_1_6 M main_v11 (by decide), e11,
      carry_0_6 M main_arg10 (by decide), W0_eq]
  have b' : W8 M (Proc.devRef .tc main_v590) = sB (nx (M (Proc.devRef .tc main_arg0))) (nz (M (Proc.devRef .tc main_arg0))) (M (Proc.devRef .tc main_arg11)) := by
    rw [show W8 M (Proc.devRef .tc main_v590) = _ from hB (W7 M), carry_1_7 M main_v9 (by decide), e9, carry_1_7 M main_v13 (by decide), e13,
      carry_0_7 M main_arg11 (by decide), W0_eq]
  have c : W9 M (Proc.devRef .tc main_v702) = sC (ny (M (Proc.devRef .tc main_arg0))) (nz (M (Proc.devRef .tc main_arg0))) (M (Proc.devRef .tc main_arg12)) := by
    rw [show W9 M (Proc.devRef .tc main_v702) = _ from hC (W8 M), carry_1_8 M main_v11 (by decide), e11, carry_1_8 M main_v13 (by decide), e13,
      carry_0_8 M main_arg12 (by decide), W0_eq]
  rw [show W10 M (Proc.devRef .tc main_v703) = _ from hK (W9 M), carry_7_9 M main_v478 (by decide),
    carry_8_9 M main_v590 (by decide), a, b', c]

/-- Level 2: from what its three samplings and its concatenation compute of the buffers they read, what the
    concatenation holds after them, in terms of the launch's point array and planes. -/
theorem feat2_of_chunks (M : Valuation τ sig (Elt F))
    (nx : Cn (F := F) main_arg0 → Cn (F := F) main_v9) (ny : Cn (F := F) main_arg0 → Cn (F := F) main_v11)
    (nz : Cn (F := F) main_arg0 → Cn (F := F) main_v13)
    (sA : Cn (F := F) main_v9 → Cn (F := F) main_v11 → Cn (F := F) main_arg19 → Cn (F := F) main_v830)
    (sB : Cn (F := F) main_v9 → Cn (F := F) main_v13 → Cn (F := F) main_arg20 → Cn (F := F) main_v942)
    (sC : Cn (F := F) main_v11 → Cn (F := F) main_v13 → Cn (F := F) main_arg21 → Cn (F := F) main_v1054)
    (cat : Cn (F := F) main_v830 → Cn (F := F) main_v942 → Cn (F := F) main_v1054 → Cn (F := F) main_v1055)
    (hx : ∀ V : Valuation τ sig (Elt F), after opsPre V (Proc.devRef .tc main_v9) = nx (V (Proc.devRef .tc main_arg0)))
    (hy : ∀ V : Valuation τ sig (Elt F), after opsPre V (Proc.devRef .tc main_v11) = ny (V (Proc.devRef .tc main_arg0)))
    (hz : ∀ V : Valuation τ sig (Elt F), after opsPre V (Proc.devRef .tc main_v13) = nz (V (Proc.devRef .tc main_arg0)))
    (hA : ∀ V : Valuation τ sig (Elt F), after opsB2a V (Proc.devRef .tc main_v830) = sA (V (Proc.devRef .tc main_v9)) (V (Proc.devRef .tc main_v11)) (V (Proc.devRef .tc main_arg19)))
    (hB : ∀ V : Valuation τ sig (Elt F), after opsB2b V (Proc.devRef .tc main_v942) = sB (V (Proc.devRef .tc main_v9)) (V (Proc.devRef .tc main_v13)) (V (Proc.devRef .tc main_arg20)))
    (hC : ∀ V : Valuation τ sig (Elt F), after opsB2c V (Proc.devRef .tc main_v1054) = sC (V (Proc.devRef .tc main_v11)) (V (Proc.devRef .tc main_v13)) (V (Proc.devRef .tc main_arg21)))
    (hK : ∀ V : Valuation τ sig (Elt F), after opsCat2 V (Proc.devRef .tc main_v1055) = cat (V (Proc.devRef .tc main_v830)) (V (Proc.devRef .tc main_v942)) (V (Proc.devRef .tc main_v1054))) :
    W15 M (Proc.devRef .tc main_v1055)
      = cat (sA (nx (M (Proc.devRef .tc main_arg0))) (ny (M (Proc.devRef .tc main_arg0))) (M (Proc.devRef .tc main_arg19)))
          (sB (nx (M (Proc.devRef .tc main_arg0))) (nz (M (Proc.devRef .tc main_arg0))) (M (Proc.devRef .tc main_arg20)))
          (sC (ny (M (Proc.devRef .tc main_arg0))) (nz (M (Proc.devRef .tc main_arg0))) (M (Proc.devRef .tc main_arg21))) := by
  have e9 : W1 M (Proc.devRef .tc main_v9) = nx (M (Proc.devRef .tc main_arg0)) := hx M
  have e11 : W1 M (Proc.devRef .tc main_v11) = ny (M (Proc.devRef .tc main_arg0)) := hy M
  have e13 : W1 M (Proc.devRef .tc main_v13) = nz (M (Proc.devRef .tc main_arg0)) := hz M
  have a : W12 M (Proc.devRef .tc main_v830) = sA (nx (M (Proc.devRef .tc main_arg0))) (ny (M (Proc.devRef .tc main_arg0))) (M (Proc.devRef .tc main_arg19)) := by
    rw [show W12 M (Proc.devRef .tc main_v830) = _ from hA (W11 M), carry_1_11 M main_v9 (by decide), e9, carry_1_11 M main_v11 (by decide), e11,
      carry_0_11 M main_arg19 (by decide), W0_eq]
  have b' : W13 M (Proc.devRef .tc main_v942) = sB (nx (M (Proc.devRef .tc main_arg0))) (nz (M (Proc.devRef .tc main_arg0))) (M (Proc.devRef .tc main_arg20)) := by
    rw [show W13 M (Proc.devRef .tc main_v942) = _ from hB (W12 M), carry_1_12 M main_v9 (by decide), e9, carry_1_12 M main_v13 (by decide), e13,
      carry_0_12 M main_arg20 (by decide), W0_eq]
  have c : W14 M (Proc.devRef .tc main_v1054) = sC (ny (M (Proc.devRef .tc main_arg0))) (nz (M (Proc.devRef .tc main_arg0))) (M (Proc.devRef .tc main_arg21)) := by
    rw [show W14 M (Proc.devRef .tc main_v1054) = _ from hC (W13 M), carry_1_13 M main_v11 (by decide), e11, carry_1_13 M main_v13 (by decide), e13,
      carry_0_13 M main_arg21 (by decide), W0_eq]
  rw [show W15 M (Proc.devRef .tc main_v1055) = _ from hK (W14 M), carry_12_14 M main_v830 (by decide),
    carry_13_14 M main_v942 (by decide), a, b', c]

end Cert.ReferenceIdeal.Hand

end
-- ==== Proof.ReferenceIdeal.Dense.lean ====
/- The reference's three dense stretches and its last stretch, read at one row and one column, on the extended reals, for
   any contents of the buffers they read. A level's stretch is three dense layers on all 500000 rows at once: the host's
   product is the plain sum over the contracted axis, a bias broadcast to one row and then down the rows is read at its
   column, and `max` with the broadcast zero is pointwise; level 0 adds its output to the broadcast zero, levels 1 and 2 add
   theirs to what the accumulator holds. The last stretch keeps columns 0..30, sends columns 31..33 through
   `1 / (1 + exp (-x))`, which is the logistic function, and multiplies column 34 by the broadcast ten. Each fact is stated
   against the same functions of `Cert.Spec` the kernel's block is read to. -/
import proofs.«138882_j46462956208560_1_alg».proof.Proof.ReferenceIdeal.Ops
import proofs.«138882_j46462956208560_1_alg».proof.Proof.Spec
import Idealize.ShloMosaic.Lib.ValueIdx
import Idealize.ShloMosaic.PureOps.Ideal.Laws
import Idealize.ShloMosaic.Lib.Pipeline.Value
import Idealize.ShloMosaic.Lib.IdealHost

noncomputable section

namespace Cert.ReferenceIdeal.Hand

open Cert.ReferenceIdeal Cert.ReferenceIdeal.Gen Cert.ReferenceIdeal.Chunks
open Idealize.ShloMosaic Idealize.ShloMosaic.TcCoe Idealize.SL.Sem Idealize.ShloMosaic.StableHlo Idealize.ShloMosaic.ValueIdx
open scoped BigOperators
/-- A two-axis contraction over its one contracted axis, read at row `p`, column `j`: the sum over `k` of the
    left operand at `(p, k)` times the right operand at `(k, j)`. The four coordinate facts say which operand
    coordinate each output and contraction coordinate lands on. -/
theorem contr_row {M K N : ℕ} (D : DotDims ⟨2, ![M, K]⟩ ⟨2, ![K, N]⟩ ⟨2, ![M, N]⟩) (hr : D.contr.rank = 1)
    (hs : D.contr.size ⟨0, by omega⟩ = K)
    (l0 : ∀ (i : (⟨2, ![M, N]⟩ : Shape).Idx) (q : D.contr.Idx), (D.lhsIdx i q (⟨0, Nat.zero_lt_two⟩ : Fin 2)).val = (i (⟨0, Nat.zero_lt_two⟩ : Fin 2)).val)
    (l1 : ∀ (i : (⟨2, ![M, N]⟩ : Shape).Idx) (q : D.contr.Idx), (D.lhsIdx i q (⟨1, Nat.one_lt_two⟩ : Fin 2)).val = (q ⟨0, by omega⟩).val)
    (r0 : ∀ (i : (⟨2, ![M, N]⟩ : Shape).Idx) (q : D.contr.Idx), (D.rhsIdx i q (⟨0, Nat.zero_lt_two⟩ : Fin 2)).val = (q ⟨0, by omega⟩).val)
    (r1 : ∀ (i : (⟨2, ![M, N]⟩ : Shape).Idx) (q : D.contr.Idx), (D.rhsIdx i q (⟨1, Nat.one_lt_two⟩ : Fin 2)).val = (i (⟨1, Nat.one_lt_two⟩ : Fin 2)).val)
    (lhs : (⟨2, ![M, K]⟩ : Shape).Idx → EReal) (rhs : (⟨2, ![K, N]⟩ : Shape).Idx → EReal) (p : Fin M) (j : Fin N) :
    ∑ q : D.contr.Idx, lhs (D.lhsIdx (ix2 p j) q) * rhs (D.rhsIdx (ix2 p j) q) = ∑ k : Fin K, lhs (ix2 p k) * rhs (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact l0 _ _
    | ⟨1, _⟩ => exact (l1 _ _).trans hk)
  have er : D.rhsIdx (ix2 p j) ((contrEquiv1 D K hr hs).symm k) = ix2 k j := funext fun a => Fin.ext (by
    match a with
    | ⟨0, _⟩ => exact (r0 _ _).trans hk
    | ⟨1, _⟩ => exact r1 _ _)
  rw [el, er]

theorem lhs_d24_0 (i : S500000x168.Idx) (q : dot_S500000x24_S24x168_S500000x168_1_0_0_1_n_n.contr.Idx) :
    (dot_S500000x24_S24x168_S500000x168_1_0_0_1_n_n.lhsIdx i q 0).val = (i 0).val := by
  unfold DotDims.lhsIdx
  rw [dif_neg (show ¬(0 : Fin S500000x24.rank) ∈ dot_S500000x24_S24x168_S500000x168_1_0_0_1_n_n.lhsBatch by decide), dif_pos (show (0 : Fin S500000x24.rank) ∈ dot_S500000x24_S24x168_S500000x168_1_0_0_1_n_n.lhsNonContracting by decide)]
  rfl
theorem lhs_d24_1 (i : S500000x168.Idx) (q : dot_S500000x24_S24x168_S500000x168_1_0_0_1_n_n.contr.Idx) :
    (dot_S500000x24_S24x168_S500000x168_1_0_0_1_n_n.lhsIdx i q 1).val = (q ⟨0, by decide⟩).val :=
  dot_S500000x24_S24x168_S500000x168_1_0_0_1_n_n.lhsIdx_val_of_single rfl i q
theorem rhs_d24_0 (i : S500000x168.Idx) (q : dot_S500000x24_S24x168_S500000x168_1_0_0_1_n_n.contr.Idx) :
    (dot_S500000x24_S24x168_S500000x168_1_0_0_1_n_n.rhsIdx i q 0).val = (q ⟨0, by decide⟩).val :=
  dot_S500000x24_S24x168_S500000x168_1_0_0_1_n_n.rhsIdx_val_of_single rfl i q
theorem rhs_d24_1 (i : S500000x168.Idx) (q : dot_S500000x24_S24x168_S500000x168_1_0_0_1_n_n.contr.Idx) :
    (dot_S500000x24_S24x168_S500000x168_1_0_0_1_n_n.rhsIdx i q 1).val = (i 1).val := by
  unfold DotDims.rhsIdx
  rw [dif_neg (show ¬(1 : Fin S24x168.rank) ∈ dot_S500000x24_S24x168_S500000x168_1_0_0_1_n_n.rhsBatch by decide), dif_pos (show (1 : Fin S24x168.rank) ∈ dot_S500000x24_S24x168_S500000x168_1_0_0_1_n_n.rhsNonContracting by decide)]
  rfl

theorem lhs_d168_0 (i : S500000x168.Idx) (q : dot_S500000x168_S168x168_S500000x168_1_0_0_1_n_n.contr.Idx) :
    (dot_S500000x168_S168x168_S500000x168_1_0_0_1_n_n.lhsIdx i q 0).val = (i 0).val := by
  unfold DotDims.lhsIdx
  rw [dif_neg (show ¬(0 : Fin S500000x168.rank) ∈ dot_S500000x168_S168x168_S500000x168_1_0_0_1_n_n.lhsBatch by decide), dif_pos (show (0 : Fin S500000x168.rank) ∈ dot_S500000x168_S168x168_S500000x168_1_0_0_1_n_n.lhsNonContracting by decide)]
  rfl
theorem lhs_d168_1 (i : S500000x168.Idx) (q : dot_S500000x168_S168x168_S500000x168_1_0_0_1_n_n.contr.Idx) :
    (dot_S500000x168_S168x168_S500000x168_1_0_0_1_n_n.lhsIdx i q 1).val = (q ⟨0, by decide⟩).val :=
  dot_S500000x168_S168x168_S500000x168_1_0_0_1_n_n.lhsIdx_val_of_single rfl i q
theorem rhs_d168_0 (i : S500000x168.Idx) (q : dot_S500000x168_S168x168_S500000x168_1_0_0_1_n_n.contr.Idx) :
    (dot_S500000x168_S168x168_S500000x168_1_0_0_1_n_n.rhsIdx i q 0).val = (q ⟨0, by decide⟩).val :=
  dot_S500000x168_S168x168_S500000x168_1_0_0_1_n_n.rhsIdx_val_of_single rfl i q
theorem rhs_d168_1 (i : S500000x168.Idx) (q : dot_S500000x168_S168x168_S500000x168_1_0_0_1_n_n.contr.Idx) :
    (dot_S500000x168_S168x168_S500000x168_1_0_0_1_n_n.rhsIdx i q 1).val = (i 1).val := by
  unfold DotDims.rhsIdx
  rw [dif_neg (show ¬(1 : Fin S168x168.rank) ∈ dot_S500000x168_S168x168_S500000x168_1_0_0_1_n_n.rhsBatch by decide), dif_pos (show (1 : Fin S168x168.rank) ∈ dot_S500000x168_S168x168_S500000x168_1_0_0_1_n_n.rhsNonContracting by decide)]
  rfl

theorem lhs_d35_0 (i : S500000x35.Idx) (q : dot_S500000x168_S168x35_S500000x35_1_0_0_1_n_n.contr.Idx) :
    (dot_S500000x168_S168x35_S500000x35_1_0_0_1_n_n.lhsIdx i q 0).val = (i 0).val := by
  unfold DotDims.lhsIdx
  rw [dif_neg (show ¬(0 : Fin S500000x168.rank) ∈ dot_S500000x168_S168x35_S500000x35_1_0_0_1_n_n.lhsBatch by decide), dif_pos (show (0 : Fin S500000x168.rank) ∈ dot_S500000x168_S168x35_S500000x35_1_0_0_1_n_n.lhsNonContracting by decide)]
  rfl
theorem lhs_d35_1 (i : S500000x35.Idx) (q : dot_S500000x168_S168x35_S500000x35_1_0_0_1_n_n.contr.Idx) :
    (dot_S500000x168_S168x35_S500000x35_1_0_0_1_n_n.lhsIdx i q 1).val = (q ⟨0, by decide⟩).val :=
  dot_S500000x168_S168x35_S500000x35_1_0_0_1_n_n.lhsIdx_val_of_single rfl i q
theorem rhs_d35_0 (i : S500000x35.Idx) (q : dot_S500000x168_S168x35_S500000x35_1_0_0_1_n_n.contr.Idx) :
    (dot_S500000x168_S168x35_S500000x35_1_0_0_1_n_n.rhsIdx i q 0).val = (q ⟨0, by decide⟩).val :=
  dot_S500000x168_S168x35_S500000x35_1_0_0_1_n_n.rhsIdx_val_of_single rfl i q
theorem rhs_d35_1 (i : S500000x35.Idx) (q : dot_S500000x168_S168x35_S500000x35_1_0_0_1_n_n.contr.Idx) :
    (dot_S500000x168_S168x35_S500000x35_1_0_0_1_n_n.rhsIdx i q 1).val = (i 1).val := by
  unfold DotDims.rhsIdx
  rw [dif_neg (show ¬(1 : Fin S168x35.rank) ∈ dot_S500000x168_S168x35_S500000x35_1_0_0_1_n_n.rhsBatch by decide), dif_pos (show (1 : Fin S168x35.rank) ∈ dot_S500000x168_S168x35_S500000x35_1_0_0_1_n_n.rhsNonContracting by decide)]
  rfl

/-- The first layer's product at `(r, j)`: the sum over the 24 features. -/
theorem dg24 {φ₁ φ₂ : FTy} (lhs : FVec Ideal S500000x24 φ₁) (rhs : FVec Ideal S24x168 φ₂) (r : Fin 500000) (j : Fin 168) :
    Host.dotGeneral dot_S500000x24_S24x168_S500000x168_1_0_0_1_n_n none lhs rhs (ix2 r j) = ∑ k : Fin 24, lhs (ix2 r k) * rhs (ix2 k j) := by
  simp only [Host.dotGeneral]
  rw [Ideal.dotGeneral_apply]
  exact contr_row dot_S500000x24_S24x168_S500000x168_1_0_0_1_n_n rfl rfl lhs_d24_0 lhs_d24_1 rhs_d24_0 rhs_d24_1 lhs rhs r j

/-- The second layer's product at `(r, j)`: the sum over the 168 hidden units. -/
theorem dg168 {φ₁ φ₂ : FTy} (lhs : FVec Ideal S500000x168 φ₁) (rhs : FVec Ideal S168x168 φ₂) (r : Fin 500000) (j : Fin 168) :
    Host.dotGeneral dot_S500000x168_S168x168_S500000x168_1_0_0_1_n_n none lhs rhs (ix2 r j) = ∑ k : Fin 168, lhs (ix2 r k) * rhs (ix2 k j) := by
  simp only [Host.dotGeneral]
  rw [Ideal.dotGeneral_apply]
  exact contr_row dot_S500000x168_S168x168_S500000x168_1_0_0_1_n_n rfl rfl lhs_d168_0 lhs_d168_1 rhs_d168_0 rhs_d168_1 lhs rhs r j

/-- The third layer's product at `(r, j)`: the sum over the 168 hidden units. -/
theorem dg35 {φ₁ φ₂ : FTy} (lhs : FVec Ideal S500000x168 φ₁) (rhs : FVec Ideal S168x35 φ₂) (r : Fin 500000) (j : Fin 35) :
    Host.dotGeneral dot_S500000x168_S168x35_S500000x35_1_0_0_1_n_n none lhs rhs (ix2 r j) = ∑ k : Fin 168, lhs (ix2 r k) * rhs (ix2 k j) := by
  simp only [Host.dotGeneral]
  rw [Ideal.dotGeneral_apply]
  exact contr_row dot_S500000x168_S168x35_S500000x35_1_0_0_1_n_n rfl rfl lhs_d35_0 lhs_d35_1 rhs_d35_0 rhs_d35_1 lhs rhs r j

/-- A bias vector broadcast to one row and then down the rows reads, at `(r, j)`, its entry `j`. -/
theorem rbias168 (b : FVec Ideal S168 .f32) (r : Fin 500000) (j : Fin 168) :
    broadcastInDim S500000x168 ![0, 1] bcast_S1x168_S500000x168_0_1 (broadcastInDim S1x168 ![1] bcast_S168_S1x168_1 b) (ix2 r j)
      = b (ix1 j) := by
  refine (broadcastInDim_apply _ bcast_S1x168_S500000x168_0_1 _ (ix2 r j) (ix2 (⟨0, Nat.one_pos⟩ : Fin 1) j) (fun a => ?_)).trans ?_
  · match a with
    | ⟨0, _⟩ => show 0 = if (1 : Nat) = 1 then 0 else r.val; rw [if_pos rfl]
    | ⟨1, _⟩ => show j.val = if (168 : Nat) = 1 then 0 else j.val; rw [if_neg (by decide)]
  · exact broadcastInDim_apply _ bcast_S168_S1x168_1 b _ (ix1 j) (fun a => match a with
      | ⟨0, _⟩ => by show j.val = if (168 : Nat) = 1 then 0 else j.val; rw [if_neg (by decide)])

/-- A bias vector broadcast to one row and then down the rows reads, at `(r, j)`, its entry `j`. -/
theorem rbias35 (b : FVec Ideal S35 .f32) (r : Fin 500000) (j : Fin 35) :
    broadcastInDim S500000x35 ![0, 1] bcast_S1x35_S500000x35_0_1 (broadcastInDim S1x35 ![1] bcast_S35_S1x35_1 b) (ix2 r j)
      = b (ix1 j) := by
  refine (broadcastInDim_apply _ bcast_S1x35_S500000x35_0_1 _ (ix2 r j) (ix2 (⟨0, Nat.one_pos⟩ : Fin 1) j) (fun a => ?_)).trans ?_
  · match a with
    | ⟨0, _⟩ => show 0 = if (1 : Nat) = 1 then 0 else r.val; rw [if_pos rfl]
    | ⟨1, _⟩ => show j.val = if (35 : Nat) = 1 then 0 else j.val; rw [if_neg (by decide)]
  · exact broadcastInDim_apply _ bcast_S35_S1x35_1 b _ (ix1 j) (fun a => match a with
      | ⟨0, _⟩ => by show j.val = if (35 : Nat) = 1 then 0 else j.val; rw [if_neg (by decide)])

/-- The zero scalar broadcast to any shape reads `0` everywhere. -/
theorem rzero {T : Shape} (h : S_.BroadcastsInDim T ![]) (j : T.Idx) :
    broadcastInDim T ![] h (constant (F := Ideal) S_ .f32 0x00000000#32) j = (0 : EReal) := by
  rw [broadcastInDim_scalar_apply, constant_apply, Ideal.ofBits_zero_f32]

/-- One level's weights and biases read by row and column. -/
def lvl (w1 : FVec Ideal S24x168 .f32) (b1 : FVec Ideal S168 .f32) (w2 : FVec Ideal S168x168 .f32) (b2 : FVec Ideal S168 .f32)
    (w3 : FVec Ideal S168x35 .f32) (b3 : FVec Ideal S35 .f32) : Cert.Spec.Level :=
  ⟨fun k j => w1 (ix2 k j), fun j => b1 (ix1 j), fun k j => w2 (ix2 k j), fun j => b2 (ix1 j), fun k j => w3 (ix2 k j),
    fun j => b3 (ix1 j)⟩

/-- One level's three dense layers on all rows, as the reference spells them: product, bias broadcast down the rows,
    `max` with the broadcast zero, twice; then product and bias. -/
def mlp (x : FVec Ideal S500000x24 .f32) (w1 : FVec Ideal S24x168 .f32) (b1 : FVec Ideal S168 .f32)
    (w2 : FVec Ideal S168x168 .f32) (b2 : FVec Ideal S168 .f32) (w3 : FVec Ideal S168x35 .f32) (b3 : FVec Ideal S35 .f32) :
    FVec Ideal S500000x35 .f32 :=
  addf (Host.dotGeneral dot_S500000x168_S168x35_S500000x35_1_0_0_1_n_n none
      (maximumf (addf (Host.dotGeneral dot_S500000x168_S168x168_S500000x168_1_0_0_1_n_n none
          (maximumf (addf (Host.dotGeneral dot_S500000x24_S24x168_S500000x168_1_0_0_1_n_n none x w1)
              (broadcastInDim S500000x168 ![0, 1] bcast_S1x168_S500000x168_0_1 (broadcastInDim S1x168 ![1] bcast_S168_S1x168_1 b1)))
            (broadcastInDim S500000x168 ![] bcast_S_S500000x168 (constant S_ .f32 0x00000000#32))) w2)
          (broadcastInDim S500000x168 ![0, 1] bcast_S1x168_S500000x168_0_1 (broadcastInDim S1x168 ![1] bcast_S168_S1x168_1 b2)))
        (broadcastInDim S500000x168 ![] bcast_S_S500000x168 (constant S_ .f32 0x00000000#32))) w3)
    (broadcastInDim S500000x35 ![0, 1] bcast_S1x35_S500000x35_0_1 (broadcastInDim S1x35 ![1] bcast_S35_S1x35_1 b3))

/-- The first layer with its `max · 0` at `(r, j)`. -/
theorem layer24 (x : FVec Ideal S500000x24 .f32) (w : FVec Ideal S24x168 .f32) (b : FVec Ideal S168 .f32) (r : Fin 500000) (j : Fin 168) :
    maximumf (addf (Host.dotGeneral dot_S500000x24_S24x168_S500000x168_1_0_0_1_n_n none x w) (broadcastInDim S500000x168 ![0, 1] bcast_S1x168_S500000x168_0_1 (broadcastInDim S1x168 ![1] bcast_S168_S1x168_1 b))) (broadcastInDim S500000x168 ![] bcast_S_S500000x168 (constant S_ .f32 0x00000000#32)) (ix2 r j)
      = max (Cert.Spec.dense (fun k => x (ix2 r k)) (fun k j => w (ix2 k j)) (fun j => b (ix1 j)) j) 0 := by
  rw [maximumf_apply, addf_apply, dg24, rbias168, rzero]
  rfl

/-- The second layer with its `max · 0` at `(r, j)`. -/
theorem layer168 (x : FVec Ideal S500000x168 .f32) (w : FVec Ideal S168x168 .f32) (b : FVec Ideal S168 .f32) (r : Fin 500000) (j : Fin 168) :
    maximumf (addf (Host.dotGeneral dot_S500000x168_S168x168_S500000x168_1_0_0_1_n_n none x w) (broadcastInDim S500000x168 ![0, 1] bcast_S1x168_S500000x168_0_1 (broadcastInDim S1x168 ![1] bcast_S168_S1x168_1 b))) (broadcastInDim S500000x168 ![] bcast_S_S500000x168 (constant S_ .f32 0x00000000#32)) (ix2 r j)
      = max (Cert.Spec.dense (fun k => x (ix2 r k)) (fun k j => w (ix2 k j)) (fun j => b (ix1 j)) j) 0 := by
  rw [maximumf_apply, addf_apply, dg168, rbias168, rzero]
  rfl

/-- The third layer at `(r, q)`. -/
theorem layer35 (x : FVec Ideal S500000x168 .f32) (w : FVec Ideal S168x35 .f32) (b : FVec Ideal S35 .f32) (r : Fin 500000) (q : Fin 35) :
    addf (Host.dotGeneral dot_S500000x168_S168x35_S500000x35_1_0_0_1_n_n none x w) (broadcastInDim S500000x35 ![0, 1] bcast_S1x35_S500000x35_0_1 (broadcastInDim S1x35 ![1] bcast_S35_S1x35_1 b)) (ix2 r q)
      = Cert.Spec.dense (fun k => x (ix2 r k)) (fun k j => w (ix2 k j)) (fun j => b (ix1 j)) q := by
  rw [addf_apply, dg35, rbias35]
  rfl

/-- At `(r, q)` it is the level's output for row `r` of the features. -/
theorem mlp_at (x : FVec Ideal S500000x24 .f32) (w1 : FVec Ideal S24x168 .f32) (b1 : FVec Ideal S168 .f32)
    (w2 : FVec Ideal S168x168 .f32) (b2 : FVec Ideal S168 .f32) (w3 : FVec Ideal S168x35 .f32) (b3 : FVec Ideal S35 .f32)
    (r : Fin 500000) (q : Fin 35) :
    mlp x w1 b1 w2 b2 w3 b3 (ix2 r q) = (lvl w1 b1 w2 b2 w3 b3).out (fun k => x (ix2 r k)) q := by
  unfold mlp
  rw [layer35]
  exact congrArg (fun f => Cert.Spec.dense f (fun k j => w3 (ix2 k j)) (fun j => b3 (ix1 j)) q)
    (funext fun i => (layer168 _ w2 b2 r i).trans
      (congrArg (fun f => max (Cert.Spec.dense f (fun k j => w2 (ix2 k j)) (fun j => b2 (ix1 j)) i) 0)
        (funext fun i' => layer24 x w1 b1 r i')))

/-- A level's output for a row added to what the accumulator holds there. -/
abbrev accOut (a : EReal) (L : Cert.Spec.Level) (x : Fin 24 → EReal) (q : Fin 35) : EReal := a + L.out x q

/-- A row of the result is the head of the three levels' outputs added in the order 0, 1, 2. -/
theorem rowOut_eq (L0 L1 L2 : Cert.Spec.Level) (x0 x1 x2 : Fin 24 → EReal) (q : Fin 35) :
    Cert.Spec.rowOut L0 L1 L2 x0 x1 x2 q = Cert.Spec.head (fun q' => accOut (accOut (L0.out x0 q') L1 x1 q') L2 x2 q') q := rfl

set_option maxHeartbeats 2000000 in
/-- Level 0's dense stretch leaves the zero array plus the level's output. -/
theorem mlp0_val (M : Valuation τ sig (Elt Ideal)) :
    after (opsMlp0 (F := Ideal)) M (Proc.devRef .tc main_v366)
      = addf (broadcastInDim S500000x35 ![] bcast_S_S500000x35 (constant S_ .f32 0x00000000#32))
          (mlp (M (Proc.devRef .tc main_v350)) (M (Proc.devRef .tc main_arg4)) (M (Proc.devRef .tc main_arg5)) (M (Proc.devRef .tc main_arg6)) (M (Proc.devRef .tc main_arg7)) (M (Proc.devRef .tc main_arg8)) (M (Proc.devRef .tc main_arg9))) := by
  after_results_simp
  rfl

/-- **Level 0's dense stretch at `(r, q)`**: the level's output for row `r` of `main_v350`. -/
theorem mlp0_at (M : Valuation τ sig (Elt Ideal)) (r : Fin 500000) (q : Fin 35) :
    (after (opsMlp0 (F := Ideal)) M (Proc.devRef .tc main_v366) : S500000x35.Idx → EReal) (ix2 r q)
      = (lvl (M (Proc.devRef .tc main_arg4)) (M (Proc.devRef .tc main_arg5)) (M (Proc.devRef .tc main_arg6)) (M (Proc.devRef .tc main_arg7)) (M (Proc.devRef .tc main_arg8)) (M (Proc.devRef .tc main_arg9))).out (fun k => (M (Proc.devRef .tc main_v350)) (ix2 r k)) q := by
  rw [mlp0_val, addf_apply, rzero, zero_add, mlp_at]

set_option maxHeartbeats 2000000 in
/-- Level 1's dense stretch adds the level's output to what `main_v366` holds. -/
theorem mlp1_val (M : Valuation τ sig (Elt Ideal)) :
    after (opsMlp1 (F := Ideal)) M (Proc.devRef .tc main_v718)
      = addf (M (Proc.devRef .tc main_v366)) (mlp (M (Proc.devRef .tc main_v703)) (M (Proc.devRef .tc main_arg13)) (M (Proc.devRef .tc main_arg14)) (M (Proc.devRef .tc main_arg15)) (M (Proc.devRef .tc main_arg16)) (M (Proc.devRef .tc main_arg17)) (M (Proc.devRef .tc main_arg18))) := by
  after_results_simp
  rfl

/-- **Level 1's dense stretch at `(r, q)`**. -/
theorem mlp1_at (M : Valuation τ sig (Elt Ideal)) (r : Fin 500000) (q : Fin 35) :
    (after (opsMlp1 (F := Ideal)) M (Proc.devRef .tc main_v718) : S500000x35.Idx → EReal) (ix2 r q)
      = accOut ((M (Proc.devRef .tc main_v366)) (ix2 r q)) (lvl (M (Proc.devRef .tc main_arg13)) (M (Proc.devRef .tc main_arg14)) (M (Proc.devRef .tc main_arg15)) (M (Proc.devRef .tc main_arg16)) (M (Proc.devRef .tc main_arg17)) (M (Proc.devRef .tc main_arg18))) (fun k => (M (Proc.devRef .tc main_v703)) (ix2 r k)) q := by
  rw [mlp1_val, addf_apply, mlp_at]

set_option maxHeartbeats 2000000 in
/-- Level 2's dense stretch adds the level's output to what `main_v718` holds. -/
theorem mlp2_val (M : Valuation τ sig (Elt Ideal)) :
    after (opsMlp2 (F := Ideal)) M (Proc.devRef .tc main_v1070)
      = addf (M (Proc.devRef .tc main_v718)) (mlp (M (Proc.devRef .tc main_v1055)) (M (Proc.devRef .tc main_arg22)) (M (Proc.devRef .tc main_arg23)) (M (Proc.devRef .tc main_arg24)) (M (Proc.devRef .tc main_arg25)) (M (Proc.devRef .tc main_arg26)) (M (Proc.devRef .tc main_arg27))) := by
  after_results_simp
  rfl

/-- **Level 2's dense stretch at `(r, q)`**. -/
theorem mlp2_at (M : Valuation τ sig (Elt Ideal)) (r : Fin 500000) (q : Fin 35) :
    (after (opsMlp2 (F := Ideal)) M (Proc.devRef .tc main_v1070) : S500000x35.Idx → EReal) (ix2 r q)
      = accOut ((M (Proc.devRef .tc main_v718)) (ix2 r q)) (lvl (M (Proc.devRef .tc main_arg22)) (M (Proc.devRef .tc main_arg23)) (M (Proc.devRef .tc main_arg24)) (M (Proc.devRef .tc main_arg25)) (M (Proc.devRef .tc main_arg26)) (M (Proc.devRef .tc main_arg27))) (fun k => (M (Proc.devRef .tc main_v1055)) (ix2 r k)) q := by
  rw [mlp2_val, addf_apply, mlp_at]

/-- The one scalar broadcast to any shape reads `1` everywhere. -/
theorem rone {T : Shape} (h : S_.BroadcastsInDim T ![]) (j : T.Idx) :
    broadcastInDim T ![] h (constant (F := Ideal) S_ .f32 0x3F800000#32) j = (1 : EReal) := by
  rw [broadcastInDim_scalar_apply, constant_apply, Ideal.ofBits_one_f32]

/-- An operation over a literal family of three references: its result with each operand's contents at its own reference. -/
theorem nary3_result' {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The head on all rows, as the reference spells it: the slice of columns 0..30; of columns 31..33, one over one plus the
    exponential of the negation; the slice of column 34 times the broadcast ten; the three laid side by side. -/
def headRef (v : FVec Ideal S500000x35 .f32) : FVec Ideal S500000x35 .f32 :=
  concatenate S500000x35 1 [⟨S500000x31, (extractStridedSlice S500000x31 ![0, 0] v slices_S500000x35_S500000x31_0_0)⟩,
      ⟨S500000x3, (Host.divf (broadcastInDim S500000x3 ![] bcast_S_S500000x3 (constant S_ .f32 0x3F800000#32)) (addf (broadcastInDim S500000x3 ![] bcast_S_S500000x3 (constant S_ .f32 0x3F800000#32)) (Host.exp (Host.negf (extractStridedSlice S500000x3 ![0, 31] v slices_S500000x35_S500000x3_0_31)))))⟩,
      ⟨S500000x1, (mulf (extractStridedSlice S500000x1 ![0, 34] v slices_S500000x35_S500000x1_0_34) (broadcastInDim S500000x1 ![] bcast_S_S500000x1 (constant S_ .f32 0x41200000#32)))⟩]
    concatenates_S500000x31_S500000x3_S500000x1_S500000x35_d1

/-- At `(r, q)` it is the head of row `r`. -/
theorem headRef_at (v : FVec Ideal S500000x35 .f32) (r : Fin 500000) (q : Fin 35) :
    headRef v (ix2 r q) = Cert.Spec.head (fun j => v (ix2 r j)) q := by
  unfold headRef Cert.Spec.head
  by_cases h1 : q.val < 31
  · rw [if_pos h1]
    · refine Eq.trans (concatenate_apply_piece _ _ _ (ix2 r q) 0 ?_ S500000x31 (extractStridedSlice S500000x31 ![0, 0] v slices_S500000x35_S500000x31_0_0) ?_ rfl 0 ?_ (ix2 r (⟨q.val, h1⟩ : Fin 31)) ?_ ?_) ?_
      · exact Nat.succ_pos _
      · rfl
      · rfl
      · intro b hb
        match b with
        | ⟨0, _⟩ => rfl
        | ⟨1, _⟩ => exact absurd rfl hb
      · show 0 + q.val = q.val
        omega
      · exact extractStridedSlice_apply _ v slices_S500000x35_S500000x31_0_0 _ (ix2 r q) (fun a => match a with
          | ⟨0, _⟩ => by show r.val = 0 + r.val; omega
          | ⟨1, _⟩ => by show q.val = 0 + q.val; omega)
  · rw [if_neg h1]
    by_cases h2 : q.val < 34
    · rw [if_pos h2]
      refine Eq.trans (concatenate_apply_piece _ _ _ (ix2 r q) 1 ?_ S500000x3 (Host.divf (broadcastInDim S500000x3 ![] bcast_S_S500000x3 (constant S_ .f32 0x3F800000#32)) (addf (broadcastInDim S500000x3 ![] bcast_S_S500000x3 (constant S_ .f32 0x3F800000#32)) (Host.exp (Host.negf (extractStridedSlice S500000x3 ![0, 31] v slices_S500000x35_S500000x3_0_31))))) ?_ rfl 31 ?_ (ix2 r (⟨q.val - 31, by omega⟩ : Fin 3)) ?_ ?_) ?_
      · exact (by decide : (1 : ℕ) < 3)
      · rfl
      · rfl
      · intro b hb
        match b with
        | ⟨0, _⟩ => rfl
        | ⟨1, _⟩ => exact absurd rfl hb
      · show 31 + (q.val - 31) = q.val
        omega
      · rw [hostDivf_apply, addf_apply, rone]
        show Ideal.div 1 (1 + Ideal.exp (-(extractStridedSlice S500000x3 ![0, 31] v slices_S500000x35_S500000x3_0_31 (ix2 r (⟨q.val - 31, by omega⟩ : Fin 3))))) = _
        rw [extractStridedSlice_apply _ v slices_S500000x35_S500000x3_0_31 _ (ix2 r q) (fun a => match a with
          | ⟨0, _⟩ => by show r.val = 0 + r.val; omega
          | ⟨1, _⟩ => by show q.val = 31 + (q.val - 31); omega)]
        rfl
    · rw [if_neg h2]
      have hq : q.val = 34 := by have := q.isLt; omega
      refine Eq.trans (concatenate_apply_piece _ _ _ (ix2 r q) 2 ?_ S500000x1 (mulf (extractStridedSlice S500000x1 ![0, 34] v slices_S500000x35_S500000x1_0_34) (broadcastInDim S500000x1 ![] bcast_S_S500000x1 (constant S_ .f32 0x41200000#32))) ?_ rfl 34 ?_ (ix2 r (⟨0, Nat.one_pos⟩ : Fin 1)) ?_ ?_) ?_
      · exact (by decide : (2 : ℕ) < 3)
      · rfl
      · rfl
      · intro b hb
        match b with
        | ⟨0, _⟩ => rfl
        | ⟨1, _⟩ => exact absurd rfl hb
      · show 34 + 0 = q.val
        omega
      · rw [mulf_apply, broadcastInDim_scalar_apply, constant_apply,
          extractStridedSlice_apply _ v slices_S500000x35_S500000x1_0_34 _ (ix2 r q) (fun a => match a with
          | ⟨0, _⟩ => by show r.val = 0 + r.val; omega
          | ⟨1, _⟩ => by show q.val = 34 + 0; omega)]

set_option maxHeartbeats 2000000 in
/-- The last stretch leaves the head of what `main_v1070` holds. -/
theorem head_val (M : Valuation τ sig (Elt Ideal)) :
    after (opsHead (F := Ideal)) M (Proc.devRef .tc main_v1082) = headRef (M (Proc.devRef .tc main_v1070)) := by
  simp (disch := decide) only [after_cons, after_nil, nary3_result', nullary_result', unary_result', binary_result',
    nullary_result_ne', unary_result_ne', binary_result_ne']
  rfl

/-- **The last stretch at `(r, q)`**: the head of row `r` of `main_v1070`. -/
theorem head_at (M : Valuation τ sig (Elt Ideal)) (r : Fin 500000) (q : Fin 35) :
    (after (opsHead (F := Ideal)) M (Proc.devRef .tc main_v1082) : S500000x35.Idx → EReal) (ix2 r q)
      = Cert.Spec.head (fun q' => (M (Proc.devRef .tc main_v1070)) (ix2 r q')) q := by
  rw [head_val, headRef_at]

end Cert.ReferenceIdeal.Hand
end
-- ==== Proof.ReferenceIdeal.OutCore.lean ====
/- The result of the reference read at a row and a column. The three levels' outputs are added in order (the first
   sum is carried through the sampling of the second level, the second through the sampling of the third; the
   weights are arguments, which nothing writes), and the head is applied to the sum: that is `arrOut` of what the
   three concatenations hold. -/
import proofs.«138882_j46462956208560_1_alg».proof.Proof.ReferenceIdeal.Stages
import proofs.«138882_j46462956208560_1_alg».proof.Proof.ReferenceIdeal.FeatCore
import proofs.«138882_j46462956208560_1_alg».proof.Proof.ReferenceIdeal.Dense

noncomputable section

namespace Cert.ReferenceIdeal.Hand

open Cert.ReferenceIdeal Cert.ReferenceIdeal.Gen Cert.ReferenceIdeal.Chunks
open Idealize.ShloMosaic Idealize.ShloMosaic.TcCoe Idealize.SL.Sem Idealize.ShloMosaic.StableHlo Idealize.ShloMosaic.ValueIdx

/-- After the last piece the result buffer holds, at row `r` and column `q`, `arrOut` of the launch's weights and
    of the three feature arrays as they stand after each level's concatenation. -/
theorem out_at_stage (M : Valuation τ sig (Elt Ideal)) (r : Fin 500000) (q : Fin 35) :
    (W17 M (Proc.devRef .tc main_v1082) : S500000x35.Idx → EReal) (ix2 r q)
      = Cert.Spec.arrOut (lvl (M (Proc.devRef .tc main_arg4)) (M (Proc.devRef .tc main_arg5)) (M (Proc.devRef .tc main_arg6)) (M (Proc.devRef .tc main_arg7)) (M (Proc.devRef .tc main_arg8)) (M (Proc.devRef .tc main_arg9)))
          (lvl (M (Proc.devRef .tc main_arg13)) (M (Proc.devRef .tc main_arg14)) (M (Proc.devRef .tc main_arg15)) (M (Proc.devRef .tc main_arg16)) (M (Proc.devRef .tc main_arg17)) (M (Proc.devRef .tc main_arg18)))
          (lvl (M (Proc.devRef .tc main_arg22)) (M (Proc.devRef .tc main_arg23)) (M (Proc.devRef .tc main_arg24)) (M (Proc.devRef .tc main_arg25)) (M (Proc.devRef .tc main_arg26)) (M (Proc.devRef .tc main_arg27)))
          (fun r k => (W5 M (Proc.devRef .tc main_v350) : S500000x24.Idx → EReal) (ix2 r k))
          (fun r k => (W10 M (Proc.devRef .tc main_v703) : S500000x24.Idx → EReal) (ix2 r k))
          (fun r k => (W15 M (Proc.devRef .tc main_v1055) : S500000x24.Idx → EReal) (ix2 r k)) r q := by
  have e0 : ∀ j : Fin 35, (W6 M (Proc.devRef .tc main_v366) : S500000x35.Idx → EReal) (ix2 r j)
      = (lvl (M (Proc.devRef .tc main_arg4)) (M (Proc.devRef .tc main_arg5)) (M (Proc.devRef .tc main_arg6)) (M (Proc.devRef .tc main_arg7)) (M (Proc.devRef .tc main_arg8)) (M (Proc.devRef .tc main_arg9))).out (fun k => (W5 M (Proc.devRef .tc main_v350) : S500000x24.Idx → EReal) (ix2 r k)) j := by
    intro j
    have h := mlp0_at (W5 M) r j
    rw [carry_0_5 M main_arg4 (by decide), carry_0_5 M main_arg5 (by decide), carry_0_5 M main_arg6 (by decide), carry_0_5 M main_arg7 (by decide), carry_0_5 M main_arg8 (by decide), carry_0_5 M main_arg9 (by decide), W0_eq] at h
    exact h
  have e1 : ∀ j : Fin 35, (W11 M (Proc.devRef .tc main_v718) : S500000x35.Idx → EReal) (ix2 r j)
      = accOut ((W6 M (Proc.devRef .tc main_v366) : S500000x35.Idx → EReal) (ix2 r j)) (lvl (M (Proc.devRef .tc main_arg13)) (M (Proc.devRef .tc main_arg14)) (M (Proc.devRef .tc main_arg15)) (M (Proc.devRef .tc main_arg16)) (M (Proc.devRef .tc main_arg17)) (M (Proc.devRef .tc main_arg18)))
          (fun k => (W10 M (Proc.devRef .tc main_v703) : S500000x24.Idx → EReal) (ix2 r k)) j := by
    intro j
    have h := mlp1_at (W10 M) r j
    rw [carry_6_10 M main_v366 (by decide), carry_0_10 M main_arg13 (by decide), carry_0_10 M main_arg14 (by decide), carry_0_10 M main_arg15 (by decide), carry_0_10 M main_arg16 (by decide), carry_0_10 M main_arg17 (by decide), carry_0_10 M main_arg18 (by decide), W0_eq] at h
    exact h
  have e2 : ∀ j : Fin 35, (W16 M (Proc.devRef .tc main_v1070) : S500000x35.Idx → EReal) (ix2 r j)
      = accOut ((W11 M (Proc.devRef .tc main_v718) : S500000x35.Idx → EReal) (ix2 r j)) (lvl (M (Proc.devRef .tc main_arg22)) (M (Proc.devRef .tc main_arg23)) (M (Proc.devRef .tc main_arg24)) (M (Proc.devRef .tc main_arg25)) (M (Proc.devRef .tc main_arg26)) (M (Proc.devRef .tc main_arg27)))
          (fun k => (W15 M (Proc.devRef .tc main_v1055) : S500000x24.Idx → EReal) (ix2 r k)) j := by
    intro j
    have h := mlp2_at (W15 M) r j
    rw [carry_11_15 M main_v718 (by decide), carry_0_15 M main_arg22 (by decide), carry_0_15 M main_arg23 (by decide), carry_0_15 M main_arg24 (by decide), carry_0_15 M main_arg25 (by decide), carry_0_15 M main_arg26 (by decide), carry_0_15 M main_arg27 (by decide), W0_eq] at h
    exact h
  unfold Cert.Spec.arrOut
  rw [rowOut_eq]
  refine (head_at (W16 M) r q).trans ?_
  refine congrArg (fun a => Cert.Spec.head a q) (funext fun j => ?_)
  rw [e2, e1, e0]

end Cert.ReferenceIdeal.Hand

end
-- ==== Proof.ReferenceIdeal.HostChainPre.lean ====
/- The pieces of the reference's feature arrays that are not samplings: the scaling of the points' coordinates to
   [-1, 1] and their split into three coordinate vectors, and the concatenation of a level's three samplings. Each
   is stated as what the piece's operations leave from ANY contents of the buffers. -/
import proofs.«138882_j46462956208560_1_alg».proof.Proof.ReferenceIdeal.Ops
import Idealize.ShloMosaic.Lib.StableHlo.Run

noncomputable section

namespace Cert.ReferenceIdeal.Hand

open Cert.ReferenceIdeal Cert.ReferenceIdeal.Gen Cert.ReferenceIdeal.Chunks Idealize.ShloMosaic Idealize.ShloMosaic.TcCoe Idealize.SL.Sem Idealize.ShloMosaic.StableHlo

variable {F : FTy → Type} [FloatOps F]

/-! ## The coordinates: ((p + 2) / 4) · 2 − 1 in every component, then the three columns -/

/-- The first scaled coordinate of every point, with the fact that the scaling's operations leave it. -/
def nxS : { f : Vec F S500000x3 .f32 → Vec F S500000 .f32 //
    ∀ M : Valuation τ sig (Elt F), after opsPre M (Proc.devRef .tc main_v9) = f (M (Proc.devRef .tc main_arg0)) } :=
  ⟨_, fun M => by
    after_results
    generalize M (Proc.devRef .tc main_arg0) = x
    rfl⟩
/-- The first scaled coordinate of every point. -/
def nx (xyz : Vec F S500000x3 .f32) : Vec F S500000 .f32 := nxS.1 xyz
theorem nx_at (M : Valuation τ sig (Elt F)) :
    after opsPre M (Proc.devRef .tc main_v9) = nx (M (Proc.devRef .tc main_arg0)) := nxS.2 M

/-- The second scaled coordinate of every point, with the fact that the scaling's operations leave it. -/
def nyS : { f : Vec F S500000x3 .f32 → Vec F S500000 .f32 //
    ∀ M : Valuation τ sig (Elt F), after opsPre M (Proc.devRef .tc main_v11) = f (M (Proc.devRef .tc main_arg0)) } :=
  ⟨_, fun M => by
    after_results
    generalize M (Proc.devRef .tc main_arg0) = x
    rfl⟩
/-- The second scaled coordinate of every point. -/
def ny (xyz : Vec F S500000x3 .f32) : Vec F S500000 .f32 := nyS.1 xyz
theorem ny_at (M : Valuation τ sig (Elt F)) :
    after opsPre M (Proc.devRef .tc main_v11) = ny (M (Proc.devRef .tc main_arg0)) := nyS.2 M

/-- The third scaled coordinate of every point, with the fact that the scaling's operations leave it. -/
def nzS : { f : Vec F S500000x3 .f32 → Vec F S500000 .f32 //
    ∀ M : Valuation τ sig (Elt F), after opsPre M (Proc.devRef .tc main_v13) = f (M (Proc.devRef .tc main_arg0)) } :=
  ⟨_, fun M => by
    after_results
    generalize M (Proc.devRef .tc main_arg0) = x
    rfl⟩
/-- The third scaled coordinate of every point. -/
def nz (xyz : Vec F S500000x3 .f32) : Vec F S500000 .f32 := nzS.1 xyz
theorem nz_at (M : Valuation τ sig (Elt F)) :
    after opsPre M (Proc.devRef .tc main_v13) = nz (M (Proc.devRef .tc main_arg0)) := nzS.2 M

/-! ## The concatenation: a level's three samplings side by side, eight channels each -/

/-- Three [500000, 8] arrays side by side. -/
def cat (a b c : Vec F S500000x8 .f32) : Vec F S500000x24 .f32 :=
  concatenate S500000x24 1 [⟨S500000x8, a⟩, ⟨S500000x8, b⟩, ⟨S500000x8, c⟩] concatenates_S500000x8_S500000x8_S500000x8_S500000x24_d1
theorem cat0_at (M : Valuation τ sig (Elt F)) : after opsCat0 M (Proc.devRef .tc main_v350)
    = cat (M (Proc.devRef .tc main_v125)) (M (Proc.devRef .tc main_v237)) (M (Proc.devRef .tc main_v349)) := by
  simp only [after_cons, after_nil]; rw [nary_result]; rfl
theorem cat1_at (M : Valuation τ sig (Elt F)) : after opsCat1 M (Proc.devRef .tc main_v703)
    = cat (M (Proc.devRef .tc main_v478)) (M (Proc.devRef .tc main_v590)) (M (Proc.devRef .tc main_v702)) := by
  simp only [after_cons, after_nil]; rw [nary_result]; rfl
theorem cat2_at (M : Valuation τ sig (Elt F)) : after opsCat2 M (Proc.devRef .tc main_v1055)
    = cat (M (Proc.devRef .tc main_v830)) (M (Proc.devRef .tc main_v942)) (M (Proc.devRef .tc main_v1054)) := by
  simp only [after_cons, after_nil]; rw [nary_result]; rfl

end Cert.ReferenceIdeal.Hand

end
-- ==== Proof.ReferenceIdeal.HostChain.B0a.lean ====
/- Level 0, plane xy: the bilinear sampling of the plane at the points' two coordinates, as a function of the two
   coordinate vectors and the plane. -/
import proofs.«138882_j46462956208560_1_alg».proof.Proof.ReferenceIdeal.Ops
import proofs.«138882_j46462956208560_1_alg».proof.Proof.LibNary

noncomputable section

namespace Cert.ReferenceIdeal.Hand

open Cert.ReferenceIdeal Cert.ReferenceIdeal.Gen Cert.ReferenceIdeal.Chunks Idealize.ShloMosaic Idealize.ShloMosaic.TcCoe Idealize.SL.Sem Idealize.ShloMosaic.StableHlo

variable {F : FTy → Type} [FloatOps F]

set_option maxRecDepth 8192 in
set_option maxHeartbeats 4000000 in
/-- The sampling: from the first coordinate vector, the second, and the plane, the eight channels at every point. -/
def sampB0a : { f : Vec F S500000 .f32 → Vec F S500000 .f32 → Vec F S8x128x128 .f32 → Vec F S500000x8 .f32 //
    ∀ M : Valuation τ sig (Elt F), after opsB0a M (Proc.devRef .tc main_v125)
      = f (M (Proc.devRef .tc main_v9)) (M (Proc.devRef .tc main_v11)) (M (Proc.devRef .tc main_arg1)) } :=
  ⟨_, fun M => by
    after_results_cat
    try simp only [TRef.ofBuf, TRef.toBuf, cast_eq]
    generalize M (Proc.devRef .tc main_v9) = x
    generalize M (Proc.devRef .tc main_v11) = y
    generalize M (Proc.devRef .tc main_arg1) = z
    rfl⟩

/-- What the sampling's last operation leaves, from any contents. -/
theorem sampB0a_at (M : Valuation τ sig (Elt F)) : after opsB0a M (Proc.devRef .tc main_v125)
    = sampB0a.1 (M (Proc.devRef .tc main_v9)) (M (Proc.devRef .tc main_v11)) (M (Proc.devRef .tc main_arg1)) := sampB0a.2 M

end Cert.ReferenceIdeal.Hand

end
-- ==== Proof.ReferenceIdeal.HostChain.B0b.lean ====
/- Level 0, plane xz: the bilinear sampling of the plane at the points' two coordinates, as a function of the two
   coordinate vectors and the plane. -/
import proofs.«138882_j46462956208560_1_alg».proof.Proof.ReferenceIdeal.Ops
import proofs.«138882_j46462956208560_1_alg».proof.Proof.LibNary

noncomputable section

namespace Cert.ReferenceIdeal.Hand

open Cert.ReferenceIdeal Cert.ReferenceIdeal.Gen Cert.ReferenceIdeal.Chunks Idealize.ShloMosaic Idealize.ShloMosaic.TcCoe Idealize.SL.Sem Idealize.ShloMosaic.StableHlo

variable {F : FTy → Type} [FloatOps F]

set_option maxRecDepth 8192 in
set_option maxHeartbeats 4000000 in
/-- The sampling: from the first coordinate vector, the second, and the plane, the eight channels at every point. -/
def sampB0b : { f : Vec F S500000 .f32 → Vec F S500000 .f32 → Vec F S8x128x128 .f32 → Vec F S500000x8 .f32 //
    ∀ M : Valuation τ sig (Elt F), after opsB0b M (Proc.devRef .tc main_v237)
      = f (M (Proc.devRef .tc main_v9)) (M (Proc.devRef .tc main_v13)) (M (Proc.devRef .tc main_arg2)) } :=
  ⟨_, fun M => by
    after_results_cat
    try simp only [TRef.ofBuf, TRef.toBuf, cast_eq]
    generalize M (Proc.devRef .tc main_v9) = x
    generalize M (Proc.devRef .tc main_v13) = y
    generalize M (Proc.devRef .tc main_arg2) = z
    rfl⟩

/-- What the sampling's last operation leaves, from any contents. -/
theorem sampB0b_at (M : Valuation τ sig (Elt F)) : after opsB0b M (Proc.devRef .tc main_v237)
    = sampB0b.1 (M (Proc.devRef .tc main_v9)) (M (Proc.devRef .tc main_v13)) (M (Proc.devRef .tc main_arg2)) := sampB0b.2 M

end Cert.ReferenceIdeal.Hand

end
-- ==== Proof.ReferenceIdeal.HostChain.B0c.lean ====
/- Level 0, plane yz: the bilinear sampling of the plane at the points' two coordinates, as a function of the two
   coordinate vectors and the plane. -/
import proofs.«138882_j46462956208560_1_alg».proof.Proof.ReferenceIdeal.Ops
import proofs.«138882_j46462956208560_1_alg».proof.Proof.LibNary

noncomputable section

namespace Cert.ReferenceIdeal.Hand

open Cert.ReferenceIdeal Cert.ReferenceIdeal.Gen Cert.ReferenceIdeal.Chunks Idealize.ShloMosaic Idealize.ShloMosaic.TcCoe Idealize.SL.Sem Idealize.ShloMosaic.StableHlo

variable {F : FTy → Type} [FloatOps F]

set_option maxRecDepth 8192 in
set_option maxHeartbeats 4000000 in
/-- The sampling: from the first coordinate vector, the second, and the plane, the eight channels at every point. -/
def sampB0c : { f : Vec F S500000 .f32 → Vec F S500000 .f32 → Vec F S8x128x128 .f32 → Vec F S500000x8 .f32 //
    ∀ M : Valuation τ sig (Elt F), after opsB0c M (Proc.devRef .tc main_v349)
      = f (M (Proc.devRef .tc main_v11)) (M (Proc.devRef .tc main_v13)) (M (Proc.devRef .tc main_arg3)) } :=
  ⟨_, fun M => by
    after_results_cat
    try simp only [TRef.ofBuf, TRef.toBuf, cast_eq]
    generalize M (Proc.devRef .tc main_v11) = x
    generalize M (Proc.devRef .tc main_v13) = y
    generalize M (Proc.devRef .tc main_arg3) = z
    rfl⟩

/-- What the sampling's last operation leaves, from any contents. -/
theorem sampB0c_at (M : Valuation τ sig (Elt F)) : after opsB0c M (Proc.devRef .tc main_v349)
    = sampB0c.1 (M (Proc.devRef .tc main_v11)) (M (Proc.devRef .tc main_v13)) (M (Proc.devRef .tc main_arg3)) := sampB0c.2 M

end Cert.ReferenceIdeal.Hand

end
-- ==== Proof.ReferenceIdeal.HostChain.B1a.lean ====
/- Level 1, plane xy: the bilinear sampling of the plane at the points' two coordinates, as a function of the two
   coordinate vectors and the plane. -/
import proofs.«138882_j46462956208560_1_alg».proof.Proof.ReferenceIdeal.Ops
import proofs.«138882_j46462956208560_1_alg».proof.Proof.LibNary

noncomputable section

namespace Cert.ReferenceIdeal.Hand

open Cert.ReferenceIdeal Cert.ReferenceIdeal.Gen Cert.ReferenceIdeal.Chunks Idealize.ShloMosaic Idealize.ShloMosaic.TcCoe Idealize.SL.Sem Idealize.ShloMosaic.StableHlo

variable {F : FTy → Type} [FloatOps F]

set_option maxRecDepth 8192 in
set_option maxHeartbeats 4000000 in
/-- The sampling: from the first coordinate vector, the second, and the plane, the eight channels at every point. -/
def sampB1a : { f : Vec F S500000 .f32 → Vec F S500000 .f32 → Vec F S8x256x256 .f32 → Vec F S500000x8 .f32 //
    ∀ M : Valuation τ sig (Elt F), after opsB1a M (Proc.devRef .tc main_v478)
      = f (M (Proc.devRef .tc main_v9)) (M (Proc.devRef .tc main_v11)) (M (Proc.devRef .tc main_arg10)) } :=
  ⟨_, fun M => by
    after_results_cat
    try simp only [TRef.ofBuf, TRef.toBuf, cast_eq]
    generalize M (Proc.devRef .tc main_v9) = x
    generalize M (Proc.devRef .tc main_v11) = y
    generalize M (Proc.devRef .tc main_arg10) = z
    rfl⟩

/-- What the sampling's last operation leaves, from any contents. -/
theorem sampB1a_at (M : Valuation τ sig (Elt F)) : after opsB1a M (Proc.devRef .tc main_v478)
    = sampB1a.1 (M (Proc.devRef .tc main_v9)) (M (Proc.devRef .tc main_v11)) (M (Proc.devRef .tc main_arg10)) := sampB1a.2 M

end Cert.ReferenceIdeal.Hand

end
-- ==== Proof.ReferenceIdeal.HostChain.B1b.lean ====
/- Level 1, plane xz: the bilinear sampling of the plane at the points' two coordinates, as a function of the two
   coordinate vectors and the plane. -/
import proofs.«138882_j46462956208560_1_alg».proof.Proof.ReferenceIdeal.Ops
import proofs.«138882_j46462956208560_1_alg».proof.Proof.LibNary

noncomputable section

namespace Cert.ReferenceIdeal.Hand

open Cert.ReferenceIdeal Cert.ReferenceIdeal.Gen Cert.ReferenceIdeal.Chunks Idealize.ShloMosaic Idealize.ShloMosaic.TcCoe Idealize.SL.Sem Idealize.ShloMosaic.StableHlo

variable {F : FTy → Type} [FloatOps F]

set_option maxRecDepth 8192 in
set_option maxHeartbeats 4000000 in
/-- The sampling: from the first coordinate vector, the second, and the plane, the eight channels at every point. -/
def sampB1b : { f : Vec F S500000 .f32 → Vec F S500000 .f32 → Vec F S8x256x256 .f32 → Vec F S500000x8 .f32 //
    ∀ M : Valuation τ sig (Elt F), after opsB1b M (Proc.devRef .tc main_v590)
      = f (M (Proc.devRef .tc main_v9)) (M (Proc.devRef .tc main_v13)) (M (Proc.devRef .tc main_arg11)) } :=
  ⟨_, fun M => by
    after_results_cat
    try simp only [TRef.ofBuf, TRef.toBuf, cast_eq]
    generalize M (Proc.devRef .tc main_v9) = x
    generalize M (Proc.devRef .tc main_v13) = y
    generalize M (Proc.devRef .tc main_arg11) = z
    rfl⟩

/-- What the sampling's last operation leaves, from any contents. -/
theorem sampB1b_at (M : Valuation τ sig (Elt F)) : after opsB1b M (Proc.devRef .tc main_v590)
    = sampB1b.1 (M (Proc.devRef .tc main_v9)) (M (Proc.devRef .tc main_v13)) (M (Proc.devRef .tc main_arg11)) := sampB1b.2 M

end Cert.ReferenceIdeal.Hand

end
-- ==== Proof.ReferenceIdeal.HostChain.B1c.lean ====
/- Level 1, plane yz: the bilinear sampling of the plane at the points' two coordinates, as a function of the two
   coordinate vectors and the plane. -/
import proofs.«138882_j46462956208560_1_alg».proof.Proof.ReferenceIdeal.Ops
import proofs.«138882_j46462956208560_1_alg».proof.Proof.LibNary

noncomputable section

namespace Cert.ReferenceIdeal.Hand

open Cert.ReferenceIdeal Cert.ReferenceIdeal.Gen Cert.ReferenceIdeal.Chunks Idealize.ShloMosaic Idealize.ShloMosaic.TcCoe Idealize.SL.Sem Idealize.ShloMosaic.StableHlo

variable {F : FTy → Type} [FloatOps F]

set_option maxRecDepth 8192 in
set_option maxHeartbeats 4000000 in
/-- The sampling: from the first coordinate vector, the second, and the plane, the eight channels at every point. -/
def sampB1c : { f : Vec F S500000 .f32 → Vec F S500000 .f32 → Vec F S8x256x256 .f32 → Vec F S500000x8 .f32 //
    ∀ M : Valuation τ sig (Elt F), after opsB1c M (Proc.devRef .tc main_v702)
      = f (M (Proc.devRef .tc main_v11)) (M (Proc.devRef .tc main_v13)) (M (Proc.devRef .tc main_arg12)) } :=
  ⟨_, fun M => by
    after_results_cat
    try simp only [TRef.ofBuf, TRef.toBuf, cast_eq]
    generalize M (Proc.devRef .tc main_v11) = x
    generalize M (Proc.devRef .tc main_v13) = y
    generalize M (Proc.devRef .tc main_arg12) = z
    rfl⟩

/-- What the sampling's last operation leaves, from any contents. -/
theorem sampB1c_at (M : Valuation τ sig (Elt F)) : after opsB1c M (Proc.devRef .tc main_v702)
    = sampB1c.1 (M (Proc.devRef .tc main_v11)) (M (Proc.devRef .tc main_v13)) (M (Proc.devRef .tc main_arg12)) := sampB1c.2 M

end Cert.ReferenceIdeal.Hand

end
-- ==== Proof.ReferenceIdeal.HostChain.B2a.lean ====
/- Level 2, plane xy: the bilinear sampling of the plane at the points' two coordinates, as a function of the two
   coordinate vectors and the plane. -/
import proofs.«138882_j46462956208560_1_alg».proof.Proof.ReferenceIdeal.Ops
import proofs.«138882_j46462956208560_1_alg».proof.Proof.LibNary

noncomputable section

namespace Cert.ReferenceIdeal.Hand

open Cert.ReferenceIdeal Cert.ReferenceIdeal.Gen Cert.ReferenceIdeal.Chunks Idealize.ShloMosaic Idealize.ShloMosaic.TcCoe Idealize.SL.Sem Idealize.ShloMosaic.StableHlo

variable {F : FTy → Type} [FloatOps F]

set_option maxRecDepth 8192 in
set_option maxHeartbeats 4000000 in
/-- The sampling: from the first coordinate vector, the second, and the plane, the eight channels at every point. -/
def sampB2a : { f : Vec F S500000 .f32 → Vec F S500000 .f32 → Vec F S8x512x512 .f32 → Vec F S500000x8 .f32 //
    ∀ M : Valuation τ sig (Elt F), after opsB2a M (Proc.devRef .tc main_v830)
      = f (M (Proc.devRef .tc main_v9)) (M (Proc.devRef .tc main_v11)) (M (Proc.devRef .tc main_arg19)) } :=
  ⟨_, fun M => by
    after_results_cat
    try simp only [TRef.ofBuf, TRef.toBuf, cast_eq]
    generalize M (Proc.devRef .tc main_v9) = x
    generalize M (Proc.devRef .tc main_v11) = y
    generalize M (Proc.devRef .tc main_arg19) = z
    rfl⟩

/-- What the sampling's last operation leaves, from any contents. -/
theorem sampB2a_at (M : Valuation τ sig (Elt F)) : after opsB2a M (Proc.devRef .tc main_v830)
    = sampB2a.1 (M (Proc.devRef .tc main_v9)) (M (Proc.devRef .tc main_v11)) (M (Proc.devRef .tc main_arg19)) := sampB2a.2 M

end Cert.ReferenceIdeal.Hand

end
-- ==== Proof.ReferenceIdeal.HostChain.B2b.lean ====
/- Level 2, plane xz: the bilinear sampling of the plane at the points' two coordinates, as a function of the two
   coordinate vectors and the plane. -/
import proofs.«138882_j46462956208560_1_alg».proof.Proof.ReferenceIdeal.Ops
import proofs.«138882_j46462956208560_1_alg».proof.Proof.LibNary

noncomputable section

namespace Cert.ReferenceIdeal.Hand

open Cert.ReferenceIdeal Cert.ReferenceIdeal.Gen Cert.ReferenceIdeal.Chunks Idealize.ShloMosaic Idealize.ShloMosaic.TcCoe Idealize.SL.Sem Idealize.ShloMosaic.StableHlo

variable {F : FTy → Type} [FloatOps F]

set_option maxRecDepth 8192 in
set_option maxHeartbeats 4000000 in
/-- The sampling: from the first coordinate vector, the second, and the plane, the eight channels at every point. -/
def sampB2b : { f : Vec F S500000 .f32 → Vec F S500000 .f32 → Vec F S8x512x512 .f32 → Vec F S500000x8 .f32 //
    ∀ M : Valuation τ sig (Elt F), after opsB2b M (Proc.devRef .tc main_v942)
      = f (M (Proc.devRef .tc main_v9)) (M (Proc.devRef .tc main_v13)) (M (Proc.devRef .tc main_arg20)) } :=
  ⟨_, fun M => by
    after_results_cat
    try simp only [TRef.ofBuf, TRef.toBuf, cast_eq]
    generalize M (Proc.devRef .tc main_v9) = x
    generalize M (Proc.devRef .tc main_v13) = y
    generalize M (Proc.devRef .tc main_arg20) = z
    rfl⟩

/-- What the sampling's last operation leaves, from any contents. -/
theorem sampB2b_at (M : Valuation τ sig (Elt F)) : after opsB2b M (Proc.devRef .tc main_v942)
    = sampB2b.1 (M (Proc.devRef .tc main_v9)) (M (Proc.devRef .tc main_v13)) (M (Proc.devRef .tc main_arg20)) := sampB2b.2 M

end Cert.ReferenceIdeal.Hand

end
-- ==== Proof.ReferenceIdeal.HostChain.B2c.lean ====
/- Level 2, plane yz: the bilinear sampling of the plane at the points' two coordinates, as a function of the two
   coordinate vectors and the plane. -/
import proofs.«138882_j46462956208560_1_alg».proof.Proof.ReferenceIdeal.Ops
import proofs.«138882_j46462956208560_1_alg».proof.Proof.LibNary

noncomputable section

namespace Cert.ReferenceIdeal.Hand

open Cert.ReferenceIdeal Cert.ReferenceIdeal.Gen Cert.ReferenceIdeal.Chunks Idealize.ShloMosaic Idealize.ShloMosaic.TcCoe Idealize.SL.Sem Idealize.ShloMosaic.StableHlo

variable {F : FTy → Type} [FloatOps F]

set_option maxRecDepth 8192 in
set_option maxHeartbeats 4000000 in
/-- The sampling: from the first coordinate vector, the second, and the plane, the eight channels at every point. -/
def sampB2c : { f : Vec F S500000 .f32 → Vec F S500000 .f32 → Vec F S8x512x512 .f32 → Vec F S500000x8 .f32 //
    ∀ M : Valuation τ sig (Elt F), after opsB2c M (Proc.devRef .tc main_v1054)
      = f (M (Proc.devRef .tc main_v11)) (M (Proc.devRef .tc main_v13)) (M (Proc.devRef .tc main_arg21)) } :=
  ⟨_, fun M => by
    after_results_cat
    try simp only [TRef.ofBuf, TRef.toBuf, cast_eq]
    generalize M (Proc.devRef .tc main_v11) = x
    generalize M (Proc.devRef .tc main_v13) = y
    generalize M (Proc.devRef .tc main_arg21) = z
    rfl⟩

/-- What the sampling's last operation leaves, from any contents. -/
theorem sampB2c_at (M : Valuation τ sig (Elt F)) : after opsB2c M (Proc.devRef .tc main_v1054)
    = sampB2c.1 (M (Proc.devRef .tc main_v11)) (M (Proc.devRef .tc main_v13)) (M (Proc.devRef .tc main_arg21)) := sampB2c.2 M

end Cert.ReferenceIdeal.Hand

end
-- ==== Proof.ReferenceIdeal.HostChain.lean ====
/- The reference's three feature arrays as functions of the points and a level's three planes: the three scaled
   coordinate vectors, the level's three plane samplings at their pairs, side by side. -/
import proofs.«138882_j46462956208560_1_alg».proof.Proof.ReferenceIdeal.HostChainPre
import proofs.«138882_j46462956208560_1_alg».proof.Proof.ReferenceIdeal.HostChain.B0a
import proofs.«138882_j46462956208560_1_alg».proof.Proof.ReferenceIdeal.HostChain.B0b
import proofs.«138882_j46462956208560_1_alg».proof.Proof.ReferenceIdeal.HostChain.B0c
import proofs.«138882_j46462956208560_1_alg».proof.Proof.ReferenceIdeal.HostChain.B1a
import proofs.«138882_j46462956208560_1_alg».proof.Proof.ReferenceIdeal.HostChain.B1b
import proofs.«138882_j46462956208560_1_alg».proof.Proof.ReferenceIdeal.HostChain.B1c
import proofs.«138882_j46462956208560_1_alg».proof.Proof.ReferenceIdeal.HostChain.B2a
import proofs.«138882_j46462956208560_1_alg».proof.Proof.ReferenceIdeal.HostChain.B2b
import proofs.«138882_j46462956208560_1_alg».proof.Proof.ReferenceIdeal.HostChain.B2c

noncomputable section

namespace Cert.ReferenceIdeal.Hand

open Cert.ReferenceIdeal Cert.ReferenceIdeal.Gen Cert.ReferenceIdeal.Chunks Idealize.ShloMosaic Idealize.ShloMosaic.TcCoe Idealize.SL.Sem Idealize.ShloMosaic.StableHlo

variable {F : FTy → Type} [FloatOps F]

/-! ## The samplings, by name -/

/-- Level 0, plane xy: the sampling at the coordinate vectors `u`, `v`. -/
def s0a (u v : Vec F S500000 .f32) (p : Vec F S8x128x128 .f32) : Vec F S500000x8 .f32 := sampB0a.1 u v p
theorem s0a_at (M : Valuation τ sig (Elt F)) : after opsB0a M (Proc.devRef .tc main_v125)
    = s0a (M (Proc.devRef .tc main_v9)) (M (Proc.devRef .tc main_v11)) (M (Proc.devRef .tc main_arg1)) := sampB0a.2 M

/-- Level 0, plane xz: the sampling at the coordinate vectors `u`, `v`. -/
def s0b (u v : Vec F S500000 .f32) (p : Vec F S8x128x128 .f32) : Vec F S500000x8 .f32 := sampB0b.1 u v p
theorem s0b_at (M : Valuation τ sig (Elt F)) : after opsB0b M (Proc.devRef .tc main_v237)
    = s0b (M (Proc.devRef .tc main_v9)) (M (Proc.devRef .tc main_v13)) (M (Proc.devRef .tc main_arg2)) := sampB0b.2 M

/-- Level 0, plane yz: the sampling at the coordinate vectors `u`, `v`. -/
def s0c (u v : Vec F S500000 .f32) (p : Vec F S8x128x128 .f32) : Vec F S500000x8 .f32 := sampB0c.1 u v p
theorem s0c_at (M : Valuation τ sig (Elt F)) : after opsB0c M (Proc.devRef .tc main_v349)
    = s0c (M (Proc.devRef .tc main_v11)) (M (Proc.devRef .tc main_v13)) (M (Proc.devRef .tc main_arg3)) := sampB0c.2 M

/-- Level 1, plane xy: the sampling at the coordinate vectors `u`, `v`. -/
def s1a (u v : Vec F S500000 .f32) (p : Vec F S8x256x256 .f32) : Vec F S500000x8 .f32 := sampB1a.1 u v p
theorem s1a_at (M : Valuation τ sig (Elt F)) : after opsB1a M (Proc.devRef .tc main_v478)
    = s1a (M (Proc.devRef .tc main_v9)) (M (Proc.devRef .tc main_v11)) (M (Proc.devRef .tc main_arg10)) := sampB1a.2 M

/-- Level 1, plane xz: the sampling at the coordinate vectors `u`, `v`. -/
def s1b (u v : Vec F S500000 .f32) (p : Vec F S8x256x256 .f32) : Vec F S500000x8 .f32 := sampB1b.1 u v p
theorem s1b_at (M : Valuation τ sig (Elt F)) : after opsB1b M (Proc.devRef .tc main_v590)
    = s1b (M (Proc.devRef .tc main_v9)) (M (Proc.devRef .tc main_v13)) (M (Proc.devRef .tc main_arg11)) := sampB1b.2 M

/-- Level 1, plane yz: the sampling at the coordinate vectors `u`, `v`. -/
def s1c (u v : Vec F S500000 .f32) (p : Vec F S8x256x256 .f32) : Vec F S500000x8 .f32 := sampB1c.1 u v p
theorem s1c_at (M : Valuation τ sig (Elt F)) : after opsB1c M (Proc.devRef .tc main_v702)
    = s1c (M (Proc.devRef .tc main_v11)) (M (Proc.devRef .tc main_v13)) (M (Proc.devRef .tc main_arg12)) := sampB1c.2 M

/-- Level 2, plane xy: the sampling at the coordinate vectors `u`, `v`. -/
def s2a (u v : Vec F S500000 .f32) (p : Vec F S8x512x512 .f32) : Vec F S500000x8 .f32 := sampB2a.1 u v p
theorem s2a_at (M : Valuation τ sig (Elt F)) : after opsB2a M (Proc.devRef .tc main_v830)
    = s2a (M (Proc.devRef .tc main_v9)) (M (Proc.devRef .tc main_v11)) (M (Proc.devRef .tc main_arg19)) := sampB2a.2 M

/-- Level 2, plane xz: the sampling at the coordinate vectors `u`, `v`. -/
def s2b (u v : Vec F S500000 .f32) (p : Vec F S8x512x512 .f32) : Vec F S500000x8 .f32 := sampB2b.1 u v p
theorem s2b_at (M : Valuation τ sig (Elt F)) : after opsB2b M (Proc.devRef .tc main_v942)
    = s2b (M (Proc.devRef .tc main_v9)) (M (Proc.devRef .tc main_v13)) (M (Proc.devRef .tc main_arg20)) := sampB2b.2 M

/-- Level 2, plane yz: the sampling at the coordinate vectors `u`, `v`. -/
def s2c (u v : Vec F S500000 .f32) (p : Vec F S8x512x512 .f32) : Vec F S500000x8 .f32 := sampB2c.1 u v p
theorem s2c_at (M : Valuation τ sig (Elt F)) : after opsB2c M (Proc.devRef .tc main_v1054)
    = s2c (M (Proc.devRef .tc main_v11)) (M (Proc.devRef .tc main_v13)) (M (Proc.devRef .tc main_arg21)) := sampB2c.2 M

/-! ## The feature arrays -/

/-- Level 0's features of the points `xyz` from the level's planes `xy`, `xz`, `yz`. -/
def feat0 (xyz : Vec F S500000x3 .f32) (xy xz yz : Vec F S8x128x128 .f32) : Vec F S500000x24 .f32 :=
  cat (s0a (nx xyz) (ny xyz) xy) (s0b (nx xyz) (nz xyz) xz) (s0c (ny xyz) (nz xyz) yz)
theorem feat0_def (xyz : Vec F S500000x3 .f32) (xy xz yz : Vec F S8x128x128 .f32) :
    feat0 xyz xy xz yz = cat (s0a (nx xyz) (ny xyz) xy) (s0b (nx xyz) (nz xyz) xz) (s0c (ny xyz) (nz xyz) yz) := rfl

/-- Level 1's features of the points `xyz` from the level's planes `xy`, `xz`, `yz`. -/
def feat1 (xyz : Vec F S500000x3 .f32) (xy xz yz : Vec F S8x256x256 .f32) : Vec F S500000x24 .f32 :=
  cat (s1a (nx xyz) (ny xyz) xy) (s1b (nx xyz) (nz xyz) xz) (s1c (ny xyz) (nz xyz) yz)
theorem feat1_def (xyz : Vec F S500000x3 .f32) (xy xz yz : Vec F S8x256x256 .f32) :
    feat1 xyz xy xz yz = cat (s1a (nx xyz) (ny xyz) xy) (s1b (nx xyz) (nz xyz) xz) (s1c (ny xyz) (nz xyz) yz) := rfl

/-- Level 2's features of the points `xyz` from the level's planes `xy`, `xz`, `yz`. -/
def feat2 (xyz : Vec F S500000x3 .f32) (xy xz yz : Vec F S8x512x512 .f32) : Vec F S500000x24 .f32 :=
  cat (s2a (nx xyz) (ny xyz) xy) (s2b (nx xyz) (nz xyz) xz) (s2c (ny xyz) (nz xyz) yz)
theorem feat2_def (xyz : Vec F S500000x3 .f32) (xy xz yz : Vec F S8x512x512 .f32) :
    feat2 xyz xy xz yz = cat (s2a (nx xyz) (ny xyz) xy) (s2b (nx xyz) (nz xyz) xz) (s2c (ny xyz) (nz xyz) yz) := rfl

end Cert.ReferenceIdeal.Hand

end
-- ==== Proof.ReferenceIdeal.RefOut.lean ====
/- The reference's result at a row and a column: the line's fold is the last stage, whose result buffer holds `arrOut`
   of the launch's weights and of the three feature arrays. -/
import proofs.«138882_j46462956208560_1_alg».proof.Proof.ReferenceIdeal.Run
import proofs.«138882_j46462956208560_1_alg».proof.Proof.ReferenceIdeal.Stages
import proofs.«138882_j46462956208560_1_alg».proof.Proof.ReferenceIdeal.FeatCore
import proofs.«138882_j46462956208560_1_alg».proof.Proof.ReferenceIdeal.OutCore
import proofs.«138882_j46462956208560_1_alg».proof.Proof.ReferenceIdeal.HostChain

noncomputable section

namespace Cert.ReferenceIdeal.Hand

open Cert.ReferenceIdeal Cert.ReferenceIdeal.Gen Cert.ReferenceIdeal.Chunks
open Idealize.ShloMosaic Idealize.ShloMosaic.TcCoe Idealize.SL.Sem Idealize.ShloMosaic.StableHlo Idealize.ShloMosaic.ValueIdx

/-- If after each level's concatenation the level's feature array is `X0`, `X1`, `X2`, the reference's result at row
    `r` and column `q` is `arrOut` of the launch's weights and of these three arrays. -/
theorem refOut_at_of (m : (ℓ : Loc nD τ sig) → Buf (Elt Ideal) ℓ) (c : Dev nD) (X0 X1 X2 : S500000x24.Idx → EReal)
    (f0 : (W5 (launchContents m c) (Proc.devRef .tc main_v350) : S500000x24.Idx → EReal) = X0)
    (f1 : (W10 (launchContents m c) (Proc.devRef .tc main_v703) : S500000x24.Idx → EReal) = X1)
    (f2 : (W15 (launchContents m c) (Proc.devRef .tc main_v1055) : S500000x24.Idx → EReal) = X2)
    (r : Fin 500000) (q : Fin 35) :
    (refOut (F := Ideal) m c : S500000x35.Idx → EReal) (ix2 r q)
      = Cert.Spec.arrOut (lvl (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
          (lvl (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)))
          (lvl (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)))
          (fun r k => X0 (ix2 r k)) (fun r k => X1 (ix2 r k)) (fun r k => X2 (ix2 r k)) r q := by
  have h := out_at_stage (launchContents m c) r q
  rw [f0, f1, f2, ← after_line] at h
  exact h

section Features

variable {F : FTy → Type} [FloatOps F]

/-- After level 0's concatenation its buffer holds `feat0` of the launch's points and the level's planes. -/
theorem W5_feat0 (M : Valuation τ sig (Elt F)) :
    W5 M (Proc.devRef .tc main_v350) = feat0 (M (Proc.devRef .tc main_arg0)) (M (Proc.devRef .tc main_arg1)) (M (Proc.devRef .tc main_arg2)) (M (Proc.devRef .tc main_arg3)) :=
  feat0_of_chunks M nx ny nz s0a s0b s0c cat nx_at ny_at nz_at s0a_at s0b_at s0c_at cat0_at

/-- After level 1's concatenation its buffer holds `feat1` of the launch's points and the level's planes. -/
theorem W10_feat1 (M : Valuation τ sig (Elt F)) :
    W10 M (Proc.devRef .tc main_v703) = feat1 (M (Proc.devRef .tc main_arg0)) (M (Proc.devRef .tc main_arg10)) (M (Proc.devRef .tc main_arg11)) (M (Proc.devRef .tc main_arg12)) :=
  feat1_of_chunks M nx ny nz s1a s1b s1c cat nx_at ny_at nz_at s1a_at s1b_at s1c_at cat1_at

/-- After level 2's concatenation its buffer holds `feat2` of the launch's points and the level's planes. -/
theorem W15_feat2 (M : Valuation τ sig (Elt F)) :
    W15 M (Proc.devRef .tc main_v1055) = feat2 (M (Proc.devRef .tc main_arg0)) (M (Proc.devRef .tc main_arg19)) (M (Proc.devRef .tc main_arg20)) (M (Proc.devRef .tc main_arg21)) :=
  feat2_of_chunks M nx ny nz s2a s2b s2c cat nx_at ny_at nz_at s2a_at s2b_at s2c_at cat2_at

end Features

/-- The reference's result at row `r` and column `q`: `arrOut` of the launch's weights and of the three feature
    arrays of the launch's points and planes. -/
theorem refOut_at (m : (ℓ : Loc nD τ sig) → Buf (Elt Ideal) ℓ) (c : Dev nD) (r : Fin 500000) (q : Fin 35) :
    (refOut (F := Ideal) m c : S500000x35.Idx → EReal) (ix2 r q)
      = Cert.Spec.arrOut (lvl (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
          (lvl (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)))
          (lvl (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)))
          (fun r k => feat0 (m ((c.tc : Thread nD τ).loc main_arg0)) (m ((c.tc : Thread nD τ).loc main_arg1)) (m ((c.tc : Thread nD τ).loc main_arg2)) (m ((c.tc : Thread nD τ).loc main_arg3)) (ix2 r k))
          (fun r k => feat1 (m ((c.tc : Thread nD τ).loc main_arg0)) (m ((c.tc : Thread nD τ).loc main_arg10)) (m ((c.tc : Thread nD τ).loc main_arg11)) (m ((c.tc : Thread nD τ).loc main_arg12)) (ix2 r k))
          (fun r k => feat2 (m ((c.tc : Thread nD τ).loc main_arg0)) (m ((c.tc : Thread nD τ).loc main_arg19)) (m ((c.tc : Thread nD τ).loc main_arg20)) (m ((c.tc : Thread nD τ).loc main_arg21)) (ix2 r k)) r q :=
  refOut_at_of m c
    (feat0 (m ((c.tc : Thread nD τ).loc main_arg0)) (m ((c.tc : Thread nD τ).loc main_arg1)) (m ((c.tc : Thread nD τ).loc main_arg2)) (m ((c.tc : Thread nD τ).loc main_arg3)))
    (feat1 (m ((c.tc : Thread nD τ).loc main_arg0)) (m ((c.tc : Thread nD τ).loc main_arg10)) (m ((c.tc : Thread nD τ).loc main_arg11)) (m ((c.tc : Thread nD τ).loc main_arg12)))
    (feat2 (m ((c.tc : Thread nD τ).loc main_arg0)) (m ((c.tc : Thread nD τ).loc main_arg19)) (m ((c.tc : Thread nD τ).loc main_arg20)) (m ((c.tc : Thread nD τ).loc main_arg21)))
    (W5_feat0 (launchContents m c)) (W10_feat1 (launchContents m c)) (W15_feat2 (launchContents m c)) r q

end Cert.ReferenceIdeal.Hand

end
-- ==== Proof.FeatEq.lean ====
/- The kernel's program and the reference compute their feature arrays by the same operations. Piece by piece — the
   three scaled coordinate vectors, the nine plane samplings, the concatenation — the two programs' functions are the
   same function, hence so are the compositions. Stated for any float family: nothing is evaluated. -/
import proofs.«138882_j46462956208560_1_alg».proof.Proof.KernelIdeal.HostChain
import proofs.«138882_j46462956208560_1_alg».proof.Proof.ReferenceIdeal.HostChain

noncomputable section

namespace Cert.FeatEq

open Idealize.ShloMosaic

variable {F : FTy → Type} [FloatOps F]

/-! ## The pieces -/

theorem nx_eq : @Cert.KernelIdeal.Hand.nx F _ = @Cert.ReferenceIdeal.Hand.nx F _ := rfl
theorem ny_eq : @Cert.KernelIdeal.Hand.ny F _ = @Cert.ReferenceIdeal.Hand.ny F _ := rfl
theorem nz_eq : @Cert.KernelIdeal.Hand.nz F _ = @Cert.ReferenceIdeal.Hand.nz F _ := rfl
theorem cat_eq : @Cert.KernelIdeal.Hand.cat F = @Cert.ReferenceIdeal.Hand.cat F := rfl

set_option maxRecDepth 8192 in
theorem s0a_eq : @Cert.KernelIdeal.Hand.s0a F _ = @Cert.ReferenceIdeal.Hand.s0a F _ := rfl
set_option maxRecDepth 8192 in
theorem s0b_eq : @Cert.KernelIdeal.Hand.s0b F _ = @Cert.ReferenceIdeal.Hand.s0b F _ := rfl
set_option maxRecDepth 8192 in
theorem s0c_eq : @Cert.KernelIdeal.Hand.s0c F _ = @Cert.ReferenceIdeal.Hand.s0c F _ := rfl
set_option maxRecDepth 8192 in
theorem s1a_eq : @Cert.KernelIdeal.Hand.s1a F _ = @Cert.ReferenceIdeal.Hand.s1a F _ := rfl
set_option maxRecDepth 8192 in
theorem s1b_eq : @Cert.KernelIdeal.Hand.s1b F _ = @Cert.ReferenceIdeal.Hand.s1b F _ := rfl
set_option maxRecDepth 8192 in
theorem s1c_eq : @Cert.KernelIdeal.Hand.s1c F _ = @Cert.ReferenceIdeal.Hand.s1c F _ := rfl
set_option maxRecDepth 8192 in
theorem s2a_eq : @Cert.KernelIdeal.Hand.s2a F _ = @Cert.ReferenceIdeal.Hand.s2a F _ := rfl
set_option maxRecDepth 8192 in
theorem s2b_eq : @Cert.KernelIdeal.Hand.s2b F _ = @Cert.ReferenceIdeal.Hand.s2b F _ := rfl
set_option maxRecDepth 8192 in
theorem s2c_eq : @Cert.KernelIdeal.Hand.s2c F _ = @Cert.ReferenceIdeal.Hand.s2c F _ := rfl

/-! ## The feature arrays -/

theorem feat0_eq : @Cert.KernelIdeal.Hand.feat0 F _ = @Cert.ReferenceIdeal.Hand.feat0 F _ := by
  funext xyz xy xz yz
  simp only [Cert.KernelIdeal.Hand.feat0, Cert.ReferenceIdeal.Hand.feat0, nx_eq, ny_eq, nz_eq, cat_eq, s0a_eq, s0b_eq, s0c_eq]

theorem feat1_eq : @Cert.KernelIdeal.Hand.feat1 F _ = @Cert.ReferenceIdeal.Hand.feat1 F _ := by
  funext xyz xy xz yz
  simp only [Cert.KernelIdeal.Hand.feat1, Cert.ReferenceIdeal.Hand.feat1, nx_eq, ny_eq, nz_eq, cat_eq, s1a_eq, s1b_eq, s1c_eq]

theorem feat2_eq : @Cert.KernelIdeal.Hand.feat2 F _ = @Cert.ReferenceIdeal.Hand.feat2 F _ := by
  funext xyz xy xz yz
  simp only [Cert.KernelIdeal.Hand.feat2, Cert.ReferenceIdeal.Hand.feat2, nx_eq, ny_eq, nz_eq, cat_eq, s2a_eq, s2b_eq, s2c_eq]

end Cert.FeatEq

end
-- ==== Proof.Algebraic.lean ====
/- The algebraic claim, assembled: at the ideal values, from launch memories that agree on the twenty-eight arguments, the
   kernel's program and the reference both run to the end, leave their arguments as launched, and end with the same result
   array. Row by row both results are one function, `Cert.Spec.arrOut`, of the three levels' weights and of the three
   feature arrays; the weights are arguments, which no host operation writes, and each level's feature array is the same
   function of the point array and the level's three planes in both programs. -/
import proofs.«138882_j46462956208560_1_alg».proof.Defs
import proofs.«138882_j46462956208560_1_alg».proof.Proof.Gen.KernelIdeal
import proofs.«138882_j46462956208560_1_alg».proof.Proof.Gen.ReferenceIdeal
import proofs.«138882_j46462956208560_1_alg».proof.Proof.Gen.Pre_finite_inputs
import proofs.«138882_j46462956208560_1_alg».proof.Proof.KernelIdeal.Value
import proofs.«138882_j46462956208560_1_alg».proof.Proof.KernelIdeal.HostChain
import proofs.«138882_j46462956208560_1_alg».proof.Proof.ReferenceIdeal.RefOut
import proofs.«138882_j46462956208560_1_alg».proof.Proof.FeatEq

noncomputable section

namespace Cert.Proof

open Idealize.ShloMosaic Idealize.ShloMosaic.TcCoe Idealize.SL.Sem Idealize.ShloMosaic.ValueIdx

/-- **The two results agree.** From launch memories that agree on the 28 arguments, the reference's result array is the
    array the kernel's output ends holding: at row `r`, column `q` both are `Cert.Spec.arrOut` of the same three
    levels of weights and the same three feature arrays — the weights are the arguments, which no host operation writes,
    and each feature array is one function of the point array and a level's three planes in both programs. -/
theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27))
    (c : Dev Cert.KernelIdeal.nD) :
    Cert.ReferenceIdeal.Hand.refOut (F := Ideal) m' c = (Cert.KernelIdeal.Hand.dats (F := Ideal) m 0 c).arrAt 21 Cert.KernelIdeal.cfg0.N := by
  refine (funext fun i => ?_ : (Cert.ReferenceIdeal.Hand.refOut (F := Ideal) m' c : (⟨2, ![500000, 35]⟩ : Shape).Idx → EReal)
    = (Cert.KernelIdeal.Hand.dats (F := Ideal) m 0 c).arrAt 21 Cert.KernelIdeal.cfg0.N)
  obtain ⟨r, q, rfl⟩ : ∃ (r : Fin 500000) (q : Fin 35), i = ix2 r q := ⟨i 0, i 1, eq_ix2 i⟩
  obtain ⟨h0, h1, h2, h3, h4, h5, h6, h7, h8, h9, h10, h11, h12, h13, h14, h15, h16, h17, h18, h19, h20, h21, h22, h23, h24, h25, h26, h27⟩ := hagree c
  refine (Cert.ReferenceIdeal.Hand.refOut_at m' c r q).trans (Eq.trans ?_ (Cert.KernelIdeal.Hand.final_out m c r q).symm)
  rw [Cert.KernelIdeal.Hand.V_main_arg4 m c, Cert.KernelIdeal.Hand.V_main_arg5 m c, Cert.KernelIdeal.Hand.V_main_arg6 m c, Cert.KernelIdeal.Hand.V_main_arg7 m c, Cert.KernelIdeal.Hand.V_main_arg8 m c, Cert.KernelIdeal.Hand.V_main_arg9 m c, Cert.KernelIdeal.Hand.V_main_arg13 m c, Cert.KernelIdeal.Hand.V_main_arg14 m c, Cert.KernelIdeal.Hand.V_main_arg15 m c, Cert.KernelIdeal.Hand.V_main_arg16 m c, Cert.KernelIdeal.Hand.V_main_arg17 m c, Cert.KernelIdeal.Hand.V_main_arg18 m c, Cert.KernelIdeal.Hand.V_main_arg22 m c, Cert.KernelIdeal.Hand.V_main_arg23 m c, Cert.KernelIdeal.Hand.V_main_arg24 m c, Cert.KernelIdeal.Hand.V_main_arg25 m c, Cert.KernelIdeal.Hand.V_main_arg26 m c, Cert.KernelIdeal.Hand.V_main_arg27 m c,
    Cert.KernelIdeal.Hand.V_feat0 m c, Cert.KernelIdeal.Hand.V_feat1 m c, Cert.KernelIdeal.Hand.V_feat2 m c,
    Cert.FeatEq.feat0_eq, Cert.FeatEq.feat1_eq, Cert.FeatEq.feat2_eq,
    h0, h1, h2, h3, h4, h5, h6, h7, h8, h9, h10, h11, h12, h13, h14, h15, h16, h17, h18, h19, h20, h21, h22, h23, h24, h25, h26, h27]
  rfl

/-- At the ideal values, from memories agreeing on the arguments, both programs run, end with equal results and leave
    their arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' _ hagree
  refine ⟨fun c => (Cert.KernelIdeal.Hand.dats (F := Ideal) m 0 c).arrAt 21 Cert.KernelIdeal.cfg0.N, Cert.KernelIdeal.Hand.run_value m g, ?_⟩
  exact (θ_run Cert.ReferenceIdeal.defs _ _).mono (fun _ h c => ⟨(h c).1.trans (out_eq m m' hagree c), (h c).2⟩)
    (Cert.ReferenceIdeal.Hand.run_value (F := Ideal) m' g')

end Cert.Proof

end
-- ==== Proof.lean ====
/- The certificate of the tri-plane decoder: a Pallas kernel that runs the three levels' small dense networks on blocks of
   10000 points, against the plain reference that runs them on all 500000 points at once.
   Both programs first sample the three levels' feature planes bilinearly on the host — the same operations in the same
   order, so the two feature arrays of a level are one function of the points and the level's planes. The kernel then
   computes, row by row, each level's three dense layers (a product into a zero accumulator, a bias, `max · 0` after the
   first two), adds the levels, keeps columns 0..30, sends columns 31..33 through the logistic function and multiplies
   column 34 by ten. A row of the output depends only on the same row of the three feature arrays, so cutting the rows
   into blocks changes nothing; on the extended reals the rounding to bf16 before each product is the identity, a product
   into a zero accumulator is the host's contraction, and the kernel's logistic is the reference's `1 / (1 + exp (-x))`.
   No law that fails at the infinities (distributing, cancelling) is needed, so the finiteness of the inputs is never opened.
   The frames: each program's host operations write no argument array, and the one pipeline's body reads its windows and
   writes only its output window (`Frames.lean`); the idealization rewrote nothing, so `preserves` is `True`; the value
   claim is `Algebraic.lean`. -/
import proofs.«138882_j46462956208560_1_alg».proof.Defs
import proofs.«138882_j46462956208560_1_alg».proof.Proof.Gen.Kernel
import proofs.«138882_j46462956208560_1_alg».proof.Proof.Gen.KernelIdeal
import proofs.«138882_j46462956208560_1_alg».proof.Proof.Gen.ReferenceIdeal
import proofs.«138882_j46462956208560_1_alg».proof.Proof.Gen.Pre_finite_inputs
import proofs.«138882_j46462956208560_1_alg».proof.Proof.Frames
import proofs.«138882_j46462956208560_1_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
